-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v102)) (v3 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v102) = v2 c
          ∧ r.2.mem ((c.tc : Thread Cert.KernelIdeal.nD Cert.KernelIdeal.τ).loc Cert.KernelIdeal.main_v147) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1600000 : Shape := ⟨1, ![1600000]⟩
abbrev S800000 : Shape := ⟨1, ![800000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S1600000 : S_.BroadcastsInDim S1600000 (![] : Fin 0 → Fin S1600000.rank)
  reducesTo_S1600000_S_d0 : S1600000.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S800000 32) (main_v29 : IVec S_ 1) (main_v31 : IVec S800000 1) (main_v32 : IVec S800000 32) : IVec S_ 1 :=
  let main_v33 : IVec S800000 1 := cmpi .slt main_arg7 main_v32
  let main_v34 : IVec S800000 1 := andi main_v31 main_v33
  let main_c_13 : IVec S_ 1 := constantI S_ 1 1#1
  let main_v35 : IVec S_ 1 := (fun x v => Host.reduce IntOp.andi x v reducesTo_S800000_S_d0 h_S_) main_v34 main_c_13
  let main_v36 : IVec S_ 1 := andi main_v29 main_v35
  main_v36

def fn_part1 {F : FTy → Type} [FloatOps F] (main_arg3 : IVec S1600000 32) (main_arg5 : IVec S1600000 32) (main_arg7 : IVec S800000 32) (main_v15 : IVec S_ 1) (main_c_5 : IVec S_ 32) : IVec S_ 1 :=
  let main_v16 : IVec S1600000 32 := broadcastInDim S1600000 ![] bcast_S_S1600000 main_c_5
  let main_v17 : IVec S1600000 1 := cmpi .sge main_arg3 main_v16
  let main_c_6 : IVec S_ 32 := constantI S_ 32 50000#32
  let main_v18 : IVec S1600000 32 := broadcastInDim S1600000 ![] bcast_S_S1600000 main_c_6
  let main_v19 : IVec S1600000 1 := cmpi .slt main_arg3 main_v18
  let main_v20 : IVec S1600000 1 := andi main_v17 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v15 main_v21
  let main_c_8 : IVec S_ 32 := constantI S_ 32 0#32
  let main_v23 : IVec S1600000 32 := broadcastInDim S1600000 ![] bcast_S_S1600000 main_c_8
  let main_v24 : IVec S1600000 1 := cmpi .sge main_arg5 main_v23
  let main_c_9 : IVec S_ 32 := constantI S_ 32 100000#32
  let main_v25 : IVec S1600000 32 := broadcastInDim S1600000 ![] bcast_S_S1600000 main_c_9
  let main_v26 : IVec S1600000 1 := cmpi .slt main_arg5 main_v25
  let main_v27 : IVec S1600000 1 := andi main_v24 main_v26
  let main_c_10 : IVec S_ 1 := constantI S_ 1 1#1
  let main_v28 : IVec S_ 1 := (fun x v => Host.reduce IntOp.andi x v reducesTo_S1600000_S_d0 h_S_) main_v27 main_c_10
  let main_v29 : IVec S_ 1 := andi main_v22 main_v28
  let main_c_11 : IVec S_ 32 := constantI S_ 32 0#32
  let main_v30 : IVec S800000 32 := broadcastInDim S800000 ![] bcast_S_S800000 main_c_11
  let main_v31 : IVec S800000 1 := cmpi .sge main_arg7 main_v30
  let main_c_12 : IVec S_ 32 := constantI S_ 32 50000#32
  let main_v32 : IVec S800000 32 := broadcastInDim S800000 ![] bcast_S_S800000 main_c_12
  fn_part2 (F := F) main_arg7 main_v29 main_v31 main_v32

def fn {F : FTy → Type} [FloatOps F] (main_arg0 : FVec F S100000x64 .f32) (main_arg1 : FVec F S50000x64 .f32) (main_arg2 : IVec S1600000 32) (main_arg3 : IVec S1600000 32) (main_arg4 : IVec S1600000 32) (main_arg5 : IVec S1600000 32) (main_arg6 : IVec S800000 32) (main_arg7 : IVec S800000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_c_2 : IVec S_ 32 := constantI S_ 32 0#32
  let main_v9 : IVec S1600000 32 := broadcastInDim S1600000 ![] bcast_S_S1600000 main_c_2
  let main_v10 : IVec S1600000 1 := cmpi .sge main_arg2 main_v9
  let main_c_3 : IVec S_ 32 := constantI S_ 32 100000#32
  let main_v11 : IVec S1600000 32 := broadcastInDim S1600000 ![] bcast_S_S1600000 main_c_3
  let main_v12 : IVec S1600000 1 := cmpi .slt main_arg2 main_v11
  let main_v13 : IVec S1600000 1 := andi main_v10 main_v12
  let main_c_4 : IVec S_ 1 := constantI S_ 1 1#1
  let main_v14 : IVec S_ 1 := (fun x v => Host.reduce IntOp.andi x v reducesTo_S1600000_S_d0 h_S_) main_v13 main_c_4
  let main_v15 : IVec S_ 1 := andi main_v8 main_v14
  let main_c_5 : IVec S_ 32 := constantI S_ 32 0#32
  fn_part1 (F := F) main_arg3 main_arg5 main_arg7 main_v15 main_c_5
-- ==== Kernel.lean ====
abbrev S100000x64 : Shape := ⟨2, ![100000, 64]⟩
abbrev S50000x64 : Shape := ⟨2, ![50000, 64]⟩
abbrev S1600000 : Shape := ⟨1, ![1600000]⟩
abbrev S800000 : Shape := ⟨1, ![800000]⟩
abbrev S_ : Shape := ⟨0, ![]⟩
abbrev S3200000 : Shape := ⟨1, ![3200000]⟩
abbrev S150000 : Shape := ⟨1, ![150000]⟩
abbrev S3200000x1 : Shape := ⟨2, ![3200000, 1]⟩
abbrev S150000x64 : Shape := ⟨2, ![150000, 64]⟩
abbrev S3203072 : Shape := ⟨1, ![3203072]⟩
abbrev S150528x64 : Shape := ⟨2, ![150528, 64]⟩
abbrev S391x1x8192 : Shape := ⟨3, ![391, 1, 8192]⟩
abbrev S391x8192x64 : Shape := ⟨3, ![391, 8192, 64]⟩
abbrev S1x1x8192 : Shape := ⟨3, ![1, 1, 8192]⟩
abbrev S1024x64 : Shape := ⟨2, ![1024, 64]⟩
abbrev S1x8192x64 : Shape := ⟨3, ![1, 8192, 64]⟩
abbrev S8192x64 : Shape := ⟨2, ![8192, 64]⟩
abbrev S8192 : Shape := ⟨1, ![8192]⟩
abbrev S8192x1024 : Shape := ⟨2, ![8192, 1024]⟩
abbrev S8192x1 : Shape := ⟨2, ![8192, 1]⟩
abbrev S1024x8192 : Shape := ⟨2, ![1024, 8192]⟩
abbrev S1x8192 : Shape := ⟨2, ![1, 8192]⟩
abbrev S100000 : Shape := ⟨1, ![100000]⟩
abbrev S1600000x1 : Shape := ⟨2, ![1600000, 1]⟩
abbrev S1605632 : Shape := ⟨1, ![1605632]⟩
abbrev S100352x64 : Shape := ⟨2, ![100352, 64]⟩
abbrev S196x1x8192 : Shape := ⟨3, ![196, 1, 8192]⟩
abbrev S196x8192x64 : Shape := ⟨3, ![196, 8192, 64]⟩
abbrev S50000 : Shape := ⟨1, ![50000]⟩
abbrev S800000x1 : Shape := ⟨2, ![800000, 1]⟩
abbrev S802816 : Shape := ⟨1, ![802816]⟩
abbrev S50176x64 : Shape := ⟨2, ![50176, 64]⟩
abbrev S98x1x8192 : Shape := ⟨3, ![98, 1, 8192]⟩
abbrev S98x8192x64 : Shape := ⟨3, ![98, 8192, 64]⟩

abbrev nBuf : Space → Nat
  | .hbm => 239
  | .vmem => 96
  | .smem => 0
  | _ => 0

abbrev hbmTy0_0 (i : Nat) : BufTy := match i % 128 with
  | 0 => ⟨S100000x64, .f32⟩
  | 1 => ⟨S50000x64, .f32⟩
  | 2 => ⟨S1600000, .i32⟩
  | 3 => ⟨S1600000, .i32⟩
  | 4 => ⟨S1600000, .i32⟩
  | 5 => ⟨S1600000, .i32⟩
  | 6 => ⟨S800000, .i32⟩
  | 7 => ⟨S800000, .i32⟩
  | 8 => ⟨S_, .i32⟩
  | 9 => ⟨S1600000, .i32⟩
  | 10 => ⟨S1600000, .i32⟩
  | 11 => ⟨S3200000, .i32⟩
  | 12 => ⟨S_, .i32⟩
  | 13 => ⟨S1600000, .i32⟩
  | 14 => ⟨S1600000, .i32⟩
  | 15 => ⟨S3200000, .i32⟩
  | 16 => ⟨S_, .f32⟩
  | 17 => ⟨S3200000, .f32⟩
  | 18 => ⟨S_, .f32⟩
  | 19 => ⟨S150000, .f32⟩
  | 20 => ⟨S3200000x1, .i32⟩
  | 21 => ⟨S150000, .f32⟩
  | 22 => ⟨S_, .f32⟩
  | 23 => ⟨S150000, .f32⟩
  | 24 => ⟨S150000, .i1⟩
  | 25 => ⟨S_, .f32⟩
  | 26 => ⟨S150000, .f32⟩
  | 27 => ⟨S150000, .f32⟩
  | 28 => ⟨S150000, .f32⟩
  | 29 => ⟨S_, .f32⟩
  | 30 => ⟨S_, .f32⟩
  | 31 => ⟨S150000, .f32⟩
  | 32 => ⟨S150000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S150000x64, .f32⟩
  | 53 => ⟨S_, .i32⟩
  | 54 => ⟨S_, .i32⟩
  | 55 => ⟨S3203072, .i32⟩
  | 56 => ⟨S_, .i32⟩
  | 57 => ⟨S_, .i32⟩
  | 58 => ⟨S3203072, .i32⟩
  | 59 => ⟨S_, .i32⟩
  | 60 => ⟨S_, .f32⟩
  | 61 => ⟨S3203072, .f32⟩
  | 62 => ⟨S_, .i32⟩
  | 63 => ⟨S_, .f32⟩
  | 64 => ⟨S150528x64, .f32⟩
  | 65 => ⟨S391x1x8192, .i32⟩
  | 66 => ⟨S391x1x8192, .f32⟩
  | 67 => ⟨S391x1x8192, .i32⟩
  | 68 => ⟨S391x8192x64, .f32⟩
  | 69 => ⟨S150528x64, .f32⟩
  | 70 => ⟨S150000x64, .f32⟩
  | 71 => ⟨S150000x64, .f32⟩
  | 72 => ⟨S150000x64, .f32⟩
  | 73 => ⟨S_, .i32⟩
  | 74 => ⟨S_, .i32⟩
  | 75 => ⟨S3203072, .i32⟩
  | 76 => ⟨S_, .i32⟩
  | 77 => ⟨S_, .i32⟩
  | 78 => ⟨S3203072, .i32⟩
  | 79 => ⟨S_, .i32⟩
  | 80 => ⟨S_, .f32⟩
  | 81 => ⟨S3203072, .f32⟩
  | 82 => ⟨S_, .i32⟩
  | 83 => ⟨S_, .f32⟩
  | 84 => ⟨S150528x64, .f32⟩
  | 85 => ⟨S391x1x8192, .i32⟩
  | 86 => ⟨S391x1x8192, .f32⟩
  | 87 => ⟨S391x1x8192, .i32⟩
  | 88 => ⟨S391x8192x64, .f32⟩
  | 89 => ⟨S150528x64, .f32⟩
  | 90 => ⟨S150000x64, .f32⟩
  | 91 => ⟨S150000x64, .f32⟩
  | 92 => ⟨S150000x64, .f32⟩
  | 93 => ⟨S100000x64, .f32⟩
  | 94 => ⟨S50000x64, .f32⟩
  | 95 => ⟨S_, .f32⟩
  | 96 => ⟨S1600000, .f32⟩
  | 97 => ⟨S_, .f32⟩
  | 98 => ⟨S100000, .f32⟩
  | 99 => ⟨S1600000x1, .i32⟩
  | 100 => ⟨S100000, .f32⟩
  | 101 => ⟨S_, .f32⟩
  | 102 => ⟨S100000, .f32⟩
  | 103 => ⟨S100000, .i1⟩
  | 104 => ⟨S_, .f32⟩
  | 105 => ⟨S100000, .f32⟩
  | 106 => ⟨S100000, .f32⟩
  | 107 => ⟨S100000, .f32⟩
  | 108 => ⟨S_, .f32⟩
  | 109 => ⟨S_, .f32⟩
  | 110 => ⟨S100000, .f32⟩
  | 111 => ⟨S100000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x64, .f32⟩

abbrev hbmTy0_1 (i : Nat) : BufTy := match i % 128 with
  | 0 => ⟨S1600000x1, .i32⟩
  | 1 => ⟨S1600000, .f32⟩
  | 2 => ⟨S1600000, .f32⟩
  | 3 => ⟨S_, .i32⟩
  | 4 => ⟨S_, .i32⟩
  | 5 => ⟨S1605632, .i32⟩
  | 6 => ⟨S_, .i32⟩
  | 7 => ⟨S_, .i32⟩
  | 8 => ⟨S1605632, .i32⟩
  | 9 => ⟨S_, .i32⟩
  | 10 => ⟨S_, .f32⟩
  | 11 => ⟨S1605632, .f32⟩
  | 12 => ⟨S_, .i32⟩
  | 13 => ⟨S_, .f32⟩
  | 14 => ⟨S100352x64, .f32⟩
  | 15 => ⟨S196x1x8192, .i32⟩
  | 16 => ⟨S196x1x8192, .f32⟩
  | 17 => ⟨S196x1x8192, .i32⟩
  | 18 => ⟨S196x8192x64, .f32⟩
  | 19 => ⟨S100352x64, .f32⟩
  | 20 => ⟨S100000x64, .f32⟩
  | 21 => ⟨S_, .i32⟩
  | 22 => ⟨S_, .i32⟩
  | 23 => ⟨S1605632, .i32⟩
  | 24 => ⟨S_, .i32⟩
  | 25 => ⟨S_, .i32⟩
  | 26 => ⟨S1605632, .i32⟩
  | 27 => ⟨S_, .i32⟩
  | 28 => ⟨S_, .f32⟩
  | 29 => ⟨S1605632, .f32⟩
  | 30 => ⟨S_, .i32⟩
  | 31 => ⟨S_, .f32⟩
  | 32 => ⟨S100352x64, .f32⟩
  | 33 => ⟨S196x1x8192, .i32⟩
  | 34 => ⟨S196x1x8192, .f32⟩
  | 35 => ⟨S196x1x8192, .i32⟩
  | 36 => ⟨S196x8192x64, .f32⟩
  | 37 => ⟨S100352x64, .f32⟩
  | 38 => ⟨S100000x64, .f32⟩
  | 39 => ⟨S_, .f32⟩
  | 40 => ⟨S800000, .f32⟩
  | 41 => ⟨S_, .f32⟩
  | 42 => ⟨S50000, .f32⟩
  | 43 => ⟨S800000x1, .i32⟩
  | 44 => ⟨S50000, .f32⟩
  | 45 => ⟨S_, .f32⟩
  | 46 => ⟨S50000, .f32⟩
  | 47 => ⟨S50000, .i1⟩
  | 48 => ⟨S_, .f32⟩
  | 49 => ⟨S50000, .f32⟩
  | 50 => ⟨S50000, .f32⟩
  | 51 => ⟨S50000, .f32⟩
  | 52 => ⟨S_, .f32⟩
  | 53 => ⟨S_, .f32⟩
  | 54 => ⟨S50000, .f32⟩
  | 55 => ⟨S50000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .f32⟩
  | 74 => ⟨S800000, .f32⟩
  | 75 => ⟨S_, .i32⟩
  | 76 => ⟨S_, .i32⟩
  | 77 => ⟨S802816, .i32⟩
  | 78 => ⟨S_, .i32⟩
  | 79 => ⟨S_, .i32⟩
  | 80 => ⟨S802816, .i32⟩
  | 81 => ⟨S_, .i32⟩
  | 82 => ⟨S_, .f32⟩
  | 83 => ⟨S802816, .f32⟩
  | 84 => ⟨S_, .i32⟩
  | 85 => ⟨S_, .f32⟩
  | 86 => ⟨S50176x64, .f32⟩
  | 87 => ⟨S98x1x8192, .i32⟩
  | 88 => ⟨S98x1x8192, .f32⟩
  | 89 => ⟨S98x1x8192, .i32⟩
  | 90 => ⟨S98x8192x64, .f32⟩
  | 91 => ⟨S50176x64, .f32⟩
  | 92 => ⟨S50000x64, .f32⟩
  | 93 => ⟨S_, .i32⟩
  | 94 => ⟨S_, .i32⟩
  | 95 => ⟨S802816, .i32⟩
  | 96 => ⟨S_, .i32⟩
  | 97 => ⟨S_, .i32⟩
  | 98 => ⟨S802816, .i32⟩
  | 99 => ⟨S_, .i32⟩
  | 100 => ⟨S_, .f32⟩
  | 101 => ⟨S802816, .f32⟩
  | 102 => ⟨S_, .i32⟩
  | 103 => ⟨S_, .f32⟩
  | 104 => ⟨S50176x64, .f32⟩
  | 105 => ⟨S98x1x8192, .i32⟩
  | 106 => ⟨S98x1x8192, .f32⟩
  | 107 => ⟨S98x1x8192, .i32⟩
  | 108 => ⟨S98x8192x64, .f32⟩
  | 109 => ⟨S50176x64, .f32⟩
  | 110 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S1x1x8192, .i32⟩
  | .local _ .vmem, ⟨1, _⟩ => ⟨S1x1x8192, .i32⟩
  | .local _ .vmem, ⟨2, _⟩ => ⟨S1x1x8192, .f32⟩
  | .local _ .vmem, ⟨3, _⟩ => ⟨S1x1x8192, .f32⟩
  | .local _ .vmem, ⟨4, _⟩ => ⟨S1024x64, .f32⟩
  | .local _ .vmem, ⟨5, _⟩ => ⟨S1024x64, .f32⟩
  | .local _ .vmem, ⟨6, _⟩ => ⟨S1x8192x64, .f32⟩
  | .local _ .vmem, ⟨7, _⟩ => ⟨S1x8192x64, .f32⟩
  | .local _ .vmem, ⟨8, _⟩ => ⟨S8192x64, .f32⟩
  | .local _ .vmem, ⟨9, _⟩ => ⟨S1x1x8192, .i32⟩
  | .local _ .vmem, ⟨10, _⟩ => ⟨S1x1x8192, .i32⟩
  | .local _ .vmem, ⟨11, _⟩ => ⟨S1x8192x64, .f32⟩
  | .local _ .vmem, ⟨12, _⟩ => ⟨S1x8192x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1x1x8192, .i32⟩
  | .local _ .vmem, ⟨17, _⟩ => ⟨S1x1x8192, .i32⟩
  | .local _ .vmem, ⟨18, _⟩ => ⟨S1x1x8192, .f32⟩
  | .local _ .vmem, ⟨19, _⟩ => ⟨S1x1x8192, .f32⟩
  | .local _ .vmem, ⟨20, _⟩ => ⟨S1024x64, .f32⟩
  | .local _ .vmem, ⟨21, _⟩ => ⟨S1024x64, .f32⟩
  | .local _ .vmem, ⟨22, _⟩ => ⟨S1x8192x64, .f32⟩
  | .local _ .vmem, ⟨23, _⟩ => ⟨S1x8192x64, .f32⟩
  | .local _ .vmem, ⟨24, _⟩ => ⟨S8192x64, .f32⟩
  | .local _ .vmem, ⟨25, _⟩ => ⟨S1x1x8192, .i32⟩
  | .local _ .vmem, ⟨26, _⟩ => ⟨S1x1x8192, .i32⟩
  | .local _ .vmem, ⟨27, _⟩ => ⟨S1x8192x64, .f32⟩
  | .local _ .vmem, ⟨28, _⟩ => ⟨S1x8192x64, .f32⟩
  | .local _ .vmem, ⟨29, _⟩ => ⟨S1024x64, .f32⟩
  | .local _ .vmem, ⟨30, _⟩ => ⟨S1024x64, .f32⟩
  | .local _ .vmem, ⟨31, _⟩ => ⟨S1024x64, .f32⟩
  | .local _ .vmem, ⟨32, _⟩ => ⟨S1x1x8192, .i32⟩
  | .local _ .vmem, ⟨33, _⟩ => ⟨S1x1x8192, .i32⟩
  | .local _ .vmem, ⟨34, _⟩ => ⟨S1x1x8192, .f32⟩
  | .local _ .vmem, ⟨35, _⟩ => ⟨S1x1x8192, .f32⟩
  | .local _ .vmem, ⟨36, _⟩ => ⟨S1024x64, .f32⟩
  | .local _ .vmem, ⟨37, _⟩ => ⟨S1024x64, .f32⟩
  | .local _ .vmem, ⟨38, _⟩ => ⟨S1x8192x64, .f32⟩
  | .local _ .vmem, ⟨39, _⟩ => ⟨S1x8192x64, .f32⟩
  | .local _ .vmem, ⟨40, _⟩ => ⟨S8192x64, .f32⟩
  | .local _ .vmem, ⟨41, _⟩ => ⟨S1x1x8192, .i32⟩
  | .local _ .vmem, ⟨42, _⟩ => ⟨S1x1x8192, .i32⟩
  | .local _ .vmem, ⟨43, _⟩ => ⟨S1x8192x64, .f32⟩
  | .local _ .vmem, ⟨44, _⟩ => ⟨S1x8192x64, .f32⟩
  | .local _ .vmem, ⟨45, _⟩ => ⟨S1024x64, .f32⟩
  | .local _ .vmem, ⟨46, _⟩ => ⟨S1024x64, .f32⟩
  | .local _ .vmem, ⟨47, _⟩ => ⟨S1024x64, .f32⟩
  | .local _ .vmem, ⟨48, _⟩ => ⟨S1x1x8192, .i32⟩
  | .local _ .vmem, ⟨49, _⟩ => ⟨S1x1x8192, .i32⟩
  | .local _ .vmem, ⟨50, _⟩ => ⟨S1x1x8192, .f32⟩
  | .local _ .vmem, ⟨51, _⟩ => ⟨S1x1x8192, .f32⟩
  | .local _ .vmem, ⟨52, _⟩ => ⟨S1024x64, .f32⟩
  | .local _ .vmem, ⟨53, _⟩ => ⟨S1024x64, .f32⟩
  | .local _ .vmem, ⟨54, _⟩ => ⟨S1x8192x64, .f32⟩
  | .local _ .vmem, ⟨55, _⟩ => ⟨S1x8192x64, .f32⟩
  | .local _ .vmem, ⟨56, _⟩ => ⟨S8192x64, .f32⟩
  | .local _ .vmem, ⟨57, _⟩ => ⟨S1x1x8192, .i32⟩
  | .local _ .vmem, ⟨58, _⟩ => ⟨S1x1x8192, .i32⟩
  | .local _ .vmem, ⟨59, _⟩ => ⟨S1x8192x64, .f32⟩
  | .local _ .vmem, ⟨60, _⟩ => ⟨S1x8192x64, .f32⟩
  | .local _ .vmem, ⟨61, _⟩ => ⟨S1024x64, .f32⟩
  | .local _ .vmem, ⟨62, _⟩ => ⟨S1024x64, .f32⟩
  | .local _ .vmem, ⟨63, _⟩ => ⟨S1024x64, .f32⟩
  | .local _ .vmem, ⟨64, _⟩ => ⟨S1x1x8192, .i32⟩
  | .local _ .vmem, ⟨65, _⟩ => ⟨S1x1x8192, .i32⟩
  | .local _ .vmem, ⟨66, _⟩ => ⟨S1x1x8192, .f32⟩
  | .local _ .vmem, ⟨67, _⟩ => ⟨S1x1x8192, .f32⟩
  | .local _ .vmem, ⟨68, _⟩ => ⟨S1024x64, .f32⟩
  | .local _ .vmem, ⟨69, _⟩ => ⟨S1024x64, .f32⟩
  | .local _ .vmem, ⟨70, _⟩ => ⟨S1x8192x64, .f32⟩
  | .local _ .vmem, ⟨71, _⟩ => ⟨S1x8192x64, .f32⟩
  | .local _ .vmem, ⟨72, _⟩ => ⟨S8192x64, .f32⟩
  | .local _ .vmem, ⟨73, _⟩ => ⟨S1x1x8192, .i32⟩
  | .local _ .vmem, ⟨74, _⟩ => ⟨S1x1x8192, .i32⟩
  | .local _ .vmem, ⟨75, _⟩ => ⟨S1x8192x64, .f32⟩
  | .local _ .vmem, ⟨76, _⟩ => ⟨S1x8192x64, .f32⟩
  | .local _ .vmem, ⟨77, _⟩ => ⟨S1024x64, .f32⟩
  | .local _ .vmem, ⟨78, _⟩ => ⟨S1024x64, .f32⟩
  | .local _ .vmem, ⟨79, _⟩ => ⟨S1024x64, .f32⟩
  | .local _ .vmem, ⟨80, _⟩ => ⟨S1x1x8192, .i32⟩
  | .local _ .vmem, ⟨81, _⟩ => ⟨S1x1x8192, .i32⟩
  | .local _ .vmem, ⟨82, _⟩ => ⟨S1x1x8192, .f32⟩
  | .local _ .vmem, ⟨83, _⟩ => ⟨S1x1x8192, .f32⟩
  | .local _ .vmem, ⟨84, _⟩ => ⟨S1024x64, .f32⟩
  | .local _ .vmem, ⟨85, _⟩ => ⟨S1024x64, .f32⟩
  | .local _ .vmem, ⟨86, _⟩ => ⟨S1x8192x64, .f32⟩
  | .local _ .vmem, ⟨87, _⟩ => ⟨S1x8192x64, .f32⟩
  | .local _ .vmem, ⟨88, _⟩ => ⟨S8192x64, .f32⟩
  | .local _ .vmem, ⟨89, _⟩ => ⟨S1x1x8192, .i32⟩
  | .local _ .vmem, ⟨90, _⟩ => ⟨S1x1x8192, .i32⟩
  | .local _ .vmem, ⟨91, _⟩ => ⟨S1x8192x64, .f32⟩
  | .local _ .vmem, ⟨92, _⟩ => ⟨S1x8192x64, .f32⟩
  | .local _ .vmem, ⟨93, _⟩ => ⟨S1024x64, .f32⟩
  | .local _ .vmem, ⟨94, _⟩ => ⟨S1024x64, .f32⟩
  | .local _ .vmem, ⟨95, _⟩ => ⟨S1024x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_call1_v0 : Ref sig .tc := ⟨.hbm, 54, rfl⟩
abbrev main_v32 : Ref sig .tc := ⟨.hbm, 55, rfl⟩
abbrev main_c_10 : Ref sig .tc := ⟨.hbm, 56, rfl⟩
abbrev main_call2_v0 : Ref sig .tc := ⟨.hbm, 57, rfl⟩
abbrev main_v33 : Ref sig .tc := ⟨.hbm, 58, rfl⟩
abbrev main_c_11 : Ref sig .tc := ⟨.hbm, 59, rfl⟩
abbrev main_call3_v0 : Ref sig .tc := ⟨.hbm, 60, rfl⟩
abbrev main_v34 : Ref sig .tc := ⟨.hbm, 61, rfl⟩
abbrev main_c_12 : Ref sig .tc := ⟨.hbm, 62, rfl⟩
abbrev main_call4_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_13 : Ref sig .tc := ⟨.hbm, 73, rfl⟩
abbrev main_call5_v0 : Ref sig .tc := ⟨.hbm, 74, rfl⟩
abbrev main_v44 : Ref sig .tc := ⟨.hbm, 75, rfl⟩
abbrev main_c_14 : Ref sig .tc := ⟨.hbm, 76, rfl⟩
abbrev main_call6_v0 : Ref sig .tc := ⟨.hbm, 77, rfl⟩
abbrev main_v45 : Ref sig .tc := ⟨.hbm, 78, rfl⟩
abbrev main_c_15 : Ref sig .tc := ⟨.hbm, 79, rfl⟩
abbrev main_call7_v0 : Ref sig .tc := ⟨.hbm, 80, rfl⟩
abbrev main_v46 : Ref sig .tc := ⟨.hbm, 81, rfl⟩
abbrev main_c_16 : Ref sig .tc := ⟨.hbm, 82, rfl⟩
abbrev main_call8_v0 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_17 : Ref sig .tc := ⟨.hbm, 95, rfl⟩
abbrev main_v58 : Ref sig .tc := ⟨.hbm, 96, rfl⟩
abbrev main_cst_18 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_19 : Ref sig .tc := ⟨.hbm, 101, rfl⟩
abbrev main_v62 : Ref sig .tc := ⟨.hbm, 102, rfl⟩
abbrev main_v63 : Ref sig .tc := ⟨.hbm, 103, rfl⟩
abbrev main_cst_20 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_21 : Ref sig .tc := ⟨.hbm, 108, rfl⟩
abbrev main_call9_v0 : Ref sig .tc := ⟨.hbm, 109, rfl⟩
abbrev main_call9_v1 : Ref sig .tc := ⟨.hbm, 110, rfl⟩
abbrev main_v67 : Ref sig .tc := ⟨.hbm, 111, rfl⟩
abbrev main_c_22 : Ref sig .tc := ⟨.hbm, 112, rfl⟩
abbrev main_v68 : Ref sig .tc := ⟨.hbm, 113, rfl⟩
abbrev main_v69 : Ref sig .tc := ⟨.hbm, 114, rfl⟩
abbrev main_c_23 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_24 : Ref sig .tc := ⟨.hbm, 121, rfl⟩
abbrev main_v75 : Ref sig .tc := ⟨.hbm, 122, rfl⟩
abbrev main_v76 : Ref sig .tc := ⟨.hbm, 123, rfl⟩
abbrev main_c_25 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_26 : Ref sig .tc := ⟨.hbm, 131, rfl⟩
abbrev main_call10_v0 : Ref sig .tc := ⟨.hbm, 132, rfl⟩
abbrev main_v83 : Ref sig .tc := ⟨.hbm, 133, rfl⟩
abbrev main_c_27 : Ref sig .tc := ⟨.hbm, 134, rfl⟩
abbrev main_call11_v0 : Ref sig .tc := ⟨.hbm, 135, rfl⟩
abbrev main_v84 : Ref sig .tc := ⟨.hbm, 136, rfl⟩
abbrev main_c_28 : Ref sig .tc := ⟨.hbm, 137, rfl⟩
abbrev main_call12_v0 : Ref sig .tc := ⟨.hbm, 138, rfl⟩
abbrev main_v85 : Ref sig .tc := ⟨.hbm, 139, rfl⟩
abbrev main_c_29 : Ref sig .tc := ⟨.hbm, 140, rfl⟩
abbrev main_call13_v0 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_30 : Ref sig .tc := ⟨.hbm, 149, rfl⟩
abbrev main_call14_v0 : Ref sig .tc := ⟨.hbm, 150, rfl⟩
abbrev main_v93 : Ref sig .tc := ⟨.hbm, 151, rfl⟩
abbrev main_c_31 : Ref sig .tc := ⟨.hbm, 152, rfl⟩
abbrev main_call15_v0 : Ref sig .tc := ⟨.hbm, 153, rfl⟩
abbrev main_v94 : Ref sig .tc := ⟨.hbm, 154, rfl⟩
abbrev main_c_32 : Ref sig .tc := ⟨.hbm, 155, rfl⟩
abbrev main_call16_v0 : Ref sig .tc := ⟨.hbm, 156, rfl⟩
abbrev main_v95 : Ref sig .tc := ⟨.hbm, 157, rfl⟩
abbrev main_c_33 : Ref sig .tc := ⟨.hbm, 158, rfl⟩
abbrev main_call17_v0 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_34 : Ref sig .tc := ⟨.hbm, 167, rfl⟩
abbrev main_v103 : Ref sig .tc := ⟨.hbm, 168, rfl⟩
abbrev main_cst_35 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_cst_36 : Ref sig .tc := ⟨.hbm, 173, rfl⟩
abbrev main_v107 : Ref sig .tc := ⟨.hbm, 174, rfl⟩
abbrev main_v108 : Ref sig .tc := ⟨.hbm, 175, rfl⟩
abbrev main_cst_37 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_cst_38 : Ref sig .tc := ⟨.hbm, 180, rfl⟩
abbrev main_call18_v0 : Ref sig .tc := ⟨.hbm, 181, rfl⟩
abbrev main_call18_v1 : Ref sig .tc := ⟨.hbm, 182, rfl⟩
abbrev main_v112 : Ref sig .tc := ⟨.hbm, 183, rfl⟩
abbrev main_c_39 : Ref sig .tc := ⟨.hbm, 184, rfl⟩
abbrev main_v113 : Ref sig .tc := ⟨.hbm, 185, rfl⟩
abbrev main_v114 : Ref sig .tc := ⟨.hbm, 186, rfl⟩
abbrev main_c_40 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_c_41 : Ref sig .tc := ⟨.hbm, 193, rfl⟩
abbrev main_v120 : Ref sig .tc := ⟨.hbm, 194, rfl⟩
abbrev main_v121 : Ref sig .tc := ⟨.hbm, 195, rfl⟩
abbrev main_c_42 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_c_43 : Ref sig .tc := ⟨.hbm, 203, rfl⟩
abbrev main_call19_v0 : Ref sig .tc := ⟨.hbm, 204, rfl⟩
abbrev main_v128 : Ref sig .tc := ⟨.hbm, 205, rfl⟩
abbrev main_c_44 : Ref sig .tc := ⟨.hbm, 206, rfl⟩
abbrev main_call20_v0 : Ref sig .tc := ⟨.hbm, 207, rfl⟩
abbrev main_v129 : Ref sig .tc := ⟨.hbm, 208, rfl⟩
abbrev main_c_45 : Ref sig .tc := ⟨.hbm, 209, rfl⟩
abbrev main_call21_v0 : Ref sig .tc := ⟨.hbm, 210, rfl⟩
abbrev main_v130 : Ref sig .tc := ⟨.hbm, 211, rfl⟩
abbrev main_c_46 : Ref sig .tc := ⟨.hbm, 212, rfl⟩
abbrev main_call22_v0 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_c_47 : Ref sig .tc := ⟨.hbm, 221, rfl⟩
abbrev main_call23_v0 : Ref sig .tc := ⟨.hbm, 222, rfl⟩
abbrev main_v138 : Ref sig .tc := ⟨.hbm, 223, rfl⟩
abbrev main_c_48 : Ref sig .tc := ⟨.hbm, 224, rfl⟩
abbrev main_call24_v0 : Ref sig .tc := ⟨.hbm, 225, rfl⟩
abbrev main_v139 : Ref sig .tc := ⟨.hbm, 226, rfl⟩
abbrev main_c_49 : Ref sig .tc := ⟨.hbm, 227, rfl⟩
abbrev main_call25_v0 : Ref sig .tc := ⟨.hbm, 228, rfl⟩
abbrev main_v140 : Ref sig .tc := ⟨.hbm, 229, rfl⟩
abbrev main_c_50 : Ref sig .tc := ⟨.hbm, 230, rfl⟩
abbrev main_call26_v0 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_scratch0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg3_1 : Ref sig .tc := ⟨.vmem, 55, rfl⟩
abbrev cc6_scratch0 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_scratch0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc8_stg3_0 : Ref sig .tc := ⟨.vmem, 70, rfl⟩
abbrev cc8_stg3_1 : Ref sig .tc := ⟨.vmem, 71, rfl⟩
abbrev cc8_scratch0 : Ref sig .tc := ⟨.vmem, 72, rfl⟩
abbrev cc9_stg0_0 : Ref sig .tc := ⟨.vmem, 73, rfl⟩
abbrev cc9_stg0_1 : Ref sig .tc := ⟨.vmem, 74, rfl⟩
abbrev cc9_stg1_0 : Ref sig .tc := ⟨.vmem, 75, rfl⟩
abbrev cc9_stg1_1 : Ref sig .tc := ⟨.vmem, 76, rfl⟩
abbrev cc9_stg2_0 : Ref sig .tc := ⟨.vmem, 77, rfl⟩
abbrev cc9_stg2_1 : Ref sig .tc := ⟨.vmem, 78, rfl⟩
abbrev cc9_scratch0 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg1_1 : Ref sig .tc := ⟨.vmem, 83, rfl⟩
abbrev cc10_stg2_0 : Ref sig .tc := ⟨.vmem, 84, rfl⟩
abbrev cc10_stg2_1 : Ref sig .tc := ⟨.vmem, 85, rfl⟩
abbrev cc10_stg3_0 : Ref sig .tc := ⟨.vmem, 86, rfl⟩
abbrev cc10_stg3_1 : Ref sig .tc := ⟨.vmem, 87, rfl⟩
abbrev cc10_scratch0 : Ref sig .tc := ⟨.vmem, 88, rfl⟩
abbrev cc11_stg0_0 : Ref sig .tc := ⟨.vmem, 89, rfl⟩
abbrev cc11_stg0_1 : Ref sig .tc := ⟨.vmem, 90, rfl⟩
abbrev cc11_stg1_0 : Ref sig .tc := ⟨.vmem, 91, rfl⟩
abbrev cc11_stg1_1 : Ref sig .tc := ⟨.vmem, 92, rfl⟩
abbrev cc11_stg2_0 : Ref sig .tc := ⟨.vmem, 93, rfl⟩
abbrev cc11_stg2_1 : Ref sig .tc := ⟨.vmem, 94, rfl⟩
abbrev cc11_scratch0 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem1_1 : DmaSem sig := 59
abbrev cc8_sem2_0 : DmaSem sig := 60
abbrev cc8_sem2_1 : DmaSem sig := 61
abbrev cc8_sem3_0 : DmaSem sig := 62
abbrev cc8_sem3_1 : DmaSem sig := 63
abbrev cc9_sem0_0 : DmaSem sig := 64
abbrev cc9_sem0_1 : DmaSem sig := 65
abbrev cc9_sem1_0 : DmaSem sig := 66
abbrev cc9_sem1_1 : DmaSem sig := 67
abbrev cc9_sem2_0 : DmaSem sig := 68
abbrev cc9_sem2_1 : DmaSem sig := 69
abbrev cc10_sem0_0 : DmaSem sig := 70
abbrev cc10_sem0_1 : DmaSem sig := 71
abbrev cc10_sem1_0 : DmaSem sig := 72
abbrev cc10_sem1_1 : DmaSem sig := 73
abbrev cc10_sem2_0 : DmaSem sig := 74
abbrev cc10_sem2_1 : DmaSem sig := 75
abbrev cc10_sem3_0 : DmaSem sig := 76
abbrev cc10_sem3_1 : DmaSem sig := 77
abbrev cc11_sem0_0 : DmaSem sig := 78
abbrev cc11_sem0_1 : DmaSem sig := 79
abbrev cc11_sem1_0 : DmaSem sig := 80
abbrev cc11_sem1_1 : DmaSem sig := 81
abbrev cc11_sem2_0 : DmaSem sig := 82
abbrev cc11_sem2_1 : DmaSem sig := 83

abbrev nD : Nat := 1
abbrev τ : Topo := Topo.v7x

variable {F : FTy → Type} [FloatOps F]

abbrev grid0 : Pipeline.Grid := ⟨2, ![391, 147], ![false, false]⟩

def k0_cond2 (i : grid0.Coords) : BitVec 1 :=
  let arg1 : BitVec 32 := BitVec.ofNat 32 (i 1).val
  let c146_i32 : BitVec 32 := 146#32
  let v24 : BitVec 1 := Scalar.cmpi .eq arg1 c146_i32
  let v25 : BitVec 32 := Scalar.extui v24
  let c0_i32_9 : BitVec 32 := 0#32
  let v26 : BitVec 1 := Scalar.cmpi .ne v25 c0_i32_9
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![147, 391], ![false, false]⟩

def k1_cond2 (i : grid1.Coords) : BitVec 1 :=
  let arg1 : BitVec 32 := BitVec.ofNat 32 (i 1).val
  let c390_i32 : BitVec 32 := 390#32
  let v24 : BitVec 1 := Scalar.cmpi .eq arg1 c390_i32
  let v25 : BitVec 32 := Scalar.extui v24
  let c0_i32_10 : BitVec 32 := 0#32
  let v26 : BitVec 1 := Scalar.cmpi .ne v25 c0_i32_10
  v26

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x1x8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![391, 147], ![false, false]⟩

def k2_cond2 (i : grid2.Coords) : BitVec 1 :=
  let arg1 : BitVec 32 := BitVec.ofNat 32 (i 1).val
  let c146_i32 : BitVec 32 := 146#32
  let v24 : BitVec 1 := Scalar.cmpi .eq arg1 c146_i32
  let v25 : BitVec 32 := Scalar.extui v24
  let c0_i32_9 : BitVec 32 := 0#32
  let v26 : BitVec 1 := Scalar.cmpi .ne v25 c0_i32_9
  v26

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x8192x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![147, 391], ![false, false]⟩

def k3_cond2 (i : grid3.Coords) : BitVec 1 :=
  let arg1 : BitVec 32 := BitVec.ofNat 32 (i 1).val
  let c390_i32 : BitVec 32 := 390#32
  let v24 : BitVec 1 := Scalar.cmpi .eq arg1 c390_i32
  let v25 : BitVec 32 := Scalar.extui v24
  let c0_i32_10 : BitVec 32 := 0#32
  let v26 : BitVec 1 := Scalar.cmpi .ne v25 c0_i32_10
  v26

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x1x8192 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x8192x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![196, 98], ![false, false]⟩

def k4_cond2 (i : grid4.Coords) : BitVec 1 :=
  let arg1 : BitVec 32 := BitVec.ofNat 32 (i 1).val
  let c97_i32 : BitVec 32 := 97#32
  let v24 : BitVec 1 := Scalar.cmpi .eq arg1 c97_i32
  let v25 : BitVec 32 := Scalar.extui v24
  let c0_i32_9 : BitVec 32 := 0#32
  let v26 : BitVec 1 := Scalar.cmpi .ne v25 c0_i32_9
  v26

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x1x8192 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x1x8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x8192x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![98, 196], ![false, false]⟩

def k5_cond2 (i : grid5.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_10 : BitVec 32 := 0#32
  let v26 : BitVec 1 := Scalar.cmpi .ne v25 c0_i32_10
  v26

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x1x8192 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1x8192x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![196, 98], ![false, false]⟩

def k6_cond2 (i : grid6.Coords) : BitVec 1 :=
  let arg1 : BitVec 32 := BitVec.ofNat 32 (i 1).val
  let c97_i32 : BitVec 32 := 97#32
  let v24 : BitVec 1 := Scalar.cmpi .eq arg1 c97_i32
  let v25 : BitVec 32 := Scalar.extui v24
  let c0_i32_9 : BitVec 32 := 0#32
  let v26 : BitVec 1 := Scalar.cmpi .ne v25 c0_i32_9
  v26

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x1x8192 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1x1x8192 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1024x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S1x8192x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![98, 196], ![false, false]⟩

def k7_cond2 (i : grid7.Coords) : BitVec 1 :=
  let arg1 : BitVec 32 := BitVec.ofNat 32 (i 1).val
  let c195_i32 : BitVec 32 := 195#32
  let v24 : BitVec 1 := Scalar.cmpi .eq arg1 c195_i32
  let v25 : BitVec 32 := Scalar.extui v24
  let c0_i32_10 : BitVec 32 := 0#32
  let v26 : BitVec 1 := Scalar.cmpi .ne v25 c0_i32_10
  v26

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1x1x8192 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S1x8192x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![98, 49], ![false, false]⟩

def k8_cond2 (i : grid8.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_9 : BitVec 32 := 0#32
  let v26 : BitVec 1 := Scalar.cmpi .ne v25 c0_i32_9
  v26

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x1x8192 .i32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1x1x8192 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S1024x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1x8192x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev grid9 : Pipeline.Grid := ⟨2, ![49, 98], ![false, false]⟩

def k9_cond2 (i : grid9.Coords) : BitVec 1 :=
  let arg1 : BitVec 32 := BitVec.ofNat 32 (i 1).val
  let c97_i32 : BitVec 32 := 97#32
  let v24 : BitVec 1 := Scalar.cmpi .eq arg1 c97_i32
  let v25 : BitVec 32 := Scalar.extui v24
  let c0_i32_10 : BitVec 32 := 0#32
  let v26 : BitVec 1 := Scalar.cmpi .ne v25 c0_i32_10
  v26

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S1x1x8192 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S1x8192x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev grid10 : Pipeline.Grid := ⟨2, ![98, 49], ![false, false]⟩

def k10_cond2 (i : grid10.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_9 : BitVec 32 := 0#32
  let v26 : BitVec 1 := Scalar.cmpi .ne v25 c0_i32_9
  v26

def cc10_transform_0 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x1x8192 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S1x1x8192 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev stage10_2 : Fin 2 → Memref sig .tc .vmem S1024x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 2 → Memref sig .tc .vmem S1x8192x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, false]

abbrev grid11 : Pipeline.Grid := ⟨2, ![49, 98], ![false, false]⟩

def k11_cond2 (i : grid11.Coords) : BitVec 1 :=
  let arg1 : BitVec 32 := BitVec.ofNat 32 (i 1).val
  let c97_i32 : BitVec 32 := 97#32
  let v24 : BitVec 1 := Scalar.cmpi .eq arg1 c97_i32
  let v25 : BitVec 32 := Scalar.extui v24
  let c0_i32_10 : BitVec 32 := 0#32
  let v26 : BitVec 1 := Scalar.cmpi .ne v25 c0_i32_10
  v26

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S1x1x8192 .i32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 2 → Memref sig .tc .vmem S1x8192x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

class Facts₀ : Prop where
  bcast_S_S1600000 : S_.BroadcastsInDim S1600000 (![] : Fin 0 → Fin S1600000.rank)
  concatenates_S1600000_S1600000_S3200000_d0 : Shape.Concatenates [S1600000, S1600000] S3200000 0
  bcast_S_S3200000 : S_.BroadcastsInDim S3200000 (![] : Fin 0 → Fin S3200000.rank)
  bcast_S_S150000 : S_.BroadcastsInDim S150000 (![] : Fin 0 → Fin S150000.rank)
  bcast_S3200000_S3200000x1_0 : S3200000.BroadcastsInDim S3200000x1 (![0] : Fin 1 → Fin S3200000x1.rank)
  concatenates_S100000x64_S50000x64_S150000x64_d0 : Shape.Concatenates [S100000x64, S50000x64] S150000x64 0
  pads_S3200000_S3203072_030720 : S3200000.Pads (![0] : Fin 1 → Nat) ![3072] ![0] S3203072
  h_S_ : 0 < S_.numel
  pads_S150000x64_S150528x64_05280_000 : S150000x64.Pads (![0, 0] : Fin 2 → Nat) ![528, 0] ![0, 0] S150528x64
  shapeCasts_S3203072_S391x1x8192 : S3203072.ShapeCasts S391x1x8192
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  iota_S8192x1024_d1_w32 : S8192x1024.Iotas .tc 32 [1]
  shapeCasts_S8192_S8192x1 : S8192.ShapeCasts S8192x1
  broadcasts_S8192x1_S8192x1024 : S8192x1.Broadcasts S8192x1024
  natLt_1_32 : 1 < 32
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  broadcasts_S8192x1_S8192x64 : S8192x1.Broadcasts S8192x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  shapeCasts_S8192x64_S1x8192x64 : S8192x64.ShapeCasts S1x8192x64
  iota_S1024x8192_d0_w32 : S1024x8192.Iotas .tc 32 [0]
  shapeCasts_S8192_S1x8192 : S8192.ShapeCasts S1x8192
  broadcasts_S1x8192_S1024x8192 : S1x8192.Broadcasts S1024x8192
  slices_S150528x64_S150000x64_0_0 : S150528x64.Slices ![0, 0] S150000x64
  slices_S150000x64_S100000x64_0_0 : S150000x64.Slices ![0, 0] S100000x64
  slices_S150000x64_S50000x64_100000_0 : S150000x64.Slices ![100000, 0] S50000x64
  bcast_S_S100000 : S_.BroadcastsInDim S100000 (![] : Fin 0 → Fin S100000.rank)
  bcast_S1600000_S1600000x1_0 : S1600000.BroadcastsInDim S1600000x1 (![0] : Fin 1 → Fin S1600000x1.rank)
  pads_S1600000_S1605632_056320 : S1600000.Pads (![0] : Fin 1 → Nat) ![5632] ![0] S1605632
  pads_S100000x64_S100352x64_03520_000 : S100000x64.Pads (![0, 0] : Fin 2 → Nat) ![352, 0] ![0, 0] S100352x64
  shapeCasts_S1605632_S196x1x8192 : S1605632.ShapeCasts S196x1x8192
  slices_S100352x64_S100000x64_0_0 : S100352x64.Slices ![0, 0] S100000x64
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S800000_S802816_028160 : S800000.Pads (![0] : Fin 1 → Nat) ![2816] ![0] S802816
  pads_S50000x64_S50176x64_01760_000 : S50000x64.Pads (![0, 0] : Fin 2 → Nat) ![176, 0] ![0, 0] S50176x64
  shapeCasts_S802816_S98x1x8192 : S802816.ShapeCasts S98x1x8192
  slices_S50176x64_S50000x64_0_0 : S50176x64.Slices ![0, 0] S50000x64
  scatter_S150000_S3200000x1_S3200000_n_0_0_1_wf : ScatterDims.WF S150000 S3200000x1 S3200000 [] [0] [0] 1
  gather_S150000_S3200000x1_S3200000_n_0_n_n_0_1_1_wf : GatherDims.WF S150000 S3200000x1 S3200000 [] [0] [] [0] [] 1 ![1]
  dot_S8192x1024_S1024x64_S8192x64_1_0_0_1_n_n_wf : DotDims.WF S8192x1024 S1024x64 S8192x64 [1] [0] [0] [1] [] []
  dot_S1024x8192_S8192x64_S1024x64_1_0_0_1_n_n_wf : DotDims.WF S1024x8192 S8192x64 S1024x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8192.size a ≤ S391x1x8192.size a
  hwx0_0 : ∀ i : grid0.Coords, EltTy.bits .i32 = 32 ∨ (Rect.block (s := S391x1x8192) S1x1x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S391x1x8192.size a
  hwx0_1 : ∀ i : grid0.Coords, EltTy.bits .f32 = 32 ∨ (Rect.block (s := S391x1x8192) S1x1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S150528x64.size a
  hwx0_2 : ∀ i : grid0.Coords, EltTy.bits .f32 = 32 ∨ (Rect.block (s := S150528x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x64.size a ≤ S391x8192x64.size a
  hwx0_3 : ∀ i : grid0.Coords, EltTy.bits .f32 = 32 ∨ (Rect.block (s := S391x8192x64) S1x8192x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x8192.size a ≤ S391x1x8192.size a
  hwx1_0 : ∀ i : grid1.Coords, EltTy.bits .i32 = 32 ∨ (Rect.block (s := S391x1x8192) S1x1x8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x64.size a ≤ S391x8192x64.size a
  hwx1_1 : ∀ i : grid1.Coords, EltTy.bits .f32 = 32 ∨ (Rect.block (s := S391x8192x64) S1x8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S150528x64.size a
  hwx1_2 : ∀ i : grid1.Coords, EltTy.bits .f32 = 32 ∨ (Rect.block (s := S150528x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1x8192.size a ≤ S391x1x8192.size a
  hwx2_0 : ∀ i : grid2.Coords, EltTy.bits .i32 = 32 ∨ (Rect.block (s := S391x1x8192) S1x1x8192.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x8192.size a ≤ S391x1x8192.size a
  hwx2_1 : ∀ i : grid2.Coords, EltTy.bits .f32 = 32 ∨ (Rect.block (s := S391x1x8192) S1x1x8192.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S150528x64.size a
  hwx2_2 : ∀ i : grid2.Coords, EltTy.bits .f32 = 32 ∨ (Rect.block (s := S150528x64) S1024x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x8192x64.size a ≤ S391x8192x64.size a
  hwx2_3 : ∀ i : grid2.Coords, EltTy.bits .f32 = 32 ∨ (Rect.block (s := S391x8192x64) S1x8192x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1x8192.size a ≤ S391x1x8192.size a
  hwx3_0 : ∀ i : grid3.Coords, EltTy.bits .i32 = 32 ∨ (Rect.block (s := S391x1x8192) S1x1x8192.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x8192x64.size a ≤ S391x8192x64.size a
  hwx3_1 : ∀ i : grid3.Coords, EltTy.bits .f32 = 32 ∨ (Rect.block (s := S391x8192x64) S1x8192x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x64.size a ≤ S150528x64.size a
  hwx3_2 : ∀ i : grid3.Coords, EltTy.bits .f32 = 32 ∨ (Rect.block (s := S150528x64) S1024x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1x8192.size a ≤ S196x1x8192.size a
  hwx4_0 : ∀ i : grid4.Coords, EltTy.bits .i32 = 32 ∨ (Rect.block (s := S196x1x8192) S1x1x8192.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x8192.size a ≤ S196x1x8192.size a
  hwx4_1 : ∀ i : grid4.Coords, EltTy.bits .f32 = 32 ∨ (Rect.block (s := S196x1x8192) S1x1x8192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S100352x64.size a
  hwx4_2 : ∀ i : grid4.Coords, EltTy.bits .f32 = 32 ∨ (Rect.block (s := S100352x64) S1024x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x8192x64.size a ≤ S196x8192x64.size a
  hwx4_3 : ∀ i : grid4.Coords, EltTy.bits .f32 = 32 ∨ (Rect.block (s := S196x8192x64) S1x8192x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1x8192.size a ≤ S196x1x8192.size a
  hwx5_0 : ∀ i : grid5.Coords, EltTy.bits .i32 = 32 ∨ (Rect.block (s := S196x1x8192) S1x1x8192.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x8192x64.size a ≤ S196x8192x64.size a
  hwx5_1 : ∀ i : grid5.Coords, EltTy.bits .f32 = 32 ∨ (Rect.block (s := S196x8192x64) S1x8192x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x64.size a ≤ S100352x64.size a
  hwx5_2 : ∀ i : grid5.Coords, EltTy.bits .f32 = 32 ∨ (Rect.block (s := S100352x64) S1024x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x1x8192.size a ≤ S196x1x8192.size a
  hwx6_0 : ∀ i : grid6.Coords, EltTy.bits .i32 = 32 ∨ (Rect.block (s := S196x1x8192) S1x1x8192.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x1x8192.size a ≤ S196x1x8192.size a
  hwx6_1 : ∀ i : grid6.Coords, EltTy.bits .f32 = 32 ∨ (Rect.block (s := S196x1x8192) S1x1x8192.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x64.size a ≤ S100352x64.size a
  hwx6_2 : ∀ i : grid6.Coords, EltTy.bits .f32 = 32 ∨ (Rect.block (s := S100352x64) S1024x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x8192x64.size a ≤ S196x8192x64.size a
  hwx6_3 : ∀ i : grid6.Coords, EltTy.bits .f32 = 32 ∨ (Rect.block (s := S196x8192x64) S1x8192x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x1x8192.size a ≤ S196x1x8192.size a
  hwx7_0 : ∀ i : grid7.Coords, EltTy.bits .i32 = 32 ∨ (Rect.block (s := S196x1x8192) S1x1x8192.size (cc7_transform_0 i) (hinb7_0 i)).WholeWords (EltTy.packing .i32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x8192x64.size a ≤ S196x8192x64.size a
  hwx7_1 : ∀ i : grid7.Coords, EltTy.bits .f32 = 32 ∨ (Rect.block (s := S196x8192x64) S1x8192x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x64.size a ≤ S100352x64.size a
  hwx7_2 : ∀ i : grid7.Coords, EltTy.bits .f32 = 32 ∨ (Rect.block (s := S100352x64) S1024x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x1x8192.size a ≤ S98x1x8192.size a
  hwx8_0 : ∀ i : grid8.Coords, EltTy.bits .i32 = 32 ∨ (Rect.block (s := S98x1x8192) S1x1x8192.size (cc8_transform_0 i) (hinb8_0 i)).WholeWords (EltTy.packing .i32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x1x8192.size a ≤ S98x1x8192.size a
  hwx8_1 : ∀ i : grid8.Coords, EltTy.bits .f32 = 32 ∨ (Rect.block (s := S98x1x8192) S1x1x8192.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1024x64.size a ≤ S50176x64.size a
  hwx8_2 : ∀ i : grid8.Coords, EltTy.bits .f32 = 32 ∨ (Rect.block (s := S50176x64) S1024x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x8192x64.size a ≤ S98x8192x64.size a
  hwx8_3 : ∀ i : grid8.Coords, EltTy.bits .f32 = 32 ∨ (Rect.block (s := S98x8192x64) S1x8192x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x1x8192.size a ≤ S98x1x8192.size a
  hwx9_0 : ∀ i : grid9.Coords, EltTy.bits .i32 = 32 ∨ (Rect.block (s := S98x1x8192) S1x1x8192.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x8192x64.size a ≤ S98x8192x64.size a
  hwx9_1 : ∀ i : grid9.Coords, EltTy.bits .f32 = 32 ∨ (Rect.block (s := S98x8192x64) S1x8192x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x64.size a ≤ S50176x64.size a
  hwx9_2 : ∀ i : grid9.Coords, EltTy.bits .f32 = 32 ∨ (Rect.block (s := S50176x64) S1024x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x1x8192.size a ≤ S98x1x8192.size a
  hwx10_0 : ∀ i : grid10.Coords, EltTy.bits .i32 = 32 ∨ (Rect.block (s := S98x1x8192) S1x1x8192.size (cc10_transform_0 i) (hinb10_0 i)).WholeWords (EltTy.packing .i32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S1x1x8192.size a ≤ S98x1x8192.size a
  hwx10_1 : ∀ i : grid10.Coords, EltTy.bits .f32 = 32 ∨ (Rect.block (s := S98x1x8192) S1x1x8192.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1024x64.size a ≤ S50176x64.size a
  hwx10_2 : ∀ i : grid10.Coords, EltTy.bits .f32 = 32 ∨ (Rect.block (s := S50176x64) S1024x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x8192x64.size a ≤ S98x8192x64.size a
  hwx10_3 : ∀ i : grid10.Coords, EltTy.bits .f32 = 32 ∨ (Rect.block (s := S98x8192x64) S1x8192x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x1x8192.size a ≤ S98x1x8192.size a
  hwx11_0 : ∀ i : grid11.Coords, EltTy.bits .i32 = 32 ∨ (Rect.block (s := S98x1x8192) S1x1x8192.size (cc11_transform_0 i) (hinb11_0 i)).WholeWords (EltTy.packing .i32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x8192x64.size a ≤ S98x8192x64.size a
  hwx11_1 : ∀ i : grid11.Coords, EltTy.bits .f32 = 32 ∨ (Rect.block (s := S98x8192x64) S1x8192x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1024x64.size a ≤ S50176x64.size a
  hwx11_2 : ∀ i : grid11.Coords, EltTy.bits .f32 = 32 ∨ (Rect.block (s := S50176x64) S1024x64.size (cc11_transform_2 i) (hinb11_2 i)).WholeWords (EltTy.packing .f32)

variable [Facts₀]

def scatter_S150000_S3200000x1_S3200000_n_0_0_1 : ScatterDims S150000 S3200000x1 S3200000 where
  updateWindowDims := []
  insertedWindowDims := [0]
  scatterDimsToOperandDims := [0]
  indexVectorDim := 1
  wf := scatter_S150000_S3200000x1_S3200000_n_0_0_1_wf
def gather_S150000_S3200000x1_S3200000_n_0_n_n_0_1_1 : GatherDims S150000 S3200000x1 S3200000 where
  offsetDims := []
  collapsedSliceDims := [0]
  operandBatchingDims := []
  startIndicesBatchingDims := []
  startIndexMap := [0]
  indexVectorDim := 1
  sliceSizes := ![1]
  wf := gather_S150000_S3200000x1_S3200000_n_0_n_n_0_1_1_wf
def dot_S8192x1024_S1024x64_S8192x64_1_0_0_1_n_n : DotDims S8192x1024 S1024x64 S8192x64 where
  lhsContracting := [1]
  rhsContracting := [0]
  lhsNonContracting := [0]
  rhsNonContracting := [1]
  lhsBatch := []
  rhsBatch := []
  wf := dot_S8192x1024_S1024x64_S8192x64_1_0_0_1_n_n_wf
def dot_S1024x8192_S8192x64_S1024x64_1_0_0_1_n_n : DotDims S1024x8192 S8192x64 S1024x64 where
  lhsContracting := [1]
  rhsContracting := [0]
  lhsNonContracting := [0]
  rhsNonContracting := [1]
  lhsBatch := []
  rhsBatch := []
  wf := dot_S1024x8192_S8192x64_S1024x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf

abbrev win0_0 : Pipeline.Window sig grid0 :=
  Pipeline.Window.ofSpec (Memref.whole main_v36) S1x1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x8192x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v38) S1x1x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v48) S1x1x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x1x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x8192x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v50) S1x1x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x8192x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1024x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v87) S1x1x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S1x1x8192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1024x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1x8192x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v89) S1x1x8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x8192x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1024x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v97) S1x1x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S1x1x8192.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v96) S1024x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v100) S1x8192x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v99) S1x1x8192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S1x8192x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v101) S1024x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v132) S1x1x8192.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S1x1x8192.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v131) S1024x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v135) S1x8192x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v134) S1x1x8192.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v135) S1x8192x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v136) S1024x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev win10_0 : Pipeline.Window sig grid10 :=
  Pipeline.Window.ofSpec (Memref.whole main_v142) S1x1x8192.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v143) S1x1x8192.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v141) S1024x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v145) S1x8192x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v144) S1x1x8192.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v145) S1x8192x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v146) S1024x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

class Facts : Prop extends Facts₀ where

variable [Facts]
-- ==== ReferenceIdeal.lean ====
abbrev S100000x64 : Shape := ⟨2, ![100000, 64]⟩
abbrev S50000x64 : Shape := ⟨2, ![50000, 64]⟩
abbrev S1600000 : Shape := ⟨1, ![1600000]⟩
abbrev S800000 : Shape := ⟨1, ![800000]⟩
abbrev S_ : Shape := ⟨0, ![]⟩
abbrev S3200000 : Shape := ⟨1, ![3200000]⟩
abbrev S150000 : Shape := ⟨1, ![150000]⟩
abbrev S3200000x1 : Shape := ⟨2, ![3200000, 1]⟩
abbrev S150000x64 : Shape := ⟨2, ![150000, 64]⟩
abbrev S3200000x64 : Shape := ⟨2, ![3200000, 64]⟩
abbrev S100000 : Shape := ⟨1, ![100000]⟩
abbrev S1600000x1 : Shape := ⟨2, ![1600000, 1]⟩
abbrev S1600000x64 : Shape := ⟨2, ![1600000, 64]⟩
abbrev S50000 : Shape := ⟨1, ![50000]⟩
abbrev S800000x1 : Shape := ⟨2, ![800000, 1]⟩
abbrev S800000x64 : Shape := ⟨2, ![800000, 64]⟩

abbrev nBuf : Space → Nat
  | .hbm => 227
  | .vmem => 0
  | .smem => 0
  | _ => 0

abbrev hbmTy0_0 (i : Nat) : BufTy := match i % 128 with
  | 0 => ⟨S100000x64, .f32⟩
  | 1 => ⟨S50000x64, .f32⟩
  | 2 => ⟨S1600000, .i32⟩
  | 3 => ⟨S1600000, .i32⟩
  | 4 => ⟨S1600000, .i32⟩
  | 5 => ⟨S1600000, .i32⟩
  | 6 => ⟨S800000, .i32⟩
  | 7 => ⟨S800000, .i32⟩
  | 8 => ⟨S_, .i32⟩
  | 9 => ⟨S1600000, .i32⟩
  | 10 => ⟨S1600000, .i32⟩
  | 11 => ⟨S3200000, .i32⟩
  | 12 => ⟨S_, .i32⟩
  | 13 => ⟨S1600000, .i32⟩
  | 14 => ⟨S1600000, .i32⟩
  | 15 => ⟨S3200000, .i32⟩
  | 16 => ⟨S_, .f32⟩
  | 17 => ⟨S3200000, .f32⟩
  | 18 => ⟨S_, .f32⟩
  | 19 => ⟨S150000, .f32⟩
  | 20 => ⟨S3200000x1, .i32⟩
  | 21 => ⟨S150000, .f32⟩
  | 22 => ⟨S_, .f32⟩
  | 23 => ⟨S150000, .f32⟩
  | 24 => ⟨S150000, .i1⟩
  | 25 => ⟨S_, .f32⟩
  | 26 => ⟨S150000, .f32⟩
  | 27 => ⟨S150000, .f32⟩
  | 28 => ⟨S150000, .f32⟩
  | 29 => ⟨S_, .f32⟩
  | 30 => ⟨S_, .f32⟩
  | 31 => ⟨S150000, .f32⟩
  | 32 => ⟨S150000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S150000x64, .f32⟩
  | 53 => ⟨S3200000x1, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x64, .f32⟩
  | 63 => ⟨S3200000x64, .f32⟩
  | 64 => ⟨S3200000x64, .f32⟩
  | 65 => ⟨S_, .f32⟩
  | 66 => ⟨S150000x64, .f32⟩
  | 67 => ⟨S3200000x1, .i32⟩
  | 68 => ⟨S150000x64, .f32⟩
  | 69 => ⟨S150000x64, .f32⟩
  | 70 => ⟨S150000x64, .f32⟩
  | 71 => ⟨S3200000x1, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000x64, .f32⟩
  | 81 => ⟨S3200000x64, .f32⟩
  | 82 => ⟨S3200000x64, .f32⟩
  | 83 => ⟨S_, .f32⟩
  | 84 => ⟨S150000x64, .f32⟩
  | 85 => ⟨S3200000x1, .i32⟩
  | 86 => ⟨S150000x64, .f32⟩
  | 87 => ⟨S150000x64, .f32⟩
  | 88 => ⟨S150000x64, .f32⟩
  | 89 => ⟨S100000x64, .f32⟩
  | 90 => ⟨S50000x64, .f32⟩
  | 91 => ⟨S_, .f32⟩
  | 92 => ⟨S1600000, .f32⟩
  | 93 => ⟨S_, .f32⟩
  | 94 => ⟨S100000, .f32⟩
  | 95 => ⟨S1600000x1, .i32⟩
  | 96 => ⟨S100000, .f32⟩
  | 97 => ⟨S_, .f32⟩
  | 98 => ⟨S100000, .f32⟩
  | 99 => ⟨S100000, .i1⟩
  | 100 => ⟨S_, .f32⟩
  | 101 => ⟨S100000, .f32⟩
  | 102 => ⟨S100000, .f32⟩
  | 103 => ⟨S100000, .f32⟩
  | 104 => ⟨S_, .f32⟩
  | 105 => ⟨S_, .f32⟩
  | 106 => ⟨S100000, .f32⟩
  | 107 => ⟨S100000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S1600000, .f32⟩
  | 127 => ⟨S1600000x1, .f32⟩
  | _ => ⟨S100000x64, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S1600000x64, .f32⟩
  | 10 => ⟨S1600000x64, .f32⟩
  | 11 => ⟨S_, .f32⟩
  | 12 => ⟨S100000x64, .f32⟩
  | 13 => ⟨S1600000x1, .i32⟩
  | 14 => ⟨S100000x64, .f32⟩
  | 15 => ⟨S1600000x1, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S1600000x64, .f32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000, .f32⟩
  | 66 => ⟨S800000, .f32⟩
  | 67 => ⟨S800000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S800000x1, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_c_10 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_12 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_cst_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_cst_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_19 : Ref sig .tc := ⟨.hbm, 104, rfl⟩
abbrev main_call1_v0 : Ref sig .tc := ⟨.hbm, 105, rfl⟩
abbrev main_call1_v1 : Ref sig .tc := ⟨.hbm, 106, rfl⟩
abbrev main_v73 : Ref sig .tc := ⟨.hbm, 107, rfl⟩
abbrev main_c_20 : Ref sig .tc := ⟨.hbm, 108, rfl⟩
abbrev main_v74 : Ref sig .tc := ⟨.hbm, 109, rfl⟩
abbrev main_v75 : Ref sig .tc := ⟨.hbm, 110, rfl⟩
abbrev main_c_21 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_22 : Ref sig .tc := ⟨.hbm, 117, rfl⟩
abbrev main_v81 : Ref sig .tc := ⟨.hbm, 118, rfl⟩
abbrev main_v82 : Ref sig .tc := ⟨.hbm, 119, rfl⟩
abbrev main_c_23 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_24 : Ref sig .tc := ⟨.hbm, 128, rfl⟩
abbrev main_v90 : Ref sig .tc := ⟨.hbm, 129, rfl⟩
abbrev main_v91 : Ref sig .tc := ⟨.hbm, 130, rfl⟩
abbrev main_c_25 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_26 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_27 : Ref sig .tc := ⟨.hbm, 144, rfl⟩
abbrev main_v103 : Ref sig .tc := ⟨.hbm, 145, rfl⟩
abbrev main_v104 : Ref sig .tc := ⟨.hbm, 146, rfl⟩
abbrev main_c_28 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_29 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_30 : Ref sig .tc := ⟨.hbm, 159, rfl⟩
abbrev main_v115 : Ref sig .tc := ⟨.hbm, 160, rfl⟩
abbrev main_cst_31 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_32 : Ref sig .tc := ⟨.hbm, 165, rfl⟩
abbrev main_v119 : Ref sig .tc := ⟨.hbm, 166, rfl⟩
abbrev main_v120 : Ref sig .tc := ⟨.hbm, 167, rfl⟩
abbrev main_cst_33 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_34 : Ref sig .tc := ⟨.hbm, 172, rfl⟩
abbrev main_call2_v0 : Ref sig .tc := ⟨.hbm, 173, rfl⟩
abbrev main_call2_v1 : Ref sig .tc := ⟨.hbm, 174, rfl⟩
abbrev main_v124 : Ref sig .tc := ⟨.hbm, 175, rfl⟩
abbrev main_c_35 : Ref sig .tc := ⟨.hbm, 176, rfl⟩
abbrev main_v125 : Ref sig .tc := ⟨.hbm, 177, rfl⟩
abbrev main_v126 : Ref sig .tc := ⟨.hbm, 178, rfl⟩
abbrev main_c_36 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_c_37 : Ref sig .tc := ⟨.hbm, 185, rfl⟩
abbrev main_v132 : Ref sig .tc := ⟨.hbm, 186, rfl⟩
abbrev main_v133 : Ref sig .tc := ⟨.hbm, 187, rfl⟩
abbrev main_c_38 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_c_39 : Ref sig .tc := ⟨.hbm, 196, rfl⟩
abbrev main_v141 : Ref sig .tc := ⟨.hbm, 197, rfl⟩
abbrev main_v142 : Ref sig .tc := ⟨.hbm, 198, rfl⟩
abbrev main_c_40 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_cst_41 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_c_42 : Ref sig .tc := ⟨.hbm, 212, rfl⟩
abbrev main_v154 : Ref sig .tc := ⟨.hbm, 213, rfl⟩
abbrev main_v155 : Ref sig .tc := ⟨.hbm, 214, rfl⟩
abbrev main_c_43 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_44 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  concatenates_S1600000_S1600000_S3200000_d0 : Shape.Concatenates [S1600000, S1600000] S3200000 0
  bcast_S_S3200000 : S_.BroadcastsInDim S3200000 (![] : Fin 0 → Fin S3200000.rank)
  bcast_S_S150000 : S_.BroadcastsInDim S150000 (![] : Fin 0 → Fin S150000.rank)
  bcast_S3200000_S3200000x1_0 : S3200000.BroadcastsInDim S3200000x1 (![0] : Fin 1 → Fin S3200000x1.rank)
  concatenates_S100000x64_S50000x64_S150000x64_d0 : Shape.Concatenates [S100000x64, S50000x64] S150000x64 0
  bcast_S3200000x1_S3200000x64_0_1 : S3200000x1.BroadcastsInDim S3200000x64 (![0, 1] : Fin 2 → Fin S3200000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  scatter_S150000_S3200000x1_S3200000_n_0_0_1_wf : ScatterDims.WF S150000 S3200000x1 S3200000 [] [0] [0] 1
  gather_S150000_S3200000x1_S3200000_n_0_n_n_0_1_1_wf : GatherDims.WF S150000 S3200000x1 S3200000 [] [0] [] [0] [] 1 ![1]
  gather_S150000x64_S3200000x1_S3200000x64_1_0_n_n_0_1_164_wf : GatherDims.WF S150000x64 S3200000x1 S3200000x64 [1] [0] [] [0] [] 1 ![1, 64]
  scatter_S150000x64_S3200000x1_S3200000x64_1_0_0_1_wf : ScatterDims.WF S150000x64 S3200000x1 S3200000x64 [1] [0] [0] 1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S150000_S3200000x1_S3200000_n_0_0_1 : ScatterDims S150000 S3200000x1 S3200000 where
  updateWindowDims := []
  insertedWindowDims := [0]
  scatterDimsToOperandDims := [0]
  indexVectorDim := 1
  wf := scatter_S150000_S3200000x1_S3200000_n_0_0_1_wf
def gather_S150000_S3200000x1_S3200000_n_0_n_n_0_1_1 : GatherDims S150000 S3200000x1 S3200000 where
  offsetDims := []
  collapsedSliceDims := [0]
  operandBatchingDims := []
  startIndicesBatchingDims := []
  startIndexMap := [0]
  indexVectorDim := 1
  sliceSizes := ![1]
  wf := gather_S150000_S3200000x1_S3200000_n_0_n_n_0_1_1_wf
def gather_S150000x64_S3200000x1_S3200000x64_1_0_n_n_0_1_164 : GatherDims S150000x64 S3200000x1 S3200000x64 where
  offsetDims := [1]
  collapsedSliceDims := [0]
  operandBatchingDims := []
  startIndicesBatchingDims := []
  startIndexMap := [0]
  indexVectorDim := 1
  sliceSizes := ![1, 64]
  wf := gather_S150000x64_S3200000x1_S3200000x64_1_0_n_n_0_1_164_wf
def scatter_S150000x64_S3200000x1_S3200000x64_1_0_0_1 : ScatterDims S150000x64 S3200000x1 S3200000x64 where
  updateWindowDims := [1]
  insertedWindowDims := [0]
  scatterDimsToOperandDims := [0]
  indexVectorDim := 1
  wf := scatter_S150000x64_S3200000x1_S3200000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.K.RegionOf.lean ====
/-
  One record for all twelve regions: a region whose invariant keeps scoped buffers only, whose data holds its arrays at
  the full share and owes nothing, is a segment of the program over the thread state "every unscoped buffer of the core
  at a valuation; beside them the generator register at some state and the core owing nothing".
-/
import proofs.«130096_j52458730553647_1_alg».proof.Proof.KernelRegions
import Idealize.ShloMosaic.Lib.Pipeline.RegionsLoop
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-! ## A region whose invariant holds scoped buffers only, over the thread state "every unscoped buffer at a valuation, the rest beside"

For any pipeline `p` of the program and any proof data family: if `p`'s data reads its arrays off a valuation `V`, holds
them at the full share, owes nothing at any point, and keeps in its invariant nothing but the scoped buffers no window
stages, then the region is a segment entered from every unscoped buffer at `V` and left at any `V'` that has the arrays
at what the write-backs leave and agrees with `V` off them. -/

section
variable (pdats : (p : Fin 12) → (c : Dev nD) → Dat τ (Elt F) Unit ℕ (UR sig nD τ) ℕ (cfgs p) c)
variable (p : Fin 12) (kit : Pipeline.LaunchFacts (nD := nD) (τ := τ) cfgs p)
variable (V V' : Dev nD → Valuation τ sig (Elt F))

/-- No pipeline of the program prefetches a table: the tables held are nothing. -/
theorem prefHeld_none (c : Dev nD) :
    (BI.emp : sProp 𝕄) ⊢ Pipeline.prefHeld (pcfgs (F := F) p).pre c (fun _ => fullShare) (adm p).1 := by
  unfold Pipeline.prefHeld
  rw [Finset.univ_eq_empty, BI.bigSep_empty]

/-- A core that owes nothing, whatever pairs its waits have recorded, owes what the data says before the first point. -/
theorem owesAt_first (c : Dev nD) (h0 : (pdats p c).owed 0 = 0) (hrec : (pdats p c).recorded 0 = Set.univ) :
    (iprop(∃ W, owes (c : Thread nD τ) (0 : CellTallies nD τ sig Unit) W) : sProp 𝕄) ⊢ (pdats p c).owesAt () 0 := by
  unfold Pipeline.Dat.owesAt Pipeline.owesWithin
  rw [h0]
  iintro ⟨%W, H⟩
  iexists W
  isplitr
  · ipureintro
    intro x _
    exact Or.inl (hrec ▸ Set.mem_univ x)
  · iexact H

/-- After the last point the core owes what the data says there: nothing. -/
theorem owes_last (c : Dev nD) (hN : (pdats p c).owed (Fin.last (cfgs p).N) = 0) :
    (pdats p c).owesAt () (Fin.last (cfgs p).N) ⊢ (iprop(∃ W, owes (c : Thread nD τ) (0 : CellTallies nD τ sig Unit) W) : sProp 𝕄) := by
  unfold Pipeline.Dat.owesAt Pipeline.owesWithin
  rw [hN]
  iintro ⟨%W, -, H⟩
  iexists W
  iexact H

variable (hA : ∀ c w, (pdats p c).A w = V c (Pipeline.arrRef (cfgs p).spec w))
  (hq : ∀ c w, (pdats p c).q w = fullShare)

include kit hA hq in
/-- The pipeline's arrays, at their entry contents, out of the unscoped buffers at `V`. -/
theorem arrays_out (c : Dev nD) :
    (StableHlo.held (c : Thread nD τ) (Pipeline.ucRefs τ sig) (V c) : sProp 𝕄)
      ⊢ iprop((pdats p c).arrays ((pdats p c).arrAt · 0)
          ∗ Pipeline.unscopedRest (Ix := Unit) (Name := ℕ) (U := UR sig nD τ) (Lvl := ℕ) (cfgs p).spec c (fun b => V c b)) := by
  rw [← Pipeline.unscopedBufs_held (Ix := Unit) (Name := ℕ) (U := UR sig nD τ) (Lvl := ℕ) c (V c)]
  exact Pipeline.arrays_of_unscopedBufs (p := p) (pcfgs (F := F)) adm pdats kit.win kit.arr_whole c
    ((pdats p c).share_full (hq c)) (fun b => V c b) (hA c)

include kit hq in
/-- The arrays, at what the write-backs leave, back among the unscoped buffers: at `V'`. -/
theorem arrays_back (hF : ∀ c w, (pdats p c).arrAt w (cfgs p).N = V' c (Pipeline.arrRef (cfgs p).spec w))
    (hrest : ∀ c (b : Ref sig .tc), b ∉ Finset.univ.image (Pipeline.arrRef (cfgs p).spec) → V' c b = V c b) (c : Dev nD) :
    iprop((pdats p c).arrays ((pdats p c).arrAt · (cfgs p).N)
        ∗ Pipeline.unscopedRest (Ix := Unit) (Name := ℕ) (U := UR sig nD τ) (Lvl := ℕ) (cfgs p).spec c (fun b => V c b))
      ⊢ (StableHlo.held (c : Thread nD τ) (Pipeline.ucRefs τ sig) (V' c) : sProp 𝕄) := by
  rw [← Pipeline.unscopedBufs_held (Ix := Unit) (Name := ℕ) (U := UR sig nD τ) (Lvl := ℕ) c (V' c)]
  exact Pipeline.unscopedBufs_of_arrays (p := p) (pcfgs (F := F)) adm (Ix := Unit) (Name := ℕ) (U := UR sig nD τ) (Lvl := ℕ)
    kit.win kit.arr_whole c pdats ((pdats p c).share_full (hq c)) (fun b => V c b) (fun b => V' c b)
    ((pdats p c).arrAt · (cfgs p).N) (hF c) (hrest c)

set_option backward.isDefEq.respectTransparency.types false in
/-- The region's record. The generator register and the core's `owes` ride beside the buffers: the register bypasses the
    region, the `owes` goes through the pipeline at nothing owed. -/
def regionOf
    (howed : ∀ c t, (pdats p c).owed t = 0)
    (hrec : ∀ c, (pdats p c).recorded 0 = Set.univ)
    (hbody : ∀ c, Pipeline.BodyObligation (pdats p c) (defs₀ (F := F)) 𝒱₀ () Set.univ)
    (hΦin : ∀ c, (Pipeline.scopedRest (Ix := Unit) (Name := ℕ) (U := UR sig nD τ) (Lvl := ℕ) (Val := Elt F) (cfgs p).spec c : sProp 𝕄) ⊢ (pdats p c).Φ 0)
    (hΦout : ∀ c, (pdats p c).Φ (Fin.last (cfgs p).N) ⊢ (Pipeline.scopedRest (Ix := Unit) (Name := ℕ) (U := UR sig nD τ) (Lvl := ℕ) (Val := Elt F) (cfgs p).spec c : sProp 𝕄))
    (hF : ∀ c w, (pdats p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm pdats () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X _ := BI.emp
  Y _ := BI.emp
  Z c := iprop(Pipeline.unscopedRest (Ix := Unit) (Name := ℕ) (U := UR sig nD τ) (Lvl := ℕ) (cfgs p).spec c (fun b => V c b) ∗ ∃ r, prngReg c r)
  hentry c := by
    rw [Pipeline.ownSems0_none]
    iintro ⟨⟨Hheld, Hprng, Howes⟩, -, -⟩
    imodintro
    ihave Hsplit := arrays_out pdats p kit V hA hq c $$ Hheld
    icases Hsplit with ⟨Harr, Hrest⟩
    isplitl [Harr]; · iexact Harr
    isplitr; · iapply prefHeld_none p c; iempintro
    isplitl [Howes]; · iapply owesAt_first pdats p c (howed c 0) (hrec c); iexact Howes
    isplitr; · iempintro
    isplitl [Hrest]; · iexact Hrest
    iexact Hprng
  hin c := by
    iintro ⟨-, -, Hs⟩
    iapply hΦin c
    iexact Hs
  hout c := by
    rw [Pipeline.ownSems0_none]
    refine (hΦout c).trans ?_
    iintro Hs
    isplitr; · iempintro
    isplitr; · iempintro
    iexact Hs
  hexit c := by
    iintro ⟨Harr, Howes, -, Hrest, Hprng⟩
    imodintro
    isplitl [Harr Hrest]
    · iapply arrays_back pdats p kit V V' hq hF hrest c
      isplitl [Harr]; · iexact Harr
      iexact Hrest
    isplitl [Hprng]; · iexact Hprng
    iapply owes_last pdats p c (howed c (Fin.last _))
    iexact Howes
end

end Cert.Kernel.Hand

end
-- ==== Proof.K.RunCond.lean ====
/-
  The program's run, given its twelve regions' records: for any contents `outs` the regions leave, any proof data and
  any twelve segment records pinned to the thread states between the items (every unscoped buffer at the item's
  valuation; beside them the generator register at some state and the core owing nothing), every weakly fair execution
  from memory `m` with zero counters terminates, and every final memory holds every unscoped buffer of every core at the
  last valuation.
-/
import proofs.«130096_j52458730553647_1_alg».proof.Proof.K.RegionOf

set_option maxRecDepth 16384
set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- The same rest between any two items. -/
abbrev E : Fin 13 → Dev nD → sProp 𝕄 := fun _ => R

/-- The rest holds the core owing nothing. -/
theorem rest_owes (c : Dev nD) :
    (R c : sProp 𝕄) ⊢ iprop(∃ W, owes (c : Thread nD τ) (0 : CellTallies nD τ sig Unit) W) := by
  iintro ⟨-, H⟩
  iexact H

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_cond (outs : Outs (F := F))
    (pdats : (p : Fin 12) → (c : Dev nD) → Dat τ (Elt F) Unit ℕ (UR sig nD τ) ℕ (cfgs p) c)
    (S0 : RegionSeg (pcfgs (F := F)) adm pdats () defs₀ 𝒱₀ L lv 0)
    (hpre0 : ∀ c : Dev nD, iprop(StableHlo.held (c : Thread nD τ) (Pipeline.ucRefs τ sig) (V11 m c) ∗ R c) ⊢ S0.pre c)
    (hpost0 : ∀ c : Dev nD, S0.post c ⊢ iprop(StableHlo.held (c : Thread nD τ) (Pipeline.ucRefs τ sig) (V12 m outs c) ∗ R c))
    (S1 : RegionSeg (pcfgs (F := F)) adm pdats () defs₀ 𝒱₀ L lv 1)
    (hpre1 : ∀ c : Dev nD, iprop(StableHlo.held (c : Thread nD τ) (Pipeline.ucRefs τ sig) (V12 m outs c) ∗ R c) ⊢ S1.pre c)
    (hpost1 : ∀ c : Dev nD, S1.post c ⊢ iprop(StableHlo.held (c : Thread nD τ) (Pipeline.ucRefs τ sig) (V13 m outs c) ∗ R c))
    (S2 : RegionSeg (pcfgs (F := F)) adm pdats () defs₀ 𝒱₀ L lv 2)
    (hpre2 : ∀ c : Dev nD, iprop(StableHlo.held (c : Thread nD τ) (Pipeline.ucRefs τ sig) (V22 m outs c) ∗ R c) ⊢ S2.pre c)
    (hpost2 : ∀ c : Dev nD, S2.post c ⊢ iprop(StableHlo.held (c : Thread nD τ) (Pipeline.ucRefs τ sig) (V23 m outs c) ∗ R c))
    (S3 : RegionSeg (pcfgs (F := F)) adm pdats () defs₀ 𝒱₀ L lv 3)
    (hpre3 : ∀ c : Dev nD, iprop(StableHlo.held (c : Thread nD τ) (Pipeline.ucRefs τ sig) (V23 m outs c) ∗ R c) ⊢ S3.pre c)
    (hpost3 : ∀ c : Dev nD, S3.post c ⊢ iprop(StableHlo.held (c : Thread nD τ) (Pipeline.ucRefs τ sig) (V24 m outs c) ∗ R c))
    (S4 : RegionSeg (pcfgs (F := F)) adm pdats () defs₀ 𝒱₀ L lv 4)
    (hpre4 : ∀ c : Dev nD, iprop(StableHlo.held (c : Thread nD τ) (Pipeline.ucRefs τ sig) (V35 m outs c) ∗ R c) ⊢ S4.pre c)
    (hpost4 : ∀ c : Dev nD, S4.post c ⊢ iprop(StableHlo.held (c : Thread nD τ) (Pipeline.ucRefs τ sig) (V36 m outs c) ∗ R c))
    (S5 : RegionSeg (pcfgs (F := F)) adm pdats () defs₀ 𝒱₀ L lv 5)
    (hpre5 : ∀ c : Dev nD, iprop(StableHlo.held (c : Thread nD τ) (Pipeline.ucRefs τ sig) (V36 m outs c) ∗ R c) ⊢ S5.pre c)
    (hpost5 : ∀ c : Dev nD, S5.post c ⊢ iprop(StableHlo.held (c : Thread nD τ) (Pipeline.ucRefs τ sig) (V37 m outs c) ∗ R c))
    (S6 : RegionSeg (pcfgs (F := F)) adm pdats () defs₀ 𝒱₀ L lv 6)
    (hpre6 : ∀ c : Dev nD, iprop(StableHlo.held (c : Thread nD τ) (Pipeline.ucRefs τ sig) (V46 m outs c) ∗ R c) ⊢ S6.pre c)
    (hpost6 : ∀ c : Dev nD, S6.post c ⊢ iprop(StableHlo.held (c : Thread nD τ) (Pipeline.ucRefs τ sig) (V47 m outs c) ∗ R c))
    (S7 : RegionSeg (pcfgs (F := F)) adm pdats () defs₀ 𝒱₀ L lv 7)
    (hpre7 : ∀ c : Dev nD, iprop(StableHlo.held (c : Thread nD τ) (Pipeline.ucRefs τ sig) (V47 m outs c) ∗ R c) ⊢ S7.pre c)
    (hpost7 : ∀ c : Dev nD, S7.post c ⊢ iprop(StableHlo.held (c : Thread nD τ) (Pipeline.ucRefs τ sig) (V48 m outs c) ∗ R c))
    (S8 : RegionSeg (pcfgs (F := F)) adm pdats () defs₀ 𝒱₀ L lv 8)
    (hpre8 : ∀ c : Dev nD, iprop(StableHlo.held (c : Thread nD τ) (Pipeline.ucRefs τ sig) (V59 m outs c) ∗ R c) ⊢ S8.pre c)
    (hpost8 : ∀ c : Dev nD, S8.post c ⊢ iprop(StableHlo.held (c : Thread nD τ) (Pipeline.ucRefs τ sig) (V60 m outs c) ∗ R c))
    (S9 : RegionSeg (pcfgs (F := F)) adm pdats () defs₀ 𝒱₀ L lv 9)
    (hpre9 : ∀ c : Dev nD, iprop(StableHlo.held (c : Thread nD τ) (Pipeline.ucRefs τ sig) (V60 m outs c) ∗ R c) ⊢ S9.pre c)
    (hpost9 : ∀ c : Dev nD, S9.post c ⊢ iprop(StableHlo.held (c : Thread nD τ) (Pipeline.ucRefs τ sig) (V61 m outs c) ∗ R c))
    (S10 : RegionSeg (pcfgs (F := F)) adm pdats () defs₀ 𝒱₀ L lv 10)
    (hpre10 : ∀ c : Dev nD, iprop(StableHlo.held (c : Thread nD τ) (Pipeline.ucRefs τ sig) (V70 m outs c) ∗ R c) ⊢ S10.pre c)
    (hpost10 : ∀ c : Dev nD, S10.post c ⊢ iprop(StableHlo.held (c : Thread nD τ) (Pipeline.ucRefs τ sig) (V71 m outs c) ∗ R c))
    (S11 : RegionSeg (pcfgs (F := F)) adm pdats () defs₀ 𝒱₀ L lv 11)
    (hpre11 : ∀ c : Dev nD, iprop(StableHlo.held (c : Thread nD τ) (Pipeline.ucRefs τ sig) (V71 m outs c) ∗ R c) ⊢ S11.pre c)
    (hpost11 : ∀ c : Dev nD, S11.post c ⊢ iprop(StableHlo.held (c : Thread nD τ) (Pipeline.ucRefs τ sig) (V72 m outs c) ∗ R c)) :
    θ_run defs (onTc (τ := τ) (main (F := F))) ⟨m, fun _ => 0, ρ⟩
      (fun r => ∀ c : Dev nD, ∀ b ∈ Pipeline.ucRefs τ sig, r.2.mem (((c : Thread nD τ)).1, b) = V73 m outs c b) := by
  refine Pipeline.θ_run_regions_kit_dev (pcfgs (F := F)) adm pdats () cellOf_inj emb₁ defs₀ 𝒱₀ L lv m ρ main
    (segs m outs 𝒱₀ L lv E () pdats S0 S1 S2 S3 S4 S5 S6 S7 S8 S9 S10 S11)
    (fun c Q => by
      rewrite [main_chain c, Seg.run_eq_chain,
        show (segs m outs 𝒱₀ L lv E () pdats S0 S1 S2 S3 S4 S5 S6 S7 S8 S9 S10 S11 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          StableHlo.seq hostOps4_9,
          StableHlo.seq hostOps4_10,
          Prog.lift (.customCall (Pipeline.entry 4) ()),
          Prog.lift (.customCall (Pipeline.entry 5) ()),
          StableHlo.seq hostOps6,
          StableHlo.seq hostOps6_1,
          StableHlo.seq hostOps6_2,
          StableHlo.seq hostOps6_3,
          StableHlo.seq hostOps6_4,
          StableHlo.seq hostOps6_5,
          StableHlo.seq hostOps6_6,
          StableHlo.seq hostOps6_7,
          StableHlo.seq hostOps6_8,
          Prog.lift (.customCall (Pipeline.entry 6) ()),
          Prog.lift (.customCall (Pipeline.entry 7) ()),
          StableHlo.seq hostOps8,
          StableHlo.seq hostOps8_1,
          StableHlo.seq hostOps8_2,
          StableHlo.seq hostOps8_3,
          StableHlo.seq hostOps8_4,
          StableHlo.seq hostOps8_5,
          StableHlo.seq hostOps8_6,
          StableHlo.seq hostOps8_7,
          StableHlo.seq hostOps8_8,
          StableHlo.seq hostOps8_9,
          StableHlo.seq hostOps8_10,
          Prog.lift (.customCall (Pipeline.entry 8) ()),
          Prog.lift (.customCall (Pipeline.entry 9) ()),
          StableHlo.seq hostOps10,
          StableHlo.seq hostOps10_1,
          StableHlo.seq hostOps10_2,
          StableHlo.seq hostOps10_3,
          StableHlo.seq hostOps10_4,
          StableHlo.seq hostOps10_5,
          StableHlo.seq hostOps10_6,
          StableHlo.seq hostOps10_7,
          StableHlo.seq hostOps10_8,
          Prog.lift (.customCall (Pipeline.entry 10) ()),
          Prog.lift (.customCall (Pipeline.entry 11) ()),
          StableHlo.seq hostOps12 ] from rfl]
      with_reducible exact .rfl)
    (fun c => by simp only [segs, Seg.pipes_host, Seg.pipes_region, Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c))
    (Tₙ := fun c => StableHlo.held (c : Thread nD τ) (Pipeline.ucRefs τ sig) (V73 m outs c))
    (hch := fun c => ⟨.rfl, .rfl, .rfl, .rfl, .rfl, .rfl, .rfl, .rfl, .rfl, .rfl, .rfl, hpre0 c, (hpost0 c).trans (hpre1 c), hpost1 c, .rfl, .rfl, .rfl, .rfl, .rfl, .rfl, .rfl, .rfl, hpre2 c, (hpost2 c).trans (hpre3 c), hpost3 c, .rfl, .rfl, .rfl, .rfl, .rfl, .rfl, .rfl, .rfl, .rfl, .rfl, hpre4 c, (hpost4 c).trans (hpre5 c), hpost5 c, .rfl, .rfl, .rfl, .rfl, .rfl, .rfl, .rfl, .rfl, hpre6 c, (hpost6 c).trans (hpre7 c), hpost7 c, .rfl, .rfl, .rfl, .rfl, .rfl, .rfl, .rfl, .rfl, .rfl, .rfl, hpre8 c, (hpost8 c).trans (hpre9 c), hpost9 c, .rfl, .rfl, .rfl, .rfl, .rfl, .rfl, .rfl, .rfl, hpre10 c, (hpost10 c).trans (hpre11 c), hpost11 c, sep_mono .rfl (rest_owes c)⟩)
    (hinit := ?_)
    (QY := fun c s => ∀ b ∈ Pipeline.ucRefs τ sig, s.mem (((c : Thread nD τ)).1, b) = V73 m outs c b)
    (hfin := fun c s' => ?_) (hQ := fun _ h => h)
  · -- the launch element is the pipeline library's; no ghost resource per core
    rw [BI.bigSep_emp_const]
    have hown : (ownU (initOf (Pipeline.cells cfgs cellOf_inj) (Pipeline.launchToks cfgs cellOf_inj)) : sProp 𝕄)
        ⊢ BI.own (emb₁ (initOf (Pipeline.cells (Pipeline.pin (pcfgs (F := F)) adm) cellOf_inj)
            (Pipeline.launchToks (Pipeline.pin (pcfgs (F := F)) adm) cellOf_inj))) := .rfl
    iintro Hu
    imodintro
    isplitl [Hu]
    · iapply hown; iexact Hu
    · iempintro
  · -- the launch: on each core the unscoped buffers at the launch contents, the generator register, nothing owed
    refine Pipeline.initEach L lv fun c => ?_
    have e : (unscopedBufs c (fun b => m ((c : Thread nD τ).loc b)) : sProp 𝕄)
        = StableHlo.held (c : Thread nD τ) (Pipeline.ucRefs τ sig) (V0 m c) := Pipeline.unscopedBufs_held c (V0 m c)
    rw [e]
    iintro ⟨⟨Hheld, -, Howes, -, Hprng, -⟩, -⟩
    imodintro
    isplitl [Hheld]; · iexact Hheld
    isplitl [Hprng]
    · iexists _; iexact Hprng
    · iexists ∅; iexact Howes
  · -- the end: every unscoped buffer read off the last valuation
    unfold StableHlo.held
    exact (pointsTo_read_all (Pipeline.ucRefs τ sig) (fun b => (((c : Thread nD τ)).1, b)) (V73 m outs c) s').trans fupd_intro

end Cert.Kernel.Hand

end
-- ==== Proof.K.Outs.lean ====
/-
  The contents the twelve regions leave, pinned. Between two items of the program a core holds its unscoped buffers at a
  valuation written over unknowns `outs`, which it reads at twelve points only: region k's result array at the item after
  the region. Given, per region, what it leaves in its result array as a function of the contents it is entered from,
  there is one `outs` at which each of the twelve points holds its region's result computed from the entry contents AT THAT
  SAME `outs`: the k-th value is computed over the first k values, and those are all that the k-th entry contents read.
-/
import proofs.«130096_j52458730553647_1_alg».proof.Proof.KernelRegions

set_option maxRecDepth 16384

noncomputable section

namespace Cert.Kernel.Hand

open Cert.Kernel Cert.Kernel.Gen
open Idealize.ShloMosaic Idealize.ShloMosaic.TcCoe

variable {F : FTy → Type} [FloatOps F]

/-- Contents of a TensorCore's buffers, per core: what a region is entered from. -/
abbrev Entry (F : FTy → Type) : Type := (c : Dev nD) → (b : Ref sig .tc) → Buf (Elt F) ((c : Thread nD τ).loc b)

/-- Region `k`'s result array. -/
def resRef : Fin 12 → Ref sig .tc
  | ⟨0, _⟩ => main_v39 | ⟨1, _⟩ => main_v40 | ⟨2, _⟩ => main_v51 | ⟨3, _⟩ => main_v52
  | ⟨4, _⟩ => main_v90 | ⟨5, _⟩ => main_v91 | ⟨6, _⟩ => main_v100 | ⟨7, _⟩ => main_v101
  | ⟨8, _⟩ => main_v135 | ⟨9, _⟩ => main_v136 | ⟨10, _⟩ => main_v145 | ⟨11, _⟩ => main_v146

/-- The item after region `k`: the point at which its result array is read. -/
def exitAt : Fin 12 → ℕ
  | ⟨0, _⟩ => 12 | ⟨1, _⟩ => 13 | ⟨2, _⟩ => 23 | ⟨3, _⟩ => 24 | ⟨4, _⟩ => 36 | ⟨5, _⟩ => 37
  | ⟨6, _⟩ => 47 | ⟨7, _⟩ => 48 | ⟨8, _⟩ => 60 | ⟨9, _⟩ => 61 | ⟨10, _⟩ => 71 | ⟨11, _⟩ => 72

/-- The twelve result arrays are distinct. -/
theorem resRef_inj : Function.Injective resRef := by decide

variable (m : (ℓ : Loc nD τ sig) → Buf (Elt F) ℓ)

/-- The contents region `k` is entered from, over the unknowns `o`. -/
def entryV (o : Outs (F := F)) (c : Dev nD) : Fin 12 → Valuation τ sig (Elt F)
  | ⟨0, _⟩ => V11 m c | ⟨1, _⟩ => V12 m o c | ⟨2, _⟩ => V22 m o c | ⟨3, _⟩ => V23 m o c
  | ⟨4, _⟩ => V35 m o c | ⟨5, _⟩ => V36 m o c | ⟨6, _⟩ => V46 m o c | ⟨7, _⟩ => V47 m o c
  | ⟨8, _⟩ => V59 m o c | ⟨9, _⟩ => V60 m o c | ⟨10, _⟩ => V70 m o c | ⟨11, _⟩ => V71 m o c

/-- The same, read at the TensorCore's references. -/
abbrev entryAt (o : Outs (F := F)) (k : Fin 12) : Entry F := fun c b => entryV m o c k b

/-- Two families of unknowns agree, on core `c`, at the points of the first `n` regions. -/
def AgreeOn (n : ℕ) (o o' : Outs (F := F)) (c : Dev nD) : Prop :=
  ∀ j : Fin 12, j.val < n → o (exitAt j) (resRef j) c = o' (exitAt j) (resRef j) c

theorem AgreeOn.mono {n n' : ℕ} {o o' : Outs (F := F)} {c : Dev nD} (h : AgreeOn n' o o' c) (hn : n ≤ n') : AgreeOn n o o' c :=
  fun j hj => h j (Nat.lt_of_lt_of_le hj hn)

theorem AgreeOn.symm {n : ℕ} {o o' : Outs (F := F)} {c : Dev nD} (h : AgreeOn n o o' c) : AgreeOn n o' o c :=
  fun j hj => (h j hj).symm

/-! ## A valuation between items reads the unknowns only at the points of the regions before it -/

section Congr
variable {o o' : Outs (F := F)} (c : Dev nD)

theorem V12_congr (h : AgreeOn 1 o o' c) : V12 m o c = V12 m o' c := by
  have h0 : o 12 main_v39 c = o' 12 main_v39 c := h 0 (by decide)
  show Function.update (V11 m c) main_v39 (o 12 main_v39 c) = Function.update (V11 m c) main_v39 (o' 12 main_v39 c)
  rw [h0]

theorem V13_congr (h : AgreeOn 2 o o' c) : V13 m o c = V13 m o' c := by
  have e := V12_congr m c (h.mono (by decide))
  have h1 : o 13 main_v40 c = o' 13 main_v40 c := h 1 (by decide)
  show Function.update (V12 m o c) main_v40 (o 13 main_v40 c) = Function.update (V12 m o' c) main_v40 (o' 13 main_v40 c)
  rw [e, h1]

theorem V22_congr (h : AgreeOn 2 o o' c) : V22 m o c = V22 m o' c :=
  congrArg (StableHlo.after hostOps2_8) <| congrArg (StableHlo.after hostOps2_7) <| congrArg (StableHlo.after hostOps2_6) <|
    congrArg (StableHlo.after hostOps2_5) <| congrArg (StableHlo.after hostOps2_4) <| congrArg (StableHlo.after hostOps2_3) <|
    congrArg (StableHlo.after hostOps2_2) <| congrArg (StableHlo.after hostOps2_1) <| congrArg (StableHlo.after hostOps2) (V13_congr m c h)

theorem V23_congr (h : AgreeOn 3 o o' c) : V23 m o c = V23 m o' c := by
  have e := V22_congr m c (h.mono (by decide))
  have h2 : o 23 main_v51 c = o' 23 main_v51 c := h 2 (by decide)
  show Function.update (V22 m o c) main_v51 (o 23 main_v51 c) = Function.update (V22 m o' c) main_v51 (o' 23 main_v51 c)
  rw [e, h2]

theorem V24_congr (h : AgreeOn 4 o o' c) : V24 m o c = V24 m o' c := by
  have e := V23_congr m c (h.mono (by decide))
  have h3 : o 24 main_v52 c = o' 24 main_v52 c := h 3 (by decide)
  show Function.update (V23 m o c) main_v52 (o 24 main_v52 c) = Function.update (V23 m o' c) main_v52 (o' 24 main_v52 c)
  rw [e, h3]

theorem V35_congr (h : AgreeOn 4 o o' c) : V35 m o c = V35 m o' c :=
  congrArg (StableHlo.after hostOps4_10) <| congrArg (StableHlo.after hostOps4_9) <| congrArg (StableHlo.after hostOps4_8) <|
    congrArg (StableHlo.after hostOps4_7) <| congrArg (StableHlo.after hostOps4_6) <| congrArg (StableHlo.after hostOps4_5) <|
    congrArg (StableHlo.after hostOps4_4) <| congrArg (StableHlo.after hostOps4_3) <| congrArg (StableHlo.after hostOps4_2) <|
    congrArg (StableHlo.after hostOps4_1) <| congrArg (StableHlo.after hostOps4) (V24_congr m c h)

theorem V36_congr (h : AgreeOn 5 o o' c) : V36 m o c = V36 m o' c := by
  have e := V35_congr m c (h.mono (by decide))
  have h4 : o 36 main_v90 c = o' 36 main_v90 c := h 4 (by decide)
  show Function.update (V35 m o c) main_v90 (o 36 main_v90 c) = Function.update (V35 m o' c) main_v90 (o' 36 main_v90 c)
  rw [e, h4]

theorem V37_congr (h : AgreeOn 6 o o' c) : V37 m o c = V37 m o' c := by
  have e := V36_congr m c (h.mono (by decide))
  have h5 : o 37 main_v91 c = o' 37 main_v91 c := h 5 (by decide)
  show Function.update (V36 m o c) main_v91 (o 37 main_v91 c) = Function.update (V36 m o' c) main_v91 (o' 37 main_v91 c)
  rw [e, h5]

theorem V46_congr (h : AgreeOn 6 o o' c) : V46 m o c = V46 m o' c :=
  congrArg (StableHlo.after hostOps6_8) <| congrArg (StableHlo.after hostOps6_7) <| congrArg (StableHlo.after hostOps6_6) <|
    congrArg (StableHlo.after hostOps6_5) <| congrArg (StableHlo.after hostOps6_4) <| congrArg (StableHlo.after hostOps6_3) <|
    congrArg (StableHlo.after hostOps6_2) <| congrArg (StableHlo.after hostOps6_1) <| congrArg (StableHlo.after hostOps6) (V37_congr m c h)

theorem V47_congr (h : AgreeOn 7 o o' c) : V47 m o c = V47 m o' c := by
  have e := V46_congr m c (h.mono (by decide))
  have h6 : o 47 main_v100 c = o' 47 main_v100 c := h 6 (by decide)
  show Function.update (V46 m o c) main_v100 (o 47 main_v100 c) = Function.update (V46 m o' c) main_v100 (o' 47 main_v100 c)
  rw [e, h6]

theorem V48_congr (h : AgreeOn 8 o o' c) : V48 m o c = V48 m o' c := by
  have e := V47_congr m c (h.mono (by decide))
  have h7 : o 48 main_v101 c = o' 48 main_v101 c := h 7 (by decide)
  show Function.update (V47 m o c) main_v101 (o 48 main_v101 c) = Function.update (V47 m o' c) main_v101 (o' 48 main_v101 c)
  rw [e, h7]

theorem V59_congr (h : AgreeOn 8 o o' c) : V59 m o c = V59 m o' c :=
  congrArg (StableHlo.after hostOps8_10) <| congrArg (StableHlo.after hostOps8_9) <| congrArg (StableHlo.after hostOps8_8) <|
    congrArg (StableHlo.after hostOps8_7) <| congrArg (StableHlo.after hostOps8_6) <| congrArg (StableHlo.after hostOps8_5) <|
    congrArg (StableHlo.after hostOps8_4) <| congrArg (StableHlo.after hostOps8_3) <| congrArg (StableHlo.after hostOps8_2) <|
    congrArg (StableHlo.after hostOps8_1) <| congrArg (StableHlo.after hostOps8) (V48_congr m c h)

theorem V60_congr (h : AgreeOn 9 o o' c) : V60 m o c = V60 m o' c := by
  have e := V59_congr m c (h.mono (by decide))
  have h8 : o 60 main_v135 c = o' 60 main_v135 c := h 8 (by decide)
  show Function.update (V59 m o c) main_v135 (o 60 main_v135 c) = Function.update (V59 m o' c) main_v135 (o' 60 main_v135 c)
  rw [e, h8]

theorem V61_congr (h : AgreeOn 10 o o' c) : V61 m o c = V61 m o' c := by
  have e := V60_congr m c (h.mono (by decide))
  have h9 : o 61 main_v136 c = o' 61 main_v136 c := h 9 (by decide)
  show Function.update (V60 m o c) main_v136 (o 61 main_v136 c) = Function.update (V60 m o' c) main_v136 (o' 61 main_v136 c)
  rw [e, h9]

theorem V70_congr (h : AgreeOn 10 o o' c) : V70 m o c = V70 m o' c :=
  congrArg (StableHlo.after hostOps10_8) <| congrArg (StableHlo.after hostOps10_7) <| congrArg (StableHlo.after hostOps10_6) <|
    congrArg (StableHlo.after hostOps10_5) <| congrArg (StableHlo.after hostOps10_4) <| congrArg (StableHlo.after hostOps10_3) <|
    congrArg (StableHlo.after hostOps10_2) <| congrArg (StableHlo.after hostOps10_1) <| congrArg (StableHlo.after hostOps10) (V61_congr m c h)

theorem V71_congr (h : AgreeOn 11 o o' c) : V71 m o c = V71 m o' c := by
  have e := V70_congr m c (h.mono (by decide))
  have h10 : o 71 main_v145 c = o' 71 main_v145 c := h 10 (by decide)
  show Function.update (V70 m o c) main_v145 (o 71 main_v145 c) = Function.update (V70 m o' c) main_v145 (o' 71 main_v145 c)
  rw [e, h10]

end Congr

/-- A valuation a region is entered from reads the unknowns only at the points of the regions before it. -/
theorem entryV_congr {o o' : Outs (F := F)} (c : Dev nD) (k : Fin 12) (h : AgreeOn k.val o o' c) : entryV m o c k = entryV m o' c k := by
  match k, h with
  | ⟨0, _⟩, _ => rfl
  | ⟨1, _⟩, h => exact V12_congr m c h
  | ⟨2, _⟩, h => exact V22_congr m c h
  | ⟨3, _⟩, h => exact V23_congr m c h
  | ⟨4, _⟩, h => exact V35_congr m c h
  | ⟨5, _⟩, h => exact V36_congr m c h
  | ⟨6, _⟩, h => exact V46_congr m c h
  | ⟨7, _⟩, h => exact V47_congr m c h
  | ⟨8, _⟩, h => exact V59_congr m c h
  | ⟨9, _⟩, h => exact V60_congr m c h
  | ⟨10, _⟩, h => exact V70_congr m c h
  | ⟨11, _⟩, h => exact V71_congr m c h

/-! ## The pinned unknowns -/

/-- What region `k` leaves in its result array on each core, as a function of the contents it is entered from. -/
abbrev Res (F : FTy → Type) : Type := (k : Fin 12) → Entry F → (c : Dev nD) → Buf (Elt F) ((c : Thread nD τ).loc (resRef k))

variable (res : Res F)

/-- The unknowns with the first `n` regions' points set, over the launch contents: region `n`'s value is computed from its
    entry contents over the first `n` values. (The item index is not read: a result array holds its value at every item.) -/
def stage : ℕ → Outs (F := F)
  | 0 => fun _ r c => m (c, r)
  | n + 1 => if h : n < 12 then fun J => Function.update (stage n J) (resRef ⟨n, h⟩) (res ⟨n, h⟩ (entryAt m (stage n) ⟨n, h⟩)) else stage n

/-- One more point set: the unknowns with `n + 1` points set, spelt out. -/
theorem stage_succ (n : ℕ) (h : n < 12) :
    stage m res (n + 1) = fun J => Function.update (stage m res n J) (resRef ⟨n, h⟩) (res ⟨n, h⟩ (entryAt m (stage m res n) ⟨n, h⟩)) := by
  rw [stage, dif_pos h]

/-- Setting region `n`'s point leaves the earlier regions' points as they were: the result arrays are distinct. -/
theorem stage_agree_succ (n : ℕ) (c : Dev nD) : AgreeOn n (stage m res (n + 1)) (stage m res n) c := by
  intro j hj
  by_cases h : n < 12
  · rw [stage_succ m res n h]
    show Function.update (stage m res n (exitAt j)) (resRef ⟨n, h⟩) (res ⟨n, h⟩ (entryAt m (stage m res n) ⟨n, h⟩)) (resRef j) c = _
    rw [Function.update_of_ne fun e => Nat.ne_of_lt hj (congrArg Fin.val (resRef_inj e))]
  · rw [stage, dif_neg h]

/-- Later stages keep the first `n` regions' points. -/
theorem stage_agree (n k : ℕ) (hk : n ≤ k) (c : Dev nD) : AgreeOn n (stage m res k) (stage m res n) c := by
  induction k, hk using Nat.le_induction with
  | base => exact fun _ _ => rfl
  | succ k hk ih => exact fun j hj => (((stage_agree_succ m res k c).mono hk) j hj).trans (ih j hj)

/-- Region `n`'s point, once set, holds its result from the entry contents over the first `n` values. -/
theorem stage_succ_self (n : ℕ) (h : n < 12) (J : ℕ) (c : Dev nD) :
    stage m res (n + 1) J (resRef ⟨n, h⟩) c = res ⟨n, h⟩ (entryAt m (stage m res n) ⟨n, h⟩) c := by
  rw [stage_succ m res n h]
  show Function.update (stage m res n J) (resRef ⟨n, h⟩) (res ⟨n, h⟩ (entryAt m (stage m res n) ⟨n, h⟩)) (resRef ⟨n, h⟩) c = _
  rw [Function.update_self]

/-- The pinned unknowns: all twelve points set. -/
def pinned : Outs (F := F) := stage m res 12

/-- At the item after region `k` its result array holds what the region leaves from its entry contents over the SAME unknowns:
    the value was computed over the first `k` points, the later stages keep it and them, and the entry contents read no other. -/
theorem pinned_exit (k : Fin 12) (c : Dev nD) :
    pinned m res (exitAt k) (resRef k) c = res k (entryAt m (pinned m res) k) c := by
  have hentry : entryAt m (stage m res k.val) k = entryAt m (pinned m res) k :=
    funext fun c' => funext fun b =>
      congrFun (entryV_congr m c' k (stage_agree m res k.val 12 (Nat.le_of_lt k.isLt) c').symm) b
  calc pinned m res (exitAt k) (resRef k) c
      = stage m res (k.val + 1) (exitAt k) (resRef k) c := stage_agree m res (k.val + 1) 12 k.isLt c k (Nat.lt_succ_self _)
    _ = res k (entryAt m (stage m res k.val) k) c := stage_succ_self m res k.val k.isLt (exitAt k) c
    _ = res k (entryAt m (pinned m res) k) c := by rw [hentry]

end Cert.Kernel.Hand

end
-- ==== Proof.K.Sched0.lean ====
/-
  The schedule of this gather launch, by arithmetic. The grid is 391 x 147 with the second axis
  innermost, so point t has first coordinate t / 147 % 391. The result window's block index depends on the first
  coordinate only; it therefore changes between t and t + 1 exactly when t is the last of its run of 147
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid0.stride 0 = 147 := by decide

/-- The result window's block index at point `t`: the first coordinate, then zeros. -/
private theorem index_out (t : Fin grid0.N) : win0_3.index t = ![t.val / 147 % 391, 0, 0] := by
  have h : (BitVec.ofNat 32 (t.val / 147 % 391)).toNat = t.val / 147 % 391 := by
    rw [BitVec.toNat_ofNat]; omega
  show cc0_transform_3 (grid0.coords t) = _
  unfold cc0_transform_3 Pipeline.Grid.coords
  simp only [stride_outer]
  show ![(BitVec.ofNat 32 (t.val / 147 % 391)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid0.N) :
    win0_3.index s ≠ win0_3.index t ↔ s.val / 147 % 391 ≠ t.val / 147 % 391 := by
  rw [index_out, index_out]; exact vec_ne _ _

/-- Window 3 (the result) is written back at the points ≡ 146 (mod 147): the last point of each run of 147 points
    sharing the first coordinate, the grid's last point among them. -/
theorem flush0_3 : ∀ t : Fin cfg0.N, (cfg0.win 3).flush t = true ↔ t.val % 147 = 146 := by
  intro t
  have hN : grid0.N = 57477 := N_0
  have hN' : cfg0.N = 57477 := N_0
  have ht : t.val < 57477 := lt_of_lt_of_eq t.isLt hN
  show win0_3.flush t = true ↔ _
  unfold Pipeline.Window.flush
  have hout : win0_3.isOut = true := rfl
  rw [hout, Bool.true_and, Bool.or_eq_true, decide_eq_true_eq, decide_eq_true_eq]
  constructor
  · rintro (h | ⟨h, hne⟩)
    · omega
    · have hq : (t.val + 1) / 147 % 391 ≠ t.val / 147 % 391 := (index_ne ⟨t.val + 1, h⟩ t).1 hne
      omega
  · intro h
    by_cases hl : t.val + 1 = grid0.N
    · exact Or.inl hl
    · have hlt : t.val + 1 < grid0.N := by omega
      have hq : (t.val + 1) / 147 % 391 ≠ t.val / 147 % 391 := by omega
      exact Or.inr ⟨hlt, (index_ne ⟨t.val + 1, hlt⟩ t).2 hq⟩

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

/-- The kernel body at point `t`, on what the pipeline calls it with (`defs₀`'s row at the slots). -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

end Cert.Kernel.Hand.Sched
-- ==== Proof.K.R0.lean ====
/-
  Region 0 of the program (the gather launch of the first propagation step), on any contents `V` of the unscoped
  buffers at its entry. Grid (391 edge chunks) x (147 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched0
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand.R0

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The chunk's column indices, the chunk's edge weights and the node tile's feature rows at point `t`, at their literal types. -/
abbrev colsBlk (c : Dev nD) (t : Fin cfg0.N) : Vec F S1x1x8192 .i32 := iblk V c 0 t
abbrev valsBlk (c : Dev nD) (t : Fin cfg0.N) : Vec F S1x1x8192 .f32 := iblk V c 1 t
abbrev featBlk (c : Dev nD) (t : Fin cfg0.N) : Vec F S1024x64 .f32 := iblk V c 2 t

/-- The accumulator after the body at point `t`, from the accumulator `a` before it: reset first when the point is a
    chunk's first tile. -/
def accStep (c : Dev nD) (t : Fin cfg0.N) (a : Vec F S8192x64 .f32) : Vec F S8192x64 .f32 :=
  k0_pay2 (grid0.coords t) (colsBlk V c t) (featBlk V c t) (if t.val % 147 = 0 then k0_pay1 else a)

/-- The accumulator before point `n` (after point `n - 1`). -/
def accAt (c : Dev nD) : ℕ → Vec F S8192x64 .f32
  | 0 => k0_pay1
  | n + 1 => if h : n < cfg0.N then accStep V c ⟨n, h⟩ (accAt c n) else k0_pay1

/-- The accumulator's buffer (the launch's scratch operand), whole. -/
abbrev accRef : Memref sig .tc .vmem S8192x64 .f32 := Memref.whole cc0_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (valsBlk V c t) (accAt V c (t.val + 1))
  Φ t := iprop((∃ a : Vec F S8192x64 .f32, owns (c : Thread nD τ) accRef fullShare a ∗ ⌜t.val % 147 ≠ 0 → a = accAt V c t.val⌝)
    ∗ Pipeline.scopedRestBut (Ix := Unit) (Name := ℕ) (U := UR sig nD τ) (Lvl := ℕ) (Val := Elt F) spec0 c [cc0_scratch0])
  q _ := fullShare
  owed _ := 0

theorem A_eq (c : Dev nD) (w : Fin cfg0.W) : (dat V c).A w = V c (Pipeline.arrRef spec0 w) := by
  dsimp only [dat]

theorem after_out (c : Dev nD) (t : Fin cfg0.N) :
    (dat V c).after 3 t = k0_pay3 (valsBlk V c t) (accAt V c (t.val + 1)) := by dsimp only [dat]

/-! ## The accumulator's recursion -/

/-- One step of the recursion at a grid point. -/
theorem accAt_succ (c : Dev nD) (t : Fin cfg0.N) : accAt V c (t.val + 1) = accStep V c t (accAt V c t.val) := by
  rw [accAt, dif_pos t.isLt]

/-- The invariant at any point, its conjuncts written out. -/
theorem Φ_eq (c : Dev nD) (u : Fin (cfg0.N + 1)) :
    (dat V c).Φ u = iprop((∃ a : Vec F S8192x64 .f32, owns (c : Thread nD τ) accRef fullShare a ∗ ⌜u.val % 147 ≠ 0 → a = accAt V c u.val⌝)
      ∗ Pipeline.scopedRestBut (Ix := Unit) (Name := ℕ) (U := UR sig nD τ) (Lvl := ℕ) (Val := Elt F) spec0 c [cc0_scratch0]) := by
  dsimp only [dat]

theorem after_cols (c : Dev nD) (t : Fin cfg0.N) : (dat V c).after 0 t = iblk V c 0 t := by dsimp only [dat]
theorem after_vals (c : Dev nD) (t : Fin cfg0.N) : (dat V c).after 1 t = iblk V c 1 t := by dsimp only [dat]
theorem after_feat (c : Dev nD) (t : Fin cfg0.N) : (dat V c).after 2 t = iblk V c 2 t := by dsimp only [dat]

/-! ## The body's two conditionals, over the grid -/

/-- The first conditional (the accumulator is reset), as the body computes it from the tile coordinate. -/
abbrev isFirst (i : grid0.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg0.N) : ((grid0.coords t) 1).val = t.val % 147 := by
  show t.val / grid0.stride 1 % grid0.bound 1 = t.val % 147
  rw [show grid0.stride 1 = 1 from by decide, Nat.div_one]
  rfl

/-- It holds exactly at a chunk's first tile. -/
theorem isFirst_iff (t : Fin cfg0.N) : isFirst (grid0.coords t) ↔ t.val % 147 = 0 := by
  show Scalar.cmpi .ne (Scalar.extui (Scalar.cmpi .eq (BitVec.ofNat 32 ((grid0.coords t) 1).val) 0#32)) 0#32 = 1#1 ↔ _
  rw [tile_coord t]
  exact tileTest_iff (t.val % 147) 0 (by omega) (by decide)

/-- The second conditional (the result block is stored) holds exactly at a chunk's last tile. -/
theorem isLast_iff (t : Fin cfg0.N) : k0_cond2 (grid0.coords t) = 1#1 ↔ t.val % 147 = 146 := by
  show Scalar.cmpi .ne (Scalar.extui (Scalar.cmpi .eq (BitVec.ofNat 32 ((grid0.coords t) 1).val) 146#32)) 0#32 = 1#1 ↔ _
  rw [tile_coord t]
  exact tileTest_iff (t.val % 147) 146 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg0 c) (hA : D.A 0 = V c (Pipeline.arrRef spec0 0))
    (hafter : ∀ t, D.after 0 t = iblk V c 0 t) (t : Fin cfg0.N) (d) : D.before 0 t d = iblk V c 0 t := by
  have hkeep : ∀ u, (cfg0.win 0).cut (cfg0.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg0 c) (hA : D.A 1 = V c (Pipeline.arrRef spec0 1))
    (hafter : ∀ t, D.after 1 t = iblk V c 1 t) (t : Fin cfg0.N) (d) : D.before 1 t d = iblk V c 1 t := by
  have hkeep : ∀ u, (cfg0.win 1).cut (cfg0.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg0 c) (hA : D.A 2 = V c (Pipeline.arrRef spec0 2))
    (hafter : ∀ t, D.after 2 t = iblk V c 2 t) (t : Fin cfg0.N) (d) : D.before 2 t d = iblk V c 2 t := by
  have hkeep : ∀ u, (cfg0.win 2).cut (cfg0.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg0.N) (d) : (dat V c).before 0 t d = iblk V c 0 t :=
  before_cols_of V (dat V c) (A_eq V c 0) (after_cols V c) t d
theorem before_vals (c : Dev nD) (t : Fin cfg0.N) (d) : (dat V c).before 1 t d = iblk V c 1 t :=
  before_vals_of V (dat V c) (A_eq V c 1) (after_vals V c) t d
theorem before_feat (c : Dev nD) (t : Fin cfg0.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid0.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k0_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k0_pay2 i xc xf a)) -∗ K ⟨⟩))
      ⊢ wp frame (wpE (defs₀ (F := F)) Variants.none c none) E (cc0__gather_kernel i mc hmc mv hmv mf hmf mo hmo ma hma) K := by
  simp only [cc0__gather_kernel_eq_skeleton]; unfold cc0__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid0.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k0_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k0_pay2 i xc xf k0_pay1)) -∗ K ⟨⟩))
      ⊢ wp frame (wpE (defs₀ (F := F)) Variants.none c none) E (cc0__gather_kernel i mc hmc mv hmv mf hmf mo hmo ma hma) K := by
  simp only [cc0__gather_kernel_eq_skeleton]; unfold cc0__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k0_pay2 i xc xf) (View.readCov_cons_toLoadRect ma.view _ _ _)

/-- A chunk's last tile: the accumulator takes the tile's product, and the result's staging buffer, whatever it held,
    takes the accumulator's rows scaled by the edge weights. -/
theorem runLast (c : Dev nD) (i : grid0.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k0_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k0_pay3 xv (k0_pay2 i xc xf a))
            ∗ owns (c : Thread nD τ) ma fullShare (k0_pay2 i xc xf a)) -∗ K ⟨⟩))
      ⊢ wp frame (wpE (defs₀ (F := F)) Variants.none c none) E (cc0__gather_kernel i mc hmc mv hmv mf hmf mo hmo ma hma) K := by
  simp only [cc0__gather_kernel_eq_skeleton]; unfold cc0__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k0_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg0.N) : cfg0.idle 3 (cfg0.grid.coords t) = !(k0_cond2 (grid0.coords t) == 1#1) := rfl

theorem idle_of_not_last (t : Fin cfg0.N) (h : ¬t.val % 147 = 146) : cfg0.idle 3 (cfg0.grid.coords t) = true := by
  rw [idle_out, beq_eq_false_iff_ne.mpr fun e => h ((isLast_iff t).mp e)]; rfl

theorem live_of_last (t : Fin cfg0.N) (h : t.val % 147 = 146) : cfg0.idle 3 (cfg0.grid.coords t) = false := by
  rw [idle_out, (isLast_iff t).mpr h]; rfl

/-- At a live point the result's staging buffer is left at what the proof data names. -/
theorem leavesExact_live (c : Dev nD) (t : Fin cfg0.N) (hi : cfg0.idle 3 (cfg0.grid.coords t) = false) :
    ((dat V c).leavesExact 3 t : sProp 𝕄)
      = owns (c : Thread nD τ) ((cfg0.win 3).stage (cfg0.slots t 3)) fullShare ((dat V c).after 3 t) := by
  unfold Dat.leavesExact; rw [hi]

/-! ## The body obligation, at a generic point -/

/-- The staging buffers the body is called with at point `t`, at their literal types, and their wholeness. -/
abbrev mCols (t : Fin cfg0.N) : Memref sig .tc .vmem S1x1x8192 .i32 := win0_0.stage (cfg0.slots t 0)
abbrev hCols (t : Fin cfg0.N) : (mCols t).IsWhole := hstage0_0 ((cfg0.slots t 0).cast nbuf0_0)
abbrev mVals (t : Fin cfg0.N) : Memref sig .tc .vmem S1x1x8192 .f32 := win0_1.stage (cfg0.slots t 1)
abbrev hVals (t : Fin cfg0.N) : (mVals t).IsWhole := hstage0_1 ((cfg0.slots t 1).cast nbuf0_1)
abbrev mFeat (t : Fin cfg0.N) : Memref sig .tc .vmem S1024x64 .f32 := win0_2.stage (cfg0.slots t 2)
abbrev hFeat (t : Fin cfg0.N) : (mFeat t).IsWhole := hstage0_2 ((cfg0.slots t 2).cast nbuf0_2)
abbrev mOut (t : Fin cfg0.N) : Memref sig .tc .vmem S1x8192x64 .f32 := win0_3.stage (cfg0.slots t 3)
abbrev hOut (t : Fin cfg0.N) : (mOut t).IsWhole := hstage0_3 ((cfg0.slots t 3).cast nbuf0_3)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 147 = 0
  · have hl : ¬t.val % 147 = 146 := by omega
    have hfl : (cfg0.win 3).flush t = false := Bool.eq_false_iff.mpr fun h => hl ((flush0_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid0.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 147 = 146
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid0.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg0.win 3).flush t = false := Bool.eq_false_iff.mpr fun h => hl ((flush0_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid0.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec0 c : sProp 𝕄) ⊢ (dat V c).Φ 0 := by
  rw [scopedRest0_split, Φ_eq]
  refine sep_mono ?_ .rfl
  iintro ⟨%f, H⟩
  iexists f
  isplitl [H]
  · rw [owns_whole]; iexact H
  · ipureintro; intro h; exact absurd (Nat.zero_mod 147) h

/-- The invariant at the last point gives those buffers back. -/
theorem Φ_out (c : Dev nD) :
    (dat V c).Φ (Fin.last cfg0.N) ⊢ (Pipeline.scopedRest (Ix := Unit) (Name := ℕ) (U := UR sig nD τ) (Lvl := ℕ) (Val := Elt F) spec0 c : sProp 𝕄) := by
  rw [scopedRest0_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Hand.R0

end
-- ==== Proof.K.Sched1.lean ====
/-
  The schedule of this scatter launch, by arithmetic. The grid is 147 x 391 with the second axis
  innermost, so point t has first coordinate t / 391 % 147. The result window's block index depends on the first
  coordinate only; it therefore changes between t and t + 1 exactly when t is the last of its run of 391
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid1.stride 0 = 391 := by decide

/-- The result window's block index at point `t`: the first coordinate, then zero. -/
private theorem index_out (t : Fin grid1.N) : win1_2.index t = ![t.val / 391 % 147, 0] := by
  have h : (BitVec.ofNat 32 (t.val / 391 % 147)).toNat = t.val / 391 % 147 := by
    rw [BitVec.toNat_ofNat]; omega
  show cc1_transform_2 (grid1.coords t) = _
  unfold cc1_transform_2 Pipeline.Grid.coords
  simp only [stride_outer]
  show ![(BitVec.ofNat 32 (t.val / 391 % 147)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid1.N) :
    win1_2.index s ≠ win1_2.index t ↔ s.val / 391 % 147 ≠ t.val / 391 % 147 := by
  rw [index_out, index_out]; exact vec_ne _ _

/-- Window 2 (the result) is written back at the points ≡ 390 (mod 391): the last point of each run of 391 points
    sharing the first coordinate, the grid's last point among them. -/
theorem flush1_2 : ∀ t : Fin cfg1.N, (cfg1.win 2).flush t = true ↔ t.val % 391 = 390 := by
  intro t
  have hN : grid1.N = 57477 := N_1
  have hN' : cfg1.N = 57477 := N_1
  have ht : t.val < 57477 := lt_of_lt_of_eq t.isLt hN
  show win1_2.flush t = true ↔ _
  unfold Pipeline.Window.flush
  have hout : win1_2.isOut = true := rfl
  rw [hout, Bool.true_and, Bool.or_eq_true, decide_eq_true_eq, decide_eq_true_eq]
  constructor
  · rintro (h | ⟨h, hne⟩)
    · omega
    · have hq : (t.val + 1) / 391 % 147 ≠ t.val / 391 % 147 := (index_ne ⟨t.val + 1, h⟩ t).1 hne
      omega
  · intro h
    by_cases hl : t.val + 1 = grid1.N
    · exact Or.inl hl
    · have hlt : t.val + 1 < grid1.N := by omega
      have hq : (t.val + 1) / 391 % 147 ≠ t.val / 391 % 147 := by omega
      exact Or.inr ⟨hlt, (index_ne ⟨t.val + 1, hlt⟩ t).2 hq⟩

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

/-- The kernel body at point `t`, on what the pipeline calls it with (`defs₀`'s row at the slots). -/
abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

end Cert.Kernel.Hand.Sched
-- ==== Proof.K.R1.lean ====
/-
  Region 1 of the program (the scatter launch of the first propagation step), on any contents `V` of the unscoped
  buffers at its entry. Grid (147 node tiles) x (391 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched1
import Idealize.ShloMosaic.Lib.Pipeline.FrameBody
import Idealize.ShloMosaic.Lib.Pipeline.Frame
import Idealize.ShloMosaic.Lib.Tactic

set_option maxRecDepth 16384

noncomputable section

namespace Cert.Kernel.Hand.R1

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The chunk's row indices and the chunk's weighted gathered rows at point `t`, at their literal types. -/
abbrev rowsBlk (c : Dev nD) (t : Fin cfg1.N) : Vec F S1x1x8192 .i32 := iblk V c 0 t
abbrev wgBlk (c : Dev nD) (t : Fin cfg1.N) : Vec F S1x8192x64 .f32 := iblk V c 1 t

/-- The accumulator after the body at point `t`, from the accumulator `a` before it: reset first when the point is a
    tile's first chunk. -/
def accStep (c : Dev nD) (t : Fin cfg1.N) (a : Vec F S1024x64 .f32) : Vec F S1024x64 .f32 :=
  k1_pay2 (grid1.coords t) (rowsBlk V c t) (wgBlk V c t) (if t.val % 391 = 0 then k1_pay1 else a)

/-- The accumulator before point `n` (after point `n - 1`). -/
def accAt (c : Dev nD) : ℕ → Vec F S1024x64 .f32
  | 0 => k1_pay1
  | n + 1 => if h : n < cfg1.N then accStep V c ⟨n, h⟩ (accAt c n) else k1_pay1

/-- The accumulator's buffer (the launch's scratch operand), whole. -/
abbrev accRef : Memref sig .tc .vmem S1024x64 .f32 := Memref.whole cc1_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 391 ≠ 0 → a = accAt V c t.val⌝)
    ∗ Pipeline.scopedRestBut (Ix := Unit) (Name := ℕ) (U := UR sig nD τ) (Lvl := ℕ) (Val := Elt F) spec1 c [cc1_scratch0])
  q _ := fullShare
  owed _ := 0

theorem A_eq (c : Dev nD) (w : Fin cfg1.W) : (dat V c).A w = V c (Pipeline.arrRef spec1 w) := by
  dsimp only [dat]

theorem after_out (c : Dev nD) (t : Fin cfg1.N) :
    (dat V c).after 2 t = accAt V c (t.val + 1) := by dsimp only [dat]

/-! ## The invariant at the region's two ends -/

/-- The invariant at a point, written out. -/
theorem Φ_eq (c : Dev nD) (t : Fin (cfg1.N + 1)) :
    (dat V c).Φ t = iprop((∃ a : Vec F S1024x64 .f32, owns (c : Thread nD τ) accRef fullShare a ∗ ⌜t.val % 391 ≠ 0 → a = accAt V c t.val⌝)
      ∗ Pipeline.scopedRestBut (Ix := Unit) (Name := ℕ) (U := UR sig nD τ) (Lvl := ℕ) (Val := Elt F) spec1 c [cc1_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec1 c : sProp 𝕄) ⊢ (dat V c).Φ 0 := by
  rw [scopedRest1_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg1.N) ⊢ (Pipeline.scopedRest (Ix := Unit) (Name := ℕ) (U := UR sig nD τ) (Lvl := ℕ) (Val := Elt F) spec1 c : sProp 𝕄) := by
  rw [scopedRest1_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg1.N) : accAt V c (t.val + 1) = accStep V c t (accAt V c t.val) := by
  rw [accAt, dif_pos t.isLt]

/-- After a tile's first chunk the accumulator is that chunk's product added to zero, -/
theorem accAt_succ_first (c : Dev nD) (t : Fin cfg1.N) (h : t.val % 391 = 0) :
    accAt V c (t.val + 1) = k1_pay2 (grid1.coords t) (rowsBlk V c t) (wgBlk V c t) k1_pay1 := by
  rw [accAt_succ, accStep, if_pos h]

/-- after any other the chunk's product added to what it was. -/
theorem accAt_succ_next (c : Dev nD) (t : Fin cfg1.N) (h : ¬t.val % 391 = 0) :
    accAt V c (t.val + 1) = k1_pay2 (grid1.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid1.Coords) : Prop :=
  (Scalar.cmpi .ne (Scalar.extui (Scalar.cmpi .eq (BitVec.ofNat 32 (i 1).val) 0#32)) 0#32) = 1#1
/-- The condition of its second (the result's store). -/
abbrev condLast (i : grid1.Coords) : Prop := k1_cond2 i = 1#1

/-- The chunk coordinate of point `t`: the chunk is the innermost axis. -/
theorem chunk_val (t : Fin cfg1.N) : (grid1.coords t 1).val = t.val % 391 := by
  show t.val / grid1.stride 1 % grid1.bound 1 = t.val % 391
  rw [show grid1.stride 1 = 1 from by decide, Nat.div_one]
  rfl

/-- Both conditions read the chunk coordinate alone: decided over the 391 chunks. -/
theorem condFirst_iff (i : grid1.Coords) : condFirst i ↔ (i 1).val = 0 :=
  (by decide +kernel : ∀ j : Fin 391,
    (Scalar.cmpi .ne (Scalar.extui (Scalar.cmpi .eq (BitVec.ofNat 32 j.val) 0#32)) 0#32) = 1#1 ↔ j.val = 0) (i 1)
theorem condLast_iff (i : grid1.Coords) : condLast i ↔ (i 1).val = 390 :=
  (by decide +kernel : ∀ j : Fin 391,
    (Scalar.cmpi .ne (Scalar.extui (Scalar.cmpi .eq (BitVec.ofNat 32 j.val) 390#32)) 0#32) = 1#1 ↔ j.val = 390) (i 1)

/-- The reset runs at a tile's first chunk only, -/
theorem hcondFirst (t : Fin cfg1.N) : condFirst (grid1.coords t) ↔ t.val % 391 = 0 := by
  rw [condFirst_iff, chunk_val]
/-- and the result is stored at a tile's last chunk only. -/
theorem hcondLast (t : Fin cfg1.N) : condLast (grid1.coords t) ↔ t.val % 391 = 390 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid1.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k1_pay2 i x0 x1 k1_pay1)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid1.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k1_pay2 i x0 x1 a)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid1.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k1_pay2 i x0 x1 a)
            ∗ owns (c : Thread nD τ) arg5 fullShare (k1_pay2 i x0 x1 a)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg1.N) : (dat V c).after 0 t = iblk V c 0 t := by dsimp only [dat]
theorem after_wg (c : Dev nD) (t : Fin cfg1.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg1.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg1.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg1.N) : Memref sig .tc .vmem S1x1x8192 .i32 := win1_0.stage (cfg1.slots t 0)
abbrev hstRows (t : Fin cfg1.N) : (stRows t).IsWhole := hstage1_0 ((cfg1.slots t 0).cast nbuf1_0)
abbrev stWg (t : Fin cfg1.N) : Memref sig .tc .vmem S1x8192x64 .f32 := win1_1.stage (cfg1.slots t 1)
abbrev hstWg (t : Fin cfg1.N) : (stWg t).IsWhole := hstage1_1 ((cfg1.slots t 1).cast nbuf1_1)
abbrev stOut (t : Fin cfg1.N) : Memref sig .tc .vmem S1024x64 .f32 := win1_2.stage (cfg1.slots t 2)
abbrev hstOut (t : Fin cfg1.N) : (stOut t).IsWhole := hstage1_2 ((cfg1.slots t 2).cast nbuf1_2)

/-- Where the result is not stored its window is idle and is not written back: the body hands its buffer back as it
    found it. -/
theorem leaves_out_idle (c : Dev nD) (t : Fin cfg1.N) (h : ¬t.val % 391 = 390) :
    (dat V c).leavesExact 2 t = iprop(∃ d, owns (c : Thread nD τ) (stOut t) fullShare ((dat V c).before 2 t d)) := by
  have hi : cfg1.idle 2 (cfg1.grid.coords t) = true := by
    show (!(k1_cond2 (grid1.coords t) == 1#1)) = true
    rw [Bool.not_eq_true', beq_eq_false_iff_ne]
    exact fun hk => h ((hcondLast t).mp hk)
  have hfl : (cfg1.win 2).flush t = false := Bool.eq_false_iff.mpr fun hfl => h ((flush1_2 t).mp hfl)
  exact (dat V c).leavesExact_idle 2 t hi hfl

/-- Where it is stored the window is live: its buffer is handed back at the accumulator. -/
theorem leaves_out_live (c : Dev nD) (t : Fin cfg1.N) (h : t.val % 391 = 390) :
    (dat V c).leavesExact 2 t = owns (c : Thread nD τ) (stOut t) fullShare ((dat V c).after 2 t) := by
  have hi : cfg1.idle 2 (cfg1.grid.coords t) = false := by
    show (!(k1_cond2 (grid1.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_wg]
  rw [Φ_eq, Φ_eq, show (dat V c).owesAt () t.succ = (dat V c).owesAt () t.castSucc from rfl, after_rows, after_wg]
  simp only [Fin.coe_castSucc, Fin.val_succ]
  have hN : t.val < 57477 := lt_of_lt_of_eq t.isLt (show cfg1.N = 57477 from N_1)
  by_cases hl : t.val % 391 = 390
  · have hf : ¬t.val % 391 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid1.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 391 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid1.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid1.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Hand.R1

end
-- ==== Proof.K.Sched2.lean ====
/-
  The schedule of this gather launch, by arithmetic. The grid is 391 x 147 with the second axis
  innermost, so point t has first coordinate t / 147 % 391. The result window's block index depends on the first
  coordinate only; it therefore changes between t and t + 1 exactly when t is the last of its run of 147
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid2.stride 0 = 147 := by decide

/-- The result window's block index at point `t`: the first coordinate, then zeros. -/
private theorem index_out (t : Fin grid2.N) : win2_3.index t = ![t.val / 147 % 391, 0, 0] := by
  have h : (BitVec.ofNat 32 (t.val / 147 % 391)).toNat = t.val / 147 % 391 := by
    rw [BitVec.toNat_ofNat]; omega
  show cc2_transform_3 (grid2.coords t) = _
  unfold cc2_transform_3 Pipeline.Grid.coords
  simp only [stride_outer]
  show ![(BitVec.ofNat 32 (t.val / 147 % 391)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid2.N) :
    win2_3.index s ≠ win2_3.index t ↔ s.val / 147 % 391 ≠ t.val / 147 % 391 := by
  rw [index_out, index_out]; exact vec_ne _ _

/-- Window 3 (the result) is written back at the points ≡ 146 (mod 147): the last point of each run of 147 points
    sharing the first coordinate, the grid's last point among them. -/
theorem flush2_3 : ∀ t : Fin cfg2.N, (cfg2.win 3).flush t = true ↔ t.val % 147 = 146 := by
  intro t
  have hN : grid2.N = 57477 := N_2
  have hN' : cfg2.N = 57477 := N_2
  have ht : t.val < 57477 := lt_of_lt_of_eq t.isLt hN
  show win2_3.flush t = true ↔ _
  unfold Pipeline.Window.flush
  have hout : win2_3.isOut = true := rfl
  rw [hout, Bool.true_and, Bool.or_eq_true, decide_eq_true_eq, decide_eq_true_eq]
  constructor
  · rintro (h | ⟨h, hne⟩)
    · omega
    · have hq : (t.val + 1) / 147 % 391 ≠ t.val / 147 % 391 := (index_ne ⟨t.val + 1, h⟩ t).1 hne
      omega
  · intro h
    by_cases hl : t.val + 1 = grid2.N
    · exact Or.inl hl
    · have hlt : t.val + 1 < grid2.N := by omega
      have hq : (t.val + 1) / 147 % 391 ≠ t.val / 147 % 391 := by omega
      exact Or.inr ⟨hlt, (index_ne ⟨t.val + 1, hlt⟩ t).2 hq⟩

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)

/-- The kernel body at point `t`, on what the pipeline calls it with (`defs₀`'s row at the slots). -/
abbrev bodyAt2 (t : Fin cfg2.N) : Prog (TpuEff nD τ sig (Elt F) Λ₀ .tc) PUnit :=
  cc2__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

end Cert.Kernel.Hand.Sched
-- ==== Proof.K.R2.lean ====
/-
  Region 0 of the program (the gather launch of the first propagation step), on any contents `V` of the unscoped
  buffers at its entry. Grid (391 edge chunks) x (147 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched2
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand.R2

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The chunk's column indices, the chunk's edge weights and the node tile's feature rows at point `t`, at their literal types. -/
abbrev colsBlk (c : Dev nD) (t : Fin cfg2.N) : Vec F S1x1x8192 .i32 := iblk V c 0 t
abbrev valsBlk (c : Dev nD) (t : Fin cfg2.N) : Vec F S1x1x8192 .f32 := iblk V c 1 t
abbrev featBlk (c : Dev nD) (t : Fin cfg2.N) : Vec F S1024x64 .f32 := iblk V c 2 t

/-- The accumulator after the body at point `t`, from the accumulator `a` before it: reset first when the point is a
    chunk's first tile. -/
def accStep (c : Dev nD) (t : Fin cfg2.N) (a : Vec F S8192x64 .f32) : Vec F S8192x64 .f32 :=
  k2_pay2 (grid2.coords t) (colsBlk V c t) (featBlk V c t) (if t.val % 147 = 0 then k2_pay1 else a)

/-- The accumulator before point `n` (after point `n - 1`). -/
def accAt (c : Dev nD) : ℕ → Vec F S8192x64 .f32
  | 0 => k2_pay1
  | n + 1 => if h : n < cfg2.N then accStep V c ⟨n, h⟩ (accAt c n) else k2_pay1

/-- The accumulator's buffer (the launch's scratch operand), whole. -/
abbrev accRef : Memref sig .tc .vmem S8192x64 .f32 := Memref.whole cc2_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (valsBlk V c t) (accAt V c (t.val + 1))
  Φ t := iprop((∃ a : Vec F S8192x64 .f32, owns (c : Thread nD τ) accRef fullShare a ∗ ⌜t.val % 147 ≠ 0 → a = accAt V c t.val⌝)
    ∗ Pipeline.scopedRestBut (Ix := Unit) (Name := ℕ) (U := UR sig nD τ) (Lvl := ℕ) (Val := Elt F) spec2 c [cc2_scratch0])
  q _ := fullShare
  owed _ := 0

theorem A_eq (c : Dev nD) (w : Fin cfg2.W) : (dat V c).A w = V c (Pipeline.arrRef spec2 w) := by
  dsimp only [dat]

theorem after_out (c : Dev nD) (t : Fin cfg2.N) :
    (dat V c).after 3 t = k2_pay3 (valsBlk V c t) (accAt V c (t.val + 1)) := by dsimp only [dat]

/-! ## The accumulator's recursion -/

/-- One step of the recursion at a grid point. -/
theorem accAt_succ (c : Dev nD) (t : Fin cfg2.N) : accAt V c (t.val + 1) = accStep V c t (accAt V c t.val) := by
  rw [accAt, dif_pos t.isLt]

/-- The invariant at any point, its conjuncts written out. -/
theorem Φ_eq (c : Dev nD) (u : Fin (cfg2.N + 1)) :
    (dat V c).Φ u = iprop((∃ a : Vec F S8192x64 .f32, owns (c : Thread nD τ) accRef fullShare a ∗ ⌜u.val % 147 ≠ 0 → a = accAt V c u.val⌝)
      ∗ Pipeline.scopedRestBut (Ix := Unit) (Name := ℕ) (U := UR sig nD τ) (Lvl := ℕ) (Val := Elt F) spec2 c [cc2_scratch0]) := by
  dsimp only [dat]

theorem after_cols (c : Dev nD) (t : Fin cfg2.N) : (dat V c).after 0 t = iblk V c 0 t := by dsimp only [dat]
theorem after_vals (c : Dev nD) (t : Fin cfg2.N) : (dat V c).after 1 t = iblk V c 1 t := by dsimp only [dat]
theorem after_feat (c : Dev nD) (t : Fin cfg2.N) : (dat V c).after 2 t = iblk V c 2 t := by dsimp only [dat]

/-! ## The body's two conditionals, over the grid -/

/-- The first conditional (the accumulator is reset), as the body computes it from the tile coordinate. -/
abbrev isFirst (i : grid2.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg2.N) : ((grid2.coords t) 1).val = t.val % 147 := by
  show t.val / grid2.stride 1 % grid2.bound 1 = t.val % 147
  rw [show grid2.stride 1 = 1 from by decide, Nat.div_one]
  rfl

/-- It holds exactly at a chunk's first tile. -/
theorem isFirst_iff (t : Fin cfg2.N) : isFirst (grid2.coords t) ↔ t.val % 147 = 0 := by
  show Scalar.cmpi .ne (Scalar.extui (Scalar.cmpi .eq (BitVec.ofNat 32 ((grid2.coords t) 1).val) 0#32)) 0#32 = 1#1 ↔ _
  rw [tile_coord t]
  exact tileTest_iff (t.val % 147) 0 (by omega) (by decide)

/-- The second conditional (the result block is stored) holds exactly at a chunk's last tile. -/
theorem isLast_iff (t : Fin cfg2.N) : k2_cond2 (grid2.coords t) = 1#1 ↔ t.val % 147 = 146 := by
  show Scalar.cmpi .ne (Scalar.extui (Scalar.cmpi .eq (BitVec.ofNat 32 ((grid2.coords t) 1).val) 146#32)) 0#32 = 1#1 ↔ _
  rw [tile_coord t]
  exact tileTest_iff (t.val % 147) 146 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg2 c) (hA : D.A 0 = V c (Pipeline.arrRef spec2 0))
    (hafter : ∀ t, D.after 0 t = iblk V c 0 t) (t : Fin cfg2.N) (d) : D.before 0 t d = iblk V c 0 t := by
  have hkeep : ∀ u, (cfg2.win 0).cut (cfg2.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg2 c) (hA : D.A 1 = V c (Pipeline.arrRef spec2 1))
    (hafter : ∀ t, D.after 1 t = iblk V c 1 t) (t : Fin cfg2.N) (d) : D.before 1 t d = iblk V c 1 t := by
  have hkeep : ∀ u, (cfg2.win 1).cut (cfg2.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg2 c) (hA : D.A 2 = V c (Pipeline.arrRef spec2 2))
    (hafter : ∀ t, D.after 2 t = iblk V c 2 t) (t : Fin cfg2.N) (d) : D.before 2 t d = iblk V c 2 t := by
  have hkeep : ∀ u, (cfg2.win 2).cut (cfg2.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg2.N) (d) : (dat V c).before 0 t d = iblk V c 0 t :=
  before_cols_of V (dat V c) (A_eq V c 0) (after_cols V c) t d
theorem before_vals (c : Dev nD) (t : Fin cfg2.N) (d) : (dat V c).before 1 t d = iblk V c 1 t :=
  before_vals_of V (dat V c) (A_eq V c 1) (after_vals V c) t d
theorem before_feat (c : Dev nD) (t : Fin cfg2.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid2.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k2_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k2_pay2 i xc xf a)) -∗ K ⟨⟩))
      ⊢ wp frame (wpE (defs₀ (F := F)) Variants.none c none) E (cc2__gather_kernel i mc hmc mv hmv mf hmf mo hmo ma hma) K := by
  simp only [cc2__gather_kernel_eq_skeleton]; unfold cc2__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid2.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k2_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k2_pay2 i xc xf k2_pay1)) -∗ K ⟨⟩))
      ⊢ wp frame (wpE (defs₀ (F := F)) Variants.none c none) E (cc2__gather_kernel i mc hmc mv hmv mf hmf mo hmo ma hma) K := by
  simp only [cc2__gather_kernel_eq_skeleton]; unfold cc2__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k2_pay2 i xc xf) (View.readCov_cons_toLoadRect ma.view _ _ _)

/-- A chunk's last tile: the accumulator takes the tile's product, and the result's staging buffer, whatever it held,
    takes the accumulator's rows scaled by the edge weights. -/
theorem runLast (c : Dev nD) (i : grid2.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k2_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k2_pay3 xv (k2_pay2 i xc xf a))
            ∗ owns (c : Thread nD τ) ma fullShare (k2_pay2 i xc xf a)) -∗ K ⟨⟩))
      ⊢ wp frame (wpE (defs₀ (F := F)) Variants.none c none) E (cc2__gather_kernel i mc hmc mv hmv mf hmf mo hmo ma hma) K := by
  simp only [cc2__gather_kernel_eq_skeleton]; unfold cc2__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k2_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg2.N) : cfg2.idle 3 (cfg2.grid.coords t) = !(k2_cond2 (grid2.coords t) == 1#1) := rfl

theorem idle_of_not_last (t : Fin cfg2.N) (h : ¬t.val % 147 = 146) : cfg2.idle 3 (cfg2.grid.coords t) = true := by
  rw [idle_out, beq_eq_false_iff_ne.mpr fun e => h ((isLast_iff t).mp e)]; rfl

theorem live_of_last (t : Fin cfg2.N) (h : t.val % 147 = 146) : cfg2.idle 3 (cfg2.grid.coords t) = false := by
  rw [idle_out, (isLast_iff t).mpr h]; rfl

/-- At a live point the result's staging buffer is left at what the proof data names. -/
theorem leavesExact_live (c : Dev nD) (t : Fin cfg2.N) (hi : cfg2.idle 3 (cfg2.grid.coords t) = false) :
    ((dat V c).leavesExact 3 t : sProp 𝕄)
      = owns (c : Thread nD τ) ((cfg2.win 3).stage (cfg2.slots t 3)) fullShare ((dat V c).after 3 t) := by
  unfold Dat.leavesExact; rw [hi]

/-! ## The body obligation, at a generic point -/

/-- The staging buffers the body is called with at point `t`, at their literal types, and their wholeness. -/
abbrev mCols (t : Fin cfg2.N) : Memref sig .tc .vmem S1x1x8192 .i32 := win2_0.stage (cfg2.slots t 0)
abbrev hCols (t : Fin cfg2.N) : (mCols t).IsWhole := hstage2_0 ((cfg2.slots t 0).cast nbuf2_0)
abbrev mVals (t : Fin cfg2.N) : Memref sig .tc .vmem S1x1x8192 .f32 := win2_1.stage (cfg2.slots t 1)
abbrev hVals (t : Fin cfg2.N) : (mVals t).IsWhole := hstage2_1 ((cfg2.slots t 1).cast nbuf2_1)
abbrev mFeat (t : Fin cfg2.N) : Memref sig .tc .vmem S1024x64 .f32 := win2_2.stage (cfg2.slots t 2)
abbrev hFeat (t : Fin cfg2.N) : (mFeat t).IsWhole := hstage2_2 ((cfg2.slots t 2).cast nbuf2_2)
abbrev mOut (t : Fin cfg2.N) : Memref sig .tc .vmem S1x8192x64 .f32 := win2_3.stage (cfg2.slots t 3)
abbrev hOut (t : Fin cfg2.N) : (mOut t).IsWhole := hstage2_3 ((cfg2.slots t 3).cast nbuf2_3)

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 147 = 0
  · have hl : ¬t.val % 147 = 146 := by omega
    have hfl : (cfg2.win 3).flush t = false := Bool.eq_false_iff.mpr fun h => hl ((flush2_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid2.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 147 = 146
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid2.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg2.win 3).flush t = false := Bool.eq_false_iff.mpr fun h => hl ((flush2_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid2.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec2 c : sProp 𝕄) ⊢ (dat V c).Φ 0 := by
  rw [scopedRest2_split, Φ_eq]
  refine sep_mono ?_ .rfl
  iintro ⟨%f, H⟩
  iexists f
  isplitl [H]
  · rw [owns_whole]; iexact H
  · ipureintro; intro h; exact absurd (Nat.zero_mod 147) h

/-- The invariant at the last point gives those buffers back. -/
theorem Φ_out (c : Dev nD) :
    (dat V c).Φ (Fin.last cfg2.N) ⊢ (Pipeline.scopedRest (Ix := Unit) (Name := ℕ) (U := UR sig nD τ) (Lvl := ℕ) (Val := Elt F) spec2 c : sProp 𝕄) := by
  rw [scopedRest2_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Hand.R2

end
-- ==== Proof.K.Sched3.lean ====
/-
  The schedule of this scatter launch, by arithmetic. The grid is 147 x 391 with the second axis
  innermost, so point t has first coordinate t / 391 % 147. The result window's block index depends on the first
  coordinate only; it therefore changes between t and t + 1 exactly when t is the last of its run of 391
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid3.stride 0 = 391 := by decide

/-- The result window's block index at point `t`: the first coordinate, then zero. -/
private theorem index_out (t : Fin grid3.N) : win3_2.index t = ![t.val / 391 % 147, 0] := by
  have h : (BitVec.ofNat 32 (t.val / 391 % 147)).toNat = t.val / 391 % 147 := by
    rw [BitVec.toNat_ofNat]; omega
  show cc3_transform_2 (grid3.coords t) = _
  unfold cc3_transform_2 Pipeline.Grid.coords
  simp only [stride_outer]
  show ![(BitVec.ofNat 32 (t.val / 391 % 147)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid3.N) :
    win3_2.index s ≠ win3_2.index t ↔ s.val / 391 % 147 ≠ t.val / 391 % 147 := by
  rw [index_out, index_out]; exact vec_ne _ _

/-- Window 2 (the result) is written back at the points ≡ 390 (mod 391): the last point of each run of 391 points
    sharing the first coordinate, the grid's last point among them. -/
theorem flush3_2 : ∀ t : Fin cfg3.N, (cfg3.win 2).flush t = true ↔ t.val % 391 = 390 := by
  intro t
  have hN : grid3.N = 57477 := N_3
  have hN' : cfg3.N = 57477 := N_3
  have ht : t.val < 57477 := lt_of_lt_of_eq t.isLt hN
  show win3_2.flush t = true ↔ _
  unfold Pipeline.Window.flush
  have hout : win3_2.isOut = true := rfl
  rw [hout, Bool.true_and, Bool.or_eq_true, decide_eq_true_eq, decide_eq_true_eq]
  constructor
  · rintro (h | ⟨h, hne⟩)
    · omega
    · have hq : (t.val + 1) / 391 % 147 ≠ t.val / 391 % 147 := (index_ne ⟨t.val + 1, h⟩ t).1 hne
      omega
  · intro h
    by_cases hl : t.val + 1 = grid3.N
    · exact Or.inl hl
    · have hlt : t.val + 1 < grid3.N := by omega
      have hq : (t.val + 1) / 391 % 147 ≠ t.val / 391 % 147 := by omega
      exact Or.inr ⟨hlt, (index_ne ⟨t.val + 1, hlt⟩ t).2 hq⟩

/-- The current staging memref of each window at point `t`: which of its buffers it is on. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)

/-- The kernel body at point `t`, on what the pipeline calls it with (`defs₀`'s row at the slots). -/
abbrev bodyAt3 (t : Fin cfg3.N) : Prog (TpuEff nD τ sig (Elt F) Λ₀ .tc) PUnit :=
  cc3__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _)

end Cert.Kernel.Hand.Sched
-- ==== Proof.K.R3.lean ====
/-
  Region 1 of the program (the scatter launch of the first propagation step), on any contents `V` of the unscoped
  buffers at its entry. Grid (147 node tiles) x (391 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched3
import Idealize.ShloMosaic.Lib.Pipeline.FrameBody
import Idealize.ShloMosaic.Lib.Pipeline.Frame
import Idealize.ShloMosaic.Lib.Tactic

set_option maxRecDepth 16384

noncomputable section

namespace Cert.Kernel.Hand.R3

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The chunk's row indices and the chunk's weighted gathered rows at point `t`, at their literal types. -/
abbrev rowsBlk (c : Dev nD) (t : Fin cfg3.N) : Vec F S1x1x8192 .i32 := iblk V c 0 t
abbrev wgBlk (c : Dev nD) (t : Fin cfg3.N) : Vec F S1x8192x64 .f32 := iblk V c 1 t

/-- The accumulator after the body at point `t`, from the accumulator `a` before it: reset first when the point is a
    tile's first chunk. -/
def accStep (c : Dev nD) (t : Fin cfg3.N) (a : Vec F S1024x64 .f32) : Vec F S1024x64 .f32 :=
  k3_pay2 (grid3.coords t) (rowsBlk V c t) (wgBlk V c t) (if t.val % 391 = 0 then k3_pay1 else a)

/-- The accumulator before point `n` (after point `n - 1`). -/
def accAt (c : Dev nD) : ℕ → Vec F S1024x64 .f32
  | 0 => k3_pay1
  | n + 1 => if h : n < cfg3.N then accStep V c ⟨n, h⟩ (accAt c n) else k3_pay1

/-- The accumulator's buffer (the launch's scratch operand), whole. -/
abbrev accRef : Memref sig .tc .vmem S1024x64 .f32 := Memref.whole cc3_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 391 ≠ 0 → a = accAt V c t.val⌝)
    ∗ Pipeline.scopedRestBut (Ix := Unit) (Name := ℕ) (U := UR sig nD τ) (Lvl := ℕ) (Val := Elt F) spec3 c [cc3_scratch0])
  q _ := fullShare
  owed _ := 0

theorem A_eq (c : Dev nD) (w : Fin cfg3.W) : (dat V c).A w = V c (Pipeline.arrRef spec3 w) := by
  dsimp only [dat]

theorem after_out (c : Dev nD) (t : Fin cfg3.N) :
    (dat V c).after 2 t = accAt V c (t.val + 1) := by dsimp only [dat]

/-! ## The invariant at the region's two ends -/

/-- The invariant at a point, written out. -/
theorem Φ_eq (c : Dev nD) (t : Fin (cfg3.N + 1)) :
    (dat V c).Φ t = iprop((∃ a : Vec F S1024x64 .f32, owns (c : Thread nD τ) accRef fullShare a ∗ ⌜t.val % 391 ≠ 0 → a = accAt V c t.val⌝)
      ∗ Pipeline.scopedRestBut (Ix := Unit) (Name := ℕ) (U := UR sig nD τ) (Lvl := ℕ) (Val := Elt F) spec3 c [cc3_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec3 c : sProp 𝕄) ⊢ (dat V c).Φ 0 := by
  rw [scopedRest3_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg3.N) ⊢ (Pipeline.scopedRest (Ix := Unit) (Name := ℕ) (U := UR sig nD τ) (Lvl := ℕ) (Val := Elt F) spec3 c : sProp 𝕄) := by
  rw [scopedRest3_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg3.N) : accAt V c (t.val + 1) = accStep V c t (accAt V c t.val) := by
  rw [accAt, dif_pos t.isLt]

/-- After a tile's first chunk the accumulator is that chunk's product added to zero, -/
theorem accAt_succ_first (c : Dev nD) (t : Fin cfg3.N) (h : t.val % 391 = 0) :
    accAt V c (t.val + 1) = k3_pay2 (grid3.coords t) (rowsBlk V c t) (wgBlk V c t) k3_pay1 := by
  rw [accAt_succ, accStep, if_pos h]

/-- after any other the chunk's product added to what it was. -/
theorem accAt_succ_next (c : Dev nD) (t : Fin cfg3.N) (h : ¬t.val % 391 = 0) :
    accAt V c (t.val + 1) = k3_pay2 (grid3.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid3.Coords) : Prop :=
  (Scalar.cmpi .ne (Scalar.extui (Scalar.cmpi .eq (BitVec.ofNat 32 (i 1).val) 0#32)) 0#32) = 1#1
/-- The condition of its second (the result's store). -/
abbrev condLast (i : grid3.Coords) : Prop := k3_cond2 i = 1#1

/-- The chunk coordinate of point `t`: the chunk is the innermost axis. -/
theorem chunk_val (t : Fin cfg3.N) : (grid3.coords t 1).val = t.val % 391 := by
  show t.val / grid3.stride 1 % grid3.bound 1 = t.val % 391
  rw [show grid3.stride 1 = 1 from by decide, Nat.div_one]
  rfl

/-- Both conditions read the chunk coordinate alone: decided over the 391 chunks. -/
theorem condFirst_iff (i : grid3.Coords) : condFirst i ↔ (i 1).val = 0 :=
  (by decide +kernel : ∀ j : Fin 391,
    (Scalar.cmpi .ne (Scalar.extui (Scalar.cmpi .eq (BitVec.ofNat 32 j.val) 0#32)) 0#32) = 1#1 ↔ j.val = 0) (i 1)
theorem condLast_iff (i : grid3.Coords) : condLast i ↔ (i 1).val = 390 :=
  (by decide +kernel : ∀ j : Fin 391,
    (Scalar.cmpi .ne (Scalar.extui (Scalar.cmpi .eq (BitVec.ofNat 32 j.val) 390#32)) 0#32) = 1#1 ↔ j.val = 390) (i 1)

/-- The reset runs at a tile's first chunk only, -/
theorem hcondFirst (t : Fin cfg3.N) : condFirst (grid3.coords t) ↔ t.val % 391 = 0 := by
  rw [condFirst_iff, chunk_val]
/-- and the result is stored at a tile's last chunk only. -/
theorem hcondLast (t : Fin cfg3.N) : condLast (grid3.coords t) ↔ t.val % 391 = 390 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid3.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k3_pay2 i x0 x1 k3_pay1)) -∗ K ⟨⟩))
      ⊢ wp frame (wpE (defs₀ (F := F)) Variants.none c none) E
          (cc3__scatter_kernel i arg2 harg2 arg3 harg3 arg4 harg4 arg5 harg5) K := by
  simp only [cc3__scatter_kernel_eq_skeleton]; unfold cc3__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid3.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k3_pay2 i x0 x1 a)) -∗ K ⟨⟩))
      ⊢ wp frame (wpE (defs₀ (F := F)) Variants.none c none) E
          (cc3__scatter_kernel i arg2 harg2 arg3 harg3 arg4 harg4 arg5 harg5) K := by
  simp only [cc3__scatter_kernel_eq_skeleton]; unfold cc3__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid3.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k3_pay2 i x0 x1 a)
            ∗ owns (c : Thread nD τ) arg5 fullShare (k3_pay2 i x0 x1 a)) -∗ K ⟨⟩))
      ⊢ wp frame (wpE (defs₀ (F := F)) Variants.none c none) E
          (cc3__scatter_kernel i arg2 harg2 arg3 harg3 arg4 harg4 arg5 harg5) K := by
  simp only [cc3__scatter_kernel_eq_skeleton]; unfold cc3__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg3.N) : (dat V c).after 0 t = iblk V c 0 t := by dsimp only [dat]
theorem after_wg (c : Dev nD) (t : Fin cfg3.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg3.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg3.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg3.N) : Memref sig .tc .vmem S1x1x8192 .i32 := win3_0.stage (cfg3.slots t 0)
abbrev hstRows (t : Fin cfg3.N) : (stRows t).IsWhole := hstage3_0 ((cfg3.slots t 0).cast nbuf3_0)
abbrev stWg (t : Fin cfg3.N) : Memref sig .tc .vmem S1x8192x64 .f32 := win3_1.stage (cfg3.slots t 1)
abbrev hstWg (t : Fin cfg3.N) : (stWg t).IsWhole := hstage3_1 ((cfg3.slots t 1).cast nbuf3_1)
abbrev stOut (t : Fin cfg3.N) : Memref sig .tc .vmem S1024x64 .f32 := win3_2.stage (cfg3.slots t 2)
abbrev hstOut (t : Fin cfg3.N) : (stOut t).IsWhole := hstage3_2 ((cfg3.slots t 2).cast nbuf3_2)

/-- Where the result is not stored its window is idle and is not written back: the body hands its buffer back as it
    found it. -/
theorem leaves_out_idle (c : Dev nD) (t : Fin cfg3.N) (h : ¬t.val % 391 = 390) :
    (dat V c).leavesExact 2 t = iprop(∃ d, owns (c : Thread nD τ) (stOut t) fullShare ((dat V c).before 2 t d)) := by
  have hi : cfg3.idle 2 (cfg3.grid.coords t) = true := by
    show (!(k3_cond2 (grid3.coords t) == 1#1)) = true
    rw [Bool.not_eq_true', beq_eq_false_iff_ne]
    exact fun hk => h ((hcondLast t).mp hk)
  have hfl : (cfg3.win 2).flush t = false := Bool.eq_false_iff.mpr fun hfl => h ((flush3_2 t).mp hfl)
  exact (dat V c).leavesExact_idle 2 t hi hfl

/-- Where it is stored the window is live: its buffer is handed back at the accumulator. -/
theorem leaves_out_live (c : Dev nD) (t : Fin cfg3.N) (h : t.val % 391 = 390) :
    (dat V c).leavesExact 2 t = owns (c : Thread nD τ) (stOut t) fullShare ((dat V c).after 2 t) := by
  have hi : cfg3.idle 2 (cfg3.grid.coords t) = false := by
    show (!(k3_cond2 (grid3.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_rows, before_wg]
  rw [Φ_eq, Φ_eq, show (dat V c).owesAt () t.succ = (dat V c).owesAt () t.castSucc from rfl, after_rows, after_wg]
  simp only [Fin.coe_castSucc, Fin.val_succ]
  have hN : t.val < 57477 := lt_of_lt_of_eq t.isLt (show cfg3.N = 57477 from N_3)
  by_cases hl : t.val % 391 = 390
  · have hf : ¬t.val % 391 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid3.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 391 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid3.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid3.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.Hand.R3

end
-- ==== Proof.K.Sched4.lean ====
/-
  The schedule of this gather launch, by arithmetic. The grid is 196 x 98 with the second axis
  innermost, so point t has first coordinate t / 98 % 391. The result window's block index depends on the first
  coordinate only; it therefore changes between t and t + 1 exactly when t is the last of its run of 98
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid4.stride 0 = 98 := by decide

/-- The result window's block index at point `t`: the first coordinate, then zeros. -/
private theorem index_out (t : Fin grid4.N) : win4_3.index t = ![t.val / 98 % 196, 0, 0] := by
  have h : (BitVec.ofNat 32 (t.val / 98 % 196)).toNat = t.val / 98 % 196 := by
    rw [BitVec.toNat_ofNat]; omega
  show cc4_transform_3 (grid4.coords t) = _
  unfold cc4_transform_3 Pipeline.Grid.coords
  simp only [stride_outer]
  show ![(BitVec.ofNat 32 (t.val / 98 % 196)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid4.N) :
    win4_3.index s ≠ win4_3.index t ↔ s.val / 98 % 196 ≠ t.val / 98 % 196 := by
  rw [index_out, index_out]; exact vec_ne _ _

/-- Window 3 (the result) is written back at the points ≡ 97 (mod 98): the last point of each run of 98 points
    sharing the first coordinate, the grid's last point among them. -/
theorem flush4_3 : ∀ t : Fin cfg4.N, (cfg4.win 3).flush t = true ↔ t.val % 98 = 97 := by
  intro t
  have hN : grid4.N = 19208 := N_4
  have hN' : cfg4.N = 19208 := N_4
  have ht : t.val < 19208 := lt_of_lt_of_eq t.isLt hN
  show win4_3.flush t = true ↔ _
  unfold Pipeline.Window.flush
  have hout : win4_3.isOut = true := rfl
  rw [hout, Bool.true_and, Bool.or_eq_true, decide_eq_true_eq, decide_eq_true_eq]
  constructor
  · rintro (h | ⟨h, hne⟩)
    · omega
    · have hq : (t.val + 1) / 98 % 196 ≠ t.val / 98 % 196 := (index_ne ⟨t.val + 1, h⟩ t).1 hne
      omega
  · intro h
    by_cases hl : t.val + 1 = grid4.N
    · exact Or.inl hl
    · have hlt : t.val + 1 < grid4.N := by omega
      have hq : (t.val + 1) / 98 % 196 ≠ t.val / 98 % 196 := by omega
      exact Or.inr ⟨hlt, (index_ne ⟨t.val + 1, hlt⟩ t).2 hq⟩

/-- The current staging memref of each window at point `t`: which of its buffers it is on. -/
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)

/-- The kernel body at point `t`, on what the pipeline calls it with (`defs₀`'s row at the slots). -/
abbrev bodyAt4 (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

end Cert.Kernel.Hand.Sched
-- ==== Proof.K.R4.lean ====
/-
  Region 0 of the program (the gather launch of the first propagation step), on any contents `V` of the unscoped
  buffers at its entry. Grid (196 edge chunks) x (98 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched4
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand.R4

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The chunk's column indices, the chunk's edge weights and the node tile's feature rows at point `t`, at their literal types. -/
abbrev colsBlk (c : Dev nD) (t : Fin cfg4.N) : Vec F S1x1x8192 .i32 := iblk V c 0 t
abbrev valsBlk (c : Dev nD) (t : Fin cfg4.N) : Vec F S1x1x8192 .f32 := iblk V c 1 t
abbrev featBlk (c : Dev nD) (t : Fin cfg4.N) : Vec F S1024x64 .f32 := iblk V c 2 t

/-- The accumulator after the body at point `t`, from the accumulator `a` before it: reset first when the point is a
    chunk's first tile. -/
def accStep (c : Dev nD) (t : Fin cfg4.N) (a : Vec F S8192x64 .f32) : Vec F S8192x64 .f32 :=
  k4_pay2 (grid4.coords t) (colsBlk V c t) (featBlk V c t) (if t.val % 98 = 0 then k4_pay1 else a)

/-- The accumulator before point `n` (after point `n - 1`). -/
def accAt (c : Dev nD) : ℕ → Vec F S8192x64 .f32
  | 0 => k4_pay1
  | n + 1 => if h : n < cfg4.N then accStep V c ⟨n, h⟩ (accAt c n) else k4_pay1

/-- The accumulator's buffer (the launch's scratch operand), whole. -/
abbrev accRef : Memref sig .tc .vmem S8192x64 .f32 := Memref.whole cc4_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => k4_pay3 (valsBlk V c t) (accAt V c (t.val + 1))
  Φ t := iprop((∃ a : Vec F S8192x64 .f32, owns (c : Thread nD τ) accRef fullShare a ∗ ⌜t.val % 98 ≠ 0 → a = accAt V c t.val⌝)
    ∗ Pipeline.scopedRestBut (Ix := Unit) (Name := ℕ) (U := UR sig nD τ) (Lvl := ℕ) (Val := Elt F) spec4 c [cc4_scratch0])
  q _ := fullShare
  owed _ := 0

theorem A_eq (c : Dev nD) (w : Fin cfg4.W) : (dat V c).A w = V c (Pipeline.arrRef spec4 w) := by
  dsimp only [dat]

theorem after_out (c : Dev nD) (t : Fin cfg4.N) :
    (dat V c).after 3 t = k4_pay3 (valsBlk V c t) (accAt V c (t.val + 1)) := by dsimp only [dat]

/-! ## The accumulator's recursion -/

/-- One step of the recursion at a grid point. -/
theorem accAt_succ (c : Dev nD) (t : Fin cfg4.N) : accAt V c (t.val + 1) = accStep V c t (accAt V c t.val) := by
  rw [accAt, dif_pos t.isLt]

/-- The invariant at any point, its conjuncts written out. -/
theorem Φ_eq (c : Dev nD) (u : Fin (cfg4.N + 1)) :
    (dat V c).Φ u = iprop((∃ a : Vec F S8192x64 .f32, owns (c : Thread nD τ) accRef fullShare a ∗ ⌜u.val % 98 ≠ 0 → a = accAt V c u.val⌝)
      ∗ Pipeline.scopedRestBut (Ix := Unit) (Name := ℕ) (U := UR sig nD τ) (Lvl := ℕ) (Val := Elt F) spec4 c [cc4_scratch0]) := by
  dsimp only [dat]

theorem after_cols (c : Dev nD) (t : Fin cfg4.N) : (dat V c).after 0 t = iblk V c 0 t := by dsimp only [dat]
theorem after_vals (c : Dev nD) (t : Fin cfg4.N) : (dat V c).after 1 t = iblk V c 1 t := by dsimp only [dat]
theorem after_feat (c : Dev nD) (t : Fin cfg4.N) : (dat V c).after 2 t = iblk V c 2 t := by dsimp only [dat]

/-! ## The body's two conditionals, over the grid -/

/-- The first conditional (the accumulator is reset), as the body computes it from the tile coordinate. -/
abbrev isFirst (i : grid4.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg4.N) : ((grid4.coords t) 1).val = t.val % 98 := by
  show t.val / grid4.stride 1 % grid4.bound 1 = t.val % 98
  rw [show grid4.stride 1 = 1 from by decide, Nat.div_one]
  rfl

/-- It holds exactly at a chunk's first tile. -/
theorem isFirst_iff (t : Fin cfg4.N) : isFirst (grid4.coords t) ↔ t.val % 98 = 0 := by
  show Scalar.cmpi .ne (Scalar.extui (Scalar.cmpi .eq (BitVec.ofNat 32 ((grid4.coords t) 1).val) 0#32)) 0#32 = 1#1 ↔ _
  rw [tile_coord t]
  exact tileTest_iff (t.val % 98) 0 (by omega) (by decide)

/-- The second conditional (the result block is stored) holds exactly at a chunk's last tile. -/
theorem isLast_iff (t : Fin cfg4.N) : k4_cond2 (grid4.coords t) = 1#1 ↔ t.val % 98 = 97 := by
  show Scalar.cmpi .ne (Scalar.extui (Scalar.cmpi .eq (BitVec.ofNat 32 ((grid4.coords t) 1).val) 97#32)) 0#32 = 1#1 ↔ _
  rw [tile_coord t]
  exact tileTest_iff (t.val % 98) 97 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg4 c) (hA : D.A 0 = V c (Pipeline.arrRef spec4 0))
    (hafter : ∀ t, D.after 0 t = iblk V c 0 t) (t : Fin cfg4.N) (d) : D.before 0 t d = iblk V c 0 t := by
  have hkeep : ∀ u, (cfg4.win 0).cut (cfg4.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg4 c) (hA : D.A 1 = V c (Pipeline.arrRef spec4 1))
    (hafter : ∀ t, D.after 1 t = iblk V c 1 t) (t : Fin cfg4.N) (d) : D.before 1 t d = iblk V c 1 t := by
  have hkeep : ∀ u, (cfg4.win 1).cut (cfg4.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg4 c) (hA : D.A 2 = V c (Pipeline.arrRef spec4 2))
    (hafter : ∀ t, D.after 2 t = iblk V c 2 t) (t : Fin cfg4.N) (d) : D.before 2 t d = iblk V c 2 t := by
  have hkeep : ∀ u, (cfg4.win 2).cut (cfg4.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg4.N) (d) : (dat V c).before 0 t d = iblk V c 0 t :=
  before_cols_of V (dat V c) (A_eq V c 0) (after_cols V c) t d
theorem before_vals (c : Dev nD) (t : Fin cfg4.N) (d) : (dat V c).before 1 t d = iblk V c 1 t :=
  before_vals_of V (dat V c) (A_eq V c 1) (after_vals V c) t d
theorem before_feat (c : Dev nD) (t : Fin cfg4.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid4.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k4_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k4_pay2 i xc xf a)) -∗ K ⟨⟩))
      ⊢ wp frame (wpE (defs₀ (F := F)) Variants.none c none) E (cc4__gather_kernel i mc hmc mv hmv mf hmf mo hmo ma hma) K := by
  simp only [cc4__gather_kernel_eq_skeleton]; unfold cc4__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid4.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k4_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k4_pay2 i xc xf k4_pay1)) -∗ K ⟨⟩))
      ⊢ wp frame (wpE (defs₀ (F := F)) Variants.none c none) E (cc4__gather_kernel i mc hmc mv hmv mf hmf mo hmo ma hma) K := by
  simp only [cc4__gather_kernel_eq_skeleton]; unfold cc4__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k4_pay2 i xc xf) (View.readCov_cons_toLoadRect ma.view _ _ _)

/-- A chunk's last tile: the accumulator takes the tile's product, and the result's staging buffer, whatever it held,
    takes the accumulator's rows scaled by the edge weights. -/
theorem runLast (c : Dev nD) (i : grid4.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k4_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k4_pay3 xv (k4_pay2 i xc xf a))
            ∗ owns (c : Thread nD τ) ma fullShare (k4_pay2 i xc xf a)) -∗ K ⟨⟩))
      ⊢ wp frame (wpE (defs₀ (F := F)) Variants.none c none) E (cc4__gather_kernel i mc hmc mv hmv mf hmf mo hmo ma hma) K := by
  simp only [cc4__gather_kernel_eq_skeleton]; unfold cc4__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k4_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg4.N) : cfg4.idle 3 (cfg4.grid.coords t) = !(k4_cond2 (grid4.coords t) == 1#1) := rfl

theorem idle_of_not_last (t : Fin cfg4.N) (h : ¬t.val % 98 = 97) : cfg4.idle 3 (cfg4.grid.coords t) = true := by
  rw [idle_out, beq_eq_false_iff_ne.mpr fun e => h ((isLast_iff t).mp e)]; rfl

theorem live_of_last (t : Fin cfg4.N) (h : t.val % 98 = 97) : cfg4.idle 3 (cfg4.grid.coords t) = false := by
  rw [idle_out, (isLast_iff t).mpr h]; rfl

/-- At a live point the result's staging buffer is left at what the proof data names. -/
theorem leavesExact_live (c : Dev nD) (t : Fin cfg4.N) (hi : cfg4.idle 3 (cfg4.grid.coords t) = false) :
    ((dat V c).leavesExact 3 t : sProp 𝕄)
      = owns (c : Thread nD τ) ((cfg4.win 3).stage (cfg4.slots t 3)) fullShare ((dat V c).after 3 t) := by
  unfold Dat.leavesExact; rw [hi]

/-! ## The body obligation, at a generic point -/

/-- The staging buffers the body is called with at point `t`, at their literal types, and their wholeness. -/
abbrev mCols (t : Fin cfg4.N) : Memref sig .tc .vmem S1x1x8192 .i32 := win4_0.stage (cfg4.slots t 0)
abbrev hCols (t : Fin cfg4.N) : (mCols t).IsWhole := hstage4_0 ((cfg4.slots t 0).cast nbuf4_0)
abbrev mVals (t : Fin cfg4.N) : Memref sig .tc .vmem S1x1x8192 .f32 := win4_1.stage (cfg4.slots t 1)
abbrev hVals (t : Fin cfg4.N) : (mVals t).IsWhole := hstage4_1 ((cfg4.slots t 1).cast nbuf4_1)
abbrev mFeat (t : Fin cfg4.N) : Memref sig .tc .vmem S1024x64 .f32 := win4_2.stage (cfg4.slots t 2)
abbrev hFeat (t : Fin cfg4.N) : (mFeat t).IsWhole := hstage4_2 ((cfg4.slots t 2).cast nbuf4_2)
abbrev mOut (t : Fin cfg4.N) : Memref sig .tc .vmem S1x8192x64 .f32 := win4_3.stage (cfg4.slots t 3)
abbrev hOut (t : Fin cfg4.N) : (mOut t).IsWhole := hstage4_3 ((cfg4.slots t 3).cast nbuf4_3)

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg4.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 98 = 0
  · have hl : ¬t.val % 98 = 97 := by omega
    have hfl : (cfg4.win 3).flush t = false := Bool.eq_false_iff.mpr fun h => hl ((flush4_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid4.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 98 = 97
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid4.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg4.win 3).flush t = false := Bool.eq_false_iff.mpr fun h => hl ((flush4_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid4.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec4 c : sProp 𝕄) ⊢ (dat V c).Φ 0 := by
  rw [scopedRest4_split, Φ_eq]
  refine sep_mono ?_ .rfl
  iintro ⟨%f, H⟩
  iexists f
  isplitl [H]
  · rw [owns_whole]; iexact H
  · ipureintro; intro h; exact absurd (Nat.zero_mod 98) h

/-- The invariant at the last point gives those buffers back. -/
theorem Φ_out (c : Dev nD) :
    (dat V c).Φ (Fin.last cfg4.N) ⊢ (Pipeline.scopedRest (Ix := Unit) (Name := ℕ) (U := UR sig nD τ) (Lvl := ℕ) (Val := Elt F) spec4 c : sProp 𝕄) := by
  rw [scopedRest4_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W4, bigSep_W4]
  exact sound_body V c t

end Cert.Kernel.Hand.R4

end
-- ==== Proof.K.Sched5.lean ====
/-
  The schedule of this scatter launch, by arithmetic. The grid is 98 x 196 with the second axis
  innermost, so point t has first coordinate t / 196 % 147. The result window's block index depends on the first
  coordinate only; it therefore changes between t and t + 1 exactly when t is the last of its run of 196
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid5.stride 0 = 196 := by decide

/-- The result window's block index at point `t`: the first coordinate, then zero. -/
private theorem index_out (t : Fin grid5.N) : win5_2.index t = ![t.val / 196 % 98, 0] := by
  have h : (BitVec.ofNat 32 (t.val / 196 % 98)).toNat = t.val / 196 % 98 := by
    rw [BitVec.toNat_ofNat]; omega
  show cc5_transform_2 (grid5.coords t) = _
  unfold cc5_transform_2 Pipeline.Grid.coords
  simp only [stride_outer]
  show ![(BitVec.ofNat 32 (t.val / 196 % 98)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid5.N) :
    win5_2.index s ≠ win5_2.index t ↔ s.val / 196 % 98 ≠ t.val / 196 % 98 := by
  rw [index_out, index_out]; exact vec_ne _ _

/-- Window 2 (the result) is written back at the points ≡ 195 (mod 196): the last point of each run of 196 points
    sharing the first coordinate, the grid's last point among them. -/
theorem flush5_2 : ∀ t : Fin cfg5.N, (cfg5.win 2).flush t = true ↔ t.val % 196 = 195 := by
  intro t
  have hN : grid5.N = 19208 := N_5
  have hN' : cfg5.N = 19208 := N_5
  have ht : t.val < 19208 := lt_of_lt_of_eq t.isLt hN
  show win5_2.flush t = true ↔ _
  unfold Pipeline.Window.flush
  have hout : win5_2.isOut = true := rfl
  rw [hout, Bool.true_and, Bool.or_eq_true, decide_eq_true_eq, decide_eq_true_eq]
  constructor
  · rintro (h | ⟨h, hne⟩)
    · omega
    · have hq : (t.val + 1) / 196 % 98 ≠ t.val / 196 % 98 := (index_ne ⟨t.val + 1, h⟩ t).1 hne
      omega
  · intro h
    by_cases hl : t.val + 1 = grid5.N
    · exact Or.inl hl
    · have hlt : t.val + 1 < grid5.N := by omega
      have hq : (t.val + 1) / 196 % 98 ≠ t.val / 196 % 98 := by omega
      exact Or.inr ⟨hlt, (index_ne ⟨t.val + 1, hlt⟩ t).2 hq⟩

/-- The current staging memref of each window at point `t`: which of its buffers it is on. -/
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)

/-- The kernel body at point `t`, on what the pipeline calls it with (`defs₀`'s row at the slots). -/
abbrev bodyAt5 (t : Fin cfg5.N) : Prog (TpuEff nD τ sig (Elt F) Λ₀ .tc) PUnit :=
  cc5__scatter_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (Memref.whole cc5_scratch0) (Memref.isWhole_whole _)

end Cert.Kernel.Hand.Sched
-- ==== Proof.K.R5.lean ====
/-
  Region 1 of the program (the scatter launch of the first propagation step), on any contents `V` of the unscoped
  buffers at its entry. Grid (98 node tiles) x (196 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched5
import Idealize.ShloMosaic.Lib.Pipeline.FrameBody
import Idealize.ShloMosaic.Lib.Pipeline.Frame
import Idealize.ShloMosaic.Lib.Tactic

set_option maxRecDepth 16384

noncomputable section

namespace Cert.Kernel.Hand.R5

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The chunk's row indices and the chunk's weighted gathered rows at point `t`, at their literal types. -/
abbrev rowsBlk (c : Dev nD) (t : Fin cfg5.N) : Vec F S1x1x8192 .i32 := iblk V c 0 t
abbrev wgBlk (c : Dev nD) (t : Fin cfg5.N) : Vec F S1x8192x64 .f32 := iblk V c 1 t

/-- The accumulator after the body at point `t`, from the accumulator `a` before it: reset first when the point is a
    tile's first chunk. -/
def accStep (c : Dev nD) (t : Fin cfg5.N) (a : Vec F S1024x64 .f32) : Vec F S1024x64 .f32 :=
  k5_pay2 (grid5.coords t) (rowsBlk V c t) (wgBlk V c t) (if t.val % 196 = 0 then k5_pay1 else a)

/-- The accumulator before point `n` (after point `n - 1`). -/
def accAt (c : Dev nD) : ℕ → Vec F S1024x64 .f32
  | 0 => k5_pay1
  | n + 1 => if h : n < cfg5.N then accStep V c ⟨n, h⟩ (accAt c n) else k5_pay1

/-- The accumulator's buffer (the launch's scratch operand), whole. -/
abbrev accRef : Memref sig .tc .vmem S1024x64 .f32 := Memref.whole cc5_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 196 ≠ 0 → a = accAt V c t.val⌝)
    ∗ Pipeline.scopedRestBut (Ix := Unit) (Name := ℕ) (U := UR sig nD τ) (Lvl := ℕ) (Val := Elt F) spec5 c [cc5_scratch0])
  q _ := fullShare
  owed _ := 0

theorem A_eq (c : Dev nD) (w : Fin cfg5.W) : (dat V c).A w = V c (Pipeline.arrRef spec5 w) := by
  dsimp only [dat]

theorem after_out (c : Dev nD) (t : Fin cfg5.N) :
    (dat V c).after 2 t = accAt V c (t.val + 1) := by dsimp only [dat]

/-! ## The invariant at the region's two ends -/

/-- The invariant at a point, written out. -/
theorem Φ_eq (c : Dev nD) (t : Fin (cfg5.N + 1)) :
    (dat V c).Φ t = iprop((∃ a : Vec F S1024x64 .f32, owns (c : Thread nD τ) accRef fullShare a ∗ ⌜t.val % 196 ≠ 0 → a = accAt V c t.val⌝)
      ∗ Pipeline.scopedRestBut (Ix := Unit) (Name := ℕ) (U := UR sig nD τ) (Lvl := ℕ) (Val := Elt F) spec5 c [cc5_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec5 c : sProp 𝕄) ⊢ (dat V c).Φ 0 := by
  rw [scopedRest5_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg5.N) ⊢ (Pipeline.scopedRest (Ix := Unit) (Name := ℕ) (U := UR sig nD τ) (Lvl := ℕ) (Val := Elt F) spec5 c : sProp 𝕄) := by
  rw [scopedRest5_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg5.N) : accAt V c (t.val + 1) = accStep V c t (accAt V c t.val) := by
  rw [accAt, dif_pos t.isLt]

/-- After a tile's first chunk the accumulator is that chunk's product added to zero, -/
theorem accAt_succ_first (c : Dev nD) (t : Fin cfg5.N) (h : t.val % 196 = 0) :
    accAt V c (t.val + 1) = k5_pay2 (grid5.coords t) (rowsBlk V c t) (wgBlk V c t) k5_pay1 := by
  rw [accAt_succ, accStep, if_pos h]

/-- after any other the chunk's product added to what it was. -/
theorem accAt_succ_next (c : Dev nD) (t : Fin cfg5.N) (h : ¬t.val % 196 = 0) :
    accAt V c (t.val + 1) = k5_pay2 (grid5.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid5.Coords) : Prop :=
  (Scalar.cmpi .ne (Scalar.extui (Scalar.cmpi .eq (BitVec.ofNat 32 (i 1).val) 0#32)) 0#32) = 1#1
/-- The condition of its second (the result's store). -/
abbrev condLast (i : grid5.Coords) : Prop := k5_cond2 i = 1#1

/-- The chunk coordinate of point `t`: the chunk is the innermost axis. -/
theorem chunk_val (t : Fin cfg5.N) : (grid5.coords t 1).val = t.val % 196 := by
  show t.val / grid5.stride 1 % grid5.bound 1 = t.val % 196
  rw [show grid5.stride 1 = 1 from by decide, Nat.div_one]
  rfl

/-- Both conditions read the chunk coordinate alone: decided over the 196 chunks. -/
theorem condFirst_iff (i : grid5.Coords) : condFirst i ↔ (i 1).val = 0 :=
  (by decide +kernel : ∀ j : Fin 196,
    (Scalar.cmpi .ne (Scalar.extui (Scalar.cmpi .eq (BitVec.ofNat 32 j.val) 0#32)) 0#32) = 1#1 ↔ j.val = 0) (i 1)
theorem condLast_iff (i : grid5.Coords) : condLast i ↔ (i 1).val = 195 :=
  (by decide +kernel : ∀ j : Fin 196,
    (Scalar.cmpi .ne (Scalar.extui (Scalar.cmpi .eq (BitVec.ofNat 32 j.val) 195#32)) 0#32) = 1#1 ↔ j.val = 195) (i 1)

/-- The reset runs at a tile's first chunk only, -/
theorem hcondFirst (t : Fin cfg5.N) : condFirst (grid5.coords t) ↔ t.val % 196 = 0 := by
  rw [condFirst_iff, chunk_val]
/-- and the result is stored at a tile's last chunk only. -/
theorem hcondLast (t : Fin cfg5.N) : condLast (grid5.coords t) ↔ t.val % 196 = 195 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid5.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k5_pay2 i x0 x1 k5_pay1)) -∗ K ⟨⟩))
      ⊢ wp frame (wpE (defs₀ (F := F)) Variants.none c none) E
          (cc5__scatter_kernel i arg2 harg2 arg3 harg3 arg4 harg4 arg5 harg5) K := by
  simp only [cc5__scatter_kernel_eq_skeleton]; unfold cc5__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid5.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k5_pay2 i x0 x1 a)) -∗ K ⟨⟩))
      ⊢ wp frame (wpE (defs₀ (F := F)) Variants.none c none) E
          (cc5__scatter_kernel i arg2 harg2 arg3 harg3 arg4 harg4 arg5 harg5) K := by
  simp only [cc5__scatter_kernel_eq_skeleton]; unfold cc5__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid5.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k5_pay2 i x0 x1 a)
            ∗ owns (c : Thread nD τ) arg5 fullShare (k5_pay2 i x0 x1 a)) -∗ K ⟨⟩))
      ⊢ wp frame (wpE (defs₀ (F := F)) Variants.none c none) E
          (cc5__scatter_kernel i arg2 harg2 arg3 harg3 arg4 harg4 arg5 harg5) K := by
  simp only [cc5__scatter_kernel_eq_skeleton]; unfold cc5__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg5.N) : (dat V c).after 0 t = iblk V c 0 t := by dsimp only [dat]
theorem after_wg (c : Dev nD) (t : Fin cfg5.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg5.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg5.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg5.N) : Memref sig .tc .vmem S1x1x8192 .i32 := win5_0.stage (cfg5.slots t 0)
abbrev hstRows (t : Fin cfg5.N) : (stRows t).IsWhole := hstage5_0 ((cfg5.slots t 0).cast nbuf5_0)
abbrev stWg (t : Fin cfg5.N) : Memref sig .tc .vmem S1x8192x64 .f32 := win5_1.stage (cfg5.slots t 1)
abbrev hstWg (t : Fin cfg5.N) : (stWg t).IsWhole := hstage5_1 ((cfg5.slots t 1).cast nbuf5_1)
abbrev stOut (t : Fin cfg5.N) : Memref sig .tc .vmem S1024x64 .f32 := win5_2.stage (cfg5.slots t 2)
abbrev hstOut (t : Fin cfg5.N) : (stOut t).IsWhole := hstage5_2 ((cfg5.slots t 2).cast nbuf5_2)

/-- Where the result is not stored its window is idle and is not written back: the body hands its buffer back as it
    found it. -/
theorem leaves_out_idle (c : Dev nD) (t : Fin cfg5.N) (h : ¬t.val % 196 = 195) :
    (dat V c).leavesExact 2 t = iprop(∃ d, owns (c : Thread nD τ) (stOut t) fullShare ((dat V c).before 2 t d)) := by
  have hi : cfg5.idle 2 (cfg5.grid.coords t) = true := by
    show (!(k5_cond2 (grid5.coords t) == 1#1)) = true
    rw [Bool.not_eq_true', beq_eq_false_iff_ne]
    exact fun hk => h ((hcondLast t).mp hk)
  have hfl : (cfg5.win 2).flush t = false := Bool.eq_false_iff.mpr fun hfl => h ((flush5_2 t).mp hfl)
  exact (dat V c).leavesExact_idle 2 t hi hfl

/-- Where it is stored the window is live: its buffer is handed back at the accumulator. -/
theorem leaves_out_live (c : Dev nD) (t : Fin cfg5.N) (h : t.val % 196 = 195) :
    (dat V c).leavesExact 2 t = owns (c : Thread nD τ) (stOut t) fullShare ((dat V c).after 2 t) := by
  have hi : cfg5.idle 2 (cfg5.grid.coords t) = false := by
    show (!(k5_cond2 (grid5.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg5.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg5.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_rows, before_wg]
  rw [Φ_eq, Φ_eq, show (dat V c).owesAt () t.succ = (dat V c).owesAt () t.castSucc from rfl, after_rows, after_wg]
  simp only [Fin.coe_castSucc, Fin.val_succ]
  have hN : t.val < 19208 := lt_of_lt_of_eq t.isLt (show cfg5.N = 19208 from N_5)
  by_cases hl : t.val % 196 = 195
  · have hf : ¬t.val % 196 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid5.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 196 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid5.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid5.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W5, bigSep_W5]
  exact sound_body V c t

end Cert.Kernel.Hand.R5

end
-- ==== Proof.K.Sched6.lean ====
/-
  The schedule of this gather launch, by arithmetic. The grid is 196 x 98 with the second axis
  innermost, so point t has first coordinate t / 98 % 391. The result window's block index depends on the first
  coordinate only; it therefore changes between t and t + 1 exactly when t is the last of its run of 98
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid6.stride 0 = 98 := by decide

/-- The result window's block index at point `t`: the first coordinate, then zeros. -/
private theorem index_out (t : Fin grid6.N) : win6_3.index t = ![t.val / 98 % 196, 0, 0] := by
  have h : (BitVec.ofNat 32 (t.val / 98 % 196)).toNat = t.val / 98 % 196 := by
    rw [BitVec.toNat_ofNat]; omega
  show cc6_transform_3 (grid6.coords t) = _
  unfold cc6_transform_3 Pipeline.Grid.coords
  simp only [stride_outer]
  show ![(BitVec.ofNat 32 (t.val / 98 % 196)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid6.N) :
    win6_3.index s ≠ win6_3.index t ↔ s.val / 98 % 196 ≠ t.val / 98 % 196 := by
  rw [index_out, index_out]; exact vec_ne _ _

/-- Window 3 (the result) is written back at the points ≡ 97 (mod 98): the last point of each run of 98 points
    sharing the first coordinate, the grid's last point among them. -/
theorem flush6_3 : ∀ t : Fin cfg6.N, (cfg6.win 3).flush t = true ↔ t.val % 98 = 97 := by
  intro t
  have hN : grid6.N = 19208 := N_6
  have hN' : cfg6.N = 19208 := N_6
  have ht : t.val < 19208 := lt_of_lt_of_eq t.isLt hN
  show win6_3.flush t = true ↔ _
  unfold Pipeline.Window.flush
  have hout : win6_3.isOut = true := rfl
  rw [hout, Bool.true_and, Bool.or_eq_true, decide_eq_true_eq, decide_eq_true_eq]
  constructor
  · rintro (h | ⟨h, hne⟩)
    · omega
    · have hq : (t.val + 1) / 98 % 196 ≠ t.val / 98 % 196 := (index_ne ⟨t.val + 1, h⟩ t).1 hne
      omega
  · intro h
    by_cases hl : t.val + 1 = grid6.N
    · exact Or.inl hl
    · have hlt : t.val + 1 < grid6.N := by omega
      have hq : (t.val + 1) / 98 % 196 ≠ t.val / 98 % 196 := by omega
      exact Or.inr ⟨hlt, (index_ne ⟨t.val + 1, hlt⟩ t).2 hq⟩

/-- The current staging memref of each window at point `t`: which of its buffers it is on. -/
abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)

/-- The kernel body at point `t`, on what the pipeline calls it with (`defs₀`'s row at the slots). -/
abbrev bodyAt6 (t : Fin cfg6.N) : Prog (TpuEff nD τ sig (Elt F) Λ₀ .tc) PUnit :=
  cc6__gather_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (Memref.whole cc6_scratch0) (Memref.isWhole_whole _)

end Cert.Kernel.Hand.Sched
-- ==== Proof.K.R6.lean ====
/-
  Region 0 of the program (the gather launch of the first propagation step), on any contents `V` of the unscoped
  buffers at its entry. Grid (196 edge chunks) x (98 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched6
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand.R6

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The chunk's column indices, the chunk's edge weights and the node tile's feature rows at point `t`, at their literal types. -/
abbrev colsBlk (c : Dev nD) (t : Fin cfg6.N) : Vec F S1x1x8192 .i32 := iblk V c 0 t
abbrev valsBlk (c : Dev nD) (t : Fin cfg6.N) : Vec F S1x1x8192 .f32 := iblk V c 1 t
abbrev featBlk (c : Dev nD) (t : Fin cfg6.N) : Vec F S1024x64 .f32 := iblk V c 2 t

/-- The accumulator after the body at point `t`, from the accumulator `a` before it: reset first when the point is a
    chunk's first tile. -/
def accStep (c : Dev nD) (t : Fin cfg6.N) (a : Vec F S8192x64 .f32) : Vec F S8192x64 .f32 :=
  k6_pay2 (grid6.coords t) (colsBlk V c t) (featBlk V c t) (if t.val % 98 = 0 then k6_pay1 else a)

/-- The accumulator before point `n` (after point `n - 1`). -/
def accAt (c : Dev nD) : ℕ → Vec F S8192x64 .f32
  | 0 => k6_pay1
  | n + 1 => if h : n < cfg6.N then accStep V c ⟨n, h⟩ (accAt c n) else k6_pay1

/-- The accumulator's buffer (the launch's scratch operand), whole. -/
abbrev accRef : Memref sig .tc .vmem S8192x64 .f32 := Memref.whole cc6_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => k6_pay3 (valsBlk V c t) (accAt V c (t.val + 1))
  Φ t := iprop((∃ a : Vec F S8192x64 .f32, owns (c : Thread nD τ) accRef fullShare a ∗ ⌜t.val % 98 ≠ 0 → a = accAt V c t.val⌝)
    ∗ Pipeline.scopedRestBut (Ix := Unit) (Name := ℕ) (U := UR sig nD τ) (Lvl := ℕ) (Val := Elt F) spec6 c [cc6_scratch0])
  q _ := fullShare
  owed _ := 0

theorem A_eq (c : Dev nD) (w : Fin cfg6.W) : (dat V c).A w = V c (Pipeline.arrRef spec6 w) := by
  dsimp only [dat]

theorem after_out (c : Dev nD) (t : Fin cfg6.N) :
    (dat V c).after 3 t = k6_pay3 (valsBlk V c t) (accAt V c (t.val + 1)) := by dsimp only [dat]

/-! ## The accumulator's recursion -/

/-- One step of the recursion at a grid point. -/
theorem accAt_succ (c : Dev nD) (t : Fin cfg6.N) : accAt V c (t.val + 1) = accStep V c t (accAt V c t.val) := by
  rw [accAt, dif_pos t.isLt]

/-- The invariant at any point, its conjuncts written out. -/
theorem Φ_eq (c : Dev nD) (u : Fin (cfg6.N + 1)) :
    (dat V c).Φ u = iprop((∃ a : Vec F S8192x64 .f32, owns (c : Thread nD τ) accRef fullShare a ∗ ⌜u.val % 98 ≠ 0 → a = accAt V c u.val⌝)
      ∗ Pipeline.scopedRestBut (Ix := Unit) (Name := ℕ) (U := UR sig nD τ) (Lvl := ℕ) (Val := Elt F) spec6 c [cc6_scratch0]) := by
  dsimp only [dat]

theorem after_cols (c : Dev nD) (t : Fin cfg6.N) : (dat V c).after 0 t = iblk V c 0 t := by dsimp only [dat]
theorem after_vals (c : Dev nD) (t : Fin cfg6.N) : (dat V c).after 1 t = iblk V c 1 t := by dsimp only [dat]
theorem after_feat (c : Dev nD) (t : Fin cfg6.N) : (dat V c).after 2 t = iblk V c 2 t := by dsimp only [dat]

/-! ## The body's two conditionals, over the grid -/

/-- The first conditional (the accumulator is reset), as the body computes it from the tile coordinate. -/
abbrev isFirst (i : grid6.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg6.N) : ((grid6.coords t) 1).val = t.val % 98 := by
  show t.val / grid6.stride 1 % grid6.bound 1 = t.val % 98
  rw [show grid6.stride 1 = 1 from by decide, Nat.div_one]
  rfl

/-- It holds exactly at a chunk's first tile. -/
theorem isFirst_iff (t : Fin cfg6.N) : isFirst (grid6.coords t) ↔ t.val % 98 = 0 := by
  show Scalar.cmpi .ne (Scalar.extui (Scalar.cmpi .eq (BitVec.ofNat 32 ((grid6.coords t) 1).val) 0#32)) 0#32 = 1#1 ↔ _
  rw [tile_coord t]
  exact tileTest_iff (t.val % 98) 0 (by omega) (by decide)

/-- The second conditional (the result block is stored) holds exactly at a chunk's last tile. -/
theorem isLast_iff (t : Fin cfg6.N) : k6_cond2 (grid6.coords t) = 1#1 ↔ t.val % 98 = 97 := by
  show Scalar.cmpi .ne (Scalar.extui (Scalar.cmpi .eq (BitVec.ofNat 32 ((grid6.coords t) 1).val) 97#32)) 0#32 = 1#1 ↔ _
  rw [tile_coord t]
  exact tileTest_iff (t.val % 98) 97 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg6 c) (hA : D.A 0 = V c (Pipeline.arrRef spec6 0))
    (hafter : ∀ t, D.after 0 t = iblk V c 0 t) (t : Fin cfg6.N) (d) : D.before 0 t d = iblk V c 0 t := by
  have hkeep : ∀ u, (cfg6.win 0).cut (cfg6.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg6 c) (hA : D.A 1 = V c (Pipeline.arrRef spec6 1))
    (hafter : ∀ t, D.after 1 t = iblk V c 1 t) (t : Fin cfg6.N) (d) : D.before 1 t d = iblk V c 1 t := by
  have hkeep : ∀ u, (cfg6.win 1).cut (cfg6.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg6 c) (hA : D.A 2 = V c (Pipeline.arrRef spec6 2))
    (hafter : ∀ t, D.after 2 t = iblk V c 2 t) (t : Fin cfg6.N) (d) : D.before 2 t d = iblk V c 2 t := by
  have hkeep : ∀ u, (cfg6.win 2).cut (cfg6.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg6.N) (d) : (dat V c).before 0 t d = iblk V c 0 t :=
  before_cols_of V (dat V c) (A_eq V c 0) (after_cols V c) t d
theorem before_vals (c : Dev nD) (t : Fin cfg6.N) (d) : (dat V c).before 1 t d = iblk V c 1 t :=
  before_vals_of V (dat V c) (A_eq V c 1) (after_vals V c) t d
theorem before_feat (c : Dev nD) (t : Fin cfg6.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid6.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k6_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k6_pay2 i xc xf a)) -∗ K ⟨⟩))
      ⊢ wp frame (wpE (defs₀ (F := F)) Variants.none c none) E (cc6__gather_kernel i mc hmc mv hmv mf hmf mo hmo ma hma) K := by
  simp only [cc6__gather_kernel_eq_skeleton]; unfold cc6__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid6.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k6_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k6_pay2 i xc xf k6_pay1)) -∗ K ⟨⟩))
      ⊢ wp frame (wpE (defs₀ (F := F)) Variants.none c none) E (cc6__gather_kernel i mc hmc mv hmv mf hmf mo hmo ma hma) K := by
  simp only [cc6__gather_kernel_eq_skeleton]; unfold cc6__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k6_pay2 i xc xf) (View.readCov_cons_toLoadRect ma.view _ _ _)

/-- A chunk's last tile: the accumulator takes the tile's product, and the result's staging buffer, whatever it held,
    takes the accumulator's rows scaled by the edge weights. -/
theorem runLast (c : Dev nD) (i : grid6.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k6_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k6_pay3 xv (k6_pay2 i xc xf a))
            ∗ owns (c : Thread nD τ) ma fullShare (k6_pay2 i xc xf a)) -∗ K ⟨⟩))
      ⊢ wp frame (wpE (defs₀ (F := F)) Variants.none c none) E (cc6__gather_kernel i mc hmc mv hmv mf hmf mo hmo ma hma) K := by
  simp only [cc6__gather_kernel_eq_skeleton]; unfold cc6__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k6_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg6.N) : cfg6.idle 3 (cfg6.grid.coords t) = !(k6_cond2 (grid6.coords t) == 1#1) := rfl

theorem idle_of_not_last (t : Fin cfg6.N) (h : ¬t.val % 98 = 97) : cfg6.idle 3 (cfg6.grid.coords t) = true := by
  rw [idle_out, beq_eq_false_iff_ne.mpr fun e => h ((isLast_iff t).mp e)]; rfl

theorem live_of_last (t : Fin cfg6.N) (h : t.val % 98 = 97) : cfg6.idle 3 (cfg6.grid.coords t) = false := by
  rw [idle_out, (isLast_iff t).mpr h]; rfl

/-- At a live point the result's staging buffer is left at what the proof data names. -/
theorem leavesExact_live (c : Dev nD) (t : Fin cfg6.N) (hi : cfg6.idle 3 (cfg6.grid.coords t) = false) :
    ((dat V c).leavesExact 3 t : sProp 𝕄)
      = owns (c : Thread nD τ) ((cfg6.win 3).stage (cfg6.slots t 3)) fullShare ((dat V c).after 3 t) := by
  unfold Dat.leavesExact; rw [hi]

/-! ## The body obligation, at a generic point -/

/-- The staging buffers the body is called with at point `t`, at their literal types, and their wholeness. -/
abbrev mCols (t : Fin cfg6.N) : Memref sig .tc .vmem S1x1x8192 .i32 := win6_0.stage (cfg6.slots t 0)
abbrev hCols (t : Fin cfg6.N) : (mCols t).IsWhole := hstage6_0 ((cfg6.slots t 0).cast nbuf6_0)
abbrev mVals (t : Fin cfg6.N) : Memref sig .tc .vmem S1x1x8192 .f32 := win6_1.stage (cfg6.slots t 1)
abbrev hVals (t : Fin cfg6.N) : (mVals t).IsWhole := hstage6_1 ((cfg6.slots t 1).cast nbuf6_1)
abbrev mFeat (t : Fin cfg6.N) : Memref sig .tc .vmem S1024x64 .f32 := win6_2.stage (cfg6.slots t 2)
abbrev hFeat (t : Fin cfg6.N) : (mFeat t).IsWhole := hstage6_2 ((cfg6.slots t 2).cast nbuf6_2)
abbrev mOut (t : Fin cfg6.N) : Memref sig .tc .vmem S1x8192x64 .f32 := win6_3.stage (cfg6.slots t 3)
abbrev hOut (t : Fin cfg6.N) : (mOut t).IsWhole := hstage6_3 ((cfg6.slots t 3).cast nbuf6_3)

/-- What the body is called with at point `t`, the windows one by one, -/
def bodyPre (c : Dev nD) (t : Fin cfg6.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg6.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 98 = 0
  · have hl : ¬t.val % 98 = 97 := by omega
    have hfl : (cfg6.win 3).flush t = false := Bool.eq_false_iff.mpr fun h => hl ((flush6_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid6.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 98 = 97
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid6.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg6.win 3).flush t = false := Bool.eq_false_iff.mpr fun h => hl ((flush6_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid6.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec6 c : sProp 𝕄) ⊢ (dat V c).Φ 0 := by
  rw [scopedRest6_split, Φ_eq]
  refine sep_mono ?_ .rfl
  iintro ⟨%f, H⟩
  iexists f
  isplitl [H]
  · rw [owns_whole]; iexact H
  · ipureintro; intro h; exact absurd (Nat.zero_mod 98) h

/-- The invariant at the last point gives those buffers back. -/
theorem Φ_out (c : Dev nD) :
    (dat V c).Φ (Fin.last cfg6.N) ⊢ (Pipeline.scopedRest (Ix := Unit) (Name := ℕ) (U := UR sig nD τ) (Lvl := ℕ) (Val := Elt F) spec6 c : sProp 𝕄) := by
  rw [scopedRest6_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W6, bigSep_W6]
  exact sound_body V c t

end Cert.Kernel.Hand.R6

end
-- ==== Proof.K.Sched7.lean ====
/-
  The schedule of this scatter launch, by arithmetic. The grid is 98 x 196 with the second axis
  innermost, so point t has first coordinate t / 196 % 147. The result window's block index depends on the first
  coordinate only; it therefore changes between t and t + 1 exactly when t is the last of its run of 196
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid7.stride 0 = 196 := by decide

/-- The result window's block index at point `t`: the first coordinate, then zero. -/
private theorem index_out (t : Fin grid7.N) : win7_2.index t = ![t.val / 196 % 98, 0] := by
  have h : (BitVec.ofNat 32 (t.val / 196 % 98)).toNat = t.val / 196 % 98 := by
    rw [BitVec.toNat_ofNat]; omega
  show cc7_transform_2 (grid7.coords t) = _
  unfold cc7_transform_2 Pipeline.Grid.coords
  simp only [stride_outer]
  show ![(BitVec.ofNat 32 (t.val / 196 % 98)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid7.N) :
    win7_2.index s ≠ win7_2.index t ↔ s.val / 196 % 98 ≠ t.val / 196 % 98 := by
  rw [index_out, index_out]; exact vec_ne _ _

/-- Window 2 (the result) is written back at the points ≡ 195 (mod 196): the last point of each run of 196 points
    sharing the first coordinate, the grid's last point among them. -/
theorem flush7_2 : ∀ t : Fin cfg7.N, (cfg7.win 2).flush t = true ↔ t.val % 196 = 195 := by
  intro t
  have hN : grid7.N = 19208 := N_7
  have hN' : cfg7.N = 19208 := N_7
  have ht : t.val < 19208 := lt_of_lt_of_eq t.isLt hN
  show win7_2.flush t = true ↔ _
  unfold Pipeline.Window.flush
  have hout : win7_2.isOut = true := rfl
  rw [hout, Bool.true_and, Bool.or_eq_true, decide_eq_true_eq, decide_eq_true_eq]
  constructor
  · rintro (h | ⟨h, hne⟩)
    · omega
    · have hq : (t.val + 1) / 196 % 98 ≠ t.val / 196 % 98 := (index_ne ⟨t.val + 1, h⟩ t).1 hne
      omega
  · intro h
    by_cases hl : t.val + 1 = grid7.N
    · exact Or.inl hl
    · have hlt : t.val + 1 < grid7.N := by omega
      have hq : (t.val + 1) / 196 % 98 ≠ t.val / 196 % 98 := by omega
      exact Or.inr ⟨hlt, (index_ne ⟨t.val + 1, hlt⟩ t).2 hq⟩

/-- The current staging memref of each window at point `t`: which of its buffers it is on. -/
abbrev st7_0 (t : Fin cfg7.N) := (cfg7.win 0).stage (cfg7.slots t 0)
abbrev st7_1 (t : Fin cfg7.N) := (cfg7.win 1).stage (cfg7.slots t 1)
abbrev st7_2 (t : Fin cfg7.N) := (cfg7.win 2).stage (cfg7.slots t 2)

/-- The kernel body at point `t`, on what the pipeline calls it with (`defs₀`'s row at the slots). -/
abbrev bodyAt7 (t : Fin cfg7.N) : Prog (TpuEff nD τ sig (Elt F) Λ₀ .tc) PUnit :=
  cc7__scatter_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (Memref.whole cc7_scratch0) (Memref.isWhole_whole _)

end Cert.Kernel.Hand.Sched
-- ==== Proof.K.R7.lean ====
/-
  Region 1 of the program (the scatter launch of the first propagation step), on any contents `V` of the unscoped
  buffers at its entry. Grid (98 node tiles) x (196 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched7
import Idealize.ShloMosaic.Lib.Pipeline.FrameBody
import Idealize.ShloMosaic.Lib.Pipeline.Frame
import Idealize.ShloMosaic.Lib.Tactic

set_option maxRecDepth 16384

noncomputable section

namespace Cert.Kernel.Hand.R7

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The chunk's row indices and the chunk's weighted gathered rows at point `t`, at their literal types. -/
abbrev rowsBlk (c : Dev nD) (t : Fin cfg7.N) : Vec F S1x1x8192 .i32 := iblk V c 0 t
abbrev wgBlk (c : Dev nD) (t : Fin cfg7.N) : Vec F S1x8192x64 .f32 := iblk V c 1 t

/-- The accumulator after the body at point `t`, from the accumulator `a` before it: reset first when the point is a
    tile's first chunk. -/
def accStep (c : Dev nD) (t : Fin cfg7.N) (a : Vec F S1024x64 .f32) : Vec F S1024x64 .f32 :=
  k7_pay2 (grid7.coords t) (rowsBlk V c t) (wgBlk V c t) (if t.val % 196 = 0 then k7_pay1 else a)

/-- The accumulator before point `n` (after point `n - 1`). -/
def accAt (c : Dev nD) : ℕ → Vec F S1024x64 .f32
  | 0 => k7_pay1
  | n + 1 => if h : n < cfg7.N then accStep V c ⟨n, h⟩ (accAt c n) else k7_pay1

/-- The accumulator's buffer (the launch's scratch operand), whole. -/
abbrev accRef : Memref sig .tc .vmem S1024x64 .f32 := Memref.whole cc7_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg7 c where
  A w := V c (Pipeline.arrRef spec7 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 196 ≠ 0 → a = accAt V c t.val⌝)
    ∗ Pipeline.scopedRestBut (Ix := Unit) (Name := ℕ) (U := UR sig nD τ) (Lvl := ℕ) (Val := Elt F) spec7 c [cc7_scratch0])
  q _ := fullShare
  owed _ := 0

theorem A_eq (c : Dev nD) (w : Fin cfg7.W) : (dat V c).A w = V c (Pipeline.arrRef spec7 w) := by
  dsimp only [dat]

theorem after_out (c : Dev nD) (t : Fin cfg7.N) :
    (dat V c).after 2 t = accAt V c (t.val + 1) := by dsimp only [dat]

/-! ## The invariant at the region's two ends -/

/-- The invariant at a point, written out. -/
theorem Φ_eq (c : Dev nD) (t : Fin (cfg7.N + 1)) :
    (dat V c).Φ t = iprop((∃ a : Vec F S1024x64 .f32, owns (c : Thread nD τ) accRef fullShare a ∗ ⌜t.val % 196 ≠ 0 → a = accAt V c t.val⌝)
      ∗ Pipeline.scopedRestBut (Ix := Unit) (Name := ℕ) (U := UR sig nD τ) (Lvl := ℕ) (Val := Elt F) spec7 c [cc7_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec7 c : sProp 𝕄) ⊢ (dat V c).Φ 0 := by
  rw [scopedRest7_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg7.N) ⊢ (Pipeline.scopedRest (Ix := Unit) (Name := ℕ) (U := UR sig nD τ) (Lvl := ℕ) (Val := Elt F) spec7 c : sProp 𝕄) := by
  rw [scopedRest7_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg7.N) : accAt V c (t.val + 1) = accStep V c t (accAt V c t.val) := by
  rw [accAt, dif_pos t.isLt]

/-- After a tile's first chunk the accumulator is that chunk's product added to zero, -/
theorem accAt_succ_first (c : Dev nD) (t : Fin cfg7.N) (h : t.val % 196 = 0) :
    accAt V c (t.val + 1) = k7_pay2 (grid7.coords t) (rowsBlk V c t) (wgBlk V c t) k7_pay1 := by
  rw [accAt_succ, accStep, if_pos h]

/-- after any other the chunk's product added to what it was. -/
theorem accAt_succ_next (c : Dev nD) (t : Fin cfg7.N) (h : ¬t.val % 196 = 0) :
    accAt V c (t.val + 1) = k7_pay2 (grid7.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid7.Coords) : Prop :=
  (Scalar.cmpi .ne (Scalar.extui (Scalar.cmpi .eq (BitVec.ofNat 32 (i 1).val) 0#32)) 0#32) = 1#1
/-- The condition of its second (the result's store). -/
abbrev condLast (i : grid7.Coords) : Prop := k7_cond2 i = 1#1

/-- The chunk coordinate of point `t`: the chunk is the innermost axis. -/
theorem chunk_val (t : Fin cfg7.N) : (grid7.coords t 1).val = t.val % 196 := by
  show t.val / grid7.stride 1 % grid7.bound 1 = t.val % 196
  rw [show grid7.stride 1 = 1 from by decide, Nat.div_one]
  rfl

/-- Both conditions read the chunk coordinate alone: decided over the 196 chunks. -/
theorem condFirst_iff (i : grid7.Coords) : condFirst i ↔ (i 1).val = 0 :=
  (by decide +kernel : ∀ j : Fin 196,
    (Scalar.cmpi .ne (Scalar.extui (Scalar.cmpi .eq (BitVec.ofNat 32 j.val) 0#32)) 0#32) = 1#1 ↔ j.val = 0) (i 1)
theorem condLast_iff (i : grid7.Coords) : condLast i ↔ (i 1).val = 195 :=
  (by decide +kernel : ∀ j : Fin 196,
    (Scalar.cmpi .ne (Scalar.extui (Scalar.cmpi .eq (BitVec.ofNat 32 j.val) 195#32)) 0#32) = 1#1 ↔ j.val = 195) (i 1)

/-- The reset runs at a tile's first chunk only, -/
theorem hcondFirst (t : Fin cfg7.N) : condFirst (grid7.coords t) ↔ t.val % 196 = 0 := by
  rw [condFirst_iff, chunk_val]
/-- and the result is stored at a tile's last chunk only. -/
theorem hcondLast (t : Fin cfg7.N) : condLast (grid7.coords t) ↔ t.val % 196 = 195 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid7.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k7_pay2 i x0 x1 k7_pay1)) -∗ K ⟨⟩))
      ⊢ wp frame (wpE (defs₀ (F := F)) Variants.none c none) E
          (cc7__scatter_kernel i arg2 harg2 arg3 harg3 arg4 harg4 arg5 harg5) K := by
  simp only [cc7__scatter_kernel_eq_skeleton]; unfold cc7__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid7.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k7_pay2 i x0 x1 a)) -∗ K ⟨⟩))
      ⊢ wp frame (wpE (defs₀ (F := F)) Variants.none c none) E
          (cc7__scatter_kernel i arg2 harg2 arg3 harg3 arg4 harg4 arg5 harg5) K := by
  simp only [cc7__scatter_kernel_eq_skeleton]; unfold cc7__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid7.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k7_pay2 i x0 x1 a)
            ∗ owns (c : Thread nD τ) arg5 fullShare (k7_pay2 i x0 x1 a)) -∗ K ⟨⟩))
      ⊢ wp frame (wpE (defs₀ (F := F)) Variants.none c none) E
          (cc7__scatter_kernel i arg2 harg2 arg3 harg3 arg4 harg4 arg5 harg5) K := by
  simp only [cc7__scatter_kernel_eq_skeleton]; unfold cc7__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg7.N) : (dat V c).after 0 t = iblk V c 0 t := by dsimp only [dat]
theorem after_wg (c : Dev nD) (t : Fin cfg7.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg7.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg7.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg7.N) : Memref sig .tc .vmem S1x1x8192 .i32 := win7_0.stage (cfg7.slots t 0)
abbrev hstRows (t : Fin cfg7.N) : (stRows t).IsWhole := hstage7_0 ((cfg7.slots t 0).cast nbuf7_0)
abbrev stWg (t : Fin cfg7.N) : Memref sig .tc .vmem S1x8192x64 .f32 := win7_1.stage (cfg7.slots t 1)
abbrev hstWg (t : Fin cfg7.N) : (stWg t).IsWhole := hstage7_1 ((cfg7.slots t 1).cast nbuf7_1)
abbrev stOut (t : Fin cfg7.N) : Memref sig .tc .vmem S1024x64 .f32 := win7_2.stage (cfg7.slots t 2)
abbrev hstOut (t : Fin cfg7.N) : (stOut t).IsWhole := hstage7_2 ((cfg7.slots t 2).cast nbuf7_2)

/-- Where the result is not stored its window is idle and is not written back: the body hands its buffer back as it
    found it. -/
theorem leaves_out_idle (c : Dev nD) (t : Fin cfg7.N) (h : ¬t.val % 196 = 195) :
    (dat V c).leavesExact 2 t = iprop(∃ d, owns (c : Thread nD τ) (stOut t) fullShare ((dat V c).before 2 t d)) := by
  have hi : cfg7.idle 2 (cfg7.grid.coords t) = true := by
    show (!(k7_cond2 (grid7.coords t) == 1#1)) = true
    rw [Bool.not_eq_true', beq_eq_false_iff_ne]
    exact fun hk => h ((hcondLast t).mp hk)
  have hfl : (cfg7.win 2).flush t = false := Bool.eq_false_iff.mpr fun hfl => h ((flush7_2 t).mp hfl)
  exact (dat V c).leavesExact_idle 2 t hi hfl

/-- Where it is stored the window is live: its buffer is handed back at the accumulator. -/
theorem leaves_out_live (c : Dev nD) (t : Fin cfg7.N) (h : t.val % 196 = 195) :
    (dat V c).leavesExact 2 t = owns (c : Thread nD τ) (stOut t) fullShare ((dat V c).after 2 t) := by
  have hi : cfg7.idle 2 (cfg7.grid.coords t) = false := by
    show (!(k7_cond2 (grid7.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg7.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg7.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_rows, before_wg]
  rw [Φ_eq, Φ_eq, show (dat V c).owesAt () t.succ = (dat V c).owesAt () t.castSucc from rfl, after_rows, after_wg]
  simp only [Fin.coe_castSucc, Fin.val_succ]
  have hN : t.val < 19208 := lt_of_lt_of_eq t.isLt (show cfg7.N = 19208 from N_7)
  by_cases hl : t.val % 196 = 195
  · have hf : ¬t.val % 196 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid7.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 196 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid7.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid7.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W7, bigSep_W7]
  exact sound_body V c t

end Cert.Kernel.Hand.R7

end
-- ==== Proof.K.Sched8.lean ====
/-
  The schedule of this gather launch, by arithmetic. The grid is 98 x 49 with the second axis
  innermost, so point t has first coordinate t / 49 % 391. The result window's block index depends on the first
  coordinate only; it therefore changes between t and t + 1 exactly when t is the last of its run of 49
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid8.stride 0 = 49 := by decide

/-- The result window's block index at point `t`: the first coordinate, then zeros. -/
private theorem index_out (t : Fin grid8.N) : win8_3.index t = ![t.val / 49 % 98, 0, 0] := by
  have h : (BitVec.ofNat 32 (t.val / 49 % 98)).toNat = t.val / 49 % 98 := by
    rw [BitVec.toNat_ofNat]; omega
  show cc8_transform_3 (grid8.coords t) = _
  unfold cc8_transform_3 Pipeline.Grid.coords
  simp only [stride_outer]
  show ![(BitVec.ofNat 32 (t.val / 49 % 98)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid8.N) :
    win8_3.index s ≠ win8_3.index t ↔ s.val / 49 % 98 ≠ t.val / 49 % 98 := by
  rw [index_out, index_out]; exact vec_ne _ _

/-- Window 3 (the result) is written back at the points ≡ 48 (mod 49): the last point of each run of 49 points
    sharing the first coordinate, the grid's last point among them. -/
theorem flush8_3 : ∀ t : Fin cfg8.N, (cfg8.win 3).flush t = true ↔ t.val % 49 = 48 := by
  intro t
  have hN : grid8.N = 4802 := N_8
  have hN' : cfg8.N = 4802 := N_8
  have ht : t.val < 4802 := lt_of_lt_of_eq t.isLt hN
  show win8_3.flush t = true ↔ _
  unfold Pipeline.Window.flush
  have hout : win8_3.isOut = true := rfl
  rw [hout, Bool.true_and, Bool.or_eq_true, decide_eq_true_eq, decide_eq_true_eq]
  constructor
  · rintro (h | ⟨h, hne⟩)
    · omega
    · have hq : (t.val + 1) / 49 % 98 ≠ t.val / 49 % 98 := (index_ne ⟨t.val + 1, h⟩ t).1 hne
      omega
  · intro h
    by_cases hl : t.val + 1 = grid8.N
    · exact Or.inl hl
    · have hlt : t.val + 1 < grid8.N := by omega
      have hq : (t.val + 1) / 49 % 98 ≠ t.val / 49 % 98 := by omega
      exact Or.inr ⟨hlt, (index_ne ⟨t.val + 1, hlt⟩ t).2 hq⟩

/-- The current staging memref of each window at point `t`: which of its buffers it is on. -/
abbrev st8_0 (t : Fin cfg8.N) := (cfg8.win 0).stage (cfg8.slots t 0)
abbrev st8_1 (t : Fin cfg8.N) := (cfg8.win 1).stage (cfg8.slots t 1)
abbrev st8_2 (t : Fin cfg8.N) := (cfg8.win 2).stage (cfg8.slots t 2)
abbrev st8_3 (t : Fin cfg8.N) := (cfg8.win 3).stage (cfg8.slots t 3)

/-- The kernel body at point `t`, on what the pipeline calls it with (`defs₀`'s row at the slots). -/
abbrev bodyAt8 (t : Fin cfg8.N) : Prog (TpuEff nD τ sig (Elt F) Λ₀ .tc) PUnit :=
  cc8__gather_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (Memref.whole cc8_scratch0) (Memref.isWhole_whole _)

end Cert.Kernel.Hand.Sched
-- ==== Proof.K.R8.lean ====
/-
  Region 0 of the program (the gather launch of the first propagation step), on any contents `V` of the unscoped
  buffers at its entry. Grid (98 edge chunks) x (49 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched8
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand.R8

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The chunk's column indices, the chunk's edge weights and the node tile's feature rows at point `t`, at their literal types. -/
abbrev colsBlk (c : Dev nD) (t : Fin cfg8.N) : Vec F S1x1x8192 .i32 := iblk V c 0 t
abbrev valsBlk (c : Dev nD) (t : Fin cfg8.N) : Vec F S1x1x8192 .f32 := iblk V c 1 t
abbrev featBlk (c : Dev nD) (t : Fin cfg8.N) : Vec F S1024x64 .f32 := iblk V c 2 t

/-- The accumulator after the body at point `t`, from the accumulator `a` before it: reset first when the point is a
    chunk's first tile. -/
def accStep (c : Dev nD) (t : Fin cfg8.N) (a : Vec F S8192x64 .f32) : Vec F S8192x64 .f32 :=
  k8_pay2 (grid8.coords t) (colsBlk V c t) (featBlk V c t) (if t.val % 49 = 0 then k8_pay1 else a)

/-- The accumulator before point `n` (after point `n - 1`). -/
def accAt (c : Dev nD) : ℕ → Vec F S8192x64 .f32
  | 0 => k8_pay1
  | n + 1 => if h : n < cfg8.N then accStep V c ⟨n, h⟩ (accAt c n) else k8_pay1

/-- The accumulator's buffer (the launch's scratch operand), whole. -/
abbrev accRef : Memref sig .tc .vmem S8192x64 .f32 := Memref.whole cc8_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg8 c where
  A w := V c (Pipeline.arrRef spec8 w)
  after w t := match w with
    | ⟨0, _⟩ => iblk V c 0 t
    | ⟨1, _⟩ => iblk V c 1 t
    | ⟨2, _⟩ => iblk V c 2 t
    | ⟨3, _⟩ => k8_pay3 (valsBlk V c t) (accAt V c (t.val + 1))
  Φ t := iprop((∃ a : Vec F S8192x64 .f32, owns (c : Thread nD τ) accRef fullShare a ∗ ⌜t.val % 49 ≠ 0 → a = accAt V c t.val⌝)
    ∗ Pipeline.scopedRestBut (Ix := Unit) (Name := ℕ) (U := UR sig nD τ) (Lvl := ℕ) (Val := Elt F) spec8 c [cc8_scratch0])
  q _ := fullShare
  owed _ := 0

theorem A_eq (c : Dev nD) (w : Fin cfg8.W) : (dat V c).A w = V c (Pipeline.arrRef spec8 w) := by
  dsimp only [dat]

theorem after_out (c : Dev nD) (t : Fin cfg8.N) :
    (dat V c).after 3 t = k8_pay3 (valsBlk V c t) (accAt V c (t.val + 1)) := by dsimp only [dat]

/-! ## The accumulator's recursion -/

/-- One step of the recursion at a grid point. -/
theorem accAt_succ (c : Dev nD) (t : Fin cfg8.N) : accAt V c (t.val + 1) = accStep V c t (accAt V c t.val) := by
  rw [accAt, dif_pos t.isLt]

/-- The invariant at any point, its conjuncts written out. -/
theorem Φ_eq (c : Dev nD) (u : Fin (cfg8.N + 1)) :
    (dat V c).Φ u = iprop((∃ a : Vec F S8192x64 .f32, owns (c : Thread nD τ) accRef fullShare a ∗ ⌜u.val % 49 ≠ 0 → a = accAt V c u.val⌝)
      ∗ Pipeline.scopedRestBut (Ix := Unit) (Name := ℕ) (U := UR sig nD τ) (Lvl := ℕ) (Val := Elt F) spec8 c [cc8_scratch0]) := by
  dsimp only [dat]

theorem after_cols (c : Dev nD) (t : Fin cfg8.N) : (dat V c).after 0 t = iblk V c 0 t := by dsimp only [dat]
theorem after_vals (c : Dev nD) (t : Fin cfg8.N) : (dat V c).after 1 t = iblk V c 1 t := by dsimp only [dat]
theorem after_feat (c : Dev nD) (t : Fin cfg8.N) : (dat V c).after 2 t = iblk V c 2 t := by dsimp only [dat]

/-! ## The body's two conditionals, over the grid -/

/-- The first conditional (the accumulator is reset), as the body computes it from the tile coordinate. -/
abbrev isFirst (i : grid8.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg8.N) : ((grid8.coords t) 1).val = t.val % 49 := by
  show t.val / grid8.stride 1 % grid8.bound 1 = t.val % 49
  rw [show grid8.stride 1 = 1 from by decide, Nat.div_one]
  rfl

/-- It holds exactly at a chunk's first tile. -/
theorem isFirst_iff (t : Fin cfg8.N) : isFirst (grid8.coords t) ↔ t.val % 49 = 0 := by
  show Scalar.cmpi .ne (Scalar.extui (Scalar.cmpi .eq (BitVec.ofNat 32 ((grid8.coords t) 1).val) 0#32)) 0#32 = 1#1 ↔ _
  rw [tile_coord t]
  exact tileTest_iff (t.val % 49) 0 (by omega) (by decide)

/-- The second conditional (the result block is stored) holds exactly at a chunk's last tile. -/
theorem isLast_iff (t : Fin cfg8.N) : k8_cond2 (grid8.coords t) = 1#1 ↔ t.val % 49 = 48 := by
  show Scalar.cmpi .ne (Scalar.extui (Scalar.cmpi .eq (BitVec.ofNat 32 ((grid8.coords t) 1).val) 48#32)) 0#32 = 1#1 ↔ _
  rw [tile_coord t]
  exact tileTest_iff (t.val % 49) 48 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg8 c) (hA : D.A 0 = V c (Pipeline.arrRef spec8 0))
    (hafter : ∀ t, D.after 0 t = iblk V c 0 t) (t : Fin cfg8.N) (d) : D.before 0 t d = iblk V c 0 t := by
  have hkeep : ∀ u, (cfg8.win 0).cut (cfg8.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg8 c) (hA : D.A 1 = V c (Pipeline.arrRef spec8 1))
    (hafter : ∀ t, D.after 1 t = iblk V c 1 t) (t : Fin cfg8.N) (d) : D.before 1 t d = iblk V c 1 t := by
  have hkeep : ∀ u, (cfg8.win 1).cut (cfg8.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg8 c) (hA : D.A 2 = V c (Pipeline.arrRef spec8 2))
    (hafter : ∀ t, D.after 2 t = iblk V c 2 t) (t : Fin cfg8.N) (d) : D.before 2 t d = iblk V c 2 t := by
  have hkeep : ∀ u, (cfg8.win 2).cut (cfg8.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg8.N) (d) : (dat V c).before 0 t d = iblk V c 0 t :=
  before_cols_of V (dat V c) (A_eq V c 0) (after_cols V c) t d
theorem before_vals (c : Dev nD) (t : Fin cfg8.N) (d) : (dat V c).before 1 t d = iblk V c 1 t :=
  before_vals_of V (dat V c) (A_eq V c 1) (after_vals V c) t d
theorem before_feat (c : Dev nD) (t : Fin cfg8.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid8.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k8_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k8_pay2 i xc xf a)) -∗ K ⟨⟩))
      ⊢ wp frame (wpE (defs₀ (F := F)) Variants.none c none) E (cc8__gather_kernel i mc hmc mv hmv mf hmf mo hmo ma hma) K := by
  simp only [cc8__gather_kernel_eq_skeleton]; unfold cc8__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid8.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k8_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k8_pay2 i xc xf k8_pay1)) -∗ K ⟨⟩))
      ⊢ wp frame (wpE (defs₀ (F := F)) Variants.none c none) E (cc8__gather_kernel i mc hmc mv hmv mf hmf mo hmo ma hma) K := by
  simp only [cc8__gather_kernel_eq_skeleton]; unfold cc8__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k8_pay2 i xc xf) (View.readCov_cons_toLoadRect ma.view _ _ _)

/-- A chunk's last tile: the accumulator takes the tile's product, and the result's staging buffer, whatever it held,
    takes the accumulator's rows scaled by the edge weights. -/
theorem runLast (c : Dev nD) (i : grid8.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k8_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k8_pay3 xv (k8_pay2 i xc xf a))
            ∗ owns (c : Thread nD τ) ma fullShare (k8_pay2 i xc xf a)) -∗ K ⟨⟩))
      ⊢ wp frame (wpE (defs₀ (F := F)) Variants.none c none) E (cc8__gather_kernel i mc hmc mv hmv mf hmf mo hmo ma hma) K := by
  simp only [cc8__gather_kernel_eq_skeleton]; unfold cc8__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k8_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg8.N) : cfg8.idle 3 (cfg8.grid.coords t) = !(k8_cond2 (grid8.coords t) == 1#1) := rfl

theorem idle_of_not_last (t : Fin cfg8.N) (h : ¬t.val % 49 = 48) : cfg8.idle 3 (cfg8.grid.coords t) = true := by
  rw [idle_out, beq_eq_false_iff_ne.mpr fun e => h ((isLast_iff t).mp e)]; rfl

theorem live_of_last (t : Fin cfg8.N) (h : t.val % 49 = 48) : cfg8.idle 3 (cfg8.grid.coords t) = false := by
  rw [idle_out, (isLast_iff t).mpr h]; rfl

/-- At a live point the result's staging buffer is left at what the proof data names. -/
theorem leavesExact_live (c : Dev nD) (t : Fin cfg8.N) (hi : cfg8.idle 3 (cfg8.grid.coords t) = false) :
    ((dat V c).leavesExact 3 t : sProp 𝕄)
      = owns (c : Thread nD τ) ((cfg8.win 3).stage (cfg8.slots t 3)) fullShare ((dat V c).after 3 t) := by
  unfold Dat.leavesExact; rw [hi]

/-! ## The body obligation, at a generic point -/

/-- The staging buffers the body is called with at point `t`, at their literal types, and their wholeness. -/
abbrev mCols (t : Fin cfg8.N) : Memref sig .tc .vmem S1x1x8192 .i32 := win8_0.stage (cfg8.slots t 0)
abbrev hCols (t : Fin cfg8.N) : (mCols t).IsWhole := hstage8_0 ((cfg8.slots t 0).cast nbuf8_0)
abbrev mVals (t : Fin cfg8.N) : Memref sig .tc .vmem S1x1x8192 .f32 := win8_1.stage (cfg8.slots t 1)
abbrev hVals (t : Fin cfg8.N) : (mVals t).IsWhole := hstage8_1 ((cfg8.slots t 1).cast nbuf8_1)
abbrev mFeat (t : Fin cfg8.N) : Memref sig .tc .vmem S1024x64 .f32 := win8_2.stage (cfg8.slots t 2)
abbrev hFeat (t : Fin cfg8.N) : (mFeat t).IsWhole := hstage8_2 ((cfg8.slots t 2).cast nbuf8_2)
abbrev mOut (t : Fin cfg8.N) : Memref sig .tc .vmem S1x8192x64 .f32 := win8_3.stage (cfg8.slots t 3)
abbrev hOut (t : Fin cfg8.N) : (mOut t).IsWhole := hstage8_3 ((cfg8.slots t 3).cast nbuf8_3)

/-- What the body is called with at point `t`, the windows one by one, -/
def bodyPre (c : Dev nD) (t : Fin cfg8.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg8.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 49 = 0
  · have hl : ¬t.val % 49 = 48 := by omega
    have hfl : (cfg8.win 3).flush t = false := Bool.eq_false_iff.mpr fun h => hl ((flush8_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid8.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 49 = 48
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid8.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg8.win 3).flush t = false := Bool.eq_false_iff.mpr fun h => hl ((flush8_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid8.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec8 c : sProp 𝕄) ⊢ (dat V c).Φ 0 := by
  rw [scopedRest8_split, Φ_eq]
  refine sep_mono ?_ .rfl
  iintro ⟨%f, H⟩
  iexists f
  isplitl [H]
  · rw [owns_whole]; iexact H
  · ipureintro; intro h; exact absurd (Nat.zero_mod 49) h

/-- The invariant at the last point gives those buffers back. -/
theorem Φ_out (c : Dev nD) :
    (dat V c).Φ (Fin.last cfg8.N) ⊢ (Pipeline.scopedRest (Ix := Unit) (Name := ℕ) (U := UR sig nD τ) (Lvl := ℕ) (Val := Elt F) spec8 c : sProp 𝕄) := by
  rw [scopedRest8_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W8, bigSep_W8]
  exact sound_body V c t

end Cert.Kernel.Hand.R8

end
-- ==== Proof.K.Sched9.lean ====
/-
  The schedule of this scatter launch, by arithmetic. The grid is 49 x 98 with the second axis
  innermost, so point t has first coordinate t / 98 % 147. The result window's block index depends on the first
  coordinate only; it therefore changes between t and t + 1 exactly when t is the last of its run of 98
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid9.stride 0 = 98 := by decide

/-- The result window's block index at point `t`: the first coordinate, then zero. -/
private theorem index_out (t : Fin grid9.N) : win9_2.index t = ![t.val / 98 % 49, 0] := by
  have h : (BitVec.ofNat 32 (t.val / 98 % 49)).toNat = t.val / 98 % 49 := by
    rw [BitVec.toNat_ofNat]; omega
  show cc9_transform_2 (grid9.coords t) = _
  unfold cc9_transform_2 Pipeline.Grid.coords
  simp only [stride_outer]
  show ![(BitVec.ofNat 32 (t.val / 98 % 49)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid9.N) :
    win9_2.index s ≠ win9_2.index t ↔ s.val / 98 % 49 ≠ t.val / 98 % 49 := by
  rw [index_out, index_out]; exact vec_ne _ _

/-- Window 2 (the result) is written back at the points ≡ 97 (mod 98): the last point of each run of 98 points
    sharing the first coordinate, the grid's last point among them. -/
theorem flush9_2 : ∀ t : Fin cfg9.N, (cfg9.win 2).flush t = true ↔ t.val % 98 = 97 := by
  intro t
  have hN : grid9.N = 4802 := N_9
  have hN' : cfg9.N = 4802 := N_9
  have ht : t.val < 4802 := lt_of_lt_of_eq t.isLt hN
  show win9_2.flush t = true ↔ _
  unfold Pipeline.Window.flush
  have hout : win9_2.isOut = true := rfl
  rw [hout, Bool.true_and, Bool.or_eq_true, decide_eq_true_eq, decide_eq_true_eq]
  constructor
  · rintro (h | ⟨h, hne⟩)
    · omega
    · have hq : (t.val + 1) / 98 % 49 ≠ t.val / 98 % 49 := (index_ne ⟨t.val + 1, h⟩ t).1 hne
      omega
  · intro h
    by_cases hl : t.val + 1 = grid9.N
    · exact Or.inl hl
    · have hlt : t.val + 1 < grid9.N := by omega
      have hq : (t.val + 1) / 98 % 49 ≠ t.val / 98 % 49 := by omega
      exact Or.inr ⟨hlt, (index_ne ⟨t.val + 1, hlt⟩ t).2 hq⟩

/-- The current staging memref of each window at point `t`: which of its buffers it is on. -/
abbrev st9_0 (t : Fin cfg9.N) := (cfg9.win 0).stage (cfg9.slots t 0)
abbrev st9_1 (t : Fin cfg9.N) := (cfg9.win 1).stage (cfg9.slots t 1)
abbrev st9_2 (t : Fin cfg9.N) := (cfg9.win 2).stage (cfg9.slots t 2)

/-- The kernel body at point `t`, on what the pipeline calls it with (`defs₀`'s row at the slots). -/
abbrev bodyAt9 (t : Fin cfg9.N) : Prog (TpuEff nD τ sig (Elt F) Λ₀ .tc) PUnit :=
  cc9__scatter_kernel (grid9.coords t) (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) (Memref.whole cc9_scratch0) (Memref.isWhole_whole _)

end Cert.Kernel.Hand.Sched
-- ==== Proof.K.R9.lean ====
/-
  Region 1 of the program (the scatter launch of the first propagation step), on any contents `V` of the unscoped
  buffers at its entry. Grid (49 node tiles) x (98 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched9
import Idealize.ShloMosaic.Lib.Pipeline.FrameBody
import Idealize.ShloMosaic.Lib.Pipeline.Frame
import Idealize.ShloMosaic.Lib.Tactic

set_option maxRecDepth 16384

noncomputable section

namespace Cert.Kernel.Hand.R9

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The chunk's row indices and the chunk's weighted gathered rows at point `t`, at their literal types. -/
abbrev rowsBlk (c : Dev nD) (t : Fin cfg9.N) : Vec F S1x1x8192 .i32 := iblk V c 0 t
abbrev wgBlk (c : Dev nD) (t : Fin cfg9.N) : Vec F S1x8192x64 .f32 := iblk V c 1 t

/-- The accumulator after the body at point `t`, from the accumulator `a` before it: reset first when the point is a
    tile's first chunk. -/
def accStep (c : Dev nD) (t : Fin cfg9.N) (a : Vec F S1024x64 .f32) : Vec F S1024x64 .f32 :=
  k9_pay2 (grid9.coords t) (rowsBlk V c t) (wgBlk V c t) (if t.val % 98 = 0 then k9_pay1 else a)

/-- The accumulator before point `n` (after point `n - 1`). -/
def accAt (c : Dev nD) : ℕ → Vec F S1024x64 .f32
  | 0 => k9_pay1
  | n + 1 => if h : n < cfg9.N then accStep V c ⟨n, h⟩ (accAt c n) else k9_pay1

/-- The accumulator's buffer (the launch's scratch operand), whole. -/
abbrev accRef : Memref sig .tc .vmem S1024x64 .f32 := Memref.whole cc9_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg9 c where
  A w := V c (Pipeline.arrRef spec9 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 98 ≠ 0 → a = accAt V c t.val⌝)
    ∗ Pipeline.scopedRestBut (Ix := Unit) (Name := ℕ) (U := UR sig nD τ) (Lvl := ℕ) (Val := Elt F) spec9 c [cc9_scratch0])
  q _ := fullShare
  owed _ := 0

theorem A_eq (c : Dev nD) (w : Fin cfg9.W) : (dat V c).A w = V c (Pipeline.arrRef spec9 w) := by
  dsimp only [dat]

theorem after_out (c : Dev nD) (t : Fin cfg9.N) :
    (dat V c).after 2 t = accAt V c (t.val + 1) := by dsimp only [dat]

/-! ## The invariant at the region's two ends -/

/-- The invariant at a point, written out. -/
theorem Φ_eq (c : Dev nD) (t : Fin (cfg9.N + 1)) :
    (dat V c).Φ t = iprop((∃ a : Vec F S1024x64 .f32, owns (c : Thread nD τ) accRef fullShare a ∗ ⌜t.val % 98 ≠ 0 → a = accAt V c t.val⌝)
      ∗ Pipeline.scopedRestBut (Ix := Unit) (Name := ℕ) (U := UR sig nD τ) (Lvl := ℕ) (Val := Elt F) spec9 c [cc9_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec9 c : sProp 𝕄) ⊢ (dat V c).Φ 0 := by
  rw [scopedRest9_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg9.N) ⊢ (Pipeline.scopedRest (Ix := Unit) (Name := ℕ) (U := UR sig nD τ) (Lvl := ℕ) (Val := Elt F) spec9 c : sProp 𝕄) := by
  rw [scopedRest9_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg9.N) : accAt V c (t.val + 1) = accStep V c t (accAt V c t.val) := by
  rw [accAt, dif_pos t.isLt]

/-- After a tile's first chunk the accumulator is that chunk's product added to zero, -/
theorem accAt_succ_first (c : Dev nD) (t : Fin cfg9.N) (h : t.val % 98 = 0) :
    accAt V c (t.val + 1) = k9_pay2 (grid9.coords t) (rowsBlk V c t) (wgBlk V c t) k9_pay1 := by
  rw [accAt_succ, accStep, if_pos h]

/-- after any other the chunk's product added to what it was. -/
theorem accAt_succ_next (c : Dev nD) (t : Fin cfg9.N) (h : ¬t.val % 98 = 0) :
    accAt V c (t.val + 1) = k9_pay2 (grid9.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid9.Coords) : Prop :=
  (Scalar.cmpi .ne (Scalar.extui (Scalar.cmpi .eq (BitVec.ofNat 32 (i 1).val) 0#32)) 0#32) = 1#1
/-- The condition of its second (the result's store). -/
abbrev condLast (i : grid9.Coords) : Prop := k9_cond2 i = 1#1

/-- The chunk coordinate of point `t`: the chunk is the innermost axis. -/
theorem chunk_val (t : Fin cfg9.N) : (grid9.coords t 1).val = t.val % 98 := by
  show t.val / grid9.stride 1 % grid9.bound 1 = t.val % 98
  rw [show grid9.stride 1 = 1 from by decide, Nat.div_one]
  rfl

/-- Both conditions read the chunk coordinate alone: decided over the 98 chunks. -/
theorem condFirst_iff (i : grid9.Coords) : condFirst i ↔ (i 1).val = 0 :=
  (by decide +kernel : ∀ j : Fin 98,
    (Scalar.cmpi .ne (Scalar.extui (Scalar.cmpi .eq (BitVec.ofNat 32 j.val) 0#32)) 0#32) = 1#1 ↔ j.val = 0) (i 1)
theorem condLast_iff (i : grid9.Coords) : condLast i ↔ (i 1).val = 97 :=
  (by decide +kernel : ∀ j : Fin 98,
    (Scalar.cmpi .ne (Scalar.extui (Scalar.cmpi .eq (BitVec.ofNat 32 j.val) 97#32)) 0#32) = 1#1 ↔ j.val = 97) (i 1)

/-- The reset runs at a tile's first chunk only, -/
theorem hcondFirst (t : Fin cfg9.N) : condFirst (grid9.coords t) ↔ t.val % 98 = 0 := by
  rw [condFirst_iff, chunk_val]
/-- and the result is stored at a tile's last chunk only. -/
theorem hcondLast (t : Fin cfg9.N) : condLast (grid9.coords t) ↔ t.val % 98 = 97 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid9.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k9_pay2 i x0 x1 k9_pay1)) -∗ K ⟨⟩))
      ⊢ wp frame (wpE (defs₀ (F := F)) Variants.none c none) E
          (cc9__scatter_kernel i arg2 harg2 arg3 harg3 arg4 harg4 arg5 harg5) K := by
  simp only [cc9__scatter_kernel_eq_skeleton]; unfold cc9__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid9.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k9_pay2 i x0 x1 a)) -∗ K ⟨⟩))
      ⊢ wp frame (wpE (defs₀ (F := F)) Variants.none c none) E
          (cc9__scatter_kernel i arg2 harg2 arg3 harg3 arg4 harg4 arg5 harg5) K := by
  simp only [cc9__scatter_kernel_eq_skeleton]; unfold cc9__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid9.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k9_pay2 i x0 x1 a)
            ∗ owns (c : Thread nD τ) arg5 fullShare (k9_pay2 i x0 x1 a)) -∗ K ⟨⟩))
      ⊢ wp frame (wpE (defs₀ (F := F)) Variants.none c none) E
          (cc9__scatter_kernel i arg2 harg2 arg3 harg3 arg4 harg4 arg5 harg5) K := by
  simp only [cc9__scatter_kernel_eq_skeleton]; unfold cc9__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg9.N) : (dat V c).after 0 t = iblk V c 0 t := by dsimp only [dat]
theorem after_wg (c : Dev nD) (t : Fin cfg9.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg9.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg9.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg9.N) : Memref sig .tc .vmem S1x1x8192 .i32 := win9_0.stage (cfg9.slots t 0)
abbrev hstRows (t : Fin cfg9.N) : (stRows t).IsWhole := hstage9_0 ((cfg9.slots t 0).cast nbuf9_0)
abbrev stWg (t : Fin cfg9.N) : Memref sig .tc .vmem S1x8192x64 .f32 := win9_1.stage (cfg9.slots t 1)
abbrev hstWg (t : Fin cfg9.N) : (stWg t).IsWhole := hstage9_1 ((cfg9.slots t 1).cast nbuf9_1)
abbrev stOut (t : Fin cfg9.N) : Memref sig .tc .vmem S1024x64 .f32 := win9_2.stage (cfg9.slots t 2)
abbrev hstOut (t : Fin cfg9.N) : (stOut t).IsWhole := hstage9_2 ((cfg9.slots t 2).cast nbuf9_2)

/-- Where the result is not stored its window is idle and is not written back: the body hands its buffer back as it
    found it. -/
theorem leaves_out_idle (c : Dev nD) (t : Fin cfg9.N) (h : ¬t.val % 98 = 97) :
    (dat V c).leavesExact 2 t = iprop(∃ d, owns (c : Thread nD τ) (stOut t) fullShare ((dat V c).before 2 t d)) := by
  have hi : cfg9.idle 2 (cfg9.grid.coords t) = true := by
    show (!(k9_cond2 (grid9.coords t) == 1#1)) = true
    rw [Bool.not_eq_true', beq_eq_false_iff_ne]
    exact fun hk => h ((hcondLast t).mp hk)
  have hfl : (cfg9.win 2).flush t = false := Bool.eq_false_iff.mpr fun hfl => h ((flush9_2 t).mp hfl)
  exact (dat V c).leavesExact_idle 2 t hi hfl

/-- Where it is stored the window is live: its buffer is handed back at the accumulator. -/
theorem leaves_out_live (c : Dev nD) (t : Fin cfg9.N) (h : t.val % 98 = 97) :
    (dat V c).leavesExact 2 t = owns (c : Thread nD τ) (stOut t) fullShare ((dat V c).after 2 t) := by
  have hi : cfg9.idle 2 (cfg9.grid.coords t) = false := by
    show (!(k9_cond2 (grid9.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg9.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg9.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_rows, before_wg]
  rw [Φ_eq, Φ_eq, show (dat V c).owesAt () t.succ = (dat V c).owesAt () t.castSucc from rfl, after_rows, after_wg]
  simp only [Fin.coe_castSucc, Fin.val_succ]
  have hN : t.val < 4802 := lt_of_lt_of_eq t.isLt (show cfg9.N = 4802 from N_9)
  by_cases hl : t.val % 98 = 97
  · have hf : ¬t.val % 98 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid9.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 98 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid9.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid9.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W9, bigSep_W9]
  exact sound_body V c t

end Cert.Kernel.Hand.R9

end
-- ==== Proof.K.Sched10.lean ====
/-
  The schedule of this gather launch, by arithmetic. The grid is 98 x 49 with the second axis
  innermost, so point t has first coordinate t / 49 % 391. The result window's block index depends on the first
  coordinate only; it therefore changes between t and t + 1 exactly when t is the last of its run of 49
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid10.stride 0 = 49 := by decide

/-- The result window's block index at point `t`: the first coordinate, then zeros. -/
private theorem index_out (t : Fin grid10.N) : win10_3.index t = ![t.val / 49 % 98, 0, 0] := by
  have h : (BitVec.ofNat 32 (t.val / 49 % 98)).toNat = t.val / 49 % 98 := by
    rw [BitVec.toNat_ofNat]; omega
  show cc10_transform_3 (grid10.coords t) = _
  unfold cc10_transform_3 Pipeline.Grid.coords
  simp only [stride_outer]
  show ![(BitVec.ofNat 32 (t.val / 49 % 98)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid10.N) :
    win10_3.index s ≠ win10_3.index t ↔ s.val / 49 % 98 ≠ t.val / 49 % 98 := by
  rw [index_out, index_out]; exact vec_ne _ _

/-- Window 3 (the result) is written back at the points ≡ 48 (mod 49): the last point of each run of 49 points
    sharing the first coordinate, the grid's last point among them. -/
theorem flush10_3 : ∀ t : Fin cfg10.N, (cfg10.win 3).flush t = true ↔ t.val % 49 = 48 := by
  intro t
  have hN : grid10.N = 4802 := N_10
  have hN' : cfg10.N = 4802 := N_10
  have ht : t.val < 4802 := lt_of_lt_of_eq t.isLt hN
  show win10_3.flush t = true ↔ _
  unfold Pipeline.Window.flush
  have hout : win10_3.isOut = true := rfl
  rw [hout, Bool.true_and, Bool.or_eq_true, decide_eq_true_eq, decide_eq_true_eq]
  constructor
  · rintro (h | ⟨h, hne⟩)
    · omega
    · have hq : (t.val + 1) / 49 % 98 ≠ t.val / 49 % 98 := (index_ne ⟨t.val + 1, h⟩ t).1 hne
      omega
  · intro h
    by_cases hl : t.val + 1 = grid10.N
    · exact Or.inl hl
    · have hlt : t.val + 1 < grid10.N := by omega
      have hq : (t.val + 1) / 49 % 98 ≠ t.val / 49 % 98 := by omega
      exact Or.inr ⟨hlt, (index_ne ⟨t.val + 1, hlt⟩ t).2 hq⟩

/-- The current staging memref of each window at point `t`: which of its buffers it is on. -/
abbrev st10_0 (t : Fin cfg10.N) := (cfg10.win 0).stage (cfg10.slots t 0)
abbrev st10_1 (t : Fin cfg10.N) := (cfg10.win 1).stage (cfg10.slots t 1)
abbrev st10_2 (t : Fin cfg10.N) := (cfg10.win 2).stage (cfg10.slots t 2)
abbrev st10_3 (t : Fin cfg10.N) := (cfg10.win 3).stage (cfg10.slots t 3)

/-- The kernel body at point `t`, on what the pipeline calls it with (`defs₀`'s row at the slots). -/
abbrev bodyAt10 (t : Fin cfg10.N) : Prog (TpuEff nD τ sig (Elt F) Λ₀ .tc) PUnit :=
  cc10__gather_kernel (grid10.coords t) (win10_0.stage (cfg10.slots t 0)) (hstage10_0 ((cfg10.slots t 0).cast nbuf10_0)) (win10_1.stage (cfg10.slots t 1)) (hstage10_1 ((cfg10.slots t 1).cast nbuf10_1)) (win10_2.stage (cfg10.slots t 2)) (hstage10_2 ((cfg10.slots t 2).cast nbuf10_2)) (win10_3.stage (cfg10.slots t 3)) (hstage10_3 ((cfg10.slots t 3).cast nbuf10_3)) (Memref.whole cc10_scratch0) (Memref.isWhole_whole _)

end Cert.Kernel.Hand.Sched
-- ==== Proof.K.R10.lean ====
/-
  Region 0 of the program (the gather launch of the first propagation step), on any contents `V` of the unscoped
  buffers at its entry. Grid (98 edge chunks) x (49 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched10
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand.R10

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The chunk's column indices, the chunk's edge weights and the node tile's feature rows at point `t`, at their literal types. -/
abbrev colsBlk (c : Dev nD) (t : Fin cfg10.N) : Vec F S1x1x8192 .i32 := iblk V c 0 t
abbrev valsBlk (c : Dev nD) (t : Fin cfg10.N) : Vec F S1x1x8192 .f32 := iblk V c 1 t
abbrev featBlk (c : Dev nD) (t : Fin cfg10.N) : Vec F S1024x64 .f32 := iblk V c 2 t

/-- The accumulator after the body at point `t`, from the accumulator `a` before it: reset first when the point is a
    chunk's first tile. -/
def accStep (c : Dev nD) (t : Fin cfg10.N) (a : Vec F S8192x64 .f32) : Vec F S8192x64 .f32 :=
  k10_pay2 (grid10.coords t) (colsBlk V c t) (featBlk V c t) (if t.val % 49 = 0 then k10_pay1 else a)

/-- The accumulator before point `n` (after point `n - 1`). -/
def accAt (c : Dev nD) : ℕ → Vec F S8192x64 .f32
  | 0 => k10_pay1
  | n + 1 => if h : n < cfg10.N then accStep V c ⟨n, h⟩ (accAt c n) else k10_pay1

/-- The accumulator's buffer (the launch's scratch operand), whole. -/
abbrev accRef : Memref sig .tc .vmem S8192x64 .f32 := Memref.whole cc10_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg10 c where
  A w := V c (Pipeline.arrRef spec10 w)
  after w t := match w with
    | ⟨0, _⟩ => iblk V c 0 t
    | ⟨1, _⟩ => iblk V c 1 t
    | ⟨2, _⟩ => iblk V c 2 t
    | ⟨3, _⟩ => k10_pay3 (valsBlk V c t) (accAt V c (t.val + 1))
  Φ t := iprop((∃ a : Vec F S8192x64 .f32, owns (c : Thread nD τ) accRef fullShare a ∗ ⌜t.val % 49 ≠ 0 → a = accAt V c t.val⌝)
    ∗ Pipeline.scopedRestBut (Ix := Unit) (Name := ℕ) (U := UR sig nD τ) (Lvl := ℕ) (Val := Elt F) spec10 c [cc10_scratch0])
  q _ := fullShare
  owed _ := 0

theorem A_eq (c : Dev nD) (w : Fin cfg10.W) : (dat V c).A w = V c (Pipeline.arrRef spec10 w) := by
  dsimp only [dat]

theorem after_out (c : Dev nD) (t : Fin cfg10.N) :
    (dat V c).after 3 t = k10_pay3 (valsBlk V c t) (accAt V c (t.val + 1)) := by dsimp only [dat]

/-! ## The accumulator's recursion -/

/-- One step of the recursion at a grid point. -/
theorem accAt_succ (c : Dev nD) (t : Fin cfg10.N) : accAt V c (t.val + 1) = accStep V c t (accAt V c t.val) := by
  rw [accAt, dif_pos t.isLt]

/-- The invariant at any point, its conjuncts written out. -/
theorem Φ_eq (c : Dev nD) (u : Fin (cfg10.N + 1)) :
    (dat V c).Φ u = iprop((∃ a : Vec F S8192x64 .f32, owns (c : Thread nD τ) accRef fullShare a ∗ ⌜u.val % 49 ≠ 0 → a = accAt V c u.val⌝)
      ∗ Pipeline.scopedRestBut (Ix := Unit) (Name := ℕ) (U := UR sig nD τ) (Lvl := ℕ) (Val := Elt F) spec10 c [cc10_scratch0]) := by
  dsimp only [dat]

theorem after_cols (c : Dev nD) (t : Fin cfg10.N) : (dat V c).after 0 t = iblk V c 0 t := by dsimp only [dat]
theorem after_vals (c : Dev nD) (t : Fin cfg10.N) : (dat V c).after 1 t = iblk V c 1 t := by dsimp only [dat]
theorem after_feat (c : Dev nD) (t : Fin cfg10.N) : (dat V c).after 2 t = iblk V c 2 t := by dsimp only [dat]

/-! ## The body's two conditionals, over the grid -/

/-- The first conditional (the accumulator is reset), as the body computes it from the tile coordinate. -/
abbrev isFirst (i : grid10.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg10.N) : ((grid10.coords t) 1).val = t.val % 49 := by
  show t.val / grid10.stride 1 % grid10.bound 1 = t.val % 49
  rw [show grid10.stride 1 = 1 from by decide, Nat.div_one]
  rfl

/-- It holds exactly at a chunk's first tile. -/
theorem isFirst_iff (t : Fin cfg10.N) : isFirst (grid10.coords t) ↔ t.val % 49 = 0 := by
  show Scalar.cmpi .ne (Scalar.extui (Scalar.cmpi .eq (BitVec.ofNat 32 ((grid10.coords t) 1).val) 0#32)) 0#32 = 1#1 ↔ _
  rw [tile_coord t]
  exact tileTest_iff (t.val % 49) 0 (by omega) (by decide)

/-- The second conditional (the result block is stored) holds exactly at a chunk's last tile. -/
theorem isLast_iff (t : Fin cfg10.N) : k10_cond2 (grid10.coords t) = 1#1 ↔ t.val % 49 = 48 := by
  show Scalar.cmpi .ne (Scalar.extui (Scalar.cmpi .eq (BitVec.ofNat 32 ((grid10.coords t) 1).val) 48#32)) 0#32 = 1#1 ↔ _
  rw [tile_coord t]
  exact tileTest_iff (t.val % 49) 48 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg10 c) (hA : D.A 0 = V c (Pipeline.arrRef spec10 0))
    (hafter : ∀ t, D.after 0 t = iblk V c 0 t) (t : Fin cfg10.N) (d) : D.before 0 t d = iblk V c 0 t := by
  have hkeep : ∀ u, (cfg10.win 0).cut (cfg10.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg10 c) (hA : D.A 1 = V c (Pipeline.arrRef spec10 1))
    (hafter : ∀ t, D.after 1 t = iblk V c 1 t) (t : Fin cfg10.N) (d) : D.before 1 t d = iblk V c 1 t := by
  have hkeep : ∀ u, (cfg10.win 1).cut (cfg10.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg10 c) (hA : D.A 2 = V c (Pipeline.arrRef spec10 2))
    (hafter : ∀ t, D.after 2 t = iblk V c 2 t) (t : Fin cfg10.N) (d) : D.before 2 t d = iblk V c 2 t := by
  have hkeep : ∀ u, (cfg10.win 2).cut (cfg10.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg10.N) (d) : (dat V c).before 0 t d = iblk V c 0 t :=
  before_cols_of V (dat V c) (A_eq V c 0) (after_cols V c) t d
theorem before_vals (c : Dev nD) (t : Fin cfg10.N) (d) : (dat V c).before 1 t d = iblk V c 1 t :=
  before_vals_of V (dat V c) (A_eq V c 1) (after_vals V c) t d
theorem before_feat (c : Dev nD) (t : Fin cfg10.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid10.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k10_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k10_pay2 i xc xf a)) -∗ K ⟨⟩))
      ⊢ wp frame (wpE (defs₀ (F := F)) Variants.none c none) E (cc10__gather_kernel i mc hmc mv hmv mf hmf mo hmo ma hma) K := by
  simp only [cc10__gather_kernel_eq_skeleton]; unfold cc10__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid10.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k10_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k10_pay2 i xc xf k10_pay1)) -∗ K ⟨⟩))
      ⊢ wp frame (wpE (defs₀ (F := F)) Variants.none c none) E (cc10__gather_kernel i mc hmc mv hmv mf hmf mo hmo ma hma) K := by
  simp only [cc10__gather_kernel_eq_skeleton]; unfold cc10__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k10_pay2 i xc xf) (View.readCov_cons_toLoadRect ma.view _ _ _)

/-- A chunk's last tile: the accumulator takes the tile's product, and the result's staging buffer, whatever it held,
    takes the accumulator's rows scaled by the edge weights. -/
theorem runLast (c : Dev nD) (i : grid10.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k10_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k10_pay3 xv (k10_pay2 i xc xf a))
            ∗ owns (c : Thread nD τ) ma fullShare (k10_pay2 i xc xf a)) -∗ K ⟨⟩))
      ⊢ wp frame (wpE (defs₀ (F := F)) Variants.none c none) E (cc10__gather_kernel i mc hmc mv hmv mf hmf mo hmo ma hma) K := by
  simp only [cc10__gather_kernel_eq_skeleton]; unfold cc10__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k10_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg10.N) : cfg10.idle 3 (cfg10.grid.coords t) = !(k10_cond2 (grid10.coords t) == 1#1) := rfl

theorem idle_of_not_last (t : Fin cfg10.N) (h : ¬t.val % 49 = 48) : cfg10.idle 3 (cfg10.grid.coords t) = true := by
  rw [idle_out, beq_eq_false_iff_ne.mpr fun e => h ((isLast_iff t).mp e)]; rfl

theorem live_of_last (t : Fin cfg10.N) (h : t.val % 49 = 48) : cfg10.idle 3 (cfg10.grid.coords t) = false := by
  rw [idle_out, (isLast_iff t).mpr h]; rfl

/-- At a live point the result's staging buffer is left at what the proof data names. -/
theorem leavesExact_live (c : Dev nD) (t : Fin cfg10.N) (hi : cfg10.idle 3 (cfg10.grid.coords t) = false) :
    ((dat V c).leavesExact 3 t : sProp 𝕄)
      = owns (c : Thread nD τ) ((cfg10.win 3).stage (cfg10.slots t 3)) fullShare ((dat V c).after 3 t) := by
  unfold Dat.leavesExact; rw [hi]

/-! ## The body obligation, at a generic point -/

/-- The staging buffers the body is called with at point `t`, at their literal types, and their wholeness. -/
abbrev mCols (t : Fin cfg10.N) : Memref sig .tc .vmem S1x1x8192 .i32 := win10_0.stage (cfg10.slots t 0)
abbrev hCols (t : Fin cfg10.N) : (mCols t).IsWhole := hstage10_0 ((cfg10.slots t 0).cast nbuf10_0)
abbrev mVals (t : Fin cfg10.N) : Memref sig .tc .vmem S1x1x8192 .f32 := win10_1.stage (cfg10.slots t 1)
abbrev hVals (t : Fin cfg10.N) : (mVals t).IsWhole := hstage10_1 ((cfg10.slots t 1).cast nbuf10_1)
abbrev mFeat (t : Fin cfg10.N) : Memref sig .tc .vmem S1024x64 .f32 := win10_2.stage (cfg10.slots t 2)
abbrev hFeat (t : Fin cfg10.N) : (mFeat t).IsWhole := hstage10_2 ((cfg10.slots t 2).cast nbuf10_2)
abbrev mOut (t : Fin cfg10.N) : Memref sig .tc .vmem S1x8192x64 .f32 := win10_3.stage (cfg10.slots t 3)
abbrev hOut (t : Fin cfg10.N) : (mOut t).IsWhole := hstage10_3 ((cfg10.slots t 3).cast nbuf10_3)

/-- What the body is called with at point `t`, the windows one by one, -/
def bodyPre (c : Dev nD) (t : Fin cfg10.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg10.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 49 = 0
  · have hl : ¬t.val % 49 = 48 := by omega
    have hfl : (cfg10.win 3).flush t = false := Bool.eq_false_iff.mpr fun h => hl ((flush10_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid10.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 49 = 48
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid10.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg10.win 3).flush t = false := Bool.eq_false_iff.mpr fun h => hl ((flush10_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid10.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec10 c : sProp 𝕄) ⊢ (dat V c).Φ 0 := by
  rw [scopedRest10_split, Φ_eq]
  refine sep_mono ?_ .rfl
  iintro ⟨%f, H⟩
  iexists f
  isplitl [H]
  · rw [owns_whole]; iexact H
  · ipureintro; intro h; exact absurd (Nat.zero_mod 49) h

/-- The invariant at the last point gives those buffers back. -/
theorem Φ_out (c : Dev nD) :
    (dat V c).Φ (Fin.last cfg10.N) ⊢ (Pipeline.scopedRest (Ix := Unit) (Name := ℕ) (U := UR sig nD τ) (Lvl := ℕ) (Val := Elt F) spec10 c : sProp 𝕄) := by
  rw [scopedRest10_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W10, bigSep_W10]
  exact sound_body V c t

end Cert.Kernel.Hand.R10

end
-- ==== Proof.K.Sched11.lean ====
/-
  The schedule of this scatter launch, by arithmetic. The grid is 49 x 98 with the second axis
  innermost, so point t has first coordinate t / 98 % 147. The result window's block index depends on the first
  coordinate only; it therefore changes between t and t + 1 exactly when t is the last of its run of 98
  consecutive points, and the last point of the grid is such a point too.
-/
import proofs.«130096_j52458730553647_1_alg».proof.Proof.Gen.Kernel.Launch
import Idealize.ShloMosaic.Lib.Pipeline.Kit

noncomputable section

namespace Cert.Kernel.Hand.Sched

open Idealize.ShloMosaic Idealize.ShloMosaic.TcCoe
open Idealize.SL Idealize.SL.Sem
open Cert.Kernel Cert.Kernel.Gen

variable {F : FTy → Type} [FloatOps F]

/-- The first axis's stride is the extent of the second. -/
private theorem stride_outer : grid11.stride 0 = 98 := by decide

/-- The result window's block index at point `t`: the first coordinate, then zero. -/
private theorem index_out (t : Fin grid11.N) : win11_2.index t = ![t.val / 98 % 49, 0] := by
  have h : (BitVec.ofNat 32 (t.val / 98 % 49)).toNat = t.val / 98 % 49 := by
    rw [BitVec.toNat_ofNat]; omega
  show cc11_transform_2 (grid11.coords t) = _
  unfold cc11_transform_2 Pipeline.Grid.coords
  simp only [stride_outer]
  show ![(BitVec.ofNat 32 (t.val / 98 % 49)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid11.N) :
    win11_2.index s ≠ win11_2.index t ↔ s.val / 98 % 49 ≠ t.val / 98 % 49 := by
  rw [index_out, index_out]; exact vec_ne _ _

/-- Window 2 (the result) is written back at the points ≡ 97 (mod 98): the last point of each run of 98 points
    sharing the first coordinate, the grid's last point among them. -/
theorem flush11_2 : ∀ t : Fin cfg11.N, (cfg11.win 2).flush t = true ↔ t.val % 98 = 97 := by
  intro t
  have hN : grid11.N = 4802 := N_11
  have hN' : cfg11.N = 4802 := N_11
  have ht : t.val < 4802 := lt_of_lt_of_eq t.isLt hN
  show win11_2.flush t = true ↔ _
  unfold Pipeline.Window.flush
  have hout : win11_2.isOut = true := rfl
  rw [hout, Bool.true_and, Bool.or_eq_true, decide_eq_true_eq, decide_eq_true_eq]
  constructor
  · rintro (h | ⟨h, hne⟩)
    · omega
    · have hq : (t.val + 1) / 98 % 49 ≠ t.val / 98 % 49 := (index_ne ⟨t.val + 1, h⟩ t).1 hne
      omega
  · intro h
    by_cases hl : t.val + 1 = grid11.N
    · exact Or.inl hl
    · have hlt : t.val + 1 < grid11.N := by omega
      have hq : (t.val + 1) / 98 % 49 ≠ t.val / 98 % 49 := by omega
      exact Or.inr ⟨hlt, (index_ne ⟨t.val + 1, hlt⟩ t).2 hq⟩

/-- The current staging memref of each window at point `t`: which of its buffers it is on. -/
abbrev st11_0 (t : Fin cfg11.N) := (cfg11.win 0).stage (cfg11.slots t 0)
abbrev st11_1 (t : Fin cfg11.N) := (cfg11.win 1).stage (cfg11.slots t 1)
abbrev st11_2 (t : Fin cfg11.N) := (cfg11.win 2).stage (cfg11.slots t 2)

/-- The kernel body at point `t`, on what the pipeline calls it with (`defs₀`'s row at the slots). -/
abbrev bodyAt11 (t : Fin cfg11.N) : Prog (TpuEff nD τ sig (Elt F) Λ₀ .tc) PUnit :=
  cc11__scatter_kernel (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (Memref.whole cc11_scratch0) (Memref.isWhole_whole _)

end Cert.Kernel.Hand.Sched
-- ==== Proof.K.R11.lean ====
/-
  Region 1 of the program (the scatter launch of the first propagation step), on any contents `V` of the unscoped
  buffers at its entry. Grid (49 node tiles) x (98 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.Kernel.Launch
import proofs.«130096_j52458730553647_1_alg».proof.Proof.Gen.Kernel.Skeleton
import proofs.«130096_j52458730553647_1_alg».proof.Proof.K.Sched11
import Idealize.ShloMosaic.Lib.Pipeline.FrameBody
import Idealize.ShloMosaic.Lib.Pipeline.Frame
import Idealize.ShloMosaic.Lib.Tactic

set_option maxRecDepth 16384

noncomputable section

namespace Cert.Kernel.Hand.R11

open Cert.Kernel Cert.Kernel.Gen Cert.Kernel.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The chunk's row indices and the chunk's weighted gathered rows at point `t`, at their literal types. -/
abbrev rowsBlk (c : Dev nD) (t : Fin cfg11.N) : Vec F S1x1x8192 .i32 := iblk V c 0 t
abbrev wgBlk (c : Dev nD) (t : Fin cfg11.N) : Vec F S1x8192x64 .f32 := iblk V c 1 t

/-- The accumulator after the body at point `t`, from the accumulator `a` before it: reset first when the point is a
    tile's first chunk. -/
def accStep (c : Dev nD) (t : Fin cfg11.N) (a : Vec F S1024x64 .f32) : Vec F S1024x64 .f32 :=
  k11_pay2 (grid11.coords t) (rowsBlk V c t) (wgBlk V c t) (if t.val % 98 = 0 then k11_pay1 else a)

/-- The accumulator before point `n` (after point `n - 1`). -/
def accAt (c : Dev nD) : ℕ → Vec F S1024x64 .f32
  | 0 => k11_pay1
  | n + 1 => if h : n < cfg11.N then accStep V c ⟨n, h⟩ (accAt c n) else k11_pay1

/-- The accumulator's buffer (the launch's scratch operand), whole. -/
abbrev accRef : Memref sig .tc .vmem S1024x64 .f32 := Memref.whole cc11_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg11 c where
  A w := V c (Pipeline.arrRef spec11 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 98 ≠ 0 → a = accAt V c t.val⌝)
    ∗ Pipeline.scopedRestBut (Ix := Unit) (Name := ℕ) (U := UR sig nD τ) (Lvl := ℕ) (Val := Elt F) spec11 c [cc11_scratch0])
  q _ := fullShare
  owed _ := 0

theorem A_eq (c : Dev nD) (w : Fin cfg11.W) : (dat V c).A w = V c (Pipeline.arrRef spec11 w) := by
  dsimp only [dat]

theorem after_out (c : Dev nD) (t : Fin cfg11.N) :
    (dat V c).after 2 t = accAt V c (t.val + 1) := by dsimp only [dat]

/-! ## The invariant at the region's two ends -/

/-- The invariant at a point, written out. -/
theorem Φ_eq (c : Dev nD) (t : Fin (cfg11.N + 1)) :
    (dat V c).Φ t = iprop((∃ a : Vec F S1024x64 .f32, owns (c : Thread nD τ) accRef fullShare a ∗ ⌜t.val % 98 ≠ 0 → a = accAt V c t.val⌝)
      ∗ Pipeline.scopedRestBut (Ix := Unit) (Name := ℕ) (U := UR sig nD τ) (Lvl := ℕ) (Val := Elt F) spec11 c [cc11_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec11 c : sProp 𝕄) ⊢ (dat V c).Φ 0 := by
  rw [scopedRest11_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg11.N) ⊢ (Pipeline.scopedRest (Ix := Unit) (Name := ℕ) (U := UR sig nD τ) (Lvl := ℕ) (Val := Elt F) spec11 c : sProp 𝕄) := by
  rw [scopedRest11_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg11.N) : accAt V c (t.val + 1) = accStep V c t (accAt V c t.val) := by
  rw [accAt, dif_pos t.isLt]

/-- After a tile's first chunk the accumulator is that chunk's product added to zero, -/
theorem accAt_succ_first (c : Dev nD) (t : Fin cfg11.N) (h : t.val % 98 = 0) :
    accAt V c (t.val + 1) = k11_pay2 (grid11.coords t) (rowsBlk V c t) (wgBlk V c t) k11_pay1 := by
  rw [accAt_succ, accStep, if_pos h]

/-- after any other the chunk's product added to what it was. -/
theorem accAt_succ_next (c : Dev nD) (t : Fin cfg11.N) (h : ¬t.val % 98 = 0) :
    accAt V c (t.val + 1) = k11_pay2 (grid11.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid11.Coords) : Prop :=
  (Scalar.cmpi .ne (Scalar.extui (Scalar.cmpi .eq (BitVec.ofNat 32 (i 1).val) 0#32)) 0#32) = 1#1
/-- The condition of its second (the result's store). -/
abbrev condLast (i : grid11.Coords) : Prop := k11_cond2 i = 1#1

/-- The chunk coordinate of point `t`: the chunk is the innermost axis. -/
theorem chunk_val (t : Fin cfg11.N) : (grid11.coords t 1).val = t.val % 98 := by
  show t.val / grid11.stride 1 % grid11.bound 1 = t.val % 98
  rw [show grid11.stride 1 = 1 from by decide, Nat.div_one]
  rfl

/-- Both conditions read the chunk coordinate alone: decided over the 98 chunks. -/
theorem condFirst_iff (i : grid11.Coords) : condFirst i ↔ (i 1).val = 0 :=
  (by decide +kernel : ∀ j : Fin 98,
    (Scalar.cmpi .ne (Scalar.extui (Scalar.cmpi .eq (BitVec.ofNat 32 j.val) 0#32)) 0#32) = 1#1 ↔ j.val = 0) (i 1)
theorem condLast_iff (i : grid11.Coords) : condLast i ↔ (i 1).val = 97 :=
  (by decide +kernel : ∀ j : Fin 98,
    (Scalar.cmpi .ne (Scalar.extui (Scalar.cmpi .eq (BitVec.ofNat 32 j.val) 97#32)) 0#32) = 1#1 ↔ j.val = 97) (i 1)

/-- The reset runs at a tile's first chunk only, -/
theorem hcondFirst (t : Fin cfg11.N) : condFirst (grid11.coords t) ↔ t.val % 98 = 0 := by
  rw [condFirst_iff, chunk_val]
/-- and the result is stored at a tile's last chunk only. -/
theorem hcondLast (t : Fin cfg11.N) : condLast (grid11.coords t) ↔ t.val % 98 = 97 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid11.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k11_pay2 i x0 x1 k11_pay1)) -∗ K ⟨⟩))
      ⊢ wp frame (wpE (defs₀ (F := F)) Variants.none c none) E
          (cc11__scatter_kernel i arg2 harg2 arg3 harg3 arg4 harg4 arg5 harg5) K := by
  simp only [cc11__scatter_kernel_eq_skeleton]; unfold cc11__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid11.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k11_pay2 i x0 x1 a)) -∗ K ⟨⟩))
      ⊢ wp frame (wpE (defs₀ (F := F)) Variants.none c none) E
          (cc11__scatter_kernel i arg2 harg2 arg3 harg3 arg4 harg4 arg5 harg5) K := by
  simp only [cc11__scatter_kernel_eq_skeleton]; unfold cc11__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid11.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k11_pay2 i x0 x1 a)
            ∗ owns (c : Thread nD τ) arg5 fullShare (k11_pay2 i x0 x1 a)) -∗ K ⟨⟩))
      ⊢ wp frame (wpE (defs₀ (F := F)) Variants.none c none) E
          (cc11__scatter_kernel i arg2 harg2 arg3 harg3 arg4 harg4 arg5 harg5) K := by
  simp only [cc11__scatter_kernel_eq_skeleton]; unfold cc11__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg11.N) : (dat V c).after 0 t = iblk V c 0 t := by dsimp only [dat]
theorem after_wg (c : Dev nD) (t : Fin cfg11.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg11.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg11.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg11.N) : Memref sig .tc .vmem S1x1x8192 .i32 := win11_0.stage (cfg11.slots t 0)
abbrev hstRows (t : Fin cfg11.N) : (stRows t).IsWhole := hstage11_0 ((cfg11.slots t 0).cast nbuf11_0)
abbrev stWg (t : Fin cfg11.N) : Memref sig .tc .vmem S1x8192x64 .f32 := win11_1.stage (cfg11.slots t 1)
abbrev hstWg (t : Fin cfg11.N) : (stWg t).IsWhole := hstage11_1 ((cfg11.slots t 1).cast nbuf11_1)
abbrev stOut (t : Fin cfg11.N) : Memref sig .tc .vmem S1024x64 .f32 := win11_2.stage (cfg11.slots t 2)
abbrev hstOut (t : Fin cfg11.N) : (stOut t).IsWhole := hstage11_2 ((cfg11.slots t 2).cast nbuf11_2)

/-- Where the result is not stored its window is idle and is not written back: the body hands its buffer back as it
    found it. -/
theorem leaves_out_idle (c : Dev nD) (t : Fin cfg11.N) (h : ¬t.val % 98 = 97) :
    (dat V c).leavesExact 2 t = iprop(∃ d, owns (c : Thread nD τ) (stOut t) fullShare ((dat V c).before 2 t d)) := by
  have hi : cfg11.idle 2 (cfg11.grid.coords t) = true := by
    show (!(k11_cond2 (grid11.coords t) == 1#1)) = true
    rw [Bool.not_eq_true', beq_eq_false_iff_ne]
    exact fun hk => h ((hcondLast t).mp hk)
  have hfl : (cfg11.win 2).flush t = false := Bool.eq_false_iff.mpr fun hfl => h ((flush11_2 t).mp hfl)
  exact (dat V c).leavesExact_idle 2 t hi hfl

/-- Where it is stored the window is live: its buffer is handed back at the accumulator. -/
theorem leaves_out_live (c : Dev nD) (t : Fin cfg11.N) (h : t.val % 98 = 97) :
    (dat V c).leavesExact 2 t = owns (c : Thread nD τ) (stOut t) fullShare ((dat V c).after 2 t) := by
  have hi : cfg11.idle 2 (cfg11.grid.coords t) = false := by
    show (!(k11_cond2 (grid11.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg11.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg11.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg11.N) :
    bodyPre V c t ⊢ wp frame (wpE (defs₀ (F := F)) Variants.none c none) Set.univ (bodyAt11 t) (fun _ => bodyPost V c t) := by
  unfold bodyPre bodyPost bodyAt11
  simp only [before_rows, before_wg]
  rw [Φ_eq, Φ_eq, show (dat V c).owesAt () t.succ = (dat V c).owesAt () t.castSucc from rfl, after_rows, after_wg]
  simp only [Fin.coe_castSucc, Fin.val_succ]
  have hN : t.val < 4802 := lt_of_lt_of_eq t.isLt (show cfg11.N = 4802 from N_11)
  by_cases hl : t.val % 98 = 97
  · have hf : ¬t.val % 98 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid11.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 98 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid11.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid11.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W11, bigSep_W11]
  exact sound_body V c t

end Cert.Kernel.Hand.R11

end
-- ==== Proof.K.Fam.lean ====
/-
  The assembly's common part: the twelve regions' results as functions of their entry contents, the contents they leave
  pinned over them (`outs`), and every pipeline's proof data at its region's entry contents.
-/
import proofs.«130096_j52458730553647_1_alg».proof.Proof.K.Outs
import proofs.«130096_j52458730553647_1_alg».proof.Proof.K.RegionOf
import proofs.«130096_j52458730553647_1_alg».proof.Proof.K.R0
import proofs.«130096_j52458730553647_1_alg».proof.Proof.K.R1
import proofs.«130096_j52458730553647_1_alg».proof.Proof.K.R2
import proofs.«130096_j52458730553647_1_alg».proof.Proof.K.R3
import proofs.«130096_j52458730553647_1_alg».proof.Proof.K.R4
import proofs.«130096_j52458730553647_1_alg».proof.Proof.K.R5
import proofs.«130096_j52458730553647_1_alg».proof.Proof.K.R6
import proofs.«130096_j52458730553647_1_alg».proof.Proof.K.R7
import proofs.«130096_j52458730553647_1_alg».proof.Proof.K.R8
import proofs.«130096_j52458730553647_1_alg».proof.Proof.K.R9
import proofs.«130096_j52458730553647_1_alg».proof.Proof.K.R10
import proofs.«130096_j52458730553647_1_alg».proof.Proof.K.R11

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

/-- What region `k` leaves in its result array (the fold of its write-backs over the array as entered), from the contents
    it is entered from: a gather region's result is its window 3, a scatter region's its window 2. -/
def res : Res F
  | ⟨0, _⟩ => fun V c => (R0.dat V c).arrAt 3 cfg0.N
  | ⟨1, _⟩ => fun V c => (R1.dat V c).arrAt 2 cfg1.N
  | ⟨2, _⟩ => fun V c => (R2.dat V c).arrAt 3 cfg2.N
  | ⟨3, _⟩ => fun V c => (R3.dat V c).arrAt 2 cfg3.N
  | ⟨4, _⟩ => fun V c => (R4.dat V c).arrAt 3 cfg4.N
  | ⟨5, _⟩ => fun V c => (R5.dat V c).arrAt 2 cfg5.N
  | ⟨6, _⟩ => fun V c => (R6.dat V c).arrAt 3 cfg6.N
  | ⟨7, _⟩ => fun V c => (R7.dat V c).arrAt 2 cfg7.N
  | ⟨8, _⟩ => fun V c => (R8.dat V c).arrAt 3 cfg8.N
  | ⟨9, _⟩ => fun V c => (R9.dat V c).arrAt 2 cfg9.N
  | ⟨10, _⟩ => fun V c => (R10.dat V c).arrAt 3 cfg10.N
  | ⟨11, _⟩ => fun V c => (R11.dat V c).arrAt 2 cfg11.N

variable (m : (ℓ : Loc nD τ sig) → Buf (Elt F) ℓ)

/-- The contents the regions leave: each region's result array, at the item after it, at what the region computes from
    its entry contents over these same contents. -/
def outs : Gen.Outs (F := F) := pinned m res

theorem outs_12 (c : Dev nD) : outs m 12 main_v39 c = (R0.dat (fun c b => Gen.V11 m c b) c).arrAt 3 cfg0.N := pinned_exit m res 0 c
theorem outs_13 (c : Dev nD) : outs m 13 main_v40 c = (R1.dat (fun c b => Gen.V12 m (outs m) c b) c).arrAt 2 cfg1.N := pinned_exit m res 1 c
theorem outs_23 (c : Dev nD) : outs m 23 main_v51 c = (R2.dat (fun c b => Gen.V22 m (outs m) c b) c).arrAt 3 cfg2.N := pinned_exit m res 2 c
theorem outs_24 (c : Dev nD) : outs m 24 main_v52 c = (R3.dat (fun c b => Gen.V23 m (outs m) c b) c).arrAt 2 cfg3.N := pinned_exit m res 3 c
theorem outs_36 (c : Dev nD) : outs m 36 main_v90 c = (R4.dat (fun c b => Gen.V35 m (outs m) c b) c).arrAt 3 cfg4.N := pinned_exit m res 4 c
theorem outs_37 (c : Dev nD) : outs m 37 main_v91 c = (R5.dat (fun c b => Gen.V36 m (outs m) c b) c).arrAt 2 cfg5.N := pinned_exit m res 5 c
theorem outs_47 (c : Dev nD) : outs m 47 main_v100 c = (R6.dat (fun c b => Gen.V46 m (outs m) c b) c).arrAt 3 cfg6.N := pinned_exit m res 6 c
theorem outs_48 (c : Dev nD) : outs m 48 main_v101 c = (R7.dat (fun c b => Gen.V47 m (outs m) c b) c).arrAt 2 cfg7.N := pinned_exit m res 7 c
theorem outs_60 (c : Dev nD) : outs m 60 main_v135 c = (R8.dat (fun c b => Gen.V59 m (outs m) c b) c).arrAt 3 cfg8.N := pinned_exit m res 8 c
theorem outs_61 (c : Dev nD) : outs m 61 main_v136 c = (R9.dat (fun c b => Gen.V60 m (outs m) c b) c).arrAt 2 cfg9.N := pinned_exit m res 9 c
theorem outs_71 (c : Dev nD) : outs m 71 main_v145 c = (R10.dat (fun c b => Gen.V70 m (outs m) c b) c).arrAt 3 cfg10.N := pinned_exit m res 10 c
theorem outs_72 (c : Dev nD) : outs m 72 main_v146 c = (R11.dat (fun c b => Gen.V71 m (outs m) c b) c).arrAt 2 cfg11.N := pinned_exit m res 11 c

/-! ## The valuations a region is entered from and left at, by region -/

/-- Region 0: entered from the valuation before its item, left at the one after it. -/
abbrev Vin0 : Dev nD → Valuation τ sig (Elt F) := Gen.V11 m
abbrev Vout0 : Dev nD → Valuation τ sig (Elt F) := Gen.V12 m (outs m)
abbrev entry0 : Entry F := fun c b => Vin0 m c b
/-- Region 1: entered from the valuation before its item, left at the one after it. -/
abbrev Vin1 : Dev nD → Valuation τ sig (Elt F) := Gen.V12 m (outs m)
abbrev Vout1 : Dev nD → Valuation τ sig (Elt F) := Gen.V13 m (outs m)
abbrev entry1 : Entry F := fun c b => Vin1 m c b
/-- Region 2: entered from the valuation before its item, left at the one after it. -/
abbrev Vin2 : Dev nD → Valuation τ sig (Elt F) := Gen.V22 m (outs m)
abbrev Vout2 : Dev nD → Valuation τ sig (Elt F) := Gen.V23 m (outs m)
abbrev entry2 : Entry F := fun c b => Vin2 m c b
/-- Region 3: entered from the valuation before its item, left at the one after it. -/
abbrev Vin3 : Dev nD → Valuation τ sig (Elt F) := Gen.V23 m (outs m)
abbrev Vout3 : Dev nD → Valuation τ sig (Elt F) := Gen.V24 m (outs m)
abbrev entry3 : Entry F := fun c b => Vin3 m c b
/-- Region 4: entered from the valuation before its item, left at the one after it. -/
abbrev Vin4 : Dev nD → Valuation τ sig (Elt F) := Gen.V35 m (outs m)
abbrev Vout4 : Dev nD → Valuation τ sig (Elt F) := Gen.V36 m (outs m)
abbrev entry4 : Entry F := fun c b => Vin4 m c b
/-- Region 5: entered from the valuation before its item, left at the one after it. -/
abbrev Vin5 : Dev nD → Valuation τ sig (Elt F) := Gen.V36 m (outs m)
abbrev Vout5 : Dev nD → Valuation τ sig (Elt F) := Gen.V37 m (outs m)
abbrev entry5 : Entry F := fun c b => Vin5 m c b
/-- Region 6: entered from the valuation before its item, left at the one after it. -/
abbrev Vin6 : Dev nD → Valuation τ sig (Elt F) := Gen.V46 m (outs m)
abbrev Vout6 : Dev nD → Valuation τ sig (Elt F) := Gen.V47 m (outs m)
abbrev entry6 : Entry F := fun c b => Vin6 m c b
/-- Region 7: entered from the valuation before its item, left at the one after it. -/
abbrev Vin7 : Dev nD → Valuation τ sig (Elt F) := Gen.V47 m (outs m)
abbrev Vout7 : Dev nD → Valuation τ sig (Elt F) := Gen.V48 m (outs m)
abbrev entry7 : Entry F := fun c b => Vin7 m c b
/-- Region 8: entered from the valuation before its item, left at the one after it. -/
abbrev Vin8 : Dev nD → Valuation τ sig (Elt F) := Gen.V59 m (outs m)
abbrev Vout8 : Dev nD → Valuation τ sig (Elt F) := Gen.V60 m (outs m)
abbrev entry8 : Entry F := fun c b => Vin8 m c b
/-- Region 9: entered from the valuation before its item, left at the one after it. -/
abbrev Vin9 : Dev nD → Valuation τ sig (Elt F) := Gen.V60 m (outs m)
abbrev Vout9 : Dev nD → Valuation τ sig (Elt F) := Gen.V61 m (outs m)
abbrev entry9 : Entry F := fun c b => Vin9 m c b
/-- Region 10: entered from the valuation before its item, left at the one after it. -/
abbrev Vin10 : Dev nD → Valuation τ sig (Elt F) := Gen.V70 m (outs m)
abbrev Vout10 : Dev nD → Valuation τ sig (Elt F) := Gen.V71 m (outs m)
abbrev entry10 : Entry F := fun c b => Vin10 m c b
/-- Region 11: entered from the valuation before its item, left at the one after it. -/
abbrev Vin11 : Dev nD → Valuation τ sig (Elt F) := Gen.V71 m (outs m)
abbrev Vout11 : Dev nD → Valuation τ sig (Elt F) := Gen.V72 m (outs m)
abbrev entry11 : Entry F := fun c b => Vin11 m c b

/-! ## A region leaves every buffer but its result array as it found it -/

theorem Vout0_of (c : Dev nD) (r : Ref sig .tc) (h : r ∉ ([main_v39] : List (Ref sig .tc))) : Vout0 m c r = Vin0 m c r :=
  Gen.V12_of m (outs m) c r h
theorem Vout1_of (c : Dev nD) (r : Ref sig .tc) (h : r ∉ ([main_v40] : List (Ref sig .tc))) : Vout1 m c r = Vin1 m c r :=
  Gen.V13_of m (outs m) c r h
theorem Vout2_of (c : Dev nD) (r : Ref sig .tc) (h : r ∉ ([main_v51] : List (Ref sig .tc))) : Vout2 m c r = Vin2 m c r :=
  Gen.V23_of m (outs m) c r h
theorem Vout3_of (c : Dev nD) (r : Ref sig .tc) (h : r ∉ ([main_v52] : List (Ref sig .tc))) : Vout3 m c r = Vin3 m c r :=
  Gen.V24_of m (outs m) c r h
theorem Vout4_of (c : Dev nD) (r : Ref sig .tc) (h : r ∉ ([main_v90] : List (Ref sig .tc))) : Vout4 m c r = Vin4 m c r :=
  Gen.V36_of m (outs m) c r h
theorem Vout5_of (c : Dev nD) (r : Ref sig .tc) (h : r ∉ ([main_v91] : List (Ref sig .tc))) : Vout5 m c r = Vin5 m c r :=
  Gen.V37_of m (outs m) c r h
theorem Vout6_of (c : Dev nD) (r : Ref sig .tc) (h : r ∉ ([main_v100] : List (Ref sig .tc))) : Vout6 m c r = Vin6 m c r :=
  Gen.V47_of m (outs m) c r h
theorem Vout7_of (c : Dev nD) (r : Ref sig .tc) (h : r ∉ ([main_v101] : List (Ref sig .tc))) : Vout7 m c r = Vin7 m c r :=
  Gen.V48_of m (outs m) c r h
theorem Vout8_of (c : Dev nD) (r : Ref sig .tc) (h : r ∉ ([main_v135] : List (Ref sig .tc))) : Vout8 m c r = Vin8 m c r :=
  Gen.V60_of m (outs m) c r h
theorem Vout9_of (c : Dev nD) (r : Ref sig .tc) (h : r ∉ ([main_v136] : List (Ref sig .tc))) : Vout9 m c r = Vin9 m c r :=
  Gen.V61_of m (outs m) c r h
theorem Vout10_of (c : Dev nD) (r : Ref sig .tc) (h : r ∉ ([main_v145] : List (Ref sig .tc))) : Vout10 m c r = Vin10 m c r :=
  Gen.V71_of m (outs m) c r h
theorem Vout11_of (c : Dev nD) (r : Ref sig .tc) (h : r ∉ ([main_v146] : List (Ref sig .tc))) : Vout11 m c r = Vin11 m c r :=
  Gen.V72_of m (outs m) c r h

/-! ## and its result array at what its result window's write-backs leave, from its entry contents -/

theorem Vout0_res (c : Dev nD) : Vout0 m c main_v39 = (R0.dat (entry0 m) c).arrAt 3 cfg0.N :=
  (show Vout0 m c main_v39 = outs m 12 main_v39 c from Function.update_self _ _ _).trans (outs_12 m c)
theorem Vout1_res (c : Dev nD) : Vout1 m c main_v40 = (R1.dat (entry1 m) c).arrAt 2 cfg1.N :=
  (show Vout1 m c main_v40 = outs m 13 main_v40 c from Function.update_self _ _ _).trans (outs_13 m c)
theorem Vout2_res (c : Dev nD) : Vout2 m c main_v51 = (R2.dat (entry2 m) c).arrAt 3 cfg2.N :=
  (show Vout2 m c main_v51 = outs m 23 main_v51 c from Function.update_self _ _ _).trans (outs_23 m c)
theorem Vout3_res (c : Dev nD) : Vout3 m c main_v52 = (R3.dat (entry3 m) c).arrAt 2 cfg3.N :=
  (show Vout3 m c main_v52 = outs m 24 main_v52 c from Function.update_self _ _ _).trans (outs_24 m c)
theorem Vout4_res (c : Dev nD) : Vout4 m c main_v90 = (R4.dat (entry4 m) c).arrAt 3 cfg4.N :=
  (show Vout4 m c main_v90 = outs m 36 main_v90 c from Function.update_self _ _ _).trans (outs_36 m c)
theorem Vout5_res (c : Dev nD) : Vout5 m c main_v91 = (R5.dat (entry5 m) c).arrAt 2 cfg5.N :=
  (show Vout5 m c main_v91 = outs m 37 main_v91 c from Function.update_self _ _ _).trans (outs_37 m c)
theorem Vout6_res (c : Dev nD) : Vout6 m c main_v100 = (R6.dat (entry6 m) c).arrAt 3 cfg6.N :=
  (show Vout6 m c main_v100 = outs m 47 main_v100 c from Function.update_self _ _ _).trans (outs_47 m c)
theorem Vout7_res (c : Dev nD) : Vout7 m c main_v101 = (R7.dat (entry7 m) c).arrAt 2 cfg7.N :=
  (show Vout7 m c main_v101 = outs m 48 main_v101 c from Function.update_self _ _ _).trans (outs_48 m c)
theorem Vout8_res (c : Dev nD) : Vout8 m c main_v135 = (R8.dat (entry8 m) c).arrAt 3 cfg8.N :=
  (show Vout8 m c main_v135 = outs m 60 main_v135 c from Function.update_self _ _ _).trans (outs_60 m c)
theorem Vout9_res (c : Dev nD) : Vout9 m c main_v136 = (R9.dat (entry9 m) c).arrAt 2 cfg9.N :=
  (show Vout9 m c main_v136 = outs m 61 main_v136 c from Function.update_self _ _ _).trans (outs_61 m c)
theorem Vout10_res (c : Dev nD) : Vout10 m c main_v145 = (R10.dat (entry10 m) c).arrAt 3 cfg10.N :=
  (show Vout10 m c main_v145 = outs m 71 main_v145 c from Function.update_self _ _ _).trans (outs_71 m c)
theorem Vout11_res (c : Dev nD) : Vout11 m c main_v146 = (R11.dat (entry11 m) c).arrAt 2 cfg11.N :=
  (show Vout11 m c main_v146 = outs m 72 main_v146 c from Function.update_self _ _ _).trans (outs_72 m c)

/-! ## The proof data family -/

/-- The pipeline indices by name. -/
abbrev p0 : Fin 12 := 0
abbrev p1 : Fin 12 := 1
abbrev p2 : Fin 12 := 2
abbrev p3 : Fin 12 := 3
abbrev p4 : Fin 12 := 4
abbrev p5 : Fin 12 := 5
abbrev p6 : Fin 12 := 6
abbrev p7 : Fin 12 := 7
abbrev p8 : Fin 12 := 8
abbrev p9 : Fin 12 := 9
abbrev p10 : Fin 12 := 10
abbrev p11 : Fin 12 := 11

/-- Every pipeline's proof data, each at its region's entry contents. -/
def pdats : (p : Fin 12) → (c : Dev nD) → Dat τ (Elt F) Unit ℕ (UR sig nD τ) ℕ (cfgs p) c
  | ⟨0, _⟩ => fun c => R0.dat (entry0 m) c
  | ⟨1, _⟩ => fun c => R1.dat (entry1 m) c
  | ⟨2, _⟩ => fun c => R2.dat (entry2 m) c
  | ⟨3, _⟩ => fun c => R3.dat (entry3 m) c
  | ⟨4, _⟩ => fun c => R4.dat (entry4 m) c
  | ⟨5, _⟩ => fun c => R5.dat (entry5 m) c
  | ⟨6, _⟩ => fun c => R6.dat (entry6 m) c
  | ⟨7, _⟩ => fun c => R7.dat (entry7 m) c
  | ⟨8, _⟩ => fun c => R8.dat (entry8 m) c
  | ⟨9, _⟩ => fun c => R9.dat (entry9 m) c
  | ⟨10, _⟩ => fun c => R10.dat (entry10 m) c
  | ⟨11, _⟩ => fun c => R11.dat (entry11 m) c

end Cert.Kernel.Hand

end
-- ==== Proof.K.Reg0.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA0 (c : Dev nD) (w : Fin cfg0.W) : (pdats m p0 c).A w = Vin0 m c (Pipeline.arrRef spec0 w) :=
  R0.A_eq (entry0 m) c w

/-- The one window the region writes is its result window; every other window's array is not the result array. -/
theorem out_window0 : ∀ w : Fin cfg0.W, (cfg0.win w).isOut = true → w = 3 := by decide
theorem in_window0 : ∀ w : Fin cfg0.W, (cfg0.win w).isOut = false → Pipeline.arrRef spec0 w ∉ ([main_v39] : List (Ref sig .tc)) := by decide

/-- At the exit valuation each array of the region holds what the pipeline leaves in it: a window that is only read
    leaves its array as entered, and the exit valuation agrees with the entry one there; the result array holds the
    result window's write-backs folded. -/
theorem hF0 (c : Dev nD) (w : Fin cfg0.W) :
    (pdats m p0 c).arrAt w cfg0.N = Vout0 m c (Pipeline.arrRef spec0 w) := by
  cases hout : (cfg0.win w).isOut with
  | true =>
    obtain rfl := out_window0 w hout
    exact (Vout0_res m c).symm
  | false =>
    exact ((pdats m p0 c).arrAt_in w hout _).trans ((hA0 m c w).trans (Vout0_of m c _ (in_window0 w hout)).symm)

/-- Off the region's arrays the exit valuation is the entry one: the result array is one of them. -/
theorem hrest0 (c : Dev nD) (b : Ref sig .tc) (hb : b ∉ Finset.univ.image (Pipeline.arrRef spec0)) :
    Vout0 m c b = Vin0 m c b :=
  Vout0_of m c b fun h => hb (by
    rw [List.mem_singleton] at h
    subst h
    exact Finset.mem_image.mpr ⟨3, Finset.mem_univ _, rfl⟩)

/-- THE REGION over the thread state. -/
def reg0 : Pipeline.RegionSeg (pcfgs (F := F)) Gen.adm (pdats m) () defs₀ 𝒱₀ L lv p0 :=
  regionOf (pdats m) p0 launch0 (Vin0 m) (Vout0 m)
    (hA0 m) (fun _ _ => rfl) (fun _ _ => rfl) (fun _ => rfl)
    (fun c => R0.body_obligation (entry0 m) c) (fun c => R0.Φ_in (entry0 m) c) (fun c => R0.Φ_out (entry0 m) c)
    (hF0 m) (hrest0 m)

end Cert.Kernel.Hand

end
-- ==== Proof.K.Reg1.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA1 (c : Dev nD) (w : Fin cfg1.W) : (pdats m p1 c).A w = Vin1 m c (Pipeline.arrRef spec1 w) :=
  R1.A_eq (entry1 m) c w

/-- The one window the region writes is its result window; every other window's array is not the result array. -/
theorem out_window1 : ∀ w : Fin cfg1.W, (cfg1.win w).isOut = true → w = 2 := by decide
theorem in_window1 : ∀ w : Fin cfg1.W, (cfg1.win w).isOut = false → Pipeline.arrRef spec1 w ∉ ([main_v40] : List (Ref sig .tc)) := by decide

/-- At the exit valuation each array of the region holds what the pipeline leaves in it: a window that is only read
    leaves its array as entered, and the exit valuation agrees with the entry one there; the result array holds the
    result window's write-backs folded. -/
theorem hF1 (c : Dev nD) (w : Fin cfg1.W) :
    (pdats m p1 c).arrAt w cfg1.N = Vout1 m c (Pipeline.arrRef spec1 w) := by
  cases hout : (cfg1.win w).isOut with
  | true =>
    obtain rfl := out_window1 w hout
    exact (Vout1_res m c).symm
  | false =>
    exact ((pdats m p1 c).arrAt_in w hout _).trans ((hA1 m c w).trans (Vout1_of m c _ (in_window1 w hout)).symm)

/-- Off the region's arrays the exit valuation is the entry one: the result array is one of them. -/
theorem hrest1 (c : Dev nD) (b : Ref sig .tc) (hb : b ∉ Finset.univ.image (Pipeline.arrRef spec1)) :
    Vout1 m c b = Vin1 m c b :=
  Vout1_of m c b fun h => hb (by
    rw [List.mem_singleton] at h
    subst h
    exact Finset.mem_image.mpr ⟨2, Finset.mem_univ _, rfl⟩)

/-- THE REGION over the thread state. -/
def reg1 : Pipeline.RegionSeg (pcfgs (F := F)) Gen.adm (pdats m) () defs₀ 𝒱₀ L lv p1 :=
  regionOf (pdats m) p1 launch1 (Vin1 m) (Vout1 m)
    (hA1 m) (fun _ _ => rfl) (fun _ _ => rfl) (fun _ => rfl)
    (fun c => R1.body_obligation (entry1 m) c) (fun c => R1.Φ_in (entry1 m) c) (fun c => R1.Φ_out (entry1 m) c)
    (hF1 m) (hrest1 m)

end Cert.Kernel.Hand

end
-- ==== Proof.K.Reg2.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA2 (c : Dev nD) (w : Fin cfg2.W) : (pdats m p2 c).A w = Vin2 m c (Pipeline.arrRef spec2 w) :=
  R2.A_eq (entry2 m) c w

/-- The one window the region writes is its result window; every other window's array is not the result array. -/
theorem out_window2 : ∀ w : Fin cfg2.W, (cfg2.win w).isOut = true → w = 3 := by decide
theorem in_window2 : ∀ w : Fin cfg2.W, (cfg2.win w).isOut = false → Pipeline.arrRef spec2 w ∉ ([main_v51] : List (Ref sig .tc)) := by decide

/-- At the exit valuation each array of the region holds what the pipeline leaves in it: a window that is only read
    leaves its array as entered, and the exit valuation agrees with the entry one there; the result array holds the
    result window's write-backs folded. -/
theorem hF2 (c : Dev nD) (w : Fin cfg2.W) :
    (pdats m p2 c).arrAt w cfg2.N = Vout2 m c (Pipeline.arrRef spec2 w) := by
  cases hout : (cfg2.win w).isOut with
  | true =>
    obtain rfl := out_window2 w hout
    exact (Vout2_res m c).symm
  | false =>
    exact ((pdats m p2 c).arrAt_in w hout _).trans ((hA2 m c w).trans (Vout2_of m c _ (in_window2 w hout)).symm)

/-- Off the region's arrays the exit valuation is the entry one: the result array is one of them. -/
theorem hrest2 (c : Dev nD) (b : Ref sig .tc) (hb : b ∉ Finset.univ.image (Pipeline.arrRef spec2)) :
    Vout2 m c b = Vin2 m c b :=
  Vout2_of m c b fun h => hb (by
    rw [List.mem_singleton] at h
    subst h
    exact Finset.mem_image.mpr ⟨3, Finset.mem_univ _, rfl⟩)

/-- THE REGION over the thread state. -/
def reg2 : Pipeline.RegionSeg (pcfgs (F := F)) Gen.adm (pdats m) () defs₀ 𝒱₀ L lv p2 :=
  regionOf (pdats m) p2 launch2 (Vin2 m) (Vout2 m)
    (hA2 m) (fun _ _ => rfl) (fun _ _ => rfl) (fun _ => rfl)
    (fun c => R2.body_obligation (entry2 m) c) (fun c => R2.Φ_in (entry2 m) c) (fun c => R2.Φ_out (entry2 m) c)
    (hF2 m) (hrest2 m)

end Cert.Kernel.Hand

end
-- ==== Proof.K.Reg3.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA3 (c : Dev nD) (w : Fin cfg3.W) : (pdats m p3 c).A w = Vin3 m c (Pipeline.arrRef spec3 w) :=
  R3.A_eq (entry3 m) c w

/-- The one window the region writes is its result window; every other window's array is not the result array. -/
theorem out_window3 : ∀ w : Fin cfg3.W, (cfg3.win w).isOut = true → w = 2 := by decide
theorem in_window3 : ∀ w : Fin cfg3.W, (cfg3.win w).isOut = false → Pipeline.arrRef spec3 w ∉ ([main_v52] : List (Ref sig .tc)) := by decide

/-- At the exit valuation each array of the region holds what the pipeline leaves in it: a window that is only read
    leaves its array as entered, and the exit valuation agrees with the entry one there; the result array holds the
    result window's write-backs folded. -/
theorem hF3 (c : Dev nD) (w : Fin cfg3.W) :
    (pdats m p3 c).arrAt w cfg3.N = Vout3 m c (Pipeline.arrRef spec3 w) := by
  cases hout : (cfg3.win w).isOut with
  | true =>
    obtain rfl := out_window3 w hout
    exact (Vout3_res m c).symm
  | false =>
    exact ((pdats m p3 c).arrAt_in w hout _).trans ((hA3 m c w).trans (Vout3_of m c _ (in_window3 w hout)).symm)

/-- Off the region's arrays the exit valuation is the entry one: the result array is one of them. -/
theorem hrest3 (c : Dev nD) (b : Ref sig .tc) (hb : b ∉ Finset.univ.image (Pipeline.arrRef spec3)) :
    Vout3 m c b = Vin3 m c b :=
  Vout3_of m c b fun h => hb (by
    rw [List.mem_singleton] at h
    subst h
    exact Finset.mem_image.mpr ⟨2, Finset.mem_univ _, rfl⟩)

/-- THE REGION over the thread state. -/
def reg3 : Pipeline.RegionSeg (pcfgs (F := F)) Gen.adm (pdats m) () defs₀ 𝒱₀ L lv p3 :=
  regionOf (pdats m) p3 launch3 (Vin3 m) (Vout3 m)
    (hA3 m) (fun _ _ => rfl) (fun _ _ => rfl) (fun _ => rfl)
    (fun c => R3.body_obligation (entry3 m) c) (fun c => R3.Φ_in (entry3 m) c) (fun c => R3.Φ_out (entry3 m) c)
    (hF3 m) (hrest3 m)

end Cert.Kernel.Hand

end
-- ==== Proof.K.Reg4.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA4 (c : Dev nD) (w : Fin cfg4.W) : (pdats m p4 c).A w = Vin4 m c (Pipeline.arrRef spec4 w) :=
  R4.A_eq (entry4 m) c w

/-- The one window the region writes is its result window; every other window's array is not the result array. -/
theorem out_window4 : ∀ w : Fin cfg4.W, (cfg4.win w).isOut = true → w = 3 := by decide
theorem in_window4 : ∀ w : Fin cfg4.W, (cfg4.win w).isOut = false → Pipeline.arrRef spec4 w ∉ ([main_v90] : List (Ref sig .tc)) := by decide

/-- At the exit valuation each array of the region holds what the pipeline leaves in it: a window that is only read
    leaves its array as entered, and the exit valuation agrees with the entry one there; the result array holds the
    result window's write-backs folded. -/
theorem hF4 (c : Dev nD) (w : Fin cfg4.W) :
    (pdats m p4 c).arrAt w cfg4.N = Vout4 m c (Pipeline.arrRef spec4 w) := by
  cases hout : (cfg4.win w).isOut with
  | true =>
    obtain rfl := out_window4 w hout
    exact (Vout4_res m c).symm
  | false =>
    exact ((pdats m p4 c).arrAt_in w hout _).trans ((hA4 m c w).trans (Vout4_of m c _ (in_window4 w hout)).symm)

/-- Off the region's arrays the exit valuation is the entry one: the result array is one of them. -/
theorem hrest4 (c : Dev nD) (b : Ref sig .tc) (hb : b ∉ Finset.univ.image (Pipeline.arrRef spec4)) :
    Vout4 m c b = Vin4 m c b :=
  Vout4_of m c b fun h => hb (by
    rw [List.mem_singleton] at h
    subst h
    exact Finset.mem_image.mpr ⟨3, Finset.mem_univ _, rfl⟩)

/-- THE REGION over the thread state. -/
def reg4 : Pipeline.RegionSeg (pcfgs (F := F)) Gen.adm (pdats m) () defs₀ 𝒱₀ L lv p4 :=
  regionOf (pdats m) p4 launch4 (Vin4 m) (Vout4 m)
    (hA4 m) (fun _ _ => rfl) (fun _ _ => rfl) (fun _ => rfl)
    (fun c => R4.body_obligation (entry4 m) c) (fun c => R4.Φ_in (entry4 m) c) (fun c => R4.Φ_out (entry4 m) c)
    (hF4 m) (hrest4 m)

end Cert.Kernel.Hand

end
-- ==== Proof.K.Reg5.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA5 (c : Dev nD) (w : Fin cfg5.W) : (pdats m p5 c).A w = Vin5 m c (Pipeline.arrRef spec5 w) :=
  R5.A_eq (entry5 m) c w

/-- The one window the region writes is its result window; every other window's array is not the result array. -/
theorem out_window5 : ∀ w : Fin cfg5.W, (cfg5.win w).isOut = true → w = 2 := by decide
theorem in_window5 : ∀ w : Fin cfg5.W, (cfg5.win w).isOut = false → Pipeline.arrRef spec5 w ∉ ([main_v91] : List (Ref sig .tc)) := by decide

/-- At the exit valuation each array of the region holds what the pipeline leaves in it: a window that is only read
    leaves its array as entered, and the exit valuation agrees with the entry one there; the result array holds the
    result window's write-backs folded. -/
theorem hF5 (c : Dev nD) (w : Fin cfg5.W) :
    (pdats m p5 c).arrAt w cfg5.N = Vout5 m c (Pipeline.arrRef spec5 w) := by
  cases hout : (cfg5.win w).isOut with
  | true =>
    obtain rfl := out_window5 w hout
    exact (Vout5_res m c).symm
  | false =>
    exact ((pdats m p5 c).arrAt_in w hout _).trans ((hA5 m c w).trans (Vout5_of m c _ (in_window5 w hout)).symm)

/-- Off the region's arrays the exit valuation is the entry one: the result array is one of them. -/
theorem hrest5 (c : Dev nD) (b : Ref sig .tc) (hb : b ∉ Finset.univ.image (Pipeline.arrRef spec5)) :
    Vout5 m c b = Vin5 m c b :=
  Vout5_of m c b fun h => hb (by
    rw [List.mem_singleton] at h
    subst h
    exact Finset.mem_image.mpr ⟨2, Finset.mem_univ _, rfl⟩)

/-- THE REGION over the thread state. -/
def reg5 : Pipeline.RegionSeg (pcfgs (F := F)) Gen.adm (pdats m) () defs₀ 𝒱₀ L lv p5 :=
  regionOf (pdats m) p5 launch5 (Vin5 m) (Vout5 m)
    (hA5 m) (fun _ _ => rfl) (fun _ _ => rfl) (fun _ => rfl)
    (fun c => R5.body_obligation (entry5 m) c) (fun c => R5.Φ_in (entry5 m) c) (fun c => R5.Φ_out (entry5 m) c)
    (hF5 m) (hrest5 m)

end Cert.Kernel.Hand

end
-- ==== Proof.K.Reg6.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA6 (c : Dev nD) (w : Fin cfg6.W) : (pdats m p6 c).A w = Vin6 m c (Pipeline.arrRef spec6 w) :=
  R6.A_eq (entry6 m) c w

/-- The one window the region writes is its result window; every other window's array is not the result array. -/
theorem out_window6 : ∀ w : Fin cfg6.W, (cfg6.win w).isOut = true → w = 3 := by decide
theorem in_window6 : ∀ w : Fin cfg6.W, (cfg6.win w).isOut = false → Pipeline.arrRef spec6 w ∉ ([main_v100] : List (Ref sig .tc)) := by decide

/-- At the exit valuation each array of the region holds what the pipeline leaves in it: a window that is only read
    leaves its array as entered, and the exit valuation agrees with the entry one there; the result array holds the
    result window's write-backs folded. -/
theorem hF6 (c : Dev nD) (w : Fin cfg6.W) :
    (pdats m p6 c).arrAt w cfg6.N = Vout6 m c (Pipeline.arrRef spec6 w) := by
  cases hout : (cfg6.win w).isOut with
  | true =>
    obtain rfl := out_window6 w hout
    exact (Vout6_res m c).symm
  | false =>
    exact ((pdats m p6 c).arrAt_in w hout _).trans ((hA6 m c w).trans (Vout6_of m c _ (in_window6 w hout)).symm)

/-- Off the region's arrays the exit valuation is the entry one: the result array is one of them. -/
theorem hrest6 (c : Dev nD) (b : Ref sig .tc) (hb : b ∉ Finset.univ.image (Pipeline.arrRef spec6)) :
    Vout6 m c b = Vin6 m c b :=
  Vout6_of m c b fun h => hb (by
    rw [List.mem_singleton] at h
    subst h
    exact Finset.mem_image.mpr ⟨3, Finset.mem_univ _, rfl⟩)

/-- THE REGION over the thread state. -/
def reg6 : Pipeline.RegionSeg (pcfgs (F := F)) Gen.adm (pdats m) () defs₀ 𝒱₀ L lv p6 :=
  regionOf (pdats m) p6 launch6 (Vin6 m) (Vout6 m)
    (hA6 m) (fun _ _ => rfl) (fun _ _ => rfl) (fun _ => rfl)
    (fun c => R6.body_obligation (entry6 m) c) (fun c => R6.Φ_in (entry6 m) c) (fun c => R6.Φ_out (entry6 m) c)
    (hF6 m) (hrest6 m)

end Cert.Kernel.Hand

end
-- ==== Proof.K.Reg7.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA7 (c : Dev nD) (w : Fin cfg7.W) : (pdats m p7 c).A w = Vin7 m c (Pipeline.arrRef spec7 w) :=
  R7.A_eq (entry7 m) c w

/-- The one window the region writes is its result window; every other window's array is not the result array. -/
theorem out_window7 : ∀ w : Fin cfg7.W, (cfg7.win w).isOut = true → w = 2 := by decide
theorem in_window7 : ∀ w : Fin cfg7.W, (cfg7.win w).isOut = false → Pipeline.arrRef spec7 w ∉ ([main_v101] : List (Ref sig .tc)) := by decide

/-- At the exit valuation each array of the region holds what the pipeline leaves in it: a window that is only read
    leaves its array as entered, and the exit valuation agrees with the entry one there; the result array holds the
    result window's write-backs folded. -/
theorem hF7 (c : Dev nD) (w : Fin cfg7.W) :
    (pdats m p7 c).arrAt w cfg7.N = Vout7 m c (Pipeline.arrRef spec7 w) := by
  cases hout : (cfg7.win w).isOut with
  | true =>
    obtain rfl := out_window7 w hout
    exact (Vout7_res m c).symm
  | false =>
    exact ((pdats m p7 c).arrAt_in w hout _).trans ((hA7 m c w).trans (Vout7_of m c _ (in_window7 w hout)).symm)

/-- Off the region's arrays the exit valuation is the entry one: the result array is one of them. -/
theorem hrest7 (c : Dev nD) (b : Ref sig .tc) (hb : b ∉ Finset.univ.image (Pipeline.arrRef spec7)) :
    Vout7 m c b = Vin7 m c b :=
  Vout7_of m c b fun h => hb (by
    rw [List.mem_singleton] at h
    subst h
    exact Finset.mem_image.mpr ⟨2, Finset.mem_univ _, rfl⟩)

/-- THE REGION over the thread state. -/
def reg7 : Pipeline.RegionSeg (pcfgs (F := F)) Gen.adm (pdats m) () defs₀ 𝒱₀ L lv p7 :=
  regionOf (pdats m) p7 launch7 (Vin7 m) (Vout7 m)
    (hA7 m) (fun _ _ => rfl) (fun _ _ => rfl) (fun _ => rfl)
    (fun c => R7.body_obligation (entry7 m) c) (fun c => R7.Φ_in (entry7 m) c) (fun c => R7.Φ_out (entry7 m) c)
    (hF7 m) (hrest7 m)

end Cert.Kernel.Hand

end
-- ==== Proof.K.Reg8.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA8 (c : Dev nD) (w : Fin cfg8.W) : (pdats m p8 c).A w = Vin8 m c (Pipeline.arrRef spec8 w) :=
  R8.A_eq (entry8 m) c w

/-- The one window the region writes is its result window; every other window's array is not the result array. -/
theorem out_window8 : ∀ w : Fin cfg8.W, (cfg8.win w).isOut = true → w = 3 := by decide
theorem in_window8 : ∀ w : Fin cfg8.W, (cfg8.win w).isOut = false → Pipeline.arrRef spec8 w ∉ ([main_v135] : List (Ref sig .tc)) := by decide

/-- At the exit valuation each array of the region holds what the pipeline leaves in it: a window that is only read
    leaves its array as entered, and the exit valuation agrees with the entry one there; the result array holds the
    result window's write-backs folded. -/
theorem hF8 (c : Dev nD) (w : Fin cfg8.W) :
    (pdats m p8 c).arrAt w cfg8.N = Vout8 m c (Pipeline.arrRef spec8 w) := by
  cases hout : (cfg8.win w).isOut with
  | true =>
    obtain rfl := out_window8 w hout
    exact (Vout8_res m c).symm
  | false =>
    exact ((pdats m p8 c).arrAt_in w hout _).trans ((hA8 m c w).trans (Vout8_of m c _ (in_window8 w hout)).symm)

/-- Off the region's arrays the exit valuation is the entry one: the result array is one of them. -/
theorem hrest8 (c : Dev nD) (b : Ref sig .tc) (hb : b ∉ Finset.univ.image (Pipeline.arrRef spec8)) :
    Vout8 m c b = Vin8 m c b :=
  Vout8_of m c b fun h => hb (by
    rw [List.mem_singleton] at h
    subst h
    exact Finset.mem_image.mpr ⟨3, Finset.mem_univ _, rfl⟩)

/-- THE REGION over the thread state. -/
def reg8 : Pipeline.RegionSeg (pcfgs (F := F)) Gen.adm (pdats m) () defs₀ 𝒱₀ L lv p8 :=
  regionOf (pdats m) p8 launch8 (Vin8 m) (Vout8 m)
    (hA8 m) (fun _ _ => rfl) (fun _ _ => rfl) (fun _ => rfl)
    (fun c => R8.body_obligation (entry8 m) c) (fun c => R8.Φ_in (entry8 m) c) (fun c => R8.Φ_out (entry8 m) c)
    (hF8 m) (hrest8 m)

end Cert.Kernel.Hand

end
-- ==== Proof.K.Reg9.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA9 (c : Dev nD) (w : Fin cfg9.W) : (pdats m p9 c).A w = Vin9 m c (Pipeline.arrRef spec9 w) :=
  R9.A_eq (entry9 m) c w

/-- The one window the region writes is its result window; every other window's array is not the result array. -/
theorem out_window9 : ∀ w : Fin cfg9.W, (cfg9.win w).isOut = true → w = 2 := by decide
theorem in_window9 : ∀ w : Fin cfg9.W, (cfg9.win w).isOut = false → Pipeline.arrRef spec9 w ∉ ([main_v136] : List (Ref sig .tc)) := by decide

/-- At the exit valuation each array of the region holds what the pipeline leaves in it: a window that is only read
    leaves its array as entered, and the exit valuation agrees with the entry one there; the result array holds the
    result window's write-backs folded. -/
theorem hF9 (c : Dev nD) (w : Fin cfg9.W) :
    (pdats m p9 c).arrAt w cfg9.N = Vout9 m c (Pipeline.arrRef spec9 w) := by
  cases hout : (cfg9.win w).isOut with
  | true =>
    obtain rfl := out_window9 w hout
    exact (Vout9_res m c).symm
  | false =>
    exact ((pdats m p9 c).arrAt_in w hout _).trans ((hA9 m c w).trans (Vout9_of m c _ (in_window9 w hout)).symm)

/-- Off the region's arrays the exit valuation is the entry one: the result array is one of them. -/
theorem hrest9 (c : Dev nD) (b : Ref sig .tc) (hb : b ∉ Finset.univ.image (Pipeline.arrRef spec9)) :
    Vout9 m c b = Vin9 m c b :=
  Vout9_of m c b fun h => hb (by
    rw [List.mem_singleton] at h
    subst h
    exact Finset.mem_image.mpr ⟨2, Finset.mem_univ _, rfl⟩)

/-- THE REGION over the thread state. -/
def reg9 : Pipeline.RegionSeg (pcfgs (F := F)) Gen.adm (pdats m) () defs₀ 𝒱₀ L lv p9 :=
  regionOf (pdats m) p9 launch9 (Vin9 m) (Vout9 m)
    (hA9 m) (fun _ _ => rfl) (fun _ _ => rfl) (fun _ => rfl)
    (fun c => R9.body_obligation (entry9 m) c) (fun c => R9.Φ_in (entry9 m) c) (fun c => R9.Φ_out (entry9 m) c)
    (hF9 m) (hrest9 m)

end Cert.Kernel.Hand

end
-- ==== Proof.K.Reg10.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA10 (c : Dev nD) (w : Fin cfg10.W) : (pdats m p10 c).A w = Vin10 m c (Pipeline.arrRef spec10 w) :=
  R10.A_eq (entry10 m) c w

/-- The one window the region writes is its result window; every other window's array is not the result array. -/
theorem out_window10 : ∀ w : Fin cfg10.W, (cfg10.win w).isOut = true → w = 3 := by decide
theorem in_window10 : ∀ w : Fin cfg10.W, (cfg10.win w).isOut = false → Pipeline.arrRef spec10 w ∉ ([main_v145] : List (Ref sig .tc)) := by decide

/-- At the exit valuation each array of the region holds what the pipeline leaves in it: a window that is only read
    leaves its array as entered, and the exit valuation agrees with the entry one there; the result array holds the
    result window's write-backs folded. -/
theorem hF10 (c : Dev nD) (w : Fin cfg10.W) :
    (pdats m p10 c).arrAt w cfg10.N = Vout10 m c (Pipeline.arrRef spec10 w) := by
  cases hout : (cfg10.win w).isOut with
  | true =>
    obtain rfl := out_window10 w hout
    exact (Vout10_res m c).symm
  | false =>
    exact ((pdats m p10 c).arrAt_in w hout _).trans ((hA10 m c w).trans (Vout10_of m c _ (in_window10 w hout)).symm)

/-- Off the region's arrays the exit valuation is the entry one: the result array is one of them. -/
theorem hrest10 (c : Dev nD) (b : Ref sig .tc) (hb : b ∉ Finset.univ.image (Pipeline.arrRef spec10)) :
    Vout10 m c b = Vin10 m c b :=
  Vout10_of m c b fun h => hb (by
    rw [List.mem_singleton] at h
    subst h
    exact Finset.mem_image.mpr ⟨3, Finset.mem_univ _, rfl⟩)

/-- THE REGION over the thread state. -/
def reg10 : Pipeline.RegionSeg (pcfgs (F := F)) Gen.adm (pdats m) () defs₀ 𝒱₀ L lv p10 :=
  regionOf (pdats m) p10 launch10 (Vin10 m) (Vout10 m)
    (hA10 m) (fun _ _ => rfl) (fun _ _ => rfl) (fun _ => rfl)
    (fun c => R10.body_obligation (entry10 m) c) (fun c => R10.Φ_in (entry10 m) c) (fun c => R10.Φ_out (entry10 m) c)
    (hF10 m) (hrest10 m)

end Cert.Kernel.Hand

end
-- ==== Proof.K.Reg11.lean ====
/-
  One region as a segment of the program: entered from every unscoped buffer at the valuation before it, left at the
  valuation after it, which differs from the first at the region's result array only: that holds what the write-backs of
  the result window leave.
-/
import proofs.«130096_j52458730553647_1_alg».proof.Proof.K.Fam

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA11 (c : Dev nD) (w : Fin cfg11.W) : (pdats m p11 c).A w = Vin11 m c (Pipeline.arrRef spec11 w) :=
  R11.A_eq (entry11 m) c w

/-- The one window the region writes is its result window; every other window's array is not the result array. -/
theorem out_window11 : ∀ w : Fin cfg11.W, (cfg11.win w).isOut = true → w = 2 := by decide
theorem in_window11 : ∀ w : Fin cfg11.W, (cfg11.win w).isOut = false → Pipeline.arrRef spec11 w ∉ ([main_v146] : List (Ref sig .tc)) := by decide

/-- At the exit valuation each array of the region holds what the pipeline leaves in it: a window that is only read
    leaves its array as entered, and the exit valuation agrees with the entry one there; the result array holds the
    result window's write-backs folded. -/
theorem hF11 (c : Dev nD) (w : Fin cfg11.W) :
    (pdats m p11 c).arrAt w cfg11.N = Vout11 m c (Pipeline.arrRef spec11 w) := by
  cases hout : (cfg11.win w).isOut with
  | true =>
    obtain rfl := out_window11 w hout
    exact (Vout11_res m c).symm
  | false =>
    exact ((pdats m p11 c).arrAt_in w hout _).trans ((hA11 m c w).trans (Vout11_of m c _ (in_window11 w hout)).symm)

/-- Off the region's arrays the exit valuation is the entry one: the result array is one of them. -/
theorem hrest11 (c : Dev nD) (b : Ref sig .tc) (hb : b ∉ Finset.univ.image (Pipeline.arrRef spec11)) :
    Vout11 m c b = Vin11 m c b :=
  Vout11_of m c b fun h => hb (by
    rw [List.mem_singleton] at h
    subst h
    exact Finset.mem_image.mpr ⟨2, Finset.mem_univ _, rfl⟩)

/-- THE REGION over the thread state. -/
def reg11 : Pipeline.RegionSeg (pcfgs (F := F)) Gen.adm (pdats m) () defs₀ 𝒱₀ L lv p11 :=
  regionOf (pdats m) p11 launch11 (Vin11 m) (Vout11 m)
    (hA11 m) (fun _ _ => rfl) (fun _ _ => rfl) (fun _ => rfl)
    (fun c => R11.body_obligation (entry11 m) c) (fun c => R11.Φ_in (entry11 m) c) (fun c => R11.Φ_out (entry11 m) c)
    (hF11 m) (hrest11 m)

end Cert.Kernel.Hand

end
-- ==== Proof.K.Run.lean ====
/-
  The run of the program from its twelve regions: every weakly fair execution from memory `m` with zero counters
  terminates, and every final memory holds each unscoped buffer of every core at the last valuation over the pinned
  contents the regions leave; in particular each argument as launched.
-/
import proofs.«130096_j52458730553647_1_alg».proof.Proof.K.RunCond
import proofs.«130096_j52458730553647_1_alg».proof.Proof.K.Reg0
import proofs.«130096_j52458730553647_1_alg».proof.Proof.K.Reg1
import proofs.«130096_j52458730553647_1_alg».proof.Proof.K.Reg2
import proofs.«130096_j52458730553647_1_alg».proof.Proof.K.Reg3
import proofs.«130096_j52458730553647_1_alg».proof.Proof.K.Reg4
import proofs.«130096_j52458730553647_1_alg».proof.Proof.K.Reg5
import proofs.«130096_j52458730553647_1_alg».proof.Proof.K.Reg6
import proofs.«130096_j52458730553647_1_alg».proof.Proof.K.Reg7
import proofs.«130096_j52458730553647_1_alg».proof.Proof.K.Reg8
import proofs.«130096_j52458730553647_1_alg».proof.Proof.K.Reg9
import proofs.«130096_j52458730553647_1_alg».proof.Proof.K.Reg10
import proofs.«130096_j52458730553647_1_alg».proof.Proof.K.Reg11

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)

/-- THE RUN: every final memory holds every unscoped buffer of every core at the last valuation. Each region's record
    is entered from, and left at, exactly the thread states between the items. -/
theorem run : θ_run defs (onTc (τ := τ) (main (F := F))) ⟨m, fun _ => 0, ρ⟩
    (fun r => ∀ c : Dev nD, ∀ b ∈ Pipeline.ucRefs τ sig, r.2.mem (((c : Thread nD τ)).1, b) = Gen.V73 m (outs m) c b) :=
  run_cond m ρ (outs m) (pdats m)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)
    (reg10 m) (fun _ => .rfl) (fun _ => .rfl)
    (reg11 m) (fun _ => .rfl) (fun _ => .rfl)

/-- An unscoped TensorCore reference is among those the last thread state holds. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE FRAME: every argument ends as launched: no item of the program writes an argument's buffer, so the last
    valuation holds it at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucRefs main_arg0 (by decide))).trans (Gen.V73_main_arg0 m (outs m) c),
      (h c _ (mem_ucRefs main_arg1 (by decide))).trans (Gen.V73_main_arg1 m (outs m) c),
      (h c _ (mem_ucRefs main_arg2 (by decide))).trans (Gen.V73_main_arg2 m (outs m) c),
      (h c _ (mem_ucRefs main_arg3 (by decide))).trans (Gen.V73_main_arg3 m (outs m) c),
      (h c _ (mem_ucRefs main_arg4 (by decide))).trans (Gen.V73_main_arg4 m (outs m) c),
      (h c _ (mem_ucRefs main_arg5 (by decide))).trans (Gen.V73_main_arg5 m (outs m) c),
      (h c _ (mem_ucRefs main_arg6 (by decide))).trans (Gen.V73_main_arg6 m (outs m) c),
      (h c _ (mem_ucRefs main_arg7 (by decide))).trans (Gen.V73_main_arg7 m (outs m) c)⟩) (run m ρ)

end Cert.Kernel.Hand

end
-- ==== Proof.KI.RegionOf.lean ====
/-
  One record for all twelve regions: a region whose invariant keeps scoped buffers only, whose data holds its arrays at
  the full share and owes nothing, is a segment of the program over the thread state "every unscoped buffer of the core
  at a valuation; beside them the generator register at some state and the core owing nothing".
-/
import proofs.«130096_j52458730553647_1_alg».proof.Proof.KernelIdealRegions
import Idealize.ShloMosaic.Lib.Pipeline.RegionsLoop
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-! ## A region whose invariant holds scoped buffers only, over the thread state "every unscoped buffer at a valuation, the rest beside"

For any pipeline `p` of the program and any proof data family: if `p`'s data reads its arrays off a valuation `V`, holds
them at the full share, owes nothing at any point, and keeps in its invariant nothing but the scoped buffers no window
stages, then the region is a segment entered from every unscoped buffer at `V` and left at any `V'` that has the arrays
at what the write-backs leave and agrees with `V` off them. -/

section
variable (pdats : (p : Fin 12) → (c : Dev nD) → Dat τ (Elt F) Unit ℕ (UR sig nD τ) ℕ (cfgs p) c)
variable (p : Fin 12) (kit : Pipeline.LaunchFacts (nD := nD) (τ := τ) cfgs p)
variable (V V' : Dev nD → Valuation τ sig (Elt F))

/-- No pipeline of the program prefetches a table: the tables held are nothing. -/
theorem prefHeld_none (c : Dev nD) :
    (BI.emp : sProp 𝕄) ⊢ Pipeline.prefHeld (pcfgs (F := F) p).pre c (fun _ => fullShare) (adm p).1 := by
  unfold Pipeline.prefHeld
  rw [Finset.univ_eq_empty, BI.bigSep_empty]

/-- A core that owes nothing, whatever pairs its waits have recorded, owes what the data says before the first point. -/
theorem owesAt_first (c : Dev nD) (h0 : (pdats p c).owed 0 = 0) (hrec : (pdats p c).recorded 0 = Set.univ) :
    (iprop(∃ W, owes (c : Thread nD τ) (0 : CellTallies nD τ sig Unit) W) : sProp 𝕄) ⊢ (pdats p c).owesAt () 0 := by
  unfold Pipeline.Dat.owesAt Pipeline.owesWithin
  rw [h0]
  iintro ⟨%W, H⟩
  iexists W
  isplitr
  · ipureintro
    intro x _
    exact Or.inl (hrec ▸ Set.mem_univ x)
  · iexact H

/-- After the last point the core owes what the data says there: nothing. -/
theorem owes_last (c : Dev nD) (hN : (pdats p c).owed (Fin.last (cfgs p).N) = 0) :
    (pdats p c).owesAt () (Fin.last (cfgs p).N) ⊢ (iprop(∃ W, owes (c : Thread nD τ) (0 : CellTallies nD τ sig Unit) W) : sProp 𝕄) := by
  unfold Pipeline.Dat.owesAt Pipeline.owesWithin
  rw [hN]
  iintro ⟨%W, -, H⟩
  iexists W
  iexact H

variable (hA : ∀ c w, (pdats p c).A w = V c (Pipeline.arrRef (cfgs p).spec w))
  (hq : ∀ c w, (pdats p c).q w = fullShare)

include kit hA hq in
/-- The pipeline's arrays, at their entry contents, out of the unscoped buffers at `V`. -/
theorem arrays_out (c : Dev nD) :
    (StableHlo.held (c : Thread nD τ) (Pipeline.ucRefs τ sig) (V c) : sProp 𝕄)
      ⊢ iprop((pdats p c).arrays ((pdats p c).arrAt · 0)
          ∗ Pipeline.unscopedRest (Ix := Unit) (Name := ℕ) (U := UR sig nD τ) (Lvl := ℕ) (cfgs p).spec c (fun b => V c b)) := by
  rw [← Pipeline.unscopedBufs_held (Ix := Unit) (Name := ℕ) (U := UR sig nD τ) (Lvl := ℕ) c (V c)]
  exact Pipeline.arrays_of_unscopedBufs (p := p) (pcfgs (F := F)) adm pdats kit.win kit.arr_whole c
    ((pdats p c).share_full (hq c)) (fun b => V c b) (hA c)

include kit hq in
/-- The arrays, at what the write-backs leave, back among the unscoped buffers: at `V'`. -/
theorem arrays_back (hF : ∀ c w, (pdats p c).arrAt w (cfgs p).N = V' c (Pipeline.arrRef (cfgs p).spec w))
    (hrest : ∀ c (b : Ref sig .tc), b ∉ Finset.univ.image (Pipeline.arrRef (cfgs p).spec) → V' c b = V c b) (c : Dev nD) :
    iprop((pdats p c).arrays ((pdats p c).arrAt · (cfgs p).N)
        ∗ Pipeline.unscopedRest (Ix := Unit) (Name := ℕ) (U := UR sig nD τ) (Lvl := ℕ) (cfgs p).spec c (fun b => V c b))
      ⊢ (StableHlo.held (c : Thread nD τ) (Pipeline.ucRefs τ sig) (V' c) : sProp 𝕄) := by
  rw [← Pipeline.unscopedBufs_held (Ix := Unit) (Name := ℕ) (U := UR sig nD τ) (Lvl := ℕ) c (V' c)]
  exact Pipeline.unscopedBufs_of_arrays (p := p) (pcfgs (F := F)) adm (Ix := Unit) (Name := ℕ) (U := UR sig nD τ) (Lvl := ℕ)
    kit.win kit.arr_whole c pdats ((pdats p c).share_full (hq c)) (fun b => V c b) (fun b => V' c b)
    ((pdats p c).arrAt · (cfgs p).N) (hF c) (hrest c)

set_option backward.isDefEq.respectTransparency.types false in
/-- The region's record. The generator register and the core's `owes` ride beside the buffers: the register bypasses the
    region, the `owes` goes through the pipeline at nothing owed. -/
def regionOf
    (howed : ∀ c t, (pdats p c).owed t = 0)
    (hrec : ∀ c, (pdats p c).recorded 0 = Set.univ)
    (hbody : ∀ c, Pipeline.BodyObligation (pdats p c) (defs₀ (F := F)) 𝒱₀ () Set.univ)
    (hΦin : ∀ c, (Pipeline.scopedRest (Ix := Unit) (Name := ℕ) (U := UR sig nD τ) (Lvl := ℕ) (Val := Elt F) (cfgs p).spec c : sProp 𝕄) ⊢ (pdats p c).Φ 0)
    (hΦout : ∀ c, (pdats p c).Φ (Fin.last (cfgs p).N) ⊢ (Pipeline.scopedRest (Ix := Unit) (Name := ℕ) (U := UR sig nD τ) (Lvl := ℕ) (Val := Elt F) (cfgs p).spec c : sProp 𝕄))
    (hF : ∀ c w, (pdats p c).arrAt w (cfgs p).N = V' c (Pipeline.arrRef (cfgs p).spec w))
    (hrest : ∀ c (b : Ref sig .tc), b ∉ Finset.univ.image (Pipeline.arrRef (cfgs p).spec) → V' c b = V c b) :
    Pipeline.RegionSeg (pcfgs (F := F)) adm pdats () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X _ := BI.emp
  Y _ := BI.emp
  Z c := iprop(Pipeline.unscopedRest (Ix := Unit) (Name := ℕ) (U := UR sig nD τ) (Lvl := ℕ) (cfgs p).spec c (fun b => V c b) ∗ ∃ r, prngReg c r)
  hentry c := by
    rw [Pipeline.ownSems0_none]
    iintro ⟨⟨Hheld, Hprng, Howes⟩, -, -⟩
    imodintro
    ihave Hsplit := arrays_out pdats p kit V hA hq c $$ Hheld
    icases Hsplit with ⟨Harr, Hrest⟩
    isplitl [Harr]; · iexact Harr
    isplitr; · iapply prefHeld_none p c; iempintro
    isplitl [Howes]; · iapply owesAt_first pdats p c (howed c 0) (hrec c); iexact Howes
    isplitr; · iempintro
    isplitl [Hrest]; · iexact Hrest
    iexact Hprng
  hin c := by
    iintro ⟨-, -, Hs⟩
    iapply hΦin c
    iexact Hs
  hout c := by
    rw [Pipeline.ownSems0_none]
    refine (hΦout c).trans ?_
    iintro Hs
    isplitr; · iempintro
    isplitr; · iempintro
    iexact Hs
  hexit c := by
    iintro ⟨Harr, Howes, -, Hrest, Hprng⟩
    imodintro
    isplitl [Harr Hrest]
    · iapply arrays_back pdats p kit V V' hq hF hrest c
      isplitl [Harr]; · iexact Harr
      iexact Hrest
    isplitl [Hprng]; · iexact Hprng
    iapply owes_last pdats p c (howed c (Fin.last _))
    iexact Howes
end

end Cert.KernelIdeal.Hand

end
-- ==== Proof.KI.RunCond.lean ====
/-
  The program's run, given its twelve regions' records: for any contents `outs` the regions leave, any proof data and
  any twelve segment records pinned to the thread states between the items (every unscoped buffer at the item's
  valuation; beside them the generator register at some state and the core owing nothing), every weakly fair execution
  from memory `m` with zero counters terminates, and every final memory holds every unscoped buffer of every core at the
  last valuation.
-/
import proofs.«130096_j52458730553647_1_alg».proof.Proof.KI.RegionOf

set_option maxRecDepth 16384
set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- The same rest between any two items. -/
abbrev E : Fin 13 → Dev nD → sProp 𝕄 := fun _ => R

/-- The rest holds the core owing nothing. -/
theorem rest_owes (c : Dev nD) :
    (R c : sProp 𝕄) ⊢ iprop(∃ W, owes (c : Thread nD τ) (0 : CellTallies nD τ sig Unit) W) := by
  iintro ⟨-, H⟩
  iexact H

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_cond (outs : Outs (F := F))
    (pdats : (p : Fin 12) → (c : Dev nD) → Dat τ (Elt F) Unit ℕ (UR sig nD τ) ℕ (cfgs p) c)
    (S0 : RegionSeg (pcfgs (F := F)) adm pdats () defs₀ 𝒱₀ L lv 0)
    (hpre0 : ∀ c : Dev nD, iprop(StableHlo.held (c : Thread nD τ) (Pipeline.ucRefs τ sig) (V11 m c) ∗ R c) ⊢ S0.pre c)
    (hpost0 : ∀ c : Dev nD, S0.post c ⊢ iprop(StableHlo.held (c : Thread nD τ) (Pipeline.ucRefs τ sig) (V12 m outs c) ∗ R c))
    (S1 : RegionSeg (pcfgs (F := F)) adm pdats () defs₀ 𝒱₀ L lv 1)
    (hpre1 : ∀ c : Dev nD, iprop(StableHlo.held (c : Thread nD τ) (Pipeline.ucRefs τ sig) (V12 m outs c) ∗ R c) ⊢ S1.pre c)
    (hpost1 : ∀ c : Dev nD, S1.post c ⊢ iprop(StableHlo.held (c : Thread nD τ) (Pipeline.ucRefs τ sig) (V13 m outs c) ∗ R c))
    (S2 : RegionSeg (pcfgs (F := F)) adm pdats () defs₀ 𝒱₀ L lv 2)
    (hpre2 : ∀ c : Dev nD, iprop(StableHlo.held (c : Thread nD τ) (Pipeline.ucRefs τ sig) (V22 m outs c) ∗ R c) ⊢ S2.pre c)
    (hpost2 : ∀ c : Dev nD, S2.post c ⊢ iprop(StableHlo.held (c : Thread nD τ) (Pipeline.ucRefs τ sig) (V23 m outs c) ∗ R c))
    (S3 : RegionSeg (pcfgs (F := F)) adm pdats () defs₀ 𝒱₀ L lv 3)
    (hpre3 : ∀ c : Dev nD, iprop(StableHlo.held (c : Thread nD τ) (Pipeline.ucRefs τ sig) (V23 m outs c) ∗ R c) ⊢ S3.pre c)
    (hpost3 : ∀ c : Dev nD, S3.post c ⊢ iprop(StableHlo.held (c : Thread nD τ) (Pipeline.ucRefs τ sig) (V24 m outs c) ∗ R c))
    (S4 : RegionSeg (pcfgs (F := F)) adm pdats () defs₀ 𝒱₀ L lv 4)
    (hpre4 : ∀ c : Dev nD, iprop(StableHlo.held (c : Thread nD τ) (Pipeline.ucRefs τ sig) (V35 m outs c) ∗ R c) ⊢ S4.pre c)
    (hpost4 : ∀ c : Dev nD, S4.post c ⊢ iprop(StableHlo.held (c : Thread nD τ) (Pipeline.ucRefs τ sig) (V36 m outs c) ∗ R c))
    (S5 : RegionSeg (pcfgs (F := F)) adm pdats () defs₀ 𝒱₀ L lv 5)
    (hpre5 : ∀ c : Dev nD, iprop(StableHlo.held (c : Thread nD τ) (Pipeline.ucRefs τ sig) (V36 m outs c) ∗ R c) ⊢ S5.pre c)
    (hpost5 : ∀ c : Dev nD, S5.post c ⊢ iprop(StableHlo.held (c : Thread nD τ) (Pipeline.ucRefs τ sig) (V37 m outs c) ∗ R c))
    (S6 : RegionSeg (pcfgs (F := F)) adm pdats () defs₀ 𝒱₀ L lv 6)
    (hpre6 : ∀ c : Dev nD, iprop(StableHlo.held (c : Thread nD τ) (Pipeline.ucRefs τ sig) (V46 m outs c) ∗ R c) ⊢ S6.pre c)
    (hpost6 : ∀ c : Dev nD, S6.post c ⊢ iprop(StableHlo.held (c : Thread nD τ) (Pipeline.ucRefs τ sig) (V47 m outs c) ∗ R c))
    (S7 : RegionSeg (pcfgs (F := F)) adm pdats () defs₀ 𝒱₀ L lv 7)
    (hpre7 : ∀ c : Dev nD, iprop(StableHlo.held (c : Thread nD τ) (Pipeline.ucRefs τ sig) (V47 m outs c) ∗ R c) ⊢ S7.pre c)
    (hpost7 : ∀ c : Dev nD, S7.post c ⊢ iprop(StableHlo.held (c : Thread nD τ) (Pipeline.ucRefs τ sig) (V48 m outs c) ∗ R c))
    (S8 : RegionSeg (pcfgs (F := F)) adm pdats () defs₀ 𝒱₀ L lv 8)
    (hpre8 : ∀ c : Dev nD, iprop(StableHlo.held (c : Thread nD τ) (Pipeline.ucRefs τ sig) (V59 m outs c) ∗ R c) ⊢ S8.pre c)
    (hpost8 : ∀ c : Dev nD, S8.post c ⊢ iprop(StableHlo.held (c : Thread nD τ) (Pipeline.ucRefs τ sig) (V60 m outs c) ∗ R c))
    (S9 : RegionSeg (pcfgs (F := F)) adm pdats () defs₀ 𝒱₀ L lv 9)
    (hpre9 : ∀ c : Dev nD, iprop(StableHlo.held (c : Thread nD τ) (Pipeline.ucRefs τ sig) (V60 m outs c) ∗ R c) ⊢ S9.pre c)
    (hpost9 : ∀ c : Dev nD, S9.post c ⊢ iprop(StableHlo.held (c : Thread nD τ) (Pipeline.ucRefs τ sig) (V61 m outs c) ∗ R c))
    (S10 : RegionSeg (pcfgs (F := F)) adm pdats () defs₀ 𝒱₀ L lv 10)
    (hpre10 : ∀ c : Dev nD, iprop(StableHlo.held (c : Thread nD τ) (Pipeline.ucRefs τ sig) (V70 m outs c) ∗ R c) ⊢ S10.pre c)
    (hpost10 : ∀ c : Dev nD, S10.post c ⊢ iprop(StableHlo.held (c : Thread nD τ) (Pipeline.ucRefs τ sig) (V71 m outs c) ∗ R c))
    (S11 : RegionSeg (pcfgs (F := F)) adm pdats () defs₀ 𝒱₀ L lv 11)
    (hpre11 : ∀ c : Dev nD, iprop(StableHlo.held (c : Thread nD τ) (Pipeline.ucRefs τ sig) (V71 m outs c) ∗ R c) ⊢ S11.pre c)
    (hpost11 : ∀ c : Dev nD, S11.post c ⊢ iprop(StableHlo.held (c : Thread nD τ) (Pipeline.ucRefs τ sig) (V72 m outs c) ∗ R c)) :
    θ_run defs (onTc (τ := τ) (main (F := F))) ⟨m, fun _ => 0, ρ⟩
      (fun r => ∀ c : Dev nD, ∀ b ∈ Pipeline.ucRefs τ sig, r.2.mem (((c : Thread nD τ)).1, b) = V73 m outs c b) := by
  refine Pipeline.θ_run_regions_kit_dev (pcfgs (F := F)) adm pdats () cellOf_inj emb₁ defs₀ 𝒱₀ L lv m ρ main
    (segs m outs 𝒱₀ L lv E () pdats S0 S1 S2 S3 S4 S5 S6 S7 S8 S9 S10 S11)
    (fun c Q => by
      rewrite [main_chain c, Seg.run_eq_chain,
        show (segs m outs 𝒱₀ L lv E () pdats S0 S1 S2 S3 S4 S5 S6 S7 S8 S9 S10 S11 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()),
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          StableHlo.seq hostOps4_9,
          StableHlo.seq hostOps4_10,
          Prog.lift (.customCall (Pipeline.entry 4) ()),
          Prog.lift (.customCall (Pipeline.entry 5) ()),
          StableHlo.seq hostOps6,
          StableHlo.seq hostOps6_1,
          StableHlo.seq hostOps6_2,
          StableHlo.seq hostOps6_3,
          StableHlo.seq hostOps6_4,
          StableHlo.seq hostOps6_5,
          StableHlo.seq hostOps6_6,
          StableHlo.seq hostOps6_7,
          StableHlo.seq hostOps6_8,
          Prog.lift (.customCall (Pipeline.entry 6) ()),
          Prog.lift (.customCall (Pipeline.entry 7) ()),
          StableHlo.seq hostOps8,
          StableHlo.seq hostOps8_1,
          StableHlo.seq hostOps8_2,
          StableHlo.seq hostOps8_3,
          StableHlo.seq hostOps8_4,
          StableHlo.seq hostOps8_5,
          StableHlo.seq hostOps8_6,
          StableHlo.seq hostOps8_7,
          StableHlo.seq hostOps8_8,
          StableHlo.seq hostOps8_9,
          StableHlo.seq hostOps8_10,
          Prog.lift (.customCall (Pipeline.entry 8) ()),
          Prog.lift (.customCall (Pipeline.entry 9) ()),
          StableHlo.seq hostOps10,
          StableHlo.seq hostOps10_1,
          StableHlo.seq hostOps10_2,
          StableHlo.seq hostOps10_3,
          StableHlo.seq hostOps10_4,
          StableHlo.seq hostOps10_5,
          StableHlo.seq hostOps10_6,
          StableHlo.seq hostOps10_7,
          StableHlo.seq hostOps10_8,
          Prog.lift (.customCall (Pipeline.entry 10) ()),
          Prog.lift (.customCall (Pipeline.entry 11) ()),
          StableHlo.seq hostOps12 ] from rfl]
      with_reducible exact .rfl)
    (fun c => by simp only [segs, Seg.pipes_host, Seg.pipes_region, Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c))
    (Tₙ := fun c => StableHlo.held (c : Thread nD τ) (Pipeline.ucRefs τ sig) (V73 m outs c))
    (hch := fun c => ⟨.rfl, .rfl, .rfl, .rfl, .rfl, .rfl, .rfl, .rfl, .rfl, .rfl, .rfl, hpre0 c, (hpost0 c).trans (hpre1 c), hpost1 c, .rfl, .rfl, .rfl, .rfl, .rfl, .rfl, .rfl, .rfl, hpre2 c, (hpost2 c).trans (hpre3 c), hpost3 c, .rfl, .rfl, .rfl, .rfl, .rfl, .rfl, .rfl, .rfl, .rfl, .rfl, hpre4 c, (hpost4 c).trans (hpre5 c), hpost5 c, .rfl, .rfl, .rfl, .rfl, .rfl, .rfl, .rfl, .rfl, hpre6 c, (hpost6 c).trans (hpre7 c), hpost7 c, .rfl, .rfl, .rfl, .rfl, .rfl, .rfl, .rfl, .rfl, .rfl, .rfl, hpre8 c, (hpost8 c).trans (hpre9 c), hpost9 c, .rfl, .rfl, .rfl, .rfl, .rfl, .rfl, .rfl, .rfl, hpre10 c, (hpost10 c).trans (hpre11 c), hpost11 c, sep_mono .rfl (rest_owes c)⟩)
    (hinit := ?_)
    (QY := fun c s => ∀ b ∈ Pipeline.ucRefs τ sig, s.mem (((c : Thread nD τ)).1, b) = V73 m outs c b)
    (hfin := fun c s' => ?_) (hQ := fun _ h => h)
  · -- the launch element is the pipeline library's; no ghost resource per core
    rw [BI.bigSep_emp_const]
    have hown : (ownU (initOf (Pipeline.cells cfgs cellOf_inj) (Pipeline.launchToks cfgs cellOf_inj)) : sProp 𝕄)
        ⊢ BI.own (emb₁ (initOf (Pipeline.cells (Pipeline.pin (pcfgs (F := F)) adm) cellOf_inj)
            (Pipeline.launchToks (Pipeline.pin (pcfgs (F := F)) adm) cellOf_inj))) := .rfl
    iintro Hu
    imodintro
    isplitl [Hu]
    · iapply hown; iexact Hu
    · iempintro
  · -- the launch: on each core the unscoped buffers at the launch contents, the generator register, nothing owed
    refine Pipeline.initEach L lv fun c => ?_
    have e : (unscopedBufs c (fun b => m ((c : Thread nD τ).loc b)) : sProp 𝕄)
        = StableHlo.held (c : Thread nD τ) (Pipeline.ucRefs τ sig) (V0 m c) := Pipeline.unscopedBufs_held c (V0 m c)
    rw [e]
    iintro ⟨⟨Hheld, -, Howes, -, Hprng, -⟩, -⟩
    imodintro
    isplitl [Hheld]; · iexact Hheld
    isplitl [Hprng]
    · iexists _; iexact Hprng
    · iexists ∅; iexact Howes
  · -- the end: every unscoped buffer read off the last valuation
    unfold StableHlo.held
    exact (pointsTo_read_all (Pipeline.ucRefs τ sig) (fun b => (((c : Thread nD τ)).1, b)) (V73 m outs c) s').trans fupd_intro

end Cert.KernelIdeal.Hand

end
-- ==== Proof.KI.Outs.lean ====
/-
  The contents the twelve regions leave, pinned. Between two items of the program a core holds its unscoped buffers at a
  valuation written over unknowns `outs`, which it reads at twelve points only: region k's result array at the item after
  the region. Given, per region, what it leaves in its result array as a function of the contents it is entered from,
  there is one `outs` at which each of the twelve points holds its region's result computed from the entry contents AT THAT
  SAME `outs`: the k-th value is computed over the first k values, and those are all that the k-th entry contents read.
-/
import proofs.«130096_j52458730553647_1_alg».proof.Proof.KernelIdealRegions

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- Contents of a TensorCore's buffers, per core: what a region is entered from. -/
abbrev Entry (F : FTy → Type) : Type := (c : Dev nD) → (b : Ref sig .tc) → Buf (Elt F) ((c : Thread nD τ).loc b)

/-- Region `k`'s result array. -/
def resRef : Fin 12 → Ref sig .tc
  | ⟨0, _⟩ => main_v39 | ⟨1, _⟩ => main_v40 | ⟨2, _⟩ => main_v51 | ⟨3, _⟩ => main_v52
  | ⟨4, _⟩ => main_v90 | ⟨5, _⟩ => main_v91 | ⟨6, _⟩ => main_v100 | ⟨7, _⟩ => main_v101
  | ⟨8, _⟩ => main_v135 | ⟨9, _⟩ => main_v136 | ⟨10, _⟩ => main_v145 | ⟨11, _⟩ => main_v146

/-- The item after region `k`: the point at which its result array is read. -/
def exitAt : Fin 12 → ℕ
  | ⟨0, _⟩ => 12 | ⟨1, _⟩ => 13 | ⟨2, _⟩ => 23 | ⟨3, _⟩ => 24 | ⟨4, _⟩ => 36 | ⟨5, _⟩ => 37
  | ⟨6, _⟩ => 47 | ⟨7, _⟩ => 48 | ⟨8, _⟩ => 60 | ⟨9, _⟩ => 61 | ⟨10, _⟩ => 71 | ⟨11, _⟩ => 72

/-- The twelve result arrays are distinct. -/
theorem resRef_inj : Function.Injective resRef := by decide

variable (m : (ℓ : Loc nD τ sig) → Buf (Elt F) ℓ)

/-- The contents region `k` is entered from, over the unknowns `o`. -/
def entryV (o : Outs (F := F)) (c : Dev nD) : Fin 12 → Valuation τ sig (Elt F)
  | ⟨0, _⟩ => V11 m c | ⟨1, _⟩ => V12 m o c | ⟨2, _⟩ => V22 m o c | ⟨3, _⟩ => V23 m o c
  | ⟨4, _⟩ => V35 m o c | ⟨5, _⟩ => V36 m o c | ⟨6, _⟩ => V46 m o c | ⟨7, _⟩ => V47 m o c
  | ⟨8, _⟩ => V59 m o c | ⟨9, _⟩ => V60 m o c | ⟨10, _⟩ => V70 m o c | ⟨11, _⟩ => V71 m o c

/-- The same, read at the TensorCore's references. -/
abbrev entryAt (o : Outs (F := F)) (k : Fin 12) : Entry F := fun c b => entryV m o c k b

/-- Two families of unknowns agree, on core `c`, at the points of the first `n` regions. -/
def AgreeOn (n : ℕ) (o o' : Outs (F := F)) (c : Dev nD) : Prop :=
  ∀ j : Fin 12, j.val < n → o (exitAt j) (resRef j) c = o' (exitAt j) (resRef j) c

theorem AgreeOn.mono {n n' : ℕ} {o o' : Outs (F := F)} {c : Dev nD} (h : AgreeOn n' o o' c) (hn : n ≤ n') : AgreeOn n o o' c :=
  fun j hj => h j (Nat.lt_of_lt_of_le hj hn)

theorem AgreeOn.symm {n : ℕ} {o o' : Outs (F := F)} {c : Dev nD} (h : AgreeOn n o o' c) : AgreeOn n o' o c :=
  fun j hj => (h j hj).symm

/-! ## A valuation between items reads the unknowns only at the points of the regions before it -/

section Congr
variable {o o' : Outs (F := F)} (c : Dev nD)

theorem V12_congr (h : AgreeOn 1 o o' c) : V12 m o c = V12 m o' c := by
  have h0 : o 12 main_v39 c = o' 12 main_v39 c := h 0 (by decide)
  show Function.update (V11 m c) main_v39 (o 12 main_v39 c) = Function.update (V11 m c) main_v39 (o' 12 main_v39 c)
  rw [h0]

theorem V13_congr (h : AgreeOn 2 o o' c) : V13 m o c = V13 m o' c := by
  have e := V12_congr m c (h.mono (by decide))
  have h1 : o 13 main_v40 c = o' 13 main_v40 c := h 1 (by decide)
  show Function.update (V12 m o c) main_v40 (o 13 main_v40 c) = Function.update (V12 m o' c) main_v40 (o' 13 main_v40 c)
  rw [e, h1]

theorem V22_congr (h : AgreeOn 2 o o' c) : V22 m o c = V22 m o' c :=
  congrArg (StableHlo.after hostOps2_8) <| congrArg (StableHlo.after hostOps2_7) <| congrArg (StableHlo.after hostOps2_6) <|
    congrArg (StableHlo.after hostOps2_5) <| congrArg (StableHlo.after hostOps2_4) <| congrArg (StableHlo.after hostOps2_3) <|
    congrArg (StableHlo.after hostOps2_2) <| congrArg (StableHlo.after hostOps2_1) <| congrArg (StableHlo.after hostOps2) (V13_congr m c h)

theorem V23_congr (h : AgreeOn 3 o o' c) : V23 m o c = V23 m o' c := by
  have e := V22_congr m c (h.mono (by decide))
  have h2 : o 23 main_v51 c = o' 23 main_v51 c := h 2 (by decide)
  show Function.update (V22 m o c) main_v51 (o 23 main_v51 c) = Function.update (V22 m o' c) main_v51 (o' 23 main_v51 c)
  rw [e, h2]

theorem V24_congr (h : AgreeOn 4 o o' c) : V24 m o c = V24 m o' c := by
  have e := V23_congr m c (h.mono (by decide))
  have h3 : o 24 main_v52 c = o' 24 main_v52 c := h 3 (by decide)
  show Function.update (V23 m o c) main_v52 (o 24 main_v52 c) = Function.update (V23 m o' c) main_v52 (o' 24 main_v52 c)
  rw [e, h3]

theorem V35_congr (h : AgreeOn 4 o o' c) : V35 m o c = V35 m o' c :=
  congrArg (StableHlo.after hostOps4_10) <| congrArg (StableHlo.after hostOps4_9) <| congrArg (StableHlo.after hostOps4_8) <|
    congrArg (StableHlo.after hostOps4_7) <| congrArg (StableHlo.after hostOps4_6) <| congrArg (StableHlo.after hostOps4_5) <|
    congrArg (StableHlo.after hostOps4_4) <| congrArg (StableHlo.after hostOps4_3) <| congrArg (StableHlo.after hostOps4_2) <|
    congrArg (StableHlo.after hostOps4_1) <| congrArg (StableHlo.after hostOps4) (V24_congr m c h)

theorem V36_congr (h : AgreeOn 5 o o' c) : V36 m o c = V36 m o' c := by
  have e := V35_congr m c (h.mono (by decide))
  have h4 : o 36 main_v90 c = o' 36 main_v90 c := h 4 (by decide)
  show Function.update (V35 m o c) main_v90 (o 36 main_v90 c) = Function.update (V35 m o' c) main_v90 (o' 36 main_v90 c)
  rw [e, h4]

theorem V37_congr (h : AgreeOn 6 o o' c) : V37 m o c = V37 m o' c := by
  have e := V36_congr m c (h.mono (by decide))
  have h5 : o 37 main_v91 c = o' 37 main_v91 c := h 5 (by decide)
  show Function.update (V36 m o c) main_v91 (o 37 main_v91 c) = Function.update (V36 m o' c) main_v91 (o' 37 main_v91 c)
  rw [e, h5]

theorem V46_congr (h : AgreeOn 6 o o' c) : V46 m o c = V46 m o' c :=
  congrArg (StableHlo.after hostOps6_8) <| congrArg (StableHlo.after hostOps6_7) <| congrArg (StableHlo.after hostOps6_6) <|
    congrArg (StableHlo.after hostOps6_5) <| congrArg (StableHlo.after hostOps6_4) <| congrArg (StableHlo.after hostOps6_3) <|
    congrArg (StableHlo.after hostOps6_2) <| congrArg (StableHlo.after hostOps6_1) <| congrArg (StableHlo.after hostOps6) (V37_congr m c h)

theorem V47_congr (h : AgreeOn 7 o o' c) : V47 m o c = V47 m o' c := by
  have e := V46_congr m c (h.mono (by decide))
  have h6 : o 47 main_v100 c = o' 47 main_v100 c := h 6 (by decide)
  show Function.update (V46 m o c) main_v100 (o 47 main_v100 c) = Function.update (V46 m o' c) main_v100 (o' 47 main_v100 c)
  rw [e, h6]

theorem V48_congr (h : AgreeOn 8 o o' c) : V48 m o c = V48 m o' c := by
  have e := V47_congr m c (h.mono (by decide))
  have h7 : o 48 main_v101 c = o' 48 main_v101 c := h 7 (by decide)
  show Function.update (V47 m o c) main_v101 (o 48 main_v101 c) = Function.update (V47 m o' c) main_v101 (o' 48 main_v101 c)
  rw [e, h7]

theorem V59_congr (h : AgreeOn 8 o o' c) : V59 m o c = V59 m o' c :=
  congrArg (StableHlo.after hostOps8_10) <| congrArg (StableHlo.after hostOps8_9) <| congrArg (StableHlo.after hostOps8_8) <|
    congrArg (StableHlo.after hostOps8_7) <| congrArg (StableHlo.after hostOps8_6) <| congrArg (StableHlo.after hostOps8_5) <|
    congrArg (StableHlo.after hostOps8_4) <| congrArg (StableHlo.after hostOps8_3) <| congrArg (StableHlo.after hostOps8_2) <|
    congrArg (StableHlo.after hostOps8_1) <| congrArg (StableHlo.after hostOps8) (V48_congr m c h)

theorem V60_congr (h : AgreeOn 9 o o' c) : V60 m o c = V60 m o' c := by
  have e := V59_congr m c (h.mono (by decide))
  have h8 : o 60 main_v135 c = o' 60 main_v135 c := h 8 (by decide)
  show Function.update (V59 m o c) main_v135 (o 60 main_v135 c) = Function.update (V59 m o' c) main_v135 (o' 60 main_v135 c)
  rw [e, h8]

theorem V61_congr (h : AgreeOn 10 o o' c) : V61 m o c = V61 m o' c := by
  have e := V60_congr m c (h.mono (by decide))
  have h9 : o 61 main_v136 c = o' 61 main_v136 c := h 9 (by decide)
  show Function.update (V60 m o c) main_v136 (o 61 main_v136 c) = Function.update (V60 m o' c) main_v136 (o' 61 main_v136 c)
  rw [e, h9]

theorem V70_congr (h : AgreeOn 10 o o' c) : V70 m o c = V70 m o' c :=
  congrArg (StableHlo.after hostOps10_8) <| congrArg (StableHlo.after hostOps10_7) <| congrArg (StableHlo.after hostOps10_6) <|
    congrArg (StableHlo.after hostOps10_5) <| congrArg (StableHlo.after hostOps10_4) <| congrArg (StableHlo.after hostOps10_3) <|
    congrArg (StableHlo.after hostOps10_2) <| congrArg (StableHlo.after hostOps10_1) <| congrArg (StableHlo.after hostOps10) (V61_congr m c h)

theorem V71_congr (h : AgreeOn 11 o o' c) : V71 m o c = V71 m o' c := by
  have e := V70_congr m c (h.mono (by decide))
  have h10 : o 71 main_v145 c = o' 71 main_v145 c := h 10 (by decide)
  show Function.update (V70 m o c) main_v145 (o 71 main_v145 c) = Function.update (V70 m o' c) main_v145 (o' 71 main_v145 c)
  rw [e, h10]

end Congr

/-- A valuation a region is entered from reads the unknowns only at the points of the regions before it. -/
theorem entryV_congr {o o' : Outs (F := F)} (c : Dev nD) (k : Fin 12) (h : AgreeOn k.val o o' c) : entryV m o c k = entryV m o' c k := by
  match k, h with
  | ⟨0, _⟩, _ => rfl
  | ⟨1, _⟩, h => exact V12_congr m c h
  | ⟨2, _⟩, h => exact V22_congr m c h
  | ⟨3, _⟩, h => exact V23_congr m c h
  | ⟨4, _⟩, h => exact V35_congr m c h
  | ⟨5, _⟩, h => exact V36_congr m c h
  | ⟨6, _⟩, h => exact V46_congr m c h
  | ⟨7, _⟩, h => exact V47_congr m c h
  | ⟨8, _⟩, h => exact V59_congr m c h
  | ⟨9, _⟩, h => exact V60_congr m c h
  | ⟨10, _⟩, h => exact V70_congr m c h
  | ⟨11, _⟩, h => exact V71_congr m c h

/-! ## The pinned unknowns -/

/-- What region `k` leaves in its result array on each core, as a function of the contents it is entered from. -/
abbrev Res (F : FTy → Type) : Type := (k : Fin 12) → Entry F → (c : Dev nD) → Buf (Elt F) ((c : Thread nD τ).loc (resRef k))

variable (res : Res F)

/-- The unknowns with the first `n` regions' points set, over the launch contents: region `n`'s value is computed from its
    entry contents over the first `n` values. (The item index is not read: a result array holds its value at every item.) -/
def stage : ℕ → Outs (F := F)
  | 0 => fun _ r c => m (c, r)
  | n + 1 => if h : n < 12 then fun J => Function.update (stage n J) (resRef ⟨n, h⟩) (res ⟨n, h⟩ (entryAt m (stage n) ⟨n, h⟩)) else stage n

/-- One more point set: the unknowns with `n + 1` points set, spelt out. -/
theorem stage_succ (n : ℕ) (h : n < 12) :
    stage m res (n + 1) = fun J => Function.update (stage m res n J) (resRef ⟨n, h⟩) (res ⟨n, h⟩ (entryAt m (stage m res n) ⟨n, h⟩)) := by
  rw [stage, dif_pos h]

/-- Setting region `n`'s point leaves the earlier regions' points as they were: the result arrays are distinct. -/
theorem stage_agree_succ (n : ℕ) (c : Dev nD) : AgreeOn n (stage m res (n + 1)) (stage m res n) c := by
  intro j hj
  by_cases h : n < 12
  · rw [stage_succ m res n h]
    show Function.update (stage m res n (exitAt j)) (resRef ⟨n, h⟩) (res ⟨n, h⟩ (entryAt m (stage m res n) ⟨n, h⟩)) (resRef j) c = _
    rw [Function.update_of_ne fun e => Nat.ne_of_lt hj (congrArg Fin.val (resRef_inj e))]
  · rw [stage, dif_neg h]

/-- Later stages keep the first `n` regions' points. -/
theorem stage_agree (n k : ℕ) (hk : n ≤ k) (c : Dev nD) : AgreeOn n (stage m res k) (stage m res n) c := by
  induction k, hk using Nat.le_induction with
  | base => exact fun _ _ => rfl
  | succ k hk ih => exact fun j hj => (((stage_agree_succ m res k c).mono hk) j hj).trans (ih j hj)

/-- Region `n`'s point, once set, holds its result from the entry contents over the first `n` values. -/
theorem stage_succ_self (n : ℕ) (h : n < 12) (J : ℕ) (c : Dev nD) :
    stage m res (n + 1) J (resRef ⟨n, h⟩) c = res ⟨n, h⟩ (entryAt m (stage m res n) ⟨n, h⟩) c := by
  rw [stage_succ m res n h]
  show Function.update (stage m res n J) (resRef ⟨n, h⟩) (res ⟨n, h⟩ (entryAt m (stage m res n) ⟨n, h⟩)) (resRef ⟨n, h⟩) c = _
  rw [Function.update_self]

/-- The pinned unknowns: all twelve points set. -/
def pinned : Outs (F := F) := stage m res 12

/-- At the item after region `k` its result array holds what the region leaves from its entry contents over the SAME unknowns:
    the value was computed over the first `k` points, the later stages keep it and them, and the entry contents read no other. -/
theorem pinned_exit (k : Fin 12) (c : Dev nD) :
    pinned m res (exitAt k) (resRef k) c = res k (entryAt m (pinned m res) k) c := by
  have hentry : entryAt m (stage m res k.val) k = entryAt m (pinned m res) k :=
    funext fun c' => funext fun b =>
      congrFun (entryV_congr m c' k (stage_agree m res k.val 12 (Nat.le_of_lt k.isLt) c').symm) b
  calc pinned m res (exitAt k) (resRef k) c
      = stage m res (k.val + 1) (exitAt k) (resRef k) c := stage_agree m res (k.val + 1) 12 k.isLt c k (Nat.lt_succ_self _)
    _ = res k (entryAt m (stage m res k.val) k) c := stage_succ_self m res k.val k.isLt (exitAt k) c
    _ = res k (entryAt m (pinned m res) k) c := by rw [hentry]

end Cert.KernelIdeal.Hand

end
-- ==== Proof.KI.Sched0.lean ====
/-
  The schedule of this gather launch, by arithmetic. The grid is 391 x 147 with the second axis
  innermost, so point t has first coordinate t / 147 % 391. The result window's block index depends on the first
  coordinate only; it therefore changes between t and t + 1 exactly when t is the last of its run of 147
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid0.stride 0 = 147 := by decide

/-- The result window's block index at point `t`: the first coordinate, then zeros. -/
private theorem index_out (t : Fin grid0.N) : win0_3.index t = ![t.val / 147 % 391, 0, 0] := by
  have h : (BitVec.ofNat 32 (t.val / 147 % 391)).toNat = t.val / 147 % 391 := by
    rw [BitVec.toNat_ofNat]; omega
  show cc0_transform_3 (grid0.coords t) = _
  unfold cc0_transform_3 Pipeline.Grid.coords
  simp only [stride_outer]
  show ![(BitVec.ofNat 32 (t.val / 147 % 391)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid0.N) :
    win0_3.index s ≠ win0_3.index t ↔ s.val / 147 % 391 ≠ t.val / 147 % 391 := by
  rw [index_out, index_out]; exact vec_ne _ _

/-- Window 3 (the result) is written back at the points ≡ 146 (mod 147): the last point of each run of 147 points
    sharing the first coordinate, the grid's last point among them. -/
theorem flush0_3 : ∀ t : Fin cfg0.N, (cfg0.win 3).flush t = true ↔ t.val % 147 = 146 := by
  intro t
  have hN : grid0.N = 57477 := N_0
  have hN' : cfg0.N = 57477 := N_0
  have ht : t.val < 57477 := lt_of_lt_of_eq t.isLt hN
  show win0_3.flush t = true ↔ _
  unfold Pipeline.Window.flush
  have hout : win0_3.isOut = true := rfl
  rw [hout, Bool.true_and, Bool.or_eq_true, decide_eq_true_eq, decide_eq_true_eq]
  constructor
  · rintro (h | ⟨h, hne⟩)
    · omega
    · have hq : (t.val + 1) / 147 % 391 ≠ t.val / 147 % 391 := (index_ne ⟨t.val + 1, h⟩ t).1 hne
      omega
  · intro h
    by_cases hl : t.val + 1 = grid0.N
    · exact Or.inl hl
    · have hlt : t.val + 1 < grid0.N := by omega
      have hq : (t.val + 1) / 147 % 391 ≠ t.val / 147 % 391 := by omega
      exact Or.inr ⟨hlt, (index_ne ⟨t.val + 1, hlt⟩ t).2 hq⟩

/-- The current staging memref of each window at point `t`: which of its buffers it is on. -/
abbrev st0_0 (t : Fin cfg0.N) := (cfg0.win 0).stage (cfg0.slots t 0)
abbrev st0_1 (t : Fin cfg0.N) := (cfg0.win 1).stage (cfg0.slots t 1)
abbrev st0_2 (t : Fin cfg0.N) := (cfg0.win 2).stage (cfg0.slots t 2)
abbrev st0_3 (t : Fin cfg0.N) := (cfg0.win 3).stage (cfg0.slots t 3)

/-- The kernel body at point `t`, on what the pipeline calls it with (`defs₀`'s row at the slots). -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _)

end Cert.KernelIdeal.Hand.Sched
-- ==== Proof.KI.R0.lean ====
/-
  Region 0 of the program (the gather launch of the first propagation step), on any contents `V` of the unscoped
  buffers at its entry. Grid (391 edge chunks) x (147 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched0
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand.R0

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The chunk's column indices, the chunk's edge weights and the node tile's feature rows at point `t`, at their literal types. -/
abbrev colsBlk (c : Dev nD) (t : Fin cfg0.N) : Vec F S1x1x8192 .i32 := iblk V c 0 t
abbrev valsBlk (c : Dev nD) (t : Fin cfg0.N) : Vec F S1x1x8192 .f32 := iblk V c 1 t
abbrev featBlk (c : Dev nD) (t : Fin cfg0.N) : Vec F S1024x64 .f32 := iblk V c 2 t

/-- The accumulator after the body at point `t`, from the accumulator `a` before it: reset first when the point is a
    chunk's first tile. -/
def accStep (c : Dev nD) (t : Fin cfg0.N) (a : Vec F S8192x64 .f32) : Vec F S8192x64 .f32 :=
  k0_pay2 (grid0.coords t) (colsBlk V c t) (featBlk V c t) (if t.val % 147 = 0 then k0_pay1 else a)

/-- The accumulator before point `n` (after point `n - 1`). -/
def accAt (c : Dev nD) : ℕ → Vec F S8192x64 .f32
  | 0 => k0_pay1
  | n + 1 => if h : n < cfg0.N then accStep V c ⟨n, h⟩ (accAt c n) else k0_pay1

/-- The accumulator's buffer (the launch's scratch operand), whole. -/
abbrev accRef : Memref sig .tc .vmem S8192x64 .f32 := Memref.whole cc0_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (valsBlk V c t) (accAt V c (t.val + 1))
  Φ t := iprop((∃ a : Vec F S8192x64 .f32, owns (c : Thread nD τ) accRef fullShare a ∗ ⌜t.val % 147 ≠ 0 → a = accAt V c t.val⌝)
    ∗ Pipeline.scopedRestBut (Ix := Unit) (Name := ℕ) (U := UR sig nD τ) (Lvl := ℕ) (Val := Elt F) spec0 c [cc0_scratch0])
  q _ := fullShare
  owed _ := 0

theorem A_eq (c : Dev nD) (w : Fin cfg0.W) : (dat V c).A w = V c (Pipeline.arrRef spec0 w) := by
  dsimp only [dat]

theorem after_out (c : Dev nD) (t : Fin cfg0.N) :
    (dat V c).after 3 t = k0_pay3 (valsBlk V c t) (accAt V c (t.val + 1)) := by dsimp only [dat]

/-! ## The accumulator's recursion -/

/-- One step of the recursion at a grid point. -/
theorem accAt_succ (c : Dev nD) (t : Fin cfg0.N) : accAt V c (t.val + 1) = accStep V c t (accAt V c t.val) := by
  rw [accAt, dif_pos t.isLt]

/-- The invariant at any point, its conjuncts written out. -/
theorem Φ_eq (c : Dev nD) (u : Fin (cfg0.N + 1)) :
    (dat V c).Φ u = iprop((∃ a : Vec F S8192x64 .f32, owns (c : Thread nD τ) accRef fullShare a ∗ ⌜u.val % 147 ≠ 0 → a = accAt V c u.val⌝)
      ∗ Pipeline.scopedRestBut (Ix := Unit) (Name := ℕ) (U := UR sig nD τ) (Lvl := ℕ) (Val := Elt F) spec0 c [cc0_scratch0]) := by
  dsimp only [dat]

theorem after_cols (c : Dev nD) (t : Fin cfg0.N) : (dat V c).after 0 t = iblk V c 0 t := by dsimp only [dat]
theorem after_vals (c : Dev nD) (t : Fin cfg0.N) : (dat V c).after 1 t = iblk V c 1 t := by dsimp only [dat]
theorem after_feat (c : Dev nD) (t : Fin cfg0.N) : (dat V c).after 2 t = iblk V c 2 t := by dsimp only [dat]

/-! ## The body's two conditionals, over the grid -/

/-- The first conditional (the accumulator is reset), as the body computes it from the tile coordinate. -/
abbrev isFirst (i : grid0.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg0.N) : ((grid0.coords t) 1).val = t.val % 147 := by
  show t.val / grid0.stride 1 % grid0.bound 1 = t.val % 147
  rw [show grid0.stride 1 = 1 from by decide, Nat.div_one]
  rfl

/-- It holds exactly at a chunk's first tile. -/
theorem isFirst_iff (t : Fin cfg0.N) : isFirst (grid0.coords t) ↔ t.val % 147 = 0 := by
  show Scalar.cmpi .ne (Scalar.extui (Scalar.cmpi .eq (BitVec.ofNat 32 ((grid0.coords t) 1).val) 0#32)) 0#32 = 1#1 ↔ _
  rw [tile_coord t]
  exact tileTest_iff (t.val % 147) 0 (by omega) (by decide)

/-- The second conditional (the result block is stored) holds exactly at a chunk's last tile. -/
theorem isLast_iff (t : Fin cfg0.N) : k0_cond2 (grid0.coords t) = 1#1 ↔ t.val % 147 = 146 := by
  show Scalar.cmpi .ne (Scalar.extui (Scalar.cmpi .eq (BitVec.ofNat 32 ((grid0.coords t) 1).val) 146#32)) 0#32 = 1#1 ↔ _
  rw [tile_coord t]
  exact tileTest_iff (t.val % 147) 146 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg0 c) (hA : D.A 0 = V c (Pipeline.arrRef spec0 0))
    (hafter : ∀ t, D.after 0 t = iblk V c 0 t) (t : Fin cfg0.N) (d) : D.before 0 t d = iblk V c 0 t := by
  have hkeep : ∀ u, (cfg0.win 0).cut (cfg0.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg0 c) (hA : D.A 1 = V c (Pipeline.arrRef spec0 1))
    (hafter : ∀ t, D.after 1 t = iblk V c 1 t) (t : Fin cfg0.N) (d) : D.before 1 t d = iblk V c 1 t := by
  have hkeep : ∀ u, (cfg0.win 1).cut (cfg0.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg0 c) (hA : D.A 2 = V c (Pipeline.arrRef spec0 2))
    (hafter : ∀ t, D.after 2 t = iblk V c 2 t) (t : Fin cfg0.N) (d) : D.before 2 t d = iblk V c 2 t := by
  have hkeep : ∀ u, (cfg0.win 2).cut (cfg0.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg0.N) (d) : (dat V c).before 0 t d = iblk V c 0 t :=
  before_cols_of V (dat V c) (A_eq V c 0) (after_cols V c) t d
theorem before_vals (c : Dev nD) (t : Fin cfg0.N) (d) : (dat V c).before 1 t d = iblk V c 1 t :=
  before_vals_of V (dat V c) (A_eq V c 1) (after_vals V c) t d
theorem before_feat (c : Dev nD) (t : Fin cfg0.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid0.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k0_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k0_pay2 i xc xf a)) -∗ K ⟨⟩))
      ⊢ wp frame (wpE (defs₀ (F := F)) Variants.none c none) E (cc0__gather_kernel i mc hmc mv hmv mf hmf mo hmo ma hma) K := by
  simp only [cc0__gather_kernel_eq_skeleton]; unfold cc0__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid0.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k0_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k0_pay2 i xc xf k0_pay1)) -∗ K ⟨⟩))
      ⊢ wp frame (wpE (defs₀ (F := F)) Variants.none c none) E (cc0__gather_kernel i mc hmc mv hmv mf hmf mo hmo ma hma) K := by
  simp only [cc0__gather_kernel_eq_skeleton]; unfold cc0__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k0_pay2 i xc xf) (View.readCov_cons_toLoadRect ma.view _ _ _)

/-- A chunk's last tile: the accumulator takes the tile's product, and the result's staging buffer, whatever it held,
    takes the accumulator's rows scaled by the edge weights. -/
theorem runLast (c : Dev nD) (i : grid0.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k0_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k0_pay3 xv (k0_pay2 i xc xf a))
            ∗ owns (c : Thread nD τ) ma fullShare (k0_pay2 i xc xf a)) -∗ K ⟨⟩))
      ⊢ wp frame (wpE (defs₀ (F := F)) Variants.none c none) E (cc0__gather_kernel i mc hmc mv hmv mf hmf mo hmo ma hma) K := by
  simp only [cc0__gather_kernel_eq_skeleton]; unfold cc0__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k0_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg0.N) : cfg0.idle 3 (cfg0.grid.coords t) = !(k0_cond2 (grid0.coords t) == 1#1) := rfl

theorem idle_of_not_last (t : Fin cfg0.N) (h : ¬t.val % 147 = 146) : cfg0.idle 3 (cfg0.grid.coords t) = true := by
  rw [idle_out, beq_eq_false_iff_ne.mpr fun e => h ((isLast_iff t).mp e)]; rfl

theorem live_of_last (t : Fin cfg0.N) (h : t.val % 147 = 146) : cfg0.idle 3 (cfg0.grid.coords t) = false := by
  rw [idle_out, (isLast_iff t).mpr h]; rfl

/-- At a live point the result's staging buffer is left at what the proof data names. -/
theorem leavesExact_live (c : Dev nD) (t : Fin cfg0.N) (hi : cfg0.idle 3 (cfg0.grid.coords t) = false) :
    ((dat V c).leavesExact 3 t : sProp 𝕄)
      = owns (c : Thread nD τ) ((cfg0.win 3).stage (cfg0.slots t 3)) fullShare ((dat V c).after 3 t) := by
  unfold Dat.leavesExact; rw [hi]

/-! ## The body obligation, at a generic point -/

/-- The staging buffers the body is called with at point `t`, at their literal types, and their wholeness. -/
abbrev mCols (t : Fin cfg0.N) : Memref sig .tc .vmem S1x1x8192 .i32 := win0_0.stage (cfg0.slots t 0)
abbrev hCols (t : Fin cfg0.N) : (mCols t).IsWhole := hstage0_0 ((cfg0.slots t 0).cast nbuf0_0)
abbrev mVals (t : Fin cfg0.N) : Memref sig .tc .vmem S1x1x8192 .f32 := win0_1.stage (cfg0.slots t 1)
abbrev hVals (t : Fin cfg0.N) : (mVals t).IsWhole := hstage0_1 ((cfg0.slots t 1).cast nbuf0_1)
abbrev mFeat (t : Fin cfg0.N) : Memref sig .tc .vmem S1024x64 .f32 := win0_2.stage (cfg0.slots t 2)
abbrev hFeat (t : Fin cfg0.N) : (mFeat t).IsWhole := hstage0_2 ((cfg0.slots t 2).cast nbuf0_2)
abbrev mOut (t : Fin cfg0.N) : Memref sig .tc .vmem S1x8192x64 .f32 := win0_3.stage (cfg0.slots t 3)
abbrev hOut (t : Fin cfg0.N) : (mOut t).IsWhole := hstage0_3 ((cfg0.slots t 3).cast nbuf0_3)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 147 = 0
  · have hl : ¬t.val % 147 = 146 := by omega
    have hfl : (cfg0.win 3).flush t = false := Bool.eq_false_iff.mpr fun h => hl ((flush0_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid0.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 147 = 146
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid0.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg0.win 3).flush t = false := Bool.eq_false_iff.mpr fun h => hl ((flush0_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid0.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec0 c : sProp 𝕄) ⊢ (dat V c).Φ 0 := by
  rw [scopedRest0_split, Φ_eq]
  refine sep_mono ?_ .rfl
  iintro ⟨%f, H⟩
  iexists f
  isplitl [H]
  · rw [owns_whole]; iexact H
  · ipureintro; intro h; exact absurd (Nat.zero_mod 147) h

/-- The invariant at the last point gives those buffers back. -/
theorem Φ_out (c : Dev nD) :
    (dat V c).Φ (Fin.last cfg0.N) ⊢ (Pipeline.scopedRest (Ix := Unit) (Name := ℕ) (U := UR sig nD τ) (Lvl := ℕ) (Val := Elt F) spec0 c : sProp 𝕄) := by
  rw [scopedRest0_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Hand.R0

end
-- ==== Proof.KI.Sched1.lean ====
/-
  The schedule of this scatter launch, by arithmetic. The grid is 147 x 391 with the second axis
  innermost, so point t has first coordinate t / 391 % 147. The result window's block index depends on the first
  coordinate only; it therefore changes between t and t + 1 exactly when t is the last of its run of 391
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid1.stride 0 = 391 := by decide

/-- The result window's block index at point `t`: the first coordinate, then zero. -/
private theorem index_out (t : Fin grid1.N) : win1_2.index t = ![t.val / 391 % 147, 0] := by
  have h : (BitVec.ofNat 32 (t.val / 391 % 147)).toNat = t.val / 391 % 147 := by
    rw [BitVec.toNat_ofNat]; omega
  show cc1_transform_2 (grid1.coords t) = _
  unfold cc1_transform_2 Pipeline.Grid.coords
  simp only [stride_outer]
  show ![(BitVec.ofNat 32 (t.val / 391 % 147)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid1.N) :
    win1_2.index s ≠ win1_2.index t ↔ s.val / 391 % 147 ≠ t.val / 391 % 147 := by
  rw [index_out, index_out]; exact vec_ne _ _

/-- Window 2 (the result) is written back at the points ≡ 390 (mod 391): the last point of each run of 391 points
    sharing the first coordinate, the grid's last point among them. -/
theorem flush1_2 : ∀ t : Fin cfg1.N, (cfg1.win 2).flush t = true ↔ t.val % 391 = 390 := by
  intro t
  have hN : grid1.N = 57477 := N_1
  have hN' : cfg1.N = 57477 := N_1
  have ht : t.val < 57477 := lt_of_lt_of_eq t.isLt hN
  show win1_2.flush t = true ↔ _
  unfold Pipeline.Window.flush
  have hout : win1_2.isOut = true := rfl
  rw [hout, Bool.true_and, Bool.or_eq_true, decide_eq_true_eq, decide_eq_true_eq]
  constructor
  · rintro (h | ⟨h, hne⟩)
    · omega
    · have hq : (t.val + 1) / 391 % 147 ≠ t.val / 391 % 147 := (index_ne ⟨t.val + 1, h⟩ t).1 hne
      omega
  · intro h
    by_cases hl : t.val + 1 = grid1.N
    · exact Or.inl hl
    · have hlt : t.val + 1 < grid1.N := by omega
      have hq : (t.val + 1) / 391 % 147 ≠ t.val / 391 % 147 := by omega
      exact Or.inr ⟨hlt, (index_ne ⟨t.val + 1, hlt⟩ t).2 hq⟩

/-- The current staging memref of each window at point `t`: which of its buffers it is on. -/
abbrev st1_0 (t : Fin cfg1.N) := (cfg1.win 0).stage (cfg1.slots t 0)
abbrev st1_1 (t : Fin cfg1.N) := (cfg1.win 1).stage (cfg1.slots t 1)
abbrev st1_2 (t : Fin cfg1.N) := (cfg1.win 2).stage (cfg1.slots t 2)

/-- The kernel body at point `t`, on what the pipeline calls it with (`defs₀`'s row at the slots). -/
abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

end Cert.KernelIdeal.Hand.Sched
-- ==== Proof.KI.R1.lean ====
/-
  Region 1 of the program (the scatter launch of the first propagation step), on any contents `V` of the unscoped
  buffers at its entry. Grid (147 node tiles) x (391 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched1
import Idealize.ShloMosaic.Lib.Pipeline.FrameBody
import Idealize.ShloMosaic.Lib.Pipeline.Frame
import Idealize.ShloMosaic.Lib.Tactic

set_option maxRecDepth 16384

noncomputable section

namespace Cert.KernelIdeal.Hand.R1

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The chunk's row indices and the chunk's weighted gathered rows at point `t`, at their literal types. -/
abbrev rowsBlk (c : Dev nD) (t : Fin cfg1.N) : Vec F S1x1x8192 .i32 := iblk V c 0 t
abbrev wgBlk (c : Dev nD) (t : Fin cfg1.N) : Vec F S1x8192x64 .f32 := iblk V c 1 t

/-- The accumulator after the body at point `t`, from the accumulator `a` before it: reset first when the point is a
    tile's first chunk. -/
def accStep (c : Dev nD) (t : Fin cfg1.N) (a : Vec F S1024x64 .f32) : Vec F S1024x64 .f32 :=
  k1_pay2 (grid1.coords t) (rowsBlk V c t) (wgBlk V c t) (if t.val % 391 = 0 then k1_pay1 else a)

/-- The accumulator before point `n` (after point `n - 1`). -/
def accAt (c : Dev nD) : ℕ → Vec F S1024x64 .f32
  | 0 => k1_pay1
  | n + 1 => if h : n < cfg1.N then accStep V c ⟨n, h⟩ (accAt c n) else k1_pay1

/-- The accumulator's buffer (the launch's scratch operand), whole. -/
abbrev accRef : Memref sig .tc .vmem S1024x64 .f32 := Memref.whole cc1_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 391 ≠ 0 → a = accAt V c t.val⌝)
    ∗ Pipeline.scopedRestBut (Ix := Unit) (Name := ℕ) (U := UR sig nD τ) (Lvl := ℕ) (Val := Elt F) spec1 c [cc1_scratch0])
  q _ := fullShare
  owed _ := 0

theorem A_eq (c : Dev nD) (w : Fin cfg1.W) : (dat V c).A w = V c (Pipeline.arrRef spec1 w) := by
  dsimp only [dat]

theorem after_out (c : Dev nD) (t : Fin cfg1.N) :
    (dat V c).after 2 t = accAt V c (t.val + 1) := by dsimp only [dat]

/-! ## The invariant at the region's two ends -/

/-- The invariant at a point, written out. -/
theorem Φ_eq (c : Dev nD) (t : Fin (cfg1.N + 1)) :
    (dat V c).Φ t = iprop((∃ a : Vec F S1024x64 .f32, owns (c : Thread nD τ) accRef fullShare a ∗ ⌜t.val % 391 ≠ 0 → a = accAt V c t.val⌝)
      ∗ Pipeline.scopedRestBut (Ix := Unit) (Name := ℕ) (U := UR sig nD τ) (Lvl := ℕ) (Val := Elt F) spec1 c [cc1_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec1 c : sProp 𝕄) ⊢ (dat V c).Φ 0 := by
  rw [scopedRest1_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg1.N) ⊢ (Pipeline.scopedRest (Ix := Unit) (Name := ℕ) (U := UR sig nD τ) (Lvl := ℕ) (Val := Elt F) spec1 c : sProp 𝕄) := by
  rw [scopedRest1_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg1.N) : accAt V c (t.val + 1) = accStep V c t (accAt V c t.val) := by
  rw [accAt, dif_pos t.isLt]

/-- After a tile's first chunk the accumulator is that chunk's product added to zero, -/
theorem accAt_succ_first (c : Dev nD) (t : Fin cfg1.N) (h : t.val % 391 = 0) :
    accAt V c (t.val + 1) = k1_pay2 (grid1.coords t) (rowsBlk V c t) (wgBlk V c t) k1_pay1 := by
  rw [accAt_succ, accStep, if_pos h]

/-- after any other the chunk's product added to what it was. -/
theorem accAt_succ_next (c : Dev nD) (t : Fin cfg1.N) (h : ¬t.val % 391 = 0) :
    accAt V c (t.val + 1) = k1_pay2 (grid1.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid1.Coords) : Prop :=
  (Scalar.cmpi .ne (Scalar.extui (Scalar.cmpi .eq (BitVec.ofNat 32 (i 1).val) 0#32)) 0#32) = 1#1
/-- The condition of its second (the result's store). -/
abbrev condLast (i : grid1.Coords) : Prop := k1_cond2 i = 1#1

/-- The chunk coordinate of point `t`: the chunk is the innermost axis. -/
theorem chunk_val (t : Fin cfg1.N) : (grid1.coords t 1).val = t.val % 391 := by
  show t.val / grid1.stride 1 % grid1.bound 1 = t.val % 391
  rw [show grid1.stride 1 = 1 from by decide, Nat.div_one]
  rfl

/-- Both conditions read the chunk coordinate alone: decided over the 391 chunks. -/
theorem condFirst_iff (i : grid1.Coords) : condFirst i ↔ (i 1).val = 0 :=
  (by decide +kernel : ∀ j : Fin 391,
    (Scalar.cmpi .ne (Scalar.extui (Scalar.cmpi .eq (BitVec.ofNat 32 j.val) 0#32)) 0#32) = 1#1 ↔ j.val = 0) (i 1)
theorem condLast_iff (i : grid1.Coords) : condLast i ↔ (i 1).val = 390 :=
  (by decide +kernel : ∀ j : Fin 391,
    (Scalar.cmpi .ne (Scalar.extui (Scalar.cmpi .eq (BitVec.ofNat 32 j.val) 390#32)) 0#32) = 1#1 ↔ j.val = 390) (i 1)

/-- The reset runs at a tile's first chunk only, -/
theorem hcondFirst (t : Fin cfg1.N) : condFirst (grid1.coords t) ↔ t.val % 391 = 0 := by
  rw [condFirst_iff, chunk_val]
/-- and the result is stored at a tile's last chunk only. -/
theorem hcondLast (t : Fin cfg1.N) : condLast (grid1.coords t) ↔ t.val % 391 = 390 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid1.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k1_pay2 i x0 x1 k1_pay1)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid1.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k1_pay2 i x0 x1 a)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid1.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k1_pay2 i x0 x1 a)
            ∗ owns (c : Thread nD τ) arg5 fullShare (k1_pay2 i x0 x1 a)) -∗ K ⟨⟩))
      ⊢ wp frame (wpE (defs₀ (F := F)) Variants.none c none) E
          (cc1__scatter_kernel i arg2 harg2 arg3 harg3 arg4 harg4 arg5 harg5) K := by
  simp only [cc1__scatter_kernel_eq_skeleton]; unfold cc1__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg1.N) : (dat V c).after 0 t = iblk V c 0 t := by dsimp only [dat]
theorem after_wg (c : Dev nD) (t : Fin cfg1.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg1.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg1.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg1.N) : Memref sig .tc .vmem S1x1x8192 .i32 := win1_0.stage (cfg1.slots t 0)
abbrev hstRows (t : Fin cfg1.N) : (stRows t).IsWhole := hstage1_0 ((cfg1.slots t 0).cast nbuf1_0)
abbrev stWg (t : Fin cfg1.N) : Memref sig .tc .vmem S1x8192x64 .f32 := win1_1.stage (cfg1.slots t 1)
abbrev hstWg (t : Fin cfg1.N) : (stWg t).IsWhole := hstage1_1 ((cfg1.slots t 1).cast nbuf1_1)
abbrev stOut (t : Fin cfg1.N) : Memref sig .tc .vmem S1024x64 .f32 := win1_2.stage (cfg1.slots t 2)
abbrev hstOut (t : Fin cfg1.N) : (stOut t).IsWhole := hstage1_2 ((cfg1.slots t 2).cast nbuf1_2)

/-- Where the result is not stored its window is idle and is not written back: the body hands its buffer back as it
    found it. -/
theorem leaves_out_idle (c : Dev nD) (t : Fin cfg1.N) (h : ¬t.val % 391 = 390) :
    (dat V c).leavesExact 2 t = iprop(∃ d, owns (c : Thread nD τ) (stOut t) fullShare ((dat V c).before 2 t d)) := by
  have hi : cfg1.idle 2 (cfg1.grid.coords t) = true := by
    show (!(k1_cond2 (grid1.coords t) == 1#1)) = true
    rw [Bool.not_eq_true', beq_eq_false_iff_ne]
    exact fun hk => h ((hcondLast t).mp hk)
  have hfl : (cfg1.win 2).flush t = false := Bool.eq_false_iff.mpr fun hfl => h ((flush1_2 t).mp hfl)
  exact (dat V c).leavesExact_idle 2 t hi hfl

/-- Where it is stored the window is live: its buffer is handed back at the accumulator. -/
theorem leaves_out_live (c : Dev nD) (t : Fin cfg1.N) (h : t.val % 391 = 390) :
    (dat V c).leavesExact 2 t = owns (c : Thread nD τ) (stOut t) fullShare ((dat V c).after 2 t) := by
  have hi : cfg1.idle 2 (cfg1.grid.coords t) = false := by
    show (!(k1_cond2 (grid1.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_wg]
  rw [Φ_eq, Φ_eq, show (dat V c).owesAt () t.succ = (dat V c).owesAt () t.castSucc from rfl, after_rows, after_wg]
  simp only [Fin.coe_castSucc, Fin.val_succ]
  have hN : t.val < 57477 := lt_of_lt_of_eq t.isLt (show cfg1.N = 57477 from N_1)
  by_cases hl : t.val % 391 = 390
  · have hf : ¬t.val % 391 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid1.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 391 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid1.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid1.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Hand.R1

end
-- ==== Proof.KI.Sched2.lean ====
/-
  The schedule of this gather launch, by arithmetic. The grid is 391 x 147 with the second axis
  innermost, so point t has first coordinate t / 147 % 391. The result window's block index depends on the first
  coordinate only; it therefore changes between t and t + 1 exactly when t is the last of its run of 147
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid2.stride 0 = 147 := by decide

/-- The result window's block index at point `t`: the first coordinate, then zeros. -/
private theorem index_out (t : Fin grid2.N) : win2_3.index t = ![t.val / 147 % 391, 0, 0] := by
  have h : (BitVec.ofNat 32 (t.val / 147 % 391)).toNat = t.val / 147 % 391 := by
    rw [BitVec.toNat_ofNat]; omega
  show cc2_transform_3 (grid2.coords t) = _
  unfold cc2_transform_3 Pipeline.Grid.coords
  simp only [stride_outer]
  show ![(BitVec.ofNat 32 (t.val / 147 % 391)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid2.N) :
    win2_3.index s ≠ win2_3.index t ↔ s.val / 147 % 391 ≠ t.val / 147 % 391 := by
  rw [index_out, index_out]; exact vec_ne _ _

/-- Window 3 (the result) is written back at the points ≡ 146 (mod 147): the last point of each run of 147 points
    sharing the first coordinate, the grid's last point among them. -/
theorem flush2_3 : ∀ t : Fin cfg2.N, (cfg2.win 3).flush t = true ↔ t.val % 147 = 146 := by
  intro t
  have hN : grid2.N = 57477 := N_2
  have hN' : cfg2.N = 57477 := N_2
  have ht : t.val < 57477 := lt_of_lt_of_eq t.isLt hN
  show win2_3.flush t = true ↔ _
  unfold Pipeline.Window.flush
  have hout : win2_3.isOut = true := rfl
  rw [hout, Bool.true_and, Bool.or_eq_true, decide_eq_true_eq, decide_eq_true_eq]
  constructor
  · rintro (h | ⟨h, hne⟩)
    · omega
    · have hq : (t.val + 1) / 147 % 391 ≠ t.val / 147 % 391 := (index_ne ⟨t.val + 1, h⟩ t).1 hne
      omega
  · intro h
    by_cases hl : t.val + 1 = grid2.N
    · exact Or.inl hl
    · have hlt : t.val + 1 < grid2.N := by omega
      have hq : (t.val + 1) / 147 % 391 ≠ t.val / 147 % 391 := by omega
      exact Or.inr ⟨hlt, (index_ne ⟨t.val + 1, hlt⟩ t).2 hq⟩

/-- The current staging memref of each window at point `t`: which of its buffers it is on. -/
abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)
abbrev st2_3 (t : Fin cfg2.N) := (cfg2.win 3).stage (cfg2.slots t 3)

/-- The kernel body at point `t`, on what the pipeline calls it with (`defs₀`'s row at the slots). -/
abbrev bodyAt2 (t : Fin cfg2.N) : Prog (TpuEff nD τ sig (Elt F) Λ₀ .tc) PUnit :=
  cc2__gather_kernel (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (Memref.whole cc2_scratch0) (Memref.isWhole_whole _)

end Cert.KernelIdeal.Hand.Sched
-- ==== Proof.KI.R2.lean ====
/-
  Region 0 of the program (the gather launch of the first propagation step), on any contents `V` of the unscoped
  buffers at its entry. Grid (391 edge chunks) x (147 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched2
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand.R2

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The chunk's column indices, the chunk's edge weights and the node tile's feature rows at point `t`, at their literal types. -/
abbrev colsBlk (c : Dev nD) (t : Fin cfg2.N) : Vec F S1x1x8192 .i32 := iblk V c 0 t
abbrev valsBlk (c : Dev nD) (t : Fin cfg2.N) : Vec F S1x1x8192 .f32 := iblk V c 1 t
abbrev featBlk (c : Dev nD) (t : Fin cfg2.N) : Vec F S1024x64 .f32 := iblk V c 2 t

/-- The accumulator after the body at point `t`, from the accumulator `a` before it: reset first when the point is a
    chunk's first tile. -/
def accStep (c : Dev nD) (t : Fin cfg2.N) (a : Vec F S8192x64 .f32) : Vec F S8192x64 .f32 :=
  k2_pay2 (grid2.coords t) (colsBlk V c t) (featBlk V c t) (if t.val % 147 = 0 then k2_pay1 else a)

/-- The accumulator before point `n` (after point `n - 1`). -/
def accAt (c : Dev nD) : ℕ → Vec F S8192x64 .f32
  | 0 => k2_pay1
  | n + 1 => if h : n < cfg2.N then accStep V c ⟨n, h⟩ (accAt c n) else k2_pay1

/-- The accumulator's buffer (the launch's scratch operand), whole. -/
abbrev accRef : Memref sig .tc .vmem S8192x64 .f32 := Memref.whole cc2_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => k2_pay3 (valsBlk V c t) (accAt V c (t.val + 1))
  Φ t := iprop((∃ a : Vec F S8192x64 .f32, owns (c : Thread nD τ) accRef fullShare a ∗ ⌜t.val % 147 ≠ 0 → a = accAt V c t.val⌝)
    ∗ Pipeline.scopedRestBut (Ix := Unit) (Name := ℕ) (U := UR sig nD τ) (Lvl := ℕ) (Val := Elt F) spec2 c [cc2_scratch0])
  q _ := fullShare
  owed _ := 0

theorem A_eq (c : Dev nD) (w : Fin cfg2.W) : (dat V c).A w = V c (Pipeline.arrRef spec2 w) := by
  dsimp only [dat]

theorem after_out (c : Dev nD) (t : Fin cfg2.N) :
    (dat V c).after 3 t = k2_pay3 (valsBlk V c t) (accAt V c (t.val + 1)) := by dsimp only [dat]

/-! ## The accumulator's recursion -/

/-- One step of the recursion at a grid point. -/
theorem accAt_succ (c : Dev nD) (t : Fin cfg2.N) : accAt V c (t.val + 1) = accStep V c t (accAt V c t.val) := by
  rw [accAt, dif_pos t.isLt]

/-- The invariant at any point, its conjuncts written out. -/
theorem Φ_eq (c : Dev nD) (u : Fin (cfg2.N + 1)) :
    (dat V c).Φ u = iprop((∃ a : Vec F S8192x64 .f32, owns (c : Thread nD τ) accRef fullShare a ∗ ⌜u.val % 147 ≠ 0 → a = accAt V c u.val⌝)
      ∗ Pipeline.scopedRestBut (Ix := Unit) (Name := ℕ) (U := UR sig nD τ) (Lvl := ℕ) (Val := Elt F) spec2 c [cc2_scratch0]) := by
  dsimp only [dat]

theorem after_cols (c : Dev nD) (t : Fin cfg2.N) : (dat V c).after 0 t = iblk V c 0 t := by dsimp only [dat]
theorem after_vals (c : Dev nD) (t : Fin cfg2.N) : (dat V c).after 1 t = iblk V c 1 t := by dsimp only [dat]
theorem after_feat (c : Dev nD) (t : Fin cfg2.N) : (dat V c).after 2 t = iblk V c 2 t := by dsimp only [dat]

/-! ## The body's two conditionals, over the grid -/

/-- The first conditional (the accumulator is reset), as the body computes it from the tile coordinate. -/
abbrev isFirst (i : grid2.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg2.N) : ((grid2.coords t) 1).val = t.val % 147 := by
  show t.val / grid2.stride 1 % grid2.bound 1 = t.val % 147
  rw [show grid2.stride 1 = 1 from by decide, Nat.div_one]
  rfl

/-- It holds exactly at a chunk's first tile. -/
theorem isFirst_iff (t : Fin cfg2.N) : isFirst (grid2.coords t) ↔ t.val % 147 = 0 := by
  show Scalar.cmpi .ne (Scalar.extui (Scalar.cmpi .eq (BitVec.ofNat 32 ((grid2.coords t) 1).val) 0#32)) 0#32 = 1#1 ↔ _
  rw [tile_coord t]
  exact tileTest_iff (t.val % 147) 0 (by omega) (by decide)

/-- The second conditional (the result block is stored) holds exactly at a chunk's last tile. -/
theorem isLast_iff (t : Fin cfg2.N) : k2_cond2 (grid2.coords t) = 1#1 ↔ t.val % 147 = 146 := by
  show Scalar.cmpi .ne (Scalar.extui (Scalar.cmpi .eq (BitVec.ofNat 32 ((grid2.coords t) 1).val) 146#32)) 0#32 = 1#1 ↔ _
  rw [tile_coord t]
  exact tileTest_iff (t.val % 147) 146 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg2 c) (hA : D.A 0 = V c (Pipeline.arrRef spec2 0))
    (hafter : ∀ t, D.after 0 t = iblk V c 0 t) (t : Fin cfg2.N) (d) : D.before 0 t d = iblk V c 0 t := by
  have hkeep : ∀ u, (cfg2.win 0).cut (cfg2.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg2 c) (hA : D.A 1 = V c (Pipeline.arrRef spec2 1))
    (hafter : ∀ t, D.after 1 t = iblk V c 1 t) (t : Fin cfg2.N) (d) : D.before 1 t d = iblk V c 1 t := by
  have hkeep : ∀ u, (cfg2.win 1).cut (cfg2.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg2 c) (hA : D.A 2 = V c (Pipeline.arrRef spec2 2))
    (hafter : ∀ t, D.after 2 t = iblk V c 2 t) (t : Fin cfg2.N) (d) : D.before 2 t d = iblk V c 2 t := by
  have hkeep : ∀ u, (cfg2.win 2).cut (cfg2.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg2.N) (d) : (dat V c).before 0 t d = iblk V c 0 t :=
  before_cols_of V (dat V c) (A_eq V c 0) (after_cols V c) t d
theorem before_vals (c : Dev nD) (t : Fin cfg2.N) (d) : (dat V c).before 1 t d = iblk V c 1 t :=
  before_vals_of V (dat V c) (A_eq V c 1) (after_vals V c) t d
theorem before_feat (c : Dev nD) (t : Fin cfg2.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid2.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k2_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k2_pay2 i xc xf a)) -∗ K ⟨⟩))
      ⊢ wp frame (wpE (defs₀ (F := F)) Variants.none c none) E (cc2__gather_kernel i mc hmc mv hmv mf hmf mo hmo ma hma) K := by
  simp only [cc2__gather_kernel_eq_skeleton]; unfold cc2__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid2.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k2_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k2_pay2 i xc xf k2_pay1)) -∗ K ⟨⟩))
      ⊢ wp frame (wpE (defs₀ (F := F)) Variants.none c none) E (cc2__gather_kernel i mc hmc mv hmv mf hmf mo hmo ma hma) K := by
  simp only [cc2__gather_kernel_eq_skeleton]; unfold cc2__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k2_pay2 i xc xf) (View.readCov_cons_toLoadRect ma.view _ _ _)

/-- A chunk's last tile: the accumulator takes the tile's product, and the result's staging buffer, whatever it held,
    takes the accumulator's rows scaled by the edge weights. -/
theorem runLast (c : Dev nD) (i : grid2.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k2_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k2_pay3 xv (k2_pay2 i xc xf a))
            ∗ owns (c : Thread nD τ) ma fullShare (k2_pay2 i xc xf a)) -∗ K ⟨⟩))
      ⊢ wp frame (wpE (defs₀ (F := F)) Variants.none c none) E (cc2__gather_kernel i mc hmc mv hmv mf hmf mo hmo ma hma) K := by
  simp only [cc2__gather_kernel_eq_skeleton]; unfold cc2__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k2_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg2.N) : cfg2.idle 3 (cfg2.grid.coords t) = !(k2_cond2 (grid2.coords t) == 1#1) := rfl

theorem idle_of_not_last (t : Fin cfg2.N) (h : ¬t.val % 147 = 146) : cfg2.idle 3 (cfg2.grid.coords t) = true := by
  rw [idle_out, beq_eq_false_iff_ne.mpr fun e => h ((isLast_iff t).mp e)]; rfl

theorem live_of_last (t : Fin cfg2.N) (h : t.val % 147 = 146) : cfg2.idle 3 (cfg2.grid.coords t) = false := by
  rw [idle_out, (isLast_iff t).mpr h]; rfl

/-- At a live point the result's staging buffer is left at what the proof data names. -/
theorem leavesExact_live (c : Dev nD) (t : Fin cfg2.N) (hi : cfg2.idle 3 (cfg2.grid.coords t) = false) :
    ((dat V c).leavesExact 3 t : sProp 𝕄)
      = owns (c : Thread nD τ) ((cfg2.win 3).stage (cfg2.slots t 3)) fullShare ((dat V c).after 3 t) := by
  unfold Dat.leavesExact; rw [hi]

/-! ## The body obligation, at a generic point -/

/-- The staging buffers the body is called with at point `t`, at their literal types, and their wholeness. -/
abbrev mCols (t : Fin cfg2.N) : Memref sig .tc .vmem S1x1x8192 .i32 := win2_0.stage (cfg2.slots t 0)
abbrev hCols (t : Fin cfg2.N) : (mCols t).IsWhole := hstage2_0 ((cfg2.slots t 0).cast nbuf2_0)
abbrev mVals (t : Fin cfg2.N) : Memref sig .tc .vmem S1x1x8192 .f32 := win2_1.stage (cfg2.slots t 1)
abbrev hVals (t : Fin cfg2.N) : (mVals t).IsWhole := hstage2_1 ((cfg2.slots t 1).cast nbuf2_1)
abbrev mFeat (t : Fin cfg2.N) : Memref sig .tc .vmem S1024x64 .f32 := win2_2.stage (cfg2.slots t 2)
abbrev hFeat (t : Fin cfg2.N) : (mFeat t).IsWhole := hstage2_2 ((cfg2.slots t 2).cast nbuf2_2)
abbrev mOut (t : Fin cfg2.N) : Memref sig .tc .vmem S1x8192x64 .f32 := win2_3.stage (cfg2.slots t 3)
abbrev hOut (t : Fin cfg2.N) : (mOut t).IsWhole := hstage2_3 ((cfg2.slots t 3).cast nbuf2_3)

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg2.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 147 = 0
  · have hl : ¬t.val % 147 = 146 := by omega
    have hfl : (cfg2.win 3).flush t = false := Bool.eq_false_iff.mpr fun h => hl ((flush2_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid2.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 147 = 146
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid2.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg2.win 3).flush t = false := Bool.eq_false_iff.mpr fun h => hl ((flush2_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid2.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec2 c : sProp 𝕄) ⊢ (dat V c).Φ 0 := by
  rw [scopedRest2_split, Φ_eq]
  refine sep_mono ?_ .rfl
  iintro ⟨%f, H⟩
  iexists f
  isplitl [H]
  · rw [owns_whole]; iexact H
  · ipureintro; intro h; exact absurd (Nat.zero_mod 147) h

/-- The invariant at the last point gives those buffers back. -/
theorem Φ_out (c : Dev nD) :
    (dat V c).Φ (Fin.last cfg2.N) ⊢ (Pipeline.scopedRest (Ix := Unit) (Name := ℕ) (U := UR sig nD τ) (Lvl := ℕ) (Val := Elt F) spec2 c : sProp 𝕄) := by
  rw [scopedRest2_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Hand.R2

end
-- ==== Proof.KI.Sched3.lean ====
/-
  The schedule of this scatter launch, by arithmetic. The grid is 147 x 391 with the second axis
  innermost, so point t has first coordinate t / 391 % 147. The result window's block index depends on the first
  coordinate only; it therefore changes between t and t + 1 exactly when t is the last of its run of 391
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid3.stride 0 = 391 := by decide

/-- The result window's block index at point `t`: the first coordinate, then zero. -/
private theorem index_out (t : Fin grid3.N) : win3_2.index t = ![t.val / 391 % 147, 0] := by
  have h : (BitVec.ofNat 32 (t.val / 391 % 147)).toNat = t.val / 391 % 147 := by
    rw [BitVec.toNat_ofNat]; omega
  show cc3_transform_2 (grid3.coords t) = _
  unfold cc3_transform_2 Pipeline.Grid.coords
  simp only [stride_outer]
  show ![(BitVec.ofNat 32 (t.val / 391 % 147)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid3.N) :
    win3_2.index s ≠ win3_2.index t ↔ s.val / 391 % 147 ≠ t.val / 391 % 147 := by
  rw [index_out, index_out]; exact vec_ne _ _

/-- Window 2 (the result) is written back at the points ≡ 390 (mod 391): the last point of each run of 391 points
    sharing the first coordinate, the grid's last point among them. -/
theorem flush3_2 : ∀ t : Fin cfg3.N, (cfg3.win 2).flush t = true ↔ t.val % 391 = 390 := by
  intro t
  have hN : grid3.N = 57477 := N_3
  have hN' : cfg3.N = 57477 := N_3
  have ht : t.val < 57477 := lt_of_lt_of_eq t.isLt hN
  show win3_2.flush t = true ↔ _
  unfold Pipeline.Window.flush
  have hout : win3_2.isOut = true := rfl
  rw [hout, Bool.true_and, Bool.or_eq_true, decide_eq_true_eq, decide_eq_true_eq]
  constructor
  · rintro (h | ⟨h, hne⟩)
    · omega
    · have hq : (t.val + 1) / 391 % 147 ≠ t.val / 391 % 147 := (index_ne ⟨t.val + 1, h⟩ t).1 hne
      omega
  · intro h
    by_cases hl : t.val + 1 = grid3.N
    · exact Or.inl hl
    · have hlt : t.val + 1 < grid3.N := by omega
      have hq : (t.val + 1) / 391 % 147 ≠ t.val / 391 % 147 := by omega
      exact Or.inr ⟨hlt, (index_ne ⟨t.val + 1, hlt⟩ t).2 hq⟩

/-- The current staging memref of each window at point `t`: which of its buffers it is on. -/
abbrev st3_0 (t : Fin cfg3.N) := (cfg3.win 0).stage (cfg3.slots t 0)
abbrev st3_1 (t : Fin cfg3.N) := (cfg3.win 1).stage (cfg3.slots t 1)
abbrev st3_2 (t : Fin cfg3.N) := (cfg3.win 2).stage (cfg3.slots t 2)

/-- The kernel body at point `t`, on what the pipeline calls it with (`defs₀`'s row at the slots). -/
abbrev bodyAt3 (t : Fin cfg3.N) : Prog (TpuEff nD τ sig (Elt F) Λ₀ .tc) PUnit :=
  cc3__scatter_kernel (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (Memref.whole cc3_scratch0) (Memref.isWhole_whole _)

end Cert.KernelIdeal.Hand.Sched
-- ==== Proof.KI.R3.lean ====
/-
  Region 1 of the program (the scatter launch of the first propagation step), on any contents `V` of the unscoped
  buffers at its entry. Grid (147 node tiles) x (391 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched3
import Idealize.ShloMosaic.Lib.Pipeline.FrameBody
import Idealize.ShloMosaic.Lib.Pipeline.Frame
import Idealize.ShloMosaic.Lib.Tactic

set_option maxRecDepth 16384

noncomputable section

namespace Cert.KernelIdeal.Hand.R3

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The chunk's row indices and the chunk's weighted gathered rows at point `t`, at their literal types. -/
abbrev rowsBlk (c : Dev nD) (t : Fin cfg3.N) : Vec F S1x1x8192 .i32 := iblk V c 0 t
abbrev wgBlk (c : Dev nD) (t : Fin cfg3.N) : Vec F S1x8192x64 .f32 := iblk V c 1 t

/-- The accumulator after the body at point `t`, from the accumulator `a` before it: reset first when the point is a
    tile's first chunk. -/
def accStep (c : Dev nD) (t : Fin cfg3.N) (a : Vec F S1024x64 .f32) : Vec F S1024x64 .f32 :=
  k3_pay2 (grid3.coords t) (rowsBlk V c t) (wgBlk V c t) (if t.val % 391 = 0 then k3_pay1 else a)

/-- The accumulator before point `n` (after point `n - 1`). -/
def accAt (c : Dev nD) : ℕ → Vec F S1024x64 .f32
  | 0 => k3_pay1
  | n + 1 => if h : n < cfg3.N then accStep V c ⟨n, h⟩ (accAt c n) else k3_pay1

/-- The accumulator's buffer (the launch's scratch operand), whole. -/
abbrev accRef : Memref sig .tc .vmem S1024x64 .f32 := Memref.whole cc3_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 391 ≠ 0 → a = accAt V c t.val⌝)
    ∗ Pipeline.scopedRestBut (Ix := Unit) (Name := ℕ) (U := UR sig nD τ) (Lvl := ℕ) (Val := Elt F) spec3 c [cc3_scratch0])
  q _ := fullShare
  owed _ := 0

theorem A_eq (c : Dev nD) (w : Fin cfg3.W) : (dat V c).A w = V c (Pipeline.arrRef spec3 w) := by
  dsimp only [dat]

theorem after_out (c : Dev nD) (t : Fin cfg3.N) :
    (dat V c).after 2 t = accAt V c (t.val + 1) := by dsimp only [dat]

/-! ## The invariant at the region's two ends -/

/-- The invariant at a point, written out. -/
theorem Φ_eq (c : Dev nD) (t : Fin (cfg3.N + 1)) :
    (dat V c).Φ t = iprop((∃ a : Vec F S1024x64 .f32, owns (c : Thread nD τ) accRef fullShare a ∗ ⌜t.val % 391 ≠ 0 → a = accAt V c t.val⌝)
      ∗ Pipeline.scopedRestBut (Ix := Unit) (Name := ℕ) (U := UR sig nD τ) (Lvl := ℕ) (Val := Elt F) spec3 c [cc3_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec3 c : sProp 𝕄) ⊢ (dat V c).Φ 0 := by
  rw [scopedRest3_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg3.N) ⊢ (Pipeline.scopedRest (Ix := Unit) (Name := ℕ) (U := UR sig nD τ) (Lvl := ℕ) (Val := Elt F) spec3 c : sProp 𝕄) := by
  rw [scopedRest3_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg3.N) : accAt V c (t.val + 1) = accStep V c t (accAt V c t.val) := by
  rw [accAt, dif_pos t.isLt]

/-- After a tile's first chunk the accumulator is that chunk's product added to zero, -/
theorem accAt_succ_first (c : Dev nD) (t : Fin cfg3.N) (h : t.val % 391 = 0) :
    accAt V c (t.val + 1) = k3_pay2 (grid3.coords t) (rowsBlk V c t) (wgBlk V c t) k3_pay1 := by
  rw [accAt_succ, accStep, if_pos h]

/-- after any other the chunk's product added to what it was. -/
theorem accAt_succ_next (c : Dev nD) (t : Fin cfg3.N) (h : ¬t.val % 391 = 0) :
    accAt V c (t.val + 1) = k3_pay2 (grid3.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid3.Coords) : Prop :=
  (Scalar.cmpi .ne (Scalar.extui (Scalar.cmpi .eq (BitVec.ofNat 32 (i 1).val) 0#32)) 0#32) = 1#1
/-- The condition of its second (the result's store). -/
abbrev condLast (i : grid3.Coords) : Prop := k3_cond2 i = 1#1

/-- The chunk coordinate of point `t`: the chunk is the innermost axis. -/
theorem chunk_val (t : Fin cfg3.N) : (grid3.coords t 1).val = t.val % 391 := by
  show t.val / grid3.stride 1 % grid3.bound 1 = t.val % 391
  rw [show grid3.stride 1 = 1 from by decide, Nat.div_one]
  rfl

/-- Both conditions read the chunk coordinate alone: decided over the 391 chunks. -/
theorem condFirst_iff (i : grid3.Coords) : condFirst i ↔ (i 1).val = 0 :=
  (by decide +kernel : ∀ j : Fin 391,
    (Scalar.cmpi .ne (Scalar.extui (Scalar.cmpi .eq (BitVec.ofNat 32 j.val) 0#32)) 0#32) = 1#1 ↔ j.val = 0) (i 1)
theorem condLast_iff (i : grid3.Coords) : condLast i ↔ (i 1).val = 390 :=
  (by decide +kernel : ∀ j : Fin 391,
    (Scalar.cmpi .ne (Scalar.extui (Scalar.cmpi .eq (BitVec.ofNat 32 j.val) 390#32)) 0#32) = 1#1 ↔ j.val = 390) (i 1)

/-- The reset runs at a tile's first chunk only, -/
theorem hcondFirst (t : Fin cfg3.N) : condFirst (grid3.coords t) ↔ t.val % 391 = 0 := by
  rw [condFirst_iff, chunk_val]
/-- and the result is stored at a tile's last chunk only. -/
theorem hcondLast (t : Fin cfg3.N) : condLast (grid3.coords t) ↔ t.val % 391 = 390 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid3.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k3_pay2 i x0 x1 k3_pay1)) -∗ K ⟨⟩))
      ⊢ wp frame (wpE (defs₀ (F := F)) Variants.none c none) E
          (cc3__scatter_kernel i arg2 harg2 arg3 harg3 arg4 harg4 arg5 harg5) K := by
  simp only [cc3__scatter_kernel_eq_skeleton]; unfold cc3__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid3.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k3_pay2 i x0 x1 a)) -∗ K ⟨⟩))
      ⊢ wp frame (wpE (defs₀ (F := F)) Variants.none c none) E
          (cc3__scatter_kernel i arg2 harg2 arg3 harg3 arg4 harg4 arg5 harg5) K := by
  simp only [cc3__scatter_kernel_eq_skeleton]; unfold cc3__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid3.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k3_pay2 i x0 x1 a)
            ∗ owns (c : Thread nD τ) arg5 fullShare (k3_pay2 i x0 x1 a)) -∗ K ⟨⟩))
      ⊢ wp frame (wpE (defs₀ (F := F)) Variants.none c none) E
          (cc3__scatter_kernel i arg2 harg2 arg3 harg3 arg4 harg4 arg5 harg5) K := by
  simp only [cc3__scatter_kernel_eq_skeleton]; unfold cc3__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg3.N) : (dat V c).after 0 t = iblk V c 0 t := by dsimp only [dat]
theorem after_wg (c : Dev nD) (t : Fin cfg3.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg3.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg3.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg3.N) : Memref sig .tc .vmem S1x1x8192 .i32 := win3_0.stage (cfg3.slots t 0)
abbrev hstRows (t : Fin cfg3.N) : (stRows t).IsWhole := hstage3_0 ((cfg3.slots t 0).cast nbuf3_0)
abbrev stWg (t : Fin cfg3.N) : Memref sig .tc .vmem S1x8192x64 .f32 := win3_1.stage (cfg3.slots t 1)
abbrev hstWg (t : Fin cfg3.N) : (stWg t).IsWhole := hstage3_1 ((cfg3.slots t 1).cast nbuf3_1)
abbrev stOut (t : Fin cfg3.N) : Memref sig .tc .vmem S1024x64 .f32 := win3_2.stage (cfg3.slots t 2)
abbrev hstOut (t : Fin cfg3.N) : (stOut t).IsWhole := hstage3_2 ((cfg3.slots t 2).cast nbuf3_2)

/-- Where the result is not stored its window is idle and is not written back: the body hands its buffer back as it
    found it. -/
theorem leaves_out_idle (c : Dev nD) (t : Fin cfg3.N) (h : ¬t.val % 391 = 390) :
    (dat V c).leavesExact 2 t = iprop(∃ d, owns (c : Thread nD τ) (stOut t) fullShare ((dat V c).before 2 t d)) := by
  have hi : cfg3.idle 2 (cfg3.grid.coords t) = true := by
    show (!(k3_cond2 (grid3.coords t) == 1#1)) = true
    rw [Bool.not_eq_true', beq_eq_false_iff_ne]
    exact fun hk => h ((hcondLast t).mp hk)
  have hfl : (cfg3.win 2).flush t = false := Bool.eq_false_iff.mpr fun hfl => h ((flush3_2 t).mp hfl)
  exact (dat V c).leavesExact_idle 2 t hi hfl

/-- Where it is stored the window is live: its buffer is handed back at the accumulator. -/
theorem leaves_out_live (c : Dev nD) (t : Fin cfg3.N) (h : t.val % 391 = 390) :
    (dat V c).leavesExact 2 t = owns (c : Thread nD τ) (stOut t) fullShare ((dat V c).after 2 t) := by
  have hi : cfg3.idle 2 (cfg3.grid.coords t) = false := by
    show (!(k3_cond2 (grid3.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_rows, before_wg]
  rw [Φ_eq, Φ_eq, show (dat V c).owesAt () t.succ = (dat V c).owesAt () t.castSucc from rfl, after_rows, after_wg]
  simp only [Fin.coe_castSucc, Fin.val_succ]
  have hN : t.val < 57477 := lt_of_lt_of_eq t.isLt (show cfg3.N = 57477 from N_3)
  by_cases hl : t.val % 391 = 390
  · have hf : ¬t.val % 391 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid3.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 391 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid3.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid3.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.Hand.R3

end
-- ==== Proof.KI.Sched4.lean ====
/-
  The schedule of this gather launch, by arithmetic. The grid is 196 x 98 with the second axis
  innermost, so point t has first coordinate t / 98 % 391. The result window's block index depends on the first
  coordinate only; it therefore changes between t and t + 1 exactly when t is the last of its run of 98
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid4.stride 0 = 98 := by decide

/-- The result window's block index at point `t`: the first coordinate, then zeros. -/
private theorem index_out (t : Fin grid4.N) : win4_3.index t = ![t.val / 98 % 196, 0, 0] := by
  have h : (BitVec.ofNat 32 (t.val / 98 % 196)).toNat = t.val / 98 % 196 := by
    rw [BitVec.toNat_ofNat]; omega
  show cc4_transform_3 (grid4.coords t) = _
  unfold cc4_transform_3 Pipeline.Grid.coords
  simp only [stride_outer]
  show ![(BitVec.ofNat 32 (t.val / 98 % 196)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid4.N) :
    win4_3.index s ≠ win4_3.index t ↔ s.val / 98 % 196 ≠ t.val / 98 % 196 := by
  rw [index_out, index_out]; exact vec_ne _ _

/-- Window 3 (the result) is written back at the points ≡ 97 (mod 98): the last point of each run of 98 points
    sharing the first coordinate, the grid's last point among them. -/
theorem flush4_3 : ∀ t : Fin cfg4.N, (cfg4.win 3).flush t = true ↔ t.val % 98 = 97 := by
  intro t
  have hN : grid4.N = 19208 := N_4
  have hN' : cfg4.N = 19208 := N_4
  have ht : t.val < 19208 := lt_of_lt_of_eq t.isLt hN
  show win4_3.flush t = true ↔ _
  unfold Pipeline.Window.flush
  have hout : win4_3.isOut = true := rfl
  rw [hout, Bool.true_and, Bool.or_eq_true, decide_eq_true_eq, decide_eq_true_eq]
  constructor
  · rintro (h | ⟨h, hne⟩)
    · omega
    · have hq : (t.val + 1) / 98 % 196 ≠ t.val / 98 % 196 := (index_ne ⟨t.val + 1, h⟩ t).1 hne
      omega
  · intro h
    by_cases hl : t.val + 1 = grid4.N
    · exact Or.inl hl
    · have hlt : t.val + 1 < grid4.N := by omega
      have hq : (t.val + 1) / 98 % 196 ≠ t.val / 98 % 196 := by omega
      exact Or.inr ⟨hlt, (index_ne ⟨t.val + 1, hlt⟩ t).2 hq⟩

/-- The current staging memref of each window at point `t`: which of its buffers it is on. -/
abbrev st4_0 (t : Fin cfg4.N) := (cfg4.win 0).stage (cfg4.slots t 0)
abbrev st4_1 (t : Fin cfg4.N) := (cfg4.win 1).stage (cfg4.slots t 1)
abbrev st4_2 (t : Fin cfg4.N) := (cfg4.win 2).stage (cfg4.slots t 2)
abbrev st4_3 (t : Fin cfg4.N) := (cfg4.win 3).stage (cfg4.slots t 3)

/-- The kernel body at point `t`, on what the pipeline calls it with (`defs₀`'s row at the slots). -/
abbrev bodyAt4 (t : Fin cfg4.N) : Prog (TpuEff nD τ sig (Elt F) Λ₀ .tc) PUnit :=
  cc4__gather_kernel (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (Memref.whole cc4_scratch0) (Memref.isWhole_whole _)

end Cert.KernelIdeal.Hand.Sched
-- ==== Proof.KI.R4.lean ====
/-
  Region 0 of the program (the gather launch of the first propagation step), on any contents `V` of the unscoped
  buffers at its entry. Grid (196 edge chunks) x (98 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched4
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand.R4

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The chunk's column indices, the chunk's edge weights and the node tile's feature rows at point `t`, at their literal types. -/
abbrev colsBlk (c : Dev nD) (t : Fin cfg4.N) : Vec F S1x1x8192 .i32 := iblk V c 0 t
abbrev valsBlk (c : Dev nD) (t : Fin cfg4.N) : Vec F S1x1x8192 .f32 := iblk V c 1 t
abbrev featBlk (c : Dev nD) (t : Fin cfg4.N) : Vec F S1024x64 .f32 := iblk V c 2 t

/-- The accumulator after the body at point `t`, from the accumulator `a` before it: reset first when the point is a
    chunk's first tile. -/
def accStep (c : Dev nD) (t : Fin cfg4.N) (a : Vec F S8192x64 .f32) : Vec F S8192x64 .f32 :=
  k4_pay2 (grid4.coords t) (colsBlk V c t) (featBlk V c t) (if t.val % 98 = 0 then k4_pay1 else a)

/-- The accumulator before point `n` (after point `n - 1`). -/
def accAt (c : Dev nD) : ℕ → Vec F S8192x64 .f32
  | 0 => k4_pay1
  | n + 1 => if h : n < cfg4.N then accStep V c ⟨n, h⟩ (accAt c n) else k4_pay1

/-- The accumulator's buffer (the launch's scratch operand), whole. -/
abbrev accRef : Memref sig .tc .vmem S8192x64 .f32 := Memref.whole cc4_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => k4_pay3 (valsBlk V c t) (accAt V c (t.val + 1))
  Φ t := iprop((∃ a : Vec F S8192x64 .f32, owns (c : Thread nD τ) accRef fullShare a ∗ ⌜t.val % 98 ≠ 0 → a = accAt V c t.val⌝)
    ∗ Pipeline.scopedRestBut (Ix := Unit) (Name := ℕ) (U := UR sig nD τ) (Lvl := ℕ) (Val := Elt F) spec4 c [cc4_scratch0])
  q _ := fullShare
  owed _ := 0

theorem A_eq (c : Dev nD) (w : Fin cfg4.W) : (dat V c).A w = V c (Pipeline.arrRef spec4 w) := by
  dsimp only [dat]

theorem after_out (c : Dev nD) (t : Fin cfg4.N) :
    (dat V c).after 3 t = k4_pay3 (valsBlk V c t) (accAt V c (t.val + 1)) := by dsimp only [dat]

/-! ## The accumulator's recursion -/

/-- One step of the recursion at a grid point. -/
theorem accAt_succ (c : Dev nD) (t : Fin cfg4.N) : accAt V c (t.val + 1) = accStep V c t (accAt V c t.val) := by
  rw [accAt, dif_pos t.isLt]

/-- The invariant at any point, its conjuncts written out. -/
theorem Φ_eq (c : Dev nD) (u : Fin (cfg4.N + 1)) :
    (dat V c).Φ u = iprop((∃ a : Vec F S8192x64 .f32, owns (c : Thread nD τ) accRef fullShare a ∗ ⌜u.val % 98 ≠ 0 → a = accAt V c u.val⌝)
      ∗ Pipeline.scopedRestBut (Ix := Unit) (Name := ℕ) (U := UR sig nD τ) (Lvl := ℕ) (Val := Elt F) spec4 c [cc4_scratch0]) := by
  dsimp only [dat]

theorem after_cols (c : Dev nD) (t : Fin cfg4.N) : (dat V c).after 0 t = iblk V c 0 t := by dsimp only [dat]
theorem after_vals (c : Dev nD) (t : Fin cfg4.N) : (dat V c).after 1 t = iblk V c 1 t := by dsimp only [dat]
theorem after_feat (c : Dev nD) (t : Fin cfg4.N) : (dat V c).after 2 t = iblk V c 2 t := by dsimp only [dat]

/-! ## The body's two conditionals, over the grid -/

/-- The first conditional (the accumulator is reset), as the body computes it from the tile coordinate. -/
abbrev isFirst (i : grid4.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg4.N) : ((grid4.coords t) 1).val = t.val % 98 := by
  show t.val / grid4.stride 1 % grid4.bound 1 = t.val % 98
  rw [show grid4.stride 1 = 1 from by decide, Nat.div_one]
  rfl

/-- It holds exactly at a chunk's first tile. -/
theorem isFirst_iff (t : Fin cfg4.N) : isFirst (grid4.coords t) ↔ t.val % 98 = 0 := by
  show Scalar.cmpi .ne (Scalar.extui (Scalar.cmpi .eq (BitVec.ofNat 32 ((grid4.coords t) 1).val) 0#32)) 0#32 = 1#1 ↔ _
  rw [tile_coord t]
  exact tileTest_iff (t.val % 98) 0 (by omega) (by decide)

/-- The second conditional (the result block is stored) holds exactly at a chunk's last tile. -/
theorem isLast_iff (t : Fin cfg4.N) : k4_cond2 (grid4.coords t) = 1#1 ↔ t.val % 98 = 97 := by
  show Scalar.cmpi .ne (Scalar.extui (Scalar.cmpi .eq (BitVec.ofNat 32 ((grid4.coords t) 1).val) 97#32)) 0#32 = 1#1 ↔ _
  rw [tile_coord t]
  exact tileTest_iff (t.val % 98) 97 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg4 c) (hA : D.A 0 = V c (Pipeline.arrRef spec4 0))
    (hafter : ∀ t, D.after 0 t = iblk V c 0 t) (t : Fin cfg4.N) (d) : D.before 0 t d = iblk V c 0 t := by
  have hkeep : ∀ u, (cfg4.win 0).cut (cfg4.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg4 c) (hA : D.A 1 = V c (Pipeline.arrRef spec4 1))
    (hafter : ∀ t, D.after 1 t = iblk V c 1 t) (t : Fin cfg4.N) (d) : D.before 1 t d = iblk V c 1 t := by
  have hkeep : ∀ u, (cfg4.win 1).cut (cfg4.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg4 c) (hA : D.A 2 = V c (Pipeline.arrRef spec4 2))
    (hafter : ∀ t, D.after 2 t = iblk V c 2 t) (t : Fin cfg4.N) (d) : D.before 2 t d = iblk V c 2 t := by
  have hkeep : ∀ u, (cfg4.win 2).cut (cfg4.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg4.N) (d) : (dat V c).before 0 t d = iblk V c 0 t :=
  before_cols_of V (dat V c) (A_eq V c 0) (after_cols V c) t d
theorem before_vals (c : Dev nD) (t : Fin cfg4.N) (d) : (dat V c).before 1 t d = iblk V c 1 t :=
  before_vals_of V (dat V c) (A_eq V c 1) (after_vals V c) t d
theorem before_feat (c : Dev nD) (t : Fin cfg4.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid4.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k4_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k4_pay2 i xc xf a)) -∗ K ⟨⟩))
      ⊢ wp frame (wpE (defs₀ (F := F)) Variants.none c none) E (cc4__gather_kernel i mc hmc mv hmv mf hmf mo hmo ma hma) K := by
  simp only [cc4__gather_kernel_eq_skeleton]; unfold cc4__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid4.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k4_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k4_pay2 i xc xf k4_pay1)) -∗ K ⟨⟩))
      ⊢ wp frame (wpE (defs₀ (F := F)) Variants.none c none) E (cc4__gather_kernel i mc hmc mv hmv mf hmf mo hmo ma hma) K := by
  simp only [cc4__gather_kernel_eq_skeleton]; unfold cc4__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k4_pay2 i xc xf) (View.readCov_cons_toLoadRect ma.view _ _ _)

/-- A chunk's last tile: the accumulator takes the tile's product, and the result's staging buffer, whatever it held,
    takes the accumulator's rows scaled by the edge weights. -/
theorem runLast (c : Dev nD) (i : grid4.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k4_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k4_pay3 xv (k4_pay2 i xc xf a))
            ∗ owns (c : Thread nD τ) ma fullShare (k4_pay2 i xc xf a)) -∗ K ⟨⟩))
      ⊢ wp frame (wpE (defs₀ (F := F)) Variants.none c none) E (cc4__gather_kernel i mc hmc mv hmv mf hmf mo hmo ma hma) K := by
  simp only [cc4__gather_kernel_eq_skeleton]; unfold cc4__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k4_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg4.N) : cfg4.idle 3 (cfg4.grid.coords t) = !(k4_cond2 (grid4.coords t) == 1#1) := rfl

theorem idle_of_not_last (t : Fin cfg4.N) (h : ¬t.val % 98 = 97) : cfg4.idle 3 (cfg4.grid.coords t) = true := by
  rw [idle_out, beq_eq_false_iff_ne.mpr fun e => h ((isLast_iff t).mp e)]; rfl

theorem live_of_last (t : Fin cfg4.N) (h : t.val % 98 = 97) : cfg4.idle 3 (cfg4.grid.coords t) = false := by
  rw [idle_out, (isLast_iff t).mpr h]; rfl

/-- At a live point the result's staging buffer is left at what the proof data names. -/
theorem leavesExact_live (c : Dev nD) (t : Fin cfg4.N) (hi : cfg4.idle 3 (cfg4.grid.coords t) = false) :
    ((dat V c).leavesExact 3 t : sProp 𝕄)
      = owns (c : Thread nD τ) ((cfg4.win 3).stage (cfg4.slots t 3)) fullShare ((dat V c).after 3 t) := by
  unfold Dat.leavesExact; rw [hi]

/-! ## The body obligation, at a generic point -/

/-- The staging buffers the body is called with at point `t`, at their literal types, and their wholeness. -/
abbrev mCols (t : Fin cfg4.N) : Memref sig .tc .vmem S1x1x8192 .i32 := win4_0.stage (cfg4.slots t 0)
abbrev hCols (t : Fin cfg4.N) : (mCols t).IsWhole := hstage4_0 ((cfg4.slots t 0).cast nbuf4_0)
abbrev mVals (t : Fin cfg4.N) : Memref sig .tc .vmem S1x1x8192 .f32 := win4_1.stage (cfg4.slots t 1)
abbrev hVals (t : Fin cfg4.N) : (mVals t).IsWhole := hstage4_1 ((cfg4.slots t 1).cast nbuf4_1)
abbrev mFeat (t : Fin cfg4.N) : Memref sig .tc .vmem S1024x64 .f32 := win4_2.stage (cfg4.slots t 2)
abbrev hFeat (t : Fin cfg4.N) : (mFeat t).IsWhole := hstage4_2 ((cfg4.slots t 2).cast nbuf4_2)
abbrev mOut (t : Fin cfg4.N) : Memref sig .tc .vmem S1x8192x64 .f32 := win4_3.stage (cfg4.slots t 3)
abbrev hOut (t : Fin cfg4.N) : (mOut t).IsWhole := hstage4_3 ((cfg4.slots t 3).cast nbuf4_3)

/-- What the body is called with at point `t`, the windows one by one, -/
def bodyPre (c : Dev nD) (t : Fin cfg4.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg4.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 98 = 0
  · have hl : ¬t.val % 98 = 97 := by omega
    have hfl : (cfg4.win 3).flush t = false := Bool.eq_false_iff.mpr fun h => hl ((flush4_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid4.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 98 = 97
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid4.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg4.win 3).flush t = false := Bool.eq_false_iff.mpr fun h => hl ((flush4_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid4.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec4 c : sProp 𝕄) ⊢ (dat V c).Φ 0 := by
  rw [scopedRest4_split, Φ_eq]
  refine sep_mono ?_ .rfl
  iintro ⟨%f, H⟩
  iexists f
  isplitl [H]
  · rw [owns_whole]; iexact H
  · ipureintro; intro h; exact absurd (Nat.zero_mod 98) h

/-- The invariant at the last point gives those buffers back. -/
theorem Φ_out (c : Dev nD) :
    (dat V c).Φ (Fin.last cfg4.N) ⊢ (Pipeline.scopedRest (Ix := Unit) (Name := ℕ) (U := UR sig nD τ) (Lvl := ℕ) (Val := Elt F) spec4 c : sProp 𝕄) := by
  rw [scopedRest4_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W4, bigSep_W4]
  exact sound_body V c t

end Cert.KernelIdeal.Hand.R4

end
-- ==== Proof.KI.Sched5.lean ====
/-
  The schedule of this scatter launch, by arithmetic. The grid is 98 x 196 with the second axis
  innermost, so point t has first coordinate t / 196 % 147. The result window's block index depends on the first
  coordinate only; it therefore changes between t and t + 1 exactly when t is the last of its run of 196
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid5.stride 0 = 196 := by decide

/-- The result window's block index at point `t`: the first coordinate, then zero. -/
private theorem index_out (t : Fin grid5.N) : win5_2.index t = ![t.val / 196 % 98, 0] := by
  have h : (BitVec.ofNat 32 (t.val / 196 % 98)).toNat = t.val / 196 % 98 := by
    rw [BitVec.toNat_ofNat]; omega
  show cc5_transform_2 (grid5.coords t) = _
  unfold cc5_transform_2 Pipeline.Grid.coords
  simp only [stride_outer]
  show ![(BitVec.ofNat 32 (t.val / 196 % 98)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid5.N) :
    win5_2.index s ≠ win5_2.index t ↔ s.val / 196 % 98 ≠ t.val / 196 % 98 := by
  rw [index_out, index_out]; exact vec_ne _ _

/-- Window 2 (the result) is written back at the points ≡ 195 (mod 196): the last point of each run of 196 points
    sharing the first coordinate, the grid's last point among them. -/
theorem flush5_2 : ∀ t : Fin cfg5.N, (cfg5.win 2).flush t = true ↔ t.val % 196 = 195 := by
  intro t
  have hN : grid5.N = 19208 := N_5
  have hN' : cfg5.N = 19208 := N_5
  have ht : t.val < 19208 := lt_of_lt_of_eq t.isLt hN
  show win5_2.flush t = true ↔ _
  unfold Pipeline.Window.flush
  have hout : win5_2.isOut = true := rfl
  rw [hout, Bool.true_and, Bool.or_eq_true, decide_eq_true_eq, decide_eq_true_eq]
  constructor
  · rintro (h | ⟨h, hne⟩)
    · omega
    · have hq : (t.val + 1) / 196 % 98 ≠ t.val / 196 % 98 := (index_ne ⟨t.val + 1, h⟩ t).1 hne
      omega
  · intro h
    by_cases hl : t.val + 1 = grid5.N
    · exact Or.inl hl
    · have hlt : t.val + 1 < grid5.N := by omega
      have hq : (t.val + 1) / 196 % 98 ≠ t.val / 196 % 98 := by omega
      exact Or.inr ⟨hlt, (index_ne ⟨t.val + 1, hlt⟩ t).2 hq⟩

/-- The current staging memref of each window at point `t`: which of its buffers it is on. -/
abbrev st5_0 (t : Fin cfg5.N) := (cfg5.win 0).stage (cfg5.slots t 0)
abbrev st5_1 (t : Fin cfg5.N) := (cfg5.win 1).stage (cfg5.slots t 1)
abbrev st5_2 (t : Fin cfg5.N) := (cfg5.win 2).stage (cfg5.slots t 2)

/-- The kernel body at point `t`, on what the pipeline calls it with (`defs₀`'s row at the slots). -/
abbrev bodyAt5 (t : Fin cfg5.N) : Prog (TpuEff nD τ sig (Elt F) Λ₀ .tc) PUnit :=
  cc5__scatter_kernel (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (Memref.whole cc5_scratch0) (Memref.isWhole_whole _)

end Cert.KernelIdeal.Hand.Sched
-- ==== Proof.KI.R5.lean ====
/-
  Region 1 of the program (the scatter launch of the first propagation step), on any contents `V` of the unscoped
  buffers at its entry. Grid (98 node tiles) x (196 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched5
import Idealize.ShloMosaic.Lib.Pipeline.FrameBody
import Idealize.ShloMosaic.Lib.Pipeline.Frame
import Idealize.ShloMosaic.Lib.Tactic

set_option maxRecDepth 16384

noncomputable section

namespace Cert.KernelIdeal.Hand.R5

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The chunk's row indices and the chunk's weighted gathered rows at point `t`, at their literal types. -/
abbrev rowsBlk (c : Dev nD) (t : Fin cfg5.N) : Vec F S1x1x8192 .i32 := iblk V c 0 t
abbrev wgBlk (c : Dev nD) (t : Fin cfg5.N) : Vec F S1x8192x64 .f32 := iblk V c 1 t

/-- The accumulator after the body at point `t`, from the accumulator `a` before it: reset first when the point is a
    tile's first chunk. -/
def accStep (c : Dev nD) (t : Fin cfg5.N) (a : Vec F S1024x64 .f32) : Vec F S1024x64 .f32 :=
  k5_pay2 (grid5.coords t) (rowsBlk V c t) (wgBlk V c t) (if t.val % 196 = 0 then k5_pay1 else a)

/-- The accumulator before point `n` (after point `n - 1`). -/
def accAt (c : Dev nD) : ℕ → Vec F S1024x64 .f32
  | 0 => k5_pay1
  | n + 1 => if h : n < cfg5.N then accStep V c ⟨n, h⟩ (accAt c n) else k5_pay1

/-- The accumulator's buffer (the launch's scratch operand), whole. -/
abbrev accRef : Memref sig .tc .vmem S1024x64 .f32 := Memref.whole cc5_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg5 c where
  A w := V c (Pipeline.arrRef spec5 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 196 ≠ 0 → a = accAt V c t.val⌝)
    ∗ Pipeline.scopedRestBut (Ix := Unit) (Name := ℕ) (U := UR sig nD τ) (Lvl := ℕ) (Val := Elt F) spec5 c [cc5_scratch0])
  q _ := fullShare
  owed _ := 0

theorem A_eq (c : Dev nD) (w : Fin cfg5.W) : (dat V c).A w = V c (Pipeline.arrRef spec5 w) := by
  dsimp only [dat]

theorem after_out (c : Dev nD) (t : Fin cfg5.N) :
    (dat V c).after 2 t = accAt V c (t.val + 1) := by dsimp only [dat]

/-! ## The invariant at the region's two ends -/

/-- The invariant at a point, written out. -/
theorem Φ_eq (c : Dev nD) (t : Fin (cfg5.N + 1)) :
    (dat V c).Φ t = iprop((∃ a : Vec F S1024x64 .f32, owns (c : Thread nD τ) accRef fullShare a ∗ ⌜t.val % 196 ≠ 0 → a = accAt V c t.val⌝)
      ∗ Pipeline.scopedRestBut (Ix := Unit) (Name := ℕ) (U := UR sig nD τ) (Lvl := ℕ) (Val := Elt F) spec5 c [cc5_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec5 c : sProp 𝕄) ⊢ (dat V c).Φ 0 := by
  rw [scopedRest5_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg5.N) ⊢ (Pipeline.scopedRest (Ix := Unit) (Name := ℕ) (U := UR sig nD τ) (Lvl := ℕ) (Val := Elt F) spec5 c : sProp 𝕄) := by
  rw [scopedRest5_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg5.N) : accAt V c (t.val + 1) = accStep V c t (accAt V c t.val) := by
  rw [accAt, dif_pos t.isLt]

/-- After a tile's first chunk the accumulator is that chunk's product added to zero, -/
theorem accAt_succ_first (c : Dev nD) (t : Fin cfg5.N) (h : t.val % 196 = 0) :
    accAt V c (t.val + 1) = k5_pay2 (grid5.coords t) (rowsBlk V c t) (wgBlk V c t) k5_pay1 := by
  rw [accAt_succ, accStep, if_pos h]

/-- after any other the chunk's product added to what it was. -/
theorem accAt_succ_next (c : Dev nD) (t : Fin cfg5.N) (h : ¬t.val % 196 = 0) :
    accAt V c (t.val + 1) = k5_pay2 (grid5.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid5.Coords) : Prop :=
  (Scalar.cmpi .ne (Scalar.extui (Scalar.cmpi .eq (BitVec.ofNat 32 (i 1).val) 0#32)) 0#32) = 1#1
/-- The condition of its second (the result's store). -/
abbrev condLast (i : grid5.Coords) : Prop := k5_cond2 i = 1#1

/-- The chunk coordinate of point `t`: the chunk is the innermost axis. -/
theorem chunk_val (t : Fin cfg5.N) : (grid5.coords t 1).val = t.val % 196 := by
  show t.val / grid5.stride 1 % grid5.bound 1 = t.val % 196
  rw [show grid5.stride 1 = 1 from by decide, Nat.div_one]
  rfl

/-- Both conditions read the chunk coordinate alone: decided over the 196 chunks. -/
theorem condFirst_iff (i : grid5.Coords) : condFirst i ↔ (i 1).val = 0 :=
  (by decide +kernel : ∀ j : Fin 196,
    (Scalar.cmpi .ne (Scalar.extui (Scalar.cmpi .eq (BitVec.ofNat 32 j.val) 0#32)) 0#32) = 1#1 ↔ j.val = 0) (i 1)
theorem condLast_iff (i : grid5.Coords) : condLast i ↔ (i 1).val = 195 :=
  (by decide +kernel : ∀ j : Fin 196,
    (Scalar.cmpi .ne (Scalar.extui (Scalar.cmpi .eq (BitVec.ofNat 32 j.val) 195#32)) 0#32) = 1#1 ↔ j.val = 195) (i 1)

/-- The reset runs at a tile's first chunk only, -/
theorem hcondFirst (t : Fin cfg5.N) : condFirst (grid5.coords t) ↔ t.val % 196 = 0 := by
  rw [condFirst_iff, chunk_val]
/-- and the result is stored at a tile's last chunk only. -/
theorem hcondLast (t : Fin cfg5.N) : condLast (grid5.coords t) ↔ t.val % 196 = 195 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid5.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k5_pay2 i x0 x1 k5_pay1)) -∗ K ⟨⟩))
      ⊢ wp frame (wpE (defs₀ (F := F)) Variants.none c none) E
          (cc5__scatter_kernel i arg2 harg2 arg3 harg3 arg4 harg4 arg5 harg5) K := by
  simp only [cc5__scatter_kernel_eq_skeleton]; unfold cc5__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid5.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k5_pay2 i x0 x1 a)) -∗ K ⟨⟩))
      ⊢ wp frame (wpE (defs₀ (F := F)) Variants.none c none) E
          (cc5__scatter_kernel i arg2 harg2 arg3 harg3 arg4 harg4 arg5 harg5) K := by
  simp only [cc5__scatter_kernel_eq_skeleton]; unfold cc5__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid5.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k5_pay2 i x0 x1 a)
            ∗ owns (c : Thread nD τ) arg5 fullShare (k5_pay2 i x0 x1 a)) -∗ K ⟨⟩))
      ⊢ wp frame (wpE (defs₀ (F := F)) Variants.none c none) E
          (cc5__scatter_kernel i arg2 harg2 arg3 harg3 arg4 harg4 arg5 harg5) K := by
  simp only [cc5__scatter_kernel_eq_skeleton]; unfold cc5__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg5.N) : (dat V c).after 0 t = iblk V c 0 t := by dsimp only [dat]
theorem after_wg (c : Dev nD) (t : Fin cfg5.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg5.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg5.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg5.N) : Memref sig .tc .vmem S1x1x8192 .i32 := win5_0.stage (cfg5.slots t 0)
abbrev hstRows (t : Fin cfg5.N) : (stRows t).IsWhole := hstage5_0 ((cfg5.slots t 0).cast nbuf5_0)
abbrev stWg (t : Fin cfg5.N) : Memref sig .tc .vmem S1x8192x64 .f32 := win5_1.stage (cfg5.slots t 1)
abbrev hstWg (t : Fin cfg5.N) : (stWg t).IsWhole := hstage5_1 ((cfg5.slots t 1).cast nbuf5_1)
abbrev stOut (t : Fin cfg5.N) : Memref sig .tc .vmem S1024x64 .f32 := win5_2.stage (cfg5.slots t 2)
abbrev hstOut (t : Fin cfg5.N) : (stOut t).IsWhole := hstage5_2 ((cfg5.slots t 2).cast nbuf5_2)

/-- Where the result is not stored its window is idle and is not written back: the body hands its buffer back as it
    found it. -/
theorem leaves_out_idle (c : Dev nD) (t : Fin cfg5.N) (h : ¬t.val % 196 = 195) :
    (dat V c).leavesExact 2 t = iprop(∃ d, owns (c : Thread nD τ) (stOut t) fullShare ((dat V c).before 2 t d)) := by
  have hi : cfg5.idle 2 (cfg5.grid.coords t) = true := by
    show (!(k5_cond2 (grid5.coords t) == 1#1)) = true
    rw [Bool.not_eq_true', beq_eq_false_iff_ne]
    exact fun hk => h ((hcondLast t).mp hk)
  have hfl : (cfg5.win 2).flush t = false := Bool.eq_false_iff.mpr fun hfl => h ((flush5_2 t).mp hfl)
  exact (dat V c).leavesExact_idle 2 t hi hfl

/-- Where it is stored the window is live: its buffer is handed back at the accumulator. -/
theorem leaves_out_live (c : Dev nD) (t : Fin cfg5.N) (h : t.val % 196 = 195) :
    (dat V c).leavesExact 2 t = owns (c : Thread nD τ) (stOut t) fullShare ((dat V c).after 2 t) := by
  have hi : cfg5.idle 2 (cfg5.grid.coords t) = false := by
    show (!(k5_cond2 (grid5.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg5.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg5.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_rows, before_wg]
  rw [Φ_eq, Φ_eq, show (dat V c).owesAt () t.succ = (dat V c).owesAt () t.castSucc from rfl, after_rows, after_wg]
  simp only [Fin.coe_castSucc, Fin.val_succ]
  have hN : t.val < 19208 := lt_of_lt_of_eq t.isLt (show cfg5.N = 19208 from N_5)
  by_cases hl : t.val % 196 = 195
  · have hf : ¬t.val % 196 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid5.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 196 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid5.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid5.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W5, bigSep_W5]
  exact sound_body V c t

end Cert.KernelIdeal.Hand.R5

end
-- ==== Proof.KI.Sched6.lean ====
/-
  The schedule of this gather launch, by arithmetic. The grid is 196 x 98 with the second axis
  innermost, so point t has first coordinate t / 98 % 391. The result window's block index depends on the first
  coordinate only; it therefore changes between t and t + 1 exactly when t is the last of its run of 98
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid6.stride 0 = 98 := by decide

/-- The result window's block index at point `t`: the first coordinate, then zeros. -/
private theorem index_out (t : Fin grid6.N) : win6_3.index t = ![t.val / 98 % 196, 0, 0] := by
  have h : (BitVec.ofNat 32 (t.val / 98 % 196)).toNat = t.val / 98 % 196 := by
    rw [BitVec.toNat_ofNat]; omega
  show cc6_transform_3 (grid6.coords t) = _
  unfold cc6_transform_3 Pipeline.Grid.coords
  simp only [stride_outer]
  show ![(BitVec.ofNat 32 (t.val / 98 % 196)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid6.N) :
    win6_3.index s ≠ win6_3.index t ↔ s.val / 98 % 196 ≠ t.val / 98 % 196 := by
  rw [index_out, index_out]; exact vec_ne _ _

/-- Window 3 (the result) is written back at the points ≡ 97 (mod 98): the last point of each run of 98 points
    sharing the first coordinate, the grid's last point among them. -/
theorem flush6_3 : ∀ t : Fin cfg6.N, (cfg6.win 3).flush t = true ↔ t.val % 98 = 97 := by
  intro t
  have hN : grid6.N = 19208 := N_6
  have hN' : cfg6.N = 19208 := N_6
  have ht : t.val < 19208 := lt_of_lt_of_eq t.isLt hN
  show win6_3.flush t = true ↔ _
  unfold Pipeline.Window.flush
  have hout : win6_3.isOut = true := rfl
  rw [hout, Bool.true_and, Bool.or_eq_true, decide_eq_true_eq, decide_eq_true_eq]
  constructor
  · rintro (h | ⟨h, hne⟩)
    · omega
    · have hq : (t.val + 1) / 98 % 196 ≠ t.val / 98 % 196 := (index_ne ⟨t.val + 1, h⟩ t).1 hne
      omega
  · intro h
    by_cases hl : t.val + 1 = grid6.N
    · exact Or.inl hl
    · have hlt : t.val + 1 < grid6.N := by omega
      have hq : (t.val + 1) / 98 % 196 ≠ t.val / 98 % 196 := by omega
      exact Or.inr ⟨hlt, (index_ne ⟨t.val + 1, hlt⟩ t).2 hq⟩

/-- The current staging memref of each window at point `t`: which of its buffers it is on. -/
abbrev st6_0 (t : Fin cfg6.N) := (cfg6.win 0).stage (cfg6.slots t 0)
abbrev st6_1 (t : Fin cfg6.N) := (cfg6.win 1).stage (cfg6.slots t 1)
abbrev st6_2 (t : Fin cfg6.N) := (cfg6.win 2).stage (cfg6.slots t 2)
abbrev st6_3 (t : Fin cfg6.N) := (cfg6.win 3).stage (cfg6.slots t 3)

/-- The kernel body at point `t`, on what the pipeline calls it with (`defs₀`'s row at the slots). -/
abbrev bodyAt6 (t : Fin cfg6.N) : Prog (TpuEff nD τ sig (Elt F) Λ₀ .tc) PUnit :=
  cc6__gather_kernel (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (Memref.whole cc6_scratch0) (Memref.isWhole_whole _)

end Cert.KernelIdeal.Hand.Sched
-- ==== Proof.KI.R6.lean ====
/-
  Region 0 of the program (the gather launch of the first propagation step), on any contents `V` of the unscoped
  buffers at its entry. Grid (196 edge chunks) x (98 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched6
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand.R6

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The chunk's column indices, the chunk's edge weights and the node tile's feature rows at point `t`, at their literal types. -/
abbrev colsBlk (c : Dev nD) (t : Fin cfg6.N) : Vec F S1x1x8192 .i32 := iblk V c 0 t
abbrev valsBlk (c : Dev nD) (t : Fin cfg6.N) : Vec F S1x1x8192 .f32 := iblk V c 1 t
abbrev featBlk (c : Dev nD) (t : Fin cfg6.N) : Vec F S1024x64 .f32 := iblk V c 2 t

/-- The accumulator after the body at point `t`, from the accumulator `a` before it: reset first when the point is a
    chunk's first tile. -/
def accStep (c : Dev nD) (t : Fin cfg6.N) (a : Vec F S8192x64 .f32) : Vec F S8192x64 .f32 :=
  k6_pay2 (grid6.coords t) (colsBlk V c t) (featBlk V c t) (if t.val % 98 = 0 then k6_pay1 else a)

/-- The accumulator before point `n` (after point `n - 1`). -/
def accAt (c : Dev nD) : ℕ → Vec F S8192x64 .f32
  | 0 => k6_pay1
  | n + 1 => if h : n < cfg6.N then accStep V c ⟨n, h⟩ (accAt c n) else k6_pay1

/-- The accumulator's buffer (the launch's scratch operand), whole. -/
abbrev accRef : Memref sig .tc .vmem S8192x64 .f32 := Memref.whole cc6_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg6 c where
  A w := V c (Pipeline.arrRef spec6 w)
  after w t := match w with
    | ⟨0, _⟩ => iblk V c 0 t
    | ⟨1, _⟩ => iblk V c 1 t
    | ⟨2, _⟩ => iblk V c 2 t
    | ⟨3, _⟩ => k6_pay3 (valsBlk V c t) (accAt V c (t.val + 1))
  Φ t := iprop((∃ a : Vec F S8192x64 .f32, owns (c : Thread nD τ) accRef fullShare a ∗ ⌜t.val % 98 ≠ 0 → a = accAt V c t.val⌝)
    ∗ Pipeline.scopedRestBut (Ix := Unit) (Name := ℕ) (U := UR sig nD τ) (Lvl := ℕ) (Val := Elt F) spec6 c [cc6_scratch0])
  q _ := fullShare
  owed _ := 0

theorem A_eq (c : Dev nD) (w : Fin cfg6.W) : (dat V c).A w = V c (Pipeline.arrRef spec6 w) := by
  dsimp only [dat]

theorem after_out (c : Dev nD) (t : Fin cfg6.N) :
    (dat V c).after 3 t = k6_pay3 (valsBlk V c t) (accAt V c (t.val + 1)) := by dsimp only [dat]

/-! ## The accumulator's recursion -/

/-- One step of the recursion at a grid point. -/
theorem accAt_succ (c : Dev nD) (t : Fin cfg6.N) : accAt V c (t.val + 1) = accStep V c t (accAt V c t.val) := by
  rw [accAt, dif_pos t.isLt]

/-- The invariant at any point, its conjuncts written out. -/
theorem Φ_eq (c : Dev nD) (u : Fin (cfg6.N + 1)) :
    (dat V c).Φ u = iprop((∃ a : Vec F S8192x64 .f32, owns (c : Thread nD τ) accRef fullShare a ∗ ⌜u.val % 98 ≠ 0 → a = accAt V c u.val⌝)
      ∗ Pipeline.scopedRestBut (Ix := Unit) (Name := ℕ) (U := UR sig nD τ) (Lvl := ℕ) (Val := Elt F) spec6 c [cc6_scratch0]) := by
  dsimp only [dat]

theorem after_cols (c : Dev nD) (t : Fin cfg6.N) : (dat V c).after 0 t = iblk V c 0 t := by dsimp only [dat]
theorem after_vals (c : Dev nD) (t : Fin cfg6.N) : (dat V c).after 1 t = iblk V c 1 t := by dsimp only [dat]
theorem after_feat (c : Dev nD) (t : Fin cfg6.N) : (dat V c).after 2 t = iblk V c 2 t := by dsimp only [dat]

/-! ## The body's two conditionals, over the grid -/

/-- The first conditional (the accumulator is reset), as the body computes it from the tile coordinate. -/
abbrev isFirst (i : grid6.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg6.N) : ((grid6.coords t) 1).val = t.val % 98 := by
  show t.val / grid6.stride 1 % grid6.bound 1 = t.val % 98
  rw [show grid6.stride 1 = 1 from by decide, Nat.div_one]
  rfl

/-- It holds exactly at a chunk's first tile. -/
theorem isFirst_iff (t : Fin cfg6.N) : isFirst (grid6.coords t) ↔ t.val % 98 = 0 := by
  show Scalar.cmpi .ne (Scalar.extui (Scalar.cmpi .eq (BitVec.ofNat 32 ((grid6.coords t) 1).val) 0#32)) 0#32 = 1#1 ↔ _
  rw [tile_coord t]
  exact tileTest_iff (t.val % 98) 0 (by omega) (by decide)

/-- The second conditional (the result block is stored) holds exactly at a chunk's last tile. -/
theorem isLast_iff (t : Fin cfg6.N) : k6_cond2 (grid6.coords t) = 1#1 ↔ t.val % 98 = 97 := by
  show Scalar.cmpi .ne (Scalar.extui (Scalar.cmpi .eq (BitVec.ofNat 32 ((grid6.coords t) 1).val) 97#32)) 0#32 = 1#1 ↔ _
  rw [tile_coord t]
  exact tileTest_iff (t.val % 98) 97 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg6 c) (hA : D.A 0 = V c (Pipeline.arrRef spec6 0))
    (hafter : ∀ t, D.after 0 t = iblk V c 0 t) (t : Fin cfg6.N) (d) : D.before 0 t d = iblk V c 0 t := by
  have hkeep : ∀ u, (cfg6.win 0).cut (cfg6.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg6 c) (hA : D.A 1 = V c (Pipeline.arrRef spec6 1))
    (hafter : ∀ t, D.after 1 t = iblk V c 1 t) (t : Fin cfg6.N) (d) : D.before 1 t d = iblk V c 1 t := by
  have hkeep : ∀ u, (cfg6.win 1).cut (cfg6.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg6 c) (hA : D.A 2 = V c (Pipeline.arrRef spec6 2))
    (hafter : ∀ t, D.after 2 t = iblk V c 2 t) (t : Fin cfg6.N) (d) : D.before 2 t d = iblk V c 2 t := by
  have hkeep : ∀ u, (cfg6.win 2).cut (cfg6.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg6.N) (d) : (dat V c).before 0 t d = iblk V c 0 t :=
  before_cols_of V (dat V c) (A_eq V c 0) (after_cols V c) t d
theorem before_vals (c : Dev nD) (t : Fin cfg6.N) (d) : (dat V c).before 1 t d = iblk V c 1 t :=
  before_vals_of V (dat V c) (A_eq V c 1) (after_vals V c) t d
theorem before_feat (c : Dev nD) (t : Fin cfg6.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid6.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k6_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k6_pay2 i xc xf a)) -∗ K ⟨⟩))
      ⊢ wp frame (wpE (defs₀ (F := F)) Variants.none c none) E (cc6__gather_kernel i mc hmc mv hmv mf hmf mo hmo ma hma) K := by
  simp only [cc6__gather_kernel_eq_skeleton]; unfold cc6__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid6.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k6_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k6_pay2 i xc xf k6_pay1)) -∗ K ⟨⟩))
      ⊢ wp frame (wpE (defs₀ (F := F)) Variants.none c none) E (cc6__gather_kernel i mc hmc mv hmv mf hmf mo hmo ma hma) K := by
  simp only [cc6__gather_kernel_eq_skeleton]; unfold cc6__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k6_pay2 i xc xf) (View.readCov_cons_toLoadRect ma.view _ _ _)

/-- A chunk's last tile: the accumulator takes the tile's product, and the result's staging buffer, whatever it held,
    takes the accumulator's rows scaled by the edge weights. -/
theorem runLast (c : Dev nD) (i : grid6.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k6_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k6_pay3 xv (k6_pay2 i xc xf a))
            ∗ owns (c : Thread nD τ) ma fullShare (k6_pay2 i xc xf a)) -∗ K ⟨⟩))
      ⊢ wp frame (wpE (defs₀ (F := F)) Variants.none c none) E (cc6__gather_kernel i mc hmc mv hmv mf hmf mo hmo ma hma) K := by
  simp only [cc6__gather_kernel_eq_skeleton]; unfold cc6__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k6_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg6.N) : cfg6.idle 3 (cfg6.grid.coords t) = !(k6_cond2 (grid6.coords t) == 1#1) := rfl

theorem idle_of_not_last (t : Fin cfg6.N) (h : ¬t.val % 98 = 97) : cfg6.idle 3 (cfg6.grid.coords t) = true := by
  rw [idle_out, beq_eq_false_iff_ne.mpr fun e => h ((isLast_iff t).mp e)]; rfl

theorem live_of_last (t : Fin cfg6.N) (h : t.val % 98 = 97) : cfg6.idle 3 (cfg6.grid.coords t) = false := by
  rw [idle_out, (isLast_iff t).mpr h]; rfl

/-- At a live point the result's staging buffer is left at what the proof data names. -/
theorem leavesExact_live (c : Dev nD) (t : Fin cfg6.N) (hi : cfg6.idle 3 (cfg6.grid.coords t) = false) :
    ((dat V c).leavesExact 3 t : sProp 𝕄)
      = owns (c : Thread nD τ) ((cfg6.win 3).stage (cfg6.slots t 3)) fullShare ((dat V c).after 3 t) := by
  unfold Dat.leavesExact; rw [hi]

/-! ## The body obligation, at a generic point -/

/-- The staging buffers the body is called with at point `t`, at their literal types, and their wholeness. -/
abbrev mCols (t : Fin cfg6.N) : Memref sig .tc .vmem S1x1x8192 .i32 := win6_0.stage (cfg6.slots t 0)
abbrev hCols (t : Fin cfg6.N) : (mCols t).IsWhole := hstage6_0 ((cfg6.slots t 0).cast nbuf6_0)
abbrev mVals (t : Fin cfg6.N) : Memref sig .tc .vmem S1x1x8192 .f32 := win6_1.stage (cfg6.slots t 1)
abbrev hVals (t : Fin cfg6.N) : (mVals t).IsWhole := hstage6_1 ((cfg6.slots t 1).cast nbuf6_1)
abbrev mFeat (t : Fin cfg6.N) : Memref sig .tc .vmem S1024x64 .f32 := win6_2.stage (cfg6.slots t 2)
abbrev hFeat (t : Fin cfg6.N) : (mFeat t).IsWhole := hstage6_2 ((cfg6.slots t 2).cast nbuf6_2)
abbrev mOut (t : Fin cfg6.N) : Memref sig .tc .vmem S1x8192x64 .f32 := win6_3.stage (cfg6.slots t 3)
abbrev hOut (t : Fin cfg6.N) : (mOut t).IsWhole := hstage6_3 ((cfg6.slots t 3).cast nbuf6_3)

/-- What the body is called with at point `t`, the windows one by one, -/
def bodyPre (c : Dev nD) (t : Fin cfg6.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg6.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 98 = 0
  · have hl : ¬t.val % 98 = 97 := by omega
    have hfl : (cfg6.win 3).flush t = false := Bool.eq_false_iff.mpr fun h => hl ((flush6_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid6.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 98 = 97
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid6.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg6.win 3).flush t = false := Bool.eq_false_iff.mpr fun h => hl ((flush6_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid6.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec6 c : sProp 𝕄) ⊢ (dat V c).Φ 0 := by
  rw [scopedRest6_split, Φ_eq]
  refine sep_mono ?_ .rfl
  iintro ⟨%f, H⟩
  iexists f
  isplitl [H]
  · rw [owns_whole]; iexact H
  · ipureintro; intro h; exact absurd (Nat.zero_mod 98) h

/-- The invariant at the last point gives those buffers back. -/
theorem Φ_out (c : Dev nD) :
    (dat V c).Φ (Fin.last cfg6.N) ⊢ (Pipeline.scopedRest (Ix := Unit) (Name := ℕ) (U := UR sig nD τ) (Lvl := ℕ) (Val := Elt F) spec6 c : sProp 𝕄) := by
  rw [scopedRest6_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W6, bigSep_W6]
  exact sound_body V c t

end Cert.KernelIdeal.Hand.R6

end
-- ==== Proof.KI.Sched7.lean ====
/-
  The schedule of this scatter launch, by arithmetic. The grid is 98 x 196 with the second axis
  innermost, so point t has first coordinate t / 196 % 147. The result window's block index depends on the first
  coordinate only; it therefore changes between t and t + 1 exactly when t is the last of its run of 196
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid7.stride 0 = 196 := by decide

/-- The result window's block index at point `t`: the first coordinate, then zero. -/
private theorem index_out (t : Fin grid7.N) : win7_2.index t = ![t.val / 196 % 98, 0] := by
  have h : (BitVec.ofNat 32 (t.val / 196 % 98)).toNat = t.val / 196 % 98 := by
    rw [BitVec.toNat_ofNat]; omega
  show cc7_transform_2 (grid7.coords t) = _
  unfold cc7_transform_2 Pipeline.Grid.coords
  simp only [stride_outer]
  show ![(BitVec.ofNat 32 (t.val / 196 % 98)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid7.N) :
    win7_2.index s ≠ win7_2.index t ↔ s.val / 196 % 98 ≠ t.val / 196 % 98 := by
  rw [index_out, index_out]; exact vec_ne _ _

/-- Window 2 (the result) is written back at the points ≡ 195 (mod 196): the last point of each run of 196 points
    sharing the first coordinate, the grid's last point among them. -/
theorem flush7_2 : ∀ t : Fin cfg7.N, (cfg7.win 2).flush t = true ↔ t.val % 196 = 195 := by
  intro t
  have hN : grid7.N = 19208 := N_7
  have hN' : cfg7.N = 19208 := N_7
  have ht : t.val < 19208 := lt_of_lt_of_eq t.isLt hN
  show win7_2.flush t = true ↔ _
  unfold Pipeline.Window.flush
  have hout : win7_2.isOut = true := rfl
  rw [hout, Bool.true_and, Bool.or_eq_true, decide_eq_true_eq, decide_eq_true_eq]
  constructor
  · rintro (h | ⟨h, hne⟩)
    · omega
    · have hq : (t.val + 1) / 196 % 98 ≠ t.val / 196 % 98 := (index_ne ⟨t.val + 1, h⟩ t).1 hne
      omega
  · intro h
    by_cases hl : t.val + 1 = grid7.N
    · exact Or.inl hl
    · have hlt : t.val + 1 < grid7.N := by omega
      have hq : (t.val + 1) / 196 % 98 ≠ t.val / 196 % 98 := by omega
      exact Or.inr ⟨hlt, (index_ne ⟨t.val + 1, hlt⟩ t).2 hq⟩

/-- The current staging memref of each window at point `t`: which of its buffers it is on. -/
abbrev st7_0 (t : Fin cfg7.N) := (cfg7.win 0).stage (cfg7.slots t 0)
abbrev st7_1 (t : Fin cfg7.N) := (cfg7.win 1).stage (cfg7.slots t 1)
abbrev st7_2 (t : Fin cfg7.N) := (cfg7.win 2).stage (cfg7.slots t 2)

/-- The kernel body at point `t`, on what the pipeline calls it with (`defs₀`'s row at the slots). -/
abbrev bodyAt7 (t : Fin cfg7.N) : Prog (TpuEff nD τ sig (Elt F) Λ₀ .tc) PUnit :=
  cc7__scatter_kernel (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (Memref.whole cc7_scratch0) (Memref.isWhole_whole _)

end Cert.KernelIdeal.Hand.Sched
-- ==== Proof.KI.R7.lean ====
/-
  Region 1 of the program (the scatter launch of the first propagation step), on any contents `V` of the unscoped
  buffers at its entry. Grid (98 node tiles) x (196 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched7
import Idealize.ShloMosaic.Lib.Pipeline.FrameBody
import Idealize.ShloMosaic.Lib.Pipeline.Frame
import Idealize.ShloMosaic.Lib.Tactic

set_option maxRecDepth 16384

noncomputable section

namespace Cert.KernelIdeal.Hand.R7

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The chunk's row indices and the chunk's weighted gathered rows at point `t`, at their literal types. -/
abbrev rowsBlk (c : Dev nD) (t : Fin cfg7.N) : Vec F S1x1x8192 .i32 := iblk V c 0 t
abbrev wgBlk (c : Dev nD) (t : Fin cfg7.N) : Vec F S1x8192x64 .f32 := iblk V c 1 t

/-- The accumulator after the body at point `t`, from the accumulator `a` before it: reset first when the point is a
    tile's first chunk. -/
def accStep (c : Dev nD) (t : Fin cfg7.N) (a : Vec F S1024x64 .f32) : Vec F S1024x64 .f32 :=
  k7_pay2 (grid7.coords t) (rowsBlk V c t) (wgBlk V c t) (if t.val % 196 = 0 then k7_pay1 else a)

/-- The accumulator before point `n` (after point `n - 1`). -/
def accAt (c : Dev nD) : ℕ → Vec F S1024x64 .f32
  | 0 => k7_pay1
  | n + 1 => if h : n < cfg7.N then accStep V c ⟨n, h⟩ (accAt c n) else k7_pay1

/-- The accumulator's buffer (the launch's scratch operand), whole. -/
abbrev accRef : Memref sig .tc .vmem S1024x64 .f32 := Memref.whole cc7_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg7 c where
  A w := V c (Pipeline.arrRef spec7 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 196 ≠ 0 → a = accAt V c t.val⌝)
    ∗ Pipeline.scopedRestBut (Ix := Unit) (Name := ℕ) (U := UR sig nD τ) (Lvl := ℕ) (Val := Elt F) spec7 c [cc7_scratch0])
  q _ := fullShare
  owed _ := 0

theorem A_eq (c : Dev nD) (w : Fin cfg7.W) : (dat V c).A w = V c (Pipeline.arrRef spec7 w) := by
  dsimp only [dat]

theorem after_out (c : Dev nD) (t : Fin cfg7.N) :
    (dat V c).after 2 t = accAt V c (t.val + 1) := by dsimp only [dat]

/-! ## The invariant at the region's two ends -/

/-- The invariant at a point, written out. -/
theorem Φ_eq (c : Dev nD) (t : Fin (cfg7.N + 1)) :
    (dat V c).Φ t = iprop((∃ a : Vec F S1024x64 .f32, owns (c : Thread nD τ) accRef fullShare a ∗ ⌜t.val % 196 ≠ 0 → a = accAt V c t.val⌝)
      ∗ Pipeline.scopedRestBut (Ix := Unit) (Name := ℕ) (U := UR sig nD τ) (Lvl := ℕ) (Val := Elt F) spec7 c [cc7_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec7 c : sProp 𝕄) ⊢ (dat V c).Φ 0 := by
  rw [scopedRest7_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg7.N) ⊢ (Pipeline.scopedRest (Ix := Unit) (Name := ℕ) (U := UR sig nD τ) (Lvl := ℕ) (Val := Elt F) spec7 c : sProp 𝕄) := by
  rw [scopedRest7_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg7.N) : accAt V c (t.val + 1) = accStep V c t (accAt V c t.val) := by
  rw [accAt, dif_pos t.isLt]

/-- After a tile's first chunk the accumulator is that chunk's product added to zero, -/
theorem accAt_succ_first (c : Dev nD) (t : Fin cfg7.N) (h : t.val % 196 = 0) :
    accAt V c (t.val + 1) = k7_pay2 (grid7.coords t) (rowsBlk V c t) (wgBlk V c t) k7_pay1 := by
  rw [accAt_succ, accStep, if_pos h]

/-- after any other the chunk's product added to what it was. -/
theorem accAt_succ_next (c : Dev nD) (t : Fin cfg7.N) (h : ¬t.val % 196 = 0) :
    accAt V c (t.val + 1) = k7_pay2 (grid7.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid7.Coords) : Prop :=
  (Scalar.cmpi .ne (Scalar.extui (Scalar.cmpi .eq (BitVec.ofNat 32 (i 1).val) 0#32)) 0#32) = 1#1
/-- The condition of its second (the result's store). -/
abbrev condLast (i : grid7.Coords) : Prop := k7_cond2 i = 1#1

/-- The chunk coordinate of point `t`: the chunk is the innermost axis. -/
theorem chunk_val (t : Fin cfg7.N) : (grid7.coords t 1).val = t.val % 196 := by
  show t.val / grid7.stride 1 % grid7.bound 1 = t.val % 196
  rw [show grid7.stride 1 = 1 from by decide, Nat.div_one]
  rfl

/-- Both conditions read the chunk coordinate alone: decided over the 196 chunks. -/
theorem condFirst_iff (i : grid7.Coords) : condFirst i ↔ (i 1).val = 0 :=
  (by decide +kernel : ∀ j : Fin 196,
    (Scalar.cmpi .ne (Scalar.extui (Scalar.cmpi .eq (BitVec.ofNat 32 j.val) 0#32)) 0#32) = 1#1 ↔ j.val = 0) (i 1)
theorem condLast_iff (i : grid7.Coords) : condLast i ↔ (i 1).val = 195 :=
  (by decide +kernel : ∀ j : Fin 196,
    (Scalar.cmpi .ne (Scalar.extui (Scalar.cmpi .eq (BitVec.ofNat 32 j.val) 195#32)) 0#32) = 1#1 ↔ j.val = 195) (i 1)

/-- The reset runs at a tile's first chunk only, -/
theorem hcondFirst (t : Fin cfg7.N) : condFirst (grid7.coords t) ↔ t.val % 196 = 0 := by
  rw [condFirst_iff, chunk_val]
/-- and the result is stored at a tile's last chunk only. -/
theorem hcondLast (t : Fin cfg7.N) : condLast (grid7.coords t) ↔ t.val % 196 = 195 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid7.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k7_pay2 i x0 x1 k7_pay1)) -∗ K ⟨⟩))
      ⊢ wp frame (wpE (defs₀ (F := F)) Variants.none c none) E
          (cc7__scatter_kernel i arg2 harg2 arg3 harg3 arg4 harg4 arg5 harg5) K := by
  simp only [cc7__scatter_kernel_eq_skeleton]; unfold cc7__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid7.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k7_pay2 i x0 x1 a)) -∗ K ⟨⟩))
      ⊢ wp frame (wpE (defs₀ (F := F)) Variants.none c none) E
          (cc7__scatter_kernel i arg2 harg2 arg3 harg3 arg4 harg4 arg5 harg5) K := by
  simp only [cc7__scatter_kernel_eq_skeleton]; unfold cc7__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid7.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k7_pay2 i x0 x1 a)
            ∗ owns (c : Thread nD τ) arg5 fullShare (k7_pay2 i x0 x1 a)) -∗ K ⟨⟩))
      ⊢ wp frame (wpE (defs₀ (F := F)) Variants.none c none) E
          (cc7__scatter_kernel i arg2 harg2 arg3 harg3 arg4 harg4 arg5 harg5) K := by
  simp only [cc7__scatter_kernel_eq_skeleton]; unfold cc7__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg7.N) : (dat V c).after 0 t = iblk V c 0 t := by dsimp only [dat]
theorem after_wg (c : Dev nD) (t : Fin cfg7.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg7.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg7.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg7.N) : Memref sig .tc .vmem S1x1x8192 .i32 := win7_0.stage (cfg7.slots t 0)
abbrev hstRows (t : Fin cfg7.N) : (stRows t).IsWhole := hstage7_0 ((cfg7.slots t 0).cast nbuf7_0)
abbrev stWg (t : Fin cfg7.N) : Memref sig .tc .vmem S1x8192x64 .f32 := win7_1.stage (cfg7.slots t 1)
abbrev hstWg (t : Fin cfg7.N) : (stWg t).IsWhole := hstage7_1 ((cfg7.slots t 1).cast nbuf7_1)
abbrev stOut (t : Fin cfg7.N) : Memref sig .tc .vmem S1024x64 .f32 := win7_2.stage (cfg7.slots t 2)
abbrev hstOut (t : Fin cfg7.N) : (stOut t).IsWhole := hstage7_2 ((cfg7.slots t 2).cast nbuf7_2)

/-- Where the result is not stored its window is idle and is not written back: the body hands its buffer back as it
    found it. -/
theorem leaves_out_idle (c : Dev nD) (t : Fin cfg7.N) (h : ¬t.val % 196 = 195) :
    (dat V c).leavesExact 2 t = iprop(∃ d, owns (c : Thread nD τ) (stOut t) fullShare ((dat V c).before 2 t d)) := by
  have hi : cfg7.idle 2 (cfg7.grid.coords t) = true := by
    show (!(k7_cond2 (grid7.coords t) == 1#1)) = true
    rw [Bool.not_eq_true', beq_eq_false_iff_ne]
    exact fun hk => h ((hcondLast t).mp hk)
  have hfl : (cfg7.win 2).flush t = false := Bool.eq_false_iff.mpr fun hfl => h ((flush7_2 t).mp hfl)
  exact (dat V c).leavesExact_idle 2 t hi hfl

/-- Where it is stored the window is live: its buffer is handed back at the accumulator. -/
theorem leaves_out_live (c : Dev nD) (t : Fin cfg7.N) (h : t.val % 196 = 195) :
    (dat V c).leavesExact 2 t = owns (c : Thread nD τ) (stOut t) fullShare ((dat V c).after 2 t) := by
  have hi : cfg7.idle 2 (cfg7.grid.coords t) = false := by
    show (!(k7_cond2 (grid7.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg7.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg7.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_rows, before_wg]
  rw [Φ_eq, Φ_eq, show (dat V c).owesAt () t.succ = (dat V c).owesAt () t.castSucc from rfl, after_rows, after_wg]
  simp only [Fin.coe_castSucc, Fin.val_succ]
  have hN : t.val < 19208 := lt_of_lt_of_eq t.isLt (show cfg7.N = 19208 from N_7)
  by_cases hl : t.val % 196 = 195
  · have hf : ¬t.val % 196 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid7.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 196 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid7.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid7.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W7, bigSep_W7]
  exact sound_body V c t

end Cert.KernelIdeal.Hand.R7

end
-- ==== Proof.KI.Sched8.lean ====
/-
  The schedule of this gather launch, by arithmetic. The grid is 98 x 49 with the second axis
  innermost, so point t has first coordinate t / 49 % 391. The result window's block index depends on the first
  coordinate only; it therefore changes between t and t + 1 exactly when t is the last of its run of 49
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid8.stride 0 = 49 := by decide

/-- The result window's block index at point `t`: the first coordinate, then zeros. -/
private theorem index_out (t : Fin grid8.N) : win8_3.index t = ![t.val / 49 % 98, 0, 0] := by
  have h : (BitVec.ofNat 32 (t.val / 49 % 98)).toNat = t.val / 49 % 98 := by
    rw [BitVec.toNat_ofNat]; omega
  show cc8_transform_3 (grid8.coords t) = _
  unfold cc8_transform_3 Pipeline.Grid.coords
  simp only [stride_outer]
  show ![(BitVec.ofNat 32 (t.val / 49 % 98)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid8.N) :
    win8_3.index s ≠ win8_3.index t ↔ s.val / 49 % 98 ≠ t.val / 49 % 98 := by
  rw [index_out, index_out]; exact vec_ne _ _

/-- Window 3 (the result) is written back at the points ≡ 48 (mod 49): the last point of each run of 49 points
    sharing the first coordinate, the grid's last point among them. -/
theorem flush8_3 : ∀ t : Fin cfg8.N, (cfg8.win 3).flush t = true ↔ t.val % 49 = 48 := by
  intro t
  have hN : grid8.N = 4802 := N_8
  have hN' : cfg8.N = 4802 := N_8
  have ht : t.val < 4802 := lt_of_lt_of_eq t.isLt hN
  show win8_3.flush t = true ↔ _
  unfold Pipeline.Window.flush
  have hout : win8_3.isOut = true := rfl
  rw [hout, Bool.true_and, Bool.or_eq_true, decide_eq_true_eq, decide_eq_true_eq]
  constructor
  · rintro (h | ⟨h, hne⟩)
    · omega
    · have hq : (t.val + 1) / 49 % 98 ≠ t.val / 49 % 98 := (index_ne ⟨t.val + 1, h⟩ t).1 hne
      omega
  · intro h
    by_cases hl : t.val + 1 = grid8.N
    · exact Or.inl hl
    · have hlt : t.val + 1 < grid8.N := by omega
      have hq : (t.val + 1) / 49 % 98 ≠ t.val / 49 % 98 := by omega
      exact Or.inr ⟨hlt, (index_ne ⟨t.val + 1, hlt⟩ t).2 hq⟩

/-- The current staging memref of each window at point `t`: which of its buffers it is on. -/
abbrev st8_0 (t : Fin cfg8.N) := (cfg8.win 0).stage (cfg8.slots t 0)
abbrev st8_1 (t : Fin cfg8.N) := (cfg8.win 1).stage (cfg8.slots t 1)
abbrev st8_2 (t : Fin cfg8.N) := (cfg8.win 2).stage (cfg8.slots t 2)
abbrev st8_3 (t : Fin cfg8.N) := (cfg8.win 3).stage (cfg8.slots t 3)

/-- The kernel body at point `t`, on what the pipeline calls it with (`defs₀`'s row at the slots). -/
abbrev bodyAt8 (t : Fin cfg8.N) : Prog (TpuEff nD τ sig (Elt F) Λ₀ .tc) PUnit :=
  cc8__gather_kernel (grid8.coords t) (win8_0.stage (cfg8.slots t 0)) (hstage8_0 ((cfg8.slots t 0).cast nbuf8_0)) (win8_1.stage (cfg8.slots t 1)) (hstage8_1 ((cfg8.slots t 1).cast nbuf8_1)) (win8_2.stage (cfg8.slots t 2)) (hstage8_2 ((cfg8.slots t 2).cast nbuf8_2)) (win8_3.stage (cfg8.slots t 3)) (hstage8_3 ((cfg8.slots t 3).cast nbuf8_3)) (Memref.whole cc8_scratch0) (Memref.isWhole_whole _)

end Cert.KernelIdeal.Hand.Sched
-- ==== Proof.KI.R8.lean ====
/-
  Region 0 of the program (the gather launch of the first propagation step), on any contents `V` of the unscoped
  buffers at its entry. Grid (98 edge chunks) x (49 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched8
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand.R8

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The chunk's column indices, the chunk's edge weights and the node tile's feature rows at point `t`, at their literal types. -/
abbrev colsBlk (c : Dev nD) (t : Fin cfg8.N) : Vec F S1x1x8192 .i32 := iblk V c 0 t
abbrev valsBlk (c : Dev nD) (t : Fin cfg8.N) : Vec F S1x1x8192 .f32 := iblk V c 1 t
abbrev featBlk (c : Dev nD) (t : Fin cfg8.N) : Vec F S1024x64 .f32 := iblk V c 2 t

/-- The accumulator after the body at point `t`, from the accumulator `a` before it: reset first when the point is a
    chunk's first tile. -/
def accStep (c : Dev nD) (t : Fin cfg8.N) (a : Vec F S8192x64 .f32) : Vec F S8192x64 .f32 :=
  k8_pay2 (grid8.coords t) (colsBlk V c t) (featBlk V c t) (if t.val % 49 = 0 then k8_pay1 else a)

/-- The accumulator before point `n` (after point `n - 1`). -/
def accAt (c : Dev nD) : ℕ → Vec F S8192x64 .f32
  | 0 => k8_pay1
  | n + 1 => if h : n < cfg8.N then accStep V c ⟨n, h⟩ (accAt c n) else k8_pay1

/-- The accumulator's buffer (the launch's scratch operand), whole. -/
abbrev accRef : Memref sig .tc .vmem S8192x64 .f32 := Memref.whole cc8_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg8 c where
  A w := V c (Pipeline.arrRef spec8 w)
  after w t := match w with
    | ⟨0, _⟩ => iblk V c 0 t
    | ⟨1, _⟩ => iblk V c 1 t
    | ⟨2, _⟩ => iblk V c 2 t
    | ⟨3, _⟩ => k8_pay3 (valsBlk V c t) (accAt V c (t.val + 1))
  Φ t := iprop((∃ a : Vec F S8192x64 .f32, owns (c : Thread nD τ) accRef fullShare a ∗ ⌜t.val % 49 ≠ 0 → a = accAt V c t.val⌝)
    ∗ Pipeline.scopedRestBut (Ix := Unit) (Name := ℕ) (U := UR sig nD τ) (Lvl := ℕ) (Val := Elt F) spec8 c [cc8_scratch0])
  q _ := fullShare
  owed _ := 0

theorem A_eq (c : Dev nD) (w : Fin cfg8.W) : (dat V c).A w = V c (Pipeline.arrRef spec8 w) := by
  dsimp only [dat]

theorem after_out (c : Dev nD) (t : Fin cfg8.N) :
    (dat V c).after 3 t = k8_pay3 (valsBlk V c t) (accAt V c (t.val + 1)) := by dsimp only [dat]

/-! ## The accumulator's recursion -/

/-- One step of the recursion at a grid point. -/
theorem accAt_succ (c : Dev nD) (t : Fin cfg8.N) : accAt V c (t.val + 1) = accStep V c t (accAt V c t.val) := by
  rw [accAt, dif_pos t.isLt]

/-- The invariant at any point, its conjuncts written out. -/
theorem Φ_eq (c : Dev nD) (u : Fin (cfg8.N + 1)) :
    (dat V c).Φ u = iprop((∃ a : Vec F S8192x64 .f32, owns (c : Thread nD τ) accRef fullShare a ∗ ⌜u.val % 49 ≠ 0 → a = accAt V c u.val⌝)
      ∗ Pipeline.scopedRestBut (Ix := Unit) (Name := ℕ) (U := UR sig nD τ) (Lvl := ℕ) (Val := Elt F) spec8 c [cc8_scratch0]) := by
  dsimp only [dat]

theorem after_cols (c : Dev nD) (t : Fin cfg8.N) : (dat V c).after 0 t = iblk V c 0 t := by dsimp only [dat]
theorem after_vals (c : Dev nD) (t : Fin cfg8.N) : (dat V c).after 1 t = iblk V c 1 t := by dsimp only [dat]
theorem after_feat (c : Dev nD) (t : Fin cfg8.N) : (dat V c).after 2 t = iblk V c 2 t := by dsimp only [dat]

/-! ## The body's two conditionals, over the grid -/

/-- The first conditional (the accumulator is reset), as the body computes it from the tile coordinate. -/
abbrev isFirst (i : grid8.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg8.N) : ((grid8.coords t) 1).val = t.val % 49 := by
  show t.val / grid8.stride 1 % grid8.bound 1 = t.val % 49
  rw [show grid8.stride 1 = 1 from by decide, Nat.div_one]
  rfl

/-- It holds exactly at a chunk's first tile. -/
theorem isFirst_iff (t : Fin cfg8.N) : isFirst (grid8.coords t) ↔ t.val % 49 = 0 := by
  show Scalar.cmpi .ne (Scalar.extui (Scalar.cmpi .eq (BitVec.ofNat 32 ((grid8.coords t) 1).val) 0#32)) 0#32 = 1#1 ↔ _
  rw [tile_coord t]
  exact tileTest_iff (t.val % 49) 0 (by omega) (by decide)

/-- The second conditional (the result block is stored) holds exactly at a chunk's last tile. -/
theorem isLast_iff (t : Fin cfg8.N) : k8_cond2 (grid8.coords t) = 1#1 ↔ t.val % 49 = 48 := by
  show Scalar.cmpi .ne (Scalar.extui (Scalar.cmpi .eq (BitVec.ofNat 32 ((grid8.coords t) 1).val) 48#32)) 0#32 = 1#1 ↔ _
  rw [tile_coord t]
  exact tileTest_iff (t.val % 49) 48 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg8 c) (hA : D.A 0 = V c (Pipeline.arrRef spec8 0))
    (hafter : ∀ t, D.after 0 t = iblk V c 0 t) (t : Fin cfg8.N) (d) : D.before 0 t d = iblk V c 0 t := by
  have hkeep : ∀ u, (cfg8.win 0).cut (cfg8.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg8 c) (hA : D.A 1 = V c (Pipeline.arrRef spec8 1))
    (hafter : ∀ t, D.after 1 t = iblk V c 1 t) (t : Fin cfg8.N) (d) : D.before 1 t d = iblk V c 1 t := by
  have hkeep : ∀ u, (cfg8.win 1).cut (cfg8.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg8 c) (hA : D.A 2 = V c (Pipeline.arrRef spec8 2))
    (hafter : ∀ t, D.after 2 t = iblk V c 2 t) (t : Fin cfg8.N) (d) : D.before 2 t d = iblk V c 2 t := by
  have hkeep : ∀ u, (cfg8.win 2).cut (cfg8.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg8.N) (d) : (dat V c).before 0 t d = iblk V c 0 t :=
  before_cols_of V (dat V c) (A_eq V c 0) (after_cols V c) t d
theorem before_vals (c : Dev nD) (t : Fin cfg8.N) (d) : (dat V c).before 1 t d = iblk V c 1 t :=
  before_vals_of V (dat V c) (A_eq V c 1) (after_vals V c) t d
theorem before_feat (c : Dev nD) (t : Fin cfg8.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid8.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k8_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k8_pay2 i xc xf a)) -∗ K ⟨⟩))
      ⊢ wp frame (wpE (defs₀ (F := F)) Variants.none c none) E (cc8__gather_kernel i mc hmc mv hmv mf hmf mo hmo ma hma) K := by
  simp only [cc8__gather_kernel_eq_skeleton]; unfold cc8__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid8.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k8_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k8_pay2 i xc xf k8_pay1)) -∗ K ⟨⟩))
      ⊢ wp frame (wpE (defs₀ (F := F)) Variants.none c none) E (cc8__gather_kernel i mc hmc mv hmv mf hmf mo hmo ma hma) K := by
  simp only [cc8__gather_kernel_eq_skeleton]; unfold cc8__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k8_pay2 i xc xf) (View.readCov_cons_toLoadRect ma.view _ _ _)

/-- A chunk's last tile: the accumulator takes the tile's product, and the result's staging buffer, whatever it held,
    takes the accumulator's rows scaled by the edge weights. -/
theorem runLast (c : Dev nD) (i : grid8.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k8_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k8_pay3 xv (k8_pay2 i xc xf a))
            ∗ owns (c : Thread nD τ) ma fullShare (k8_pay2 i xc xf a)) -∗ K ⟨⟩))
      ⊢ wp frame (wpE (defs₀ (F := F)) Variants.none c none) E (cc8__gather_kernel i mc hmc mv hmv mf hmf mo hmo ma hma) K := by
  simp only [cc8__gather_kernel_eq_skeleton]; unfold cc8__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k8_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg8.N) : cfg8.idle 3 (cfg8.grid.coords t) = !(k8_cond2 (grid8.coords t) == 1#1) := rfl

theorem idle_of_not_last (t : Fin cfg8.N) (h : ¬t.val % 49 = 48) : cfg8.idle 3 (cfg8.grid.coords t) = true := by
  rw [idle_out, beq_eq_false_iff_ne.mpr fun e => h ((isLast_iff t).mp e)]; rfl

theorem live_of_last (t : Fin cfg8.N) (h : t.val % 49 = 48) : cfg8.idle 3 (cfg8.grid.coords t) = false := by
  rw [idle_out, (isLast_iff t).mpr h]; rfl

/-- At a live point the result's staging buffer is left at what the proof data names. -/
theorem leavesExact_live (c : Dev nD) (t : Fin cfg8.N) (hi : cfg8.idle 3 (cfg8.grid.coords t) = false) :
    ((dat V c).leavesExact 3 t : sProp 𝕄)
      = owns (c : Thread nD τ) ((cfg8.win 3).stage (cfg8.slots t 3)) fullShare ((dat V c).after 3 t) := by
  unfold Dat.leavesExact; rw [hi]

/-! ## The body obligation, at a generic point -/

/-- The staging buffers the body is called with at point `t`, at their literal types, and their wholeness. -/
abbrev mCols (t : Fin cfg8.N) : Memref sig .tc .vmem S1x1x8192 .i32 := win8_0.stage (cfg8.slots t 0)
abbrev hCols (t : Fin cfg8.N) : (mCols t).IsWhole := hstage8_0 ((cfg8.slots t 0).cast nbuf8_0)
abbrev mVals (t : Fin cfg8.N) : Memref sig .tc .vmem S1x1x8192 .f32 := win8_1.stage (cfg8.slots t 1)
abbrev hVals (t : Fin cfg8.N) : (mVals t).IsWhole := hstage8_1 ((cfg8.slots t 1).cast nbuf8_1)
abbrev mFeat (t : Fin cfg8.N) : Memref sig .tc .vmem S1024x64 .f32 := win8_2.stage (cfg8.slots t 2)
abbrev hFeat (t : Fin cfg8.N) : (mFeat t).IsWhole := hstage8_2 ((cfg8.slots t 2).cast nbuf8_2)
abbrev mOut (t : Fin cfg8.N) : Memref sig .tc .vmem S1x8192x64 .f32 := win8_3.stage (cfg8.slots t 3)
abbrev hOut (t : Fin cfg8.N) : (mOut t).IsWhole := hstage8_3 ((cfg8.slots t 3).cast nbuf8_3)

/-- What the body is called with at point `t`, the windows one by one, -/
def bodyPre (c : Dev nD) (t : Fin cfg8.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg8.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 49 = 0
  · have hl : ¬t.val % 49 = 48 := by omega
    have hfl : (cfg8.win 3).flush t = false := Bool.eq_false_iff.mpr fun h => hl ((flush8_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid8.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 49 = 48
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid8.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg8.win 3).flush t = false := Bool.eq_false_iff.mpr fun h => hl ((flush8_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid8.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec8 c : sProp 𝕄) ⊢ (dat V c).Φ 0 := by
  rw [scopedRest8_split, Φ_eq]
  refine sep_mono ?_ .rfl
  iintro ⟨%f, H⟩
  iexists f
  isplitl [H]
  · rw [owns_whole]; iexact H
  · ipureintro; intro h; exact absurd (Nat.zero_mod 49) h

/-- The invariant at the last point gives those buffers back. -/
theorem Φ_out (c : Dev nD) :
    (dat V c).Φ (Fin.last cfg8.N) ⊢ (Pipeline.scopedRest (Ix := Unit) (Name := ℕ) (U := UR sig nD τ) (Lvl := ℕ) (Val := Elt F) spec8 c : sProp 𝕄) := by
  rw [scopedRest8_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W8, bigSep_W8]
  exact sound_body V c t

end Cert.KernelIdeal.Hand.R8

end
-- ==== Proof.KI.Sched9.lean ====
/-
  The schedule of this scatter launch, by arithmetic. The grid is 49 x 98 with the second axis
  innermost, so point t has first coordinate t / 98 % 147. The result window's block index depends on the first
  coordinate only; it therefore changes between t and t + 1 exactly when t is the last of its run of 98
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid9.stride 0 = 98 := by decide

/-- The result window's block index at point `t`: the first coordinate, then zero. -/
private theorem index_out (t : Fin grid9.N) : win9_2.index t = ![t.val / 98 % 49, 0] := by
  have h : (BitVec.ofNat 32 (t.val / 98 % 49)).toNat = t.val / 98 % 49 := by
    rw [BitVec.toNat_ofNat]; omega
  show cc9_transform_2 (grid9.coords t) = _
  unfold cc9_transform_2 Pipeline.Grid.coords
  simp only [stride_outer]
  show ![(BitVec.ofNat 32 (t.val / 98 % 49)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid9.N) :
    win9_2.index s ≠ win9_2.index t ↔ s.val / 98 % 49 ≠ t.val / 98 % 49 := by
  rw [index_out, index_out]; exact vec_ne _ _

/-- Window 2 (the result) is written back at the points ≡ 97 (mod 98): the last point of each run of 98 points
    sharing the first coordinate, the grid's last point among them. -/
theorem flush9_2 : ∀ t : Fin cfg9.N, (cfg9.win 2).flush t = true ↔ t.val % 98 = 97 := by
  intro t
  have hN : grid9.N = 4802 := N_9
  have hN' : cfg9.N = 4802 := N_9
  have ht : t.val < 4802 := lt_of_lt_of_eq t.isLt hN
  show win9_2.flush t = true ↔ _
  unfold Pipeline.Window.flush
  have hout : win9_2.isOut = true := rfl
  rw [hout, Bool.true_and, Bool.or_eq_true, decide_eq_true_eq, decide_eq_true_eq]
  constructor
  · rintro (h | ⟨h, hne⟩)
    · omega
    · have hq : (t.val + 1) / 98 % 49 ≠ t.val / 98 % 49 := (index_ne ⟨t.val + 1, h⟩ t).1 hne
      omega
  · intro h
    by_cases hl : t.val + 1 = grid9.N
    · exact Or.inl hl
    · have hlt : t.val + 1 < grid9.N := by omega
      have hq : (t.val + 1) / 98 % 49 ≠ t.val / 98 % 49 := by omega
      exact Or.inr ⟨hlt, (index_ne ⟨t.val + 1, hlt⟩ t).2 hq⟩

/-- The current staging memref of each window at point `t`: which of its buffers it is on. -/
abbrev st9_0 (t : Fin cfg9.N) := (cfg9.win 0).stage (cfg9.slots t 0)
abbrev st9_1 (t : Fin cfg9.N) := (cfg9.win 1).stage (cfg9.slots t 1)
abbrev st9_2 (t : Fin cfg9.N) := (cfg9.win 2).stage (cfg9.slots t 2)

/-- The kernel body at point `t`, on what the pipeline calls it with (`defs₀`'s row at the slots). -/
abbrev bodyAt9 (t : Fin cfg9.N) : Prog (TpuEff nD τ sig (Elt F) Λ₀ .tc) PUnit :=
  cc9__scatter_kernel (grid9.coords t) (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) (Memref.whole cc9_scratch0) (Memref.isWhole_whole _)

end Cert.KernelIdeal.Hand.Sched
-- ==== Proof.KI.R9.lean ====
/-
  Region 1 of the program (the scatter launch of the first propagation step), on any contents `V` of the unscoped
  buffers at its entry. Grid (49 node tiles) x (98 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched9
import Idealize.ShloMosaic.Lib.Pipeline.FrameBody
import Idealize.ShloMosaic.Lib.Pipeline.Frame
import Idealize.ShloMosaic.Lib.Tactic

set_option maxRecDepth 16384

noncomputable section

namespace Cert.KernelIdeal.Hand.R9

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The chunk's row indices and the chunk's weighted gathered rows at point `t`, at their literal types. -/
abbrev rowsBlk (c : Dev nD) (t : Fin cfg9.N) : Vec F S1x1x8192 .i32 := iblk V c 0 t
abbrev wgBlk (c : Dev nD) (t : Fin cfg9.N) : Vec F S1x8192x64 .f32 := iblk V c 1 t

/-- The accumulator after the body at point `t`, from the accumulator `a` before it: reset first when the point is a
    tile's first chunk. -/
def accStep (c : Dev nD) (t : Fin cfg9.N) (a : Vec F S1024x64 .f32) : Vec F S1024x64 .f32 :=
  k9_pay2 (grid9.coords t) (rowsBlk V c t) (wgBlk V c t) (if t.val % 98 = 0 then k9_pay1 else a)

/-- The accumulator before point `n` (after point `n - 1`). -/
def accAt (c : Dev nD) : ℕ → Vec F S1024x64 .f32
  | 0 => k9_pay1
  | n + 1 => if h : n < cfg9.N then accStep V c ⟨n, h⟩ (accAt c n) else k9_pay1

/-- The accumulator's buffer (the launch's scratch operand), whole. -/
abbrev accRef : Memref sig .tc .vmem S1024x64 .f32 := Memref.whole cc9_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg9 c where
  A w := V c (Pipeline.arrRef spec9 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 98 ≠ 0 → a = accAt V c t.val⌝)
    ∗ Pipeline.scopedRestBut (Ix := Unit) (Name := ℕ) (U := UR sig nD τ) (Lvl := ℕ) (Val := Elt F) spec9 c [cc9_scratch0])
  q _ := fullShare
  owed _ := 0

theorem A_eq (c : Dev nD) (w : Fin cfg9.W) : (dat V c).A w = V c (Pipeline.arrRef spec9 w) := by
  dsimp only [dat]

theorem after_out (c : Dev nD) (t : Fin cfg9.N) :
    (dat V c).after 2 t = accAt V c (t.val + 1) := by dsimp only [dat]

/-! ## The invariant at the region's two ends -/

/-- The invariant at a point, written out. -/
theorem Φ_eq (c : Dev nD) (t : Fin (cfg9.N + 1)) :
    (dat V c).Φ t = iprop((∃ a : Vec F S1024x64 .f32, owns (c : Thread nD τ) accRef fullShare a ∗ ⌜t.val % 98 ≠ 0 → a = accAt V c t.val⌝)
      ∗ Pipeline.scopedRestBut (Ix := Unit) (Name := ℕ) (U := UR sig nD τ) (Lvl := ℕ) (Val := Elt F) spec9 c [cc9_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec9 c : sProp 𝕄) ⊢ (dat V c).Φ 0 := by
  rw [scopedRest9_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg9.N) ⊢ (Pipeline.scopedRest (Ix := Unit) (Name := ℕ) (U := UR sig nD τ) (Lvl := ℕ) (Val := Elt F) spec9 c : sProp 𝕄) := by
  rw [scopedRest9_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg9.N) : accAt V c (t.val + 1) = accStep V c t (accAt V c t.val) := by
  rw [accAt, dif_pos t.isLt]

/-- After a tile's first chunk the accumulator is that chunk's product added to zero, -/
theorem accAt_succ_first (c : Dev nD) (t : Fin cfg9.N) (h : t.val % 98 = 0) :
    accAt V c (t.val + 1) = k9_pay2 (grid9.coords t) (rowsBlk V c t) (wgBlk V c t) k9_pay1 := by
  rw [accAt_succ, accStep, if_pos h]

/-- after any other the chunk's product added to what it was. -/
theorem accAt_succ_next (c : Dev nD) (t : Fin cfg9.N) (h : ¬t.val % 98 = 0) :
    accAt V c (t.val + 1) = k9_pay2 (grid9.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid9.Coords) : Prop :=
  (Scalar.cmpi .ne (Scalar.extui (Scalar.cmpi .eq (BitVec.ofNat 32 (i 1).val) 0#32)) 0#32) = 1#1
/-- The condition of its second (the result's store). -/
abbrev condLast (i : grid9.Coords) : Prop := k9_cond2 i = 1#1

/-- The chunk coordinate of point `t`: the chunk is the innermost axis. -/
theorem chunk_val (t : Fin cfg9.N) : (grid9.coords t 1).val = t.val % 98 := by
  show t.val / grid9.stride 1 % grid9.bound 1 = t.val % 98
  rw [show grid9.stride 1 = 1 from by decide, Nat.div_one]
  rfl

/-- Both conditions read the chunk coordinate alone: decided over the 98 chunks. -/
theorem condFirst_iff (i : grid9.Coords) : condFirst i ↔ (i 1).val = 0 :=
  (by decide +kernel : ∀ j : Fin 98,
    (Scalar.cmpi .ne (Scalar.extui (Scalar.cmpi .eq (BitVec.ofNat 32 j.val) 0#32)) 0#32) = 1#1 ↔ j.val = 0) (i 1)
theorem condLast_iff (i : grid9.Coords) : condLast i ↔ (i 1).val = 97 :=
  (by decide +kernel : ∀ j : Fin 98,
    (Scalar.cmpi .ne (Scalar.extui (Scalar.cmpi .eq (BitVec.ofNat 32 j.val) 97#32)) 0#32) = 1#1 ↔ j.val = 97) (i 1)

/-- The reset runs at a tile's first chunk only, -/
theorem hcondFirst (t : Fin cfg9.N) : condFirst (grid9.coords t) ↔ t.val % 98 = 0 := by
  rw [condFirst_iff, chunk_val]
/-- and the result is stored at a tile's last chunk only. -/
theorem hcondLast (t : Fin cfg9.N) : condLast (grid9.coords t) ↔ t.val % 98 = 97 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid9.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k9_pay2 i x0 x1 k9_pay1)) -∗ K ⟨⟩))
      ⊢ wp frame (wpE (defs₀ (F := F)) Variants.none c none) E
          (cc9__scatter_kernel i arg2 harg2 arg3 harg3 arg4 harg4 arg5 harg5) K := by
  simp only [cc9__scatter_kernel_eq_skeleton]; unfold cc9__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid9.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k9_pay2 i x0 x1 a)) -∗ K ⟨⟩))
      ⊢ wp frame (wpE (defs₀ (F := F)) Variants.none c none) E
          (cc9__scatter_kernel i arg2 harg2 arg3 harg3 arg4 harg4 arg5 harg5) K := by
  simp only [cc9__scatter_kernel_eq_skeleton]; unfold cc9__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid9.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k9_pay2 i x0 x1 a)
            ∗ owns (c : Thread nD τ) arg5 fullShare (k9_pay2 i x0 x1 a)) -∗ K ⟨⟩))
      ⊢ wp frame (wpE (defs₀ (F := F)) Variants.none c none) E
          (cc9__scatter_kernel i arg2 harg2 arg3 harg3 arg4 harg4 arg5 harg5) K := by
  simp only [cc9__scatter_kernel_eq_skeleton]; unfold cc9__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg9.N) : (dat V c).after 0 t = iblk V c 0 t := by dsimp only [dat]
theorem after_wg (c : Dev nD) (t : Fin cfg9.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg9.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg9.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg9.N) : Memref sig .tc .vmem S1x1x8192 .i32 := win9_0.stage (cfg9.slots t 0)
abbrev hstRows (t : Fin cfg9.N) : (stRows t).IsWhole := hstage9_0 ((cfg9.slots t 0).cast nbuf9_0)
abbrev stWg (t : Fin cfg9.N) : Memref sig .tc .vmem S1x8192x64 .f32 := win9_1.stage (cfg9.slots t 1)
abbrev hstWg (t : Fin cfg9.N) : (stWg t).IsWhole := hstage9_1 ((cfg9.slots t 1).cast nbuf9_1)
abbrev stOut (t : Fin cfg9.N) : Memref sig .tc .vmem S1024x64 .f32 := win9_2.stage (cfg9.slots t 2)
abbrev hstOut (t : Fin cfg9.N) : (stOut t).IsWhole := hstage9_2 ((cfg9.slots t 2).cast nbuf9_2)

/-- Where the result is not stored its window is idle and is not written back: the body hands its buffer back as it
    found it. -/
theorem leaves_out_idle (c : Dev nD) (t : Fin cfg9.N) (h : ¬t.val % 98 = 97) :
    (dat V c).leavesExact 2 t = iprop(∃ d, owns (c : Thread nD τ) (stOut t) fullShare ((dat V c).before 2 t d)) := by
  have hi : cfg9.idle 2 (cfg9.grid.coords t) = true := by
    show (!(k9_cond2 (grid9.coords t) == 1#1)) = true
    rw [Bool.not_eq_true', beq_eq_false_iff_ne]
    exact fun hk => h ((hcondLast t).mp hk)
  have hfl : (cfg9.win 2).flush t = false := Bool.eq_false_iff.mpr fun hfl => h ((flush9_2 t).mp hfl)
  exact (dat V c).leavesExact_idle 2 t hi hfl

/-- Where it is stored the window is live: its buffer is handed back at the accumulator. -/
theorem leaves_out_live (c : Dev nD) (t : Fin cfg9.N) (h : t.val % 98 = 97) :
    (dat V c).leavesExact 2 t = owns (c : Thread nD τ) (stOut t) fullShare ((dat V c).after 2 t) := by
  have hi : cfg9.idle 2 (cfg9.grid.coords t) = false := by
    show (!(k9_cond2 (grid9.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg9.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg9.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_rows, before_wg]
  rw [Φ_eq, Φ_eq, show (dat V c).owesAt () t.succ = (dat V c).owesAt () t.castSucc from rfl, after_rows, after_wg]
  simp only [Fin.coe_castSucc, Fin.val_succ]
  have hN : t.val < 4802 := lt_of_lt_of_eq t.isLt (show cfg9.N = 4802 from N_9)
  by_cases hl : t.val % 98 = 97
  · have hf : ¬t.val % 98 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid9.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 98 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid9.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid9.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W9, bigSep_W9]
  exact sound_body V c t

end Cert.KernelIdeal.Hand.R9

end
-- ==== Proof.KI.Sched10.lean ====
/-
  The schedule of this gather launch, by arithmetic. The grid is 98 x 49 with the second axis
  innermost, so point t has first coordinate t / 49 % 391. The result window's block index depends on the first
  coordinate only; it therefore changes between t and t + 1 exactly when t is the last of its run of 49
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid10.stride 0 = 49 := by decide

/-- The result window's block index at point `t`: the first coordinate, then zeros. -/
private theorem index_out (t : Fin grid10.N) : win10_3.index t = ![t.val / 49 % 98, 0, 0] := by
  have h : (BitVec.ofNat 32 (t.val / 49 % 98)).toNat = t.val / 49 % 98 := by
    rw [BitVec.toNat_ofNat]; omega
  show cc10_transform_3 (grid10.coords t) = _
  unfold cc10_transform_3 Pipeline.Grid.coords
  simp only [stride_outer]
  show ![(BitVec.ofNat 32 (t.val / 49 % 98)).toNat, 0, 0] = _
  rw [h]

/-- Two block indices of the result window differ exactly when their first entries do. -/
private theorem vec_ne (a b : Nat) : (![a, 0, 0] : Fin 3 → Nat) ≠ ![b, 0, 0] ↔ a ≠ b :=
  not_congr ⟨fun h => congrFun h 0, fun h => h ▸ rfl⟩

/-- The result window's block indices at two points differ exactly when the points' first coordinates do. -/
private theorem index_ne (s t : Fin grid10.N) :
    win10_3.index s ≠ win10_3.index t ↔ s.val / 49 % 98 ≠ t.val / 49 % 98 := by
  rw [index_out, index_out]; exact vec_ne _ _

/-- Window 3 (the result) is written back at the points ≡ 48 (mod 49): the last point of each run of 49 points
    sharing the first coordinate, the grid's last point among them. -/
theorem flush10_3 : ∀ t : Fin cfg10.N, (cfg10.win 3).flush t = true ↔ t.val % 49 = 48 := by
  intro t
  have hN : grid10.N = 4802 := N_10
  have hN' : cfg10.N = 4802 := N_10
  have ht : t.val < 4802 := lt_of_lt_of_eq t.isLt hN
  show win10_3.flush t = true ↔ _
  unfold Pipeline.Window.flush
  have hout : win10_3.isOut = true := rfl
  rw [hout, Bool.true_and, Bool.or_eq_true, decide_eq_true_eq, decide_eq_true_eq]
  constructor
  · rintro (h | ⟨h, hne⟩)
    · omega
    · have hq : (t.val + 1) / 49 % 98 ≠ t.val / 49 % 98 := (index_ne ⟨t.val + 1, h⟩ t).1 hne
      omega
  · intro h
    by_cases hl : t.val + 1 = grid10.N
    · exact Or.inl hl
    · have hlt : t.val + 1 < grid10.N := by omega
      have hq : (t.val + 1) / 49 % 98 ≠ t.val / 49 % 98 := by omega
      exact Or.inr ⟨hlt, (index_ne ⟨t.val + 1, hlt⟩ t).2 hq⟩

/-- The current staging memref of each window at point `t`: which of its buffers it is on. -/
abbrev st10_0 (t : Fin cfg10.N) := (cfg10.win 0).stage (cfg10.slots t 0)
abbrev st10_1 (t : Fin cfg10.N) := (cfg10.win 1).stage (cfg10.slots t 1)
abbrev st10_2 (t : Fin cfg10.N) := (cfg10.win 2).stage (cfg10.slots t 2)
abbrev st10_3 (t : Fin cfg10.N) := (cfg10.win 3).stage (cfg10.slots t 3)

/-- The kernel body at point `t`, on what the pipeline calls it with (`defs₀`'s row at the slots). -/
abbrev bodyAt10 (t : Fin cfg10.N) : Prog (TpuEff nD τ sig (Elt F) Λ₀ .tc) PUnit :=
  cc10__gather_kernel (grid10.coords t) (win10_0.stage (cfg10.slots t 0)) (hstage10_0 ((cfg10.slots t 0).cast nbuf10_0)) (win10_1.stage (cfg10.slots t 1)) (hstage10_1 ((cfg10.slots t 1).cast nbuf10_1)) (win10_2.stage (cfg10.slots t 2)) (hstage10_2 ((cfg10.slots t 2).cast nbuf10_2)) (win10_3.stage (cfg10.slots t 3)) (hstage10_3 ((cfg10.slots t 3).cast nbuf10_3)) (Memref.whole cc10_scratch0) (Memref.isWhole_whole _)

end Cert.KernelIdeal.Hand.Sched
-- ==== Proof.KI.R10.lean ====
/-
  Region 0 of the program (the gather launch of the first propagation step), on any contents `V` of the unscoped
  buffers at its entry. Grid (98 edge chunks) x (49 node tiles), the node tile innermost. At a point (chunk, tile) the body
  adds to a carried accumulator (8192 edges x 64 features, reset at tile 0) the product of the chunk's one-hot matrix
  against the tile (entry (e, k) is 1 when the edge's column index is node 1024*tile + k) with the tile's 1024 feature
  rows; at the last tile it scales row e of the accumulator by the edge's weight and stores the chunk's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched10
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand.R10

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The chunk's column indices, the chunk's edge weights and the node tile's feature rows at point `t`, at their literal types. -/
abbrev colsBlk (c : Dev nD) (t : Fin cfg10.N) : Vec F S1x1x8192 .i32 := iblk V c 0 t
abbrev valsBlk (c : Dev nD) (t : Fin cfg10.N) : Vec F S1x1x8192 .f32 := iblk V c 1 t
abbrev featBlk (c : Dev nD) (t : Fin cfg10.N) : Vec F S1024x64 .f32 := iblk V c 2 t

/-- The accumulator after the body at point `t`, from the accumulator `a` before it: reset first when the point is a
    chunk's first tile. -/
def accStep (c : Dev nD) (t : Fin cfg10.N) (a : Vec F S8192x64 .f32) : Vec F S8192x64 .f32 :=
  k10_pay2 (grid10.coords t) (colsBlk V c t) (featBlk V c t) (if t.val % 49 = 0 then k10_pay1 else a)

/-- The accumulator before point `n` (after point `n - 1`). -/
def accAt (c : Dev nD) : ℕ → Vec F S8192x64 .f32
  | 0 => k10_pay1
  | n + 1 => if h : n < cfg10.N then accStep V c ⟨n, h⟩ (accAt c n) else k10_pay1

/-- The accumulator's buffer (the launch's scratch operand), whole. -/
abbrev accRef : Memref sig .tc .vmem S8192x64 .f32 := Memref.whole cc10_scratch0

/-- The proof data: the arrays as the region finds them; the inputs' staging buffers keep their blocks; the result's
    staging buffer after a chunk's last tile holds the scaled accumulator; between points the accumulator's buffer holds
    `accAt` (anything before a chunk's first tile, which resets it); nothing owed. -/
def dat (c : Dev nD) : Dat τ (Elt F) Unit ℕ (UR sig nD τ) ℕ cfg10 c where
  A w := V c (Pipeline.arrRef spec10 w)
  after w t := match w with
    | ⟨0, _⟩ => iblk V c 0 t
    | ⟨1, _⟩ => iblk V c 1 t
    | ⟨2, _⟩ => iblk V c 2 t
    | ⟨3, _⟩ => k10_pay3 (valsBlk V c t) (accAt V c (t.val + 1))
  Φ t := iprop((∃ a : Vec F S8192x64 .f32, owns (c : Thread nD τ) accRef fullShare a ∗ ⌜t.val % 49 ≠ 0 → a = accAt V c t.val⌝)
    ∗ Pipeline.scopedRestBut (Ix := Unit) (Name := ℕ) (U := UR sig nD τ) (Lvl := ℕ) (Val := Elt F) spec10 c [cc10_scratch0])
  q _ := fullShare
  owed _ := 0

theorem A_eq (c : Dev nD) (w : Fin cfg10.W) : (dat V c).A w = V c (Pipeline.arrRef spec10 w) := by
  dsimp only [dat]

theorem after_out (c : Dev nD) (t : Fin cfg10.N) :
    (dat V c).after 3 t = k10_pay3 (valsBlk V c t) (accAt V c (t.val + 1)) := by dsimp only [dat]

/-! ## The accumulator's recursion -/

/-- One step of the recursion at a grid point. -/
theorem accAt_succ (c : Dev nD) (t : Fin cfg10.N) : accAt V c (t.val + 1) = accStep V c t (accAt V c t.val) := by
  rw [accAt, dif_pos t.isLt]

/-- The invariant at any point, its conjuncts written out. -/
theorem Φ_eq (c : Dev nD) (u : Fin (cfg10.N + 1)) :
    (dat V c).Φ u = iprop((∃ a : Vec F S8192x64 .f32, owns (c : Thread nD τ) accRef fullShare a ∗ ⌜u.val % 49 ≠ 0 → a = accAt V c u.val⌝)
      ∗ Pipeline.scopedRestBut (Ix := Unit) (Name := ℕ) (U := UR sig nD τ) (Lvl := ℕ) (Val := Elt F) spec10 c [cc10_scratch0]) := by
  dsimp only [dat]

theorem after_cols (c : Dev nD) (t : Fin cfg10.N) : (dat V c).after 0 t = iblk V c 0 t := by dsimp only [dat]
theorem after_vals (c : Dev nD) (t : Fin cfg10.N) : (dat V c).after 1 t = iblk V c 1 t := by dsimp only [dat]
theorem after_feat (c : Dev nD) (t : Fin cfg10.N) : (dat V c).after 2 t = iblk V c 2 t := by dsimp only [dat]

/-! ## The body's two conditionals, over the grid -/

/-- The first conditional (the accumulator is reset), as the body computes it from the tile coordinate. -/
abbrev isFirst (i : grid10.Coords) : Prop :=
  (Scalar.cmpi .ne (Scalar.extui (Scalar.cmpi .eq (BitVec.ofNat 32 (i 1).val) 0#32)) 0#32) = 1#1

/-- Compare a number with a constant, widen the bit, compare with zero: one exactly when the two numbers agree
    (both below 2 ^ 32, so that their words differ when they do). -/
theorem tileTest_iff (n k : ℕ) (hn : n < 2 ^ 32) (hk : k < 2 ^ 32) :
    Scalar.cmpi .ne (Scalar.extui (Scalar.cmpi .eq (BitVec.ofNat 32 n) (BitVec.ofNat 32 k))) 0#32 = 1#1 ↔ n = k := by
  by_cases h : n = k
  · subst h
    have e : Scalar.cmpi .eq (BitVec.ofNat 32 n) (BitVec.ofNat 32 n) = 1#1 := by
      show BitVec.ofBool (BitVec.ofNat 32 n == BitVec.ofNat 32 n) = 1#1
      rw [beq_self_eq_true]; rfl
    rw [e]; exact ⟨fun _ => rfl, fun _ => by decide⟩
  · have hne : (BitVec.ofNat 32 n == BitVec.ofNat 32 k) = false := beq_eq_false_iff_ne.mpr fun e => h (by
      have := congrArg BitVec.toNat e
      rwa [BitVec.toNat_ofNat, BitVec.toNat_ofNat, Nat.mod_eq_of_lt hn, Nat.mod_eq_of_lt hk] at this)
    have e : Scalar.cmpi .eq (BitVec.ofNat 32 n) (BitVec.ofNat 32 k) = 0#1 := by
      show BitVec.ofBool (BitVec.ofNat 32 n == BitVec.ofNat 32 k) = 0#1
      rw [hne]; rfl
    rw [e]; exact ⟨fun hh => absurd hh (by decide), fun hh => absurd hh h⟩

/-- The tile coordinate of the grid's point number `t`: the tile axis is innermost, so it is the point's number modulo
    the number of tiles. -/
theorem tile_coord (t : Fin cfg10.N) : ((grid10.coords t) 1).val = t.val % 49 := by
  show t.val / grid10.stride 1 % grid10.bound 1 = t.val % 49
  rw [show grid10.stride 1 = 1 from by decide, Nat.div_one]
  rfl

/-- It holds exactly at a chunk's first tile. -/
theorem isFirst_iff (t : Fin cfg10.N) : isFirst (grid10.coords t) ↔ t.val % 49 = 0 := by
  show Scalar.cmpi .ne (Scalar.extui (Scalar.cmpi .eq (BitVec.ofNat 32 ((grid10.coords t) 1).val) 0#32)) 0#32 = 1#1 ↔ _
  rw [tile_coord t]
  exact tileTest_iff (t.val % 49) 0 (by omega) (by decide)

/-- The second conditional (the result block is stored) holds exactly at a chunk's last tile. -/
theorem isLast_iff (t : Fin cfg10.N) : k10_cond2 (grid10.coords t) = 1#1 ↔ t.val % 49 = 48 := by
  show Scalar.cmpi .ne (Scalar.extui (Scalar.cmpi .eq (BitVec.ofNat 32 ((grid10.coords t) 1).val) 48#32)) 0#32 = 1#1 ↔ _
  rw [tile_coord t]
  exact tileTest_iff (t.val % 49) 48 (by omega) (by decide)

/-! ## The input windows hold their blocks at every point -/

/-- An input window that is never idle and whose body leaves its block in place holds that block whenever the body
    runs, fetched at that point or not: unfetched, its block index has not moved since the point before. -/
theorem before_cols_of {c : Dev nD} (D : Dat τ (Elt F) Unit ℕ (UR sig nD τ) ℕ cfg10 c) (hA : D.A 0 = V c (Pipeline.arrRef spec10 0))
    (hafter : ∀ t, D.after 0 t = iblk V c 0 t) (t : Fin cfg10.N) (d) : D.before 0 t d = iblk V c 0 t := by
  have hkeep : ∀ u, (cfg10.win 0).cut (cfg10.grid.coords u) (D.after 0 u) = D.blockOf 0 u := fun u => by
    rw [hafter]; unfold Dat.blockOf iblk; rw [hA]
  rw [D.before_in_eq_fetched 0 rfl (fun _ => rfl) (fun _ _ _ => rfl) hkeep t d]
  unfold Dat.fetched Dat.blockOf iblk; rw [hA]; rfl

theorem before_vals_of {c : Dev nD} (D : Dat τ (Elt F) Unit ℕ (UR sig nD τ) ℕ cfg10 c) (hA : D.A 1 = V c (Pipeline.arrRef spec10 1))
    (hafter : ∀ t, D.after 1 t = iblk V c 1 t) (t : Fin cfg10.N) (d) : D.before 1 t d = iblk V c 1 t := by
  have hkeep : ∀ u, (cfg10.win 1).cut (cfg10.grid.coords u) (D.after 1 u) = D.blockOf 1 u := fun u => by
    rw [hafter]; unfold Dat.blockOf iblk; rw [hA]
  rw [D.before_in_eq_fetched 1 rfl (fun _ => rfl) (fun _ _ _ => rfl) hkeep t d]
  unfold Dat.fetched Dat.blockOf iblk; rw [hA]; rfl

theorem before_feat_of {c : Dev nD} (D : Dat τ (Elt F) Unit ℕ (UR sig nD τ) ℕ cfg10 c) (hA : D.A 2 = V c (Pipeline.arrRef spec10 2))
    (hafter : ∀ t, D.after 2 t = iblk V c 2 t) (t : Fin cfg10.N) (d) : D.before 2 t d = iblk V c 2 t := by
  have hkeep : ∀ u, (cfg10.win 2).cut (cfg10.grid.coords u) (D.after 2 u) = D.blockOf 2 u := fun u => by
    rw [hafter]; unfold Dat.blockOf iblk; rw [hA]
  rw [D.before_in_eq_fetched 2 rfl (fun _ => rfl) (fun _ _ _ => rfl) hkeep t d]
  unfold Dat.fetched Dat.blockOf iblk; rw [hA]; rfl

theorem before_cols (c : Dev nD) (t : Fin cfg10.N) (d) : (dat V c).before 0 t d = iblk V c 0 t :=
  before_cols_of V (dat V c) (A_eq V c 0) (after_cols V c) t d
theorem before_vals (c : Dev nD) (t : Fin cfg10.N) (d) : (dat V c).before 1 t d = iblk V c 1 t :=
  before_vals_of V (dat V c) (A_eq V c 1) (after_vals V c) t d
theorem before_feat (c : Dev nD) (t : Fin cfg10.N) (d) : (dat V c).before 2 t d = iblk V c 2 t :=
  before_feat_of V (dat V c) (A_eq V c 2) (after_feat V c) t d

/-! ## The body on any whole staging buffers -/

/-- A store through the whole block, last, leaves its payload, whatever was stored before it. -/
theorem read_store_whole {s : Shape} {e : EltTy} (m : Memref sig .tc .vmem s e) (f : m.view.ty.Contents (Elt F))
    {off : Fin s.rank → ℕ} (h : off = fun _ => 0) (inb : ∀ a, off a + s.size a ≤ s.size a) (w : s.Idx → Elt F e)
    (L : List (View.Piece (Elt F) s e)) :
    m.view.read (Elt F) (m.view.writes (Elt F) f ((⟨Rect.unit off s.size inb, w⟩ : View.Piece (Elt F) s e) :: L)) = w := by
  subst h; funext y
  have e := View.read_writes_cons_emb m.view f (Rect.whole s) w L y
  rwa [Rect.emb_whole_apply] at e

/-- A load through the whole block of a whole buffer reads its contents. -/
theorem load_whole {s : Shape} {e : EltTy} (m : Memref sig .tc .vmem s e) (h : m.IsWhole)
    {off : Fin s.rank → ℕ} (hz : off = fun _ => 0) (inb : ∀ a, off a + s.size a ≤ s.size a) (X : s.Idx → Elt F e) :
    m.view.readAt (Elt F) (Rect.unit off s.size inb).toLoadRect (h.unread X) = X := by
  funext x
  rw [View.readAt_apply, h.read_unread]
  exact congrFun (View.ld_unit_zero hz inb X) x

/-- The body's offsets, all zero, at rank two and at rank three. -/
theorem zerosPair : (![0, 0] : Fin 2 → ℕ) = fun _ => 0 := by funext a; fin_cases a <;> rfl
theorem zerosTriple : (![0, 0, 0] : Fin 3 → ℕ) = fun _ => 0 := by funext a; fin_cases a <;> rfl

/-- A middle tile: the accumulator takes the tile's product; every staging buffer is left as found. -/
theorem runMid (c : Dev nD) (i : grid10.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : ¬k10_cond2 i = 1#1)
    (xc : Vec F S1x1x8192 .i32) (xv : Vec F S1x1x8192 .f32) (xf : Vec F S1024x64 .f32) (xo : Vec F S1x8192x64 .f32)
    (a : Vec F S8192x64 .f32) (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k10_pay2 i xc xf a)) -∗ K ⟨⟩))
      ⊢ wp frame (wpE (defs₀ (F := F)) Variants.none c none) E (cc10__gather_kernel i mc hmc mv hmv mf hmf mo hmo ma hma) K := by
  simp only [cc10__gather_kernel_eq_skeleton]; unfold cc10__gather_kernel_skel
  unfold owns
  iintro ⟨⟨%fc, %hfc, Hc⟩, ⟨%fv, %hfv, Hv⟩, ⟨%ff, %hff, Hf⟩, ⟨%fo, %hfo, Ho⟩, ⟨%fa, %hfa, Ha⟩, Hk⟩
  obtain rfl := hmc.eq_unread hfc; obtain rfl := hmv.eq_unread hfv; obtain rfl := hmf.eq_unread hff
  obtain rfl := hmo.eq_unread hfo; obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair, load_whole ma hma zerosPair]

/-- A chunk's first tile: the accumulator, whatever it held, is reset and takes the tile's product. -/
theorem runFirst (c : Dev nD) (i : grid10.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : isFirst i) (hl : ¬k10_cond2 i = 1#1)
    (xc : Vec F S1x1x8192 .i32) (xv : Vec F S1x1x8192 .f32) (xf : Vec F S1024x64 .f32) (xo : Vec F S1x8192x64 .f32)
    (E : Set ℕ) (K : PUnit → sProp 𝕄) :
    iprop(owns (c : Thread nD τ) mc fullShare xc ∗ owns (c : Thread nD τ) mv fullShare xv ∗ owns (c : Thread nD τ) mf fullShare xf
        ∗ owns (c : Thread nD τ) mo fullShare xo ∗ (∃ a, owns (c : Thread nD τ) ma fullShare a)
        ∗ (iprop(owns (c : Thread nD τ) mc fullShare xc ∗ owns (c : Thread nD τ) mv fullShare xv ∗ owns (c : Thread nD τ) mf fullShare xf
            ∗ owns (c : Thread nD τ) mo fullShare xo ∗ owns (c : Thread nD τ) ma fullShare (k10_pay2 i xc xf k10_pay1)) -∗ K ⟨⟩))
      ⊢ wp frame (wpE (defs₀ (F := F)) Variants.none c none) E (cc10__gather_kernel i mc hmc mv hmv mf hmf mo hmo ma hma) K := by
  simp only [cc10__gather_kernel_eq_skeleton]; unfold cc10__gather_kernel_skel
  unfold owns
  iintro ⟨⟨%fc, %hfc, Hc⟩, ⟨%fv, %hfv, Hv⟩, ⟨%ff, %hff, Hf⟩, ⟨%fo, %hfo, Ho⟩, ⟨%a, %fa, -, Ha⟩, Hk⟩
  obtain rfl := hmc.eq_unread hfc; obtain rfl := hmv.eq_unread hfv; obtain rfl := hmf.eq_unread hff
  obtain rfl := hmo.eq_unread hfo
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr; · ipureintro; exact hmo.read_unread _
    iexact Ho
  iexists _; isplitr
  swap; · iexact Ha
  ipureintro
  refine (read_store_whole ma _ zerosPair _ _ _).trans ?_
  rw [load_whole mc hmc zerosTriple, load_whole mf hmf zerosPair]
  exact congrArg (k10_pay2 i xc xf) (View.readCov_cons_toLoadRect ma.view _ _ _)

/-- A chunk's last tile: the accumulator takes the tile's product, and the result's staging buffer, whatever it held,
    takes the accumulator's rows scaled by the edge weights. -/
theorem runLast (c : Dev nD) (i : grid10.Coords)
    (mc : Memref sig .tc .vmem S1x1x8192 .i32) (hmc : mc.IsWhole) (mv : Memref sig .tc .vmem S1x1x8192 .f32) (hmv : mv.IsWhole)
    (mf : Memref sig .tc .vmem S1024x64 .f32) (hmf : mf.IsWhole) (mo : Memref sig .tc .vmem S1x8192x64 .f32) (hmo : mo.IsWhole)
    (ma : Memref sig .tc .vmem S8192x64 .f32) (hma : ma.IsWhole) (hf : ¬isFirst i) (hl : k10_cond2 i = 1#1)
    (xc : Vec F S1x1x8192 .i32) (xv : Vec F S1x1x8192 .f32) (xf : Vec F S1024x64 .f32) (a : Vec F S8192x64 .f32)
    (E : Set ℕ) (K : PUnit → sProp 𝕄) :
    iprop(owns (c : Thread nD τ) mc fullShare xc ∗ owns (c : Thread nD τ) mv fullShare xv ∗ owns (c : Thread nD τ) mf fullShare xf
        ∗ (∃ d, owns (c : Thread nD τ) mo fullShare d) ∗ owns (c : Thread nD τ) ma fullShare a
        ∗ (iprop(owns (c : Thread nD τ) mc fullShare xc ∗ owns (c : Thread nD τ) mv fullShare xv ∗ owns (c : Thread nD τ) mf fullShare xf
            ∗ owns (c : Thread nD τ) mo fullShare (k10_pay3 xv (k10_pay2 i xc xf a))
            ∗ owns (c : Thread nD τ) ma fullShare (k10_pay2 i xc xf a)) -∗ K ⟨⟩))
      ⊢ wp frame (wpE (defs₀ (F := F)) Variants.none c none) E (cc10__gather_kernel i mc hmc mv hmv mf hmf mo hmo ma hma) K := by
  simp only [cc10__gather_kernel_eq_skeleton]; unfold cc10__gather_kernel_skel
  unfold owns
  iintro ⟨⟨%fc, %hfc, Hc⟩, ⟨%fv, %hfv, Hv⟩, ⟨%ff, %hff, Hf⟩, ⟨%d, %fo, -, Ho⟩, ⟨%fa, %hfa, Ha⟩, Hk⟩
  obtain rfl := hmc.eq_unread hfc; obtain rfl := hmv.eq_unread hfv; obtain rfl := hmf.eq_unread hff
  obtain rfl := hma.eq_unread hfa
  sl_exec (disch := first | sl_exact hf | sl_exact hl)
  sl_step
  iapply Hk
  isplitl [Hc]
  · iexists _; isplitr; · ipureintro; exact hmc.read_unread _
    iexact Hc
  isplitl [Hv]
  · iexists _; isplitr; · ipureintro; exact hmv.read_unread _
    iexact Hv
  isplitl [Hf]
  · iexists _; isplitr; · ipureintro; exact hmf.read_unread _
    iexact Hf
  isplitl [Ho]
  · iexists _; isplitr
    swap; · iexact Ho
    ipureintro
    refine (read_store_whole mo _ zerosTriple _ _ _).trans ?_
    rw [load_whole mv hmv zerosTriple]
    refine congrArg (k10_pay3 xv) ((View.readCov_cons_toLoadRect ma.view _ _ _).trans ?_)
    rw [load_whole mc hmc zerosTriple, load_whole mf hmf zerosPair, load_whole ma hma zerosPair]
  iexists _; isplitr
  swap; · iexact Ha
  ipureintro
  refine (read_store_whole ma _ zerosPair _ _ _).trans ?_
  rw [load_whole mc hmc zerosTriple, load_whole mf hmf zerosPair, load_whole ma hma zerosPair]

/-! ## The result window: idle except at a chunk's last tile -/

/-- Where the result window is idle, as the configuration states it. -/
theorem idle_out (t : Fin cfg10.N) : cfg10.idle 3 (cfg10.grid.coords t) = !(k10_cond2 (grid10.coords t) == 1#1) := rfl

theorem idle_of_not_last (t : Fin cfg10.N) (h : ¬t.val % 49 = 48) : cfg10.idle 3 (cfg10.grid.coords t) = true := by
  rw [idle_out, beq_eq_false_iff_ne.mpr fun e => h ((isLast_iff t).mp e)]; rfl

theorem live_of_last (t : Fin cfg10.N) (h : t.val % 49 = 48) : cfg10.idle 3 (cfg10.grid.coords t) = false := by
  rw [idle_out, (isLast_iff t).mpr h]; rfl

/-- At a live point the result's staging buffer is left at what the proof data names. -/
theorem leavesExact_live (c : Dev nD) (t : Fin cfg10.N) (hi : cfg10.idle 3 (cfg10.grid.coords t) = false) :
    ((dat V c).leavesExact 3 t : sProp 𝕄)
      = owns (c : Thread nD τ) ((cfg10.win 3).stage (cfg10.slots t 3)) fullShare ((dat V c).after 3 t) := by
  unfold Dat.leavesExact; rw [hi]

/-! ## The body obligation, at a generic point -/

/-- The staging buffers the body is called with at point `t`, at their literal types, and their wholeness. -/
abbrev mCols (t : Fin cfg10.N) : Memref sig .tc .vmem S1x1x8192 .i32 := win10_0.stage (cfg10.slots t 0)
abbrev hCols (t : Fin cfg10.N) : (mCols t).IsWhole := hstage10_0 ((cfg10.slots t 0).cast nbuf10_0)
abbrev mVals (t : Fin cfg10.N) : Memref sig .tc .vmem S1x1x8192 .f32 := win10_1.stage (cfg10.slots t 1)
abbrev hVals (t : Fin cfg10.N) : (mVals t).IsWhole := hstage10_1 ((cfg10.slots t 1).cast nbuf10_1)
abbrev mFeat (t : Fin cfg10.N) : Memref sig .tc .vmem S1024x64 .f32 := win10_2.stage (cfg10.slots t 2)
abbrev hFeat (t : Fin cfg10.N) : (mFeat t).IsWhole := hstage10_2 ((cfg10.slots t 2).cast nbuf10_2)
abbrev mOut (t : Fin cfg10.N) : Memref sig .tc .vmem S1x8192x64 .f32 := win10_3.stage (cfg10.slots t 3)
abbrev hOut (t : Fin cfg10.N) : (mOut t).IsWhole := hstage10_3 ((cfg10.slots t 3).cast nbuf10_3)

/-- What the body is called with at point `t`, the windows one by one, -/
def bodyPre (c : Dev nD) (t : Fin cfg10.N) : sProp 𝕄 :=
  iprop((dat V c).Φ t.castSucc ∗ (dat V c).owesAt () t.castSucc
    ∗ (∃ d, owns (c : Thread nD τ) (mCols t) fullShare ((dat V c).before 0 t d))
    ∗ (∃ d, owns (c : Thread nD τ) (mVals t) fullShare ((dat V c).before 1 t d))
    ∗ (∃ d, owns (c : Thread nD τ) (mFeat t) fullShare ((dat V c).before 2 t d))
    ∗ (∃ d, owns (c : Thread nD τ) (mOut t) fullShare ((dat V c).before 3 t d)))

/-- and what it returns. -/
def bodyPost (c : Dev nD) (t : Fin cfg10.N) : sProp 𝕄 :=
  iprop((dat V c).Φ t.succ ∗ (dat V c).owesAt () t.succ
    ∗ owns (c : Thread nD τ) (mCols t) fullShare ((dat V c).after 0 t)
    ∗ owns (c : Thread nD τ) (mVals t) fullShare ((dat V c).after 1 t)
    ∗ owns (c : Thread nD τ) (mFeat t) fullShare ((dat V c).after 2 t)
    ∗ (dat V c).leavesExact 3 t)

set_option maxHeartbeats 800000 in
/-- The body at any point. The inputs' buffers hold their blocks; the tile's position in its chunk says which of the
    three runs applies; the accumulator's buffer goes from the recursion's value before the point (anything, at a first
    tile) to its value after it; the result's buffer is left as found except at a last tile, where it takes the scaled
    accumulator; the other scoped buffers pass through unread; nothing is owed throughout. -/
theorem sound_body (c : Dev nD) (t : Fin cfg10.N) :
    bodyPre V c t ⊢ wp frame (wpE (defs₀ (F := F)) Variants.none c none) Set.univ (bodyAt10 t) (fun _ => bodyPost V c t) := by
  unfold bodyPre bodyPost bodyAt10
  simp only [before_cols, before_vals, before_feat]
  rw [show (dat V c).owesAt () t.succ = (dat V c).owesAt () t.castSucc from rfl, after_cols, after_vals, after_feat, Φ_eq, Φ_eq]
  simp only [Fin.coe_castSucc, Fin.val_succ]
  by_cases hf : t.val % 49 = 0
  · have hl : ¬t.val % 49 = 48 := by omega
    have hfl : (cfg10.win 3).flush t = false := Bool.eq_false_iff.mpr fun h => hl ((flush10_3 t).mp h)
    rw [Dat.leavesExact_idle _ 3 t (idle_of_not_last t hl) hfl]
    iintro ⟨⟨⟨%a, Ha, -⟩, HR⟩, Ho, ⟨%dc, Hc⟩, ⟨%dv, Hv⟩, ⟨%df, Hf⟩, ⟨%dd, Hd⟩⟩
    iapply (runFirst c (grid10.coords t) _ _ _ _ _ _ _ _ _ _ ((isFirst_iff t).mpr hf) (fun e => hl ((isLast_iff t).mp e))
      (iblk V c 0 t) (iblk V c 1 t) (iblk V c 2 t) ((dat V c).before 3 t dd) Set.univ _)
    isplitl [Hc]; · iexact Hc
    isplitl [Hv]; · iexact Hv
    isplitl [Hf]; · iexact Hf
    isplitl [Hd]; · iexact Hd
    isplitl [Ha]; · iexists a; iexact Ha
    iintro ⟨Hc, Hv, Hf, Hd, Ha⟩
    isplitl [Ha HR]
    · isplitl [Ha]
      · iexists _; isplitl [Ha]; · iexact Ha
        ipureintro; intro _; rw [accAt_succ]; unfold accStep; rw [if_pos hf]
      · iexact HR
    isplitl [Ho]; · iexact Ho
    isplitl [Hc]; · iexact Hc
    isplitl [Hv]; · iexact Hv
    isplitl [Hf]; · iexact Hf
    iexists dd; iexact Hd
  · by_cases hl : t.val % 49 = 48
    · rw [leavesExact_live V c t (live_of_last t hl), after_out]
      iintro ⟨⟨⟨%a, Ha, %ha⟩, HR⟩, Ho, ⟨%dc, Hc⟩, ⟨%dv, Hv⟩, ⟨%df, Hf⟩, ⟨%dd, Hd⟩⟩
      obtain rfl := ha hf
      iapply (runLast c (grid10.coords t) _ _ _ _ _ _ _ _ _ _ (fun e => hf ((isFirst_iff t).mp e)) ((isLast_iff t).mpr hl)
        (iblk V c 0 t) (iblk V c 1 t) (iblk V c 2 t) (accAt V c t.val) Set.univ _)
      isplitl [Hc]; · iexact Hc
      isplitl [Hv]; · iexact Hv
      isplitl [Hf]; · iexact Hf
      isplitl [Hd]; · iexists _; iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      rw [accAt_succ]; unfold accStep; rw [if_neg hf]; iexact Hd
    · have hfl : (cfg10.win 3).flush t = false := Bool.eq_false_iff.mpr fun h => hl ((flush10_3 t).mp h)
      rw [Dat.leavesExact_idle _ 3 t (idle_of_not_last t hl) hfl]
      iintro ⟨⟨⟨%a, Ha, %ha⟩, HR⟩, Ho, ⟨%dc, Hc⟩, ⟨%dv, Hv⟩, ⟨%df, Hf⟩, ⟨%dd, Hd⟩⟩
      obtain rfl := ha hf
      iapply (runMid c (grid10.coords t) _ _ _ _ _ _ _ _ _ _ (fun e => hf ((isFirst_iff t).mp e)) (fun e => hl ((isLast_iff t).mp e))
        (iblk V c 0 t) (iblk V c 1 t) (iblk V c 2 t) ((dat V c).before 3 t dd) (accAt V c t.val) Set.univ _)
      isplitl [Hc]; · iexact Hc
      isplitl [Hv]; · iexact Hv
      isplitl [Hf]; · iexact Hf
      isplitl [Hd]; · iexact Hd
      isplitl [Ha]; · iexact Ha
      iintro ⟨Hc, Hv, Hf, Hd, Ha⟩
      isplitl [Ha HR]
      · isplitl [Ha]
        · iexists _; isplitl [Ha]; · iexact Ha
          ipureintro; intro _; rw [accAt_succ]; unfold accStep; rw [if_neg hf]
        · iexact HR
      isplitl [Ho]; · iexact Ho
      isplitl [Hc]; · iexact Hc
      isplitl [Hv]; · iexact Hv
      isplitl [Hf]; · iexact Hf
      iexists dd; iexact Hd

/-- The invariant at the first point, from the scoped buffers no window stages. -/
theorem Φ_in (c : Dev nD) :
    (Pipeline.scopedRest (Ix := Unit) (Name := ℕ) (U := UR sig nD τ) (Lvl := ℕ) (Val := Elt F) spec10 c : sProp 𝕄) ⊢ (dat V c).Φ 0 := by
  rw [scopedRest10_split, Φ_eq]
  refine sep_mono ?_ .rfl
  iintro ⟨%f, H⟩
  iexists f
  isplitl [H]
  · rw [owns_whole]; iexact H
  · ipureintro; intro h; exact absurd (Nat.zero_mod 49) h

/-- The invariant at the last point gives those buffers back. -/
theorem Φ_out (c : Dev nD) :
    (dat V c).Φ (Fin.last cfg10.N) ⊢ (Pipeline.scopedRest (Ix := Unit) (Name := ℕ) (U := UR sig nD τ) (Lvl := ℕ) (Val := Elt F) spec10 c : sProp 𝕄) := by
  rw [scopedRest10_split, Φ_eq]
  refine sep_mono ?_ .rfl
  iintro ⟨%a, H, -⟩
  iexists a
  rw [← owns_whole]; iexact H

/-- The library's body obligation, at every point. -/
theorem body_obligation (c : Dev nD) : BodyObligation (dat (F := F) V c) (defs₀ (F := F)) Variants.none () Set.univ := fun t => by
  rw [bigSep_W10, bigSep_W10]
  exact sound_body V c t

end Cert.KernelIdeal.Hand.R10

end
-- ==== Proof.KI.Sched11.lean ====
/-
  The schedule of this scatter launch, by arithmetic. The grid is 49 x 98 with the second axis
  innermost, so point t has first coordinate t / 98 % 147. The result window's block index depends on the first
  coordinate only; it therefore changes between t and t + 1 exactly when t is the last of its run of 98
  consecutive points, and the last point of the grid is such a point too.
-/
import proofs.«130096_j52458730553647_1_alg».proof.Proof.Gen.KernelIdeal.Launch
import Idealize.ShloMosaic.Lib.Pipeline.Kit

noncomputable section

namespace Cert.KernelIdeal.Hand.Sched

open Idealize.ShloMosaic Idealize.ShloMosaic.TcCoe
open Idealize.SL Idealize.SL.Sem
open Cert.KernelIdeal Cert.KernelIdeal.Gen

variable {F : FTy → Type} [FloatOps F]

/-- The first axis's stride is the extent of the second. -/
private theorem stride_outer : grid11.stride 0 = 98 := by decide

/-- The result window's block index at point `t`: the first coordinate, then zero. -/
private theorem index_out (t : Fin grid11.N) : win11_2.index t = ![t.val / 98 % 49, 0] := by
  have h : (BitVec.ofNat 32 (t.val / 98 % 49)).toNat = t.val / 98 % 49 := by
    rw [BitVec.toNat_ofNat]; omega
  show cc11_transform_2 (grid11.coords t) = _
  unfold cc11_transform_2 Pipeline.Grid.coords
  simp only [stride_outer]
  show ![(BitVec.ofNat 32 (t.val / 98 % 49)).toNat, 0] = _
  rw [h]

/-- Two block indices of the result window differ exactly when their first entries do. -/
private theorem vec_ne (a b : Nat) : (![a, 0] : Fin 2 → Nat) ≠ ![b, 0] ↔ a ≠ b :=
  not_congr ⟨fun h => congrFun h 0, fun h => h ▸ rfl⟩

/-- The result window's block indices at two points differ exactly when the points' first coordinates do. -/
private theorem index_ne (s t : Fin grid11.N) :
    win11_2.index s ≠ win11_2.index t ↔ s.val / 98 % 49 ≠ t.val / 98 % 49 := by
  rw [index_out, index_out]; exact vec_ne _ _

/-- Window 2 (the result) is written back at the points ≡ 97 (mod 98): the last point of each run of 98 points
    sharing the first coordinate, the grid's last point among them. -/
theorem flush11_2 : ∀ t : Fin cfg11.N, (cfg11.win 2).flush t = true ↔ t.val % 98 = 97 := by
  intro t
  have hN : grid11.N = 4802 := N_11
  have hN' : cfg11.N = 4802 := N_11
  have ht : t.val < 4802 := lt_of_lt_of_eq t.isLt hN
  show win11_2.flush t = true ↔ _
  unfold Pipeline.Window.flush
  have hout : win11_2.isOut = true := rfl
  rw [hout, Bool.true_and, Bool.or_eq_true, decide_eq_true_eq, decide_eq_true_eq]
  constructor
  · rintro (h | ⟨h, hne⟩)
    · omega
    · have hq : (t.val + 1) / 98 % 49 ≠ t.val / 98 % 49 := (index_ne ⟨t.val + 1, h⟩ t).1 hne
      omega
  · intro h
    by_cases hl : t.val + 1 = grid11.N
    · exact Or.inl hl
    · have hlt : t.val + 1 < grid11.N := by omega
      have hq : (t.val + 1) / 98 % 49 ≠ t.val / 98 % 49 := by omega
      exact Or.inr ⟨hlt, (index_ne ⟨t.val + 1, hlt⟩ t).2 hq⟩

/-- The current staging memref of each window at point `t`: which of its buffers it is on. -/
abbrev st11_0 (t : Fin cfg11.N) := (cfg11.win 0).stage (cfg11.slots t 0)
abbrev st11_1 (t : Fin cfg11.N) := (cfg11.win 1).stage (cfg11.slots t 1)
abbrev st11_2 (t : Fin cfg11.N) := (cfg11.win 2).stage (cfg11.slots t 2)

/-- The kernel body at point `t`, on what the pipeline calls it with (`defs₀`'s row at the slots). -/
abbrev bodyAt11 (t : Fin cfg11.N) : Prog (TpuEff nD τ sig (Elt F) Λ₀ .tc) PUnit :=
  cc11__scatter_kernel (grid11.coords t) (win11_0.stage (cfg11.slots t 0)) (hstage11_0 ((cfg11.slots t 0).cast nbuf11_0)) (win11_1.stage (cfg11.slots t 1)) (hstage11_1 ((cfg11.slots t 1).cast nbuf11_1)) (win11_2.stage (cfg11.slots t 2)) (hstage11_2 ((cfg11.slots t 2).cast nbuf11_2)) (Memref.whole cc11_scratch0) (Memref.isWhole_whole _)

end Cert.KernelIdeal.Hand.Sched
-- ==== Proof.KI.R11.lean ====
/-
  Region 1 of the program (the scatter launch of the first propagation step), on any contents `V` of the unscoped
  buffers at its entry. Grid (49 node tiles) x (98 edge chunks), the chunk innermost. At a point (tile, chunk) the body
  adds to a carried accumulator (1024 nodes x 64 features, reset at chunk 0) the product of the one-hot matrix (entry
  (i, e) is 1 when the edge's row index is node 1024*tile + i) with the chunk's 8192 weighted gathered rows; at the last
  chunk it stores the accumulator as the tile's block of the result.
-/
import proofs.«130096_j52458730553647_1_alg».proof.Proof.Gen.KernelIdeal.Launch
import proofs.«130096_j52458730553647_1_alg».proof.Proof.Gen.KernelIdeal.Skeleton
import proofs.«130096_j52458730553647_1_alg».proof.Proof.KI.Sched11
import Idealize.ShloMosaic.Lib.Pipeline.FrameBody
import Idealize.ShloMosaic.Lib.Pipeline.Frame
import Idealize.ShloMosaic.Lib.Tactic

set_option maxRecDepth 16384

noncomputable section

namespace Cert.KernelIdeal.Hand.R11

open Cert.KernelIdeal Cert.KernelIdeal.Gen Cert.KernelIdeal.Hand.Sched
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The chunk's row indices and the chunk's weighted gathered rows at point `t`, at their literal types. -/
abbrev rowsBlk (c : Dev nD) (t : Fin cfg11.N) : Vec F S1x1x8192 .i32 := iblk V c 0 t
abbrev wgBlk (c : Dev nD) (t : Fin cfg11.N) : Vec F S1x8192x64 .f32 := iblk V c 1 t

/-- The accumulator after the body at point `t`, from the accumulator `a` before it: reset first when the point is a
    tile's first chunk. -/
def accStep (c : Dev nD) (t : Fin cfg11.N) (a : Vec F S1024x64 .f32) : Vec F S1024x64 .f32 :=
  k11_pay2 (grid11.coords t) (rowsBlk V c t) (wgBlk V c t) (if t.val % 98 = 0 then k11_pay1 else a)

/-- The accumulator before point `n` (after point `n - 1`). -/
def accAt (c : Dev nD) : ℕ → Vec F S1024x64 .f32
  | 0 => k11_pay1
  | n + 1 => if h : n < cfg11.N then accStep V c ⟨n, h⟩ (accAt c n) else k11_pay1

/-- The accumulator's buffer (the launch's scratch operand), whole. -/
abbrev accRef : Memref sig .tc .vmem S1024x64 .f32 := Memref.whole cc11_scratch0

/-- The proof data: the arrays as the region finds them; the inputs' staging buffers keep their blocks; the result's
    staging buffer after a tile's last chunk holds the accumulator; between points the accumulator's buffer holds
    `accAt` (anything before a tile's first chunk, which resets it); nothing owed. -/
def dat (c : Dev nD) : Dat τ (Elt F) Unit ℕ (UR sig nD τ) ℕ cfg11 c where
  A w := V c (Pipeline.arrRef spec11 w)
  after w t := match w with
    | ⟨0, _⟩ => iblk V c 0 t
    | ⟨1, _⟩ => iblk V c 1 t
    | ⟨2, _⟩ => accAt V c (t.val + 1)
  Φ t := iprop((∃ a : Vec F S1024x64 .f32, owns (c : Thread nD τ) accRef fullShare a ∗ ⌜t.val % 98 ≠ 0 → a = accAt V c t.val⌝)
    ∗ Pipeline.scopedRestBut (Ix := Unit) (Name := ℕ) (U := UR sig nD τ) (Lvl := ℕ) (Val := Elt F) spec11 c [cc11_scratch0])
  q _ := fullShare
  owed _ := 0

theorem A_eq (c : Dev nD) (w : Fin cfg11.W) : (dat V c).A w = V c (Pipeline.arrRef spec11 w) := by
  dsimp only [dat]

theorem after_out (c : Dev nD) (t : Fin cfg11.N) :
    (dat V c).after 2 t = accAt V c (t.val + 1) := by dsimp only [dat]

/-! ## The invariant at the region's two ends -/

/-- The invariant at a point, written out. -/
theorem Φ_eq (c : Dev nD) (t : Fin (cfg11.N + 1)) :
    (dat V c).Φ t = iprop((∃ a : Vec F S1024x64 .f32, owns (c : Thread nD τ) accRef fullShare a ∗ ⌜t.val % 98 ≠ 0 → a = accAt V c t.val⌝)
      ∗ Pipeline.scopedRestBut (Ix := Unit) (Name := ℕ) (U := UR sig nD τ) (Lvl := ℕ) (Val := Elt F) spec11 c [cc11_scratch0]) := by
  dsimp only [dat]

/-- The invariant at the first point, from the scoped buffers no window stages. -/
theorem Φ_in (c : Dev nD) :
    (Pipeline.scopedRest (Ix := Unit) (Name := ℕ) (U := UR sig nD τ) (Lvl := ℕ) (Val := Elt F) spec11 c : sProp 𝕄) ⊢ (dat V c).Φ 0 := by
  rw [scopedRest11_split, Φ_eq]
  simp only [owns_whole]
  iintro ⟨⟨%f, H⟩, Hr⟩
  isplitl [H]
  · iexists f; isplitl
    · iexact H
    · ipureintro; intro h; exact absurd (Nat.zero_mod _) h
  · iexact Hr

/-- The invariant at the last point gives those buffers back. -/
theorem Φ_out (c : Dev nD) :
    (dat V c).Φ (Fin.last cfg11.N) ⊢ (Pipeline.scopedRest (Ix := Unit) (Name := ℕ) (U := UR sig nD τ) (Lvl := ℕ) (Val := Elt F) spec11 c : sProp 𝕄) := by
  rw [scopedRest11_split, Φ_eq]
  simp only [owns_whole]
  iintro ⟨⟨%a, H, -⟩, Hr⟩
  isplitl [H]
  · iexists a; iexact H
  · iexact Hr

/-! ## The accumulator's recursion, one step -/

theorem accAt_succ (c : Dev nD) (t : Fin cfg11.N) : accAt V c (t.val + 1) = accStep V c t (accAt V c t.val) := by
  rw [accAt, dif_pos t.isLt]

/-- After a tile's first chunk the accumulator is that chunk's product added to zero, -/
theorem accAt_succ_first (c : Dev nD) (t : Fin cfg11.N) (h : t.val % 98 = 0) :
    accAt V c (t.val + 1) = k11_pay2 (grid11.coords t) (rowsBlk V c t) (wgBlk V c t) k11_pay1 := by
  rw [accAt_succ, accStep, if_pos h]

/-- after any other the chunk's product added to what it was. -/
theorem accAt_succ_next (c : Dev nD) (t : Fin cfg11.N) (h : ¬t.val % 98 = 0) :
    accAt V c (t.val + 1) = k11_pay2 (grid11.coords t) (rowsBlk V c t) (wgBlk V c t) (accAt V c t.val) := by
  rw [accAt_succ, accStep, if_neg h]

/-! ## The body's branch conditions, in closed form -/

/-- The condition of the body's first `scf.if` (the reset), from the grid coordinates. -/
abbrev condFirst (i : grid11.Coords) : Prop :=
  (Scalar.cmpi .ne (Scalar.extui (Scalar.cmpi .eq (BitVec.ofNat 32 (i 1).val) 0#32)) 0#32) = 1#1
/-- The condition of its second (the result's store). -/
abbrev condLast (i : grid11.Coords) : Prop := k11_cond2 i = 1#1

/-- The chunk coordinate of point `t`: the chunk is the innermost axis. -/
theorem chunk_val (t : Fin cfg11.N) : (grid11.coords t 1).val = t.val % 98 := by
  show t.val / grid11.stride 1 % grid11.bound 1 = t.val % 98
  rw [show grid11.stride 1 = 1 from by decide, Nat.div_one]
  rfl

/-- Both conditions read the chunk coordinate alone: decided over the 98 chunks. -/
theorem condFirst_iff (i : grid11.Coords) : condFirst i ↔ (i 1).val = 0 :=
  (by decide +kernel : ∀ j : Fin 98,
    (Scalar.cmpi .ne (Scalar.extui (Scalar.cmpi .eq (BitVec.ofNat 32 j.val) 0#32)) 0#32) = 1#1 ↔ j.val = 0) (i 1)
theorem condLast_iff (i : grid11.Coords) : condLast i ↔ (i 1).val = 97 :=
  (by decide +kernel : ∀ j : Fin 98,
    (Scalar.cmpi .ne (Scalar.extui (Scalar.cmpi .eq (BitVec.ofNat 32 j.val) 97#32)) 0#32) = 1#1 ↔ j.val = 97) (i 1)

/-- The reset runs at a tile's first chunk only, -/
theorem hcondFirst (t : Fin cfg11.N) : condFirst (grid11.coords t) ↔ t.val % 98 = 0 := by
  rw [condFirst_iff, chunk_val]
/-- and the result is stored at a tile's last chunk only. -/
theorem hcondLast (t : Fin cfg11.N) : condLast (grid11.coords t) ↔ t.val % 98 = 97 := by
  rw [condLast_iff, chunk_val]

/-! ## Whole-buffer loads and stores -/

/-- A load through the whole of a whole memref held at the contents that read `X` reads `X`. -/
theorem readAt_whole_unread {κ : Kind} {sp : Space} {S : Shape} {e : EltTy} {m : Memref sig κ sp S e} (h : m.IsWhole)
    (X : S.Idx → Elt F e) {off : Fin S.rank → ℕ} (ho : off = fun _ => 0) (inb : ∀ a, off a + S.size a ≤ S.size a) :
    View.readAt (Elt F) m.view (Rect.unit off S.size inb).toLoadRect (h.unread X) = X := by
  subst ho
  funext x
  exact (congrFun (h.read_unread X) _).trans (congrArg X (Rect.emb_whole_apply S x))

/-- A store through the whole of a buffer reads back as its payload, whatever was written before. -/
theorem read_writes_cons_whole {κ : Kind} {sp : Space} {S : Shape} {e : EltTy} (v : View sig κ sp S e)
    (f : v.ty.Contents (Elt F)) {off : Fin S.rank → ℕ} (ho : off = fun _ => 0) (inb : ∀ a, off a + S.size a ≤ S.size a)
    (w : (Rect.unit off S.size inb).shape.Idx → Elt F e) (L : List (View.Piece (Elt F) S e)) :
    v.read (Elt F) (v.writes (Elt F) f ((⟨Rect.unit off S.size inb, w⟩ : View.Piece (Elt F) S e) :: L)) = w := by
  subst ho
  funext y
  have h := View.read_writes_cons_emb v f (Rect.unit (fun _ => 0) S.size inb) w L y
  rwa [show (Rect.unit (fun _ => 0) S.size inb).emb y = y from Rect.emb_whole_apply S y] at h

/-- The body's loads and stores are at offset zero on every axis. -/
theorem zeroOff_acc : (![0, 0] : Fin S1024x64.rank → ℕ) = fun _ => 0 := by decide
theorem zeroOff_rows : (![0, 0, 0] : Fin S1x1x8192.rank → ℕ) = fun _ => 0 := by decide
theorem zeroOff_wg : (![0, 0, 0] : Fin S1x8192x64.rank → ℕ) = fun _ => 0 := by decide

/-! ## The kernel body on any whole memrefs, per control case

The two input buffers at their contents `x0`, `x1`, the result's buffer at `d`, the accumulator's at `a`: the body
hands the inputs back as they were, the accumulator at the chunk's product added to what it held (to zero after a
reset), and the result's buffer at the new accumulator where it is stored, as it was elsewhere. -/

/-- A tile's first chunk: the accumulator is reset, then updated; the result's buffer is not touched. -/
theorem run_first (c : Dev nD) (i : grid11.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k11_pay2 i x0 x1 k11_pay1)) -∗ K ⟨⟩))
      ⊢ wp frame (wpE (defs₀ (F := F)) Variants.none c none) E
          (cc11__scatter_kernel i arg2 harg2 arg3 harg3 arg4 harg4 arg5 harg5) K := by
  simp only [cc11__scatter_kernel_eq_skeleton]; unfold cc11__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [View.readCov_cons_toLoadRect]

/-- A chunk neither first nor last: the accumulator is updated; the result's buffer is not touched. -/
theorem run_mid (c : Dev nD) (i : grid11.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : ¬condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare d
            ∗ owns (c : Thread nD τ) arg5 fullShare (k11_pay2 i x0 x1 a)) -∗ K ⟨⟩))
      ⊢ wp frame (wpE (defs₀ (F := F)) Variants.none c none) E
          (cc11__scatter_kernel i arg2 harg2 arg3 harg3 arg4 harg4 arg5 harg5) K := by
  simp only [cc11__scatter_kernel_eq_skeleton]; unfold cc11__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    exact hf4
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-- A tile's last chunk: the accumulator is updated and stored as the result's block. -/
theorem run_last (c : Dev nD) (i : grid11.Coords)
    (arg2 : Memref sig .tc .vmem S1x1x8192 .i32) (harg2 : arg2.IsWhole)
    (arg3 : Memref sig .tc .vmem S1x8192x64 .f32) (harg3 : arg3.IsWhole)
    (arg4 : Memref sig .tc .vmem S1024x64 .f32) (harg4 : arg4.IsWhole)
    (arg5 : Memref sig .tc .vmem S1024x64 .f32) (harg5 : arg5.IsWhole)
    (hc1 : ¬condFirst i) (hc2 : condLast i)
    (x0 : Vec F S1x1x8192 .i32) (x1 : Vec F S1x8192x64 .f32) (d a : Vec F S1024x64 .f32)
    (E : Set ℕ) (K : PUnit → sProp 𝕄) :
    iprop(owns (c : Thread nD τ) arg2 fullShare x0 ∗ owns (c : Thread nD τ) arg3 fullShare x1
        ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (k11_pay2 i x0 x1 a)
            ∗ owns (c : Thread nD τ) arg5 fullShare (k11_pay2 i x0 x1 a)) -∗ K ⟨⟩))
      ⊢ wp frame (wpE (defs₀ (F := F)) Variants.none c none) E
          (cc11__scatter_kernel i arg2 harg2 arg3 harg3 arg4 harg4 arg5 harg5) K := by
  simp only [cc11__scatter_kernel_eq_skeleton]; unfold cc11__scatter_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3
  obtain rfl := harg4.eq_unread hf4; obtain rfl := harg5.eq_unread hf5
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_writes_cons_whole _ _ zeroOff_acc]
    sl_unfold_run_names
    rw [View.readCov_cons_toLoadRect, readAt_whole_unread harg2 x0 zeroOff_rows, readAt_whole_unread harg3 x1 zeroOff_wg,
      readAt_whole_unread harg5 a zeroOff_acc]
  iexists _; isplitr; swap; · iexact H5
  ipureintro
  sl_unfold_run_names
  rw [read_writes_cons_whole _ _ zeroOff_acc, readAt_whole_unread harg2 x0 zeroOff_rows, readAt_whole_unread harg3 x1 zeroOff_wg]
  rw [readAt_whole_unread harg5 a zeroOff_acc]

/-! ## What the body finds in the windows' buffers, and what it hands back -/

theorem after_rows (c : Dev nD) (t : Fin cfg11.N) : (dat V c).after 0 t = iblk V c 0 t := by dsimp only [dat]
theorem after_wg (c : Dev nD) (t : Fin cfg11.N) : (dat V c).after 1 t = iblk V c 1 t := by dsimp only [dat]

/-- Each input's current staging buffer holds its block at every point, fetched there or not: the body leaves the
    block in place, and an input not fetched at a point has the block index it had at the point before. -/
theorem before_rows (c : Dev nD) (t : Fin cfg11.N) (d) : (dat V c).before 0 t d = iblk V c 0 t :=
  ((dat V c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)
theorem before_wg (c : Dev nD) (t : Fin cfg11.N) (d) : (dat V c).before 1 t d = iblk V c 1 t :=
  ((dat V c).before_in_eq_fetched 1 rfl (fun _ => rfl) (fun _ _ _ => rfl)
      (fun t => by rw [after_wg]; unfold Dat.blockOf iblk; rw [A_eq]; try rfl) t d).trans
    (by unfold Dat.fetched Dat.blockOf iblk; rw [A_eq]; try rfl)

/-- Each window's current staging memref at point `t`, spelled as the pipeline passes it, and its wholeness. -/
abbrev stRows (t : Fin cfg11.N) : Memref sig .tc .vmem S1x1x8192 .i32 := win11_0.stage (cfg11.slots t 0)
abbrev hstRows (t : Fin cfg11.N) : (stRows t).IsWhole := hstage11_0 ((cfg11.slots t 0).cast nbuf11_0)
abbrev stWg (t : Fin cfg11.N) : Memref sig .tc .vmem S1x8192x64 .f32 := win11_1.stage (cfg11.slots t 1)
abbrev hstWg (t : Fin cfg11.N) : (stWg t).IsWhole := hstage11_1 ((cfg11.slots t 1).cast nbuf11_1)
abbrev stOut (t : Fin cfg11.N) : Memref sig .tc .vmem S1024x64 .f32 := win11_2.stage (cfg11.slots t 2)
abbrev hstOut (t : Fin cfg11.N) : (stOut t).IsWhole := hstage11_2 ((cfg11.slots t 2).cast nbuf11_2)

/-- Where the result is not stored its window is idle and is not written back: the body hands its buffer back as it
    found it. -/
theorem leaves_out_idle (c : Dev nD) (t : Fin cfg11.N) (h : ¬t.val % 98 = 97) :
    (dat V c).leavesExact 2 t = iprop(∃ d, owns (c : Thread nD τ) (stOut t) fullShare ((dat V c).before 2 t d)) := by
  have hi : cfg11.idle 2 (cfg11.grid.coords t) = true := by
    show (!(k11_cond2 (grid11.coords t) == 1#1)) = true
    rw [Bool.not_eq_true', beq_eq_false_iff_ne]
    exact fun hk => h ((hcondLast t).mp hk)
  have hfl : (cfg11.win 2).flush t = false := Bool.eq_false_iff.mpr fun hfl => h ((flush11_2 t).mp hfl)
  exact (dat V c).leavesExact_idle 2 t hi hfl

/-- Where it is stored the window is live: its buffer is handed back at the accumulator. -/
theorem leaves_out_live (c : Dev nD) (t : Fin cfg11.N) (h : t.val % 98 = 97) :
    (dat V c).leavesExact 2 t = owns (c : Thread nD τ) (stOut t) fullShare ((dat V c).after 2 t) := by
  have hi : cfg11.idle 2 (cfg11.grid.coords t) = false := by
    show (!(k11_cond2 (grid11.coords t) == 1#1)) = false
    rw [(hcondLast t).mpr h]; rfl
  unfold Dat.leavesExact; rw [hi]

/-! ## The body obligation, at a generic point -/

/-- What the body is called with at point `t`, the windows one by one, -/
def bodyPre (c : Dev nD) (t : Fin cfg11.N) : sProp 𝕄 :=
  iprop((dat V c).Φ t.castSucc ∗ (dat V c).owesAt () t.castSucc
    ∗ (∃ d, owns (c : Thread nD τ) (stRows t) fullShare ((dat V c).before 0 t d))
    ∗ (∃ d, owns (c : Thread nD τ) (stWg t) fullShare ((dat V c).before 1 t d))
    ∗ (∃ d, owns (c : Thread nD τ) (stOut t) fullShare ((dat V c).before 2 t d)))

/-- and what it returns. -/
def bodyPost (c : Dev nD) (t : Fin cfg11.N) : sProp 𝕄 :=
  iprop((dat V c).Φ t.succ ∗ (dat V c).owesAt () t.succ
    ∗ owns (c : Thread nD τ) (stRows t) fullShare ((dat V c).after 0 t)
    ∗ owns (c : Thread nD τ) (stWg t) fullShare ((dat V c).after 1 t)
    ∗ (dat V c).leavesExact 2 t)

set_option maxHeartbeats 800000 in
/-- The body at any point: the inputs' buffers hold their blocks; the closed forms say which of the three control
    cases the point is in; off a tile's first chunk the invariant says the accumulator's buffer holds `accAt`; the
    case's run applies, and leaves the accumulator's buffer at `accAt` of the next point; the core owes nothing
    throughout. -/
theorem sound_body (c : Dev nD) (t : Fin cfg11.N) :
    bodyPre V c t ⊢ wp frame (wpE (defs₀ (F := F)) Variants.none c none) Set.univ (bodyAt11 t) (fun _ => bodyPost V c t) := by
  unfold bodyPre bodyPost bodyAt11
  simp only [before_rows, before_wg]
  rw [Φ_eq, Φ_eq, show (dat V c).owesAt () t.succ = (dat V c).owesAt () t.castSucc from rfl, after_rows, after_wg]
  simp only [Fin.coe_castSucc, Fin.val_succ]
  have hN : t.val < 4802 := lt_of_lt_of_eq t.isLt (show cfg11.N = 4802 from N_11)
  by_cases hl : t.val % 98 = 97
  · have hf : ¬t.val % 98 = 0 := by omega
    rw [leaves_out_live V c t hl, after_out, accAt_succ_next V c t hf]
    iintro ⟨⟨⟨%a, Ha, %hacc⟩, Hrest⟩, Ho, ⟨%d0, H0⟩, ⟨%d1, H1⟩, ⟨%d2, H2⟩⟩
    obtain rfl := hacc hf
    iapply (run_last c (grid11.coords t) (stRows t) (hstRows t) (stWg t) (hstWg t) (stOut t) (hstOut t) accRef (Memref.isWhole_whole _)
      (fun h => hf ((hcondFirst t).mp h)) ((hcondLast t).mpr hl) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexact H2
  by_cases hf : t.val % 98 = 0
  · rw [leaves_out_idle V c t hl, accAt_succ_first V c t hf]
    iintro ⟨⟨⟨%a, Ha, -⟩, Hrest⟩, Ho, ⟨%d0, H0⟩, ⟨%d1, H1⟩, ⟨%d2, H2⟩⟩
    iapply (run_first c (grid11.coords t) (stRows t) (hstRows t) (stWg t) (hstWg t) (stOut t) (hstOut t) accRef (Memref.isWhole_whole _)
      ((hcondFirst t).mpr hf) (fun h => hl ((hcondLast t).mp h)) (rowsBlk V c t) (wgBlk V c t) ((dat V c).before 2 t d2) a Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2
  · rw [leaves_out_idle V c t hl, accAt_succ_next V c t hf]
    iintro ⟨⟨⟨%a, Ha, %hacc⟩, Hrest⟩, Ho, ⟨%d0, H0⟩, ⟨%d1, H1⟩, ⟨%d2, H2⟩⟩
    obtain rfl := hacc hf
    iapply (run_mid c (grid11.coords t) (stRows t) (hstRows t) (stWg t) (hstWg t) (stOut t) (hstOut t) accRef (Memref.isWhole_whole _)
      (fun h => hf ((hcondFirst t).mp h)) (fun h => hl ((hcondLast t).mp h)) (rowsBlk V c t) (wgBlk V c t) ((dat V c).before 2 t d2) (accAt V c t.val) Set.univ _)
    isplitl [H0]; · iexact H0
    isplitl [H1]; · iexact H1
    isplitl [H2]; · iexact H2
    isplitl [Ha]; · iexact Ha
    iintro ⟨H0, H1, H2, Ha⟩
    isplitl [Ha Hrest]
    · isplitl [Ha]
      · iexists _; isplitl [Ha]; · iexact Ha
        ipureintro; intro _; rfl
      · iexact Hrest
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W11, bigSep_W11]
  exact sound_body V c t

end Cert.KernelIdeal.Hand.R11

end
-- ==== Proof.KI.Fam.lean ====
/-
  The assembly's common part: the twelve regions' results as functions of their entry contents, the contents they leave
  pinned over them (`outs`), and every pipeline's proof data at its region's entry contents.
-/
import proofs.«130096_j52458730553647_1_alg».proof.Proof.KI.Outs
import proofs.«130096_j52458730553647_1_alg».proof.Proof.KI.RegionOf
import proofs.«130096_j52458730553647_1_alg».proof.Proof.KI.R0
import proofs.«130096_j52458730553647_1_alg».proof.Proof.KI.R1
import proofs.«130096_j52458730553647_1_alg».proof.Proof.KI.R2
import proofs.«130096_j52458730553647_1_alg».proof.Proof.KI.R3
import proofs.«130096_j52458730553647_1_alg».proof.Proof.KI.R4
import proofs.«130096_j52458730553647_1_alg».proof.Proof.KI.R5
import proofs.«130096_j52458730553647_1_alg».proof.Proof.KI.R6
import proofs.«130096_j52458730553647_1_alg».proof.Proof.KI.R7
import proofs.«130096_j52458730553647_1_alg».proof.Proof.KI.R8
import proofs.«130096_j52458730553647_1_alg».proof.Proof.KI.R9
import proofs.«130096_j52458730553647_1_alg».proof.Proof.KI.R10
import proofs.«130096_j52458730553647_1_alg».proof.Proof.KI.R11

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

local notation "𝕄" => MT nD τ sig Unit (Elt F) ℕ (UR sig nD τ) ℕ

/-- What region `k` leaves in its result array (the fold of its write-backs over the array as entered), from the contents
    it is entered from: a gather region's result is its window 3, a scatter region's its window 2. -/
def res : Res F
  | ⟨0, _⟩ => fun V c => (R0.dat V c).arrAt 3 cfg0.N
  | ⟨1, _⟩ => fun V c => (R1.dat V c).arrAt 2 cfg1.N
  | ⟨2, _⟩ => fun V c => (R2.dat V c).arrAt 3 cfg2.N
  | ⟨3, _⟩ => fun V c => (R3.dat V c).arrAt 2 cfg3.N
  | ⟨4, _⟩ => fun V c => (R4.dat V c).arrAt 3 cfg4.N
  | ⟨5, _⟩ => fun V c => (R5.dat V c).arrAt 2 cfg5.N
  | ⟨6, _⟩ => fun V c => (R6.dat V c).arrAt 3 cfg6.N
  | ⟨7, _⟩ => fun V c => (R7.dat V c).arrAt 2 cfg7.N
  | ⟨8, _⟩ => fun V c => (R8.dat V c).arrAt 3 cfg8.N
  | ⟨9, _⟩ => fun V c => (R9.dat V c).arrAt 2 cfg9.N
  | ⟨10, _⟩ => fun V c => (R10.dat V c).arrAt 3 cfg10.N
  | ⟨11, _⟩ => fun V c => (R11.dat V c).arrAt 2 cfg11.N

variable (m : (ℓ : Loc nD τ sig) → Buf (Elt F) ℓ)

/-- The contents the regions leave: each region's result array, at the item after it, at what the region computes from
    its entry contents over these same contents. -/
def outs : Gen.Outs (F := F) := pinned m res

theorem outs_12 (c : Dev nD) : outs m 12 main_v39 c = (R0.dat (fun c b => Gen.V11 m c b) c).arrAt 3 cfg0.N := pinned_exit m res 0 c
theorem outs_13 (c : Dev nD) : outs m 13 main_v40 c = (R1.dat (fun c b => Gen.V12 m (outs m) c b) c).arrAt 2 cfg1.N := pinned_exit m res 1 c
theorem outs_23 (c : Dev nD) : outs m 23 main_v51 c = (R2.dat (fun c b => Gen.V22 m (outs m) c b) c).arrAt 3 cfg2.N := pinned_exit m res 2 c
theorem outs_24 (c : Dev nD) : outs m 24 main_v52 c = (R3.dat (fun c b => Gen.V23 m (outs m) c b) c).arrAt 2 cfg3.N := pinned_exit m res 3 c
theorem outs_36 (c : Dev nD) : outs m 36 main_v90 c = (R4.dat (fun c b => Gen.V35 m (outs m) c b) c).arrAt 3 cfg4.N := pinned_exit m res 4 c
theorem outs_37 (c : Dev nD) : outs m 37 main_v91 c = (R5.dat (fun c b => Gen.V36 m (outs m) c b) c).arrAt 2 cfg5.N := pinned_exit m res 5 c
theorem outs_47 (c : Dev nD) : outs m 47 main_v100 c = (R6.dat (fun c b => Gen.V46 m (outs m) c b) c).arrAt 3 cfg6.N := pinned_exit m res 6 c
theorem outs_48 (c : Dev nD) : outs m 48 main_v101 c = (R7.dat (fun c b => Gen.V47 m (outs m) c b) c).arrAt 2 cfg7.N := pinned_exit m res 7 c
theorem outs_60 (c : Dev nD) : outs m 60 main_v135 c = (R8.dat (fun c b => Gen.V59 m (outs m) c b) c).arrAt 3 cfg8.N := pinned_exit m res 8 c
theorem outs_61 (c : Dev nD) : outs m 61 main_v136 c = (R9.dat (fun c b => Gen.V60 m (outs m) c b) c).arrAt 2 cfg9.N := pinned_exit m res 9 c
theorem outs_71 (c : Dev nD) : outs m 71 main_v145 c = (R10.dat (fun c b => Gen.V70 m (outs m) c b) c).arrAt 3 cfg10.N := pinned_exit m res 10 c
theorem outs_72 (c : Dev nD) : outs m 72 main_v146 c = (R11.dat (fun c b => Gen.V71 m (outs m) c b) c).arrAt 2 cfg11.N := pinned_exit m res 11 c

/-! ## The valuations a region is entered from and left at, by region -/

/-- Region 0: entered from the valuation before its item, left at the one after it. -/
abbrev Vin0 : Dev nD → Valuation τ sig (Elt F) := Gen.V11 m
abbrev Vout0 : Dev nD → Valuation τ sig (Elt F) := Gen.V12 m (outs m)
abbrev entry0 : Entry F := fun c b => Vin0 m c b
/-- Region 1: entered from the valuation before its item, left at the one after it. -/
abbrev Vin1 : Dev nD → Valuation τ sig (Elt F) := Gen.V12 m (outs m)
abbrev Vout1 : Dev nD → Valuation τ sig (Elt F) := Gen.V13 m (outs m)
abbrev entry1 : Entry F := fun c b => Vin1 m c b
/-- Region 2: entered from the valuation before its item, left at the one after it. -/
abbrev Vin2 : Dev nD → Valuation τ sig (Elt F) := Gen.V22 m (outs m)
abbrev Vout2 : Dev nD → Valuation τ sig (Elt F) := Gen.V23 m (outs m)
abbrev entry2 : Entry F := fun c b => Vin2 m c b
/-- Region 3: entered from the valuation before its item, left at the one after it. -/
abbrev Vin3 : Dev nD → Valuation τ sig (Elt F) := Gen.V23 m (outs m)
abbrev Vout3 : Dev nD → Valuation τ sig (Elt F) := Gen.V24 m (outs m)
abbrev entry3 : Entry F := fun c b => Vin3 m c b
/-- Region 4: entered from the valuation before its item, left at the one after it. -/
abbrev Vin4 : Dev nD → Valuation τ sig (Elt F) := Gen.V35 m (outs m)
abbrev Vout4 : Dev nD → Valuation τ sig (Elt F) := Gen.V36 m (outs m)
abbrev entry4 : Entry F := fun c b => Vin4 m c b
/-- Region 5: entered from the valuation before its item, left at the one after it. -/
abbrev Vin5 : Dev nD → Valuation τ sig (Elt F) := Gen.V36 m (outs m)
abbrev Vout5 : Dev nD → Valuation τ sig (Elt F) := Gen.V37 m (outs m)
abbrev entry5 : Entry F := fun c b => Vin5 m c b
/-- Region 6: entered from the valuation before its item, left at the one after it. -/
abbrev Vin6 : Dev nD → Valuation τ sig (Elt F) := Gen.V46 m (outs m)
abbrev Vout6 : Dev nD → Valuation τ sig (Elt F) := Gen.V47 m (outs m)
abbrev entry6 : Entry F := fun c b => Vin6 m c b
/-- Region 7: entered from the valuation before its item, left at the one after it. -/
abbrev Vin7 : Dev nD → Valuation τ sig (Elt F) := Gen.V47 m (outs m)
abbrev Vout7 : Dev nD → Valuation τ sig (Elt F) := Gen.V48 m (outs m)
abbrev entry7 : Entry F := fun c b => Vin7 m c b
/-- Region 8: entered from the valuation before its item, left at the one after it. -/
abbrev Vin8 : Dev nD → Valuation τ sig (Elt F) := Gen.V59 m (outs m)
abbrev Vout8 : Dev nD → Valuation τ sig (Elt F) := Gen.V60 m (outs m)
abbrev entry8 : Entry F := fun c b => Vin8 m c b
/-- Region 9: entered from the valuation before its item, left at the one after it. -/
abbrev Vin9 : Dev nD → Valuation τ sig (Elt F) := Gen.V60 m (outs m)
abbrev Vout9 : Dev nD → Valuation τ sig (Elt F) := Gen.V61 m (outs m)
abbrev entry9 : Entry F := fun c b => Vin9 m c b
/-- Region 10: entered from the valuation before its item, left at the one after it. -/
abbrev Vin10 : Dev nD → Valuation τ sig (Elt F) := Gen.V70 m (outs m)
abbrev Vout10 : Dev nD → Valuation τ sig (Elt F) := Gen.V71 m (outs m)
abbrev entry10 : Entry F := fun c b => Vin10 m c b
/-- Region 11: entered from the valuation before its item, left at the one after it. -/
abbrev Vin11 : Dev nD → Valuation τ sig (Elt F) := Gen.V71 m (outs m)
abbrev Vout11 : Dev nD → Valuation τ sig (Elt F) := Gen.V72 m (outs m)
abbrev entry11 : Entry F := fun c b => Vin11 m c b

/-! ## A region leaves every buffer but its result array as it found it -/

theorem Vout0_of (c : Dev nD) (r : Ref sig .tc) (h : r ∉ ([main_v39] : List (Ref sig .tc))) : Vout0 m c r = Vin0 m c r :=
  Gen.V12_of m (outs m) c r h
theorem Vout1_of (c : Dev nD) (r : Ref sig .tc) (h : r ∉ ([main_v40] : List (Ref sig .tc))) : Vout1 m c r = Vin1 m c r :=
  Gen.V13_of m (outs m) c r h
theorem Vout2_of (c : Dev nD) (r : Ref sig .tc) (h : r ∉ ([main_v51] : List (Ref sig .tc))) : Vout2 m c r = Vin2 m c r :=
  Gen.V23_of m (outs m) c r h
theorem Vout3_of (c : Dev nD) (r : Ref sig .tc) (h : r ∉ ([main_v52] : List (Ref sig .tc))) : Vout3 m c r = Vin3 m c r :=
  Gen.V24_of m (outs m) c r h
theorem Vout4_of (c : Dev nD) (r : Ref sig .tc) (h : r ∉ ([main_v90] : List (Ref sig .tc))) : Vout4 m c r = Vin4 m c r :=
  Gen.V36_of m (outs m) c r h
theorem Vout5_of (c : Dev nD) (r : Ref sig .tc) (h : r ∉ ([main_v91] : List (Ref sig .tc))) : Vout5 m c r = Vin5 m c r :=
  Gen.V37_of m (outs m) c r h
theorem Vout6_of (c : Dev nD) (r : Ref sig .tc) (h : r ∉ ([main_v100] : List (Ref sig .tc))) : Vout6 m c r = Vin6 m c r :=
  Gen.V47_of m (outs m) c r h
theorem Vout7_of (c : Dev nD) (r : Ref sig .tc) (h : r ∉ ([main_v101] : List (Ref sig .tc))) : Vout7 m c r = Vin7 m c r :=
  Gen.V48_of m (outs m) c r h
theorem Vout8_of (c : Dev nD) (r : Ref sig .tc) (h : r ∉ ([main_v135] : List (Ref sig .tc))) : Vout8 m c r = Vin8 m c r :=
  Gen.V60_of m (outs m) c r h
theorem Vout9_of (c : Dev nD) (r : Ref sig .tc) (h : r ∉ ([main_v136] : List (Ref sig .tc))) : Vout9 m c r = Vin9 m c r :=
  Gen.V61_of m (outs m) c r h
theorem Vout10_of (c : Dev nD) (r : Ref sig .tc) (h : r ∉ ([main_v145] : List (Ref sig .tc))) : Vout10 m c r = Vin10 m c r :=
  Gen.V71_of m (outs m) c r h
theorem Vout11_of (c : Dev nD) (r : Ref sig .tc) (h : r ∉ ([main_v146] : List (Ref sig .tc))) : Vout11 m c r = Vin11 m c r :=
  Gen.V72_of m (outs m) c r h

/-! ## and its result array at what its result window's write-backs leave, from its entry contents -/

theorem Vout0_res (c : Dev nD) : Vout0 m c main_v39 = (R0.dat (entry0 m) c).arrAt 3 cfg0.N :=
  (show Vout0 m c main_v39 = outs m 12 main_v39 c from Function.update_self _ _ _).trans (outs_12 m c)
theorem Vout1_res (c : Dev nD) : Vout1 m c main_v40 = (R1.dat (entry1 m) c).arrAt 2 cfg1.N :=
  (show Vout1 m c main_v40 = outs m 13 main_v40 c from Function.update_self _ _ _).trans (outs_13 m c)
theorem Vout2_res (c : Dev nD) : Vout2 m c main_v51 = (R2.dat (entry2 m) c).arrAt 3 cfg2.N :=
  (show Vout2 m c main_v51 = outs m 23 main_v51 c from Function.update_self _ _ _).trans (outs_23 m c)
theorem Vout3_res (c : Dev nD) : Vout3 m c main_v52 = (R3.dat (entry3 m) c).arrAt 2 cfg3.N :=
  (show Vout3 m c main_v52 = outs m 24 main_v52 c from Function.update_self _ _ _).trans (outs_24 m c)
theorem Vout4_res (c : Dev nD) : Vout4 m c main_v90 = (R4.dat (entry4 m) c).arrAt 3 cfg4.N :=
  (show Vout4 m c main_v90 = outs m 36 main_v90 c from Function.update_self _ _ _).trans (outs_36 m c)
theorem Vout5_res (c : Dev nD) : Vout5 m c main_v91 = (R5.dat (entry5 m) c).arrAt 2 cfg5.N :=
  (show Vout5 m c main_v91 = outs m 37 main_v91 c from Function.update_self _ _ _).trans (outs_37 m c)
theorem Vout6_res (c : Dev nD) : Vout6 m c main_v100 = (R6.dat (entry6 m) c).arrAt 3 cfg6.N :=
  (show Vout6 m c main_v100 = outs m 47 main_v100 c from Function.update_self _ _ _).trans (outs_47 m c)
theorem Vout7_res (c : Dev nD) : Vout7 m c main_v101 = (R7.dat (entry7 m) c).arrAt 2 cfg7.N :=
  (show Vout7 m c main_v101 = outs m 48 main_v101 c from Function.update_self _ _ _).trans (outs_48 m c)
theorem Vout8_res (c : Dev nD) : Vout8 m c main_v135 = (R8.dat (entry8 m) c).arrAt 3 cfg8.N :=
  (show Vout8 m c main_v135 = outs m 60 main_v135 c from Function.update_self _ _ _).trans (outs_60 m c)
theorem Vout9_res (c : Dev nD) : Vout9 m c main_v136 = (R9.dat (entry9 m) c).arrAt 2 cfg9.N :=
  (show Vout9 m c main_v136 = outs m 61 main_v136 c from Function.update_self _ _ _).trans (outs_61 m c)
theorem Vout10_res (c : Dev nD) : Vout10 m c main_v145 = (R10.dat (entry10 m) c).arrAt 3 cfg10.N :=
  (show Vout10 m c main_v145 = outs m 71 main_v145 c from Function.update_self _ _ _).trans (outs_71 m c)
theorem Vout11_res (c : Dev nD) : Vout11 m c main_v146 = (R11.dat (entry11 m) c).arrAt 2 cfg11.N :=
  (show Vout11 m c main_v146 = outs m 72 main_v146 c from Function.update_self _ _ _).trans (outs_72 m c)

/-! ## The proof data family -/

/-- The pipeline indices by name. -/
abbrev p0 : Fin 12 := 0
abbrev p1 : Fin 12 := 1
abbrev p2 : Fin 12 := 2
abbrev p3 : Fin 12 := 3
abbrev p4 : Fin 12 := 4
abbrev p5 : Fin 12 := 5
abbrev p6 : Fin 12 := 6
abbrev p7 : Fin 12 := 7
abbrev p8 : Fin 12 := 8
abbrev p9 : Fin 12 := 9
abbrev p10 : Fin 12 := 10
abbrev p11 : Fin 12 := 11

/-- Every pipeline's proof data, each at its region's entry contents. -/
def pdats : (p : Fin 12) → (c : Dev nD) → Dat τ (Elt F) Unit ℕ (UR sig nD τ) ℕ (cfgs p) c
  | ⟨0, _⟩ => fun c => R0.dat (entry0 m) c
  | ⟨1, _⟩ => fun c => R1.dat (entry1 m) c
  | ⟨2, _⟩ => fun c => R2.dat (entry2 m) c
  | ⟨3, _⟩ => fun c => R3.dat (entry3 m) c
  | ⟨4, _⟩ => fun c => R4.dat (entry4 m) c
  | ⟨5, _⟩ => fun c => R5.dat (entry5 m) c
  | ⟨6, _⟩ => fun c => R6.dat (entry6 m) c
  | ⟨7, _⟩ => fun c => R7.dat (entry7 m) c
  | ⟨8, _⟩ => fun c => R8.dat (entry8 m) c
  | ⟨9, _⟩ => fun c => R9.dat (entry9 m) c
  | ⟨10, _⟩ => fun c => R10.dat (entry10 m) c
  | ⟨11, _⟩ => fun c => R11.dat (entry11 m) c

end Cert.KernelIdeal.Hand

end
-- ==== Proof.KI.Reg0.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA0 (c : Dev nD) (w : Fin cfg0.W) : (pdats m p0 c).A w = Vin0 m c (Pipeline.arrRef spec0 w) :=
  R0.A_eq (entry0 m) c w

/-- The one window the region writes is its result window; every other window's array is not the result array. -/
theorem out_window0 : ∀ w : Fin cfg0.W, (cfg0.win w).isOut = true → w = 3 := by decide
theorem in_window0 : ∀ w : Fin cfg0.W, (cfg0.win w).isOut = false → Pipeline.arrRef spec0 w ∉ ([main_v39] : List (Ref sig .tc)) := by decide

/-- At the exit valuation each array of the region holds what the pipeline leaves in it: a window that is only read
    leaves its array as entered, and the exit valuation agrees with the entry one there; the result array holds the
    result window's write-backs folded. -/
theorem hF0 (c : Dev nD) (w : Fin cfg0.W) :
    (pdats m p0 c).arrAt w cfg0.N = Vout0 m c (Pipeline.arrRef spec0 w) := by
  cases hout : (cfg0.win w).isOut with
  | true =>
    obtain rfl := out_window0 w hout
    exact (Vout0_res m c).symm
  | false =>
    exact ((pdats m p0 c).arrAt_in w hout _).trans ((hA0 m c w).trans (Vout0_of m c _ (in_window0 w hout)).symm)

/-- Off the region's arrays the exit valuation is the entry one: the result array is one of them. -/
theorem hrest0 (c : Dev nD) (b : Ref sig .tc) (hb : b ∉ Finset.univ.image (Pipeline.arrRef spec0)) :
    Vout0 m c b = Vin0 m c b :=
  Vout0_of m c b fun h => hb (by
    rw [List.mem_singleton] at h
    subst h
    exact Finset.mem_image.mpr ⟨3, Finset.mem_univ _, rfl⟩)

/-- THE REGION over the thread state. -/
def reg0 : Pipeline.RegionSeg (pcfgs (F := F)) Gen.adm (pdats m) () defs₀ 𝒱₀ L lv p0 :=
  regionOf (pdats m) p0 launch0 (Vin0 m) (Vout0 m)
    (hA0 m) (fun _ _ => rfl) (fun _ _ => rfl) (fun _ => rfl)
    (fun c => R0.body_obligation (entry0 m) c) (fun c => R0.Φ_in (entry0 m) c) (fun c => R0.Φ_out (entry0 m) c)
    (hF0 m) (hrest0 m)

end Cert.KernelIdeal.Hand

end
-- ==== Proof.KI.Reg1.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA1 (c : Dev nD) (w : Fin cfg1.W) : (pdats m p1 c).A w = Vin1 m c (Pipeline.arrRef spec1 w) :=
  R1.A_eq (entry1 m) c w

/-- The one window the region writes is its result window; every other window's array is not the result array. -/
theorem out_window1 : ∀ w : Fin cfg1.W, (cfg1.win w).isOut = true → w = 2 := by decide
theorem in_window1 : ∀ w : Fin cfg1.W, (cfg1.win w).isOut = false → Pipeline.arrRef spec1 w ∉ ([main_v40] : List (Ref sig .tc)) := by decide

/-- At the exit valuation each array of the region holds what the pipeline leaves in it: a window that is only read
    leaves its array as entered, and the exit valuation agrees with the entry one there; the result array holds the
    result window's write-backs folded. -/
theorem hF1 (c : Dev nD) (w : Fin cfg1.W) :
    (pdats m p1 c).arrAt w cfg1.N = Vout1 m c (Pipeline.arrRef spec1 w) := by
  cases hout : (cfg1.win w).isOut with
  | true =>
    obtain rfl := out_window1 w hout
    exact (Vout1_res m c).symm
  | false =>
    exact ((pdats m p1 c).arrAt_in w hout _).trans ((hA1 m c w).trans (Vout1_of m c _ (in_window1 w hout)).symm)

/-- Off the region's arrays the exit valuation is the entry one: the result array is one of them. -/
theorem hrest1 (c : Dev nD) (b : Ref sig .tc) (hb : b ∉ Finset.univ.image (Pipeline.arrRef spec1)) :
    Vout1 m c b = Vin1 m c b :=
  Vout1_of m c b fun h => hb (by
    rw [List.mem_singleton] at h
    subst h
    exact Finset.mem_image.mpr ⟨2, Finset.mem_univ _, rfl⟩)

/-- THE REGION over the thread state. -/
def reg1 : Pipeline.RegionSeg (pcfgs (F := F)) Gen.adm (pdats m) () defs₀ 𝒱₀ L lv p1 :=
  regionOf (pdats m) p1 launch1 (Vin1 m) (Vout1 m)
    (hA1 m) (fun _ _ => rfl) (fun _ _ => rfl) (fun _ => rfl)
    (fun c => R1.body_obligation (entry1 m) c) (fun c => R1.Φ_in (entry1 m) c) (fun c => R1.Φ_out (entry1 m) c)
    (hF1 m) (hrest1 m)

end Cert.KernelIdeal.Hand

end
-- ==== Proof.KI.Reg2.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA2 (c : Dev nD) (w : Fin cfg2.W) : (pdats m p2 c).A w = Vin2 m c (Pipeline.arrRef spec2 w) :=
  R2.A_eq (entry2 m) c w

/-- The one window the region writes is its result window; every other window's array is not the result array. -/
theorem out_window2 : ∀ w : Fin cfg2.W, (cfg2.win w).isOut = true → w = 3 := by decide
theorem in_window2 : ∀ w : Fin cfg2.W, (cfg2.win w).isOut = false → Pipeline.arrRef spec2 w ∉ ([main_v51] : List (Ref sig .tc)) := by decide

/-- At the exit valuation each array of the region holds what the pipeline leaves in it: a window that is only read
    leaves its array as entered, and the exit valuation agrees with the entry one there; the result array holds the
    result window's write-backs folded. -/
theorem hF2 (c : Dev nD) (w : Fin cfg2.W) :
    (pdats m p2 c).arrAt w cfg2.N = Vout2 m c (Pipeline.arrRef spec2 w) := by
  cases hout : (cfg2.win w).isOut with
  | true =>
    obtain rfl := out_window2 w hout
    exact (Vout2_res m c).symm
  | false =>
    exact ((pdats m p2 c).arrAt_in w hout _).trans ((hA2 m c w).trans (Vout2_of m c _ (in_window2 w hout)).symm)

/-- Off the region's arrays the exit valuation is the entry one: the result array is one of them. -/
theorem hrest2 (c : Dev nD) (b : Ref sig .tc) (hb : b ∉ Finset.univ.image (Pipeline.arrRef spec2)) :
    Vout2 m c b = Vin2 m c b :=
  Vout2_of m c b fun h => hb (by
    rw [List.mem_singleton] at h
    subst h
    exact Finset.mem_image.mpr ⟨3, Finset.mem_univ _, rfl⟩)

/-- THE REGION over the thread state. -/
def reg2 : Pipeline.RegionSeg (pcfgs (F := F)) Gen.adm (pdats m) () defs₀ 𝒱₀ L lv p2 :=
  regionOf (pdats m) p2 launch2 (Vin2 m) (Vout2 m)
    (hA2 m) (fun _ _ => rfl) (fun _ _ => rfl) (fun _ => rfl)
    (fun c => R2.body_obligation (entry2 m) c) (fun c => R2.Φ_in (entry2 m) c) (fun c => R2.Φ_out (entry2 m) c)
    (hF2 m) (hrest2 m)

end Cert.KernelIdeal.Hand

end
-- ==== Proof.KI.Reg3.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA3 (c : Dev nD) (w : Fin cfg3.W) : (pdats m p3 c).A w = Vin3 m c (Pipeline.arrRef spec3 w) :=
  R3.A_eq (entry3 m) c w

/-- The one window the region writes is its result window; every other window's array is not the result array. -/
theorem out_window3 : ∀ w : Fin cfg3.W, (cfg3.win w).isOut = true → w = 2 := by decide
theorem in_window3 : ∀ w : Fin cfg3.W, (cfg3.win w).isOut = false → Pipeline.arrRef spec3 w ∉ ([main_v52] : List (Ref sig .tc)) := by decide

/-- At the exit valuation each array of the region holds what the pipeline leaves in it: a window that is only read
    leaves its array as entered, and the exit valuation agrees with the entry one there; the result array holds the
    result window's write-backs folded. -/
theorem hF3 (c : Dev nD) (w : Fin cfg3.W) :
    (pdats m p3 c).arrAt w cfg3.N = Vout3 m c (Pipeline.arrRef spec3 w) := by
  cases hout : (cfg3.win w).isOut with
  | true =>
    obtain rfl := out_window3 w hout
    exact (Vout3_res m c).symm
  | false =>
    exact ((pdats m p3 c).arrAt_in w hout _).trans ((hA3 m c w).trans (Vout3_of m c _ (in_window3 w hout)).symm)

/-- Off the region's arrays the exit valuation is the entry one: the result array is one of them. -/
theorem hrest3 (c : Dev nD) (b : Ref sig .tc) (hb : b ∉ Finset.univ.image (Pipeline.arrRef spec3)) :
    Vout3 m c b = Vin3 m c b :=
  Vout3_of m c b fun h => hb (by
    rw [List.mem_singleton] at h
    subst h
    exact Finset.mem_image.mpr ⟨2, Finset.mem_univ _, rfl⟩)

/-- THE REGION over the thread state. -/
def reg3 : Pipeline.RegionSeg (pcfgs (F := F)) Gen.adm (pdats m) () defs₀ 𝒱₀ L lv p3 :=
  regionOf (pdats m) p3 launch3 (Vin3 m) (Vout3 m)
    (hA3 m) (fun _ _ => rfl) (fun _ _ => rfl) (fun _ => rfl)
    (fun c => R3.body_obligation (entry3 m) c) (fun c => R3.Φ_in (entry3 m) c) (fun c => R3.Φ_out (entry3 m) c)
    (hF3 m) (hrest3 m)

end Cert.KernelIdeal.Hand

end
-- ==== Proof.KI.Reg4.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA4 (c : Dev nD) (w : Fin cfg4.W) : (pdats m p4 c).A w = Vin4 m c (Pipeline.arrRef spec4 w) :=
  R4.A_eq (entry4 m) c w

/-- The one window the region writes is its result window; every other window's array is not the result array. -/
theorem out_window4 : ∀ w : Fin cfg4.W, (cfg4.win w).isOut = true → w = 3 := by decide
theorem in_window4 : ∀ w : Fin cfg4.W, (cfg4.win w).isOut = false → Pipeline.arrRef spec4 w ∉ ([main_v90] : List (Ref sig .tc)) := by decide

/-- At the exit valuation each array of the region holds what the pipeline leaves in it: a window that is only read
    leaves its array as entered, and the exit valuation agrees with the entry one there; the result array holds the
    result window's write-backs folded. -/
theorem hF4 (c : Dev nD) (w : Fin cfg4.W) :
    (pdats m p4 c).arrAt w cfg4.N = Vout4 m c (Pipeline.arrRef spec4 w) := by
  cases hout : (cfg4.win w).isOut with
  | true =>
    obtain rfl := out_window4 w hout
    exact (Vout4_res m c).symm
  | false =>
    exact ((pdats m p4 c).arrAt_in w hout _).trans ((hA4 m c w).trans (Vout4_of m c _ (in_window4 w hout)).symm)

/-- Off the region's arrays the exit valuation is the entry one: the result array is one of them. -/
theorem hrest4 (c : Dev nD) (b : Ref sig .tc) (hb : b ∉ Finset.univ.image (Pipeline.arrRef spec4)) :
    Vout4 m c b = Vin4 m c b :=
  Vout4_of m c b fun h => hb (by
    rw [List.mem_singleton] at h
    subst h
    exact Finset.mem_image.mpr ⟨3, Finset.mem_univ _, rfl⟩)

/-- THE REGION over the thread state. -/
def reg4 : Pipeline.RegionSeg (pcfgs (F := F)) Gen.adm (pdats m) () defs₀ 𝒱₀ L lv p4 :=
  regionOf (pdats m) p4 launch4 (Vin4 m) (Vout4 m)
    (hA4 m) (fun _ _ => rfl) (fun _ _ => rfl) (fun _ => rfl)
    (fun c => R4.body_obligation (entry4 m) c) (fun c => R4.Φ_in (entry4 m) c) (fun c => R4.Φ_out (entry4 m) c)
    (hF4 m) (hrest4 m)

end Cert.KernelIdeal.Hand

end
-- ==== Proof.KI.Reg5.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA5 (c : Dev nD) (w : Fin cfg5.W) : (pdats m p5 c).A w = Vin5 m c (Pipeline.arrRef spec5 w) :=
  R5.A_eq (entry5 m) c w

/-- The one window the region writes is its result window; every other window's array is not the result array. -/
theorem out_window5 : ∀ w : Fin cfg5.W, (cfg5.win w).isOut = true → w = 2 := by decide
theorem in_window5 : ∀ w : Fin cfg5.W, (cfg5.win w).isOut = false → Pipeline.arrRef spec5 w ∉ ([main_v91] : List (Ref sig .tc)) := by decide

/-- At the exit valuation each array of the region holds what the pipeline leaves in it: a window that is only read
    leaves its array as entered, and the exit valuation agrees with the entry one there; the result array holds the
    result window's write-backs folded. -/
theorem hF5 (c : Dev nD) (w : Fin cfg5.W) :
    (pdats m p5 c).arrAt w cfg5.N = Vout5 m c (Pipeline.arrRef spec5 w) := by
  cases hout : (cfg5.win w).isOut with
  | true =>
    obtain rfl := out_window5 w hout
    exact (Vout5_res m c).symm
  | false =>
    exact ((pdats m p5 c).arrAt_in w hout _).trans ((hA5 m c w).trans (Vout5_of m c _ (in_window5 w hout)).symm)

/-- Off the region's arrays the exit valuation is the entry one: the result array is one of them. -/
theorem hrest5 (c : Dev nD) (b : Ref sig .tc) (hb : b ∉ Finset.univ.image (Pipeline.arrRef spec5)) :
    Vout5 m c b = Vin5 m c b :=
  Vout5_of m c b fun h => hb (by
    rw [List.mem_singleton] at h
    subst h
    exact Finset.mem_image.mpr ⟨2, Finset.mem_univ _, rfl⟩)

/-- THE REGION over the thread state. -/
def reg5 : Pipeline.RegionSeg (pcfgs (F := F)) Gen.adm (pdats m) () defs₀ 𝒱₀ L lv p5 :=
  regionOf (pdats m) p5 launch5 (Vin5 m) (Vout5 m)
    (hA5 m) (fun _ _ => rfl) (fun _ _ => rfl) (fun _ => rfl)
    (fun c => R5.body_obligation (entry5 m) c) (fun c => R5.Φ_in (entry5 m) c) (fun c => R5.Φ_out (entry5 m) c)
    (hF5 m) (hrest5 m)

end Cert.KernelIdeal.Hand

end
-- ==== Proof.KI.Reg6.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA6 (c : Dev nD) (w : Fin cfg6.W) : (pdats m p6 c).A w = Vin6 m c (Pipeline.arrRef spec6 w) :=
  R6.A_eq (entry6 m) c w

/-- The one window the region writes is its result window; every other window's array is not the result array. -/
theorem out_window6 : ∀ w : Fin cfg6.W, (cfg6.win w).isOut = true → w = 3 := by decide
theorem in_window6 : ∀ w : Fin cfg6.W, (cfg6.win w).isOut = false → Pipeline.arrRef spec6 w ∉ ([main_v100] : List (Ref sig .tc)) := by decide

/-- At the exit valuation each array of the region holds what the pipeline leaves in it: a window that is only read
    leaves its array as entered, and the exit valuation agrees with the entry one there; the result array holds the
    result window's write-backs folded. -/
theorem hF6 (c : Dev nD) (w : Fin cfg6.W) :
    (pdats m p6 c).arrAt w cfg6.N = Vout6 m c (Pipeline.arrRef spec6 w) := by
  cases hout : (cfg6.win w).isOut with
  | true =>
    obtain rfl := out_window6 w hout
    exact (Vout6_res m c).symm
  | false =>
    exact ((pdats m p6 c).arrAt_in w hout _).trans ((hA6 m c w).trans (Vout6_of m c _ (in_window6 w hout)).symm)

/-- Off the region's arrays the exit valuation is the entry one: the result array is one of them. -/
theorem hrest6 (c : Dev nD) (b : Ref sig .tc) (hb : b ∉ Finset.univ.image (Pipeline.arrRef spec6)) :
    Vout6 m c b = Vin6 m c b :=
  Vout6_of m c b fun h => hb (by
    rw [List.mem_singleton] at h
    subst h
    exact Finset.mem_image.mpr ⟨3, Finset.mem_univ _, rfl⟩)

/-- THE REGION over the thread state. -/
def reg6 : Pipeline.RegionSeg (pcfgs (F := F)) Gen.adm (pdats m) () defs₀ 𝒱₀ L lv p6 :=
  regionOf (pdats m) p6 launch6 (Vin6 m) (Vout6 m)
    (hA6 m) (fun _ _ => rfl) (fun _ _ => rfl) (fun _ => rfl)
    (fun c => R6.body_obligation (entry6 m) c) (fun c => R6.Φ_in (entry6 m) c) (fun c => R6.Φ_out (entry6 m) c)
    (hF6 m) (hrest6 m)

end Cert.KernelIdeal.Hand

end
-- ==== Proof.KI.Reg7.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA7 (c : Dev nD) (w : Fin cfg7.W) : (pdats m p7 c).A w = Vin7 m c (Pipeline.arrRef spec7 w) :=
  R7.A_eq (entry7 m) c w

/-- The one window the region writes is its result window; every other window's array is not the result array. -/
theorem out_window7 : ∀ w : Fin cfg7.W, (cfg7.win w).isOut = true → w = 2 := by decide
theorem in_window7 : ∀ w : Fin cfg7.W, (cfg7.win w).isOut = false → Pipeline.arrRef spec7 w ∉ ([main_v101] : List (Ref sig .tc)) := by decide

/-- At the exit valuation each array of the region holds what the pipeline leaves in it: a window that is only read
    leaves its array as entered, and the exit valuation agrees with the entry one there; the result array holds the
    result window's write-backs folded. -/
theorem hF7 (c : Dev nD) (w : Fin cfg7.W) :
    (pdats m p7 c).arrAt w cfg7.N = Vout7 m c (Pipeline.arrRef spec7 w) := by
  cases hout : (cfg7.win w).isOut with
  | true =>
    obtain rfl := out_window7 w hout
    exact (Vout7_res m c).symm
  | false =>
    exact ((pdats m p7 c).arrAt_in w hout _).trans ((hA7 m c w).trans (Vout7_of m c _ (in_window7 w hout)).symm)

/-- Off the region's arrays the exit valuation is the entry one: the result array is one of them. -/
theorem hrest7 (c : Dev nD) (b : Ref sig .tc) (hb : b ∉ Finset.univ.image (Pipeline.arrRef spec7)) :
    Vout7 m c b = Vin7 m c b :=
  Vout7_of m c b fun h => hb (by
    rw [List.mem_singleton] at h
    subst h
    exact Finset.mem_image.mpr ⟨2, Finset.mem_univ _, rfl⟩)

/-- THE REGION over the thread state. -/
def reg7 : Pipeline.RegionSeg (pcfgs (F := F)) Gen.adm (pdats m) () defs₀ 𝒱₀ L lv p7 :=
  regionOf (pdats m) p7 launch7 (Vin7 m) (Vout7 m)
    (hA7 m) (fun _ _ => rfl) (fun _ _ => rfl) (fun _ => rfl)
    (fun c => R7.body_obligation (entry7 m) c) (fun c => R7.Φ_in (entry7 m) c) (fun c => R7.Φ_out (entry7 m) c)
    (hF7 m) (hrest7 m)

end Cert.KernelIdeal.Hand

end
-- ==== Proof.KI.Reg8.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA8 (c : Dev nD) (w : Fin cfg8.W) : (pdats m p8 c).A w = Vin8 m c (Pipeline.arrRef spec8 w) :=
  R8.A_eq (entry8 m) c w

/-- The one window the region writes is its result window; every other window's array is not the result array. -/
theorem out_window8 : ∀ w : Fin cfg8.W, (cfg8.win w).isOut = true → w = 3 := by decide
theorem in_window8 : ∀ w : Fin cfg8.W, (cfg8.win w).isOut = false → Pipeline.arrRef spec8 w ∉ ([main_v135] : List (Ref sig .tc)) := by decide

/-- At the exit valuation each array of the region holds what the pipeline leaves in it: a window that is only read
    leaves its array as entered, and the exit valuation agrees with the entry one there; the result array holds the
    result window's write-backs folded. -/
theorem hF8 (c : Dev nD) (w : Fin cfg8.W) :
    (pdats m p8 c).arrAt w cfg8.N = Vout8 m c (Pipeline.arrRef spec8 w) := by
  cases hout : (cfg8.win w).isOut with
  | true =>
    obtain rfl := out_window8 w hout
    exact (Vout8_res m c).symm
  | false =>
    exact ((pdats m p8 c).arrAt_in w hout _).trans ((hA8 m c w).trans (Vout8_of m c _ (in_window8 w hout)).symm)

/-- Off the region's arrays the exit valuation is the entry one: the result array is one of them. -/
theorem hrest8 (c : Dev nD) (b : Ref sig .tc) (hb : b ∉ Finset.univ.image (Pipeline.arrRef spec8)) :
    Vout8 m c b = Vin8 m c b :=
  Vout8_of m c b fun h => hb (by
    rw [List.mem_singleton] at h
    subst h
    exact Finset.mem_image.mpr ⟨3, Finset.mem_univ _, rfl⟩)

/-- THE REGION over the thread state. -/
def reg8 : Pipeline.RegionSeg (pcfgs (F := F)) Gen.adm (pdats m) () defs₀ 𝒱₀ L lv p8 :=
  regionOf (pdats m) p8 launch8 (Vin8 m) (Vout8 m)
    (hA8 m) (fun _ _ => rfl) (fun _ _ => rfl) (fun _ => rfl)
    (fun c => R8.body_obligation (entry8 m) c) (fun c => R8.Φ_in (entry8 m) c) (fun c => R8.Φ_out (entry8 m) c)
    (hF8 m) (hrest8 m)

end Cert.KernelIdeal.Hand

end
-- ==== Proof.KI.Reg9.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA9 (c : Dev nD) (w : Fin cfg9.W) : (pdats m p9 c).A w = Vin9 m c (Pipeline.arrRef spec9 w) :=
  R9.A_eq (entry9 m) c w

/-- The one window the region writes is its result window; every other window's array is not the result array. -/
theorem out_window9 : ∀ w : Fin cfg9.W, (cfg9.win w).isOut = true → w = 2 := by decide
theorem in_window9 : ∀ w : Fin cfg9.W, (cfg9.win w).isOut = false → Pipeline.arrRef spec9 w ∉ ([main_v136] : List (Ref sig .tc)) := by decide

/-- At the exit valuation each array of the region holds what the pipeline leaves in it: a window that is only read
    leaves its array as entered, and the exit valuation agrees with the entry one there; the result array holds the
    result window's write-backs folded. -/
theorem hF9 (c : Dev nD) (w : Fin cfg9.W) :
    (pdats m p9 c).arrAt w cfg9.N = Vout9 m c (Pipeline.arrRef spec9 w) := by
  cases hout : (cfg9.win w).isOut with
  | true =>
    obtain rfl := out_window9 w hout
    exact (Vout9_res m c).symm
  | false =>
    exact ((pdats m p9 c).arrAt_in w hout _).trans ((hA9 m c w).trans (Vout9_of m c _ (in_window9 w hout)).symm)

/-- Off the region's arrays the exit valuation is the entry one: the result array is one of them. -/
theorem hrest9 (c : Dev nD) (b : Ref sig .tc) (hb : b ∉ Finset.univ.image (Pipeline.arrRef spec9)) :
    Vout9 m c b = Vin9 m c b :=
  Vout9_of m c b fun h => hb (by
    rw [List.mem_singleton] at h
    subst h
    exact Finset.mem_image.mpr ⟨2, Finset.mem_univ _, rfl⟩)

/-- THE REGION over the thread state. -/
def reg9 : Pipeline.RegionSeg (pcfgs (F := F)) Gen.adm (pdats m) () defs₀ 𝒱₀ L lv p9 :=
  regionOf (pdats m) p9 launch9 (Vin9 m) (Vout9 m)
    (hA9 m) (fun _ _ => rfl) (fun _ _ => rfl) (fun _ => rfl)
    (fun c => R9.body_obligation (entry9 m) c) (fun c => R9.Φ_in (entry9 m) c) (fun c => R9.Φ_out (entry9 m) c)
    (hF9 m) (hrest9 m)

end Cert.KernelIdeal.Hand

end
-- ==== Proof.KI.Reg10.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA10 (c : Dev nD) (w : Fin cfg10.W) : (pdats m p10 c).A w = Vin10 m c (Pipeline.arrRef spec10 w) :=
  R10.A_eq (entry10 m) c w

/-- The one window the region writes is its result window; every other window's array is not the result array. -/
theorem out_window10 : ∀ w : Fin cfg10.W, (cfg10.win w).isOut = true → w = 3 := by decide
theorem in_window10 : ∀ w : Fin cfg10.W, (cfg10.win w).isOut = false → Pipeline.arrRef spec10 w ∉ ([main_v145] : List (Ref sig .tc)) := by decide

/-- At the exit valuation each array of the region holds what the pipeline leaves in it: a window that is only read
    leaves its array as entered, and the exit valuation agrees with the entry one there; the result array holds the
    result window's write-backs folded. -/
theorem hF10 (c : Dev nD) (w : Fin cfg10.W) :
    (pdats m p10 c).arrAt w cfg10.N = Vout10 m c (Pipeline.arrRef spec10 w) := by
  cases hout : (cfg10.win w).isOut with
  | true =>
    obtain rfl := out_window10 w hout
    exact (Vout10_res m c).symm
  | false =>
    exact ((pdats m p10 c).arrAt_in w hout _).trans ((hA10 m c w).trans (Vout10_of m c _ (in_window10 w hout)).symm)

/-- Off the region's arrays the exit valuation is the entry one: the result array is one of them. -/
theorem hrest10 (c : Dev nD) (b : Ref sig .tc) (hb : b ∉ Finset.univ.image (Pipeline.arrRef spec10)) :
    Vout10 m c b = Vin10 m c b :=
  Vout10_of m c b fun h => hb (by
    rw [List.mem_singleton] at h
    subst h
    exact Finset.mem_image.mpr ⟨3, Finset.mem_univ _, rfl⟩)

/-- THE REGION over the thread state. -/
def reg10 : Pipeline.RegionSeg (pcfgs (F := F)) Gen.adm (pdats m) () defs₀ 𝒱₀ L lv p10 :=
  regionOf (pdats m) p10 launch10 (Vin10 m) (Vout10 m)
    (hA10 m) (fun _ _ => rfl) (fun _ _ => rfl) (fun _ => rfl)
    (fun c => R10.body_obligation (entry10 m) c) (fun c => R10.Φ_in (entry10 m) c) (fun c => R10.Φ_out (entry10 m) c)
    (hF10 m) (hrest10 m)

end Cert.KernelIdeal.Hand

end
-- ==== Proof.KI.Reg11.lean ====
/-
  One region as a segment of the program: entered from every unscoped buffer at the valuation before it, left at the
  valuation after it, which differs from the first at the region's result array only: that holds what the write-backs of
  the result window leave.
-/
import proofs.«130096_j52458730553647_1_alg».proof.Proof.KI.Fam

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)

variable {F : FTy → Type} [FloatOps F]

variable (m : (ℓ : Loc nD τ sig) → Buf (Elt F) ℓ)

/-- The region's data reads its arrays off the entry valuation. -/
theorem hA11 (c : Dev nD) (w : Fin cfg11.W) : (pdats m p11 c).A w = Vin11 m c (Pipeline.arrRef spec11 w) :=
  R11.A_eq (entry11 m) c w

/-- The one window the region writes is its result window; every other window's array is not the result array. -/
theorem out_window11 : ∀ w : Fin cfg11.W, (cfg11.win w).isOut = true → w = 2 := by decide
theorem in_window11 : ∀ w : Fin cfg11.W, (cfg11.win w).isOut = false → Pipeline.arrRef spec11 w ∉ ([main_v146] : List (Ref sig .tc)) := by decide

/-- At the exit valuation each array of the region holds what the pipeline leaves in it: a window that is only read
    leaves its array as entered, and the exit valuation agrees with the entry one there; the result array holds the
    result window's write-backs folded. -/
theorem hF11 (c : Dev nD) (w : Fin cfg11.W) :
    (pdats m p11 c).arrAt w cfg11.N = Vout11 m c (Pipeline.arrRef spec11 w) := by
  cases hout : (cfg11.win w).isOut with
  | true =>
    obtain rfl := out_window11 w hout
    exact (Vout11_res m c).symm
  | false =>
    exact ((pdats m p11 c).arrAt_in w hout _).trans ((hA11 m c w).trans (Vout11_of m c _ (in_window11 w hout)).symm)

/-- Off the region's arrays the exit valuation is the entry one: the result array is one of them. -/
theorem hrest11 (c : Dev nD) (b : Ref sig .tc) (hb : b ∉ Finset.univ.image (Pipeline.arrRef spec11)) :
    Vout11 m c b = Vin11 m c b :=
  Vout11_of m c b fun h => hb (by
    rw [List.mem_singleton] at h
    subst h
    exact Finset.mem_image.mpr ⟨2, Finset.mem_univ _, rfl⟩)

/-- THE REGION over the thread state. -/
def reg11 : Pipeline.RegionSeg (pcfgs (F := F)) Gen.adm (pdats m) () defs₀ 𝒱₀ L lv p11 :=
  regionOf (pdats m) p11 launch11 (Vin11 m) (Vout11 m)
    (hA11 m) (fun _ _ => rfl) (fun _ _ => rfl) (fun _ => rfl)
    (fun c => R11.body_obligation (entry11 m) c) (fun c => R11.Φ_in (entry11 m) c) (fun c => R11.Φ_out (entry11 m) c)
    (hF11 m) (hrest11 m)

end Cert.KernelIdeal.Hand

end
-- ==== Proof.KI.Run.lean ====
/-
  The run of the program from its twelve regions: every weakly fair execution from memory `m` with zero counters
  terminates, and every final memory holds each unscoped buffer of every core at the last valuation over the pinned
  contents the regions leave; in particular each argument as launched.
-/
import proofs.«130096_j52458730553647_1_alg».proof.Proof.KI.RunCond
import proofs.«130096_j52458730553647_1_alg».proof.Proof.KI.Reg0
import proofs.«130096_j52458730553647_1_alg».proof.Proof.KI.Reg1
import proofs.«130096_j52458730553647_1_alg».proof.Proof.KI.Reg2
import proofs.«130096_j52458730553647_1_alg».proof.Proof.KI.Reg3
import proofs.«130096_j52458730553647_1_alg».proof.Proof.KI.Reg4
import proofs.«130096_j52458730553647_1_alg».proof.Proof.KI.Reg5
import proofs.«130096_j52458730553647_1_alg».proof.Proof.KI.Reg6
import proofs.«130096_j52458730553647_1_alg».proof.Proof.KI.Reg7
import proofs.«130096_j52458730553647_1_alg».proof.Proof.KI.Reg8
import proofs.«130096_j52458730553647_1_alg».proof.Proof.KI.Reg9
import proofs.«130096_j52458730553647_1_alg».proof.Proof.KI.Reg10
import proofs.«130096_j52458730553647_1_alg».proof.Proof.KI.Reg11

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (ρ : Dev nD → PrngReg)

/-- THE RUN: every final memory holds every unscoped buffer of every core at the last valuation. Each region's record
    is entered from, and left at, exactly the thread states between the items. -/
theorem run : θ_run defs (onTc (τ := τ) (main (F := F))) ⟨m, fun _ => 0, ρ⟩
    (fun r => ∀ c : Dev nD, ∀ b ∈ Pipeline.ucRefs τ sig, r.2.mem (((c : Thread nD τ)).1, b) = Gen.V73 m (outs m) c b) :=
  run_cond m ρ (outs m) (pdats m)
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)
    (reg10 m) (fun _ => .rfl) (fun _ => .rfl)
    (reg11 m) (fun _ => .rfl) (fun _ => .rfl)

/-- An unscoped TensorCore reference is among those the last thread state holds. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE FRAME: every argument ends as launched: no item of the program writes an argument's buffer, so the last
    valuation holds it at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_ucRefs main_arg0 (by decide))).trans (Gen.V73_main_arg0 m (outs m) c),
      (h c _ (mem_ucRefs main_arg1 (by decide))).trans (Gen.V73_main_arg1 m (outs m) c),
      (h c _ (mem_ucRefs main_arg2 (by decide))).trans (Gen.V73_main_arg2 m (outs m) c),
      (h c _ (mem_ucRefs main_arg3 (by decide))).trans (Gen.V73_main_arg3 m (outs m) c),
      (h c _ (mem_ucRefs main_arg4 (by decide))).trans (Gen.V73_main_arg4 m (outs m) c),
      (h c _ (mem_ucRefs main_arg5 (by decide))).trans (Gen.V73_main_arg5 m (outs m) c),
      (h c _ (mem_ucRefs main_arg6 (by decide))).trans (Gen.V73_main_arg6 m (outs m) c),
      (h c _ (mem_ucRefs main_arg7 (by decide))).trans (Gen.V73_main_arg7 m (outs m) c)⟩) (run m ρ)

end Cert.KernelIdeal.Hand

end
-- ==== Proof.Ref.Frame.lean ====
/-
  The reference program runs to its end, faults nowhere and leaves its eight argument arrays as it found them. Its run,
  read back as one statement, gives after every weakly fair execution each result array as a term of the arguments together
  with the arguments' contents unchanged; the arguments' part of that statement, after the four results, is the frame.
-/
import proofs.«130096_j52458730553647_1_alg».proof.Defs
import proofs.«130096_j52458730553647_1_alg».proof.Proof.Gen.Pre_finite_inputs
import proofs.«130096_j52458730553647_1_alg».proof.Proof.RefRun
import proofs.«130096_j52458730553647_1_alg».proof.Proof.RefRead

noncomputable section

namespace Cert.ReferenceIdeal.Hand

open Idealize.ShloMosaic Idealize.SL.Sem

/-- The reference's frame: the run's statement with the results dropped. -/
theorem frame : Cert.frame_ReferenceIdeal :=
  fun m ρ _ => (θ_run Cert.ReferenceIdeal.defs _ _).mono (fun _ h c => (h c).2.2.2.2)
    (Cert.ReferenceIdeal.Value.run (F := Ideal) m ρ)

end Cert.ReferenceIdeal.Hand

end
-- ==== Proof.Spmm.lean ====
/-
  The sparse product both programs compute, as one function of the edge lists: entry (i, j) of the result is the sum, over the
  edges whose row index is node i, of the edge's weight times entry j of the feature row the edge's column index names;
  a column index outside the table names the zero row. Index words are read as naturals (a word is a node below 2^31 exactly when
  its signed and its unsigned readings agree).
-/
import Mathlib.Data.EReal.Basic
import Mathlib.Algebra.BigOperators.Group.Finset.Basic
import Mathlib.Data.Fintype.BigOperators

noncomputable section

namespace Cert.Hand

open BigOperators

/-- Row `q` of a feature table, the zero row when `q` is outside the table. -/
def rowOr0 {n D : ℕ} (x : Fin n → Fin D → EReal) (q : ℕ) (j : Fin D) : EReal :=
  if h : q < n then x ⟨q, h⟩ j else 0

/-- The sparse product at entry (i, j). -/
def spmm {E n D : ℕ} (rows cols : Fin E → BitVec 32) (vals : Fin E → EReal) (x : Fin n → Fin D → EReal)
    (i : Fin n) (j : Fin D) : EReal :=
  ∑ e ∈ Finset.univ.filter (fun e : Fin E => (rows e).toNat = i.val), vals e * rowOr0 x (cols e).toNat j

theorem rowOr0_of_lt {n D : ℕ} (x : Fin n → Fin D → EReal) {q : ℕ} (h : q < n) (j : Fin D) :
    rowOr0 x q j = x ⟨q, h⟩ j := by
  unfold rowOr0; rw [dif_pos h]

theorem rowOr0_of_ge {n D : ℕ} (x : Fin n → Fin D → EReal) {q : ℕ} (h : n ≤ q) (j : Fin D) :
    rowOr0 x q j = 0 := by
  unfold rowOr0; rw [dif_neg (Nat.not_lt.mpr h)]

end Cert.Hand

end
-- ==== Proof.KI.R0Val.lean ====
/-
  What this gather launch (grid: 391 edge chunks x 147 node tiles, the node tile innermost) leaves in its result array,
  entry by entry, over the extended reals, on any contents `V` of the unscoped buffers at its entry: entry (ch, e, j) is
  feature j of the row of the padded feature table (150528 = 147 * 1024 rows) that the column word of edge e of chunk ch
  names, read unsigned (the zero row when the word names no row of the table), times the edge's weight.

  The road. At a point (chunk, tile) the body adds to the accumulator the product of the chunk's one-hot matrix against the
  tile with the tile's 1024 feature rows; over the extended reals entry (e, j) of that product is the sum over the tile's
  nodes k of [the edge's column word is node 1024 * tile + k] * feature j of that node, and at most one term is not zero:
  the product's entry is feature j of the row the word names when that node lies in the tile, and 0 otherwise
  (`pay2_apply`, `tile_sum`). So after tile n of a chunk the accumulator's entry holds the selected row's feature if the
  row lies in the tiles up to n, and 0 otherwise (`accAt_chunk`, by induction on the tile; the first tile starts from the
  zero matrix); after the last tile that is the selected row of the whole padded table. The last tile stores the
  accumulator times the broadcast weight column (`pay3_apply`) as the chunk's block of the result, and the chunks' blocks
  cover the result array (`flushed_eq`, `out_eq`).
-/
import proofs.«130096_j52458730553647_1_alg».proof.Proof.KI.R0
import proofs.«130096_j52458730553647_1_alg».proof.Proof.Spmm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R0

open Cert.KernelIdeal Cert.KernelIdeal.Gen Cert.KernelIdeal.Hand.Sched
open Idealize.ShloMosaic Idealize.ShloMosaic.TcCoe Idealize.ShloMosaic.ValueIdx
open Idealize.ShloMosaic.Pipeline (Dat)
open Cert.Hand (rowOr0 rowOr0_of_lt rowOr0_of_ge)
open scoped BigOperators

/-! ## Layout operations the body uses, read at an index -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, k)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

end Layout

/-! ## The body's three stored values, read at an index, over the extended reals -/

/-- The reset stores the zero matrix. -/
theorem pay1_apply (i : S8192x64.Idx) : (k0_pay1 (F := Ideal)) i = 0 := by
  unfold k0_pay1
  rw [shapeCast_self]
  exact Ideal.ofBits_zero_f32

/-- A comparison and a sum of integer vectors at an index are the words' comparison and sum. -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = x i + y i := rfl

/-- A one-hot entry: the comparison bit, widened and converted, is 1 where the two words agree and 0 elsewhere. -/
theorem onehot_entry (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by
      show (BitVec.ofBool (a == a)).setWidth 32 = 1#32
      rw [beq_self_eq_true]; decide
    rw [e]
    show (((1#32 : BitVec 32).toInt : ℝ) : EReal) = 1
    norm_num
  · rw [if_neg h]
    have e : (IntOp.cmpi .eq a b).setWidth 32 = 0#32 := by
      show (BitVec.ofBool (a == b)).setWidth 32 = 0#32
      rw [beq_false_of_ne h]; decide
    rw [e]
    show (((0#32 : BitVec 32).toInt : ℝ) : EReal) = 0
    norm_num

/-- The word the body compares a column index with at column `k` of node tile `tile`: `k` plus the tile's first node. -/
abbrev nodeWord (tile k : ℕ) : BitVec 32 := BitVec.ofNat 32 k + BitVec.ofNat 32 tile * 1024#32

/-- The product's operand indices at result entry `(e, j)` and contraction position `q`: `(e, q)` and `(q, j)`. -/
theorem lhs_dot_free (i : S8192x64.Idx) (q : dot_S8192x1024_S1024x64_S8192x64_1_0_0_1_n_n.contr.Idx) :
    (dot_S8192x1024_S1024x64_S8192x64_1_0_0_1_n_n.lhsIdx i q 0).val = (i 0).val := by
  unfold DotDims.lhsIdx
  rw [dif_neg (show ¬(0 : Fin S8192x1024.rank) ∈ dot_S8192x1024_S1024x64_S8192x64_1_0_0_1_n_n.lhsBatch by decide),
    dif_pos (show (0 : Fin S8192x1024.rank) ∈ dot_S8192x1024_S1024x64_S8192x64_1_0_0_1_n_n.lhsNonContracting by decide)]
  rfl
theorem lhs_dot_contr (i : S8192x64.Idx) (q : dot_S8192x1024_S1024x64_S8192x64_1_0_0_1_n_n.contr.Idx) :
    (dot_S8192x1024_S1024x64_S8192x64_1_0_0_1_n_n.lhsIdx i q 1).val = (q ⟨0, by decide⟩).val :=
  dot_S8192x1024_S1024x64_S8192x64_1_0_0_1_n_n.lhsIdx_val_of_single rfl i q
theorem rhs_dot_contr (i : S8192x64.Idx) (q : dot_S8192x1024_S1024x64_S8192x64_1_0_0_1_n_n.contr.Idx) :
    (dot_S8192x1024_S1024x64_S8192x64_1_0_0_1_n_n.rhsIdx i q 0).val = (q ⟨0, by decide⟩).val :=
  dot_S8192x1024_S1024x64_S8192x64_1_0_0_1_n_n.rhsIdx_val_of_single rfl i q
theorem rhs_dot_free (i : S8192x64.Idx) (q : dot_S8192x1024_S1024x64_S8192x64_1_0_0_1_n_n.contr.Idx) :
    (dot_S8192x1024_S1024x64_S8192x64_1_0_0_1_n_n.rhsIdx i q 1).val = (i 1).val := by
  unfold DotDims.rhsIdx
  rw [dif_neg (show ¬(1 : Fin S1024x64.rank) ∈ dot_S8192x1024_S1024x64_S8192x64_1_0_0_1_n_n.rhsBatch by decide),
    dif_pos (show (1 : Fin S1024x64.rank) ∈ dot_S8192x1024_S1024x64_S8192x64_1_0_0_1_n_n.rhsNonContracting by decide)]
  rfl

/-- The accumulating store at entry `(e, j)`: the accumulator there plus, over the tile's 1024 nodes, the one-hot entry
    (1 where edge `e`'s column word is the node's) times the node's feature `j`. -/
theorem pay2_apply (i : grid0.Coords) (cols : Vec Ideal S1x1x8192 .i32) (feat : Vec Ideal S1024x64 .f32)
    (acc : Vec Ideal S8192x64 .f32) (e : Fin 8192) (j : Fin 64) :
    k0_pay2 i cols feat acc (ix2 e j)
      = acc (ix2 e j) + ∑ k : Fin 1024,
          (if cols (ix3 (0 : Fin 1) (0 : Fin 1) e) = nodeWord (i 1).val k.val then (1 : EReal) else 0) * feat (ix2 k j) := by
  unfold k0_pay2
  rw [shapeCast_self, addf_apply, shapeCast_self]
  refine congrArg (acc (ix2 e j) + ·) ?_
  simp only [matmul]
  rw [Ideal.matmul_constant_zero_apply,
    ← Equiv.sum_comp (contrEquiv1 dot_S8192x1024_S1024x64_S8192x64_1_0_0_1_n_n 1024 rfl rfl).symm]
  refine Finset.sum_congr rfl fun k _ => ?_
  have hk := contrEquiv1_symm_val dot_S8192x1024_S1024x64_S8192x64_1_0_0_1_n_n 1024 rfl rfl k
  have el : dot_S8192x1024_S1024x64_S8192x64_1_0_0_1_n_n.lhsIdx (ix2 e j)
      ((contrEquiv1 dot_S8192x1024_S1024x64_S8192x64_1_0_0_1_n_n 1024 rfl rfl).symm k) = ix2 e k :=
    funext fun a => Fin.ext (by
      match a with
      | ⟨0, _⟩ => exact lhs_dot_free _ _
      | ⟨1, _⟩ => exact (lhs_dot_contr _ _).trans hk)
  have er : dot_S8192x1024_S1024x64_S8192x64_1_0_0_1_n_n.rhsIdx (ix2 e j)
      ((contrEquiv1 dot_S8192x1024_S1024x64_S8192x64_1_0_0_1_n_n 1024 rfl rfl).symm k) = ix2 k j :=
    funext fun a => Fin.ext (by
      match a with
      | ⟨0, _⟩ => exact (rhs_dot_contr _ _).trans hk
      | ⟨1, _⟩ => exact rhs_dot_free _ _)
  rw [el, er, truncf_apply, truncf_apply, sitofp_apply, extui_apply, cmpi_apply, onehot_entry, addi_apply,
    broadcastTo_a1_ab_apply, shapeCast_a_a1_apply, shapeCast_11a_a_apply, iota_single_apply, broadcast_apply]
  rfl

/-- The scaled store at entry `(0, e, j)`: the accumulator's entry `(e, j)` times edge `e`'s weight. -/
theorem pay3_apply (vals : Vec Ideal S1x1x8192 .f32) (acc : Vec Ideal S8192x64 .f32) (u : Fin 1) (e : Fin 8192) (j : Fin 64) :
    k0_pay3 vals acc (ix3 u e j) = acc (ix2 e j) * vals (ix3 (0 : Fin 1) (0 : Fin 1) e) := by
  unfold k0_pay3
  rw [shapeCast_ab_1ab_apply, mulf_apply, broadcastTo_a1_ab_apply, shapeCast_a_a1_apply, shapeCast_11a_a_apply]

/-! ## One node tile's product, and the tiles before a point -/

/-- The compared word is node `1024 * tile + k` as a number, as long as that is below 2^32. -/
theorem nodeWord_toNat {tile k : ℕ} (h : 1024 * tile + k < 4294967296) : (nodeWord tile k).toNat = 1024 * tile + k := by
  show (BitVec.ofNat 32 k + BitVec.ofNat 32 tile * BitVec.ofNat 32 1024).toNat = _
  rw [BitVec.toNat_add, BitVec.toNat_mul, BitVec.toNat_ofNat, BitVec.toNat_ofNat, BitVec.toNat_ofNat]
  omega

theorem eq_nodeWord_iff (w : BitVec 32) {tile k : ℕ} (h : 1024 * tile + k < 4294967296) :
    w = nodeWord tile k ↔ w.toNat = 1024 * tile + k := by
  rw [← BitVec.toNat_inj, nodeWord_toNat h]

/-- One node tile's product at feature `j`, for an edge whose column word is `w`: the one-hot row selects the feature row
    the word names when that node lies in the tile (`feat` holds the table's rows `1024 * tile …`), and nothing otherwise. -/
theorem tile_sum (x : Fin 150528 → Fin 64 → EReal) (tile : ℕ) (htile : tile < 147) (feat : Vec Ideal S1024x64 .f32)
    (hfeat : ∀ (k : Fin 1024) (j : Fin 64), feat (ix2 k j) = x ⟨1024 * tile + k.val, by have := k.isLt; omega⟩ j)
    (w : BitVec 32) (j : Fin 64) :
    ∑ k : Fin 1024, (if w = nodeWord tile k.val then (1 : EReal) else 0) * feat (ix2 k j)
      = if 1024 * tile ≤ w.toNat ∧ w.toNat < 1024 * tile + 1024 then rowOr0 x w.toNat j else 0 := by
  by_cases hw : 1024 * tile ≤ w.toNat ∧ w.toNat < 1024 * tile + 1024
  · rw [if_pos hw]
    have hkw : w.toNat - 1024 * tile < 1024 := by omega
    rw [Finset.sum_eq_single (⟨w.toNat - 1024 * tile, hkw⟩ : Fin 1024)]
    · have hsel : w = nodeWord tile (w.toNat - 1024 * tile) := (eq_nodeWord_iff w (by omega)).mpr (by omega)
      rw [if_pos hsel, one_mul, hfeat, rowOr0_of_lt x (show w.toNat < 150528 by omega)]
      exact congrArg (fun q => x q j) (Fin.ext (by show 1024 * tile + (w.toNat - 1024 * tile) = w.toNat; omega))
    · intro k _ hk
      have hne : ¬w = nodeWord tile k.val := fun h => hk (Fin.ext (by
        have := (eq_nodeWord_iff w (by have := k.isLt; omega)).mp h
        show k.val = w.toNat - 1024 * tile; omega))
      rw [if_neg hne, zero_mul]
    · intro h; exact absurd (Finset.mem_univ _) h
  · rw [if_neg hw]
    refine Finset.sum_eq_zero fun k _ => ?_
    have hne : ¬w = nodeWord tile k.val := fun h => hw (by
      have := (eq_nodeWord_iff w (by have := k.isLt; omega)).mp h
      have := k.isLt
      omega)
    rw [if_neg hne, zero_mul]

/-- The selected feature row as far as the node tiles before tile `n` supply it: the row the word names when that node lies
    in one of those tiles, the zero row otherwise. -/
def partRow (x : Fin 150528 → Fin 64 → EReal) (n q : ℕ) (j : Fin 64) : EReal := if q < 1024 * n then rowOr0 x q j else 0

theorem partRow_zero (x : Fin 150528 → Fin 64 → EReal) (q : ℕ) (j : Fin 64) : partRow x 0 q j = 0 := by
  unfold partRow; rw [if_neg (by omega)]

theorem partRow_succ (x : Fin 150528 → Fin 64 → EReal) (n q : ℕ) (j : Fin 64) :
    partRow x (n + 1) q j = partRow x n q j + (if 1024 * n ≤ q ∧ q < 1024 * n + 1024 then rowOr0 x q j else 0) := by
  unfold partRow
  by_cases hib : q < 1024 * n
  · rw [if_pos hib, if_pos (by omega), if_neg (by omega), add_zero]
  · by_cases hic : q < 1024 * (n + 1)
    · rw [if_neg hib, if_pos hic, if_pos (by omega), zero_add]
    · rw [if_neg hib, if_neg hic, if_neg (by omega), zero_add]

/-- All 147 tiles supply the whole table: a word past the table names the zero row. -/
theorem partRow_last (x : Fin 150528 → Fin 64 → EReal) (q : ℕ) (j : Fin 64) : partRow x 147 q j = rowOr0 x q j := by
  unfold partRow
  by_cases h : q < 1024 * 147
  · rw [if_pos h]
  · rw [if_neg h, rowOr0_of_ge x (by omega)]

/-! ## The blocks a point reads, as entries of the arrays the region finds -/

variable (V : (c : Dev nD) → (b : Ref sig .tc) → Buf (Elt Ideal) ((c : Thread nD τ).loc b))

/-- The padded feature table, the column words and the edge weights as the region finds them. -/
abbrev featTab (c : Dev nD) : Fin 150528 → Fin 64 → EReal :=
  fun q j => (V c main_v35 : S150528x64.Idx → EReal) (ix2 q j)
abbrev colWord (c : Dev nD) (ch : Fin 391) (e : Fin 8192) : BitVec 32 :=
  (V c main_v36 : S391x1x8192.Idx → BitVec 32) (ix3 ch (0 : Fin 1) e)
abbrev weight (c : Dev nD) (ch : Fin 391) (e : Fin 8192) : EReal :=
  (V c main_v37 : S391x1x8192.Idx → EReal) (ix3 ch (0 : Fin 1) e)

/-- A point's coordinates: its chunk is the quotient and its node tile the remainder by the number of tiles. -/
theorem coords_chunk (t : Fin cfg0.N) : ((grid0.coords t) 0).val = t.val / 147 := by
  have hN : cfg0.N = 57477 := N_0
  have ht := t.isLt
  have hs : grid0.stride 0 = 147 := by decide
  show t.val / grid0.stride 0 % 391 = t.val / 147
  rw [hs]; omega

theorem coords_tile (t : Fin cfg0.N) : ((grid0.coords t) 1).val = t.val % 147 := by
  have hs : grid0.stride 1 = 1 := by decide
  show t.val / grid0.stride 1 % 147 = t.val % 147
  rw [hs, Nat.div_one]

/-- The block indices at a point: the chunk's row of the column words and of the weights and of the result, the node
    tile's rows of the feature table. -/
theorem index_cols (t : Fin cfg0.N) : win0_0.index t 0 = t.val / 147 ∧ win0_0.index t 1 = 0 ∧ win0_0.index t 2 = 0 := by
  have hN : cfg0.N = 57477 := N_0
  have ht := t.isLt
  refine ⟨?_, rfl, rfl⟩
  show (BitVec.ofNat 32 ((grid0.coords t) 0).val).toNat = _
  rw [BitVec.toNat_ofNat, coords_chunk]; omega

theorem index_vals (t : Fin cfg0.N) : win0_1.index t 0 = t.val / 147 ∧ win0_1.index t 1 = 0 ∧ win0_1.index t 2 = 0 := by
  have hN : cfg0.N = 57477 := N_0
  have ht := t.isLt
  refine ⟨?_, rfl, rfl⟩
  show (BitVec.ofNat 32 ((grid0.coords t) 0).val).toNat = _
  rw [BitVec.toNat_ofNat, coords_chunk]; omega

theorem index_feat (t : Fin cfg0.N) : win0_2.index t 0 = t.val % 147 ∧ win0_2.index t 1 = 0 := by
  refine ⟨?_, rfl⟩
  show (BitVec.ofNat 32 ((grid0.coords t) 1).val).toNat = _
  rw [BitVec.toNat_ofNat, coords_tile]; omega

theorem index_out (t : Fin cfg0.N) : win0_3.index t 0 = t.val / 147 ∧ win0_3.index t 1 = 0 ∧ win0_3.index t 2 = 0 := by
  have hN : cfg0.N = 57477 := N_0
  have ht := t.isLt
  refine ⟨?_, rfl, rfl⟩
  show (BitVec.ofNat 32 ((grid0.coords t) 0).val).toNat = _
  rw [BitVec.toNat_ofNat, coords_chunk]; omega

/-- The column-word block at a point is the chunk's row of the column words. -/
theorem colsBlk_apply (c : Dev nD) (t : Fin cfg0.N) (e : Fin 8192) (ch : Fin 391) (hch : ch.val = t.val / 147) :
    colsBlk V c t (ix3 (0 : Fin 1) (0 : Fin 1) e) = colWord V c ch e := by
  obtain ⟨hia, hib, hic⟩ := index_cols t
  show iblk V c 0 t _ = _
  unfold iblk
  rw [View.read_apply]
  show V c main_v36 _ = V c main_v36 _
  refine congrArg _ (funext fun a => Fin.ext ?_)
  match a with
  | ⟨0, _⟩ => show win0_0.index t 0 * 1 + 1 * 0 = ch.val; rw [hia, hch]; omega
  | ⟨1, _⟩ => show win0_0.index t 1 * 1 + 1 * 0 = 0; rw [hib]
  | ⟨2, _⟩ => show win0_0.index t 2 * 8192 + 1 * e.val = e.val; rw [hic]; omega

/-- The weight block at a point is the chunk's row of the weights. -/
theorem valsBlk_apply (c : Dev nD) (t : Fin cfg0.N) (e : Fin 8192) (ch : Fin 391) (hch : ch.val = t.val / 147) :
    valsBlk V c t (ix3 (0 : Fin 1) (0 : Fin 1) e) = weight V c ch e := by
  obtain ⟨hia, hib, hic⟩ := index_vals t
  show iblk V c 1 t _ = _
  unfold iblk
  rw [View.read_apply]
  show V c main_v37 _ = V c main_v37 _
  refine congrArg _ (funext fun a => Fin.ext ?_)
  match a with
  | ⟨0, _⟩ => show win0_1.index t 0 * 1 + 1 * 0 = ch.val; rw [hia, hch]; omega
  | ⟨1, _⟩ => show win0_1.index t 1 * 1 + 1 * 0 = 0; rw [hib]
  | ⟨2, _⟩ => show win0_1.index t 2 * 8192 + 1 * e.val = e.val; rw [hic]; omega

/-- The feature block at a point is the node tile's 1024 rows of the padded table. -/
theorem featBlk_apply (c : Dev nD) (t : Fin cfg0.N) (k : Fin 1024) (j : Fin 64) (q : Fin 150528)
    (hq : q.val = 1024 * (t.val % 147) + k.val) :
    featBlk V c t (ix2 k j) = featTab V c q j := by
  obtain ⟨hia, hib⟩ := index_feat t
  show iblk V c 2 t _ = _
  unfold iblk
  rw [View.read_apply]
  show V c main_v35 _ = V c main_v35 _
  refine congrArg _ (funext fun a => Fin.ext ?_)
  match a with
  | ⟨0, _⟩ => show win0_2.index t 0 * 1024 + 1 * k.val = q.val; rw [hia, hq]; omega
  | ⟨1, _⟩ => show win0_2.index t 1 * 64 + 1 * j.val = j.val; rw [hib]; omega

/-! ## The accumulator across a chunk's tiles -/

/-- One point of the recursion at entry `(e, j)`: if the accumulator the point starts from (the zero matrix at a chunk's
    first tile) holds what the tiles before `n` supply, the point leaves what the tiles before `n + 1` supply. -/
theorem accStep_apply (c : Dev nD) (ch : Fin 391) (n : ℕ) (hn : n < 147) (ht : 147 * ch.val + n < cfg0.N)
    (a : Vec Ideal S8192x64 .f32) (e : Fin 8192) (j : Fin 64)
    (ha : (if n = 0 then (k0_pay1 (F := Ideal)) else a) (ix2 e j) = partRow (featTab V c) n (colWord V c ch e).toNat j) :
    accStep V c ⟨147 * ch.val + n, ht⟩ a (ix2 e j) = partRow (featTab V c) (n + 1) (colWord V c ch e).toNat j := by
  have hmod : (147 * ch.val + n) % 147 = n := by omega
  have hdiv : (147 * ch.val + n) / 147 = ch.val := by omega
  unfold accStep
  refine (pay2_apply _ _ _ _ e j).trans ?_
  rw [partRow_succ]
  congr 1
  · show (if (147 * ch.val + n) % 147 = 0 then (k0_pay1 (F := Ideal)) else a) (ix2 e j) = _
    rw [hmod]; exact ha
  · rw [colsBlk_apply V c _ e ch hdiv.symm, coords_tile]
    show ∑ k : Fin 1024, (if colWord V c ch e = nodeWord ((147 * ch.val + n) % 147) k.val then (1 : EReal) else 0) * _ = _
    rw [hmod]
    exact tile_sum (featTab V c) n hn _ (fun k j => featBlk_apply V c _ k j _ (by show _ = 1024 * ((147 * ch.val + n) % 147) + k.val; rw [hmod])) _ j

/-- After tile `n` of chunk `ch` the accumulator's entry `(e, j)` holds what the tiles up to `n` supply of the row edge
    `e`'s column word names. -/
theorem accAt_chunk (c : Dev nD) (ch : Fin 391) (e : Fin 8192) (j : Fin 64) : ∀ n, n < 147 →
    accAt V c (147 * ch.val + n + 1) (ix2 e j) = partRow (featTab V c) (n + 1) (colWord V c ch e).toNat j
  | 0, hn => by
    have hN : cfg0.N = 57477 := N_0
    have hch := ch.isLt
    have ht : 147 * ch.val + 0 < cfg0.N := by omega
    refine (congrFun (accAt_succ V c ⟨147 * ch.val + 0, ht⟩) (ix2 e j)).trans ?_
    refine accStep_apply V c ch 0 hn ht _ e j ?_
    rw [if_pos rfl, pay1_apply, partRow_zero]
  | n + 1, hn => by
    have hN : cfg0.N = 57477 := N_0
    have hch := ch.isLt
    have ht : 147 * ch.val + (n + 1) < cfg0.N := by omega
    refine (congrFun (accAt_succ V c ⟨147 * ch.val + (n + 1), ht⟩) (ix2 e j)).trans ?_
    refine accStep_apply V c ch (n + 1) hn ht _ e j ?_
    rw [if_neg (Nat.succ_ne_zero n)]
    exact accAt_chunk c ch e j n (by omega)

/-! ## From the blocks to the result array -/

/-- The result array: entry `(ch, e, j)` is feature `j` of the row the edge's column word names, times the edge's weight. -/
def outArr (c : Dev nD) : S391x8192x64.Idx → EReal :=
  fun i => rowOr0 (featTab V c) (colWord V c (i 0) (i 1)).toNat (i 2) * weight V c (i 0) (i 1)

theorem outArr_apply (c : Dev nD) (i : S391x8192x64.Idx) (ch : Fin 391) (e : Fin 8192) (j : Fin 64)
    (hia : (i 0).val = ch.val) (hib : (i 1).val = e.val) (hic : (i 2).val = j.val) :
    outArr V c i = rowOr0 (featTab V c) (colWord V c ch e).toNat j * weight V c ch e := by
  obtain rfl : i = ix3 ch e j := funext fun a => Fin.ext (by
    match a with
    | ⟨0, _⟩ => exact hia
    | ⟨1, _⟩ => exact hib
    | ⟨2, _⟩ => exact hic)
  rfl

/-- What a chunk's last tile writes back is the chunk's block of the result array. -/
theorem flushed_eq (c : Dev nD) (t : Fin cfg0.N) (hf : (cfg0.win 3).flush t = true) :
    (dat V c).flushed 3 t = ((cfg0.win 3).blk t).view.read (Elt Ideal) (outArr V c) := by
  have hN : cfg0.N = 57477 := N_0
  have hlast : t.val % 147 = 146 := (flush0_3 t).mp hf
  have htl := t.isLt
  obtain ⟨hia, hib, hic⟩ := index_out t
  show (cfg0.win 3).cut (grid0.coords t) ((dat V c).after 3 t) = _
  rw [after_out]
  funext y
  obtain ⟨u, e, j, rfl⟩ : ∃ (u : Fin 1) (e : Fin 8192) (j : Fin 64), y = ix3 u e j := ⟨y 0, y 1, y 2, eq_ix3 y⟩
  show k0_pay3 (valsBlk V c t) (accAt V c (t.val + 1)) (ix3 u e j) = outArr V c (((cfg0.win 3).blk t).view.emb (ix3 u e j))
  have hu : u.val = 0 := by omega
  have hch : t.val / 147 < 391 := by omega
  rw [pay3_apply, outArr_apply V c _ ⟨t.val / 147, hch⟩ e j
    (by show win0_3.index t 0 * 1 + 1 * u.val = t.val / 147; rw [hia, hu]; omega)
    (by show win0_3.index t 1 * 8192 + 1 * e.val = e.val; rw [hib]; omega)
    (by show win0_3.index t 2 * 64 + 1 * j.val = j.val; rw [hic]; omega),
    valsBlk_apply V c t e ⟨t.val / 147, hch⟩ rfl]
  have hts : t.val + 1 = 147 * (t.val / 147) + 146 + 1 := by omega
  rw [hts, accAt_chunk V c ⟨t.val / 147, hch⟩ e j 146 (by omega), partRow_last]

/-- The result array after the region: the chunks' blocks cover it. -/
theorem out_eq (c : Dev nD) : (dat V c).arrAt 3 cfg0.N = outArr V c :=
  (dat V c).arrAt_eq_of_cover 3 (outArr V c) (flushed_eq V c) fun i => by
    have hN : cfg0.N = 57477 := N_0
    have hca : (i 0).val < 391 := (i 0).isLt
    have hcb : (i 1).val < 8192 := (i 1).isLt
    have hcc : (i 2).val < 64 := (i 2).isLt
    have ht : 147 * (i 0).val + 146 < cfg0.N := by omega
    obtain ⟨hia, hib, hic⟩ := index_out ⟨147 * (i 0).val + 146, ht⟩
    refine ⟨⟨147 * (i 0).val + 146, ht⟩, (flush0_3 _).mpr (by show (147 * (i 0).val + 146) % 147 = 146; omega), ?_⟩
    show i ∈ ((View.whole main_v39).slice (win0_3.rect ⟨147 * (i 0).val + 146, ht⟩)).set
    rw [View.set_slice_whole, Rect.mem_set_unit]
    intro a
    match a with
    | ⟨0, _⟩ =>
      show win0_3.index ⟨147 * (i 0).val + 146, ht⟩ 0 * 1 ≤ (i 0).val ∧ (i 0).val < win0_3.index ⟨147 * (i 0).val + 146, ht⟩ 0 * 1 + 1
      rw [hia]; show (147 * (i 0).val + 146) / 147 * 1 ≤ (i 0).val ∧ (i 0).val < (147 * (i 0).val + 146) / 147 * 1 + 1; omega
    | ⟨1, _⟩ =>
      show win0_3.index ⟨147 * (i 0).val + 146, ht⟩ 1 * 8192 ≤ (i 1).val ∧ (i 1).val < win0_3.index ⟨147 * (i 0).val + 146, ht⟩ 1 * 8192 + 8192
      rw [hib]; omega
    | ⟨2, _⟩ =>
      show win0_3.index ⟨147 * (i 0).val + 146, ht⟩ 2 * 64 ≤ (i 2).val ∧ (i 2).val < win0_3.index ⟨147 * (i 0).val + 146, ht⟩ 2 * 64 + 64
      rw [hic]; omega

/-- THE RESULT, entry by entry: entry `(ch, e, j)` of the region's result array is feature `j` of the padded table's row that
    the column word of edge `e` of chunk `ch` names (read unsigned; the zero row past the table), times the edge's weight. -/
theorem out_apply (c : Dev nD) (ch : Fin 391) (e : Fin 8192) (j : Fin 64) :
    ((dat V c).arrAt 3 cfg0.N : S391x8192x64.Idx → EReal) (ValueIdx.ix3 ch e j)
      = Cert.Hand.rowOr0 (fun (q : Fin 150528) (j : Fin 64) => (V c main_v35 : S150528x64.Idx → EReal) (ValueIdx.ix2 q j))
          ((V c main_v36 : S391x1x8192.Idx → BitVec 32) (ValueIdx.ix3 ch 0 e)).toNat j
        * (V c main_v37 : S391x1x8192.Idx → EReal) (ValueIdx.ix3 ch 0 e) := by
  rw [out_eq]
  rfl

end Cert.KernelIdeal.Hand.R0

end
-- ==== Proof.KI.R1Val.lean ====
/-
  What this scatter launch leaves in its result array, entry by entry, at the ideal values and on any contents `V` of the
  unscoped buffers at its entry: node's row is the sum, over all edge chunks, of the gathered weighted rows of the edges
  whose row index, read unsigned, is that node (`out_apply`).

  The steps. (1) One point's payload at an entry (p, q) of the accumulator: what the accumulator held plus the product of
  the one-hot matrix with the chunk's rows there. The one-hot entry (p, e) is 1 when the word of edge e equals the word
  of 1024 * tile + p, and that number is below 2^32, so the words agree iff the edge's row index, read unsigned, is that
  number; 1 * x = x and 0 * x = 0 in the extended reals, so the product's entry is the sum of the chunk's rows whose row
  index is node 1024 * tile + p (`step_apply`). (2) The grid is (tile, chunk), the chunk innermost: point t has tile
  t / 391 and chunk t % 391, the inputs' blocks at t are rows chunk of their arrays and the result's block is block
  (tile, 0) (`index_rows`, `index_wg`, `index_out`, `rows_apply`, `wg_apply`). (3) The accumulator is reset at a
  tile's first chunk and steps at every chunk, so after the tile's chunks 0 … n it holds the sum of their addends
  (`accAt_run`, by induction on n), and after the last chunk the whole sum (`after_last`). (4) The result's block is
  written back at each tile's last chunk and those blocks tile the array, so the array ends holding that sum at every
  entry (`flushed_eq`, `cover_out`, `out_eq`).
-/
import proofs.«130096_j52458730553647_1_alg».proof.Proof.KI.R1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R1

open Cert.KernelIdeal Cert.KernelIdeal.Gen Cert.KernelIdeal.Hand.Sched
open Idealize.ShloMosaic Idealize.ShloMosaic.TcCoe Idealize.ShloMosaic.ValueIdx
open Idealize.SL Idealize.SL.RA
open Idealize.ShloMosaic.Pipeline (Dat Cfg Window)
open scoped BigOperators

/-! ## One point's payload at an entry -/

/-- A word is the sum of an offset's word and a base's word, the total below 2^32, iff its unsigned value is the total. -/
theorem word_eq_iff (tile p : ℕ) (h : 1024 * tile + p < 2 ^ 32) (x : BitVec 32) :
    (BitVec.ofNat 32 p + BitVec.ofNat 32 tile * 1024#32 = x) ↔ x.toNat = 1024 * tile + p := by
  have h' : 1024 * tile + p < 4294967296 := by simpa using h
  constructor
  · intro e
    subst e
    rw [BitVec.toNat_add, BitVec.toNat_mul, BitVec.toNat_ofNat, BitVec.toNat_ofNat]
    show (p % 4294967296 + tile % 4294967296 * 1024 % 4294967296) % 4294967296 = 1024 * tile + p
    omega
  · intro e
    apply BitVec.eq_of_toNat_eq
    rw [BitVec.toNat_add, BitVec.toNat_mul, BitVec.toNat_ofNat, BitVec.toNat_ofNat, e]
    show (p % 4294967296 + tile % 4294967296 * 1024 % 4294967296) % 4294967296 = 1024 * tile + p
    omega

/-- A comparison bit widened to a word and converted signed: 1 where the two words agree, 0 elsewhere. -/
theorem sitofp_extui_cmpi_eq (a b : BitVec 32) :
    (FloatOps.sitofp .f32 ((IntOp.cmpi .eq a b).setWidth 32) : Ideal .f32) = if a = b then (1 : EReal) else 0 := by
  show ((((IntOp.cmpi .eq a b).setWidth 32).toInt : ℝ) : EReal) = _
  by_cases h : a = b
  · subst h; rw [if_pos rfl]; simp [IntOp.cmpi]
  · have hb : (a == b) = false := beq_eq_false_iff_ne.mpr h
    rw [if_neg h]; simp [IntOp.cmpi, hb]

/-- A [1, 1, a] array cast to [a] reads, at i, the operand at (0, 0, i). -/
theorem shapeCast_unit_unit_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-! The product's operand indices, axis by axis: the left operand is read at (row, contraction position), the right at
    (contraction position, column). -/

theorem lhs_row (i : S1024x64.Idx) (q : dot_S1024x8192_S8192x64_S1024x64_1_0_0_1_n_n.contr.Idx) :
    (dot_S1024x8192_S8192x64_S1024x64_1_0_0_1_n_n.lhsIdx i q 0).val = (i 0).val := by
  unfold DotDims.lhsIdx
  rw [dif_neg (show ¬(0 : Fin S1024x8192.rank) ∈ dot_S1024x8192_S8192x64_S1024x64_1_0_0_1_n_n.lhsBatch by decide),
    dif_pos (show (0 : Fin S1024x8192.rank) ∈ dot_S1024x8192_S8192x64_S1024x64_1_0_0_1_n_n.lhsNonContracting by decide)]
  rfl

theorem lhs_contr (i : S1024x64.Idx) (q : dot_S1024x8192_S8192x64_S1024x64_1_0_0_1_n_n.contr.Idx) :
    (dot_S1024x8192_S8192x64_S1024x64_1_0_0_1_n_n.lhsIdx i q 1).val = (q ⟨0, by decide⟩).val :=
  dot_S1024x8192_S8192x64_S1024x64_1_0_0_1_n_n.lhsIdx_val_of_single rfl i q

theorem rhs_contr (i : S1024x64.Idx) (q : dot_S1024x8192_S8192x64_S1024x64_1_0_0_1_n_n.contr.Idx) :
    (dot_S1024x8192_S8192x64_S1024x64_1_0_0_1_n_n.rhsIdx i q 0).val = (q ⟨0, by decide⟩).val :=
  dot_S1024x8192_S8192x64_S1024x64_1_0_0_1_n_n.rhsIdx_val_of_single rfl i q

theorem rhs_col (i : S1024x64.Idx) (q : dot_S1024x8192_S8192x64_S1024x64_1_0_0_1_n_n.contr.Idx) :
    (dot_S1024x8192_S8192x64_S1024x64_1_0_0_1_n_n.rhsIdx i q 1).val = (i 1).val := by
  unfold DotDims.rhsIdx
  rw [dif_neg (show ¬(1 : Fin S8192x64.rank) ∈ dot_S1024x8192_S8192x64_S1024x64_1_0_0_1_n_n.rhsBatch by decide),
    dif_pos (show (1 : Fin S8192x64.rank) ∈ dot_S1024x8192_S8192x64_S1024x64_1_0_0_1_n_n.rhsNonContracting by decide)]
  rfl

/-- One entry of the one-hot matrix: 1 where the edge's row index is the tile's node p, 0 elsewhere. -/
theorem onehot_apply (tile : ℕ) (r : Vec Ideal S1x1x8192 .i32) (p : Fin 1024) (e : Fin 8192) (hb : 1024 * tile + p.val < 2 ^ 32) :
    (truncf .bf16
      (sitofp .f32
        (extui 32
          (cmpi .eq
            (addi (iota .tc S1024x8192 32 [0] iota_S1024x8192_d0_w32)
              (broadcast S1024x8192 (Scalar.muli (BitVec.ofNat 32 tile) 1024#32)))
            (broadcastTo S1024x8192
              (shapeCast S1x8192 (shapeCast S8192 r shapeCasts_S1x1x8192_S8192) shapeCasts_S8192_S1x8192)
              broadcasts_S1x8192_S1024x8192))
          natLt_1_32))
      bitsLt_bf16_f32 : FVec Ideal S1024x8192 .bf16) (ix2 p e)
      = if ((r (ix3 (0 : Fin 1) (0 : Fin 1) e) : BitVec 32)).toNat = 1024 * tile + p.val then (1 : EReal) else 0 := by
  have hrow : broadcastTo S1024x8192
      (shapeCast S1x8192 (shapeCast S8192 r shapeCasts_S1x1x8192_S8192) shapeCasts_S8192_S1x8192)
      broadcasts_S1x8192_S1024x8192 (ix2 p e) = r (ix3 (0 : Fin 1) (0 : Fin 1) e) := by
    rw [broadcastTo_1b_ab_apply, shapeCast_a_1a_apply, shapeCast_unit_unit_apply]
  show (FloatOps.sitofp .f32 ((IntOp.cmpi .eq
      (IntOp.addi (iota .tc S1024x8192 32 [0] iota_S1024x8192_d0_w32 (ix2 p e)) (Scalar.muli (BitVec.ofNat 32 tile) 1024#32))
      (broadcastTo S1024x8192
        (shapeCast S1x8192 (shapeCast S8192 r shapeCasts_S1x1x8192_S8192) shapeCasts_S8192_S1x8192)
        broadcasts_S1x8192_S1024x8192 (ix2 p e))).setWidth 32) : Ideal .f32) = _
  rw [hrow, iota_single_apply, sitofp_extui_cmpi_eq]
  exact if_congr (word_eq_iff tile p.val hb _) rfl rfl

/-- THE STEP AT AN ENTRY: the payload at (p, q) is what the accumulator held there plus the chunk's rows, at feature q, of
    the edges whose row index, read unsigned, is node 1024 * tile + p. -/
theorem step_apply (i : grid1.Coords) (r : Vec Ideal S1x1x8192 .i32) (w : Vec Ideal S1x8192x64 .f32) (a : Vec Ideal S1024x64 .f32)
    (p : Fin 1024) (q : Fin 64) (hb : 1024 * (i 0).val + p.val < 2 ^ 32) :
    k1_pay2 (F := Ideal) i r w a (ix2 p q)
      = a (ix2 p q) + ∑ e : Fin 8192,
          (if ((r (ix3 (0 : Fin 1) (0 : Fin 1) e) : BitVec 32)).toNat = 1024 * (i 0).val + p.val then (w (ix3 (0 : Fin 1) e q) : EReal) else 0) := by
  unfold k1_pay2
  dsimp only
  rw [shapeCast_self, addf_apply]
  congr 1
  refine (Ideal.matmul_constant_zero_apply dot_S1024x8192_S8192x64_S1024x64_1_0_0_1_n_n none _ _ (ix2 p q)).trans ?_
  rw [← Equiv.sum_comp (contrEquiv1 dot_S1024x8192_S8192x64_S1024x64_1_0_0_1_n_n 8192 rfl rfl).symm]
  refine Finset.sum_congr rfl fun k _ => ?_
  have hk := contrEquiv1_symm_val dot_S1024x8192_S8192x64_S1024x64_1_0_0_1_n_n 8192 rfl rfl k
  have el : dot_S1024x8192_S8192x64_S1024x64_1_0_0_1_n_n.lhsIdx (ix2 p q)
      ((contrEquiv1 dot_S1024x8192_S8192x64_S1024x64_1_0_0_1_n_n 8192 rfl rfl).symm k) = ix2 p k := funext fun ax => Fin.ext (by
    match ax with
    | ⟨0, _⟩ => exact lhs_row _ _
    | ⟨1, _⟩ => exact (lhs_contr _ _).trans hk)
  have er : dot_S1024x8192_S8192x64_S1024x64_1_0_0_1_n_n.rhsIdx (ix2 p q)
      ((contrEquiv1 dot_S1024x8192_S8192x64_S1024x64_1_0_0_1_n_n 8192 rfl rfl).symm k) = ix2 k q := funext fun ax => Fin.ext (by
    match ax with
    | ⟨0, _⟩ => exact (rhs_contr _ _).trans hk
    | ⟨1, _⟩ => exact rhs_col _ _)
  rw [el, er, onehot_apply (i 0).val r p k hb, truncf_apply, shapeCast_1ab_ab_apply]
  split
  · rw [one_mul]
  · rw [zero_mul]

variable (V : (c : Dev nD) → (b : Ref sig .tc) → Buf (Elt Ideal) ((c : Thread nD τ).loc b))

/-! ## The grid and the windows' block indices, read off the point's number -/

theorem point_lt (t : Fin cfg1.N) : t.val < 57477 := Nat.lt_of_lt_of_eq t.isLt N_1

/-- A point's tile is its number divided by the chunks per tile. -/
theorem coords_tile (t : Fin cfg1.N) : (grid1.coords t 0).val = t.val / 391 := by
  have hN := point_lt t
  show t.val / grid1.stride 0 % grid1.bound 0 = _
  rw [show grid1.stride 0 = 391 from by decide, show grid1.bound 0 = 147 from rfl]
  omega

/-- A point's chunk is its number modulo the chunks per tile. -/
theorem coords_chunk (t : Fin cfg1.N) : (grid1.coords t 1).val = t.val % 391 := by
  show t.val / grid1.stride 1 % grid1.bound 1 = _
  rw [show grid1.stride 1 = 1 from by decide, show grid1.bound 1 = 391 from rfl, Nat.div_one]

/-- The row indices' block at a point is block (chunk, 0, 0). -/
theorem index_rows (t : Fin cfg1.N) :
    win1_0.index t (0 : Fin 3) = t.val % 391 ∧ win1_0.index t (1 : Fin 3) = 0 ∧ win1_0.index t (2 : Fin 3) = 0 := by
  refine ⟨?_, rfl, rfl⟩
  show (BitVec.ofNat 32 (grid1.coords t 1).val).toNat = _
  rw [BitVec.toNat_ofNat, coords_chunk]
  show t.val % 391 % 4294967296 = t.val % 391
  omega

/-- The gathered rows' block at a point is block (chunk, 0, 0). -/
theorem index_wg (t : Fin cfg1.N) :
    win1_1.index t (0 : Fin 3) = t.val % 391 ∧ win1_1.index t (1 : Fin 3) = 0 ∧ win1_1.index t (2 : Fin 3) = 0 := by
  refine ⟨?_, rfl, rfl⟩
  show (BitVec.ofNat 32 (grid1.coords t 1).val).toNat = _
  rw [BitVec.toNat_ofNat, coords_chunk]
  show t.val % 391 % 4294967296 = t.val % 391
  omega

/-- The result's block at a point is block (tile, 0). -/
theorem index_out (t : Fin cfg1.N) :
    win1_2.index t (0 : Fin 2) = t.val / 391 ∧ win1_2.index t (1 : Fin 2) = 0 := by
  have hN := point_lt t
  refine ⟨?_, rfl⟩
  show (BitVec.ofNat 32 (grid1.coords t 0).val).toNat = _
  rw [BitVec.toNat_ofNat, coords_tile]
  show t.val / 391 % 4294967296 = t.val / 391
  omega

/-! ## The input blocks as rows of their arrays -/

/-- The chunk's row indices are row chunk of the row-index array. -/
theorem rows_apply (c : Dev nD) (t : Fin cfg1.N) (e : Fin 8192) (ch : Fin 391) (hch : ch.val = t.val % 391) :
    (rowsBlk V c t) (ix3 (0 : Fin 1) (0 : Fin 1) e)
      = (V c main_v38 : S391x1x8192.Idx → BitVec 32) (ix3 ch (0 : Fin 1) e) := by
  obtain ⟨i0, i1, i2⟩ := index_rows t
  unfold rowsBlk iblk
  rw [View.read_apply]
  show (V c main_v38 : S391x1x8192.Idx → BitVec 32) _ = _
  congr 1
  funext a
  apply Fin.ext
  match a with
  | ⟨0, _⟩ => show win1_0.index t (0 : Fin 3) * 1 + 1 * 0 = ch.val; rw [i0, hch]; omega
  | ⟨1, _⟩ => show win1_0.index t (1 : Fin 3) * 1 + 1 * 0 = 0; rw [i1]
  | ⟨2, _⟩ => show win1_0.index t (2 : Fin 3) * 8192 + 1 * e.val = e.val; rw [i2]; omega

/-- The chunk's gathered rows are row chunk of the gathered array. -/
theorem wg_apply (c : Dev nD) (t : Fin cfg1.N) (e : Fin 8192) (q : Fin 64) (ch : Fin 391) (hch : ch.val = t.val % 391) :
    (wgBlk V c t) (ix3 (0 : Fin 1) e q)
      = (V c main_v39 : S391x8192x64.Idx → EReal) (ix3 ch e q) := by
  obtain ⟨i0, i1, i2⟩ := index_wg t
  unfold wgBlk iblk
  rw [View.read_apply]
  show (V c main_v39 : S391x8192x64.Idx → EReal) _ = _
  congr 1
  funext a
  apply Fin.ext
  match a with
  | ⟨0, _⟩ => show win1_1.index t (0 : Fin 3) * 1 + 1 * 0 = ch.val; rw [i0, hch]; omega
  | ⟨1, _⟩ => show win1_1.index t (1 : Fin 3) * 8192 + 1 * e.val = e.val; rw [i1]; omega
  | ⟨2, _⟩ => show win1_1.index t (2 : Fin 3) * 64 + 1 * q.val = q.val; rw [i2]; omega

/-! ## The accumulator along a tile's chunks -/

/-- The vector a tile's first chunk resets the accumulator to is zero. -/
theorem reset_apply (x : S1024x64.Idx) : (k1_pay1 (F := Ideal)) x = 0 := by
  show shapeCast S1024x64 (broadcast S1024x64 (Scalar.ofBits .f32 0x00000000#32 : Ideal .f32)) shapeCasts_S1024x64_S1024x64 x = 0
  rw [shapeCast_self]
  exact Ideal.ofBits_zero_f32

/-- What chunk `s` adds to node `node`'s entry at feature `q`: the chunk's gathered rows whose row index, read
    unsigned, is the node. -/
def chunkAdd (c : Dev nD) (node : ℕ) (q : Fin 64) (s : ℕ) : EReal :=
  if h : s < 391 then
    ∑ e : Fin 8192, if ((V c main_v38 : S391x1x8192.Idx → BitVec 32) (ix3 (⟨s, h⟩ : Fin 391) (0 : Fin 1) e)).toNat = node
      then (V c main_v39 : S391x8192x64.Idx → EReal) (ix3 (⟨s, h⟩ : Fin 391) e q) else 0
  else 0

/-- One point's step at an entry: what the accumulator held (zero at a tile's first chunk) plus the chunk's addend. -/
theorem accAt_succ_apply (c : Dev nD) (m : ℕ) (hm : m < cfg1.N) (p : Fin 1024) (q : Fin 64) :
    accAt V c (m + 1) (ix2 p q)
      = (if m % 391 = 0 then 0 else accAt V c m (ix2 p q)) + chunkAdd V c (1024 * (m / 391) + p.val) q (m % 391) := by
  have hN : m < 57477 := Nat.lt_of_lt_of_eq hm N_1
  have hp : p.val < 1024 := p.isLt
  have h32 : (2 : ℕ) ^ 32 = 4294967296 := by norm_num
  have hct : (grid1.coords (⟨m, hm⟩ : Fin cfg1.N) 0).val = m / 391 := coords_tile ⟨m, hm⟩
  show (if h : m < cfg1.N then accStep V c ⟨m, h⟩ (accAt V c m) else (k1_pay1 (F := Ideal))) (ix2 p q) = _
  rw [dif_pos hm]
  unfold accStep
  refine (step_apply _ _ _ _ p q (by rw [hct, h32]; omega)).trans ?_
  congr 1
  · show (if m % 391 = 0 then (k1_pay1 (F := Ideal)) else accAt V c m) (ix2 p q) = _
    split
    · exact reset_apply _
    · rfl
  · rw [hct]
    unfold chunkAdd
    rw [dif_pos (Nat.mod_lt m (by decide))]
    refine Finset.sum_congr rfl fun e _ => ?_
    rw [rows_apply V c ⟨m, hm⟩ e ⟨m % 391, Nat.mod_lt m (by decide)⟩ rfl,
      wg_apply V c ⟨m, hm⟩ e q ⟨m % 391, Nat.mod_lt m (by decide)⟩ rfl]

/-- After the first `n + 1` chunks of tile `tile` the accumulator is the sum of their addends. -/
theorem accAt_run (c : Dev nD) (tile : ℕ) (htile : tile < 147) (p : Fin 1024) (q : Fin 64) :
    ∀ n, n < 391 → ∀ m, m = 391 * tile + n →
      accAt V c (m + 1) (ix2 p q) = ∑ s ∈ Finset.range (n + 1), chunkAdd V c (1024 * tile + p.val) q s
  | 0, _, m, hm => by
    have hmN : m < cfg1.N := by rw [show cfg1.N = 57477 from N_1]; omega
    rw [accAt_succ_apply V c m hmN p q, show m % 391 = 0 by omega, show m / 391 = tile by omega, if_pos rfl, zero_add,
      Finset.sum_range_one]
  | n + 1, hn, m, hm => by
    have hmN : m < cfg1.N := by rw [show cfg1.N = 57477 from N_1]; omega
    obtain ⟨m', rfl⟩ : ∃ m', m = m' + 1 := ⟨391 * tile + n, by omega⟩
    rw [accAt_succ_apply V c (m' + 1) hmN p q, show (m' + 1) % 391 = n + 1 by omega, show (m' + 1) / 391 = tile by omega,
      if_neg (Nat.succ_ne_zero n), accAt_run c tile htile p q n (by omega) m' (by omega), Finset.sum_range_succ _ (n + 1)]

/-- Node `node`'s entry at feature `q` over all chunks: the gathered rows of the edges whose row index, read unsigned,
    is the node, summed. -/
def scat (c : Dev nD) (node : ℕ) (q : Fin 64) : EReal :=
  ∑ ch : Fin 391, ∑ e : Fin 8192,
    (if ((V c main_v38 : S391x1x8192.Idx → BitVec 32) (ix3 ch (0 : Fin 1) e)).toNat = node
      then (V c main_v39 : S391x8192x64.Idx → EReal) (ix3 ch e q) else 0)

/-- After a tile's last chunk the accumulator holds, at (p, q), node 1024 * tile + p's entry. -/
theorem after_last (c : Dev nD) (t : Fin cfg1.N) (hl : t.val % 391 = 390) (p : Fin 1024) (q : Fin 64) :
    accAt V c (t.val + 1) (ix2 p q) = scat V c (1024 * (t.val / 391) + p.val) q := by
  have hN := point_lt t
  rw [accAt_run V c (t.val / 391) (by omega) p q 390 (by decide) t.val (by omega)]
  show ∑ s ∈ Finset.range 391, chunkAdd V c (1024 * (t.val / 391) + p.val) q s = _
  rw [Finset.sum_range]
  unfold scat
  refine Finset.sum_congr rfl fun ch _ => ?_
  unfold chunkAdd
  rw [dif_pos ch.isLt]

/-! ## From the blocks to the array -/

/-- The result array, as one function of the row indices and the gathered rows. -/
def G (c : Dev nD) : S150528x64.Idx → EReal := fun i => scat V c (i 0).val ⟨(i 1).val, idx2_lt1 i⟩

theorem G_apply (c : Dev nD) (i : S150528x64.Idx) (node : ℕ) (q : Fin 64) (h0 : (i 0).val = node) (h1 : (i 1).val = q.val) :
    G V c i = scat V c node q := by
  unfold G
  rw [h0]
  congr 1
  exact Fin.ext h1

/-- An index of the result array is in a point's block iff each coordinate is in the block's range on its axis. -/
theorem mem_blk_out (t : Fin cfg1.N) (i : S150528x64.Idx) :
    i ∈ ((cfg1.win 2).blk t).view.set ↔ ∀ a : Fin 2, win1_2.index t a * S1024x64.size a ≤ (i a).val ∧ (i a).val < win1_2.index t a * S1024x64.size a + S1024x64.size a := by
  show i ∈ ((View.whole main_v40).slice (win1_2.rect t)).set ↔ _
  rw [View.set_slice_whole, Rect.mem_set_unit]
  exact Iff.rfl

/-- Every index of the result array is in the block of its tile's last point. -/
theorem cover_out (i : S150528x64.Idx) :
    ∃ t : Fin cfg1.N, (cfg1.win 2).flush t = true ∧ i ∈ ((cfg1.win 2).blk t).view.set := by
  have h0 : (i 0).val < 150528 := idx2_lt0 i
  have h1 : (i 1).val < 64 := idx2_lt1 i
  have hlt : 391 * ((i 0).val / 1024) + 390 < cfg1.N := by rw [show cfg1.N = 57477 from N_1]; omega
  refine ⟨⟨391 * ((i 0).val / 1024) + 390, hlt⟩, (flush1_2 _).mpr (by show (391 * ((i 0).val / 1024) + 390) % 391 = 390; omega), ?_⟩
  obtain ⟨i0, i1⟩ := index_out ⟨391 * ((i 0).val / 1024) + 390, hlt⟩
  rw [mem_blk_out]
  intro a
  match a with
  | ⟨0, _⟩ =>
    show win1_2.index ⟨391 * ((i 0).val / 1024) + 390, hlt⟩ (0 : Fin 2) * 1024 ≤ (i 0).val
      ∧ (i 0).val < win1_2.index ⟨391 * ((i 0).val / 1024) + 390, hlt⟩ (0 : Fin 2) * 1024 + 1024
    rw [i0]
    show (391 * ((i 0).val / 1024) + 390) / 391 * 1024 ≤ (i 0).val ∧ (i 0).val < (391 * ((i 0).val / 1024) + 390) / 391 * 1024 + 1024
    omega
  | ⟨1, _⟩ =>
    show win1_2.index ⟨391 * ((i 0).val / 1024) + 390, hlt⟩ (1 : Fin 2) * 64 ≤ (i 1).val
      ∧ (i 1).val < win1_2.index ⟨391 * ((i 0).val / 1024) + 390, hlt⟩ (1 : Fin 2) * 64 + 64
    rw [i1]
    omega

/-- What a tile's last point writes back is its block of `G`. -/
theorem flushed_eq (c : Dev nD) (t : Fin cfg1.N) (hf : (cfg1.win 2).flush t = true) :
    (dat V c).flushed 2 t = ((cfg1.win 2).blk t).view.read (Elt Ideal) (G V c) := by
  have hl : t.val % 391 = 390 := (flush1_2 t).mp hf
  obtain ⟨i0, i1⟩ := index_out t
  show (cfg1.win 2).cut (grid1.coords t) ((dat V c).after 2 t) = _
  rw [after_out]
  funext y
  obtain ⟨p, q, rfl⟩ : ∃ (p : Fin 1024) (q : Fin 64), y = ix2 p q := ⟨y 0, y 1, @eq_ix2 1024 64 y⟩
  rw [View.read_apply]
  show accAt V c (t.val + 1) (ix2 p q) = G V c (((cfg1.win 2).blk t).view.emb (ix2 p q))
  rw [after_last V c t hl p q]
  refine (G_apply V c _ _ q ?_ ?_).symm
  · show win1_2.index t (0 : Fin 2) * 1024 + 1 * p.val = 1024 * (t.val / 391) + p.val
    rw [i0]; omega
  · show win1_2.index t (1 : Fin 2) * 64 + 1 * q.val = q.val
    rw [i1]; omega

/-- So the result array ends holding `G`. -/
theorem out_eq (c : Dev nD) : (dat V c).arrAt 2 cfg1.N = G V c :=
  (dat V c).arrAt_eq_of_cover 2 (G V c) (flushed_eq V c) cover_out

/-- THE RESULT ARRAY, ENTRY BY ENTRY: node's row is the sum, over all chunks, of the gathered weighted rows of the edges whose
    row index, read unsigned, is that node. -/
theorem out_apply (c : Dev nD) (node : Fin 150528) (j : Fin 64) :
    ((dat V c).arrAt 2 cfg1.N : S150528x64.Idx → EReal) (ix2 node j)
      = (∑ ch : Fin 391, ∑ e : Fin 8192,
          (if ((V c main_v38 : S391x1x8192.Idx → BitVec 32) (ix3 ch (0 : Fin 1) e)).toNat = node.val
            then (V c main_v39 : S391x8192x64.Idx → EReal) (ix3 ch e j) else 0) : EReal) := by
  rw [out_eq V c]
  rfl

end Cert.KernelIdeal.Hand.R1

end
-- ==== Proof.KI.R2Val.lean ====
/-
  What this gather launch (grid: 391 edge chunks x 147 node tiles, the node tile innermost) leaves in its result array,
  entry by entry, over the extended reals, on any contents `V` of the unscoped buffers at its entry: entry (ch, e, j) is
  feature j of the row of the padded feature table (150528 = 147 * 1024 rows) that the column word of edge e of chunk ch
  names, read unsigned (the zero row when the word names no row of the table), times the edge's weight.

  The road. At a point (chunk, tile) the body adds to the accumulator the product of the chunk's one-hot matrix against the
  tile with the tile's 1024 feature rows; over the extended reals entry (e, j) of that product is the sum over the tile's
  nodes k of [the edge's column word is node 1024 * tile + k] * feature j of that node, and at most one term is not zero:
  the product's entry is feature j of the row the word names when that node lies in the tile, and 0 otherwise
  (`pay2_apply`, `tile_sum`). So after tile n of a chunk the accumulator's entry holds the selected row's feature if the
  row lies in the tiles up to n, and 0 otherwise (`accAt_chunk`, by induction on the tile; the first tile starts from the
  zero matrix); after the last tile that is the selected row of the whole padded table. The last tile stores the
  accumulator times the broadcast weight column (`pay3_apply`) as the chunk's block of the result, and the chunks' blocks
  cover the result array (`flushed_eq`, `out_eq`).
-/
import proofs.«130096_j52458730553647_1_alg».proof.Proof.KI.R2
import proofs.«130096_j52458730553647_1_alg».proof.Proof.Spmm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R2

open Cert.KernelIdeal Cert.KernelIdeal.Gen Cert.KernelIdeal.Hand.Sched
open Idealize.ShloMosaic Idealize.ShloMosaic.TcCoe Idealize.ShloMosaic.ValueIdx
open Idealize.ShloMosaic.Pipeline (Dat)
open Cert.Hand (rowOr0 rowOr0_of_lt rowOr0_of_ge)
open scoped BigOperators

/-! ## Layout operations the body uses, read at an index -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, k)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

end Layout

/-! ## The body's three stored values, read at an index, over the extended reals -/

/-- The reset stores the zero matrix. -/
theorem pay1_apply (i : S8192x64.Idx) : (k2_pay1 (F := Ideal)) i = 0 := by
  unfold k2_pay1
  rw [shapeCast_self]
  exact Ideal.ofBits_zero_f32

/-- A comparison and a sum of integer vectors at an index are the words' comparison and sum. -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = x i + y i := rfl

/-- A one-hot entry: the comparison bit, widened and converted, is 1 where the two words agree and 0 elsewhere. -/
theorem onehot_entry (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by
      show (BitVec.ofBool (a == a)).setWidth 32 = 1#32
      rw [beq_self_eq_true]; decide
    rw [e]
    show (((1#32 : BitVec 32).toInt : ℝ) : EReal) = 1
    norm_num
  · rw [if_neg h]
    have e : (IntOp.cmpi .eq a b).setWidth 32 = 0#32 := by
      show (BitVec.ofBool (a == b)).setWidth 32 = 0#32
      rw [beq_false_of_ne h]; decide
    rw [e]
    show (((0#32 : BitVec 32).toInt : ℝ) : EReal) = 0
    norm_num

/-- The word the body compares a column index with at column `k` of node tile `tile`: `k` plus the tile's first node. -/
abbrev nodeWord (tile k : ℕ) : BitVec 32 := BitVec.ofNat 32 k + BitVec.ofNat 32 tile * 1024#32

/-- The product's operand indices at result entry `(e, j)` and contraction position `q`: `(e, q)` and `(q, j)`. -/
theorem lhs_dot_free (i : S8192x64.Idx) (q : dot_S8192x1024_S1024x64_S8192x64_1_0_0_1_n_n.contr.Idx) :
    (dot_S8192x1024_S1024x64_S8192x64_1_0_0_1_n_n.lhsIdx i q 0).val = (i 0).val := by
  unfold DotDims.lhsIdx
  rw [dif_neg (show ¬(0 : Fin S8192x1024.rank) ∈ dot_S8192x1024_S1024x64_S8192x64_1_0_0_1_n_n.lhsBatch by decide),
    dif_pos (show (0 : Fin S8192x1024.rank) ∈ dot_S8192x1024_S1024x64_S8192x64_1_0_0_1_n_n.lhsNonContracting by decide)]
  rfl
theorem lhs_dot_contr (i : S8192x64.Idx) (q : dot_S8192x1024_S1024x64_S8192x64_1_0_0_1_n_n.contr.Idx) :
    (dot_S8192x1024_S1024x64_S8192x64_1_0_0_1_n_n.lhsIdx i q 1).val = (q ⟨0, by decide⟩).val :=
  dot_S8192x1024_S1024x64_S8192x64_1_0_0_1_n_n.lhsIdx_val_of_single rfl i q
theorem rhs_dot_contr (i : S8192x64.Idx) (q : dot_S8192x1024_S1024x64_S8192x64_1_0_0_1_n_n.contr.Idx) :
    (dot_S8192x1024_S1024x64_S8192x64_1_0_0_1_n_n.rhsIdx i q 0).val = (q ⟨0, by decide⟩).val :=
  dot_S8192x1024_S1024x64_S8192x64_1_0_0_1_n_n.rhsIdx_val_of_single rfl i q
theorem rhs_dot_free (i : S8192x64.Idx) (q : dot_S8192x1024_S1024x64_S8192x64_1_0_0_1_n_n.contr.Idx) :
    (dot_S8192x1024_S1024x64_S8192x64_1_0_0_1_n_n.rhsIdx i q 1).val = (i 1).val := by
  unfold DotDims.rhsIdx
  rw [dif_neg (show ¬(1 : Fin S1024x64.rank) ∈ dot_S8192x1024_S1024x64_S8192x64_1_0_0_1_n_n.rhsBatch by decide),
    dif_pos (show (1 : Fin S1024x64.rank) ∈ dot_S8192x1024_S1024x64_S8192x64_1_0_0_1_n_n.rhsNonContracting by decide)]
  rfl

/-- The accumulating store at entry `(e, j)`: the accumulator there plus, over the tile's 1024 nodes, the one-hot entry
    (1 where edge `e`'s column word is the node's) times the node's feature `j`. -/
theorem pay2_apply (i : grid2.Coords) (cols : Vec Ideal S1x1x8192 .i32) (feat : Vec Ideal S1024x64 .f32)
    (acc : Vec Ideal S8192x64 .f32) (e : Fin 8192) (j : Fin 64) :
    k2_pay2 i cols feat acc (ix2 e j)
      = acc (ix2 e j) + ∑ k : Fin 1024,
          (if cols (ix3 (0 : Fin 1) (0 : Fin 1) e) = nodeWord (i 1).val k.val then (1 : EReal) else 0) * feat (ix2 k j) := by
  unfold k2_pay2
  rw [shapeCast_self, addf_apply, shapeCast_self]
  refine congrArg (acc (ix2 e j) + ·) ?_
  simp only [matmul]
  rw [Ideal.matmul_constant_zero_apply,
    ← Equiv.sum_comp (contrEquiv1 dot_S8192x1024_S1024x64_S8192x64_1_0_0_1_n_n 1024 rfl rfl).symm]
  refine Finset.sum_congr rfl fun k _ => ?_
  have hk := contrEquiv1_symm_val dot_S8192x1024_S1024x64_S8192x64_1_0_0_1_n_n 1024 rfl rfl k
  have el : dot_S8192x1024_S1024x64_S8192x64_1_0_0_1_n_n.lhsIdx (ix2 e j)
      ((contrEquiv1 dot_S8192x1024_S1024x64_S8192x64_1_0_0_1_n_n 1024 rfl rfl).symm k) = ix2 e k :=
    funext fun a => Fin.ext (by
      match a with
      | ⟨0, _⟩ => exact lhs_dot_free _ _
      | ⟨1, _⟩ => exact (lhs_dot_contr _ _).trans hk)
  have er : dot_S8192x1024_S1024x64_S8192x64_1_0_0_1_n_n.rhsIdx (ix2 e j)
      ((contrEquiv1 dot_S8192x1024_S1024x64_S8192x64_1_0_0_1_n_n 1024 rfl rfl).symm k) = ix2 k j :=
    funext fun a => Fin.ext (by
      match a with
      | ⟨0, _⟩ => exact (rhs_dot_contr _ _).trans hk
      | ⟨1, _⟩ => exact rhs_dot_free _ _)
  rw [el, er, truncf_apply, truncf_apply, sitofp_apply, extui_apply, cmpi_apply, onehot_entry, addi_apply,
    broadcastTo_a1_ab_apply, shapeCast_a_a1_apply, shapeCast_11a_a_apply, iota_single_apply, broadcast_apply]
  rfl

/-- The scaled store at entry `(0, e, j)`: the accumulator's entry `(e, j)` times edge `e`'s weight. -/
theorem pay3_apply (vals : Vec Ideal S1x1x8192 .f32) (acc : Vec Ideal S8192x64 .f32) (u : Fin 1) (e : Fin 8192) (j : Fin 64) :
    k2_pay3 vals acc (ix3 u e j) = acc (ix2 e j) * vals (ix3 (0 : Fin 1) (0 : Fin 1) e) := by
  unfold k2_pay3
  rw [shapeCast_ab_1ab_apply, mulf_apply, broadcastTo_a1_ab_apply, shapeCast_a_a1_apply, shapeCast_11a_a_apply]

/-! ## One node tile's product, and the tiles before a point -/

/-- The compared word is node `1024 * tile + k` as a number, as long as that is below 2^32. -/
theorem nodeWord_toNat {tile k : ℕ} (h : 1024 * tile + k < 4294967296) : (nodeWord tile k).toNat = 1024 * tile + k := by
  show (BitVec.ofNat 32 k + BitVec.ofNat 32 tile * BitVec.ofNat 32 1024).toNat = _
  rw [BitVec.toNat_add, BitVec.toNat_mul, BitVec.toNat_ofNat, BitVec.toNat_ofNat, BitVec.toNat_ofNat]
  omega

theorem eq_nodeWord_iff (w : BitVec 32) {tile k : ℕ} (h : 1024 * tile + k < 4294967296) :
    w = nodeWord tile k ↔ w.toNat = 1024 * tile + k := by
  rw [← BitVec.toNat_inj, nodeWord_toNat h]

/-- One node tile's product at feature `j`, for an edge whose column word is `w`: the one-hot row selects the feature row
    the word names when that node lies in the tile (`feat` holds the table's rows `1024 * tile …`), and nothing otherwise. -/
theorem tile_sum (x : Fin 150528 → Fin 64 → EReal) (tile : ℕ) (htile : tile < 147) (feat : Vec Ideal S1024x64 .f32)
    (hfeat : ∀ (k : Fin 1024) (j : Fin 64), feat (ix2 k j) = x ⟨1024 * tile + k.val, by have := k.isLt; omega⟩ j)
    (w : BitVec 32) (j : Fin 64) :
    ∑ k : Fin 1024, (if w = nodeWord tile k.val then (1 : EReal) else 0) * feat (ix2 k j)
      = if 1024 * tile ≤ w.toNat ∧ w.toNat < 1024 * tile + 1024 then rowOr0 x w.toNat j else 0 := by
  by_cases hw : 1024 * tile ≤ w.toNat ∧ w.toNat < 1024 * tile + 1024
  · rw [if_pos hw]
    have hkw : w.toNat - 1024 * tile < 1024 := by omega
    rw [Finset.sum_eq_single (⟨w.toNat - 1024 * tile, hkw⟩ : Fin 1024)]
    · have hsel : w = nodeWord tile (w.toNat - 1024 * tile) := (eq_nodeWord_iff w (by omega)).mpr (by omega)
      rw [if_pos hsel, one_mul, hfeat, rowOr0_of_lt x (show w.toNat < 150528 by omega)]
      exact congrArg (fun q => x q j) (Fin.ext (by show 1024 * tile + (w.toNat - 1024 * tile) = w.toNat; omega))
    · intro k _ hk
      have hne : ¬w = nodeWord tile k.val := fun h => hk (Fin.ext (by
        have := (eq_nodeWord_iff w (by have := k.isLt; omega)).mp h
        show k.val = w.toNat - 1024 * tile; omega))
      rw [if_neg hne, zero_mul]
    · intro h; exact absurd (Finset.mem_univ _) h
  · rw [if_neg hw]
    refine Finset.sum_eq_zero fun k _ => ?_
    have hne : ¬w = nodeWord tile k.val := fun h => hw (by
      have := (eq_nodeWord_iff w (by have := k.isLt; omega)).mp h
      have := k.isLt
      omega)
    rw [if_neg hne, zero_mul]

/-- The selected feature row as far as the node tiles before tile `n` supply it: the row the word names when that node lies
    in one of those tiles, the zero row otherwise. -/
def partRow (x : Fin 150528 → Fin 64 → EReal) (n q : ℕ) (j : Fin 64) : EReal := if q < 1024 * n then rowOr0 x q j else 0

theorem partRow_zero (x : Fin 150528 → Fin 64 → EReal) (q : ℕ) (j : Fin 64) : partRow x 0 q j = 0 := by
  unfold partRow; rw [if_neg (by omega)]

theorem partRow_succ (x : Fin 150528 → Fin 64 → EReal) (n q : ℕ) (j : Fin 64) :
    partRow x (n + 1) q j = partRow x n q j + (if 1024 * n ≤ q ∧ q < 1024 * n + 1024 then rowOr0 x q j else 0) := by
  unfold partRow
  by_cases hib : q < 1024 * n
  · rw [if_pos hib, if_pos (by omega), if_neg (by omega), add_zero]
  · by_cases hic : q < 1024 * (n + 1)
    · rw [if_neg hib, if_pos hic, if_pos (by omega), zero_add]
    · rw [if_neg hib, if_neg hic, if_neg (by omega), zero_add]

/-- All 147 tiles supply the whole table: a word past the table names the zero row. -/
theorem partRow_last (x : Fin 150528 → Fin 64 → EReal) (q : ℕ) (j : Fin 64) : partRow x 147 q j = rowOr0 x q j := by
  unfold partRow
  by_cases h : q < 1024 * 147
  · rw [if_pos h]
  · rw [if_neg h, rowOr0_of_ge x (by omega)]

/-! ## The blocks a point reads, as entries of the arrays the region finds -/

variable (V : (c : Dev nD) → (b : Ref sig .tc) → Buf (Elt Ideal) ((c : Thread nD τ).loc b))

/-- The padded feature table, the column words and the edge weights as the region finds them. -/
abbrev featTab (c : Dev nD) : Fin 150528 → Fin 64 → EReal :=
  fun q j => (V c main_v47 : S150528x64.Idx → EReal) (ix2 q j)
abbrev colWord (c : Dev nD) (ch : Fin 391) (e : Fin 8192) : BitVec 32 :=
  (V c main_v48 : S391x1x8192.Idx → BitVec 32) (ix3 ch (0 : Fin 1) e)
abbrev weight (c : Dev nD) (ch : Fin 391) (e : Fin 8192) : EReal :=
  (V c main_v49 : S391x1x8192.Idx → EReal) (ix3 ch (0 : Fin 1) e)

/-- A point's coordinates: its chunk is the quotient and its node tile the remainder by the number of tiles. -/
theorem coords_chunk (t : Fin cfg2.N) : ((grid2.coords t) 0).val = t.val / 147 := by
  have hN : cfg2.N = 57477 := N_2
  have ht := t.isLt
  have hs : grid2.stride 0 = 147 := by decide
  show t.val / grid2.stride 0 % 391 = t.val / 147
  rw [hs]; omega

theorem coords_tile (t : Fin cfg2.N) : ((grid2.coords t) 1).val = t.val % 147 := by
  have hs : grid2.stride 1 = 1 := by decide
  show t.val / grid2.stride 1 % 147 = t.val % 147
  rw [hs, Nat.div_one]

/-- The block indices at a point: the chunk's row of the column words and of the weights and of the result, the node
    tile's rows of the feature table. -/
theorem index_cols (t : Fin cfg2.N) : win2_0.index t 0 = t.val / 147 ∧ win2_0.index t 1 = 0 ∧ win2_0.index t 2 = 0 := by
  have hN : cfg2.N = 57477 := N_2
  have ht := t.isLt
  refine ⟨?_, rfl, rfl⟩
  show (BitVec.ofNat 32 ((grid2.coords t) 0).val).toNat = _
  rw [BitVec.toNat_ofNat, coords_chunk]; omega

theorem index_vals (t : Fin cfg2.N) : win2_1.index t 0 = t.val / 147 ∧ win2_1.index t 1 = 0 ∧ win2_1.index t 2 = 0 := by
  have hN : cfg2.N = 57477 := N_2
  have ht := t.isLt
  refine ⟨?_, rfl, rfl⟩
  show (BitVec.ofNat 32 ((grid2.coords t) 0).val).toNat = _
  rw [BitVec.toNat_ofNat, coords_chunk]; omega

theorem index_feat (t : Fin cfg2.N) : win2_2.index t 0 = t.val % 147 ∧ win2_2.index t 1 = 0 := by
  refine ⟨?_, rfl⟩
  show (BitVec.ofNat 32 ((grid2.coords t) 1).val).toNat = _
  rw [BitVec.toNat_ofNat, coords_tile]; omega

theorem index_out (t : Fin cfg2.N) : win2_3.index t 0 = t.val / 147 ∧ win2_3.index t 1 = 0 ∧ win2_3.index t 2 = 0 := by
  have hN : cfg2.N = 57477 := N_2
  have ht := t.isLt
  refine ⟨?_, rfl, rfl⟩
  show (BitVec.ofNat 32 ((grid2.coords t) 0).val).toNat = _
  rw [BitVec.toNat_ofNat, coords_chunk]; omega

/-- The column-word block at a point is the chunk's row of the column words. -/
theorem colsBlk_apply (c : Dev nD) (t : Fin cfg2.N) (e : Fin 8192) (ch : Fin 391) (hch : ch.val = t.val / 147) :
    colsBlk V c t (ix3 (0 : Fin 1) (0 : Fin 1) e) = colWord V c ch e := by
  obtain ⟨hia, hib, hic⟩ := index_cols t
  show iblk V c 0 t _ = _
  unfold iblk
  rw [View.read_apply]
  show V c main_v48 _ = V c main_v48 _
  refine congrArg _ (funext fun a => Fin.ext ?_)
  match a with
  | ⟨0, _⟩ => show win2_0.index t 0 * 1 + 1 * 0 = ch.val; rw [hia, hch]; omega
  | ⟨1, _⟩ => show win2_0.index t 1 * 1 + 1 * 0 = 0; rw [hib]
  | ⟨2, _⟩ => show win2_0.index t 2 * 8192 + 1 * e.val = e.val; rw [hic]; omega

/-- The weight block at a point is the chunk's row of the weights. -/
theorem valsBlk_apply (c : Dev nD) (t : Fin cfg2.N) (e : Fin 8192) (ch : Fin 391) (hch : ch.val = t.val / 147) :
    valsBlk V c t (ix3 (0 : Fin 1) (0 : Fin 1) e) = weight V c ch e := by
  obtain ⟨hia, hib, hic⟩ := index_vals t
  show iblk V c 1 t _ = _
  unfold iblk
  rw [View.read_apply]
  show V c main_v49 _ = V c main_v49 _
  refine congrArg _ (funext fun a => Fin.ext ?_)
  match a with
  | ⟨0, _⟩ => show win2_1.index t 0 * 1 + 1 * 0 = ch.val; rw [hia, hch]; omega
  | ⟨1, _⟩ => show win2_1.index t 1 * 1 + 1 * 0 = 0; rw [hib]
  | ⟨2, _⟩ => show win2_1.index t 2 * 8192 + 1 * e.val = e.val; rw [hic]; omega

/-- The feature block at a point is the node tile's 1024 rows of the padded table. -/
theorem featBlk_apply (c : Dev nD) (t : Fin cfg2.N) (k : Fin 1024) (j : Fin 64) (q : Fin 150528)
    (hq : q.val = 1024 * (t.val % 147) + k.val) :
    featBlk V c t (ix2 k j) = featTab V c q j := by
  obtain ⟨hia, hib⟩ := index_feat t
  show iblk V c 2 t _ = _
  unfold iblk
  rw [View.read_apply]
  show V c main_v47 _ = V c main_v47 _
  refine congrArg _ (funext fun a => Fin.ext ?_)
  match a with
  | ⟨0, _⟩ => show win2_2.index t 0 * 1024 + 1 * k.val = q.val; rw [hia, hq]; omega
  | ⟨1, _⟩ => show win2_2.index t 1 * 64 + 1 * j.val = j.val; rw [hib]; omega

/-! ## The accumulator across a chunk's tiles -/

/-- One point of the recursion at entry `(e, j)`: if the accumulator the point starts from (the zero matrix at a chunk's
    first tile) holds what the tiles before `n` supply, the point leaves what the tiles before `n + 1` supply. -/
theorem accStep_apply (c : Dev nD) (ch : Fin 391) (n : ℕ) (hn : n < 147) (ht : 147 * ch.val + n < cfg2.N)
    (a : Vec Ideal S8192x64 .f32) (e : Fin 8192) (j : Fin 64)
    (ha : (if n = 0 then (k2_pay1 (F := Ideal)) else a) (ix2 e j) = partRow (featTab V c) n (colWord V c ch e).toNat j) :
    accStep V c ⟨147 * ch.val + n, ht⟩ a (ix2 e j) = partRow (featTab V c) (n + 1) (colWord V c ch e).toNat j := by
  have hmod : (147 * ch.val + n) % 147 = n := by omega
  have hdiv : (147 * ch.val + n) / 147 = ch.val := by omega
  unfold accStep
  refine (pay2_apply _ _ _ _ e j).trans ?_
  rw [partRow_succ]
  congr 1
  · show (if (147 * ch.val + n) % 147 = 0 then (k2_pay1 (F := Ideal)) else a) (ix2 e j) = _
    rw [hmod]; exact ha
  · rw [colsBlk_apply V c _ e ch hdiv.symm, coords_tile]
    show ∑ k : Fin 1024, (if colWord V c ch e = nodeWord ((147 * ch.val + n) % 147) k.val then (1 : EReal) else 0) * _ = _
    rw [hmod]
    exact tile_sum (featTab V c) n hn _ (fun k j => featBlk_apply V c _ k j _ (by show _ = 1024 * ((147 * ch.val + n) % 147) + k.val; rw [hmod])) _ j

/-- After tile `n` of chunk `ch` the accumulator's entry `(e, j)` holds what the tiles up to `n` supply of the row edge
    `e`'s column word names. -/
theorem accAt_chunk (c : Dev nD) (ch : Fin 391) (e : Fin 8192) (j : Fin 64) : ∀ n, n < 147 →
    accAt V c (147 * ch.val + n + 1) (ix2 e j) = partRow (featTab V c) (n + 1) (colWord V c ch e).toNat j
  | 0, hn => by
    have hN : cfg2.N = 57477 := N_2
    have hch := ch.isLt
    have ht : 147 * ch.val + 0 < cfg2.N := by omega
    refine (congrFun (accAt_succ V c ⟨147 * ch.val + 0, ht⟩) (ix2 e j)).trans ?_
    refine accStep_apply V c ch 0 hn ht _ e j ?_
    rw [if_pos rfl, pay1_apply, partRow_zero]
  | n + 1, hn => by
    have hN : cfg2.N = 57477 := N_2
    have hch := ch.isLt
    have ht : 147 * ch.val + (n + 1) < cfg2.N := by omega
    refine (congrFun (accAt_succ V c ⟨147 * ch.val + (n + 1), ht⟩) (ix2 e j)).trans ?_
    refine accStep_apply V c ch (n + 1) hn ht _ e j ?_
    rw [if_neg (Nat.succ_ne_zero n)]
    exact accAt_chunk c ch e j n (by omega)

/-! ## From the blocks to the result array -/

/-- The result array: entry `(ch, e, j)` is feature `j` of the row the edge's column word names, times the edge's weight. -/
def outArr (c : Dev nD) : S391x8192x64.Idx → EReal :=
  fun i => rowOr0 (featTab V c) (colWord V c (i 0) (i 1)).toNat (i 2) * weight V c (i 0) (i 1)

theorem outArr_apply (c : Dev nD) (i : S391x8192x64.Idx) (ch : Fin 391) (e : Fin 8192) (j : Fin 64)
    (hia : (i 0).val = ch.val) (hib : (i 1).val = e.val) (hic : (i 2).val = j.val) :
    outArr V c i = rowOr0 (featTab V c) (colWord V c ch e).toNat j * weight V c ch e := by
  obtain rfl : i = ix3 ch e j := funext fun a => Fin.ext (by
    match a with
    | ⟨0, _⟩ => exact hia
    | ⟨1, _⟩ => exact hib
    | ⟨2, _⟩ => exact hic)
  rfl

/-- What a chunk's last tile writes back is the chunk's block of the result array. -/
theorem flushed_eq (c : Dev nD) (t : Fin cfg2.N) (hf : (cfg2.win 3).flush t = true) :
    (dat V c).flushed 3 t = ((cfg2.win 3).blk t).view.read (Elt Ideal) (outArr V c) := by
  have hN : cfg2.N = 57477 := N_2
  have hlast : t.val % 147 = 146 := (flush2_3 t).mp hf
  have htl := t.isLt
  obtain ⟨hia, hib, hic⟩ := index_out t
  show (cfg2.win 3).cut (grid2.coords t) ((dat V c).after 3 t) = _
  rw [after_out]
  funext y
  obtain ⟨u, e, j, rfl⟩ : ∃ (u : Fin 1) (e : Fin 8192) (j : Fin 64), y = ix3 u e j := ⟨y 0, y 1, y 2, eq_ix3 y⟩
  show k2_pay3 (valsBlk V c t) (accAt V c (t.val + 1)) (ix3 u e j) = outArr V c (((cfg2.win 3).blk t).view.emb (ix3 u e j))
  have hu : u.val = 0 := by omega
  have hch : t.val / 147 < 391 := by omega
  rw [pay3_apply, outArr_apply V c _ ⟨t.val / 147, hch⟩ e j
    (by show win2_3.index t 0 * 1 + 1 * u.val = t.val / 147; rw [hia, hu]; omega)
    (by show win2_3.index t 1 * 8192 + 1 * e.val = e.val; rw [hib]; omega)
    (by show win2_3.index t 2 * 64 + 1 * j.val = j.val; rw [hic]; omega),
    valsBlk_apply V c t e ⟨t.val / 147, hch⟩ rfl]
  have hts : t.val + 1 = 147 * (t.val / 147) + 146 + 1 := by omega
  rw [hts, accAt_chunk V c ⟨t.val / 147, hch⟩ e j 146 (by omega), partRow_last]

/-- The result array after the region: the chunks' blocks cover it. -/
theorem out_eq (c : Dev nD) : (dat V c).arrAt 3 cfg2.N = outArr V c :=
  (dat V c).arrAt_eq_of_cover 3 (outArr V c) (flushed_eq V c) fun i => by
    have hN : cfg2.N = 57477 := N_2
    have hca : (i 0).val < 391 := (i 0).isLt
    have hcb : (i 1).val < 8192 := (i 1).isLt
    have hcc : (i 2).val < 64 := (i 2).isLt
    have ht : 147 * (i 0).val + 146 < cfg2.N := by omega
    obtain ⟨hia, hib, hic⟩ := index_out ⟨147 * (i 0).val + 146, ht⟩
    refine ⟨⟨147 * (i 0).val + 146, ht⟩, (flush2_3 _).mpr (by show (147 * (i 0).val + 146) % 147 = 146; omega), ?_⟩
    show i ∈ ((View.whole main_v51).slice (win2_3.rect ⟨147 * (i 0).val + 146, ht⟩)).set
    rw [View.set_slice_whole, Rect.mem_set_unit]
    intro a
    match a with
    | ⟨0, _⟩ =>
      show win2_3.index ⟨147 * (i 0).val + 146, ht⟩ 0 * 1 ≤ (i 0).val ∧ (i 0).val < win2_3.index ⟨147 * (i 0).val + 146, ht⟩ 0 * 1 + 1
      rw [hia]; show (147 * (i 0).val + 146) / 147 * 1 ≤ (i 0).val ∧ (i 0).val < (147 * (i 0).val + 146) / 147 * 1 + 1; omega
    | ⟨1, _⟩ =>
      show win2_3.index ⟨147 * (i 0).val + 146, ht⟩ 1 * 8192 ≤ (i 1).val ∧ (i 1).val < win2_3.index ⟨147 * (i 0).val + 146, ht⟩ 1 * 8192 + 8192
      rw [hib]; omega
    | ⟨2, _⟩ =>
      show win2_3.index ⟨147 * (i 0).val + 146, ht⟩ 2 * 64 ≤ (i 2).val ∧ (i 2).val < win2_3.index ⟨147 * (i 0).val + 146, ht⟩ 2 * 64 + 64
      rw [hic]; omega

/-- THE RESULT, entry by entry: entry `(ch, e, j)` of the region's result array is feature `j` of the padded table's row that
    the column word of edge `e` of chunk `ch` names (read unsigned; the zero row past the table), times the edge's weight. -/
theorem out_apply (c : Dev nD) (ch : Fin 391) (e : Fin 8192) (j : Fin 64) :
    ((dat V c).arrAt 3 cfg2.N : S391x8192x64.Idx → EReal) (ValueIdx.ix3 ch e j)
      = Cert.Hand.rowOr0 (fun (q : Fin 150528) (j : Fin 64) => (V c main_v47 : S150528x64.Idx → EReal) (ValueIdx.ix2 q j))
          ((V c main_v48 : S391x1x8192.Idx → BitVec 32) (ValueIdx.ix3 ch 0 e)).toNat j
        * (V c main_v49 : S391x1x8192.Idx → EReal) (ValueIdx.ix3 ch 0 e) := by
  rw [out_eq]
  rfl

end Cert.KernelIdeal.Hand.R2

end
-- ==== Proof.KI.R3Val.lean ====
/-
  What this scatter launch leaves in its result array, entry by entry, at the ideal values and on any contents `V` of the
  unscoped buffers at its entry: node's row is the sum, over all edge chunks, of the gathered weighted rows of the edges
  whose row index, read unsigned, is that node (`out_apply`).

  The steps. (1) One point's payload at an entry (p, q) of the accumulator: what the accumulator held plus the product of
  the one-hot matrix with the chunk's rows there. The one-hot entry (p, e) is 1 when the word of edge e equals the word
  of 1024 * tile + p, and that number is below 2^32, so the words agree iff the edge's row index, read unsigned, is that
  number; 1 * x = x and 0 * x = 0 in the extended reals, so the product's entry is the sum of the chunk's rows whose row
  index is node 1024 * tile + p (`step_apply`). (2) The grid is (tile, chunk), the chunk innermost: point t has tile
  t / 391 and chunk t % 391, the inputs' blocks at t are rows chunk of their arrays and the result's block is block
  (tile, 0) (`index_rows`, `index_wg`, `index_out`, `rows_apply`, `wg_apply`). (3) The accumulator is reset at a
  tile's first chunk and steps at every chunk, so after the tile's chunks 0 … n it holds the sum of their addends
  (`accAt_run`, by induction on n), and after the last chunk the whole sum (`after_last`). (4) The result's block is
  written back at each tile's last chunk and those blocks tile the array, so the array ends holding that sum at every
  entry (`flushed_eq`, `cover_out`, `out_eq`).
-/
import proofs.«130096_j52458730553647_1_alg».proof.Proof.KI.R3
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R3

open Cert.KernelIdeal Cert.KernelIdeal.Gen Cert.KernelIdeal.Hand.Sched
open Idealize.ShloMosaic Idealize.ShloMosaic.TcCoe Idealize.ShloMosaic.ValueIdx
open Idealize.SL Idealize.SL.RA
open Idealize.ShloMosaic.Pipeline (Dat Cfg Window)
open scoped BigOperators

/-! ## One point's payload at an entry -/

/-- A word is the sum of an offset's word and a base's word, the total below 2^32, iff its unsigned value is the total. -/
theorem word_eq_iff (tile p : ℕ) (h : 1024 * tile + p < 2 ^ 32) (x : BitVec 32) :
    (BitVec.ofNat 32 p + BitVec.ofNat 32 tile * 1024#32 = x) ↔ x.toNat = 1024 * tile + p := by
  have h' : 1024 * tile + p < 4294967296 := by simpa using h
  constructor
  · intro e
    subst e
    rw [BitVec.toNat_add, BitVec.toNat_mul, BitVec.toNat_ofNat, BitVec.toNat_ofNat]
    show (p % 4294967296 + tile % 4294967296 * 1024 % 4294967296) % 4294967296 = 1024 * tile + p
    omega
  · intro e
    apply BitVec.eq_of_toNat_eq
    rw [BitVec.toNat_add, BitVec.toNat_mul, BitVec.toNat_ofNat, BitVec.toNat_ofNat, e]
    show (p % 4294967296 + tile % 4294967296 * 1024 % 4294967296) % 4294967296 = 1024 * tile + p
    omega

/-- A comparison bit widened to a word and converted signed: 1 where the two words agree, 0 elsewhere. -/
theorem sitofp_extui_cmpi_eq (a b : BitVec 32) :
    (FloatOps.sitofp .f32 ((IntOp.cmpi .eq a b).setWidth 32) : Ideal .f32) = if a = b then (1 : EReal) else 0 := by
  show ((((IntOp.cmpi .eq a b).setWidth 32).toInt : ℝ) : EReal) = _
  by_cases h : a = b
  · subst h; rw [if_pos rfl]; simp [IntOp.cmpi]
  · have hb : (a == b) = false := beq_eq_false_iff_ne.mpr h
    rw [if_neg h]; simp [IntOp.cmpi, hb]

/-- A [1, 1, a] array cast to [a] reads, at i, the operand at (0, 0, i). -/
theorem shapeCast_unit_unit_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-! The product's operand indices, axis by axis: the left operand is read at (row, contraction position), the right at
    (contraction position, column). -/

theorem lhs_row (i : S1024x64.Idx) (q : dot_S1024x8192_S8192x64_S1024x64_1_0_0_1_n_n.contr.Idx) :
    (dot_S1024x8192_S8192x64_S1024x64_1_0_0_1_n_n.lhsIdx i q 0).val = (i 0).val := by
  unfold DotDims.lhsIdx
  rw [dif_neg (show ¬(0 : Fin S1024x8192.rank) ∈ dot_S1024x8192_S8192x64_S1024x64_1_0_0_1_n_n.lhsBatch by decide),
    dif_pos (show (0 : Fin S1024x8192.rank) ∈ dot_S1024x8192_S8192x64_S1024x64_1_0_0_1_n_n.lhsNonContracting by decide)]
  rfl

theorem lhs_contr (i : S1024x64.Idx) (q : dot_S1024x8192_S8192x64_S1024x64_1_0_0_1_n_n.contr.Idx) :
    (dot_S1024x8192_S8192x64_S1024x64_1_0_0_1_n_n.lhsIdx i q 1).val = (q ⟨0, by decide⟩).val :=
  dot_S1024x8192_S8192x64_S1024x64_1_0_0_1_n_n.lhsIdx_val_of_single rfl i q

theorem rhs_contr (i : S1024x64.Idx) (q : dot_S1024x8192_S8192x64_S1024x64_1_0_0_1_n_n.contr.Idx) :
    (dot_S1024x8192_S8192x64_S1024x64_1_0_0_1_n_n.rhsIdx i q 0).val = (q ⟨0, by decide⟩).val :=
  dot_S1024x8192_S8192x64_S1024x64_1_0_0_1_n_n.rhsIdx_val_of_single rfl i q

theorem rhs_col (i : S1024x64.Idx) (q : dot_S1024x8192_S8192x64_S1024x64_1_0_0_1_n_n.contr.Idx) :
    (dot_S1024x8192_S8192x64_S1024x64_1_0_0_1_n_n.rhsIdx i q 1).val = (i 1).val := by
  unfold DotDims.rhsIdx
  rw [dif_neg (show ¬(1 : Fin S8192x64.rank) ∈ dot_S1024x8192_S8192x64_S1024x64_1_0_0_1_n_n.rhsBatch by decide),
    dif_pos (show (1 : Fin S8192x64.rank) ∈ dot_S1024x8192_S8192x64_S1024x64_1_0_0_1_n_n.rhsNonContracting by decide)]
  rfl

/-- One entry of the one-hot matrix: 1 where the edge's row index is the tile's node p, 0 elsewhere. -/
theorem onehot_apply (tile : ℕ) (r : Vec Ideal S1x1x8192 .i32) (p : Fin 1024) (e : Fin 8192) (hb : 1024 * tile + p.val < 2 ^ 32) :
    (truncf .bf16
      (sitofp .f32
        (extui 32
          (cmpi .eq
            (addi (iota .tc S1024x8192 32 [0] iota_S1024x8192_d0_w32)
              (broadcast S1024x8192 (Scalar.muli (BitVec.ofNat 32 tile) 1024#32)))
            (broadcastTo S1024x8192
              (shapeCast S1x8192 (shapeCast S8192 r shapeCasts_S1x1x8192_S8192) shapeCasts_S8192_S1x8192)
              broadcasts_S1x8192_S1024x8192))
          natLt_1_32))
      bitsLt_bf16_f32 : FVec Ideal S1024x8192 .bf16) (ix2 p e)
      = if ((r (ix3 (0 : Fin 1) (0 : Fin 1) e) : BitVec 32)).toNat = 1024 * tile + p.val then (1 : EReal) else 0 := by
  have hrow : broadcastTo S1024x8192
      (shapeCast S1x8192 (shapeCast S8192 r shapeCasts_S1x1x8192_S8192) shapeCasts_S8192_S1x8192)
      broadcasts_S1x8192_S1024x8192 (ix2 p e) = r (ix3 (0 : Fin 1) (0 : Fin 1) e) := by
    rw [broadcastTo_1b_ab_apply, shapeCast_a_1a_apply, shapeCast_unit_unit_apply]
  show (FloatOps.sitofp .f32 ((IntOp.cmpi .eq
      (IntOp.addi (iota .tc S1024x8192 32 [0] iota_S1024x8192_d0_w32 (ix2 p e)) (Scalar.muli (BitVec.ofNat 32 tile) 1024#32))
      (broadcastTo S1024x8192
        (shapeCast S1x8192 (shapeCast S8192 r shapeCasts_S1x1x8192_S8192) shapeCasts_S8192_S1x8192)
        broadcasts_S1x8192_S1024x8192 (ix2 p e))).setWidth 32) : Ideal .f32) = _
  rw [hrow, iota_single_apply, sitofp_extui_cmpi_eq]
  exact if_congr (word_eq_iff tile p.val hb _) rfl rfl

/-- THE STEP AT AN ENTRY: the payload at (p, q) is what the accumulator held there plus the chunk's rows, at feature q, of
    the edges whose row index, read unsigned, is node 1024 * tile + p. -/
theorem step_apply (i : grid3.Coords) (r : Vec Ideal S1x1x8192 .i32) (w : Vec Ideal S1x8192x64 .f32) (a : Vec Ideal S1024x64 .f32)
    (p : Fin 1024) (q : Fin 64) (hb : 1024 * (i 0).val + p.val < 2 ^ 32) :
    k3_pay2 (F := Ideal) i r w a (ix2 p q)
      = a (ix2 p q) + ∑ e : Fin 8192,
          (if ((r (ix3 (0 : Fin 1) (0 : Fin 1) e) : BitVec 32)).toNat = 1024 * (i 0).val + p.val then (w (ix3 (0 : Fin 1) e q) : EReal) else 0) := by
  unfold k3_pay2
  dsimp only
  rw [shapeCast_self, addf_apply]
  congr 1
  refine (Ideal.matmul_constant_zero_apply dot_S1024x8192_S8192x64_S1024x64_1_0_0_1_n_n none _ _ (ix2 p q)).trans ?_
  rw [← Equiv.sum_comp (contrEquiv1 dot_S1024x8192_S8192x64_S1024x64_1_0_0_1_n_n 8192 rfl rfl).symm]
  refine Finset.sum_congr rfl fun k _ => ?_
  have hk := contrEquiv1_symm_val dot_S1024x8192_S8192x64_S1024x64_1_0_0_1_n_n 8192 rfl rfl k
  have el : dot_S1024x8192_S8192x64_S1024x64_1_0_0_1_n_n.lhsIdx (ix2 p q)
      ((contrEquiv1 dot_S1024x8192_S8192x64_S1024x64_1_0_0_1_n_n 8192 rfl rfl).symm k) = ix2 p k := funext fun ax => Fin.ext (by
    match ax with
    | ⟨0, _⟩ => exact lhs_row _ _
    | ⟨1, _⟩ => exact (lhs_contr _ _).trans hk)
  have er : dot_S1024x8192_S8192x64_S1024x64_1_0_0_1_n_n.rhsIdx (ix2 p q)
      ((contrEquiv1 dot_S1024x8192_S8192x64_S1024x64_1_0_0_1_n_n 8192 rfl rfl).symm k) = ix2 k q := funext fun ax => Fin.ext (by
    match ax with
    | ⟨0, _⟩ => exact (rhs_contr _ _).trans hk
    | ⟨1, _⟩ => exact rhs_col _ _)
  rw [el, er, onehot_apply (i 0).val r p k hb, truncf_apply, shapeCast_1ab_ab_apply]
  split
  · rw [one_mul]
  · rw [zero_mul]

variable (V : (c : Dev nD) → (b : Ref sig .tc) → Buf (Elt Ideal) ((c : Thread nD τ).loc b))

/-! ## The grid and the windows' block indices, read off the point's number -/

theorem point_lt (t : Fin cfg3.N) : t.val < 57477 := Nat.lt_of_lt_of_eq t.isLt N_3

/-- A point's tile is its number divided by the chunks per tile. -/
theorem coords_tile (t : Fin cfg3.N) : (grid3.coords t 0).val = t.val / 391 := by
  have hN := point_lt t
  show t.val / grid3.stride 0 % grid3.bound 0 = _
  rw [show grid3.stride 0 = 391 from by decide, show grid3.bound 0 = 147 from rfl]
  omega

/-- A point's chunk is its number modulo the chunks per tile. -/
theorem coords_chunk (t : Fin cfg3.N) : (grid3.coords t 1).val = t.val % 391 := by
  show t.val / grid3.stride 1 % grid3.bound 1 = _
  rw [show grid3.stride 1 = 1 from by decide, show grid3.bound 1 = 391 from rfl, Nat.div_one]

/-- The row indices' block at a point is block (chunk, 0, 0). -/
theorem index_rows (t : Fin cfg3.N) :
    win3_0.index t (0 : Fin 3) = t.val % 391 ∧ win3_0.index t (1 : Fin 3) = 0 ∧ win3_0.index t (2 : Fin 3) = 0 := by
  refine ⟨?_, rfl, rfl⟩
  show (BitVec.ofNat 32 (grid3.coords t 1).val).toNat = _
  rw [BitVec.toNat_ofNat, coords_chunk]
  show t.val % 391 % 4294967296 = t.val % 391
  omega

/-- The gathered rows' block at a point is block (chunk, 0, 0). -/
theorem index_wg (t : Fin cfg3.N) :
    win3_1.index t (0 : Fin 3) = t.val % 391 ∧ win3_1.index t (1 : Fin 3) = 0 ∧ win3_1.index t (2 : Fin 3) = 0 := by
  refine ⟨?_, rfl, rfl⟩
  show (BitVec.ofNat 32 (grid3.coords t 1).val).toNat = _
  rw [BitVec.toNat_ofNat, coords_chunk]
  show t.val % 391 % 4294967296 = t.val % 391
  omega

/-- The result's block at a point is block (tile, 0). -/
theorem index_out (t : Fin cfg3.N) :
    win3_2.index t (0 : Fin 2) = t.val / 391 ∧ win3_2.index t (1 : Fin 2) = 0 := by
  have hN := point_lt t
  refine ⟨?_, rfl⟩
  show (BitVec.ofNat 32 (grid3.coords t 0).val).toNat = _
  rw [BitVec.toNat_ofNat, coords_tile]
  show t.val / 391 % 4294967296 = t.val / 391
  omega

/-! ## The input blocks as rows of their arrays -/

/-- The chunk's row indices are row chunk of the row-index array. -/
theorem rows_apply (c : Dev nD) (t : Fin cfg3.N) (e : Fin 8192) (ch : Fin 391) (hch : ch.val = t.val % 391) :
    (rowsBlk V c t) (ix3 (0 : Fin 1) (0 : Fin 1) e)
      = (V c main_v50 : S391x1x8192.Idx → BitVec 32) (ix3 ch (0 : Fin 1) e) := by
  obtain ⟨i0, i1, i2⟩ := index_rows t
  unfold rowsBlk iblk
  rw [View.read_apply]
  show (V c main_v50 : S391x1x8192.Idx → BitVec 32) _ = _
  congr 1
  funext a
  apply Fin.ext
  match a with
  | ⟨0, _⟩ => show win3_0.index t (0 : Fin 3) * 1 + 1 * 0 = ch.val; rw [i0, hch]; omega
  | ⟨1, _⟩ => show win3_0.index t (1 : Fin 3) * 1 + 1 * 0 = 0; rw [i1]
  | ⟨2, _⟩ => show win3_0.index t (2 : Fin 3) * 8192 + 1 * e.val = e.val; rw [i2]; omega

/-- The chunk's gathered rows are row chunk of the gathered array. -/
theorem wg_apply (c : Dev nD) (t : Fin cfg3.N) (e : Fin 8192) (q : Fin 64) (ch : Fin 391) (hch : ch.val = t.val % 391) :
    (wgBlk V c t) (ix3 (0 : Fin 1) e q)
      = (V c main_v51 : S391x8192x64.Idx → EReal) (ix3 ch e q) := by
  obtain ⟨i0, i1, i2⟩ := index_wg t
  unfold wgBlk iblk
  rw [View.read_apply]
  show (V c main_v51 : S391x8192x64.Idx → EReal) _ = _
  congr 1
  funext a
  apply Fin.ext
  match a with
  | ⟨0, _⟩ => show win3_1.index t (0 : Fin 3) * 1 + 1 * 0 = ch.val; rw [i0, hch]; omega
  | ⟨1, _⟩ => show win3_1.index t (1 : Fin 3) * 8192 + 1 * e.val = e.val; rw [i1]; omega
  | ⟨2, _⟩ => show win3_1.index t (2 : Fin 3) * 64 + 1 * q.val = q.val; rw [i2]; omega

/-! ## The accumulator along a tile's chunks -/

/-- The vector a tile's first chunk resets the accumulator to is zero. -/
theorem reset_apply (x : S1024x64.Idx) : (k3_pay1 (F := Ideal)) x = 0 := by
  show shapeCast S1024x64 (broadcast S1024x64 (Scalar.ofBits .f32 0x00000000#32 : Ideal .f32)) shapeCasts_S1024x64_S1024x64 x = 0
  rw [shapeCast_self]
  exact Ideal.ofBits_zero_f32

/-- What chunk `s` adds to node `node`'s entry at feature `q`: the chunk's gathered rows whose row index, read
    unsigned, is the node. -/
def chunkAdd (c : Dev nD) (node : ℕ) (q : Fin 64) (s : ℕ) : EReal :=
  if h : s < 391 then
    ∑ e : Fin 8192, if ((V c main_v50 : S391x1x8192.Idx → BitVec 32) (ix3 (⟨s, h⟩ : Fin 391) (0 : Fin 1) e)).toNat = node
      then (V c main_v51 : S391x8192x64.Idx → EReal) (ix3 (⟨s, h⟩ : Fin 391) e q) else 0
  else 0

/-- One point's step at an entry: what the accumulator held (zero at a tile's first chunk) plus the chunk's addend. -/
theorem accAt_succ_apply (c : Dev nD) (m : ℕ) (hm : m < cfg3.N) (p : Fin 1024) (q : Fin 64) :
    accAt V c (m + 1) (ix2 p q)
      = (if m % 391 = 0 then 0 else accAt V c m (ix2 p q)) + chunkAdd V c (1024 * (m / 391) + p.val) q (m % 391) := by
  have hN : m < 57477 := Nat.lt_of_lt_of_eq hm N_3
  have hp : p.val < 1024 := p.isLt
  have h32 : (2 : ℕ) ^ 32 = 4294967296 := by norm_num
  have hct : (grid3.coords (⟨m, hm⟩ : Fin cfg3.N) 0).val = m / 391 := coords_tile ⟨m, hm⟩
  show (if h : m < cfg3.N then accStep V c ⟨m, h⟩ (accAt V c m) else (k3_pay1 (F := Ideal))) (ix2 p q) = _
  rw [dif_pos hm]
  unfold accStep
  refine (step_apply _ _ _ _ p q (by rw [hct, h32]; omega)).trans ?_
  congr 1
  · show (if m % 391 = 0 then (k3_pay1 (F := Ideal)) else accAt V c m) (ix2 p q) = _
    split
    · exact reset_apply _
    · rfl
  · rw [hct]
    unfold chunkAdd
    rw [dif_pos (Nat.mod_lt m (by decide))]
    refine Finset.sum_congr rfl fun e _ => ?_
    rw [rows_apply V c ⟨m, hm⟩ e ⟨m % 391, Nat.mod_lt m (by decide)⟩ rfl,
      wg_apply V c ⟨m, hm⟩ e q ⟨m % 391, Nat.mod_lt m (by decide)⟩ rfl]

/-- After the first `n + 1` chunks of tile `tile` the accumulator is the sum of their addends. -/
theorem accAt_run (c : Dev nD) (tile : ℕ) (htile : tile < 147) (p : Fin 1024) (q : Fin 64) :
    ∀ n, n < 391 → ∀ m, m = 391 * tile + n →
      accAt V c (m + 1) (ix2 p q) = ∑ s ∈ Finset.range (n + 1), chunkAdd V c (1024 * tile + p.val) q s
  | 0, _, m, hm => by
    have hmN : m < cfg3.N := by rw [show cfg3.N = 57477 from N_3]; omega
    rw [accAt_succ_apply V c m hmN p q, show m % 391 = 0 by omega, show m / 391 = tile by omega, if_pos rfl, zero_add,
      Finset.sum_range_one]
  | n + 1, hn, m, hm => by
    have hmN : m < cfg3.N := by rw [show cfg3.N = 57477 from N_3]; omega
    obtain ⟨m', rfl⟩ : ∃ m', m = m' + 1 := ⟨391 * tile + n, by omega⟩
    rw [accAt_succ_apply V c (m' + 1) hmN p q, show (m' + 1) % 391 = n + 1 by omega, show (m' + 1) / 391 = tile by omega,
      if_neg (Nat.succ_ne_zero n), accAt_run c tile htile p q n (by omega) m' (by omega), Finset.sum_range_succ _ (n + 1)]

/-- Node `node`'s entry at feature `q` over all chunks: the gathered rows of the edges whose row index, read unsigned,
    is the node, summed. -/
def scat (c : Dev nD) (node : ℕ) (q : Fin 64) : EReal :=
  ∑ ch : Fin 391, ∑ e : Fin 8192,
    (if ((V c main_v50 : S391x1x8192.Idx → BitVec 32) (ix3 ch (0 : Fin 1) e)).toNat = node
      then (V c main_v51 : S391x8192x64.Idx → EReal) (ix3 ch e q) else 0)

/-- After a tile's last chunk the accumulator holds, at (p, q), node 1024 * tile + p's entry. -/
theorem after_last (c : Dev nD) (t : Fin cfg3.N) (hl : t.val % 391 = 390) (p : Fin 1024) (q : Fin 64) :
    accAt V c (t.val + 1) (ix2 p q) = scat V c (1024 * (t.val / 391) + p.val) q := by
  have hN := point_lt t
  rw [accAt_run V c (t.val / 391) (by omega) p q 390 (by decide) t.val (by omega)]
  show ∑ s ∈ Finset.range 391, chunkAdd V c (1024 * (t.val / 391) + p.val) q s = _
  rw [Finset.sum_range]
  unfold scat
  refine Finset.sum_congr rfl fun ch _ => ?_
  unfold chunkAdd
  rw [dif_pos ch.isLt]

/-! ## From the blocks to the array -/

/-- The result array, as one function of the row indices and the gathered rows. -/
def G (c : Dev nD) : S150528x64.Idx → EReal := fun i => scat V c (i 0).val ⟨(i 1).val, idx2_lt1 i⟩

theorem G_apply (c : Dev nD) (i : S150528x64.Idx) (node : ℕ) (q : Fin 64) (h0 : (i 0).val = node) (h1 : (i 1).val = q.val) :
    G V c i = scat V c node q := by
  unfold G
  rw [h0]
  congr 1
  exact Fin.ext h1

/-- An index of the result array is in a point's block iff each coordinate is in the block's range on its axis. -/
theorem mem_blk_out (t : Fin cfg3.N) (i : S150528x64.Idx) :
    i ∈ ((cfg3.win 2).blk t).view.set ↔ ∀ a : Fin 2, win3_2.index t a * S1024x64.size a ≤ (i a).val ∧ (i a).val < win3_2.index t a * S1024x64.size a + S1024x64.size a := by
  show i ∈ ((View.whole main_v52).slice (win3_2.rect t)).set ↔ _
  rw [View.set_slice_whole, Rect.mem_set_unit]
  exact Iff.rfl

/-- Every index of the result array is in the block of its tile's last point. -/
theorem cover_out (i : S150528x64.Idx) :
    ∃ t : Fin cfg3.N, (cfg3.win 2).flush t = true ∧ i ∈ ((cfg3.win 2).blk t).view.set := by
  have h0 : (i 0).val < 150528 := idx2_lt0 i
  have h1 : (i 1).val < 64 := idx2_lt1 i
  have hlt : 391 * ((i 0).val / 1024) + 390 < cfg3.N := by rw [show cfg3.N = 57477 from N_3]; omega
  refine ⟨⟨391 * ((i 0).val / 1024) + 390, hlt⟩, (flush3_2 _).mpr (by show (391 * ((i 0).val / 1024) + 390) % 391 = 390; omega), ?_⟩
  obtain ⟨i0, i1⟩ := index_out ⟨391 * ((i 0).val / 1024) + 390, hlt⟩
  rw [mem_blk_out]
  intro a
  match a with
  | ⟨0, _⟩ =>
    show win3_2.index ⟨391 * ((i 0).val / 1024) + 390, hlt⟩ (0 : Fin 2) * 1024 ≤ (i 0).val
      ∧ (i 0).val < win3_2.index ⟨391 * ((i 0).val / 1024) + 390, hlt⟩ (0 : Fin 2) * 1024 + 1024
    rw [i0]
    show (391 * ((i 0).val / 1024) + 390) / 391 * 1024 ≤ (i 0).val ∧ (i 0).val < (391 * ((i 0).val / 1024) + 390) / 391 * 1024 + 1024
    omega
  | ⟨1, _⟩ =>
    show win3_2.index ⟨391 * ((i 0).val / 1024) + 390, hlt⟩ (1 : Fin 2) * 64 ≤ (i 1).val
      ∧ (i 1).val < win3_2.index ⟨391 * ((i 0).val / 1024) + 390, hlt⟩ (1 : Fin 2) * 64 + 64
    rw [i1]
    omega

/-- What a tile's last point writes back is its block of `G`. -/
theorem flushed_eq (c : Dev nD) (t : Fin cfg3.N) (hf : (cfg3.win 2).flush t = true) :
    (dat V c).flushed 2 t = ((cfg3.win 2).blk t).view.read (Elt Ideal) (G V c) := by
  have hl : t.val % 391 = 390 := (flush3_2 t).mp hf
  obtain ⟨i0, i1⟩ := index_out t
  show (cfg3.win 2).cut (grid3.coords t) ((dat V c).after 2 t) = _
  rw [after_out]
  funext y
  obtain ⟨p, q, rfl⟩ : ∃ (p : Fin 1024) (q : Fin 64), y = ix2 p q := ⟨y 0, y 1, @eq_ix2 1024 64 y⟩
  rw [View.read_apply]
  show accAt V c (t.val + 1) (ix2 p q) = G V c (((cfg3.win 2).blk t).view.emb (ix2 p q))
  rw [after_last V c t hl p q]
  refine (G_apply V c _ _ q ?_ ?_).symm
  · show win3_2.index t (0 : Fin 2) * 1024 + 1 * p.val = 1024 * (t.val / 391) + p.val
    rw [i0]; omega
  · show win3_2.index t (1 : Fin 2) * 64 + 1 * q.val = q.val
    rw [i1]; omega

/-- So the result array ends holding `G`. -/
theorem out_eq (c : Dev nD) : (dat V c).arrAt 2 cfg3.N = G V c :=
  (dat V c).arrAt_eq_of_cover 2 (G V c) (flushed_eq V c) cover_out

/-- THE RESULT ARRAY, ENTRY BY ENTRY: node's row is the sum, over all chunks, of the gathered weighted rows of the edges whose
    row index, read unsigned, is that node. -/
theorem out_apply (c : Dev nD) (node : Fin 150528) (j : Fin 64) :
    ((dat V c).arrAt 2 cfg3.N : S150528x64.Idx → EReal) (ix2 node j)
      = (∑ ch : Fin 391, ∑ e : Fin 8192,
          (if ((V c main_v50 : S391x1x8192.Idx → BitVec 32) (ix3 ch (0 : Fin 1) e)).toNat = node.val
            then (V c main_v51 : S391x8192x64.Idx → EReal) (ix3 ch e j) else 0) : EReal) := by
  rw [out_eq V c]
  rfl

end Cert.KernelIdeal.Hand.R3

end
-- ==== Proof.KI.R4Val.lean ====
/-
  What this gather launch (grid: 196 edge chunks x 98 node tiles, the node tile innermost) leaves in its result array,
  entry by entry, over the extended reals, on any contents `V` of the unscoped buffers at its entry: entry (ch, e, j) is
  feature j of the row of the padded feature table (100352 = 98 * 1024 rows) that the column word of edge e of chunk ch
  names, read unsigned (the zero row when the word names no row of the table), times the edge's weight.

  The road. At a point (chunk, tile) the body adds to the accumulator the product of the chunk's one-hot matrix against the
  tile with the tile's 1024 feature rows; over the extended reals entry (e, j) of that product is the sum over the tile's
  nodes k of [the edge's column word is node 1024 * tile + k] * feature j of that node, and at most one term is not zero:
  the product's entry is feature j of the row the word names when that node lies in the tile, and 0 otherwise
  (`pay2_apply`, `tile_sum`). So after tile n of a chunk the accumulator's entry holds the selected row's feature if the
  row lies in the tiles up to n, and 0 otherwise (`accAt_chunk`, by induction on the tile; the first tile starts from the
  zero matrix); after the last tile that is the selected row of the whole padded table. The last tile stores the
  accumulator times the broadcast weight column (`pay3_apply`) as the chunk's block of the result, and the chunks' blocks
  cover the result array (`flushed_eq`, `out_eq`).
-/
import proofs.«130096_j52458730553647_1_alg».proof.Proof.KI.R4
import proofs.«130096_j52458730553647_1_alg».proof.Proof.Spmm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R4

open Cert.KernelIdeal Cert.KernelIdeal.Gen Cert.KernelIdeal.Hand.Sched
open Idealize.ShloMosaic Idealize.ShloMosaic.TcCoe Idealize.ShloMosaic.ValueIdx
open Idealize.ShloMosaic.Pipeline (Dat)
open Cert.Hand (rowOr0 rowOr0_of_lt rowOr0_of_ge)
open scoped BigOperators

/-! ## Layout operations the body uses, read at an index -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, k)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

end Layout

/-! ## The body's three stored values, read at an index, over the extended reals -/

/-- The reset stores the zero matrix. -/
theorem pay1_apply (i : S8192x64.Idx) : (k4_pay1 (F := Ideal)) i = 0 := by
  unfold k4_pay1
  rw [shapeCast_self]
  exact Ideal.ofBits_zero_f32

/-- A comparison and a sum of integer vectors at an index are the words' comparison and sum. -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = x i + y i := rfl

/-- A one-hot entry: the comparison bit, widened and converted, is 1 where the two words agree and 0 elsewhere. -/
theorem onehot_entry (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by
      show (BitVec.ofBool (a == a)).setWidth 32 = 1#32
      rw [beq_self_eq_true]; decide
    rw [e]
    show (((1#32 : BitVec 32).toInt : ℝ) : EReal) = 1
    norm_num
  · rw [if_neg h]
    have e : (IntOp.cmpi .eq a b).setWidth 32 = 0#32 := by
      show (BitVec.ofBool (a == b)).setWidth 32 = 0#32
      rw [beq_false_of_ne h]; decide
    rw [e]
    show (((0#32 : BitVec 32).toInt : ℝ) : EReal) = 0
    norm_num

/-- The word the body compares a column index with at column `k` of node tile `tile`: `k` plus the tile's first node. -/
abbrev nodeWord (tile k : ℕ) : BitVec 32 := BitVec.ofNat 32 k + BitVec.ofNat 32 tile * 1024#32

/-- The product's operand indices at result entry `(e, j)` and contraction position `q`: `(e, q)` and `(q, j)`. -/
theorem lhs_dot_free (i : S8192x64.Idx) (q : dot_S8192x1024_S1024x64_S8192x64_1_0_0_1_n_n.contr.Idx) :
    (dot_S8192x1024_S1024x64_S8192x64_1_0_0_1_n_n.lhsIdx i q 0).val = (i 0).val := by
  unfold DotDims.lhsIdx
  rw [dif_neg (show ¬(0 : Fin S8192x1024.rank) ∈ dot_S8192x1024_S1024x64_S8192x64_1_0_0_1_n_n.lhsBatch by decide),
    dif_pos (show (0 : Fin S8192x1024.rank) ∈ dot_S8192x1024_S1024x64_S8192x64_1_0_0_1_n_n.lhsNonContracting by decide)]
  rfl
theorem lhs_dot_contr (i : S8192x64.Idx) (q : dot_S8192x1024_S1024x64_S8192x64_1_0_0_1_n_n.contr.Idx) :
    (dot_S8192x1024_S1024x64_S8192x64_1_0_0_1_n_n.lhsIdx i q 1).val = (q ⟨0, by decide⟩).val :=
  dot_S8192x1024_S1024x64_S8192x64_1_0_0_1_n_n.lhsIdx_val_of_single rfl i q
theorem rhs_dot_contr (i : S8192x64.Idx) (q : dot_S8192x1024_S1024x64_S8192x64_1_0_0_1_n_n.contr.Idx) :
    (dot_S8192x1024_S1024x64_S8192x64_1_0_0_1_n_n.rhsIdx i q 0).val = (q ⟨0, by decide⟩).val :=
  dot_S8192x1024_S1024x64_S8192x64_1_0_0_1_n_n.rhsIdx_val_of_single rfl i q
theorem rhs_dot_free (i : S8192x64.Idx) (q : dot_S8192x1024_S1024x64_S8192x64_1_0_0_1_n_n.contr.Idx) :
    (dot_S8192x1024_S1024x64_S8192x64_1_0_0_1_n_n.rhsIdx i q 1).val = (i 1).val := by
  unfold DotDims.rhsIdx
  rw [dif_neg (show ¬(1 : Fin S1024x64.rank) ∈ dot_S8192x1024_S1024x64_S8192x64_1_0_0_1_n_n.rhsBatch by decide),
    dif_pos (show (1 : Fin S1024x64.rank) ∈ dot_S8192x1024_S1024x64_S8192x64_1_0_0_1_n_n.rhsNonContracting by decide)]
  rfl

/-- The accumulating store at entry `(e, j)`: the accumulator there plus, over the tile's 1024 nodes, the one-hot entry
    (1 where edge `e`'s column word is the node's) times the node's feature `j`. -/
theorem pay2_apply (i : grid4.Coords) (cols : Vec Ideal S1x1x8192 .i32) (feat : Vec Ideal S1024x64 .f32)
    (acc : Vec Ideal S8192x64 .f32) (e : Fin 8192) (j : Fin 64) :
    k4_pay2 i cols feat acc (ix2 e j)
      = acc (ix2 e j) + ∑ k : Fin 1024,
          (if cols (ix3 (0 : Fin 1) (0 : Fin 1) e) = nodeWord (i 1).val k.val then (1 : EReal) else 0) * feat (ix2 k j) := by
  unfold k4_pay2
  rw [shapeCast_self, addf_apply, shapeCast_self]
  refine congrArg (acc (ix2 e j) + ·) ?_
  simp only [matmul]
  rw [Ideal.matmul_constant_zero_apply,
    ← Equiv.sum_comp (contrEquiv1 dot_S8192x1024_S1024x64_S8192x64_1_0_0_1_n_n 1024 rfl rfl).symm]
  refine Finset.sum_congr rfl fun k _ => ?_
  have hk := contrEquiv1_symm_val dot_S8192x1024_S1024x64_S8192x64_1_0_0_1_n_n 1024 rfl rfl k
  have el : dot_S8192x1024_S1024x64_S8192x64_1_0_0_1_n_n.lhsIdx (ix2 e j)
      ((contrEquiv1 dot_S8192x1024_S1024x64_S8192x64_1_0_0_1_n_n 1024 rfl rfl).symm k) = ix2 e k :=
    funext fun a => Fin.ext (by
      match a with
      | ⟨0, _⟩ => exact lhs_dot_free _ _
      | ⟨1, _⟩ => exact (lhs_dot_contr _ _).trans hk)
  have er : dot_S8192x1024_S1024x64_S8192x64_1_0_0_1_n_n.rhsIdx (ix2 e j)
      ((contrEquiv1 dot_S8192x1024_S1024x64_S8192x64_1_0_0_1_n_n 1024 rfl rfl).symm k) = ix2 k j :=
    funext fun a => Fin.ext (by
      match a with
      | ⟨0, _⟩ => exact (rhs_dot_contr _ _).trans hk
      | ⟨1, _⟩ => exact rhs_dot_free _ _)
  rw [el, er, truncf_apply, truncf_apply, sitofp_apply, extui_apply, cmpi_apply, onehot_entry, addi_apply,
    broadcastTo_a1_ab_apply, shapeCast_a_a1_apply, shapeCast_11a_a_apply, iota_single_apply, broadcast_apply]
  rfl

/-- The scaled store at entry `(0, e, j)`: the accumulator's entry `(e, j)` times edge `e`'s weight. -/
theorem pay3_apply (vals : Vec Ideal S1x1x8192 .f32) (acc : Vec Ideal S8192x64 .f32) (u : Fin 1) (e : Fin 8192) (j : Fin 64) :
    k4_pay3 vals acc (ix3 u e j) = acc (ix2 e j) * vals (ix3 (0 : Fin 1) (0 : Fin 1) e) := by
  unfold k4_pay3
  rw [shapeCast_ab_1ab_apply, mulf_apply, broadcastTo_a1_ab_apply, shapeCast_a_a1_apply, shapeCast_11a_a_apply]

/-! ## One node tile's product, and the tiles before a point -/

/-- The compared word is node `1024 * tile + k` as a number, as long as that is below 2^32. -/
theorem nodeWord_toNat {tile k : ℕ} (h : 1024 * tile + k < 4294967296) : (nodeWord tile k).toNat = 1024 * tile + k := by
  show (BitVec.ofNat 32 k + BitVec.ofNat 32 tile * BitVec.ofNat 32 1024).toNat = _
  rw [BitVec.toNat_add, BitVec.toNat_mul, BitVec.toNat_ofNat, BitVec.toNat_ofNat, BitVec.toNat_ofNat]
  omega

theorem eq_nodeWord_iff (w : BitVec 32) {tile k : ℕ} (h : 1024 * tile + k < 4294967296) :
    w = nodeWord tile k ↔ w.toNat = 1024 * tile + k := by
  rw [← BitVec.toNat_inj, nodeWord_toNat h]

/-- One node tile's product at feature `j`, for an edge whose column word is `w`: the one-hot row selects the feature row
    the word names when that node lies in the tile (`feat` holds the table's rows `1024 * tile …`), and nothing otherwise. -/
theorem tile_sum (x : Fin 100352 → Fin 64 → EReal) (tile : ℕ) (htile : tile < 98) (feat : Vec Ideal S1024x64 .f32)
    (hfeat : ∀ (k : Fin 1024) (j : Fin 64), feat (ix2 k j) = x ⟨1024 * tile + k.val, by have := k.isLt; omega⟩ j)
    (w : BitVec 32) (j : Fin 64) :
    ∑ k : Fin 1024, (if w = nodeWord tile k.val then (1 : EReal) else 0) * feat (ix2 k j)
      = if 1024 * tile ≤ w.toNat ∧ w.toNat < 1024 * tile + 1024 then rowOr0 x w.toNat j else 0 := by
  by_cases hw : 1024 * tile ≤ w.toNat ∧ w.toNat < 1024 * tile + 1024
  · rw [if_pos hw]
    have hkw : w.toNat - 1024 * tile < 1024 := by omega
    rw [Finset.sum_eq_single (⟨w.toNat - 1024 * tile, hkw⟩ : Fin 1024)]
    · have hsel : w = nodeWord tile (w.toNat - 1024 * tile) := (eq_nodeWord_iff w (by omega)).mpr (by omega)
      rw [if_pos hsel, one_mul, hfeat, rowOr0_of_lt x (show w.toNat < 100352 by omega)]
      exact congrArg (fun q => x q j) (Fin.ext (by show 1024 * tile + (w.toNat - 1024 * tile) = w.toNat; omega))
    · intro k _ hk
      have hne : ¬w = nodeWord tile k.val := fun h => hk (Fin.ext (by
        have := (eq_nodeWord_iff w (by have := k.isLt; omega)).mp h
        show k.val = w.toNat - 1024 * tile; omega))
      rw [if_neg hne, zero_mul]
    · intro h; exact absurd (Finset.mem_univ _) h
  · rw [if_neg hw]
    refine Finset.sum_eq_zero fun k _ => ?_
    have hne : ¬w = nodeWord tile k.val := fun h => hw (by
      have := (eq_nodeWord_iff w (by have := k.isLt; omega)).mp h
      have := k.isLt
      omega)
    rw [if_neg hne, zero_mul]

/-- The selected feature row as far as the node tiles before tile `n` supply it: the row the word names when that node lies
    in one of those tiles, the zero row otherwise. -/
def partRow (x : Fin 100352 → Fin 64 → EReal) (n q : ℕ) (j : Fin 64) : EReal := if q < 1024 * n then rowOr0 x q j else 0

theorem partRow_zero (x : Fin 100352 → Fin 64 → EReal) (q : ℕ) (j : Fin 64) : partRow x 0 q j = 0 := by
  unfold partRow; rw [if_neg (by omega)]

theorem partRow_succ (x : Fin 100352 → Fin 64 → EReal) (n q : ℕ) (j : Fin 64) :
    partRow x (n + 1) q j = partRow x n q j + (if 1024 * n ≤ q ∧ q < 1024 * n + 1024 then rowOr0 x q j else 0) := by
  unfold partRow
  by_cases hib : q < 1024 * n
  · rw [if_pos hib, if_pos (by omega), if_neg (by omega), add_zero]
  · by_cases hic : q < 1024 * (n + 1)
    · rw [if_neg hib, if_pos hic, if_pos (by omega), zero_add]
    · rw [if_neg hib, if_neg hic, if_neg (by omega), zero_add]

/-- All 98 tiles supply the whole table: a word past the table names the zero row. -/
theorem partRow_last (x : Fin 100352 → Fin 64 → EReal) (q : ℕ) (j : Fin 64) : partRow x 98 q j = rowOr0 x q j := by
  unfold partRow
  by_cases h : q < 1024 * 98
  · rw [if_pos h]
  · rw [if_neg h, rowOr0_of_ge x (by omega)]

/-! ## The blocks a point reads, as entries of the arrays the region finds -/

variable (V : (c : Dev nD) → (b : Ref sig .tc) → Buf (Elt Ideal) ((c : Thread nD τ).loc b))

/-- The padded feature table, the column words and the edge weights as the region finds them. -/
abbrev featTab (c : Dev nD) : Fin 100352 → Fin 64 → EReal :=
  fun q j => (V c main_v86 : S100352x64.Idx → EReal) (ix2 q j)
abbrev colWord (c : Dev nD) (ch : Fin 196) (e : Fin 8192) : BitVec 32 :=
  (V c main_v87 : S196x1x8192.Idx → BitVec 32) (ix3 ch (0 : Fin 1) e)
abbrev weight (c : Dev nD) (ch : Fin 196) (e : Fin 8192) : EReal :=
  (V c main_v88 : S196x1x8192.Idx → EReal) (ix3 ch (0 : Fin 1) e)

/-- A point's coordinates: its chunk is the quotient and its node tile the remainder by the number of tiles. -/
theorem coords_chunk (t : Fin cfg4.N) : ((grid4.coords t) 0).val = t.val / 98 := by
  have hN : cfg4.N = 19208 := N_4
  have ht := t.isLt
  have hs : grid4.stride 0 = 98 := by decide
  show t.val / grid4.stride 0 % 196 = t.val / 98
  rw [hs]; omega

theorem coords_tile (t : Fin cfg4.N) : ((grid4.coords t) 1).val = t.val % 98 := by
  have hs : grid4.stride 1 = 1 := by decide
  show t.val / grid4.stride 1 % 98 = t.val % 98
  rw [hs, Nat.div_one]

/-- The block indices at a point: the chunk's row of the column words and of the weights and of the result, the node
    tile's rows of the feature table. -/
theorem index_cols (t : Fin cfg4.N) : win4_0.index t 0 = t.val / 98 ∧ win4_0.index t 1 = 0 ∧ win4_0.index t 2 = 0 := by
  have hN : cfg4.N = 19208 := N_4
  have ht := t.isLt
  refine ⟨?_, rfl, rfl⟩
  show (BitVec.ofNat 32 ((grid4.coords t) 0).val).toNat = _
  rw [BitVec.toNat_ofNat, coords_chunk]; omega

theorem index_vals (t : Fin cfg4.N) : win4_1.index t 0 = t.val / 98 ∧ win4_1.index t 1 = 0 ∧ win4_1.index t 2 = 0 := by
  have hN : cfg4.N = 19208 := N_4
  have ht := t.isLt
  refine ⟨?_, rfl, rfl⟩
  show (BitVec.ofNat 32 ((grid4.coords t) 0).val).toNat = _
  rw [BitVec.toNat_ofNat, coords_chunk]; omega

theorem index_feat (t : Fin cfg4.N) : win4_2.index t 0 = t.val % 98 ∧ win4_2.index t 1 = 0 := by
  refine ⟨?_, rfl⟩
  show (BitVec.ofNat 32 ((grid4.coords t) 1).val).toNat = _
  rw [BitVec.toNat_ofNat, coords_tile]; omega

theorem index_out (t : Fin cfg4.N) : win4_3.index t 0 = t.val / 98 ∧ win4_3.index t 1 = 0 ∧ win4_3.index t 2 = 0 := by
  have hN : cfg4.N = 19208 := N_4
  have ht := t.isLt
  refine ⟨?_, rfl, rfl⟩
  show (BitVec.ofNat 32 ((grid4.coords t) 0).val).toNat = _
  rw [BitVec.toNat_ofNat, coords_chunk]; omega

/-- The column-word block at a point is the chunk's row of the column words. -/
theorem colsBlk_apply (c : Dev nD) (t : Fin cfg4.N) (e : Fin 8192) (ch : Fin 196) (hch : ch.val = t.val / 98) :
    colsBlk V c t (ix3 (0 : Fin 1) (0 : Fin 1) e) = colWord V c ch e := by
  obtain ⟨hia, hib, hic⟩ := index_cols t
  show iblk V c 0 t _ = _
  unfold iblk
  rw [View.read_apply]
  show V c main_v87 _ = V c main_v87 _
  refine congrArg _ (funext fun a => Fin.ext ?_)
  match a with
  | ⟨0, _⟩ => show win4_0.index t 0 * 1 + 1 * 0 = ch.val; rw [hia, hch]; omega
  | ⟨1, _⟩ => show win4_0.index t 1 * 1 + 1 * 0 = 0; rw [hib]
  | ⟨2, _⟩ => show win4_0.index t 2 * 8192 + 1 * e.val = e.val; rw [hic]; omega

/-- The weight block at a point is the chunk's row of the weights. -/
theorem valsBlk_apply (c : Dev nD) (t : Fin cfg4.N) (e : Fin 8192) (ch : Fin 196) (hch : ch.val = t.val / 98) :
    valsBlk V c t (ix3 (0 : Fin 1) (0 : Fin 1) e) = weight V c ch e := by
  obtain ⟨hia, hib, hic⟩ := index_vals t
  show iblk V c 1 t _ = _
  unfold iblk
  rw [View.read_apply]
  show V c main_v88 _ = V c main_v88 _
  refine congrArg _ (funext fun a => Fin.ext ?_)
  match a with
  | ⟨0, _⟩ => show win4_1.index t 0 * 1 + 1 * 0 = ch.val; rw [hia, hch]; omega
  | ⟨1, _⟩ => show win4_1.index t 1 * 1 + 1 * 0 = 0; rw [hib]
  | ⟨2, _⟩ => show win4_1.index t 2 * 8192 + 1 * e.val = e.val; rw [hic]; omega

/-- The feature block at a point is the node tile's 1024 rows of the padded table. -/
theorem featBlk_apply (c : Dev nD) (t : Fin cfg4.N) (k : Fin 1024) (j : Fin 64) (q : Fin 100352)
    (hq : q.val = 1024 * (t.val % 98) + k.val) :
    featBlk V c t (ix2 k j) = featTab V c q j := by
  obtain ⟨hia, hib⟩ := index_feat t
  show iblk V c 2 t _ = _
  unfold iblk
  rw [View.read_apply]
  show V c main_v86 _ = V c main_v86 _
  refine congrArg _ (funext fun a => Fin.ext ?_)
  match a with
  | ⟨0, _⟩ => show win4_2.index t 0 * 1024 + 1 * k.val = q.val; rw [hia, hq]; omega
  | ⟨1, _⟩ => show win4_2.index t 1 * 64 + 1 * j.val = j.val; rw [hib]; omega

/-! ## The accumulator across a chunk's tiles -/

/-- One point of the recursion at entry `(e, j)`: if the accumulator the point starts from (the zero matrix at a chunk's
    first tile) holds what the tiles before `n` supply, the point leaves what the tiles before `n + 1` supply. -/
theorem accStep_apply (c : Dev nD) (ch : Fin 196) (n : ℕ) (hn : n < 98) (ht : 98 * ch.val + n < cfg4.N)
    (a : Vec Ideal S8192x64 .f32) (e : Fin 8192) (j : Fin 64)
    (ha : (if n = 0 then (k4_pay1 (F := Ideal)) else a) (ix2 e j) = partRow (featTab V c) n (colWord V c ch e).toNat j) :
    accStep V c ⟨98 * ch.val + n, ht⟩ a (ix2 e j) = partRow (featTab V c) (n + 1) (colWord V c ch e).toNat j := by
  have hmod : (98 * ch.val + n) % 98 = n := by omega
  have hdiv : (98 * ch.val + n) / 98 = ch.val := by omega
  unfold accStep
  refine (pay2_apply _ _ _ _ e j).trans ?_
  rw [partRow_succ]
  congr 1
  · show (if (98 * ch.val + n) % 98 = 0 then (k4_pay1 (F := Ideal)) else a) (ix2 e j) = _
    rw [hmod]; exact ha
  · rw [colsBlk_apply V c _ e ch hdiv.symm, coords_tile]
    show ∑ k : Fin 1024, (if colWord V c ch e = nodeWord ((98 * ch.val + n) % 98) k.val then (1 : EReal) else 0) * _ = _
    rw [hmod]
    exact tile_sum (featTab V c) n hn _ (fun k j => featBlk_apply V c _ k j _ (by show _ = 1024 * ((98 * ch.val + n) % 98) + k.val; rw [hmod])) _ j

/-- After tile `n` of chunk `ch` the accumulator's entry `(e, j)` holds what the tiles up to `n` supply of the row edge
    `e`'s column word names. -/
theorem accAt_chunk (c : Dev nD) (ch : Fin 196) (e : Fin 8192) (j : Fin 64) : ∀ n, n < 98 →
    accAt V c (98 * ch.val + n + 1) (ix2 e j) = partRow (featTab V c) (n + 1) (colWord V c ch e).toNat j
  | 0, hn => by
    have hN : cfg4.N = 19208 := N_4
    have hch := ch.isLt
    have ht : 98 * ch.val + 0 < cfg4.N := by omega
    refine (congrFun (accAt_succ V c ⟨98 * ch.val + 0, ht⟩) (ix2 e j)).trans ?_
    refine accStep_apply V c ch 0 hn ht _ e j ?_
    rw [if_pos rfl, pay1_apply, partRow_zero]
  | n + 1, hn => by
    have hN : cfg4.N = 19208 := N_4
    have hch := ch.isLt
    have ht : 98 * ch.val + (n + 1) < cfg4.N := by omega
    refine (congrFun (accAt_succ V c ⟨98 * ch.val + (n + 1), ht⟩) (ix2 e j)).trans ?_
    refine accStep_apply V c ch (n + 1) hn ht _ e j ?_
    rw [if_neg (Nat.succ_ne_zero n)]
    exact accAt_chunk c ch e j n (by omega)

/-! ## From the blocks to the result array -/

/-- The result array: entry `(ch, e, j)` is feature `j` of the row the edge's column word names, times the edge's weight. -/
def outArr (c : Dev nD) : S196x8192x64.Idx → EReal :=
  fun i => rowOr0 (featTab V c) (colWord V c (i 0) (i 1)).toNat (i 2) * weight V c (i 0) (i 1)

theorem outArr_apply (c : Dev nD) (i : S196x8192x64.Idx) (ch : Fin 196) (e : Fin 8192) (j : Fin 64)
    (hia : (i 0).val = ch.val) (hib : (i 1).val = e.val) (hic : (i 2).val = j.val) :
    outArr V c i = rowOr0 (featTab V c) (colWord V c ch e).toNat j * weight V c ch e := by
  obtain rfl : i = ix3 ch e j := funext fun a => Fin.ext (by
    match a with
    | ⟨0, _⟩ => exact hia
    | ⟨1, _⟩ => exact hib
    | ⟨2, _⟩ => exact hic)
  rfl

/-- What a chunk's last tile writes back is the chunk's block of the result array. -/
theorem flushed_eq (c : Dev nD) (t : Fin cfg4.N) (hf : (cfg4.win 3).flush t = true) :
    (dat V c).flushed 3 t = ((cfg4.win 3).blk t).view.read (Elt Ideal) (outArr V c) := by
  have hN : cfg4.N = 19208 := N_4
  have hlast : t.val % 98 = 97 := (flush4_3 t).mp hf
  have htl := t.isLt
  obtain ⟨hia, hib, hic⟩ := index_out t
  show (cfg4.win 3).cut (grid4.coords t) ((dat V c).after 3 t) = _
  rw [after_out]
  funext y
  obtain ⟨u, e, j, rfl⟩ : ∃ (u : Fin 1) (e : Fin 8192) (j : Fin 64), y = ix3 u e j := ⟨y 0, y 1, y 2, eq_ix3 y⟩
  show k4_pay3 (valsBlk V c t) (accAt V c (t.val + 1)) (ix3 u e j) = outArr V c (((cfg4.win 3).blk t).view.emb (ix3 u e j))
  have hu : u.val = 0 := by omega
  have hch : t.val / 98 < 196 := by omega
  rw [pay3_apply, outArr_apply V c _ ⟨t.val / 98, hch⟩ e j
    (by show win4_3.index t 0 * 1 + 1 * u.val = t.val / 98; rw [hia, hu]; omega)
    (by show win4_3.index t 1 * 8192 + 1 * e.val = e.val; rw [hib]; omega)
    (by show win4_3.index t 2 * 64 + 1 * j.val = j.val; rw [hic]; omega),
    valsBlk_apply V c t e ⟨t.val / 98, hch⟩ rfl]
  have hts : t.val + 1 = 98 * (t.val / 98) + 97 + 1 := by omega
  rw [hts, accAt_chunk V c ⟨t.val / 98, hch⟩ e j 97 (by omega), partRow_last]

/-- The result array after the region: the chunks' blocks cover it. -/
theorem out_eq (c : Dev nD) : (dat V c).arrAt 3 cfg4.N = outArr V c :=
  (dat V c).arrAt_eq_of_cover 3 (outArr V c) (flushed_eq V c) fun i => by
    have hN : cfg4.N = 19208 := N_4
    have hca : (i 0).val < 196 := (i 0).isLt
    have hcb : (i 1).val < 8192 := (i 1).isLt
    have hcc : (i 2).val < 64 := (i 2).isLt
    have ht : 98 * (i 0).val + 97 < cfg4.N := by omega
    obtain ⟨hia, hib, hic⟩ := index_out ⟨98 * (i 0).val + 97, ht⟩
    refine ⟨⟨98 * (i 0).val + 97, ht⟩, (flush4_3 _).mpr (by show (98 * (i 0).val + 97) % 98 = 97; omega), ?_⟩
    show i ∈ ((View.whole main_v90).slice (win4_3.rect ⟨98 * (i 0).val + 97, ht⟩)).set
    rw [View.set_slice_whole, Rect.mem_set_unit]
    intro a
    match a with
    | ⟨0, _⟩ =>
      show win4_3.index ⟨98 * (i 0).val + 97, ht⟩ 0 * 1 ≤ (i 0).val ∧ (i 0).val < win4_3.index ⟨98 * (i 0).val + 97, ht⟩ 0 * 1 + 1
      rw [hia]; show (98 * (i 0).val + 97) / 98 * 1 ≤ (i 0).val ∧ (i 0).val < (98 * (i 0).val + 97) / 98 * 1 + 1; omega
    | ⟨1, _⟩ =>
      show win4_3.index ⟨98 * (i 0).val + 97, ht⟩ 1 * 8192 ≤ (i 1).val ∧ (i 1).val < win4_3.index ⟨98 * (i 0).val + 97, ht⟩ 1 * 8192 + 8192
      rw [hib]; omega
    | ⟨2, _⟩ =>
      show win4_3.index ⟨98 * (i 0).val + 97, ht⟩ 2 * 64 ≤ (i 2).val ∧ (i 2).val < win4_3.index ⟨98 * (i 0).val + 97, ht⟩ 2 * 64 + 64
      rw [hic]; omega

/-- THE RESULT, entry by entry: entry `(ch, e, j)` of the region's result array is feature `j` of the padded table's row that
    the column word of edge `e` of chunk `ch` names (read unsigned; the zero row past the table), times the edge's weight. -/
theorem out_apply (c : Dev nD) (ch : Fin 196) (e : Fin 8192) (j : Fin 64) :
    ((dat V c).arrAt 3 cfg4.N : S196x8192x64.Idx → EReal) (ValueIdx.ix3 ch e j)
      = Cert.Hand.rowOr0 (fun (q : Fin 100352) (j : Fin 64) => (V c main_v86 : S100352x64.Idx → EReal) (ValueIdx.ix2 q j))
          ((V c main_v87 : S196x1x8192.Idx → BitVec 32) (ValueIdx.ix3 ch 0 e)).toNat j
        * (V c main_v88 : S196x1x8192.Idx → EReal) (ValueIdx.ix3 ch 0 e) := by
  rw [out_eq]
  rfl

end Cert.KernelIdeal.Hand.R4

end
-- ==== Proof.KI.R5Val.lean ====
/-
  What this scatter launch leaves in its result array, entry by entry, at the ideal values and on any contents `V` of the
  unscoped buffers at its entry: node's row is the sum, over all edge chunks, of the gathered weighted rows of the edges
  whose row index, read unsigned, is that node (`out_apply`).

  The steps. (1) One point's payload at an entry (p, q) of the accumulator: what the accumulator held plus the product of
  the one-hot matrix with the chunk's rows there. The one-hot entry (p, e) is 1 when the word of edge e equals the word
  of 1024 * tile + p, and that number is below 2^32, so the words agree iff the edge's row index, read unsigned, is that
  number; 1 * x = x and 0 * x = 0 in the extended reals, so the product's entry is the sum of the chunk's rows whose row
  index is node 1024 * tile + p (`step_apply`). (2) The grid is (tile, chunk), the chunk innermost: point t has tile
  t / 196 and chunk t % 196, the inputs' blocks at t are rows chunk of their arrays and the result's block is block
  (tile, 0) (`index_rows`, `index_wg`, `index_out`, `rows_apply`, `wg_apply`). (3) The accumulator is reset at a
  tile's first chunk and steps at every chunk, so after the tile's chunks 0 … n it holds the sum of their addends
  (`accAt_run`, by induction on n), and after the last chunk the whole sum (`after_last`). (4) The result's block is
  written back at each tile's last chunk and those blocks tile the array, so the array ends holding that sum at every
  entry (`flushed_eq`, `cover_out`, `out_eq`).
-/
import proofs.«130096_j52458730553647_1_alg».proof.Proof.KI.R5
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R5

open Cert.KernelIdeal Cert.KernelIdeal.Gen Cert.KernelIdeal.Hand.Sched
open Idealize.ShloMosaic Idealize.ShloMosaic.TcCoe Idealize.ShloMosaic.ValueIdx
open Idealize.SL Idealize.SL.RA
open Idealize.ShloMosaic.Pipeline (Dat Cfg Window)
open scoped BigOperators

/-! ## One point's payload at an entry -/

/-- A word is the sum of an offset's word and a base's word, the total below 2^32, iff its unsigned value is the total. -/
theorem word_eq_iff (tile p : ℕ) (h : 1024 * tile + p < 2 ^ 32) (x : BitVec 32) :
    (BitVec.ofNat 32 p + BitVec.ofNat 32 tile * 1024#32 = x) ↔ x.toNat = 1024 * tile + p := by
  have h' : 1024 * tile + p < 4294967296 := by simpa using h
  constructor
  · intro e
    subst e
    rw [BitVec.toNat_add, BitVec.toNat_mul, BitVec.toNat_ofNat, BitVec.toNat_ofNat]
    show (p % 4294967296 + tile % 4294967296 * 1024 % 4294967296) % 4294967296 = 1024 * tile + p
    omega
  · intro e
    apply BitVec.eq_of_toNat_eq
    rw [BitVec.toNat_add, BitVec.toNat_mul, BitVec.toNat_ofNat, BitVec.toNat_ofNat, e]
    show (p % 4294967296 + tile % 4294967296 * 1024 % 4294967296) % 4294967296 = 1024 * tile + p
    omega

/-- A comparison bit widened to a word and converted signed: 1 where the two words agree, 0 elsewhere. -/
theorem sitofp_extui_cmpi_eq (a b : BitVec 32) :
    (FloatOps.sitofp .f32 ((IntOp.cmpi .eq a b).setWidth 32) : Ideal .f32) = if a = b then (1 : EReal) else 0 := by
  show ((((IntOp.cmpi .eq a b).setWidth 32).toInt : ℝ) : EReal) = _
  by_cases h : a = b
  · subst h; rw [if_pos rfl]; simp [IntOp.cmpi]
  · have hb : (a == b) = false := beq_eq_false_iff_ne.mpr h
    rw [if_neg h]; simp [IntOp.cmpi, hb]

/-- A [1, 1, a] array cast to [a] reads, at i, the operand at (0, 0, i). -/
theorem shapeCast_unit_unit_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-! The product's operand indices, axis by axis: the left operand is read at (row, contraction position), the right at
    (contraction position, column). -/

theorem lhs_row (i : S1024x64.Idx) (q : dot_S1024x8192_S8192x64_S1024x64_1_0_0_1_n_n.contr.Idx) :
    (dot_S1024x8192_S8192x64_S1024x64_1_0_0_1_n_n.lhsIdx i q 0).val = (i 0).val := by
  unfold DotDims.lhsIdx
  rw [dif_neg (show ¬(0 : Fin S1024x8192.rank) ∈ dot_S1024x8192_S8192x64_S1024x64_1_0_0_1_n_n.lhsBatch by decide),
    dif_pos (show (0 : Fin S1024x8192.rank) ∈ dot_S1024x8192_S8192x64_S1024x64_1_0_0_1_n_n.lhsNonContracting by decide)]
  rfl

theorem lhs_contr (i : S1024x64.Idx) (q : dot_S1024x8192_S8192x64_S1024x64_1_0_0_1_n_n.contr.Idx) :
    (dot_S1024x8192_S8192x64_S1024x64_1_0_0_1_n_n.lhsIdx i q 1).val = (q ⟨0, by decide⟩).val :=
  dot_S1024x8192_S8192x64_S1024x64_1_0_0_1_n_n.lhsIdx_val_of_single rfl i q

theorem rhs_contr (i : S1024x64.Idx) (q : dot_S1024x8192_S8192x64_S1024x64_1_0_0_1_n_n.contr.Idx) :
    (dot_S1024x8192_S8192x64_S1024x64_1_0_0_1_n_n.rhsIdx i q 0).val = (q ⟨0, by decide⟩).val :=
  dot_S1024x8192_S8192x64_S1024x64_1_0_0_1_n_n.rhsIdx_val_of_single rfl i q

theorem rhs_col (i : S1024x64.Idx) (q : dot_S1024x8192_S8192x64_S1024x64_1_0_0_1_n_n.contr.Idx) :
    (dot_S1024x8192_S8192x64_S1024x64_1_0_0_1_n_n.rhsIdx i q 1).val = (i 1).val := by
  unfold DotDims.rhsIdx
  rw [dif_neg (show ¬(1 : Fin S8192x64.rank) ∈ dot_S1024x8192_S8192x64_S1024x64_1_0_0_1_n_n.rhsBatch by decide),
    dif_pos (show (1 : Fin S8192x64.rank) ∈ dot_S1024x8192_S8192x64_S1024x64_1_0_0_1_n_n.rhsNonContracting by decide)]
  rfl

/-- One entry of the one-hot matrix: 1 where the edge's row index is the tile's node p, 0 elsewhere. -/
theorem onehot_apply (tile : ℕ) (r : Vec Ideal S1x1x8192 .i32) (p : Fin 1024) (e : Fin 8192) (hb : 1024 * tile + p.val < 2 ^ 32) :
    (truncf .bf16
      (sitofp .f32
        (extui 32
          (cmpi .eq
            (addi (iota .tc S1024x8192 32 [0] iota_S1024x8192_d0_w32)
              (broadcast S1024x8192 (Scalar.muli (BitVec.ofNat 32 tile) 1024#32)))
            (broadcastTo S1024x8192
              (shapeCast S1x8192 (shapeCast S8192 r shapeCasts_S1x1x8192_S8192) shapeCasts_S8192_S1x8192)
              broadcasts_S1x8192_S1024x8192))
          natLt_1_32))
      bitsLt_bf16_f32 : FVec Ideal S1024x8192 .bf16) (ix2 p e)
      = if ((r (ix3 (0 : Fin 1) (0 : Fin 1) e) : BitVec 32)).toNat = 1024 * tile + p.val then (1 : EReal) else 0 := by
  have hrow : broadcastTo S1024x8192
      (shapeCast S1x8192 (shapeCast S8192 r shapeCasts_S1x1x8192_S8192) shapeCasts_S8192_S1x8192)
      broadcasts_S1x8192_S1024x8192 (ix2 p e) = r (ix3 (0 : Fin 1) (0 : Fin 1) e) := by
    rw [broadcastTo_1b_ab_apply, shapeCast_a_1a_apply, shapeCast_unit_unit_apply]
  show (FloatOps.sitofp .f32 ((IntOp.cmpi .eq
      (IntOp.addi (iota .tc S1024x8192 32 [0] iota_S1024x8192_d0_w32 (ix2 p e)) (Scalar.muli (BitVec.ofNat 32 tile) 1024#32))
      (broadcastTo S1024x8192
        (shapeCast S1x8192 (shapeCast S8192 r shapeCasts_S1x1x8192_S8192) shapeCasts_S8192_S1x8192)
        broadcasts_S1x8192_S1024x8192 (ix2 p e))).setWidth 32) : Ideal .f32) = _
  rw [hrow, iota_single_apply, sitofp_extui_cmpi_eq]
  exact if_congr (word_eq_iff tile p.val hb _) rfl rfl

/-- THE STEP AT AN ENTRY: the payload at (p, q) is what the accumulator held there plus the chunk's rows, at feature q, of
    the edges whose row index, read unsigned, is node 1024 * tile + p. -/
theorem step_apply (i : grid5.Coords) (r : Vec Ideal S1x1x8192 .i32) (w : Vec Ideal S1x8192x64 .f32) (a : Vec Ideal S1024x64 .f32)
    (p : Fin 1024) (q : Fin 64) (hb : 1024 * (i 0).val + p.val < 2 ^ 32) :
    k5_pay2 (F := Ideal) i r w a (ix2 p q)
      = a (ix2 p q) + ∑ e : Fin 8192,
          (if ((r (ix3 (0 : Fin 1) (0 : Fin 1) e) : BitVec 32)).toNat = 1024 * (i 0).val + p.val then (w (ix3 (0 : Fin 1) e q) : EReal) else 0) := by
  unfold k5_pay2
  dsimp only
  rw [shapeCast_self, addf_apply]
  congr 1
  refine (Ideal.matmul_constant_zero_apply dot_S1024x8192_S8192x64_S1024x64_1_0_0_1_n_n none _ _ (ix2 p q)).trans ?_
  rw [← Equiv.sum_comp (contrEquiv1 dot_S1024x8192_S8192x64_S1024x64_1_0_0_1_n_n 8192 rfl rfl).symm]
  refine Finset.sum_congr rfl fun k _ => ?_
  have hk := contrEquiv1_symm_val dot_S1024x8192_S8192x64_S1024x64_1_0_0_1_n_n 8192 rfl rfl k
  have el : dot_S1024x8192_S8192x64_S1024x64_1_0_0_1_n_n.lhsIdx (ix2 p q)
      ((contrEquiv1 dot_S1024x8192_S8192x64_S1024x64_1_0_0_1_n_n 8192 rfl rfl).symm k) = ix2 p k := funext fun ax => Fin.ext (by
    match ax with
    | ⟨0, _⟩ => exact lhs_row _ _
    | ⟨1, _⟩ => exact (lhs_contr _ _).trans hk)
  have er : dot_S1024x8192_S8192x64_S1024x64_1_0_0_1_n_n.rhsIdx (ix2 p q)
      ((contrEquiv1 dot_S1024x8192_S8192x64_S1024x64_1_0_0_1_n_n 8192 rfl rfl).symm k) = ix2 k q := funext fun ax => Fin.ext (by
    match ax with
    | ⟨0, _⟩ => exact (rhs_contr _ _).trans hk
    | ⟨1, _⟩ => exact rhs_col _ _)
  rw [el, er, onehot_apply (i 0).val r p k hb, truncf_apply, shapeCast_1ab_ab_apply]
  split
  · rw [one_mul]
  · rw [zero_mul]

variable (V : (c : Dev nD) → (b : Ref sig .tc) → Buf (Elt Ideal) ((c : Thread nD τ).loc b))

/-! ## The grid and the windows' block indices, read off the point's number -/

theorem point_lt (t : Fin cfg5.N) : t.val < 19208 := Nat.lt_of_lt_of_eq t.isLt N_5

/-- A point's tile is its number divided by the chunks per tile. -/
theorem coords_tile (t : Fin cfg5.N) : (grid5.coords t 0).val = t.val / 196 := by
  have hN := point_lt t
  show t.val / grid5.stride 0 % grid5.bound 0 = _
  rw [show grid5.stride 0 = 196 from by decide, show grid5.bound 0 = 98 from rfl]
  omega

/-- A point's chunk is its number modulo the chunks per tile. -/
theorem coords_chunk (t : Fin cfg5.N) : (grid5.coords t 1).val = t.val % 196 := by
  show t.val / grid5.stride 1 % grid5.bound 1 = _
  rw [show grid5.stride 1 = 1 from by decide, show grid5.bound 1 = 196 from rfl, Nat.div_one]

/-- The row indices' block at a point is block (chunk, 0, 0). -/
theorem index_rows (t : Fin cfg5.N) :
    win5_0.index t (0 : Fin 3) = t.val % 196 ∧ win5_0.index t (1 : Fin 3) = 0 ∧ win5_0.index t (2 : Fin 3) = 0 := by
  refine ⟨?_, rfl, rfl⟩
  show (BitVec.ofNat 32 (grid5.coords t 1).val).toNat = _
  rw [BitVec.toNat_ofNat, coords_chunk]
  show t.val % 196 % 4294967296 = t.val % 196
  omega

/-- The gathered rows' block at a point is block (chunk, 0, 0). -/
theorem index_wg (t : Fin cfg5.N) :
    win5_1.index t (0 : Fin 3) = t.val % 196 ∧ win5_1.index t (1 : Fin 3) = 0 ∧ win5_1.index t (2 : Fin 3) = 0 := by
  refine ⟨?_, rfl, rfl⟩
  show (BitVec.ofNat 32 (grid5.coords t 1).val).toNat = _
  rw [BitVec.toNat_ofNat, coords_chunk]
  show t.val % 196 % 4294967296 = t.val % 196
  omega

/-- The result's block at a point is block (tile, 0). -/
theorem index_out (t : Fin cfg5.N) :
    win5_2.index t (0 : Fin 2) = t.val / 196 ∧ win5_2.index t (1 : Fin 2) = 0 := by
  have hN := point_lt t
  refine ⟨?_, rfl⟩
  show (BitVec.ofNat 32 (grid5.coords t 0).val).toNat = _
  rw [BitVec.toNat_ofNat, coords_tile]
  show t.val / 196 % 4294967296 = t.val / 196
  omega

/-! ## The input blocks as rows of their arrays -/

/-- The chunk's row indices are row chunk of the row-index array. -/
theorem rows_apply (c : Dev nD) (t : Fin cfg5.N) (e : Fin 8192) (ch : Fin 196) (hch : ch.val = t.val % 196) :
    (rowsBlk V c t) (ix3 (0 : Fin 1) (0 : Fin 1) e)
      = (V c main_v89 : S196x1x8192.Idx → BitVec 32) (ix3 ch (0 : Fin 1) e) := by
  obtain ⟨i0, i1, i2⟩ := index_rows t
  unfold rowsBlk iblk
  rw [View.read_apply]
  show (V c main_v89 : S196x1x8192.Idx → BitVec 32) _ = _
  congr 1
  funext a
  apply Fin.ext
  match a with
  | ⟨0, _⟩ => show win5_0.index t (0 : Fin 3) * 1 + 1 * 0 = ch.val; rw [i0, hch]; omega
  | ⟨1, _⟩ => show win5_0.index t (1 : Fin 3) * 1 + 1 * 0 = 0; rw [i1]
  | ⟨2, _⟩ => show win5_0.index t (2 : Fin 3) * 8192 + 1 * e.val = e.val; rw [i2]; omega

/-- The chunk's gathered rows are row chunk of the gathered array. -/
theorem wg_apply (c : Dev nD) (t : Fin cfg5.N) (e : Fin 8192) (q : Fin 64) (ch : Fin 196) (hch : ch.val = t.val % 196) :
    (wgBlk V c t) (ix3 (0 : Fin 1) e q)
      = (V c main_v90 : S196x8192x64.Idx → EReal) (ix3 ch e q) := by
  obtain ⟨i0, i1, i2⟩ := index_wg t
  unfold wgBlk iblk
  rw [View.read_apply]
  show (V c main_v90 : S196x8192x64.Idx → EReal) _ = _
  congr 1
  funext a
  apply Fin.ext
  match a with
  | ⟨0, _⟩ => show win5_1.index t (0 : Fin 3) * 1 + 1 * 0 = ch.val; rw [i0, hch]; omega
  | ⟨1, _⟩ => show win5_1.index t (1 : Fin 3) * 8192 + 1 * e.val = e.val; rw [i1]; omega
  | ⟨2, _⟩ => show win5_1.index t (2 : Fin 3) * 64 + 1 * q.val = q.val; rw [i2]; omega

/-! ## The accumulator along a tile's chunks -/

/-- The vector a tile's first chunk resets the accumulator to is zero. -/
theorem reset_apply (x : S1024x64.Idx) : (k5_pay1 (F := Ideal)) x = 0 := by
  show shapeCast S1024x64 (broadcast S1024x64 (Scalar.ofBits .f32 0x00000000#32 : Ideal .f32)) shapeCasts_S1024x64_S1024x64 x = 0
  rw [shapeCast_self]
  exact Ideal.ofBits_zero_f32

/-- What chunk `s` adds to node `node`'s entry at feature `q`: the chunk's gathered rows whose row index, read
    unsigned, is the node. -/
def chunkAdd (c : Dev nD) (node : ℕ) (q : Fin 64) (s : ℕ) : EReal :=
  if h : s < 196 then
    ∑ e : Fin 8192, if ((V c main_v89 : S196x1x8192.Idx → BitVec 32) (ix3 (⟨s, h⟩ : Fin 196) (0 : Fin 1) e)).toNat = node
      then (V c main_v90 : S196x8192x64.Idx → EReal) (ix3 (⟨s, h⟩ : Fin 196) e q) else 0
  else 0

/-- One point's step at an entry: what the accumulator held (zero at a tile's first chunk) plus the chunk's addend. -/
theorem accAt_succ_apply (c : Dev nD) (m : ℕ) (hm : m < cfg5.N) (p : Fin 1024) (q : Fin 64) :
    accAt V c (m + 1) (ix2 p q)
      = (if m % 196 = 0 then 0 else accAt V c m (ix2 p q)) + chunkAdd V c (1024 * (m / 196) + p.val) q (m % 196) := by
  have hN : m < 19208 := Nat.lt_of_lt_of_eq hm N_5
  have hp : p.val < 1024 := p.isLt
  have h32 : (2 : ℕ) ^ 32 = 4294967296 := by norm_num
  have hct : (grid5.coords (⟨m, hm⟩ : Fin cfg5.N) 0).val = m / 196 := coords_tile ⟨m, hm⟩
  show (if h : m < cfg5.N then accStep V c ⟨m, h⟩ (accAt V c m) else (k5_pay1 (F := Ideal))) (ix2 p q) = _
  rw [dif_pos hm]
  unfold accStep
  refine (step_apply _ _ _ _ p q (by rw [hct, h32]; omega)).trans ?_
  congr 1
  · show (if m % 196 = 0 then (k5_pay1 (F := Ideal)) else accAt V c m) (ix2 p q) = _
    split
    · exact reset_apply _
    · rfl
  · rw [hct]
    unfold chunkAdd
    rw [dif_pos (Nat.mod_lt m (by decide))]
    refine Finset.sum_congr rfl fun e _ => ?_
    rw [rows_apply V c ⟨m, hm⟩ e ⟨m % 196, Nat.mod_lt m (by decide)⟩ rfl,
      wg_apply V c ⟨m, hm⟩ e q ⟨m % 196, Nat.mod_lt m (by decide)⟩ rfl]

/-- After the first `n + 1` chunks of tile `tile` the accumulator is the sum of their addends. -/
theorem accAt_run (c : Dev nD) (tile : ℕ) (htile : tile < 98) (p : Fin 1024) (q : Fin 64) :
    ∀ n, n < 196 → ∀ m, m = 196 * tile + n →
      accAt V c (m + 1) (ix2 p q) = ∑ s ∈ Finset.range (n + 1), chunkAdd V c (1024 * tile + p.val) q s
  | 0, _, m, hm => by
    have hmN : m < cfg5.N := by rw [show cfg5.N = 19208 from N_5]; omega
    rw [accAt_succ_apply V c m hmN p q, show m % 196 = 0 by omega, show m / 196 = tile by omega, if_pos rfl, zero_add,
      Finset.sum_range_one]
  | n + 1, hn, m, hm => by
    have hmN : m < cfg5.N := by rw [show cfg5.N = 19208 from N_5]; omega
    obtain ⟨m', rfl⟩ : ∃ m', m = m' + 1 := ⟨196 * tile + n, by omega⟩
    rw [accAt_succ_apply V c (m' + 1) hmN p q, show (m' + 1) % 196 = n + 1 by omega, show (m' + 1) / 196 = tile by omega,
      if_neg (Nat.succ_ne_zero n), accAt_run c tile htile p q n (by omega) m' (by omega), Finset.sum_range_succ _ (n + 1)]

/-- Node `node`'s entry at feature `q` over all chunks: the gathered rows of the edges whose row index, read unsigned,
    is the node, summed. -/
def scat (c : Dev nD) (node : ℕ) (q : Fin 64) : EReal :=
  ∑ ch : Fin 196, ∑ e : Fin 8192,
    (if ((V c main_v89 : S196x1x8192.Idx → BitVec 32) (ix3 ch (0 : Fin 1) e)).toNat = node
      then (V c main_v90 : S196x8192x64.Idx → EReal) (ix3 ch e q) else 0)

/-- After a tile's last chunk the accumulator holds, at (p, q), node 1024 * tile + p's entry. -/
theorem after_last (c : Dev nD) (t : Fin cfg5.N) (hl : t.val % 196 = 195) (p : Fin 1024) (q : Fin 64) :
    accAt V c (t.val + 1) (ix2 p q) = scat V c (1024 * (t.val / 196) + p.val) q := by
  have hN := point_lt t
  rw [accAt_run V c (t.val / 196) (by omega) p q 195 (by decide) t.val (by omega)]
  show ∑ s ∈ Finset.range 196, chunkAdd V c (1024 * (t.val / 196) + p.val) q s = _
  rw [Finset.sum_range]
  unfold scat
  refine Finset.sum_congr rfl fun ch _ => ?_
  unfold chunkAdd
  rw [dif_pos ch.isLt]

/-! ## From the blocks to the array -/

/-- The result array, as one function of the row indices and the gathered rows. -/
def G (c : Dev nD) : S100352x64.Idx → EReal := fun i => scat V c (i 0).val ⟨(i 1).val, idx2_lt1 i⟩

theorem G_apply (c : Dev nD) (i : S100352x64.Idx) (node : ℕ) (q : Fin 64) (h0 : (i 0).val = node) (h1 : (i 1).val = q.val) :
    G V c i = scat V c node q := by
  unfold G
  rw [h0]
  congr 1
  exact Fin.ext h1

/-- An index of the result array is in a point's block iff each coordinate is in the block's range on its axis. -/
theorem mem_blk_out (t : Fin cfg5.N) (i : S100352x64.Idx) :
    i ∈ ((cfg5.win 2).blk t).view.set ↔ ∀ a : Fin 2, win5_2.index t a * S1024x64.size a ≤ (i a).val ∧ (i a).val < win5_2.index t a * S1024x64.size a + S1024x64.size a := by
  show i ∈ ((View.whole main_v91).slice (win5_2.rect t)).set ↔ _
  rw [View.set_slice_whole, Rect.mem_set_unit]
  exact Iff.rfl

/-- Every index of the result array is in the block of its tile's last point. -/
theorem cover_out (i : S100352x64.Idx) :
    ∃ t : Fin cfg5.N, (cfg5.win 2).flush t = true ∧ i ∈ ((cfg5.win 2).blk t).view.set := by
  have h0 : (i 0).val < 100352 := idx2_lt0 i
  have h1 : (i 1).val < 64 := idx2_lt1 i
  have hlt : 196 * ((i 0).val / 1024) + 195 < cfg5.N := by rw [show cfg5.N = 19208 from N_5]; omega
  refine ⟨⟨196 * ((i 0).val / 1024) + 195, hlt⟩, (flush5_2 _).mpr (by show (196 * ((i 0).val / 1024) + 195) % 196 = 195; omega), ?_⟩
  obtain ⟨i0, i1⟩ := index_out ⟨196 * ((i 0).val / 1024) + 195, hlt⟩
  rw [mem_blk_out]
  intro a
  match a with
  | ⟨0, _⟩ =>
    show win5_2.index ⟨196 * ((i 0).val / 1024) + 195, hlt⟩ (0 : Fin 2) * 1024 ≤ (i 0).val
      ∧ (i 0).val < win5_2.index ⟨196 * ((i 0).val / 1024) + 195, hlt⟩ (0 : Fin 2) * 1024 + 1024
    rw [i0]
    show (196 * ((i 0).val / 1024) + 195) / 196 * 1024 ≤ (i 0).val ∧ (i 0).val < (196 * ((i 0).val / 1024) + 195) / 196 * 1024 + 1024
    omega
  | ⟨1, _⟩ =>
    show win5_2.index ⟨196 * ((i 0).val / 1024) + 195, hlt⟩ (1 : Fin 2) * 64 ≤ (i 1).val
      ∧ (i 1).val < win5_2.index ⟨196 * ((i 0).val / 1024) + 195, hlt⟩ (1 : Fin 2) * 64 + 64
    rw [i1]
    omega

/-- What a tile's last point writes back is its block of `G`. -/
theorem flushed_eq (c : Dev nD) (t : Fin cfg5.N) (hf : (cfg5.win 2).flush t = true) :
    (dat V c).flushed 2 t = ((cfg5.win 2).blk t).view.read (Elt Ideal) (G V c) := by
  have hl : t.val % 196 = 195 := (flush5_2 t).mp hf
  obtain ⟨i0, i1⟩ := index_out t
  show (cfg5.win 2).cut (grid5.coords t) ((dat V c).after 2 t) = _
  rw [after_out]
  funext y
  obtain ⟨p, q, rfl⟩ : ∃ (p : Fin 1024) (q : Fin 64), y = ix2 p q := ⟨y 0, y 1, @eq_ix2 1024 64 y⟩
  rw [View.read_apply]
  show accAt V c (t.val + 1) (ix2 p q) = G V c (((cfg5.win 2).blk t).view.emb (ix2 p q))
  rw [after_last V c t hl p q]
  refine (G_apply V c _ _ q ?_ ?_).symm
  · show win5_2.index t (0 : Fin 2) * 1024 + 1 * p.val = 1024 * (t.val / 196) + p.val
    rw [i0]; omega
  · show win5_2.index t (1 : Fin 2) * 64 + 1 * q.val = q.val
    rw [i1]; omega

/-- So the result array ends holding `G`. -/
theorem out_eq (c : Dev nD) : (dat V c).arrAt 2 cfg5.N = G V c :=
  (dat V c).arrAt_eq_of_cover 2 (G V c) (flushed_eq V c) cover_out

/-- THE RESULT ARRAY, ENTRY BY ENTRY: node's row is the sum, over all chunks, of the gathered weighted rows of the edges whose
    row index, read unsigned, is that node. -/
theorem out_apply (c : Dev nD) (node : Fin 100352) (j : Fin 64) :
    ((dat V c).arrAt 2 cfg5.N : S100352x64.Idx → EReal) (ix2 node j)
      = (∑ ch : Fin 196, ∑ e : Fin 8192,
          (if ((V c main_v89 : S196x1x8192.Idx → BitVec 32) (ix3 ch (0 : Fin 1) e)).toNat = node.val
            then (V c main_v90 : S196x8192x64.Idx → EReal) (ix3 ch e j) else 0) : EReal) := by
  rw [out_eq V c]
  rfl

end Cert.KernelIdeal.Hand.R5

end
-- ==== Proof.KI.R6Val.lean ====
/-
  What this gather launch (grid: 196 edge chunks x 98 node tiles, the node tile innermost) leaves in its result array,
  entry by entry, over the extended reals, on any contents `V` of the unscoped buffers at its entry: entry (ch, e, j) is
  feature j of the row of the padded feature table (100352 = 98 * 1024 rows) that the column word of edge e of chunk ch
  names, read unsigned (the zero row when the word names no row of the table), times the edge's weight.

  The road. At a point (chunk, tile) the body adds to the accumulator the product of the chunk's one-hot matrix against the
  tile with the tile's 1024 feature rows; over the extended reals entry (e, j) of that product is the sum over the tile's
  nodes k of [the edge's column word is node 1024 * tile + k] * feature j of that node, and at most one term is not zero:
  the product's entry is feature j of the row the word names when that node lies in the tile, and 0 otherwise
  (`pay2_apply`, `tile_sum`). So after tile n of a chunk the accumulator's entry holds the selected row's feature if the
  row lies in the tiles up to n, and 0 otherwise (`accAt_chunk`, by induction on the tile; the first tile starts from the
  zero matrix); after the last tile that is the selected row of the whole padded table. The last tile stores the
  accumulator times the broadcast weight column (`pay3_apply`) as the chunk's block of the result, and the chunks' blocks
  cover the result array (`flushed_eq`, `out_eq`).
-/
import proofs.«130096_j52458730553647_1_alg».proof.Proof.KI.R6
import proofs.«130096_j52458730553647_1_alg».proof.Proof.Spmm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R6

open Cert.KernelIdeal Cert.KernelIdeal.Gen Cert.KernelIdeal.Hand.Sched
open Idealize.ShloMosaic Idealize.ShloMosaic.TcCoe Idealize.ShloMosaic.ValueIdx
open Idealize.ShloMosaic.Pipeline (Dat)
open Cert.Hand (rowOr0 rowOr0_of_lt rowOr0_of_ge)
open scoped BigOperators

/-! ## Layout operations the body uses, read at an index -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, k)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

end Layout

/-! ## The body's three stored values, read at an index, over the extended reals -/

/-- The reset stores the zero matrix. -/
theorem pay1_apply (i : S8192x64.Idx) : (k6_pay1 (F := Ideal)) i = 0 := by
  unfold k6_pay1
  rw [shapeCast_self]
  exact Ideal.ofBits_zero_f32

/-- A comparison and a sum of integer vectors at an index are the words' comparison and sum. -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = x i + y i := rfl

/-- A one-hot entry: the comparison bit, widened and converted, is 1 where the two words agree and 0 elsewhere. -/
theorem onehot_entry (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by
      show (BitVec.ofBool (a == a)).setWidth 32 = 1#32
      rw [beq_self_eq_true]; decide
    rw [e]
    show (((1#32 : BitVec 32).toInt : ℝ) : EReal) = 1
    norm_num
  · rw [if_neg h]
    have e : (IntOp.cmpi .eq a b).setWidth 32 = 0#32 := by
      show (BitVec.ofBool (a == b)).setWidth 32 = 0#32
      rw [beq_false_of_ne h]; decide
    rw [e]
    show (((0#32 : BitVec 32).toInt : ℝ) : EReal) = 0
    norm_num

/-- The word the body compares a column index with at column `k` of node tile `tile`: `k` plus the tile's first node. -/
abbrev nodeWord (tile k : ℕ) : BitVec 32 := BitVec.ofNat 32 k + BitVec.ofNat 32 tile * 1024#32

/-- The product's operand indices at result entry `(e, j)` and contraction position `q`: `(e, q)` and `(q, j)`. -/
theorem lhs_dot_free (i : S8192x64.Idx) (q : dot_S8192x1024_S1024x64_S8192x64_1_0_0_1_n_n.contr.Idx) :
    (dot_S8192x1024_S1024x64_S8192x64_1_0_0_1_n_n.lhsIdx i q 0).val = (i 0).val := by
  unfold DotDims.lhsIdx
  rw [dif_neg (show ¬(0 : Fin S8192x1024.rank) ∈ dot_S8192x1024_S1024x64_S8192x64_1_0_0_1_n_n.lhsBatch by decide),
    dif_pos (show (0 : Fin S8192x1024.rank) ∈ dot_S8192x1024_S1024x64_S8192x64_1_0_0_1_n_n.lhsNonContracting by decide)]
  rfl
theorem lhs_dot_contr (i : S8192x64.Idx) (q : dot_S8192x1024_S1024x64_S8192x64_1_0_0_1_n_n.contr.Idx) :
    (dot_S8192x1024_S1024x64_S8192x64_1_0_0_1_n_n.lhsIdx i q 1).val = (q ⟨0, by decide⟩).val :=
  dot_S8192x1024_S1024x64_S8192x64_1_0_0_1_n_n.lhsIdx_val_of_single rfl i q
theorem rhs_dot_contr (i : S8192x64.Idx) (q : dot_S8192x1024_S1024x64_S8192x64_1_0_0_1_n_n.contr.Idx) :
    (dot_S8192x1024_S1024x64_S8192x64_1_0_0_1_n_n.rhsIdx i q 0).val = (q ⟨0, by decide⟩).val :=
  dot_S8192x1024_S1024x64_S8192x64_1_0_0_1_n_n.rhsIdx_val_of_single rfl i q
theorem rhs_dot_free (i : S8192x64.Idx) (q : dot_S8192x1024_S1024x64_S8192x64_1_0_0_1_n_n.contr.Idx) :
    (dot_S8192x1024_S1024x64_S8192x64_1_0_0_1_n_n.rhsIdx i q 1).val = (i 1).val := by
  unfold DotDims.rhsIdx
  rw [dif_neg (show ¬(1 : Fin S1024x64.rank) ∈ dot_S8192x1024_S1024x64_S8192x64_1_0_0_1_n_n.rhsBatch by decide),
    dif_pos (show (1 : Fin S1024x64.rank) ∈ dot_S8192x1024_S1024x64_S8192x64_1_0_0_1_n_n.rhsNonContracting by decide)]
  rfl

/-- The accumulating store at entry `(e, j)`: the accumulator there plus, over the tile's 1024 nodes, the one-hot entry
    (1 where edge `e`'s column word is the node's) times the node's feature `j`. -/
theorem pay2_apply (i : grid6.Coords) (cols : Vec Ideal S1x1x8192 .i32) (feat : Vec Ideal S1024x64 .f32)
    (acc : Vec Ideal S8192x64 .f32) (e : Fin 8192) (j : Fin 64) :
    k6_pay2 i cols feat acc (ix2 e j)
      = acc (ix2 e j) + ∑ k : Fin 1024,
          (if cols (ix3 (0 : Fin 1) (0 : Fin 1) e) = nodeWord (i 1).val k.val then (1 : EReal) else 0) * feat (ix2 k j) := by
  unfold k6_pay2
  rw [shapeCast_self, addf_apply, shapeCast_self]
  refine congrArg (acc (ix2 e j) + ·) ?_
  simp only [matmul]
  rw [Ideal.matmul_constant_zero_apply,
    ← Equiv.sum_comp (contrEquiv1 dot_S8192x1024_S1024x64_S8192x64_1_0_0_1_n_n 1024 rfl rfl).symm]
  refine Finset.sum_congr rfl fun k _ => ?_
  have hk := contrEquiv1_symm_val dot_S8192x1024_S1024x64_S8192x64_1_0_0_1_n_n 1024 rfl rfl k
  have el : dot_S8192x1024_S1024x64_S8192x64_1_0_0_1_n_n.lhsIdx (ix2 e j)
      ((contrEquiv1 dot_S8192x1024_S1024x64_S8192x64_1_0_0_1_n_n 1024 rfl rfl).symm k) = ix2 e k :=
    funext fun a => Fin.ext (by
      match a with
      | ⟨0, _⟩ => exact lhs_dot_free _ _
      | ⟨1, _⟩ => exact (lhs_dot_contr _ _).trans hk)
  have er : dot_S8192x1024_S1024x64_S8192x64_1_0_0_1_n_n.rhsIdx (ix2 e j)
      ((contrEquiv1 dot_S8192x1024_S1024x64_S8192x64_1_0_0_1_n_n 1024 rfl rfl).symm k) = ix2 k j :=
    funext fun a => Fin.ext (by
      match a with
      | ⟨0, _⟩ => exact (rhs_dot_contr _ _).trans hk
      | ⟨1, _⟩ => exact rhs_dot_free _ _)
  rw [el, er, truncf_apply, truncf_apply, sitofp_apply, extui_apply, cmpi_apply, onehot_entry, addi_apply,
    broadcastTo_a1_ab_apply, shapeCast_a_a1_apply, shapeCast_11a_a_apply, iota_single_apply, broadcast_apply]
  rfl

/-- The scaled store at entry `(0, e, j)`: the accumulator's entry `(e, j)` times edge `e`'s weight. -/
theorem pay3_apply (vals : Vec Ideal S1x1x8192 .f32) (acc : Vec Ideal S8192x64 .f32) (u : Fin 1) (e : Fin 8192) (j : Fin 64) :
    k6_pay3 vals acc (ix3 u e j) = acc (ix2 e j) * vals (ix3 (0 : Fin 1) (0 : Fin 1) e) := by
  unfold k6_pay3
  rw [shapeCast_ab_1ab_apply, mulf_apply, broadcastTo_a1_ab_apply, shapeCast_a_a1_apply, shapeCast_11a_a_apply]

/-! ## One node tile's product, and the tiles before a point -/

/-- The compared word is node `1024 * tile + k` as a number, as long as that is below 2^32. -/
theorem nodeWord_toNat {tile k : ℕ} (h : 1024 * tile + k < 4294967296) : (nodeWord tile k).toNat = 1024 * tile + k := by
  show (BitVec.ofNat 32 k + BitVec.ofNat 32 tile * BitVec.ofNat 32 1024).toNat = _
  rw [BitVec.toNat_add, BitVec.toNat_mul, BitVec.toNat_ofNat, BitVec.toNat_ofNat, BitVec.toNat_ofNat]
  omega

theorem eq_nodeWord_iff (w : BitVec 32) {tile k : ℕ} (h : 1024 * tile + k < 4294967296) :
    w = nodeWord tile k ↔ w.toNat = 1024 * tile + k := by
  rw [← BitVec.toNat_inj, nodeWord_toNat h]

/-- One node tile's product at feature `j`, for an edge whose column word is `w`: the one-hot row selects the feature row
    the word names when that node lies in the tile (`feat` holds the table's rows `1024 * tile …`), and nothing otherwise. -/
theorem tile_sum (x : Fin 100352 → Fin 64 → EReal) (tile : ℕ) (htile : tile < 98) (feat : Vec Ideal S1024x64 .f32)
    (hfeat : ∀ (k : Fin 1024) (j : Fin 64), feat (ix2 k j) = x ⟨1024 * tile + k.val, by have := k.isLt; omega⟩ j)
    (w : BitVec 32) (j : Fin 64) :
    ∑ k : Fin 1024, (if w = nodeWord tile k.val then (1 : EReal) else 0) * feat (ix2 k j)
      = if 1024 * tile ≤ w.toNat ∧ w.toNat < 1024 * tile + 1024 then rowOr0 x w.toNat j else 0 := by
  by_cases hw : 1024 * tile ≤ w.toNat ∧ w.toNat < 1024 * tile + 1024
  · rw [if_pos hw]
    have hkw : w.toNat - 1024 * tile < 1024 := by omega
    rw [Finset.sum_eq_single (⟨w.toNat - 1024 * tile, hkw⟩ : Fin 1024)]
    · have hsel : w = nodeWord tile (w.toNat - 1024 * tile) := (eq_nodeWord_iff w (by omega)).mpr (by omega)
      rw [if_pos hsel, one_mul, hfeat, rowOr0_of_lt x (show w.toNat < 100352 by omega)]
      exact congrArg (fun q => x q j) (Fin.ext (by show 1024 * tile + (w.toNat - 1024 * tile) = w.toNat; omega))
    · intro k _ hk
      have hne : ¬w = nodeWord tile k.val := fun h => hk (Fin.ext (by
        have := (eq_nodeWord_iff w (by have := k.isLt; omega)).mp h
        show k.val = w.toNat - 1024 * tile; omega))
      rw [if_neg hne, zero_mul]
    · intro h; exact absurd (Finset.mem_univ _) h
  · rw [if_neg hw]
    refine Finset.sum_eq_zero fun k _ => ?_
    have hne : ¬w = nodeWord tile k.val := fun h => hw (by
      have := (eq_nodeWord_iff w (by have := k.isLt; omega)).mp h
      have := k.isLt
      omega)
    rw [if_neg hne, zero_mul]

/-- The selected feature row as far as the node tiles before tile `n` supply it: the row the word names when that node lies
    in one of those tiles, the zero row otherwise. -/
def partRow (x : Fin 100352 → Fin 64 → EReal) (n q : ℕ) (j : Fin 64) : EReal := if q < 1024 * n then rowOr0 x q j else 0

theorem partRow_zero (x : Fin 100352 → Fin 64 → EReal) (q : ℕ) (j : Fin 64) : partRow x 0 q j = 0 := by
  unfold partRow; rw [if_neg (by omega)]

theorem partRow_succ (x : Fin 100352 → Fin 64 → EReal) (n q : ℕ) (j : Fin 64) :
    partRow x (n + 1) q j = partRow x n q j + (if 1024 * n ≤ q ∧ q < 1024 * n + 1024 then rowOr0 x q j else 0) := by
  unfold partRow
  by_cases hib : q < 1024 * n
  · rw [if_pos hib, if_pos (by omega), if_neg (by omega), add_zero]
  · by_cases hic : q < 1024 * (n + 1)
    · rw [if_neg hib, if_pos hic, if_pos (by omega), zero_add]
    · rw [if_neg hib, if_neg hic, if_neg (by omega), zero_add]

/-- All 98 tiles supply the whole table: a word past the table names the zero row. -/
theorem partRow_last (x : Fin 100352 → Fin 64 → EReal) (q : ℕ) (j : Fin 64) : partRow x 98 q j = rowOr0 x q j := by
  unfold partRow
  by_cases h : q < 1024 * 98
  · rw [if_pos h]
  · rw [if_neg h, rowOr0_of_ge x (by omega)]

/-! ## The blocks a point reads, as entries of the arrays the region finds -/

variable (V : (c : Dev nD) → (b : Ref sig .tc) → Buf (Elt Ideal) ((c : Thread nD τ).loc b))

/-- The padded feature table, the column words and the edge weights as the region finds them. -/
abbrev featTab (c : Dev nD) : Fin 100352 → Fin 64 → EReal :=
  fun q j => (V c main_v96 : S100352x64.Idx → EReal) (ix2 q j)
abbrev colWord (c : Dev nD) (ch : Fin 196) (e : Fin 8192) : BitVec 32 :=
  (V c main_v97 : S196x1x8192.Idx → BitVec 32) (ix3 ch (0 : Fin 1) e)
abbrev weight (c : Dev nD) (ch : Fin 196) (e : Fin 8192) : EReal :=
  (V c main_v98 : S196x1x8192.Idx → EReal) (ix3 ch (0 : Fin 1) e)

/-- A point's coordinates: its chunk is the quotient and its node tile the remainder by the number of tiles. -/
theorem coords_chunk (t : Fin cfg6.N) : ((grid6.coords t) 0).val = t.val / 98 := by
  have hN : cfg6.N = 19208 := N_6
  have ht := t.isLt
  have hs : grid6.stride 0 = 98 := by decide
  show t.val / grid6.stride 0 % 196 = t.val / 98
  rw [hs]; omega

theorem coords_tile (t : Fin cfg6.N) : ((grid6.coords t) 1).val = t.val % 98 := by
  have hs : grid6.stride 1 = 1 := by decide
  show t.val / grid6.stride 1 % 98 = t.val % 98
  rw [hs, Nat.div_one]

/-- The block indices at a point: the chunk's row of the column words and of the weights and of the result, the node
    tile's rows of the feature table. -/
theorem index_cols (t : Fin cfg6.N) : win6_0.index t 0 = t.val / 98 ∧ win6_0.index t 1 = 0 ∧ win6_0.index t 2 = 0 := by
  have hN : cfg6.N = 19208 := N_6
  have ht := t.isLt
  refine ⟨?_, rfl, rfl⟩
  show (BitVec.ofNat 32 ((grid6.coords t) 0).val).toNat = _
  rw [BitVec.toNat_ofNat, coords_chunk]; omega

theorem index_vals (t : Fin cfg6.N) : win6_1.index t 0 = t.val / 98 ∧ win6_1.index t 1 = 0 ∧ win6_1.index t 2 = 0 := by
  have hN : cfg6.N = 19208 := N_6
  have ht := t.isLt
  refine ⟨?_, rfl, rfl⟩
  show (BitVec.ofNat 32 ((grid6.coords t) 0).val).toNat = _
  rw [BitVec.toNat_ofNat, coords_chunk]; omega

theorem index_feat (t : Fin cfg6.N) : win6_2.index t 0 = t.val % 98 ∧ win6_2.index t 1 = 0 := by
  refine ⟨?_, rfl⟩
  show (BitVec.ofNat 32 ((grid6.coords t) 1).val).toNat = _
  rw [BitVec.toNat_ofNat, coords_tile]; omega

theorem index_out (t : Fin cfg6.N) : win6_3.index t 0 = t.val / 98 ∧ win6_3.index t 1 = 0 ∧ win6_3.index t 2 = 0 := by
  have hN : cfg6.N = 19208 := N_6
  have ht := t.isLt
  refine ⟨?_, rfl, rfl⟩
  show (BitVec.ofNat 32 ((grid6.coords t) 0).val).toNat = _
  rw [BitVec.toNat_ofNat, coords_chunk]; omega

/-- The column-word block at a point is the chunk's row of the column words. -/
theorem colsBlk_apply (c : Dev nD) (t : Fin cfg6.N) (e : Fin 8192) (ch : Fin 196) (hch : ch.val = t.val / 98) :
    colsBlk V c t (ix3 (0 : Fin 1) (0 : Fin 1) e) = colWord V c ch e := by
  obtain ⟨hia, hib, hic⟩ := index_cols t
  show iblk V c 0 t _ = _
  unfold iblk
  rw [View.read_apply]
  show V c main_v97 _ = V c main_v97 _
  refine congrArg _ (funext fun a => Fin.ext ?_)
  match a with
  | ⟨0, _⟩ => show win6_0.index t 0 * 1 + 1 * 0 = ch.val; rw [hia, hch]; omega
  | ⟨1, _⟩ => show win6_0.index t 1 * 1 + 1 * 0 = 0; rw [hib]
  | ⟨2, _⟩ => show win6_0.index t 2 * 8192 + 1 * e.val = e.val; rw [hic]; omega

/-- The weight block at a point is the chunk's row of the weights. -/
theorem valsBlk_apply (c : Dev nD) (t : Fin cfg6.N) (e : Fin 8192) (ch : Fin 196) (hch : ch.val = t.val / 98) :
    valsBlk V c t (ix3 (0 : Fin 1) (0 : Fin 1) e) = weight V c ch e := by
  obtain ⟨hia, hib, hic⟩ := index_vals t
  show iblk V c 1 t _ = _
  unfold iblk
  rw [View.read_apply]
  show V c main_v98 _ = V c main_v98 _
  refine congrArg _ (funext fun a => Fin.ext ?_)
  match a with
  | ⟨0, _⟩ => show win6_1.index t 0 * 1 + 1 * 0 = ch.val; rw [hia, hch]; omega
  | ⟨1, _⟩ => show win6_1.index t 1 * 1 + 1 * 0 = 0; rw [hib]
  | ⟨2, _⟩ => show win6_1.index t 2 * 8192 + 1 * e.val = e.val; rw [hic]; omega

/-- The feature block at a point is the node tile's 1024 rows of the padded table. -/
theorem featBlk_apply (c : Dev nD) (t : Fin cfg6.N) (k : Fin 1024) (j : Fin 64) (q : Fin 100352)
    (hq : q.val = 1024 * (t.val % 98) + k.val) :
    featBlk V c t (ix2 k j) = featTab V c q j := by
  obtain ⟨hia, hib⟩ := index_feat t
  show iblk V c 2 t _ = _
  unfold iblk
  rw [View.read_apply]
  show V c main_v96 _ = V c main_v96 _
  refine congrArg _ (funext fun a => Fin.ext ?_)
  match a with
  | ⟨0, _⟩ => show win6_2.index t 0 * 1024 + 1 * k.val = q.val; rw [hia, hq]; omega
  | ⟨1, _⟩ => show win6_2.index t 1 * 64 + 1 * j.val = j.val; rw [hib]; omega

/-! ## The accumulator across a chunk's tiles -/

/-- One point of the recursion at entry `(e, j)`: if the accumulator the point starts from (the zero matrix at a chunk's
    first tile) holds what the tiles before `n` supply, the point leaves what the tiles before `n + 1` supply. -/
theorem accStep_apply (c : Dev nD) (ch : Fin 196) (n : ℕ) (hn : n < 98) (ht : 98 * ch.val + n < cfg6.N)
    (a : Vec Ideal S8192x64 .f32) (e : Fin 8192) (j : Fin 64)
    (ha : (if n = 0 then (k6_pay1 (F := Ideal)) else a) (ix2 e j) = partRow (featTab V c) n (colWord V c ch e).toNat j) :
    accStep V c ⟨98 * ch.val + n, ht⟩ a (ix2 e j) = partRow (featTab V c) (n + 1) (colWord V c ch e).toNat j := by
  have hmod : (98 * ch.val + n) % 98 = n := by omega
  have hdiv : (98 * ch.val + n) / 98 = ch.val := by omega
  unfold accStep
  refine (pay2_apply _ _ _ _ e j).trans ?_
  rw [partRow_succ]
  congr 1
  · show (if (98 * ch.val + n) % 98 = 0 then (k6_pay1 (F := Ideal)) else a) (ix2 e j) = _
    rw [hmod]; exact ha
  · rw [colsBlk_apply V c _ e ch hdiv.symm, coords_tile]
    show ∑ k : Fin 1024, (if colWord V c ch e = nodeWord ((98 * ch.val + n) % 98) k.val then (1 : EReal) else 0) * _ = _
    rw [hmod]
    exact tile_sum (featTab V c) n hn _ (fun k j => featBlk_apply V c _ k j _ (by show _ = 1024 * ((98 * ch.val + n) % 98) + k.val; rw [hmod])) _ j

/-- After tile `n` of chunk `ch` the accumulator's entry `(e, j)` holds what the tiles up to `n` supply of the row edge
    `e`'s column word names. -/
theorem accAt_chunk (c : Dev nD) (ch : Fin 196) (e : Fin 8192) (j : Fin 64) : ∀ n, n < 98 →
    accAt V c (98 * ch.val + n + 1) (ix2 e j) = partRow (featTab V c) (n + 1) (colWord V c ch e).toNat j
  | 0, hn => by
    have hN : cfg6.N = 19208 := N_6
    have hch := ch.isLt
    have ht : 98 * ch.val + 0 < cfg6.N := by omega
    refine (congrFun (accAt_succ V c ⟨98 * ch.val + 0, ht⟩) (ix2 e j)).trans ?_
    refine accStep_apply V c ch 0 hn ht _ e j ?_
    rw [if_pos rfl, pay1_apply, partRow_zero]
  | n + 1, hn => by
    have hN : cfg6.N = 19208 := N_6
    have hch := ch.isLt
    have ht : 98 * ch.val + (n + 1) < cfg6.N := by omega
    refine (congrFun (accAt_succ V c ⟨98 * ch.val + (n + 1), ht⟩) (ix2 e j)).trans ?_
    refine accStep_apply V c ch (n + 1) hn ht _ e j ?_
    rw [if_neg (Nat.succ_ne_zero n)]
    exact accAt_chunk c ch e j n (by omega)

/-! ## From the blocks to the result array -/

/-- The result array: entry `(ch, e, j)` is feature `j` of the row the edge's column word names, times the edge's weight. -/
def outArr (c : Dev nD) : S196x8192x64.Idx → EReal :=
  fun i => rowOr0 (featTab V c) (colWord V c (i 0) (i 1)).toNat (i 2) * weight V c (i 0) (i 1)

theorem outArr_apply (c : Dev nD) (i : S196x8192x64.Idx) (ch : Fin 196) (e : Fin 8192) (j : Fin 64)
    (hia : (i 0).val = ch.val) (hib : (i 1).val = e.val) (hic : (i 2).val = j.val) :
    outArr V c i = rowOr0 (featTab V c) (colWord V c ch e).toNat j * weight V c ch e := by
  obtain rfl : i = ix3 ch e j := funext fun a => Fin.ext (by
    match a with
    | ⟨0, _⟩ => exact hia
    | ⟨1, _⟩ => exact hib
    | ⟨2, _⟩ => exact hic)
  rfl

/-- What a chunk's last tile writes back is the chunk's block of the result array. -/
theorem flushed_eq (c : Dev nD) (t : Fin cfg6.N) (hf : (cfg6.win 3).flush t = true) :
    (dat V c).flushed 3 t = ((cfg6.win 3).blk t).view.read (Elt Ideal) (outArr V c) := by
  have hN : cfg6.N = 19208 := N_6
  have hlast : t.val % 98 = 97 := (flush6_3 t).mp hf
  have htl := t.isLt
  obtain ⟨hia, hib, hic⟩ := index_out t
  show (cfg6.win 3).cut (grid6.coords t) ((dat V c).after 3 t) = _
  rw [after_out]
  funext y
  obtain ⟨u, e, j, rfl⟩ : ∃ (u : Fin 1) (e : Fin 8192) (j : Fin 64), y = ix3 u e j := ⟨y 0, y 1, y 2, eq_ix3 y⟩
  show k6_pay3 (valsBlk V c t) (accAt V c (t.val + 1)) (ix3 u e j) = outArr V c (((cfg6.win 3).blk t).view.emb (ix3 u e j))
  have hu : u.val = 0 := by omega
  have hch : t.val / 98 < 196 := by omega
  rw [pay3_apply, outArr_apply V c _ ⟨t.val / 98, hch⟩ e j
    (by show win6_3.index t 0 * 1 + 1 * u.val = t.val / 98; rw [hia, hu]; omega)
    (by show win6_3.index t 1 * 8192 + 1 * e.val = e.val; rw [hib]; omega)
    (by show win6_3.index t 2 * 64 + 1 * j.val = j.val; rw [hic]; omega),
    valsBlk_apply V c t e ⟨t.val / 98, hch⟩ rfl]
  have hts : t.val + 1 = 98 * (t.val / 98) + 97 + 1 := by omega
  rw [hts, accAt_chunk V c ⟨t.val / 98, hch⟩ e j 97 (by omega), partRow_last]

/-- The result array after the region: the chunks' blocks cover it. -/
theorem out_eq (c : Dev nD) : (dat V c).arrAt 3 cfg6.N = outArr V c :=
  (dat V c).arrAt_eq_of_cover 3 (outArr V c) (flushed_eq V c) fun i => by
    have hN : cfg6.N = 19208 := N_6
    have hca : (i 0).val < 196 := (i 0).isLt
    have hcb : (i 1).val < 8192 := (i 1).isLt
    have hcc : (i 2).val < 64 := (i 2).isLt
    have ht : 98 * (i 0).val + 97 < cfg6.N := by omega
    obtain ⟨hia, hib, hic⟩ := index_out ⟨98 * (i 0).val + 97, ht⟩
    refine ⟨⟨98 * (i 0).val + 97, ht⟩, (flush6_3 _).mpr (by show (98 * (i 0).val + 97) % 98 = 97; omega), ?_⟩
    show i ∈ ((View.whole main_v100).slice (win6_3.rect ⟨98 * (i 0).val + 97, ht⟩)).set
    rw [View.set_slice_whole, Rect.mem_set_unit]
    intro a
    match a with
    | ⟨0, _⟩ =>
      show win6_3.index ⟨98 * (i 0).val + 97, ht⟩ 0 * 1 ≤ (i 0).val ∧ (i 0).val < win6_3.index ⟨98 * (i 0).val + 97, ht⟩ 0 * 1 + 1
      rw [hia]; show (98 * (i 0).val + 97) / 98 * 1 ≤ (i 0).val ∧ (i 0).val < (98 * (i 0).val + 97) / 98 * 1 + 1; omega
    | ⟨1, _⟩ =>
      show win6_3.index ⟨98 * (i 0).val + 97, ht⟩ 1 * 8192 ≤ (i 1).val ∧ (i 1).val < win6_3.index ⟨98 * (i 0).val + 97, ht⟩ 1 * 8192 + 8192
      rw [hib]; omega
    | ⟨2, _⟩ =>
      show win6_3.index ⟨98 * (i 0).val + 97, ht⟩ 2 * 64 ≤ (i 2).val ∧ (i 2).val < win6_3.index ⟨98 * (i 0).val + 97, ht⟩ 2 * 64 + 64
      rw [hic]; omega

/-- THE RESULT, entry by entry: entry `(ch, e, j)` of the region's result array is feature `j` of the padded table's row that
    the column word of edge `e` of chunk `ch` names (read unsigned; the zero row past the table), times the edge's weight. -/
theorem out_apply (c : Dev nD) (ch : Fin 196) (e : Fin 8192) (j : Fin 64) :
    ((dat V c).arrAt 3 cfg6.N : S196x8192x64.Idx → EReal) (ValueIdx.ix3 ch e j)
      = Cert.Hand.rowOr0 (fun (q : Fin 100352) (j : Fin 64) => (V c main_v96 : S100352x64.Idx → EReal) (ValueIdx.ix2 q j))
          ((V c main_v97 : S196x1x8192.Idx → BitVec 32) (ValueIdx.ix3 ch 0 e)).toNat j
        * (V c main_v98 : S196x1x8192.Idx → EReal) (ValueIdx.ix3 ch 0 e) := by
  rw [out_eq]
  rfl

end Cert.KernelIdeal.Hand.R6

end
-- ==== Proof.KI.R7Val.lean ====
/-
  What this scatter launch leaves in its result array, entry by entry, at the ideal values and on any contents `V` of the
  unscoped buffers at its entry: node's row is the sum, over all edge chunks, of the gathered weighted rows of the edges
  whose row index, read unsigned, is that node (`out_apply`).

  The steps. (1) One point's payload at an entry (p, q) of the accumulator: what the accumulator held plus the product of
  the one-hot matrix with the chunk's rows there. The one-hot entry (p, e) is 1 when the word of edge e equals the word
  of 1024 * tile + p, and that number is below 2^32, so the words agree iff the edge's row index, read unsigned, is that
  number; 1 * x = x and 0 * x = 0 in the extended reals, so the product's entry is the sum of the chunk's rows whose row
  index is node 1024 * tile + p (`step_apply`). (2) The grid is (tile, chunk), the chunk innermost: point t has tile
  t / 196 and chunk t % 196, the inputs' blocks at t are rows chunk of their arrays and the result's block is block
  (tile, 0) (`index_rows`, `index_wg`, `index_out`, `rows_apply`, `wg_apply`). (3) The accumulator is reset at a
  tile's first chunk and steps at every chunk, so after the tile's chunks 0 … n it holds the sum of their addends
  (`accAt_run`, by induction on n), and after the last chunk the whole sum (`after_last`). (4) The result's block is
  written back at each tile's last chunk and those blocks tile the array, so the array ends holding that sum at every
  entry (`flushed_eq`, `cover_out`, `out_eq`).
-/
import proofs.«130096_j52458730553647_1_alg».proof.Proof.KI.R7
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R7

open Cert.KernelIdeal Cert.KernelIdeal.Gen Cert.KernelIdeal.Hand.Sched
open Idealize.ShloMosaic Idealize.ShloMosaic.TcCoe Idealize.ShloMosaic.ValueIdx
open Idealize.SL Idealize.SL.RA
open Idealize.ShloMosaic.Pipeline (Dat Cfg Window)
open scoped BigOperators

/-! ## One point's payload at an entry -/

/-- A word is the sum of an offset's word and a base's word, the total below 2^32, iff its unsigned value is the total. -/
theorem word_eq_iff (tile p : ℕ) (h : 1024 * tile + p < 2 ^ 32) (x : BitVec 32) :
    (BitVec.ofNat 32 p + BitVec.ofNat 32 tile * 1024#32 = x) ↔ x.toNat = 1024 * tile + p := by
  have h' : 1024 * tile + p < 4294967296 := by simpa using h
  constructor
  · intro e
    subst e
    rw [BitVec.toNat_add, BitVec.toNat_mul, BitVec.toNat_ofNat, BitVec.toNat_ofNat]
    show (p % 4294967296 + tile % 4294967296 * 1024 % 4294967296) % 4294967296 = 1024 * tile + p
    omega
  · intro e
    apply BitVec.eq_of_toNat_eq
    rw [BitVec.toNat_add, BitVec.toNat_mul, BitVec.toNat_ofNat, BitVec.toNat_ofNat, e]
    show (p % 4294967296 + tile % 4294967296 * 1024 % 4294967296) % 4294967296 = 1024 * tile + p
    omega

/-- A comparison bit widened to a word and converted signed: 1 where the two words agree, 0 elsewhere. -/
theorem sitofp_extui_cmpi_eq (a b : BitVec 32) :
    (FloatOps.sitofp .f32 ((IntOp.cmpi .eq a b).setWidth 32) : Ideal .f32) = if a = b then (1 : EReal) else 0 := by
  show ((((IntOp.cmpi .eq a b).setWidth 32).toInt : ℝ) : EReal) = _
  by_cases h : a = b
  · subst h; rw [if_pos rfl]; simp [IntOp.cmpi]
  · have hb : (a == b) = false := beq_eq_false_iff_ne.mpr h
    rw [if_neg h]; simp [IntOp.cmpi, hb]

/-- A [1, 1, a] array cast to [a] reads, at i, the operand at (0, 0, i). -/
theorem shapeCast_unit_unit_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-! The product's operand indices, axis by axis: the left operand is read at (row, contraction position), the right at
    (contraction position, column). -/

theorem lhs_row (i : S1024x64.Idx) (q : dot_S1024x8192_S8192x64_S1024x64_1_0_0_1_n_n.contr.Idx) :
    (dot_S1024x8192_S8192x64_S1024x64_1_0_0_1_n_n.lhsIdx i q 0).val = (i 0).val := by
  unfold DotDims.lhsIdx
  rw [dif_neg (show ¬(0 : Fin S1024x8192.rank) ∈ dot_S1024x8192_S8192x64_S1024x64_1_0_0_1_n_n.lhsBatch by decide),
    dif_pos (show (0 : Fin S1024x8192.rank) ∈ dot_S1024x8192_S8192x64_S1024x64_1_0_0_1_n_n.lhsNonContracting by decide)]
  rfl

theorem lhs_contr (i : S1024x64.Idx) (q : dot_S1024x8192_S8192x64_S1024x64_1_0_0_1_n_n.contr.Idx) :
    (dot_S1024x8192_S8192x64_S1024x64_1_0_0_1_n_n.lhsIdx i q 1).val = (q ⟨0, by decide⟩).val :=
  dot_S1024x8192_S8192x64_S1024x64_1_0_0_1_n_n.lhsIdx_val_of_single rfl i q

theorem rhs_contr (i : S1024x64.Idx) (q : dot_S1024x8192_S8192x64_S1024x64_1_0_0_1_n_n.contr.Idx) :
    (dot_S1024x8192_S8192x64_S1024x64_1_0_0_1_n_n.rhsIdx i q 0).val = (q ⟨0, by decide⟩).val :=
  dot_S1024x8192_S8192x64_S1024x64_1_0_0_1_n_n.rhsIdx_val_of_single rfl i q

theorem rhs_col (i : S1024x64.Idx) (q : dot_S1024x8192_S8192x64_S1024x64_1_0_0_1_n_n.contr.Idx) :
    (dot_S1024x8192_S8192x64_S1024x64_1_0_0_1_n_n.rhsIdx i q 1).val = (i 1).val := by
  unfold DotDims.rhsIdx
  rw [dif_neg (show ¬(1 : Fin S8192x64.rank) ∈ dot_S1024x8192_S8192x64_S1024x64_1_0_0_1_n_n.rhsBatch by decide),
    dif_pos (show (1 : Fin S8192x64.rank) ∈ dot_S1024x8192_S8192x64_S1024x64_1_0_0_1_n_n.rhsNonContracting by decide)]
  rfl

/-- One entry of the one-hot matrix: 1 where the edge's row index is the tile's node p, 0 elsewhere. -/
theorem onehot_apply (tile : ℕ) (r : Vec Ideal S1x1x8192 .i32) (p : Fin 1024) (e : Fin 8192) (hb : 1024 * tile + p.val < 2 ^ 32) :
    (truncf .bf16
      (sitofp .f32
        (extui 32
          (cmpi .eq
            (addi (iota .tc S1024x8192 32 [0] iota_S1024x8192_d0_w32)
              (broadcast S1024x8192 (Scalar.muli (BitVec.ofNat 32 tile) 1024#32)))
            (broadcastTo S1024x8192
              (shapeCast S1x8192 (shapeCast S8192 r shapeCasts_S1x1x8192_S8192) shapeCasts_S8192_S1x8192)
              broadcasts_S1x8192_S1024x8192))
          natLt_1_32))
      bitsLt_bf16_f32 : FVec Ideal S1024x8192 .bf16) (ix2 p e)
      = if ((r (ix3 (0 : Fin 1) (0 : Fin 1) e) : BitVec 32)).toNat = 1024 * tile + p.val then (1 : EReal) else 0 := by
  have hrow : broadcastTo S1024x8192
      (shapeCast S1x8192 (shapeCast S8192 r shapeCasts_S1x1x8192_S8192) shapeCasts_S8192_S1x8192)
      broadcasts_S1x8192_S1024x8192 (ix2 p e) = r (ix3 (0 : Fin 1) (0 : Fin 1) e) := by
    rw [broadcastTo_1b_ab_apply, shapeCast_a_1a_apply, shapeCast_unit_unit_apply]
  show (FloatOps.sitofp .f32 ((IntOp.cmpi .eq
      (IntOp.addi (iota .tc S1024x8192 32 [0] iota_S1024x8192_d0_w32 (ix2 p e)) (Scalar.muli (BitVec.ofNat 32 tile) 1024#32))
      (broadcastTo S1024x8192
        (shapeCast S1x8192 (shapeCast S8192 r shapeCasts_S1x1x8192_S8192) shapeCasts_S8192_S1x8192)
        broadcasts_S1x8192_S1024x8192 (ix2 p e))).setWidth 32) : Ideal .f32) = _
  rw [hrow, iota_single_apply, sitofp_extui_cmpi_eq]
  exact if_congr (word_eq_iff tile p.val hb _) rfl rfl

/-- THE STEP AT AN ENTRY: the payload at (p, q) is what the accumulator held there plus the chunk's rows, at feature q, of
    the edges whose row index, read unsigned, is node 1024 * tile + p. -/
theorem step_apply (i : grid7.Coords) (r : Vec Ideal S1x1x8192 .i32) (w : Vec Ideal S1x8192x64 .f32) (a : Vec Ideal S1024x64 .f32)
    (p : Fin 1024) (q : Fin 64) (hb : 1024 * (i 0).val + p.val < 2 ^ 32) :
    k7_pay2 (F := Ideal) i r w a (ix2 p q)
      = a (ix2 p q) + ∑ e : Fin 8192,
          (if ((r (ix3 (0 : Fin 1) (0 : Fin 1) e) : BitVec 32)).toNat = 1024 * (i 0).val + p.val then (w (ix3 (0 : Fin 1) e q) : EReal) else 0) := by
  unfold k7_pay2
  dsimp only
  rw [shapeCast_self, addf_apply]
  congr 1
  refine (Ideal.matmul_constant_zero_apply dot_S1024x8192_S8192x64_S1024x64_1_0_0_1_n_n none _ _ (ix2 p q)).trans ?_
  rw [← Equiv.sum_comp (contrEquiv1 dot_S1024x8192_S8192x64_S1024x64_1_0_0_1_n_n 8192 rfl rfl).symm]
  refine Finset.sum_congr rfl fun k _ => ?_
  have hk := contrEquiv1_symm_val dot_S1024x8192_S8192x64_S1024x64_1_0_0_1_n_n 8192 rfl rfl k
  have el : dot_S1024x8192_S8192x64_S1024x64_1_0_0_1_n_n.lhsIdx (ix2 p q)
      ((contrEquiv1 dot_S1024x8192_S8192x64_S1024x64_1_0_0_1_n_n 8192 rfl rfl).symm k) = ix2 p k := funext fun ax => Fin.ext (by
    match ax with
    | ⟨0, _⟩ => exact lhs_row _ _
    | ⟨1, _⟩ => exact (lhs_contr _ _).trans hk)
  have er : dot_S1024x8192_S8192x64_S1024x64_1_0_0_1_n_n.rhsIdx (ix2 p q)
      ((contrEquiv1 dot_S1024x8192_S8192x64_S1024x64_1_0_0_1_n_n 8192 rfl rfl).symm k) = ix2 k q := funext fun ax => Fin.ext (by
    match ax with
    | ⟨0, _⟩ => exact (rhs_contr _ _).trans hk
    | ⟨1, _⟩ => exact rhs_col _ _)
  rw [el, er, onehot_apply (i 0).val r p k hb, truncf_apply, shapeCast_1ab_ab_apply]
  split
  · rw [one_mul]
  · rw [zero_mul]

variable (V : (c : Dev nD) → (b : Ref sig .tc) → Buf (Elt Ideal) ((c : Thread nD τ).loc b))

/-! ## The grid and the windows' block indices, read off the point's number -/

theorem point_lt (t : Fin cfg7.N) : t.val < 19208 := Nat.lt_of_lt_of_eq t.isLt N_7

/-- A point's tile is its number divided by the chunks per tile. -/
theorem coords_tile (t : Fin cfg7.N) : (grid7.coords t 0).val = t.val / 196 := by
  have hN := point_lt t
  show t.val / grid7.stride 0 % grid7.bound 0 = _
  rw [show grid7.stride 0 = 196 from by decide, show grid7.bound 0 = 98 from rfl]
  omega

/-- A point's chunk is its number modulo the chunks per tile. -/
theorem coords_chunk (t : Fin cfg7.N) : (grid7.coords t 1).val = t.val % 196 := by
  show t.val / grid7.stride 1 % grid7.bound 1 = _
  rw [show grid7.stride 1 = 1 from by decide, show grid7.bound 1 = 196 from rfl, Nat.div_one]

/-- The row indices' block at a point is block (chunk, 0, 0). -/
theorem index_rows (t : Fin cfg7.N) :
    win7_0.index t (0 : Fin 3) = t.val % 196 ∧ win7_0.index t (1 : Fin 3) = 0 ∧ win7_0.index t (2 : Fin 3) = 0 := by
  refine ⟨?_, rfl, rfl⟩
  show (BitVec.ofNat 32 (grid7.coords t 1).val).toNat = _
  rw [BitVec.toNat_ofNat, coords_chunk]
  show t.val % 196 % 4294967296 = t.val % 196
  omega

/-- The gathered rows' block at a point is block (chunk, 0, 0). -/
theorem index_wg (t : Fin cfg7.N) :
    win7_1.index t (0 : Fin 3) = t.val % 196 ∧ win7_1.index t (1 : Fin 3) = 0 ∧ win7_1.index t (2 : Fin 3) = 0 := by
  refine ⟨?_, rfl, rfl⟩
  show (BitVec.ofNat 32 (grid7.coords t 1).val).toNat = _
  rw [BitVec.toNat_ofNat, coords_chunk]
  show t.val % 196 % 4294967296 = t.val % 196
  omega

/-- The result's block at a point is block (tile, 0). -/
theorem index_out (t : Fin cfg7.N) :
    win7_2.index t (0 : Fin 2) = t.val / 196 ∧ win7_2.index t (1 : Fin 2) = 0 := by
  have hN := point_lt t
  refine ⟨?_, rfl⟩
  show (BitVec.ofNat 32 (grid7.coords t 0).val).toNat = _
  rw [BitVec.toNat_ofNat, coords_tile]
  show t.val / 196 % 4294967296 = t.val / 196
  omega

/-! ## The input blocks as rows of their arrays -/

/-- The chunk's row indices are row chunk of the row-index array. -/
theorem rows_apply (c : Dev nD) (t : Fin cfg7.N) (e : Fin 8192) (ch : Fin 196) (hch : ch.val = t.val % 196) :
    (rowsBlk V c t) (ix3 (0 : Fin 1) (0 : Fin 1) e)
      = (V c main_v99 : S196x1x8192.Idx → BitVec 32) (ix3 ch (0 : Fin 1) e) := by
  obtain ⟨i0, i1, i2⟩ := index_rows t
  unfold rowsBlk iblk
  rw [View.read_apply]
  show (V c main_v99 : S196x1x8192.Idx → BitVec 32) _ = _
  congr 1
  funext a
  apply Fin.ext
  match a with
  | ⟨0, _⟩ => show win7_0.index t (0 : Fin 3) * 1 + 1 * 0 = ch.val; rw [i0, hch]; omega
  | ⟨1, _⟩ => show win7_0.index t (1 : Fin 3) * 1 + 1 * 0 = 0; rw [i1]
  | ⟨2, _⟩ => show win7_0.index t (2 : Fin 3) * 8192 + 1 * e.val = e.val; rw [i2]; omega

/-- The chunk's gathered rows are row chunk of the gathered array. -/
theorem wg_apply (c : Dev nD) (t : Fin cfg7.N) (e : Fin 8192) (q : Fin 64) (ch : Fin 196) (hch : ch.val = t.val % 196) :
    (wgBlk V c t) (ix3 (0 : Fin 1) e q)
      = (V c main_v100 : S196x8192x64.Idx → EReal) (ix3 ch e q) := by
  obtain ⟨i0, i1, i2⟩ := index_wg t
  unfold wgBlk iblk
  rw [View.read_apply]
  show (V c main_v100 : S196x8192x64.Idx → EReal) _ = _
  congr 1
  funext a
  apply Fin.ext
  match a with
  | ⟨0, _⟩ => show win7_1.index t (0 : Fin 3) * 1 + 1 * 0 = ch.val; rw [i0, hch]; omega
  | ⟨1, _⟩ => show win7_1.index t (1 : Fin 3) * 8192 + 1 * e.val = e.val; rw [i1]; omega
  | ⟨2, _⟩ => show win7_1.index t (2 : Fin 3) * 64 + 1 * q.val = q.val; rw [i2]; omega

/-! ## The accumulator along a tile's chunks -/

/-- The vector a tile's first chunk resets the accumulator to is zero. -/
theorem reset_apply (x : S1024x64.Idx) : (k7_pay1 (F := Ideal)) x = 0 := by
  show shapeCast S1024x64 (broadcast S1024x64 (Scalar.ofBits .f32 0x00000000#32 : Ideal .f32)) shapeCasts_S1024x64_S1024x64 x = 0
  rw [shapeCast_self]
  exact Ideal.ofBits_zero_f32

/-- What chunk `s` adds to node `node`'s entry at feature `q`: the chunk's gathered rows whose row index, read
    unsigned, is the node. -/
def chunkAdd (c : Dev nD) (node : ℕ) (q : Fin 64) (s : ℕ) : EReal :=
  if h : s < 196 then
    ∑ e : Fin 8192, if ((V c main_v99 : S196x1x8192.Idx → BitVec 32) (ix3 (⟨s, h⟩ : Fin 196) (0 : Fin 1) e)).toNat = node
      then (V c main_v100 : S196x8192x64.Idx → EReal) (ix3 (⟨s, h⟩ : Fin 196) e q) else 0
  else 0

/-- One point's step at an entry: what the accumulator held (zero at a tile's first chunk) plus the chunk's addend. -/
theorem accAt_succ_apply (c : Dev nD) (m : ℕ) (hm : m < cfg7.N) (p : Fin 1024) (q : Fin 64) :
    accAt V c (m + 1) (ix2 p q)
      = (if m % 196 = 0 then 0 else accAt V c m (ix2 p q)) + chunkAdd V c (1024 * (m / 196) + p.val) q (m % 196) := by
  have hN : m < 19208 := Nat.lt_of_lt_of_eq hm N_7
  have hp : p.val < 1024 := p.isLt
  have h32 : (2 : ℕ) ^ 32 = 4294967296 := by norm_num
  have hct : (grid7.coords (⟨m, hm⟩ : Fin cfg7.N) 0).val = m / 196 := coords_tile ⟨m, hm⟩
  show (if h : m < cfg7.N then accStep V c ⟨m, h⟩ (accAt V c m) else (k7_pay1 (F := Ideal))) (ix2 p q) = _
  rw [dif_pos hm]
  unfold accStep
  refine (step_apply _ _ _ _ p q (by rw [hct, h32]; omega)).trans ?_
  congr 1
  · show (if m % 196 = 0 then (k7_pay1 (F := Ideal)) else accAt V c m) (ix2 p q) = _
    split
    · exact reset_apply _
    · rfl
  · rw [hct]
    unfold chunkAdd
    rw [dif_pos (Nat.mod_lt m (by decide))]
    refine Finset.sum_congr rfl fun e _ => ?_
    rw [rows_apply V c ⟨m, hm⟩ e ⟨m % 196, Nat.mod_lt m (by decide)⟩ rfl,
      wg_apply V c ⟨m, hm⟩ e q ⟨m % 196, Nat.mod_lt m (by decide)⟩ rfl]

/-- After the first `n + 1` chunks of tile `tile` the accumulator is the sum of their addends. -/
theorem accAt_run (c : Dev nD) (tile : ℕ) (htile : tile < 98) (p : Fin 1024) (q : Fin 64) :
    ∀ n, n < 196 → ∀ m, m = 196 * tile + n →
      accAt V c (m + 1) (ix2 p q) = ∑ s ∈ Finset.range (n + 1), chunkAdd V c (1024 * tile + p.val) q s
  | 0, _, m, hm => by
    have hmN : m < cfg7.N := by rw [show cfg7.N = 19208 from N_7]; omega
    rw [accAt_succ_apply V c m hmN p q, show m % 196 = 0 by omega, show m / 196 = tile by omega, if_pos rfl, zero_add,
      Finset.sum_range_one]
  | n + 1, hn, m, hm => by
    have hmN : m < cfg7.N := by rw [show cfg7.N = 19208 from N_7]; omega
    obtain ⟨m', rfl⟩ : ∃ m', m = m' + 1 := ⟨196 * tile + n, by omega⟩
    rw [accAt_succ_apply V c (m' + 1) hmN p q, show (m' + 1) % 196 = n + 1 by omega, show (m' + 1) / 196 = tile by omega,
      if_neg (Nat.succ_ne_zero n), accAt_run c tile htile p q n (by omega) m' (by omega), Finset.sum_range_succ _ (n + 1)]

/-- Node `node`'s entry at feature `q` over all chunks: the gathered rows of the edges whose row index, read unsigned,
    is the node, summed. -/
def scat (c : Dev nD) (node : ℕ) (q : Fin 64) : EReal :=
  ∑ ch : Fin 196, ∑ e : Fin 8192,
    (if ((V c main_v99 : S196x1x8192.Idx → BitVec 32) (ix3 ch (0 : Fin 1) e)).toNat = node
      then (V c main_v100 : S196x8192x64.Idx → EReal) (ix3 ch e q) else 0)

/-- After a tile's last chunk the accumulator holds, at (p, q), node 1024 * tile + p's entry. -/
theorem after_last (c : Dev nD) (t : Fin cfg7.N) (hl : t.val % 196 = 195) (p : Fin 1024) (q : Fin 64) :
    accAt V c (t.val + 1) (ix2 p q) = scat V c (1024 * (t.val / 196) + p.val) q := by
  have hN := point_lt t
  rw [accAt_run V c (t.val / 196) (by omega) p q 195 (by decide) t.val (by omega)]
  show ∑ s ∈ Finset.range 196, chunkAdd V c (1024 * (t.val / 196) + p.val) q s = _
  rw [Finset.sum_range]
  unfold scat
  refine Finset.sum_congr rfl fun ch _ => ?_
  unfold chunkAdd
  rw [dif_pos ch.isLt]

/-! ## From the blocks to the array -/

/-- The result array, as one function of the row indices and the gathered rows. -/
def G (c : Dev nD) : S100352x64.Idx → EReal := fun i => scat V c (i 0).val ⟨(i 1).val, idx2_lt1 i⟩

theorem G_apply (c : Dev nD) (i : S100352x64.Idx) (node : ℕ) (q : Fin 64) (h0 : (i 0).val = node) (h1 : (i 1).val = q.val) :
    G V c i = scat V c node q := by
  unfold G
  rw [h0]
  congr 1
  exact Fin.ext h1

/-- An index of the result array is in a point's block iff each coordinate is in the block's range on its axis. -/
theorem mem_blk_out (t : Fin cfg7.N) (i : S100352x64.Idx) :
    i ∈ ((cfg7.win 2).blk t).view.set ↔ ∀ a : Fin 2, win7_2.index t a * S1024x64.size a ≤ (i a).val ∧ (i a).val < win7_2.index t a * S1024x64.size a + S1024x64.size a := by
  show i ∈ ((View.whole main_v101).slice (win7_2.rect t)).set ↔ _
  rw [View.set_slice_whole, Rect.mem_set_unit]
  exact Iff.rfl

/-- Every index of the result array is in the block of its tile's last point. -/
theorem cover_out (i : S100352x64.Idx) :
    ∃ t : Fin cfg7.N, (cfg7.win 2).flush t = true ∧ i ∈ ((cfg7.win 2).blk t).view.set := by
  have h0 : (i 0).val < 100352 := idx2_lt0 i
  have h1 : (i 1).val < 64 := idx2_lt1 i
  have hlt : 196 * ((i 0).val / 1024) + 195 < cfg7.N := by rw [show cfg7.N = 19208 from N_7]; omega
  refine ⟨⟨196 * ((i 0).val / 1024) + 195, hlt⟩, (flush7_2 _).mpr (by show (196 * ((i 0).val / 1024) + 195) % 196 = 195; omega), ?_⟩
  obtain ⟨i0, i1⟩ := index_out ⟨196 * ((i 0).val / 1024) + 195, hlt⟩
  rw [mem_blk_out]
  intro a
  match a with
  | ⟨0, _⟩ =>
    show win7_2.index ⟨196 * ((i 0).val / 1024) + 195, hlt⟩ (0 : Fin 2) * 1024 ≤ (i 0).val
      ∧ (i 0).val < win7_2.index ⟨196 * ((i 0).val / 1024) + 195, hlt⟩ (0 : Fin 2) * 1024 + 1024
    rw [i0]
    show (196 * ((i 0).val / 1024) + 195) / 196 * 1024 ≤ (i 0).val ∧ (i 0).val < (196 * ((i 0).val / 1024) + 195) / 196 * 1024 + 1024
    omega
  | ⟨1, _⟩ =>
    show win7_2.index ⟨196 * ((i 0).val / 1024) + 195, hlt⟩ (1 : Fin 2) * 64 ≤ (i 1).val
      ∧ (i 1).val < win7_2.index ⟨196 * ((i 0).val / 1024) + 195, hlt⟩ (1 : Fin 2) * 64 + 64
    rw [i1]
    omega

/-- What a tile's last point writes back is its block of `G`. -/
theorem flushed_eq (c : Dev nD) (t : Fin cfg7.N) (hf : (cfg7.win 2).flush t = true) :
    (dat V c).flushed 2 t = ((cfg7.win 2).blk t).view.read (Elt Ideal) (G V c) := by
  have hl : t.val % 196 = 195 := (flush7_2 t).mp hf
  obtain ⟨i0, i1⟩ := index_out t
  show (cfg7.win 2).cut (grid7.coords t) ((dat V c).after 2 t) = _
  rw [after_out]
  funext y
  obtain ⟨p, q, rfl⟩ : ∃ (p : Fin 1024) (q : Fin 64), y = ix2 p q := ⟨y 0, y 1, @eq_ix2 1024 64 y⟩
  rw [View.read_apply]
  show accAt V c (t.val + 1) (ix2 p q) = G V c (((cfg7.win 2).blk t).view.emb (ix2 p q))
  rw [after_last V c t hl p q]
  refine (G_apply V c _ _ q ?_ ?_).symm
  · show win7_2.index t (0 : Fin 2) * 1024 + 1 * p.val = 1024 * (t.val / 196) + p.val
    rw [i0]; omega
  · show win7_2.index t (1 : Fin 2) * 64 + 1 * q.val = q.val
    rw [i1]; omega

/-- So the result array ends holding `G`. -/
theorem out_eq (c : Dev nD) : (dat V c).arrAt 2 cfg7.N = G V c :=
  (dat V c).arrAt_eq_of_cover 2 (G V c) (flushed_eq V c) cover_out

/-- THE RESULT ARRAY, ENTRY BY ENTRY: node's row is the sum, over all chunks, of the gathered weighted rows of the edges whose
    row index, read unsigned, is that node. -/
theorem out_apply (c : Dev nD) (node : Fin 100352) (j : Fin 64) :
    ((dat V c).arrAt 2 cfg7.N : S100352x64.Idx → EReal) (ix2 node j)
      = (∑ ch : Fin 196, ∑ e : Fin 8192,
          (if ((V c main_v99 : S196x1x8192.Idx → BitVec 32) (ix3 ch (0 : Fin 1) e)).toNat = node.val
            then (V c main_v100 : S196x8192x64.Idx → EReal) (ix3 ch e j) else 0) : EReal) := by
  rw [out_eq V c]
  rfl

end Cert.KernelIdeal.Hand.R7

end
-- ==== Proof.KI.R8Val.lean ====
/-
  What this gather launch (grid: 98 edge chunks x 49 node tiles, the node tile innermost) leaves in its result array,
  entry by entry, over the extended reals, on any contents `V` of the unscoped buffers at its entry: entry (ch, e, j) is
  feature j of the row of the padded feature table (50176 = 49 * 1024 rows) that the column word of edge e of chunk ch
  names, read unsigned (the zero row when the word names no row of the table), times the edge's weight.

  The road. At a point (chunk, tile) the body adds to the accumulator the product of the chunk's one-hot matrix against the
  tile with the tile's 1024 feature rows; over the extended reals entry (e, j) of that product is the sum over the tile's
  nodes k of [the edge's column word is node 1024 * tile + k] * feature j of that node, and at most one term is not zero:
  the product's entry is feature j of the row the word names when that node lies in the tile, and 0 otherwise
  (`pay2_apply`, `tile_sum`). So after tile n of a chunk the accumulator's entry holds the selected row's feature if the
  row lies in the tiles up to n, and 0 otherwise (`accAt_chunk`, by induction on the tile; the first tile starts from the
  zero matrix); after the last tile that is the selected row of the whole padded table. The last tile stores the
  accumulator times the broadcast weight column (`pay3_apply`) as the chunk's block of the result, and the chunks' blocks
  cover the result array (`flushed_eq`, `out_eq`).
-/
import proofs.«130096_j52458730553647_1_alg».proof.Proof.KI.R8
import proofs.«130096_j52458730553647_1_alg».proof.Proof.Spmm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R8

open Cert.KernelIdeal Cert.KernelIdeal.Gen Cert.KernelIdeal.Hand.Sched
open Idealize.ShloMosaic Idealize.ShloMosaic.TcCoe Idealize.ShloMosaic.ValueIdx
open Idealize.ShloMosaic.Pipeline (Dat)
open Cert.Hand (rowOr0 rowOr0_of_lt rowOr0_of_ge)
open scoped BigOperators

/-! ## Layout operations the body uses, read at an index -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, k)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

end Layout

/-! ## The body's three stored values, read at an index, over the extended reals -/

/-- The reset stores the zero matrix. -/
theorem pay1_apply (i : S8192x64.Idx) : (k8_pay1 (F := Ideal)) i = 0 := by
  unfold k8_pay1
  rw [shapeCast_self]
  exact Ideal.ofBits_zero_f32

/-- A comparison and a sum of integer vectors at an index are the words' comparison and sum. -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = x i + y i := rfl

/-- A one-hot entry: the comparison bit, widened and converted, is 1 where the two words agree and 0 elsewhere. -/
theorem onehot_entry (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by
      show (BitVec.ofBool (a == a)).setWidth 32 = 1#32
      rw [beq_self_eq_true]; decide
    rw [e]
    show (((1#32 : BitVec 32).toInt : ℝ) : EReal) = 1
    norm_num
  · rw [if_neg h]
    have e : (IntOp.cmpi .eq a b).setWidth 32 = 0#32 := by
      show (BitVec.ofBool (a == b)).setWidth 32 = 0#32
      rw [beq_false_of_ne h]; decide
    rw [e]
    show (((0#32 : BitVec 32).toInt : ℝ) : EReal) = 0
    norm_num

/-- The word the body compares a column index with at column `k` of node tile `tile`: `k` plus the tile's first node. -/
abbrev nodeWord (tile k : ℕ) : BitVec 32 := BitVec.ofNat 32 k + BitVec.ofNat 32 tile * 1024#32

/-- The product's operand indices at result entry `(e, j)` and contraction position `q`: `(e, q)` and `(q, j)`. -/
theorem lhs_dot_free (i : S8192x64.Idx) (q : dot_S8192x1024_S1024x64_S8192x64_1_0_0_1_n_n.contr.Idx) :
    (dot_S8192x1024_S1024x64_S8192x64_1_0_0_1_n_n.lhsIdx i q 0).val = (i 0).val := by
  unfold DotDims.lhsIdx
  rw [dif_neg (show ¬(0 : Fin S8192x1024.rank) ∈ dot_S8192x1024_S1024x64_S8192x64_1_0_0_1_n_n.lhsBatch by decide),
    dif_pos (show (0 : Fin S8192x1024.rank) ∈ dot_S8192x1024_S1024x64_S8192x64_1_0_0_1_n_n.lhsNonContracting by decide)]
  rfl
theorem lhs_dot_contr (i : S8192x64.Idx) (q : dot_S8192x1024_S1024x64_S8192x64_1_0_0_1_n_n.contr.Idx) :
    (dot_S8192x1024_S1024x64_S8192x64_1_0_0_1_n_n.lhsIdx i q 1).val = (q ⟨0, by decide⟩).val :=
  dot_S8192x1024_S1024x64_S8192x64_1_0_0_1_n_n.lhsIdx_val_of_single rfl i q
theorem rhs_dot_contr (i : S8192x64.Idx) (q : dot_S8192x1024_S1024x64_S8192x64_1_0_0_1_n_n.contr.Idx) :
    (dot_S8192x1024_S1024x64_S8192x64_1_0_0_1_n_n.rhsIdx i q 0).val = (q ⟨0, by decide⟩).val :=
  dot_S8192x1024_S1024x64_S8192x64_1_0_0_1_n_n.rhsIdx_val_of_single rfl i q
theorem rhs_dot_free (i : S8192x64.Idx) (q : dot_S8192x1024_S1024x64_S8192x64_1_0_0_1_n_n.contr.Idx) :
    (dot_S8192x1024_S1024x64_S8192x64_1_0_0_1_n_n.rhsIdx i q 1).val = (i 1).val := by
  unfold DotDims.rhsIdx
  rw [dif_neg (show ¬(1 : Fin S1024x64.rank) ∈ dot_S8192x1024_S1024x64_S8192x64_1_0_0_1_n_n.rhsBatch by decide),
    dif_pos (show (1 : Fin S1024x64.rank) ∈ dot_S8192x1024_S1024x64_S8192x64_1_0_0_1_n_n.rhsNonContracting by decide)]
  rfl

/-- The accumulating store at entry `(e, j)`: the accumulator there plus, over the tile's 1024 nodes, the one-hot entry
    (1 where edge `e`'s column word is the node's) times the node's feature `j`. -/
theorem pay2_apply (i : grid8.Coords) (cols : Vec Ideal S1x1x8192 .i32) (feat : Vec Ideal S1024x64 .f32)
    (acc : Vec Ideal S8192x64 .f32) (e : Fin 8192) (j : Fin 64) :
    k8_pay2 i cols feat acc (ix2 e j)
      = acc (ix2 e j) + ∑ k : Fin 1024,
          (if cols (ix3 (0 : Fin 1) (0 : Fin 1) e) = nodeWord (i 1).val k.val then (1 : EReal) else 0) * feat (ix2 k j) := by
  unfold k8_pay2
  rw [shapeCast_self, addf_apply, shapeCast_self]
  refine congrArg (acc (ix2 e j) + ·) ?_
  simp only [matmul]
  rw [Ideal.matmul_constant_zero_apply,
    ← Equiv.sum_comp (contrEquiv1 dot_S8192x1024_S1024x64_S8192x64_1_0_0_1_n_n 1024 rfl rfl).symm]
  refine Finset.sum_congr rfl fun k _ => ?_
  have hk := contrEquiv1_symm_val dot_S8192x1024_S1024x64_S8192x64_1_0_0_1_n_n 1024 rfl rfl k
  have el : dot_S8192x1024_S1024x64_S8192x64_1_0_0_1_n_n.lhsIdx (ix2 e j)
      ((contrEquiv1 dot_S8192x1024_S1024x64_S8192x64_1_0_0_1_n_n 1024 rfl rfl).symm k) = ix2 e k :=
    funext fun a => Fin.ext (by
      match a with
      | ⟨0, _⟩ => exact lhs_dot_free _ _
      | ⟨1, _⟩ => exact (lhs_dot_contr _ _).trans hk)
  have er : dot_S8192x1024_S1024x64_S8192x64_1_0_0_1_n_n.rhsIdx (ix2 e j)
      ((contrEquiv1 dot_S8192x1024_S1024x64_S8192x64_1_0_0_1_n_n 1024 rfl rfl).symm k) = ix2 k j :=
    funext fun a => Fin.ext (by
      match a with
      | ⟨0, _⟩ => exact (rhs_dot_contr _ _).trans hk
      | ⟨1, _⟩ => exact rhs_dot_free _ _)
  rw [el, er, truncf_apply, truncf_apply, sitofp_apply, extui_apply, cmpi_apply, onehot_entry, addi_apply,
    broadcastTo_a1_ab_apply, shapeCast_a_a1_apply, shapeCast_11a_a_apply, iota_single_apply, broadcast_apply]
  rfl

/-- The scaled store at entry `(0, e, j)`: the accumulator's entry `(e, j)` times edge `e`'s weight. -/
theorem pay3_apply (vals : Vec Ideal S1x1x8192 .f32) (acc : Vec Ideal S8192x64 .f32) (u : Fin 1) (e : Fin 8192) (j : Fin 64) :
    k8_pay3 vals acc (ix3 u e j) = acc (ix2 e j) * vals (ix3 (0 : Fin 1) (0 : Fin 1) e) := by
  unfold k8_pay3
  rw [shapeCast_ab_1ab_apply, mulf_apply, broadcastTo_a1_ab_apply, shapeCast_a_a1_apply, shapeCast_11a_a_apply]

/-! ## One node tile's product, and the tiles before a point -/

/-- The compared word is node `1024 * tile + k` as a number, as long as that is below 2^32. -/
theorem nodeWord_toNat {tile k : ℕ} (h : 1024 * tile + k < 4294967296) : (nodeWord tile k).toNat = 1024 * tile + k := by
  show (BitVec.ofNat 32 k + BitVec.ofNat 32 tile * BitVec.ofNat 32 1024).toNat = _
  rw [BitVec.toNat_add, BitVec.toNat_mul, BitVec.toNat_ofNat, BitVec.toNat_ofNat, BitVec.toNat_ofNat]
  omega

theorem eq_nodeWord_iff (w : BitVec 32) {tile k : ℕ} (h : 1024 * tile + k < 4294967296) :
    w = nodeWord tile k ↔ w.toNat = 1024 * tile + k := by
  rw [← BitVec.toNat_inj, nodeWord_toNat h]

/-- One node tile's product at feature `j`, for an edge whose column word is `w`: the one-hot row selects the feature row
    the word names when that node lies in the tile (`feat` holds the table's rows `1024 * tile …`), and nothing otherwise. -/
theorem tile_sum (x : Fin 50176 → Fin 64 → EReal) (tile : ℕ) (htile : tile < 49) (feat : Vec Ideal S1024x64 .f32)
    (hfeat : ∀ (k : Fin 1024) (j : Fin 64), feat (ix2 k j) = x ⟨1024 * tile + k.val, by have := k.isLt; omega⟩ j)
    (w : BitVec 32) (j : Fin 64) :
    ∑ k : Fin 1024, (if w = nodeWord tile k.val then (1 : EReal) else 0) * feat (ix2 k j)
      = if 1024 * tile ≤ w.toNat ∧ w.toNat < 1024 * tile + 1024 then rowOr0 x w.toNat j else 0 := by
  by_cases hw : 1024 * tile ≤ w.toNat ∧ w.toNat < 1024 * tile + 1024
  · rw [if_pos hw]
    have hkw : w.toNat - 1024 * tile < 1024 := by omega
    rw [Finset.sum_eq_single (⟨w.toNat - 1024 * tile, hkw⟩ : Fin 1024)]
    · have hsel : w = nodeWord tile (w.toNat - 1024 * tile) := (eq_nodeWord_iff w (by omega)).mpr (by omega)
      rw [if_pos hsel, one_mul, hfeat, rowOr0_of_lt x (show w.toNat < 50176 by omega)]
      exact congrArg (fun q => x q j) (Fin.ext (by show 1024 * tile + (w.toNat - 1024 * tile) = w.toNat; omega))
    · intro k _ hk
      have hne : ¬w = nodeWord tile k.val := fun h => hk (Fin.ext (by
        have := (eq_nodeWord_iff w (by have := k.isLt; omega)).mp h
        show k.val = w.toNat - 1024 * tile; omega))
      rw [if_neg hne, zero_mul]
    · intro h; exact absurd (Finset.mem_univ _) h
  · rw [if_neg hw]
    refine Finset.sum_eq_zero fun k _ => ?_
    have hne : ¬w = nodeWord tile k.val := fun h => hw (by
      have := (eq_nodeWord_iff w (by have := k.isLt; omega)).mp h
      have := k.isLt
      omega)
    rw [if_neg hne, zero_mul]

/-- The selected feature row as far as the node tiles before tile `n` supply it: the row the word names when that node lies
    in one of those tiles, the zero row otherwise. -/
def partRow (x : Fin 50176 → Fin 64 → EReal) (n q : ℕ) (j : Fin 64) : EReal := if q < 1024 * n then rowOr0 x q j else 0

theorem partRow_zero (x : Fin 50176 → Fin 64 → EReal) (q : ℕ) (j : Fin 64) : partRow x 0 q j = 0 := by
  unfold partRow; rw [if_neg (by omega)]

theorem partRow_succ (x : Fin 50176 → Fin 64 → EReal) (n q : ℕ) (j : Fin 64) :
    partRow x (n + 1) q j = partRow x n q j + (if 1024 * n ≤ q ∧ q < 1024 * n + 1024 then rowOr0 x q j else 0) := by
  unfold partRow
  by_cases hib : q < 1024 * n
  · rw [if_pos hib, if_pos (by omega), if_neg (by omega), add_zero]
  · by_cases hic : q < 1024 * (n + 1)
    · rw [if_neg hib, if_pos hic, if_pos (by omega), zero_add]
    · rw [if_neg hib, if_neg hic, if_neg (by omega), zero_add]

/-- All 49 tiles supply the whole table: a word past the table names the zero row. -/
theorem partRow_last (x : Fin 50176 → Fin 64 → EReal) (q : ℕ) (j : Fin 64) : partRow x 49 q j = rowOr0 x q j := by
  unfold partRow
  by_cases h : q < 1024 * 49
  · rw [if_pos h]
  · rw [if_neg h, rowOr0_of_ge x (by omega)]

/-! ## The blocks a point reads, as entries of the arrays the region finds -/

variable (V : (c : Dev nD) → (b : Ref sig .tc) → Buf (Elt Ideal) ((c : Thread nD τ).loc b))

/-- The padded feature table, the column words and the edge weights as the region finds them. -/
abbrev featTab (c : Dev nD) : Fin 50176 → Fin 64 → EReal :=
  fun q j => (V c main_v131 : S50176x64.Idx → EReal) (ix2 q j)
abbrev colWord (c : Dev nD) (ch : Fin 98) (e : Fin 8192) : BitVec 32 :=
  (V c main_v132 : S98x1x8192.Idx → BitVec 32) (ix3 ch (0 : Fin 1) e)
abbrev weight (c : Dev nD) (ch : Fin 98) (e : Fin 8192) : EReal :=
  (V c main_v133 : S98x1x8192.Idx → EReal) (ix3 ch (0 : Fin 1) e)

/-- A point's coordinates: its chunk is the quotient and its node tile the remainder by the number of tiles. -/
theorem coords_chunk (t : Fin cfg8.N) : ((grid8.coords t) 0).val = t.val / 49 := by
  have hN : cfg8.N = 4802 := N_8
  have ht := t.isLt
  have hs : grid8.stride 0 = 49 := by decide
  show t.val / grid8.stride 0 % 98 = t.val / 49
  rw [hs]; omega

theorem coords_tile (t : Fin cfg8.N) : ((grid8.coords t) 1).val = t.val % 49 := by
  have hs : grid8.stride 1 = 1 := by decide
  show t.val / grid8.stride 1 % 49 = t.val % 49
  rw [hs, Nat.div_one]

/-- The block indices at a point: the chunk's row of the column words and of the weights and of the result, the node
    tile's rows of the feature table. -/
theorem index_cols (t : Fin cfg8.N) : win8_0.index t 0 = t.val / 49 ∧ win8_0.index t 1 = 0 ∧ win8_0.index t 2 = 0 := by
  have hN : cfg8.N = 4802 := N_8
  have ht := t.isLt
  refine ⟨?_, rfl, rfl⟩
  show (BitVec.ofNat 32 ((grid8.coords t) 0).val).toNat = _
  rw [BitVec.toNat_ofNat, coords_chunk]; omega

theorem index_vals (t : Fin cfg8.N) : win8_1.index t 0 = t.val / 49 ∧ win8_1.index t 1 = 0 ∧ win8_1.index t 2 = 0 := by
  have hN : cfg8.N = 4802 := N_8
  have ht := t.isLt
  refine ⟨?_, rfl, rfl⟩
  show (BitVec.ofNat 32 ((grid8.coords t) 0).val).toNat = _
  rw [BitVec.toNat_ofNat, coords_chunk]; omega

theorem index_feat (t : Fin cfg8.N) : win8_2.index t 0 = t.val % 49 ∧ win8_2.index t 1 = 0 := by
  refine ⟨?_, rfl⟩
  show (BitVec.ofNat 32 ((grid8.coords t) 1).val).toNat = _
  rw [BitVec.toNat_ofNat, coords_tile]; omega

theorem index_out (t : Fin cfg8.N) : win8_3.index t 0 = t.val / 49 ∧ win8_3.index t 1 = 0 ∧ win8_3.index t 2 = 0 := by
  have hN : cfg8.N = 4802 := N_8
  have ht := t.isLt
  refine ⟨?_, rfl, rfl⟩
  show (BitVec.ofNat 32 ((grid8.coords t) 0).val).toNat = _
  rw [BitVec.toNat_ofNat, coords_chunk]; omega

/-- The column-word block at a point is the chunk's row of the column words. -/
theorem colsBlk_apply (c : Dev nD) (t : Fin cfg8.N) (e : Fin 8192) (ch : Fin 98) (hch : ch.val = t.val / 49) :
    colsBlk V c t (ix3 (0 : Fin 1) (0 : Fin 1) e) = colWord V c ch e := by
  obtain ⟨hia, hib, hic⟩ := index_cols t
  show iblk V c 0 t _ = _
  unfold iblk
  rw [View.read_apply]
  show V c main_v132 _ = V c main_v132 _
  refine congrArg _ (funext fun a => Fin.ext ?_)
  match a with
  | ⟨0, _⟩ => show win8_0.index t 0 * 1 + 1 * 0 = ch.val; rw [hia, hch]; omega
  | ⟨1, _⟩ => show win8_0.index t 1 * 1 + 1 * 0 = 0; rw [hib]
  | ⟨2, _⟩ => show win8_0.index t 2 * 8192 + 1 * e.val = e.val; rw [hic]; omega

/-- The weight block at a point is the chunk's row of the weights. -/
theorem valsBlk_apply (c : Dev nD) (t : Fin cfg8.N) (e : Fin 8192) (ch : Fin 98) (hch : ch.val = t.val / 49) :
    valsBlk V c t (ix3 (0 : Fin 1) (0 : Fin 1) e) = weight V c ch e := by
  obtain ⟨hia, hib, hic⟩ := index_vals t
  show iblk V c 1 t _ = _
  unfold iblk
  rw [View.read_apply]
  show V c main_v133 _ = V c main_v133 _
  refine congrArg _ (funext fun a => Fin.ext ?_)
  match a with
  | ⟨0, _⟩ => show win8_1.index t 0 * 1 + 1 * 0 = ch.val; rw [hia, hch]; omega
  | ⟨1, _⟩ => show win8_1.index t 1 * 1 + 1 * 0 = 0; rw [hib]
  | ⟨2, _⟩ => show win8_1.index t 2 * 8192 + 1 * e.val = e.val; rw [hic]; omega

/-- The feature block at a point is the node tile's 1024 rows of the padded table. -/
theorem featBlk_apply (c : Dev nD) (t : Fin cfg8.N) (k : Fin 1024) (j : Fin 64) (q : Fin 50176)
    (hq : q.val = 1024 * (t.val % 49) + k.val) :
    featBlk V c t (ix2 k j) = featTab V c q j := by
  obtain ⟨hia, hib⟩ := index_feat t
  show iblk V c 2 t _ = _
  unfold iblk
  rw [View.read_apply]
  show V c main_v131 _ = V c main_v131 _
  refine congrArg _ (funext fun a => Fin.ext ?_)
  match a with
  | ⟨0, _⟩ => show win8_2.index t 0 * 1024 + 1 * k.val = q.val; rw [hia, hq]; omega
  | ⟨1, _⟩ => show win8_2.index t 1 * 64 + 1 * j.val = j.val; rw [hib]; omega

/-! ## The accumulator across a chunk's tiles -/

/-- One point of the recursion at entry `(e, j)`: if the accumulator the point starts from (the zero matrix at a chunk's
    first tile) holds what the tiles before `n` supply, the point leaves what the tiles before `n + 1` supply. -/
theorem accStep_apply (c : Dev nD) (ch : Fin 98) (n : ℕ) (hn : n < 49) (ht : 49 * ch.val + n < cfg8.N)
    (a : Vec Ideal S8192x64 .f32) (e : Fin 8192) (j : Fin 64)
    (ha : (if n = 0 then (k8_pay1 (F := Ideal)) else a) (ix2 e j) = partRow (featTab V c) n (colWord V c ch e).toNat j) :
    accStep V c ⟨49 * ch.val + n, ht⟩ a (ix2 e j) = partRow (featTab V c) (n + 1) (colWord V c ch e).toNat j := by
  have hmod : (49 * ch.val + n) % 49 = n := by omega
  have hdiv : (49 * ch.val + n) / 49 = ch.val := by omega
  unfold accStep
  refine (pay2_apply _ _ _ _ e j).trans ?_
  rw [partRow_succ]
  congr 1
  · show (if (49 * ch.val + n) % 49 = 0 then (k8_pay1 (F := Ideal)) else a) (ix2 e j) = _
    rw [hmod]; exact ha
  · rw [colsBlk_apply V c _ e ch hdiv.symm, coords_tile]
    show ∑ k : Fin 1024, (if colWord V c ch e = nodeWord ((49 * ch.val + n) % 49) k.val then (1 : EReal) else 0) * _ = _
    rw [hmod]
    exact tile_sum (featTab V c) n hn _ (fun k j => featBlk_apply V c _ k j _ (by show _ = 1024 * ((49 * ch.val + n) % 49) + k.val; rw [hmod])) _ j

/-- After tile `n` of chunk `ch` the accumulator's entry `(e, j)` holds what the tiles up to `n` supply of the row edge
    `e`'s column word names. -/
theorem accAt_chunk (c : Dev nD) (ch : Fin 98) (e : Fin 8192) (j : Fin 64) : ∀ n, n < 49 →
    accAt V c (49 * ch.val + n + 1) (ix2 e j) = partRow (featTab V c) (n + 1) (colWord V c ch e).toNat j
  | 0, hn => by
    have hN : cfg8.N = 4802 := N_8
    have hch := ch.isLt
    have ht : 49 * ch.val + 0 < cfg8.N := by omega
    refine (congrFun (accAt_succ V c ⟨49 * ch.val + 0, ht⟩) (ix2 e j)).trans ?_
    refine accStep_apply V c ch 0 hn ht _ e j ?_
    rw [if_pos rfl, pay1_apply, partRow_zero]
  | n + 1, hn => by
    have hN : cfg8.N = 4802 := N_8
    have hch := ch.isLt
    have ht : 49 * ch.val + (n + 1) < cfg8.N := by omega
    refine (congrFun (accAt_succ V c ⟨49 * ch.val + (n + 1), ht⟩) (ix2 e j)).trans ?_
    refine accStep_apply V c ch (n + 1) hn ht _ e j ?_
    rw [if_neg (Nat.succ_ne_zero n)]
    exact accAt_chunk c ch e j n (by omega)

/-! ## From the blocks to the result array -/

/-- The result array: entry `(ch, e, j)` is feature `j` of the row the edge's column word names, times the edge's weight. -/
def outArr (c : Dev nD) : S98x8192x64.Idx → EReal :=
  fun i => rowOr0 (featTab V c) (colWord V c (i 0) (i 1)).toNat (i 2) * weight V c (i 0) (i 1)

theorem outArr_apply (c : Dev nD) (i : S98x8192x64.Idx) (ch : Fin 98) (e : Fin 8192) (j : Fin 64)
    (hia : (i 0).val = ch.val) (hib : (i 1).val = e.val) (hic : (i 2).val = j.val) :
    outArr V c i = rowOr0 (featTab V c) (colWord V c ch e).toNat j * weight V c ch e := by
  obtain rfl : i = ix3 ch e j := funext fun a => Fin.ext (by
    match a with
    | ⟨0, _⟩ => exact hia
    | ⟨1, _⟩ => exact hib
    | ⟨2, _⟩ => exact hic)
  rfl

/-- What a chunk's last tile writes back is the chunk's block of the result array. -/
theorem flushed_eq (c : Dev nD) (t : Fin cfg8.N) (hf : (cfg8.win 3).flush t = true) :
    (dat V c).flushed 3 t = ((cfg8.win 3).blk t).view.read (Elt Ideal) (outArr V c) := by
  have hN : cfg8.N = 4802 := N_8
  have hlast : t.val % 49 = 48 := (flush8_3 t).mp hf
  have htl := t.isLt
  obtain ⟨hia, hib, hic⟩ := index_out t
  show (cfg8.win 3).cut (grid8.coords t) ((dat V c).after 3 t) = _
  rw [after_out]
  funext y
  obtain ⟨u, e, j, rfl⟩ : ∃ (u : Fin 1) (e : Fin 8192) (j : Fin 64), y = ix3 u e j := ⟨y 0, y 1, y 2, eq_ix3 y⟩
  show k8_pay3 (valsBlk V c t) (accAt V c (t.val + 1)) (ix3 u e j) = outArr V c (((cfg8.win 3).blk t).view.emb (ix3 u e j))
  have hu : u.val = 0 := by omega
  have hch : t.val / 49 < 98 := by omega
  rw [pay3_apply, outArr_apply V c _ ⟨t.val / 49, hch⟩ e j
    (by show win8_3.index t 0 * 1 + 1 * u.val = t.val / 49; rw [hia, hu]; omega)
    (by show win8_3.index t 1 * 8192 + 1 * e.val = e.val; rw [hib]; omega)
    (by show win8_3.index t 2 * 64 + 1 * j.val = j.val; rw [hic]; omega),
    valsBlk_apply V c t e ⟨t.val / 49, hch⟩ rfl]
  have hts : t.val + 1 = 49 * (t.val / 49) + 48 + 1 := by omega
  rw [hts, accAt_chunk V c ⟨t.val / 49, hch⟩ e j 48 (by omega), partRow_last]

/-- The result array after the region: the chunks' blocks cover it. -/
theorem out_eq (c : Dev nD) : (dat V c).arrAt 3 cfg8.N = outArr V c :=
  (dat V c).arrAt_eq_of_cover 3 (outArr V c) (flushed_eq V c) fun i => by
    have hN : cfg8.N = 4802 := N_8
    have hca : (i 0).val < 98 := (i 0).isLt
    have hcb : (i 1).val < 8192 := (i 1).isLt
    have hcc : (i 2).val < 64 := (i 2).isLt
    have ht : 49 * (i 0).val + 48 < cfg8.N := by omega
    obtain ⟨hia, hib, hic⟩ := index_out ⟨49 * (i 0).val + 48, ht⟩
    refine ⟨⟨49 * (i 0).val + 48, ht⟩, (flush8_3 _).mpr (by show (49 * (i 0).val + 48) % 49 = 48; omega), ?_⟩
    show i ∈ ((View.whole main_v135).slice (win8_3.rect ⟨49 * (i 0).val + 48, ht⟩)).set
    rw [View.set_slice_whole, Rect.mem_set_unit]
    intro a
    match a with
    | ⟨0, _⟩ =>
      show win8_3.index ⟨49 * (i 0).val + 48, ht⟩ 0 * 1 ≤ (i 0).val ∧ (i 0).val < win8_3.index ⟨49 * (i 0).val + 48, ht⟩ 0 * 1 + 1
      rw [hia]; show (49 * (i 0).val + 48) / 49 * 1 ≤ (i 0).val ∧ (i 0).val < (49 * (i 0).val + 48) / 49 * 1 + 1; omega
    | ⟨1, _⟩ =>
      show win8_3.index ⟨49 * (i 0).val + 48, ht⟩ 1 * 8192 ≤ (i 1).val ∧ (i 1).val < win8_3.index ⟨49 * (i 0).val + 48, ht⟩ 1 * 8192 + 8192
      rw [hib]; omega
    | ⟨2, _⟩ =>
      show win8_3.index ⟨49 * (i 0).val + 48, ht⟩ 2 * 64 ≤ (i 2).val ∧ (i 2).val < win8_3.index ⟨49 * (i 0).val + 48, ht⟩ 2 * 64 + 64
      rw [hic]; omega

/-- THE RESULT, entry by entry: entry `(ch, e, j)` of the region's result array is feature `j` of the padded table's row that
    the column word of edge `e` of chunk `ch` names (read unsigned; the zero row past the table), times the edge's weight. -/
theorem out_apply (c : Dev nD) (ch : Fin 98) (e : Fin 8192) (j : Fin 64) :
    ((dat V c).arrAt 3 cfg8.N : S98x8192x64.Idx → EReal) (ValueIdx.ix3 ch e j)
      = Cert.Hand.rowOr0 (fun (q : Fin 50176) (j : Fin 64) => (V c main_v131 : S50176x64.Idx → EReal) (ValueIdx.ix2 q j))
          ((V c main_v132 : S98x1x8192.Idx → BitVec 32) (ValueIdx.ix3 ch 0 e)).toNat j
        * (V c main_v133 : S98x1x8192.Idx → EReal) (ValueIdx.ix3 ch 0 e) := by
  rw [out_eq]
  rfl

end Cert.KernelIdeal.Hand.R8

end
-- ==== Proof.KI.R9Val.lean ====
/-
  What this scatter launch leaves in its result array, entry by entry, at the ideal values and on any contents `V` of the
  unscoped buffers at its entry: node's row is the sum, over all edge chunks, of the gathered weighted rows of the edges
  whose row index, read unsigned, is that node (`out_apply`).

  The steps. (1) One point's payload at an entry (p, q) of the accumulator: what the accumulator held plus the product of
  the one-hot matrix with the chunk's rows there. The one-hot entry (p, e) is 1 when the word of edge e equals the word
  of 1024 * tile + p, and that number is below 2^32, so the words agree iff the edge's row index, read unsigned, is that
  number; 1 * x = x and 0 * x = 0 in the extended reals, so the product's entry is the sum of the chunk's rows whose row
  index is node 1024 * tile + p (`step_apply`). (2) The grid is (tile, chunk), the chunk innermost: point t has tile
  t / 98 and chunk t % 98, the inputs' blocks at t are rows chunk of their arrays and the result's block is block
  (tile, 0) (`index_rows`, `index_wg`, `index_out`, `rows_apply`, `wg_apply`). (3) The accumulator is reset at a
  tile's first chunk and steps at every chunk, so after the tile's chunks 0 … n it holds the sum of their addends
  (`accAt_run`, by induction on n), and after the last chunk the whole sum (`after_last`). (4) The result's block is
  written back at each tile's last chunk and those blocks tile the array, so the array ends holding that sum at every
  entry (`flushed_eq`, `cover_out`, `out_eq`).
-/
import proofs.«130096_j52458730553647_1_alg».proof.Proof.KI.R9
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R9

open Cert.KernelIdeal Cert.KernelIdeal.Gen Cert.KernelIdeal.Hand.Sched
open Idealize.ShloMosaic Idealize.ShloMosaic.TcCoe Idealize.ShloMosaic.ValueIdx
open Idealize.SL Idealize.SL.RA
open Idealize.ShloMosaic.Pipeline (Dat Cfg Window)
open scoped BigOperators

/-! ## One point's payload at an entry -/

/-- A word is the sum of an offset's word and a base's word, the total below 2^32, iff its unsigned value is the total. -/
theorem word_eq_iff (tile p : ℕ) (h : 1024 * tile + p < 2 ^ 32) (x : BitVec 32) :
    (BitVec.ofNat 32 p + BitVec.ofNat 32 tile * 1024#32 = x) ↔ x.toNat = 1024 * tile + p := by
  have h' : 1024 * tile + p < 4294967296 := by simpa using h
  constructor
  · intro e
    subst e
    rw [BitVec.toNat_add, BitVec.toNat_mul, BitVec.toNat_ofNat, BitVec.toNat_ofNat]
    show (p % 4294967296 + tile % 4294967296 * 1024 % 4294967296) % 4294967296 = 1024 * tile + p
    omega
  · intro e
    apply BitVec.eq_of_toNat_eq
    rw [BitVec.toNat_add, BitVec.toNat_mul, BitVec.toNat_ofNat, BitVec.toNat_ofNat, e]
    show (p % 4294967296 + tile % 4294967296 * 1024 % 4294967296) % 4294967296 = 1024 * tile + p
    omega

/-- A comparison bit widened to a word and converted signed: 1 where the two words agree, 0 elsewhere. -/
theorem sitofp_extui_cmpi_eq (a b : BitVec 32) :
    (FloatOps.sitofp .f32 ((IntOp.cmpi .eq a b).setWidth 32) : Ideal .f32) = if a = b then (1 : EReal) else 0 := by
  show ((((IntOp.cmpi .eq a b).setWidth 32).toInt : ℝ) : EReal) = _
  by_cases h : a = b
  · subst h; rw [if_pos rfl]; simp [IntOp.cmpi]
  · have hb : (a == b) = false := beq_eq_false_iff_ne.mpr h
    rw [if_neg h]; simp [IntOp.cmpi, hb]

/-- A [1, 1, a] array cast to [a] reads, at i, the operand at (0, 0, i). -/
theorem shapeCast_unit_unit_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-! The product's operand indices, axis by axis: the left operand is read at (row, contraction position), the right at
    (contraction position, column). -/

theorem lhs_row (i : S1024x64.Idx) (q : dot_S1024x8192_S8192x64_S1024x64_1_0_0_1_n_n.contr.Idx) :
    (dot_S1024x8192_S8192x64_S1024x64_1_0_0_1_n_n.lhsIdx i q 0).val = (i 0).val := by
  unfold DotDims.lhsIdx
  rw [dif_neg (show ¬(0 : Fin S1024x8192.rank) ∈ dot_S1024x8192_S8192x64_S1024x64_1_0_0_1_n_n.lhsBatch by decide),
    dif_pos (show (0 : Fin S1024x8192.rank) ∈ dot_S1024x8192_S8192x64_S1024x64_1_0_0_1_n_n.lhsNonContracting by decide)]
  rfl

theorem lhs_contr (i : S1024x64.Idx) (q : dot_S1024x8192_S8192x64_S1024x64_1_0_0_1_n_n.contr.Idx) :
    (dot_S1024x8192_S8192x64_S1024x64_1_0_0_1_n_n.lhsIdx i q 1).val = (q ⟨0, by decide⟩).val :=
  dot_S1024x8192_S8192x64_S1024x64_1_0_0_1_n_n.lhsIdx_val_of_single rfl i q

theorem rhs_contr (i : S1024x64.Idx) (q : dot_S1024x8192_S8192x64_S1024x64_1_0_0_1_n_n.contr.Idx) :
    (dot_S1024x8192_S8192x64_S1024x64_1_0_0_1_n_n.rhsIdx i q 0).val = (q ⟨0, by decide⟩).val :=
  dot_S1024x8192_S8192x64_S1024x64_1_0_0_1_n_n.rhsIdx_val_of_single rfl i q

theorem rhs_col (i : S1024x64.Idx) (q : dot_S1024x8192_S8192x64_S1024x64_1_0_0_1_n_n.contr.Idx) :
    (dot_S1024x8192_S8192x64_S1024x64_1_0_0_1_n_n.rhsIdx i q 1).val = (i 1).val := by
  unfold DotDims.rhsIdx
  rw [dif_neg (show ¬(1 : Fin S8192x64.rank) ∈ dot_S1024x8192_S8192x64_S1024x64_1_0_0_1_n_n.rhsBatch by decide),
    dif_pos (show (1 : Fin S8192x64.rank) ∈ dot_S1024x8192_S8192x64_S1024x64_1_0_0_1_n_n.rhsNonContracting by decide)]
  rfl

/-- One entry of the one-hot matrix: 1 where the edge's row index is the tile's node p, 0 elsewhere. -/
theorem onehot_apply (tile : ℕ) (r : Vec Ideal S1x1x8192 .i32) (p : Fin 1024) (e : Fin 8192) (hb : 1024 * tile + p.val < 2 ^ 32) :
    (truncf .bf16
      (sitofp .f32
        (extui 32
          (cmpi .eq
            (addi (iota .tc S1024x8192 32 [0] iota_S1024x8192_d0_w32)
              (broadcast S1024x8192 (Scalar.muli (BitVec.ofNat 32 tile) 1024#32)))
            (broadcastTo S1024x8192
              (shapeCast S1x8192 (shapeCast S8192 r shapeCasts_S1x1x8192_S8192) shapeCasts_S8192_S1x8192)
              broadcasts_S1x8192_S1024x8192))
          natLt_1_32))
      bitsLt_bf16_f32 : FVec Ideal S1024x8192 .bf16) (ix2 p e)
      = if ((r (ix3 (0 : Fin 1) (0 : Fin 1) e) : BitVec 32)).toNat = 1024 * tile + p.val then (1 : EReal) else 0 := by
  have hrow : broadcastTo S1024x8192
      (shapeCast S1x8192 (shapeCast S8192 r shapeCasts_S1x1x8192_S8192) shapeCasts_S8192_S1x8192)
      broadcasts_S1x8192_S1024x8192 (ix2 p e) = r (ix3 (0 : Fin 1) (0 : Fin 1) e) := by
    rw [broadcastTo_1b_ab_apply, shapeCast_a_1a_apply, shapeCast_unit_unit_apply]
  show (FloatOps.sitofp .f32 ((IntOp.cmpi .eq
      (IntOp.addi (iota .tc S1024x8192 32 [0] iota_S1024x8192_d0_w32 (ix2 p e)) (Scalar.muli (BitVec.ofNat 32 tile) 1024#32))
      (broadcastTo S1024x8192
        (shapeCast S1x8192 (shapeCast S8192 r shapeCasts_S1x1x8192_S8192) shapeCasts_S8192_S1x8192)
        broadcasts_S1x8192_S1024x8192 (ix2 p e))).setWidth 32) : Ideal .f32) = _
  rw [hrow, iota_single_apply, sitofp_extui_cmpi_eq]
  exact if_congr (word_eq_iff tile p.val hb _) rfl rfl

/-- THE STEP AT AN ENTRY: the payload at (p, q) is what the accumulator held there plus the chunk's rows, at feature q, of
    the edges whose row index, read unsigned, is node 1024 * tile + p. -/
theorem step_apply (i : grid9.Coords) (r : Vec Ideal S1x1x8192 .i32) (w : Vec Ideal S1x8192x64 .f32) (a : Vec Ideal S1024x64 .f32)
    (p : Fin 1024) (q : Fin 64) (hb : 1024 * (i 0).val + p.val < 2 ^ 32) :
    k9_pay2 (F := Ideal) i r w a (ix2 p q)
      = a (ix2 p q) + ∑ e : Fin 8192,
          (if ((r (ix3 (0 : Fin 1) (0 : Fin 1) e) : BitVec 32)).toNat = 1024 * (i 0).val + p.val then (w (ix3 (0 : Fin 1) e q) : EReal) else 0) := by
  unfold k9_pay2
  dsimp only
  rw [shapeCast_self, addf_apply]
  congr 1
  refine (Ideal.matmul_constant_zero_apply dot_S1024x8192_S8192x64_S1024x64_1_0_0_1_n_n none _ _ (ix2 p q)).trans ?_
  rw [← Equiv.sum_comp (contrEquiv1 dot_S1024x8192_S8192x64_S1024x64_1_0_0_1_n_n 8192 rfl rfl).symm]
  refine Finset.sum_congr rfl fun k _ => ?_
  have hk := contrEquiv1_symm_val dot_S1024x8192_S8192x64_S1024x64_1_0_0_1_n_n 8192 rfl rfl k
  have el : dot_S1024x8192_S8192x64_S1024x64_1_0_0_1_n_n.lhsIdx (ix2 p q)
      ((contrEquiv1 dot_S1024x8192_S8192x64_S1024x64_1_0_0_1_n_n 8192 rfl rfl).symm k) = ix2 p k := funext fun ax => Fin.ext (by
    match ax with
    | ⟨0, _⟩ => exact lhs_row _ _
    | ⟨1, _⟩ => exact (lhs_contr _ _).trans hk)
  have er : dot_S1024x8192_S8192x64_S1024x64_1_0_0_1_n_n.rhsIdx (ix2 p q)
      ((contrEquiv1 dot_S1024x8192_S8192x64_S1024x64_1_0_0_1_n_n 8192 rfl rfl).symm k) = ix2 k q := funext fun ax => Fin.ext (by
    match ax with
    | ⟨0, _⟩ => exact (rhs_contr _ _).trans hk
    | ⟨1, _⟩ => exact rhs_col _ _)
  rw [el, er, onehot_apply (i 0).val r p k hb, truncf_apply, shapeCast_1ab_ab_apply]
  split
  · rw [one_mul]
  · rw [zero_mul]

variable (V : (c : Dev nD) → (b : Ref sig .tc) → Buf (Elt Ideal) ((c : Thread nD τ).loc b))

/-! ## The grid and the windows' block indices, read off the point's number -/

theorem point_lt (t : Fin cfg9.N) : t.val < 4802 := Nat.lt_of_lt_of_eq t.isLt N_9

/-- A point's tile is its number divided by the chunks per tile. -/
theorem coords_tile (t : Fin cfg9.N) : (grid9.coords t 0).val = t.val / 98 := by
  have hN := point_lt t
  show t.val / grid9.stride 0 % grid9.bound 0 = _
  rw [show grid9.stride 0 = 98 from by decide, show grid9.bound 0 = 49 from rfl]
  omega

/-- A point's chunk is its number modulo the chunks per tile. -/
theorem coords_chunk (t : Fin cfg9.N) : (grid9.coords t 1).val = t.val % 98 := by
  show t.val / grid9.stride 1 % grid9.bound 1 = _
  rw [show grid9.stride 1 = 1 from by decide, show grid9.bound 1 = 98 from rfl, Nat.div_one]

/-- The row indices' block at a point is block (chunk, 0, 0). -/
theorem index_rows (t : Fin cfg9.N) :
    win9_0.index t (0 : Fin 3) = t.val % 98 ∧ win9_0.index t (1 : Fin 3) = 0 ∧ win9_0.index t (2 : Fin 3) = 0 := by
  refine ⟨?_, rfl, rfl⟩
  show (BitVec.ofNat 32 (grid9.coords t 1).val).toNat = _
  rw [BitVec.toNat_ofNat, coords_chunk]
  show t.val % 98 % 4294967296 = t.val % 98
  omega

/-- The gathered rows' block at a point is block (chunk, 0, 0). -/
theorem index_wg (t : Fin cfg9.N) :
    win9_1.index t (0 : Fin 3) = t.val % 98 ∧ win9_1.index t (1 : Fin 3) = 0 ∧ win9_1.index t (2 : Fin 3) = 0 := by
  refine ⟨?_, rfl, rfl⟩
  show (BitVec.ofNat 32 (grid9.coords t 1).val).toNat = _
  rw [BitVec.toNat_ofNat, coords_chunk]
  show t.val % 98 % 4294967296 = t.val % 98
  omega

/-- The result's block at a point is block (tile, 0). -/
theorem index_out (t : Fin cfg9.N) :
    win9_2.index t (0 : Fin 2) = t.val / 98 ∧ win9_2.index t (1 : Fin 2) = 0 := by
  have hN := point_lt t
  refine ⟨?_, rfl⟩
  show (BitVec.ofNat 32 (grid9.coords t 0).val).toNat = _
  rw [BitVec.toNat_ofNat, coords_tile]
  show t.val / 98 % 4294967296 = t.val / 98
  omega

/-! ## The input blocks as rows of their arrays -/

/-- The chunk's row indices are row chunk of the row-index array. -/
theorem rows_apply (c : Dev nD) (t : Fin cfg9.N) (e : Fin 8192) (ch : Fin 98) (hch : ch.val = t.val % 98) :
    (rowsBlk V c t) (ix3 (0 : Fin 1) (0 : Fin 1) e)
      = (V c main_v134 : S98x1x8192.Idx → BitVec 32) (ix3 ch (0 : Fin 1) e) := by
  obtain ⟨i0, i1, i2⟩ := index_rows t
  unfold rowsBlk iblk
  rw [View.read_apply]
  show (V c main_v134 : S98x1x8192.Idx → BitVec 32) _ = _
  congr 1
  funext a
  apply Fin.ext
  match a with
  | ⟨0, _⟩ => show win9_0.index t (0 : Fin 3) * 1 + 1 * 0 = ch.val; rw [i0, hch]; omega
  | ⟨1, _⟩ => show win9_0.index t (1 : Fin 3) * 1 + 1 * 0 = 0; rw [i1]
  | ⟨2, _⟩ => show win9_0.index t (2 : Fin 3) * 8192 + 1 * e.val = e.val; rw [i2]; omega

/-- The chunk's gathered rows are row chunk of the gathered array. -/
theorem wg_apply (c : Dev nD) (t : Fin cfg9.N) (e : Fin 8192) (q : Fin 64) (ch : Fin 98) (hch : ch.val = t.val % 98) :
    (wgBlk V c t) (ix3 (0 : Fin 1) e q)
      = (V c main_v135 : S98x8192x64.Idx → EReal) (ix3 ch e q) := by
  obtain ⟨i0, i1, i2⟩ := index_wg t
  unfold wgBlk iblk
  rw [View.read_apply]
  show (V c main_v135 : S98x8192x64.Idx → EReal) _ = _
  congr 1
  funext a
  apply Fin.ext
  match a with
  | ⟨0, _⟩ => show win9_1.index t (0 : Fin 3) * 1 + 1 * 0 = ch.val; rw [i0, hch]; omega
  | ⟨1, _⟩ => show win9_1.index t (1 : Fin 3) * 8192 + 1 * e.val = e.val; rw [i1]; omega
  | ⟨2, _⟩ => show win9_1.index t (2 : Fin 3) * 64 + 1 * q.val = q.val; rw [i2]; omega

/-! ## The accumulator along a tile's chunks -/

/-- The vector a tile's first chunk resets the accumulator to is zero. -/
theorem reset_apply (x : S1024x64.Idx) : (k9_pay1 (F := Ideal)) x = 0 := by
  show shapeCast S1024x64 (broadcast S1024x64 (Scalar.ofBits .f32 0x00000000#32 : Ideal .f32)) shapeCasts_S1024x64_S1024x64 x = 0
  rw [shapeCast_self]
  exact Ideal.ofBits_zero_f32

/-- What chunk `s` adds to node `node`'s entry at feature `q`: the chunk's gathered rows whose row index, read
    unsigned, is the node. -/
def chunkAdd (c : Dev nD) (node : ℕ) (q : Fin 64) (s : ℕ) : EReal :=
  if h : s < 98 then
    ∑ e : Fin 8192, if ((V c main_v134 : S98x1x8192.Idx → BitVec 32) (ix3 (⟨s, h⟩ : Fin 98) (0 : Fin 1) e)).toNat = node
      then (V c main_v135 : S98x8192x64.Idx → EReal) (ix3 (⟨s, h⟩ : Fin 98) e q) else 0
  else 0

/-- One point's step at an entry: what the accumulator held (zero at a tile's first chunk) plus the chunk's addend. -/
theorem accAt_succ_apply (c : Dev nD) (m : ℕ) (hm : m < cfg9.N) (p : Fin 1024) (q : Fin 64) :
    accAt V c (m + 1) (ix2 p q)
      = (if m % 98 = 0 then 0 else accAt V c m (ix2 p q)) + chunkAdd V c (1024 * (m / 98) + p.val) q (m % 98) := by
  have hN : m < 4802 := Nat.lt_of_lt_of_eq hm N_9
  have hp : p.val < 1024 := p.isLt
  have h32 : (2 : ℕ) ^ 32 = 4294967296 := by norm_num
  have hct : (grid9.coords (⟨m, hm⟩ : Fin cfg9.N) 0).val = m / 98 := coords_tile ⟨m, hm⟩
  show (if h : m < cfg9.N then accStep V c ⟨m, h⟩ (accAt V c m) else (k9_pay1 (F := Ideal))) (ix2 p q) = _
  rw [dif_pos hm]
  unfold accStep
  refine (step_apply _ _ _ _ p q (by rw [hct, h32]; omega)).trans ?_
  congr 1
  · show (if m % 98 = 0 then (k9_pay1 (F := Ideal)) else accAt V c m) (ix2 p q) = _
    split
    · exact reset_apply _
    · rfl
  · rw [hct]
    unfold chunkAdd
    rw [dif_pos (Nat.mod_lt m (by decide))]
    refine Finset.sum_congr rfl fun e _ => ?_
    rw [rows_apply V c ⟨m, hm⟩ e ⟨m % 98, Nat.mod_lt m (by decide)⟩ rfl,
      wg_apply V c ⟨m, hm⟩ e q ⟨m % 98, Nat.mod_lt m (by decide)⟩ rfl]

/-- After the first `n + 1` chunks of tile `tile` the accumulator is the sum of their addends. -/
theorem accAt_run (c : Dev nD) (tile : ℕ) (htile : tile < 49) (p : Fin 1024) (q : Fin 64) :
    ∀ n, n < 98 → ∀ m, m = 98 * tile + n →
      accAt V c (m + 1) (ix2 p q) = ∑ s ∈ Finset.range (n + 1), chunkAdd V c (1024 * tile + p.val) q s
  | 0, _, m, hm => by
    have hmN : m < cfg9.N := by rw [show cfg9.N = 4802 from N_9]; omega
    rw [accAt_succ_apply V c m hmN p q, show m % 98 = 0 by omega, show m / 98 = tile by omega, if_pos rfl, zero_add,
      Finset.sum_range_one]
  | n + 1, hn, m, hm => by
    have hmN : m < cfg9.N := by rw [show cfg9.N = 4802 from N_9]; omega
    obtain ⟨m', rfl⟩ : ∃ m', m = m' + 1 := ⟨98 * tile + n, by omega⟩
    rw [accAt_succ_apply V c (m' + 1) hmN p q, show (m' + 1) % 98 = n + 1 by omega, show (m' + 1) / 98 = tile by omega,
      if_neg (Nat.succ_ne_zero n), accAt_run c tile htile p q n (by omega) m' (by omega), Finset.sum_range_succ _ (n + 1)]

/-- Node `node`'s entry at feature `q` over all chunks: the gathered rows of the edges whose row index, read unsigned,
    is the node, summed. -/
def scat (c : Dev nD) (node : ℕ) (q : Fin 64) : EReal :=
  ∑ ch : Fin 98, ∑ e : Fin 8192,
    (if ((V c main_v134 : S98x1x8192.Idx → BitVec 32) (ix3 ch (0 : Fin 1) e)).toNat = node
      then (V c main_v135 : S98x8192x64.Idx → EReal) (ix3 ch e q) else 0)

/-- After a tile's last chunk the accumulator holds, at (p, q), node 1024 * tile + p's entry. -/
theorem after_last (c : Dev nD) (t : Fin cfg9.N) (hl : t.val % 98 = 97) (p : Fin 1024) (q : Fin 64) :
    accAt V c (t.val + 1) (ix2 p q) = scat V c (1024 * (t.val / 98) + p.val) q := by
  have hN := point_lt t
  rw [accAt_run V c (t.val / 98) (by omega) p q 97 (by decide) t.val (by omega)]
  show ∑ s ∈ Finset.range 98, chunkAdd V c (1024 * (t.val / 98) + p.val) q s = _
  rw [Finset.sum_range]
  unfold scat
  refine Finset.sum_congr rfl fun ch _ => ?_
  unfold chunkAdd
  rw [dif_pos ch.isLt]

/-! ## From the blocks to the array -/

/-- The result array, as one function of the row indices and the gathered rows. -/
def G (c : Dev nD) : S50176x64.Idx → EReal := fun i => scat V c (i 0).val ⟨(i 1).val, idx2_lt1 i⟩

theorem G_apply (c : Dev nD) (i : S50176x64.Idx) (node : ℕ) (q : Fin 64) (h0 : (i 0).val = node) (h1 : (i 1).val = q.val) :
    G V c i = scat V c node q := by
  unfold G
  rw [h0]
  congr 1
  exact Fin.ext h1

/-- An index of the result array is in a point's block iff each coordinate is in the block's range on its axis. -/
theorem mem_blk_out (t : Fin cfg9.N) (i : S50176x64.Idx) :
    i ∈ ((cfg9.win 2).blk t).view.set ↔ ∀ a : Fin 2, win9_2.index t a * S1024x64.size a ≤ (i a).val ∧ (i a).val < win9_2.index t a * S1024x64.size a + S1024x64.size a := by
  show i ∈ ((View.whole main_v136).slice (win9_2.rect t)).set ↔ _
  rw [View.set_slice_whole, Rect.mem_set_unit]
  exact Iff.rfl

/-- Every index of the result array is in the block of its tile's last point. -/
theorem cover_out (i : S50176x64.Idx) :
    ∃ t : Fin cfg9.N, (cfg9.win 2).flush t = true ∧ i ∈ ((cfg9.win 2).blk t).view.set := by
  have h0 : (i 0).val < 50176 := idx2_lt0 i
  have h1 : (i 1).val < 64 := idx2_lt1 i
  have hlt : 98 * ((i 0).val / 1024) + 97 < cfg9.N := by rw [show cfg9.N = 4802 from N_9]; omega
  refine ⟨⟨98 * ((i 0).val / 1024) + 97, hlt⟩, (flush9_2 _).mpr (by show (98 * ((i 0).val / 1024) + 97) % 98 = 97; omega), ?_⟩
  obtain ⟨i0, i1⟩ := index_out ⟨98 * ((i 0).val / 1024) + 97, hlt⟩
  rw [mem_blk_out]
  intro a
  match a with
  | ⟨0, _⟩ =>
    show win9_2.index ⟨98 * ((i 0).val / 1024) + 97, hlt⟩ (0 : Fin 2) * 1024 ≤ (i 0).val
      ∧ (i 0).val < win9_2.index ⟨98 * ((i 0).val / 1024) + 97, hlt⟩ (0 : Fin 2) * 1024 + 1024
    rw [i0]
    show (98 * ((i 0).val / 1024) + 97) / 98 * 1024 ≤ (i 0).val ∧ (i 0).val < (98 * ((i 0).val / 1024) + 97) / 98 * 1024 + 1024
    omega
  | ⟨1, _⟩ =>
    show win9_2.index ⟨98 * ((i 0).val / 1024) + 97, hlt⟩ (1 : Fin 2) * 64 ≤ (i 1).val
      ∧ (i 1).val < win9_2.index ⟨98 * ((i 0).val / 1024) + 97, hlt⟩ (1 : Fin 2) * 64 + 64
    rw [i1]
    omega

/-- What a tile's last point writes back is its block of `G`. -/
theorem flushed_eq (c : Dev nD) (t : Fin cfg9.N) (hf : (cfg9.win 2).flush t = true) :
    (dat V c).flushed 2 t = ((cfg9.win 2).blk t).view.read (Elt Ideal) (G V c) := by
  have hl : t.val % 98 = 97 := (flush9_2 t).mp hf
  obtain ⟨i0, i1⟩ := index_out t
  show (cfg9.win 2).cut (grid9.coords t) ((dat V c).after 2 t) = _
  rw [after_out]
  funext y
  obtain ⟨p, q, rfl⟩ : ∃ (p : Fin 1024) (q : Fin 64), y = ix2 p q := ⟨y 0, y 1, @eq_ix2 1024 64 y⟩
  rw [View.read_apply]
  show accAt V c (t.val + 1) (ix2 p q) = G V c (((cfg9.win 2).blk t).view.emb (ix2 p q))
  rw [after_last V c t hl p q]
  refine (G_apply V c _ _ q ?_ ?_).symm
  · show win9_2.index t (0 : Fin 2) * 1024 + 1 * p.val = 1024 * (t.val / 98) + p.val
    rw [i0]; omega
  · show win9_2.index t (1 : Fin 2) * 64 + 1 * q.val = q.val
    rw [i1]; omega

/-- So the result array ends holding `G`. -/
theorem out_eq (c : Dev nD) : (dat V c).arrAt 2 cfg9.N = G V c :=
  (dat V c).arrAt_eq_of_cover 2 (G V c) (flushed_eq V c) cover_out

/-- THE RESULT ARRAY, ENTRY BY ENTRY: node's row is the sum, over all chunks, of the gathered weighted rows of the edges whose
    row index, read unsigned, is that node. -/
theorem out_apply (c : Dev nD) (node : Fin 50176) (j : Fin 64) :
    ((dat V c).arrAt 2 cfg9.N : S50176x64.Idx → EReal) (ix2 node j)
      = (∑ ch : Fin 98, ∑ e : Fin 8192,
          (if ((V c main_v134 : S98x1x8192.Idx → BitVec 32) (ix3 ch (0 : Fin 1) e)).toNat = node.val
            then (V c main_v135 : S98x8192x64.Idx → EReal) (ix3 ch e j) else 0) : EReal) := by
  rw [out_eq V c]
  rfl

end Cert.KernelIdeal.Hand.R9

end
-- ==== Proof.KI.R10Val.lean ====
/-
  What this gather launch (grid: 98 edge chunks x 49 node tiles, the node tile innermost) leaves in its result array,
  entry by entry, over the extended reals, on any contents `V` of the unscoped buffers at its entry: entry (ch, e, j) is
  feature j of the row of the padded feature table (50176 = 49 * 1024 rows) that the column word of edge e of chunk ch
  names, read unsigned (the zero row when the word names no row of the table), times the edge's weight.

  The road. At a point (chunk, tile) the body adds to the accumulator the product of the chunk's one-hot matrix against the
  tile with the tile's 1024 feature rows; over the extended reals entry (e, j) of that product is the sum over the tile's
  nodes k of [the edge's column word is node 1024 * tile + k] * feature j of that node, and at most one term is not zero:
  the product's entry is feature j of the row the word names when that node lies in the tile, and 0 otherwise
  (`pay2_apply`, `tile_sum`). So after tile n of a chunk the accumulator's entry holds the selected row's feature if the
  row lies in the tiles up to n, and 0 otherwise (`accAt_chunk`, by induction on the tile; the first tile starts from the
  zero matrix); after the last tile that is the selected row of the whole padded table. The last tile stores the
  accumulator times the broadcast weight column (`pay3_apply`) as the chunk's block of the result, and the chunks' blocks
  cover the result array (`flushed_eq`, `out_eq`).
-/
import proofs.«130096_j52458730553647_1_alg».proof.Proof.KI.R10
import proofs.«130096_j52458730553647_1_alg».proof.Proof.Spmm
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R10

open Cert.KernelIdeal Cert.KernelIdeal.Gen Cert.KernelIdeal.Hand.Sched
open Idealize.ShloMosaic Idealize.ShloMosaic.TcCoe Idealize.ShloMosaic.ValueIdx
open Idealize.ShloMosaic.Pipeline (Dat)
open Cert.Hand (rowOr0 rowOr0_of_lt rowOr0_of_ge)
open scoped BigOperators

/-! ## Layout operations the body uses, read at an index -/

section Layout
variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, k)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

end Layout

/-! ## The body's three stored values, read at an index, over the extended reals -/

/-- The reset stores the zero matrix. -/
theorem pay1_apply (i : S8192x64.Idx) : (k10_pay1 (F := Ideal)) i = 0 := by
  unfold k10_pay1
  rw [shapeCast_self]
  exact Ideal.ofBits_zero_f32

/-- A comparison and a sum of integer vectors at an index are the words' comparison and sum. -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = x i + y i := rfl

/-- A one-hot entry: the comparison bit, widened and converted, is 1 where the two words agree and 0 elsewhere. -/
theorem onehot_entry (a b : BitVec 32) :
    (FloatOps.sitofp (F := Ideal) .f32 ((IntOp.cmpi .eq a b).setWidth 32) : EReal) = if a = b then 1 else 0 := by
  by_cases h : a = b
  · subst h
    rw [if_pos rfl]
    have e : (IntOp.cmpi .eq a a).setWidth 32 = 1#32 := by
      show (BitVec.ofBool (a == a)).setWidth 32 = 1#32
      rw [beq_self_eq_true]; decide
    rw [e]
    show (((1#32 : BitVec 32).toInt : ℝ) : EReal) = 1
    norm_num
  · rw [if_neg h]
    have e : (IntOp.cmpi .eq a b).setWidth 32 = 0#32 := by
      show (BitVec.ofBool (a == b)).setWidth 32 = 0#32
      rw [beq_false_of_ne h]; decide
    rw [e]
    show (((0#32 : BitVec 32).toInt : ℝ) : EReal) = 0
    norm_num

/-- The word the body compares a column index with at column `k` of node tile `tile`: `k` plus the tile's first node. -/
abbrev nodeWord (tile k : ℕ) : BitVec 32 := BitVec.ofNat 32 k + BitVec.ofNat 32 tile * 1024#32

/-- The product's operand indices at result entry `(e, j)` and contraction position `q`: `(e, q)` and `(q, j)`. -/
theorem lhs_dot_free (i : S8192x64.Idx) (q : dot_S8192x1024_S1024x64_S8192x64_1_0_0_1_n_n.contr.Idx) :
    (dot_S8192x1024_S1024x64_S8192x64_1_0_0_1_n_n.lhsIdx i q 0).val = (i 0).val := by
  unfold DotDims.lhsIdx
  rw [dif_neg (show ¬(0 : Fin S8192x1024.rank) ∈ dot_S8192x1024_S1024x64_S8192x64_1_0_0_1_n_n.lhsBatch by decide),
    dif_pos (show (0 : Fin S8192x1024.rank) ∈ dot_S8192x1024_S1024x64_S8192x64_1_0_0_1_n_n.lhsNonContracting by decide)]
  rfl
theorem lhs_dot_contr (i : S8192x64.Idx) (q : dot_S8192x1024_S1024x64_S8192x64_1_0_0_1_n_n.contr.Idx) :
    (dot_S8192x1024_S1024x64_S8192x64_1_0_0_1_n_n.lhsIdx i q 1).val = (q ⟨0, by decide⟩).val :=
  dot_S8192x1024_S1024x64_S8192x64_1_0_0_1_n_n.lhsIdx_val_of_single rfl i q
theorem rhs_dot_contr (i : S8192x64.Idx) (q : dot_S8192x1024_S1024x64_S8192x64_1_0_0_1_n_n.contr.Idx) :
    (dot_S8192x1024_S1024x64_S8192x64_1_0_0_1_n_n.rhsIdx i q 0).val = (q ⟨0, by decide⟩).val :=
  dot_S8192x1024_S1024x64_S8192x64_1_0_0_1_n_n.rhsIdx_val_of_single rfl i q
theorem rhs_dot_free (i : S8192x64.Idx) (q : dot_S8192x1024_S1024x64_S8192x64_1_0_0_1_n_n.contr.Idx) :
    (dot_S8192x1024_S1024x64_S8192x64_1_0_0_1_n_n.rhsIdx i q 1).val = (i 1).val := by
  unfold DotDims.rhsIdx
  rw [dif_neg (show ¬(1 : Fin S1024x64.rank) ∈ dot_S8192x1024_S1024x64_S8192x64_1_0_0_1_n_n.rhsBatch by decide),
    dif_pos (show (1 : Fin S1024x64.rank) ∈ dot_S8192x1024_S1024x64_S8192x64_1_0_0_1_n_n.rhsNonContracting by decide)]
  rfl

/-- The accumulating store at entry `(e, j)`: the accumulator there plus, over the tile's 1024 nodes, the one-hot entry
    (1 where edge `e`'s column word is the node's) times the node's feature `j`. -/
theorem pay2_apply (i : grid10.Coords) (cols : Vec Ideal S1x1x8192 .i32) (feat : Vec Ideal S1024x64 .f32)
    (acc : Vec Ideal S8192x64 .f32) (e : Fin 8192) (j : Fin 64) :
    k10_pay2 i cols feat acc (ix2 e j)
      = acc (ix2 e j) + ∑ k : Fin 1024,
          (if cols (ix3 (0 : Fin 1) (0 : Fin 1) e) = nodeWord (i 1).val k.val then (1 : EReal) else 0) * feat (ix2 k j) := by
  unfold k10_pay2
  rw [shapeCast_self, addf_apply, shapeCast_self]
  refine congrArg (acc (ix2 e j) + ·) ?_
  simp only [matmul]
  rw [Ideal.matmul_constant_zero_apply,
    ← Equiv.sum_comp (contrEquiv1 dot_S8192x1024_S1024x64_S8192x64_1_0_0_1_n_n 1024 rfl rfl).symm]
  refine Finset.sum_congr rfl fun k _ => ?_
  have hk := contrEquiv1_symm_val dot_S8192x1024_S1024x64_S8192x64_1_0_0_1_n_n 1024 rfl rfl k
  have el : dot_S8192x1024_S1024x64_S8192x64_1_0_0_1_n_n.lhsIdx (ix2 e j)
      ((contrEquiv1 dot_S8192x1024_S1024x64_S8192x64_1_0_0_1_n_n 1024 rfl rfl).symm k) = ix2 e k :=
    funext fun a => Fin.ext (by
      match a with
      | ⟨0, _⟩ => exact lhs_dot_free _ _
      | ⟨1, _⟩ => exact (lhs_dot_contr _ _).trans hk)
  have er : dot_S8192x1024_S1024x64_S8192x64_1_0_0_1_n_n.rhsIdx (ix2 e j)
      ((contrEquiv1 dot_S8192x1024_S1024x64_S8192x64_1_0_0_1_n_n 1024 rfl rfl).symm k) = ix2 k j :=
    funext fun a => Fin.ext (by
      match a with
      | ⟨0, _⟩ => exact (rhs_dot_contr _ _).trans hk
      | ⟨1, _⟩ => exact rhs_dot_free _ _)
  rw [el, er, truncf_apply, truncf_apply, sitofp_apply, extui_apply, cmpi_apply, onehot_entry, addi_apply,
    broadcastTo_a1_ab_apply, shapeCast_a_a1_apply, shapeCast_11a_a_apply, iota_single_apply, broadcast_apply]
  rfl

/-- The scaled store at entry `(0, e, j)`: the accumulator's entry `(e, j)` times edge `e`'s weight. -/
theorem pay3_apply (vals : Vec Ideal S1x1x8192 .f32) (acc : Vec Ideal S8192x64 .f32) (u : Fin 1) (e : Fin 8192) (j : Fin 64) :
    k10_pay3 vals acc (ix3 u e j) = acc (ix2 e j) * vals (ix3 (0 : Fin 1) (0 : Fin 1) e) := by
  unfold k10_pay3
  rw [shapeCast_ab_1ab_apply, mulf_apply, broadcastTo_a1_ab_apply, shapeCast_a_a1_apply, shapeCast_11a_a_apply]

/-! ## One node tile's product, and the tiles before a point -/

/-- The compared word is node `1024 * tile + k` as a number, as long as that is below 2^32. -/
theorem nodeWord_toNat {tile k : ℕ} (h : 1024 * tile + k < 4294967296) : (nodeWord tile k).toNat = 1024 * tile + k := by
  show (BitVec.ofNat 32 k + BitVec.ofNat 32 tile * BitVec.ofNat 32 1024).toNat = _
  rw [BitVec.toNat_add, BitVec.toNat_mul, BitVec.toNat_ofNat, BitVec.toNat_ofNat, BitVec.toNat_ofNat]
  omega

theorem eq_nodeWord_iff (w : BitVec 32) {tile k : ℕ} (h : 1024 * tile + k < 4294967296) :
    w = nodeWord tile k ↔ w.toNat = 1024 * tile + k := by
  rw [← BitVec.toNat_inj, nodeWord_toNat h]

/-- One node tile's product at feature `j`, for an edge whose column word is `w`: the one-hot row selects the feature row
    the word names when that node lies in the tile (`feat` holds the table's rows `1024 * tile …`), and nothing otherwise. -/
theorem tile_sum (x : Fin 50176 → Fin 64 → EReal) (tile : ℕ) (htile : tile < 49) (feat : Vec Ideal S1024x64 .f32)
    (hfeat : ∀ (k : Fin 1024) (j : Fin 64), feat (ix2 k j) = x ⟨1024 * tile + k.val, by have := k.isLt; omega⟩ j)
    (w : BitVec 32) (j : Fin 64) :
    ∑ k : Fin 1024, (if w = nodeWord tile k.val then (1 : EReal) else 0) * feat (ix2 k j)
      = if 1024 * tile ≤ w.toNat ∧ w.toNat < 1024 * tile + 1024 then rowOr0 x w.toNat j else 0 := by
  by_cases hw : 1024 * tile ≤ w.toNat ∧ w.toNat < 1024 * tile + 1024
  · rw [if_pos hw]
    have hkw : w.toNat - 1024 * tile < 1024 := by omega
    rw [Finset.sum_eq_single (⟨w.toNat - 1024 * tile, hkw⟩ : Fin 1024)]
    · have hsel : w = nodeWord tile (w.toNat - 1024 * tile) := (eq_nodeWord_iff w (by omega)).mpr (by omega)
      rw [if_pos hsel, one_mul, hfeat, rowOr0_of_lt x (show w.toNat < 50176 by omega)]
      exact congrArg (fun q => x q j) (Fin.ext (by show 1024 * tile + (w.toNat - 1024 * tile) = w.toNat; omega))
    · intro k _ hk
      have hne : ¬w = nodeWord tile k.val := fun h => hk (Fin.ext (by
        have := (eq_nodeWord_iff w (by have := k.isLt; omega)).mp h
        show k.val = w.toNat - 1024 * tile; omega))
      rw [if_neg hne, zero_mul]
    · intro h; exact absurd (Finset.mem_univ _) h
  · rw [if_neg hw]
    refine Finset.sum_eq_zero fun k _ => ?_
    have hne : ¬w = nodeWord tile k.val := fun h => hw (by
      have := (eq_nodeWord_iff w (by have := k.isLt; omega)).mp h
      have := k.isLt
      omega)
    rw [if_neg hne, zero_mul]

/-- The selected feature row as far as the node tiles before tile `n` supply it: the row the word names when that node lies
    in one of those tiles, the zero row otherwise. -/
def partRow (x : Fin 50176 → Fin 64 → EReal) (n q : ℕ) (j : Fin 64) : EReal := if q < 1024 * n then rowOr0 x q j else 0

theorem partRow_zero (x : Fin 50176 → Fin 64 → EReal) (q : ℕ) (j : Fin 64) : partRow x 0 q j = 0 := by
  unfold partRow; rw [if_neg (by omega)]

theorem partRow_succ (x : Fin 50176 → Fin 64 → EReal) (n q : ℕ) (j : Fin 64) :
    partRow x (n + 1) q j = partRow x n q j + (if 1024 * n ≤ q ∧ q < 1024 * n + 1024 then rowOr0 x q j else 0) := by
  unfold partRow
  by_cases hib : q < 1024 * n
  · rw [if_pos hib, if_pos (by omega), if_neg (by omega), add_zero]
  · by_cases hic : q < 1024 * (n + 1)
    · rw [if_neg hib, if_pos hic, if_pos (by omega), zero_add]
    · rw [if_neg hib, if_neg hic, if_neg (by omega), zero_add]

/-- All 49 tiles supply the whole table: a word past the table names the zero row. -/
theorem partRow_last (x : Fin 50176 → Fin 64 → EReal) (q : ℕ) (j : Fin 64) : partRow x 49 q j = rowOr0 x q j := by
  unfold partRow
  by_cases h : q < 1024 * 49
  · rw [if_pos h]
  · rw [if_neg h, rowOr0_of_ge x (by omega)]

/-! ## The blocks a point reads, as entries of the arrays the region finds -/

variable (V : (c : Dev nD) → (b : Ref sig .tc) → Buf (Elt Ideal) ((c : Thread nD τ).loc b))

/-- The padded feature table, the column words and the edge weights as the region finds them. -/
abbrev featTab (c : Dev nD) : Fin 50176 → Fin 64 → EReal :=
  fun q j => (V c main_v141 : S50176x64.Idx → EReal) (ix2 q j)
abbrev colWord (c : Dev nD) (ch : Fin 98) (e : Fin 8192) : BitVec 32 :=
  (V c main_v142 : S98x1x8192.Idx → BitVec 32) (ix3 ch (0 : Fin 1) e)
abbrev weight (c : Dev nD) (ch : Fin 98) (e : Fin 8192) : EReal :=
  (V c main_v143 : S98x1x8192.Idx → EReal) (ix3 ch (0 : Fin 1) e)

/-- A point's coordinates: its chunk is the quotient and its node tile the remainder by the number of tiles. -/
theorem coords_chunk (t : Fin cfg10.N) : ((grid10.coords t) 0).val = t.val / 49 := by
  have hN : cfg10.N = 4802 := N_10
  have ht := t.isLt
  have hs : grid10.stride 0 = 49 := by decide
  show t.val / grid10.stride 0 % 98 = t.val / 49
  rw [hs]; omega

theorem coords_tile (t : Fin cfg10.N) : ((grid10.coords t) 1).val = t.val % 49 := by
  have hs : grid10.stride 1 = 1 := by decide
  show t.val / grid10.stride 1 % 49 = t.val % 49
  rw [hs, Nat.div_one]

/-- The block indices at a point: the chunk's row of the column words and of the weights and of the result, the node
    tile's rows of the feature table. -/
theorem index_cols (t : Fin cfg10.N) : win10_0.index t 0 = t.val / 49 ∧ win10_0.index t 1 = 0 ∧ win10_0.index t 2 = 0 := by
  have hN : cfg10.N = 4802 := N_10
  have ht := t.isLt
  refine ⟨?_, rfl, rfl⟩
  show (BitVec.ofNat 32 ((grid10.coords t) 0).val).toNat = _
  rw [BitVec.toNat_ofNat, coords_chunk]; omega

theorem index_vals (t : Fin cfg10.N) : win10_1.index t 0 = t.val / 49 ∧ win10_1.index t 1 = 0 ∧ win10_1.index t 2 = 0 := by
  have hN : cfg10.N = 4802 := N_10
  have ht := t.isLt
  refine ⟨?_, rfl, rfl⟩
  show (BitVec.ofNat 32 ((grid10.coords t) 0).val).toNat = _
  rw [BitVec.toNat_ofNat, coords_chunk]; omega

theorem index_feat (t : Fin cfg10.N) : win10_2.index t 0 = t.val % 49 ∧ win10_2.index t 1 = 0 := by
  refine ⟨?_, rfl⟩
  show (BitVec.ofNat 32 ((grid10.coords t) 1).val).toNat = _
  rw [BitVec.toNat_ofNat, coords_tile]; omega

theorem index_out (t : Fin cfg10.N) : win10_3.index t 0 = t.val / 49 ∧ win10_3.index t 1 = 0 ∧ win10_3.index t 2 = 0 := by
  have hN : cfg10.N = 4802 := N_10
  have ht := t.isLt
  refine ⟨?_, rfl, rfl⟩
  show (BitVec.ofNat 32 ((grid10.coords t) 0).val).toNat = _
  rw [BitVec.toNat_ofNat, coords_chunk]; omega

/-- The column-word block at a point is the chunk's row of the column words. -/
theorem colsBlk_apply (c : Dev nD) (t : Fin cfg10.N) (e : Fin 8192) (ch : Fin 98) (hch : ch.val = t.val / 49) :
    colsBlk V c t (ix3 (0 : Fin 1) (0 : Fin 1) e) = colWord V c ch e := by
  obtain ⟨hia, hib, hic⟩ := index_cols t
  show iblk V c 0 t _ = _
  unfold iblk
  rw [View.read_apply]
  show V c main_v142 _ = V c main_v142 _
  refine congrArg _ (funext fun a => Fin.ext ?_)
  match a with
  | ⟨0, _⟩ => show win10_0.index t 0 * 1 + 1 * 0 = ch.val; rw [hia, hch]; omega
  | ⟨1, _⟩ => show win10_0.index t 1 * 1 + 1 * 0 = 0; rw [hib]
  | ⟨2, _⟩ => show win10_0.index t 2 * 8192 + 1 * e.val = e.val; rw [hic]; omega

/-- The weight block at a point is the chunk's row of the weights. -/
theorem valsBlk_apply (c : Dev nD) (t : Fin cfg10.N) (e : Fin 8192) (ch : Fin 98) (hch : ch.val = t.val / 49) :
    valsBlk V c t (ix3 (0 : Fin 1) (0 : Fin 1) e) = weight V c ch e := by
  obtain ⟨hia, hib, hic⟩ := index_vals t
  show iblk V c 1 t _ = _
  unfold iblk
  rw [View.read_apply]
  show V c main_v143 _ = V c main_v143 _
  refine congrArg _ (funext fun a => Fin.ext ?_)
  match a with
  | ⟨0, _⟩ => show win10_1.index t 0 * 1 + 1 * 0 = ch.val; rw [hia, hch]; omega
  | ⟨1, _⟩ => show win10_1.index t 1 * 1 + 1 * 0 = 0; rw [hib]
  | ⟨2, _⟩ => show win10_1.index t 2 * 8192 + 1 * e.val = e.val; rw [hic]; omega

/-- The feature block at a point is the node tile's 1024 rows of the padded table. -/
theorem featBlk_apply (c : Dev nD) (t : Fin cfg10.N) (k : Fin 1024) (j : Fin 64) (q : Fin 50176)
    (hq : q.val = 1024 * (t.val % 49) + k.val) :
    featBlk V c t (ix2 k j) = featTab V c q j := by
  obtain ⟨hia, hib⟩ := index_feat t
  show iblk V c 2 t _ = _
  unfold iblk
  rw [View.read_apply]
  show V c main_v141 _ = V c main_v141 _
  refine congrArg _ (funext fun a => Fin.ext ?_)
  match a with
  | ⟨0, _⟩ => show win10_2.index t 0 * 1024 + 1 * k.val = q.val; rw [hia, hq]; omega
  | ⟨1, _⟩ => show win10_2.index t 1 * 64 + 1 * j.val = j.val; rw [hib]; omega

/-! ## The accumulator across a chunk's tiles -/

/-- One point of the recursion at entry `(e, j)`: if the accumulator the point starts from (the zero matrix at a chunk's
    first tile) holds what the tiles before `n` supply, the point leaves what the tiles before `n + 1` supply. -/
theorem accStep_apply (c : Dev nD) (ch : Fin 98) (n : ℕ) (hn : n < 49) (ht : 49 * ch.val + n < cfg10.N)
    (a : Vec Ideal S8192x64 .f32) (e : Fin 8192) (j : Fin 64)
    (ha : (if n = 0 then (k10_pay1 (F := Ideal)) else a) (ix2 e j) = partRow (featTab V c) n (colWord V c ch e).toNat j) :
    accStep V c ⟨49 * ch.val + n, ht⟩ a (ix2 e j) = partRow (featTab V c) (n + 1) (colWord V c ch e).toNat j := by
  have hmod : (49 * ch.val + n) % 49 = n := by omega
  have hdiv : (49 * ch.val + n) / 49 = ch.val := by omega
  unfold accStep
  refine (pay2_apply _ _ _ _ e j).trans ?_
  rw [partRow_succ]
  congr 1
  · show (if (49 * ch.val + n) % 49 = 0 then (k10_pay1 (F := Ideal)) else a) (ix2 e j) = _
    rw [hmod]; exact ha
  · rw [colsBlk_apply V c _ e ch hdiv.symm, coords_tile]
    show ∑ k : Fin 1024, (if colWord V c ch e = nodeWord ((49 * ch.val + n) % 49) k.val then (1 : EReal) else 0) * _ = _
    rw [hmod]
    exact tile_sum (featTab V c) n hn _ (fun k j => featBlk_apply V c _ k j _ (by show _ = 1024 * ((49 * ch.val + n) % 49) + k.val; rw [hmod])) _ j

/-- After tile `n` of chunk `ch` the accumulator's entry `(e, j)` holds what the tiles up to `n` supply of the row edge
    `e`'s column word names. -/
theorem accAt_chunk (c : Dev nD) (ch : Fin 98) (e : Fin 8192) (j : Fin 64) : ∀ n, n < 49 →
    accAt V c (49 * ch.val + n + 1) (ix2 e j) = partRow (featTab V c) (n + 1) (colWord V c ch e).toNat j
  | 0, hn => by
    have hN : cfg10.N = 4802 := N_10
    have hch := ch.isLt
    have ht : 49 * ch.val + 0 < cfg10.N := by omega
    refine (congrFun (accAt_succ V c ⟨49 * ch.val + 0, ht⟩) (ix2 e j)).trans ?_
    refine accStep_apply V c ch 0 hn ht _ e j ?_
    rw [if_pos rfl, pay1_apply, partRow_zero]
  | n + 1, hn => by
    have hN : cfg10.N = 4802 := N_10
    have hch := ch.isLt
    have ht : 49 * ch.val + (n + 1) < cfg10.N := by omega
    refine (congrFun (accAt_succ V c ⟨49 * ch.val + (n + 1), ht⟩) (ix2 e j)).trans ?_
    refine accStep_apply V c ch (n + 1) hn ht _ e j ?_
    rw [if_neg (Nat.succ_ne_zero n)]
    exact accAt_chunk c ch e j n (by omega)

/-! ## From the blocks to the result array -/

/-- The result array: entry `(ch, e, j)` is feature `j` of the row the edge's column word names, times the edge's weight. -/
def outArr (c : Dev nD) : S98x8192x64.Idx → EReal :=
  fun i => rowOr0 (featTab V c) (colWord V c (i 0) (i 1)).toNat (i 2) * weight V c (i 0) (i 1)

theorem outArr_apply (c : Dev nD) (i : S98x8192x64.Idx) (ch : Fin 98) (e : Fin 8192) (j : Fin 64)
    (hia : (i 0).val = ch.val) (hib : (i 1).val = e.val) (hic : (i 2).val = j.val) :
    outArr V c i = rowOr0 (featTab V c) (colWord V c ch e).toNat j * weight V c ch e := by
  obtain rfl : i = ix3 ch e j := funext fun a => Fin.ext (by
    match a with
    | ⟨0, _⟩ => exact hia
    | ⟨1, _⟩ => exact hib
    | ⟨2, _⟩ => exact hic)
  rfl

/-- What a chunk's last tile writes back is the chunk's block of the result array. -/
theorem flushed_eq (c : Dev nD) (t : Fin cfg10.N) (hf : (cfg10.win 3).flush t = true) :
    (dat V c).flushed 3 t = ((cfg10.win 3).blk t).view.read (Elt Ideal) (outArr V c) := by
  have hN : cfg10.N = 4802 := N_10
  have hlast : t.val % 49 = 48 := (flush10_3 t).mp hf
  have htl := t.isLt
  obtain ⟨hia, hib, hic⟩ := index_out t
  show (cfg10.win 3).cut (grid10.coords t) ((dat V c).after 3 t) = _
  rw [after_out]
  funext y
  obtain ⟨u, e, j, rfl⟩ : ∃ (u : Fin 1) (e : Fin 8192) (j : Fin 64), y = ix3 u e j := ⟨y 0, y 1, y 2, eq_ix3 y⟩
  show k10_pay3 (valsBlk V c t) (accAt V c (t.val + 1)) (ix3 u e j) = outArr V c (((cfg10.win 3).blk t).view.emb (ix3 u e j))
  have hu : u.val = 0 := by omega
  have hch : t.val / 49 < 98 := by omega
  rw [pay3_apply, outArr_apply V c _ ⟨t.val / 49, hch⟩ e j
    (by show win10_3.index t 0 * 1 + 1 * u.val = t.val / 49; rw [hia, hu]; omega)
    (by show win10_3.index t 1 * 8192 + 1 * e.val = e.val; rw [hib]; omega)
    (by show win10_3.index t 2 * 64 + 1 * j.val = j.val; rw [hic]; omega),
    valsBlk_apply V c t e ⟨t.val / 49, hch⟩ rfl]
  have hts : t.val + 1 = 49 * (t.val / 49) + 48 + 1 := by omega
  rw [hts, accAt_chunk V c ⟨t.val / 49, hch⟩ e j 48 (by omega), partRow_last]

/-- The result array after the region: the chunks' blocks cover it. -/
theorem out_eq (c : Dev nD) : (dat V c).arrAt 3 cfg10.N = outArr V c :=
  (dat V c).arrAt_eq_of_cover 3 (outArr V c) (flushed_eq V c) fun i => by
    have hN : cfg10.N = 4802 := N_10
    have hca : (i 0).val < 98 := (i 0).isLt
    have hcb : (i 1).val < 8192 := (i 1).isLt
    have hcc : (i 2).val < 64 := (i 2).isLt
    have ht : 49 * (i 0).val + 48 < cfg10.N := by omega
    obtain ⟨hia, hib, hic⟩ := index_out ⟨49 * (i 0).val + 48, ht⟩
    refine ⟨⟨49 * (i 0).val + 48, ht⟩, (flush10_3 _).mpr (by show (49 * (i 0).val + 48) % 49 = 48; omega), ?_⟩
    show i ∈ ((View.whole main_v145).slice (win10_3.rect ⟨49 * (i 0).val + 48, ht⟩)).set
    rw [View.set_slice_whole, Rect.mem_set_unit]
    intro a
    match a with
    | ⟨0, _⟩ =>
      show win10_3.index ⟨49 * (i 0).val + 48, ht⟩ 0 * 1 ≤ (i 0).val ∧ (i 0).val < win10_3.index ⟨49 * (i 0).val + 48, ht⟩ 0 * 1 + 1
      rw [hia]; show (49 * (i 0).val + 48) / 49 * 1 ≤ (i 0).val ∧ (i 0).val < (49 * (i 0).val + 48) / 49 * 1 + 1; omega
    | ⟨1, _⟩ =>
      show win10_3.index ⟨49 * (i 0).val + 48, ht⟩ 1 * 8192 ≤ (i 1).val ∧ (i 1).val < win10_3.index ⟨49 * (i 0).val + 48, ht⟩ 1 * 8192 + 8192
      rw [hib]; omega
    | ⟨2, _⟩ =>
      show win10_3.index ⟨49 * (i 0).val + 48, ht⟩ 2 * 64 ≤ (i 2).val ∧ (i 2).val < win10_3.index ⟨49 * (i 0).val + 48, ht⟩ 2 * 64 + 64
      rw [hic]; omega

/-- THE RESULT, entry by entry: entry `(ch, e, j)` of the region's result array is feature `j` of the padded table's row that
    the column word of edge `e` of chunk `ch` names (read unsigned; the zero row past the table), times the edge's weight. -/
theorem out_apply (c : Dev nD) (ch : Fin 98) (e : Fin 8192) (j : Fin 64) :
    ((dat V c).arrAt 3 cfg10.N : S98x8192x64.Idx → EReal) (ValueIdx.ix3 ch e j)
      = Cert.Hand.rowOr0 (fun (q : Fin 50176) (j : Fin 64) => (V c main_v141 : S50176x64.Idx → EReal) (ValueIdx.ix2 q j))
          ((V c main_v142 : S98x1x8192.Idx → BitVec 32) (ValueIdx.ix3 ch 0 e)).toNat j
        * (V c main_v143 : S98x1x8192.Idx → EReal) (ValueIdx.ix3 ch 0 e) := by
  rw [out_eq]
  rfl

end Cert.KernelIdeal.Hand.R10

end
-- ==== Proof.KI.R11Val.lean ====
/-
  What this scatter launch leaves in its result array, entry by entry, at the ideal values and on any contents `V` of the
  unscoped buffers at its entry: node's row is the sum, over all edge chunks, of the gathered weighted rows of the edges
  whose row index, read unsigned, is that node (`out_apply`).

  The steps. (1) One point's payload at an entry (p, q) of the accumulator: what the accumulator held plus the product of
  the one-hot matrix with the chunk's rows there. The one-hot entry (p, e) is 1 when the word of edge e equals the word
  of 1024 * tile + p, and that number is below 2^32, so the words agree iff the edge's row index, read unsigned, is that
  number; 1 * x = x and 0 * x = 0 in the extended reals, so the product's entry is the sum of the chunk's rows whose row
  index is node 1024 * tile + p (`step_apply`). (2) The grid is (tile, chunk), the chunk innermost: point t has tile
  t / 98 and chunk t % 98, the inputs' blocks at t are rows chunk of their arrays and the result's block is block
  (tile, 0) (`index_rows`, `index_wg`, `index_out`, `rows_apply`, `wg_apply`). (3) The accumulator is reset at a
  tile's first chunk and steps at every chunk, so after the tile's chunks 0 … n it holds the sum of their addends
  (`accAt_run`, by induction on n), and after the last chunk the whole sum (`after_last`). (4) The result's block is
  written back at each tile's last chunk and those blocks tile the array, so the array ends holding that sum at every
  entry (`flushed_eq`, `cover_out`, `out_eq`).
-/
import proofs.«130096_j52458730553647_1_alg».proof.Proof.KI.R11
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R11

open Cert.KernelIdeal Cert.KernelIdeal.Gen Cert.KernelIdeal.Hand.Sched
open Idealize.ShloMosaic Idealize.ShloMosaic.TcCoe Idealize.ShloMosaic.ValueIdx
open Idealize.SL Idealize.SL.RA
open Idealize.ShloMosaic.Pipeline (Dat Cfg Window)
open scoped BigOperators

/-! ## One point's payload at an entry -/

/-- A word is the sum of an offset's word and a base's word, the total below 2^32, iff its unsigned value is the total. -/
theorem word_eq_iff (tile p : ℕ) (h : 1024 * tile + p < 2 ^ 32) (x : BitVec 32) :
    (BitVec.ofNat 32 p + BitVec.ofNat 32 tile * 1024#32 = x) ↔ x.toNat = 1024 * tile + p := by
  have h' : 1024 * tile + p < 4294967296 := by simpa using h
  constructor
  · intro e
    subst e
    rw [BitVec.toNat_add, BitVec.toNat_mul, BitVec.toNat_ofNat, BitVec.toNat_ofNat]
    show (p % 4294967296 + tile % 4294967296 * 1024 % 4294967296) % 4294967296 = 1024 * tile + p
    omega
  · intro e
    apply BitVec.eq_of_toNat_eq
    rw [BitVec.toNat_add, BitVec.toNat_mul, BitVec.toNat_ofNat, BitVec.toNat_ofNat, e]
    show (p % 4294967296 + tile % 4294967296 * 1024 % 4294967296) % 4294967296 = 1024 * tile + p
    omega

/-- A comparison bit widened to a word and converted signed: 1 where the two words agree, 0 elsewhere. -/
theorem sitofp_extui_cmpi_eq (a b : BitVec 32) :
    (FloatOps.sitofp .f32 ((IntOp.cmpi .eq a b).setWidth 32) : Ideal .f32) = if a = b then (1 : EReal) else 0 := by
  show ((((IntOp.cmpi .eq a b).setWidth 32).toInt : ℝ) : EReal) = _
  by_cases h : a = b
  · subst h; rw [if_pos rfl]; simp [IntOp.cmpi]
  · have hb : (a == b) = false := beq_eq_false_iff_ne.mpr h
    rw [if_neg h]; simp [IntOp.cmpi, hb]

/-- A [1, 1, a] array cast to [a] reads, at i, the operand at (0, 0, i). -/
theorem shapeCast_unit_unit_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-! The product's operand indices, axis by axis: the left operand is read at (row, contraction position), the right at
    (contraction position, column). -/

theorem lhs_row (i : S1024x64.Idx) (q : dot_S1024x8192_S8192x64_S1024x64_1_0_0_1_n_n.contr.Idx) :
    (dot_S1024x8192_S8192x64_S1024x64_1_0_0_1_n_n.lhsIdx i q 0).val = (i 0).val := by
  unfold DotDims.lhsIdx
  rw [dif_neg (show ¬(0 : Fin S1024x8192.rank) ∈ dot_S1024x8192_S8192x64_S1024x64_1_0_0_1_n_n.lhsBatch by decide),
    dif_pos (show (0 : Fin S1024x8192.rank) ∈ dot_S1024x8192_S8192x64_S1024x64_1_0_0_1_n_n.lhsNonContracting by decide)]
  rfl

theorem lhs_contr (i : S1024x64.Idx) (q : dot_S1024x8192_S8192x64_S1024x64_1_0_0_1_n_n.contr.Idx) :
    (dot_S1024x8192_S8192x64_S1024x64_1_0_0_1_n_n.lhsIdx i q 1).val = (q ⟨0, by decide⟩).val :=
  dot_S1024x8192_S8192x64_S1024x64_1_0_0_1_n_n.lhsIdx_val_of_single rfl i q

theorem rhs_contr (i : S1024x64.Idx) (q : dot_S1024x8192_S8192x64_S1024x64_1_0_0_1_n_n.contr.Idx) :
    (dot_S1024x8192_S8192x64_S1024x64_1_0_0_1_n_n.rhsIdx i q 0).val = (q ⟨0, by decide⟩).val :=
  dot_S1024x8192_S8192x64_S1024x64_1_0_0_1_n_n.rhsIdx_val_of_single rfl i q

theorem rhs_col (i : S1024x64.Idx) (q : dot_S1024x8192_S8192x64_S1024x64_1_0_0_1_n_n.contr.Idx) :
    (dot_S1024x8192_S8192x64_S1024x64_1_0_0_1_n_n.rhsIdx i q 1).val = (i 1).val := by
  unfold DotDims.rhsIdx
  rw [dif_neg (show ¬(1 : Fin S8192x64.rank) ∈ dot_S1024x8192_S8192x64_S1024x64_1_0_0_1_n_n.rhsBatch by decide),
    dif_pos (show (1 : Fin S8192x64.rank) ∈ dot_S1024x8192_S8192x64_S1024x64_1_0_0_1_n_n.rhsNonContracting by decide)]
  rfl

/-- One entry of the one-hot matrix: 1 where the edge's row index is the tile's node p, 0 elsewhere. -/
theorem onehot_apply (tile : ℕ) (r : Vec Ideal S1x1x8192 .i32) (p : Fin 1024) (e : Fin 8192) (hb : 1024 * tile + p.val < 2 ^ 32) :
    (truncf .bf16
      (sitofp .f32
        (extui 32
          (cmpi .eq
            (addi (iota .tc S1024x8192 32 [0] iota_S1024x8192_d0_w32)
              (broadcast S1024x8192 (Scalar.muli (BitVec.ofNat 32 tile) 1024#32)))
            (broadcastTo S1024x8192
              (shapeCast S1x8192 (shapeCast S8192 r shapeCasts_S1x1x8192_S8192) shapeCasts_S8192_S1x8192)
              broadcasts_S1x8192_S1024x8192))
          natLt_1_32))
      bitsLt_bf16_f32 : FVec Ideal S1024x8192 .bf16) (ix2 p e)
      = if ((r (ix3 (0 : Fin 1) (0 : Fin 1) e) : BitVec 32)).toNat = 1024 * tile + p.val then (1 : EReal) else 0 := by
  have hrow : broadcastTo S1024x8192
      (shapeCast S1x8192 (shapeCast S8192 r shapeCasts_S1x1x8192_S8192) shapeCasts_S8192_S1x8192)
      broadcasts_S1x8192_S1024x8192 (ix2 p e) = r (ix3 (0 : Fin 1) (0 : Fin 1) e) := by
    rw [broadcastTo_1b_ab_apply, shapeCast_a_1a_apply, shapeCast_unit_unit_apply]
  show (FloatOps.sitofp .f32 ((IntOp.cmpi .eq
      (IntOp.addi (iota .tc S1024x8192 32 [0] iota_S1024x8192_d0_w32 (ix2 p e)) (Scalar.muli (BitVec.ofNat 32 tile) 1024#32))
      (broadcastTo S1024x8192
        (shapeCast S1x8192 (shapeCast S8192 r shapeCasts_S1x1x8192_S8192) shapeCasts_S8192_S1x8192)
        broadcasts_S1x8192_S1024x8192 (ix2 p e))).setWidth 32) : Ideal .f32) = _
  rw [hrow, iota_single_apply, sitofp_extui_cmpi_eq]
  exact if_congr (word_eq_iff tile p.val hb _) rfl rfl

/-- THE STEP AT AN ENTRY: the payload at (p, q) is what the accumulator held there plus the chunk's rows, at feature q, of
    the edges whose row index, read unsigned, is node 1024 * tile + p. -/
theorem step_apply (i : grid11.Coords) (r : Vec Ideal S1x1x8192 .i32) (w : Vec Ideal S1x8192x64 .f32) (a : Vec Ideal S1024x64 .f32)
    (p : Fin 1024) (q : Fin 64) (hb : 1024 * (i 0).val + p.val < 2 ^ 32) :
    k11_pay2 (F := Ideal) i r w a (ix2 p q)
      = a (ix2 p q) + ∑ e : Fin 8192,
          (if ((r (ix3 (0 : Fin 1) (0 : Fin 1) e) : BitVec 32)).toNat = 1024 * (i 0).val + p.val then (w (ix3 (0 : Fin 1) e q) : EReal) else 0) := by
  unfold k11_pay2
  dsimp only
  rw [shapeCast_self, addf_apply]
  congr 1
  refine (Ideal.matmul_constant_zero_apply dot_S1024x8192_S8192x64_S1024x64_1_0_0_1_n_n none _ _ (ix2 p q)).trans ?_
  rw [← Equiv.sum_comp (contrEquiv1 dot_S1024x8192_S8192x64_S1024x64_1_0_0_1_n_n 8192 rfl rfl).symm]
  refine Finset.sum_congr rfl fun k _ => ?_
  have hk := contrEquiv1_symm_val dot_S1024x8192_S8192x64_S1024x64_1_0_0_1_n_n 8192 rfl rfl k
  have el : dot_S1024x8192_S8192x64_S1024x64_1_0_0_1_n_n.lhsIdx (ix2 p q)
      ((contrEquiv1 dot_S1024x8192_S8192x64_S1024x64_1_0_0_1_n_n 8192 rfl rfl).symm k) = ix2 p k := funext fun ax => Fin.ext (by
    match ax with
    | ⟨0, _⟩ => exact lhs_row _ _
    | ⟨1, _⟩ => exact (lhs_contr _ _).trans hk)
  have er : dot_S1024x8192_S8192x64_S1024x64_1_0_0_1_n_n.rhsIdx (ix2 p q)
      ((contrEquiv1 dot_S1024x8192_S8192x64_S1024x64_1_0_0_1_n_n 8192 rfl rfl).symm k) = ix2 k q := funext fun ax => Fin.ext (by
    match ax with
    | ⟨0, _⟩ => exact (rhs_contr _ _).trans hk
    | ⟨1, _⟩ => exact rhs_col _ _)
  rw [el, er, onehot_apply (i 0).val r p k hb, truncf_apply, shapeCast_1ab_ab_apply]
  split
  · rw [one_mul]
  · rw [zero_mul]

variable (V : (c : Dev nD) → (b : Ref sig .tc) → Buf (Elt Ideal) ((c : Thread nD τ).loc b))

/-! ## The grid and the windows' block indices, read off the point's number -/

theorem point_lt (t : Fin cfg11.N) : t.val < 4802 := Nat.lt_of_lt_of_eq t.isLt N_11

/-- A point's tile is its number divided by the chunks per tile. -/
theorem coords_tile (t : Fin cfg11.N) : (grid11.coords t 0).val = t.val / 98 := by
  have hN := point_lt t
  show t.val / grid11.stride 0 % grid11.bound 0 = _
  rw [show grid11.stride 0 = 98 from by decide, show grid11.bound 0 = 49 from rfl]
  omega

/-- A point's chunk is its number modulo the chunks per tile. -/
theorem coords_chunk (t : Fin cfg11.N) : (grid11.coords t 1).val = t.val % 98 := by
  show t.val / grid11.stride 1 % grid11.bound 1 = _
  rw [show grid11.stride 1 = 1 from by decide, show grid11.bound 1 = 98 from rfl, Nat.div_one]

/-- The row indices' block at a point is block (chunk, 0, 0). -/
theorem index_rows (t : Fin cfg11.N) :
    win11_0.index t (0 : Fin 3) = t.val % 98 ∧ win11_0.index t (1 : Fin 3) = 0 ∧ win11_0.index t (2 : Fin 3) = 0 := by
  refine ⟨?_, rfl, rfl⟩
  show (BitVec.ofNat 32 (grid11.coords t 1).val).toNat = _
  rw [BitVec.toNat_ofNat, coords_chunk]
  show t.val % 98 % 4294967296 = t.val % 98
  omega

/-- The gathered rows' block at a point is block (chunk, 0, 0). -/
theorem index_wg (t : Fin cfg11.N) :
    win11_1.index t (0 : Fin 3) = t.val % 98 ∧ win11_1.index t (1 : Fin 3) = 0 ∧ win11_1.index t (2 : Fin 3) = 0 := by
  refine ⟨?_, rfl, rfl⟩
  show (BitVec.ofNat 32 (grid11.coords t 1).val).toNat = _
  rw [BitVec.toNat_ofNat, coords_chunk]
  show t.val % 98 % 4294967296 = t.val % 98
  omega

/-- The result's block at a point is block (tile, 0). -/
theorem index_out (t : Fin cfg11.N) :
    win11_2.index t (0 : Fin 2) = t.val / 98 ∧ win11_2.index t (1 : Fin 2) = 0 := by
  have hN := point_lt t
  refine ⟨?_, rfl⟩
  show (BitVec.ofNat 32 (grid11.coords t 0).val).toNat = _
  rw [BitVec.toNat_ofNat, coords_tile]
  show t.val / 98 % 4294967296 = t.val / 98
  omega

/-! ## The input blocks as rows of their arrays -/

/-- The chunk's row indices are row chunk of the row-index array. -/
theorem rows_apply (c : Dev nD) (t : Fin cfg11.N) (e : Fin 8192) (ch : Fin 98) (hch : ch.val = t.val % 98) :
    (rowsBlk V c t) (ix3 (0 : Fin 1) (0 : Fin 1) e)
      = (V c main_v144 : S98x1x8192.Idx → BitVec 32) (ix3 ch (0 : Fin 1) e) := by
  obtain ⟨i0, i1, i2⟩ := index_rows t
  unfold rowsBlk iblk
  rw [View.read_apply]
  show (V c main_v144 : S98x1x8192.Idx → BitVec 32) _ = _
  congr 1
  funext a
  apply Fin.ext
  match a with
  | ⟨0, _⟩ => show win11_0.index t (0 : Fin 3) * 1 + 1 * 0 = ch.val; rw [i0, hch]; omega
  | ⟨1, _⟩ => show win11_0.index t (1 : Fin 3) * 1 + 1 * 0 = 0; rw [i1]
  | ⟨2, _⟩ => show win11_0.index t (2 : Fin 3) * 8192 + 1 * e.val = e.val; rw [i2]; omega

/-- The chunk's gathered rows are row chunk of the gathered array. -/
theorem wg_apply (c : Dev nD) (t : Fin cfg11.N) (e : Fin 8192) (q : Fin 64) (ch : Fin 98) (hch : ch.val = t.val % 98) :
    (wgBlk V c t) (ix3 (0 : Fin 1) e q)
      = (V c main_v145 : S98x8192x64.Idx → EReal) (ix3 ch e q) := by
  obtain ⟨i0, i1, i2⟩ := index_wg t
  unfold wgBlk iblk
  rw [View.read_apply]
  show (V c main_v145 : S98x8192x64.Idx → EReal) _ = _
  congr 1
  funext a
  apply Fin.ext
  match a with
  | ⟨0, _⟩ => show win11_1.index t (0 : Fin 3) * 1 + 1 * 0 = ch.val; rw [i0, hch]; omega
  | ⟨1, _⟩ => show win11_1.index t (1 : Fin 3) * 8192 + 1 * e.val = e.val; rw [i1]; omega
  | ⟨2, _⟩ => show win11_1.index t (2 : Fin 3) * 64 + 1 * q.val = q.val; rw [i2]; omega

/-! ## The accumulator along a tile's chunks -/

/-- The vector a tile's first chunk resets the accumulator to is zero. -/
theorem reset_apply (x : S1024x64.Idx) : (k11_pay1 (F := Ideal)) x = 0 := by
  show shapeCast S1024x64 (broadcast S1024x64 (Scalar.ofBits .f32 0x00000000#32 : Ideal .f32)) shapeCasts_S1024x64_S1024x64 x = 0
  rw [shapeCast_self]
  exact Ideal.ofBits_zero_f32

/-- What chunk `s` adds to node `node`'s entry at feature `q`: the chunk's gathered rows whose row index, read
    unsigned, is the node. -/
def chunkAdd (c : Dev nD) (node : ℕ) (q : Fin 64) (s : ℕ) : EReal :=
  if h : s < 98 then
    ∑ e : Fin 8192, if ((V c main_v144 : S98x1x8192.Idx → BitVec 32) (ix3 (⟨s, h⟩ : Fin 98) (0 : Fin 1) e)).toNat = node
      then (V c main_v145 : S98x8192x64.Idx → EReal) (ix3 (⟨s, h⟩ : Fin 98) e q) else 0
  else 0

/-- One point's step at an entry: what the accumulator held (zero at a tile's first chunk) plus the chunk's addend. -/
theorem accAt_succ_apply (c : Dev nD) (m : ℕ) (hm : m < cfg11.N) (p : Fin 1024) (q : Fin 64) :
    accAt V c (m + 1) (ix2 p q)
      = (if m % 98 = 0 then 0 else accAt V c m (ix2 p q)) + chunkAdd V c (1024 * (m / 98) + p.val) q (m % 98) := by
  have hN : m < 4802 := Nat.lt_of_lt_of_eq hm N_11
  have hp : p.val < 1024 := p.isLt
  have h32 : (2 : ℕ) ^ 32 = 4294967296 := by norm_num
  have hct : (grid11.coords (⟨m, hm⟩ : Fin cfg11.N) 0).val = m / 98 := coords_tile ⟨m, hm⟩
  show (if h : m < cfg11.N then accStep V c ⟨m, h⟩ (accAt V c m) else (k11_pay1 (F := Ideal))) (ix2 p q) = _
  rw [dif_pos hm]
  unfold accStep
  refine (step_apply _ _ _ _ p q (by rw [hct, h32]; omega)).trans ?_
  congr 1
  · show (if m % 98 = 0 then (k11_pay1 (F := Ideal)) else accAt V c m) (ix2 p q) = _
    split
    · exact reset_apply _
    · rfl
  · rw [hct]
    unfold chunkAdd
    rw [dif_pos (Nat.mod_lt m (by decide))]
    refine Finset.sum_congr rfl fun e _ => ?_
    rw [rows_apply V c ⟨m, hm⟩ e ⟨m % 98, Nat.mod_lt m (by decide)⟩ rfl,
      wg_apply V c ⟨m, hm⟩ e q ⟨m % 98, Nat.mod_lt m (by decide)⟩ rfl]

/-- After the first `n + 1` chunks of tile `tile` the accumulator is the sum of their addends. -/
theorem accAt_run (c : Dev nD) (tile : ℕ) (htile : tile < 49) (p : Fin 1024) (q : Fin 64) :
    ∀ n, n < 98 → ∀ m, m = 98 * tile + n →
      accAt V c (m + 1) (ix2 p q) = ∑ s ∈ Finset.range (n + 1), chunkAdd V c (1024 * tile + p.val) q s
  | 0, _, m, hm => by
    have hmN : m < cfg11.N := by rw [show cfg11.N = 4802 from N_11]; omega
    rw [accAt_succ_apply V c m hmN p q, show m % 98 = 0 by omega, show m / 98 = tile by omega, if_pos rfl, zero_add,
      Finset.sum_range_one]
  | n + 1, hn, m, hm => by
    have hmN : m < cfg11.N := by rw [show cfg11.N = 4802 from N_11]; omega
    obtain ⟨m', rfl⟩ : ∃ m', m = m' + 1 := ⟨98 * tile + n, by omega⟩
    rw [accAt_succ_apply V c (m' + 1) hmN p q, show (m' + 1) % 98 = n + 1 by omega, show (m' + 1) / 98 = tile by omega,
      if_neg (Nat.succ_ne_zero n), accAt_run c tile htile p q n (by omega) m' (by omega), Finset.sum_range_succ _ (n + 1)]

/-- Node `node`'s entry at feature `q` over all chunks: the gathered rows of the edges whose row index, read unsigned,
    is the node, summed. -/
def scat (c : Dev nD) (node : ℕ) (q : Fin 64) : EReal :=
  ∑ ch : Fin 98, ∑ e : Fin 8192,
    (if ((V c main_v144 : S98x1x8192.Idx → BitVec 32) (ix3 ch (0 : Fin 1) e)).toNat = node
      then (V c main_v145 : S98x8192x64.Idx → EReal) (ix3 ch e q) else 0)

/-- After a tile's last chunk the accumulator holds, at (p, q), node 1024 * tile + p's entry. -/
theorem after_last (c : Dev nD) (t : Fin cfg11.N) (hl : t.val % 98 = 97) (p : Fin 1024) (q : Fin 64) :
    accAt V c (t.val + 1) (ix2 p q) = scat V c (1024 * (t.val / 98) + p.val) q := by
  have hN := point_lt t
  rw [accAt_run V c (t.val / 98) (by omega) p q 97 (by decide) t.val (by omega)]
  show ∑ s ∈ Finset.range 98, chunkAdd V c (1024 * (t.val / 98) + p.val) q s = _
  rw [Finset.sum_range]
  unfold scat
  refine Finset.sum_congr rfl fun ch _ => ?_
  unfold chunkAdd
  rw [dif_pos ch.isLt]

/-! ## From the blocks to the array -/

/-- The result array, as one function of the row indices and the gathered rows. -/
def G (c : Dev nD) : S50176x64.Idx → EReal := fun i => scat V c (i 0).val ⟨(i 1).val, idx2_lt1 i⟩

theorem G_apply (c : Dev nD) (i : S50176x64.Idx) (node : ℕ) (q : Fin 64) (h0 : (i 0).val = node) (h1 : (i 1).val = q.val) :
    G V c i = scat V c node q := by
  unfold G
  rw [h0]
  congr 1
  exact Fin.ext h1

/-- An index of the result array is in a point's block iff each coordinate is in the block's range on its axis. -/
theorem mem_blk_out (t : Fin cfg11.N) (i : S50176x64.Idx) :
    i ∈ ((cfg11.win 2).blk t).view.set ↔ ∀ a : Fin 2, win11_2.index t a * S1024x64.size a ≤ (i a).val ∧ (i a).val < win11_2.index t a * S1024x64.size a + S1024x64.size a := by
  show i ∈ ((View.whole main_v146).slice (win11_2.rect t)).set ↔ _
  rw [View.set_slice_whole, Rect.mem_set_unit]
  exact Iff.rfl

/-- Every index of the result array is in the block of its tile's last point. -/
theorem cover_out (i : S50176x64.Idx) :
    ∃ t : Fin cfg11.N, (cfg11.win 2).flush t = true ∧ i ∈ ((cfg11.win 2).blk t).view.set := by
  have h0 : (i 0).val < 50176 := idx2_lt0 i
  have h1 : (i 1).val < 64 := idx2_lt1 i
  have hlt : 98 * ((i 0).val / 1024) + 97 < cfg11.N := by rw [show cfg11.N = 4802 from N_11]; omega
  refine ⟨⟨98 * ((i 0).val / 1024) + 97, hlt⟩, (flush11_2 _).mpr (by show (98 * ((i 0).val / 1024) + 97) % 98 = 97; omega), ?_⟩
  obtain ⟨i0, i1⟩ := index_out ⟨98 * ((i 0).val / 1024) + 97, hlt⟩
  rw [mem_blk_out]
  intro a
  match a with
  | ⟨0, _⟩ =>
    show win11_2.index ⟨98 * ((i 0).val / 1024) + 97, hlt⟩ (0 : Fin 2) * 1024 ≤ (i 0).val
      ∧ (i 0).val < win11_2.index ⟨98 * ((i 0).val / 1024) + 97, hlt⟩ (0 : Fin 2) * 1024 + 1024
    rw [i0]
    show (98 * ((i 0).val / 1024) + 97) / 98 * 1024 ≤ (i 0).val ∧ (i 0).val < (98 * ((i 0).val / 1024) + 97) / 98 * 1024 + 1024
    omega
  | ⟨1, _⟩ =>
    show win11_2.index ⟨98 * ((i 0).val / 1024) + 97, hlt⟩ (1 : Fin 2) * 64 ≤ (i 1).val
      ∧ (i 1).val < win11_2.index ⟨98 * ((i 0).val / 1024) + 97, hlt⟩ (1 : Fin 2) * 64 + 64
    rw [i1]
    omega

/-- What a tile's last point writes back is its block of `G`. -/
theorem flushed_eq (c : Dev nD) (t : Fin cfg11.N) (hf : (cfg11.win 2).flush t = true) :
    (dat V c).flushed 2 t = ((cfg11.win 2).blk t).view.read (Elt Ideal) (G V c) := by
  have hl : t.val % 98 = 97 := (flush11_2 t).mp hf
  obtain ⟨i0, i1⟩ := index_out t
  show (cfg11.win 2).cut (grid11.coords t) ((dat V c).after 2 t) = _
  rw [after_out]
  funext y
  obtain ⟨p, q, rfl⟩ : ∃ (p : Fin 1024) (q : Fin 64), y = ix2 p q := ⟨y 0, y 1, @eq_ix2 1024 64 y⟩
  rw [View.read_apply]
  show accAt V c (t.val + 1) (ix2 p q) = G V c (((cfg11.win 2).blk t).view.emb (ix2 p q))
  rw [after_last V c t hl p q]
  refine (G_apply V c _ _ q ?_ ?_).symm
  · show win11_2.index t (0 : Fin 2) * 1024 + 1 * p.val = 1024 * (t.val / 98) + p.val
    rw [i0]; omega
  · show win11_2.index t (1 : Fin 2) * 64 + 1 * q.val = q.val
    rw [i1]; omega

/-- So the result array ends holding `G`. -/
theorem out_eq (c : Dev nD) : (dat V c).arrAt 2 cfg11.N = G V c :=
  (dat V c).arrAt_eq_of_cover 2 (G V c) (flushed_eq V c) cover_out

/-- THE RESULT ARRAY, ENTRY BY ENTRY: node's row is the sum, over all chunks, of the gathered weighted rows of the edges whose
    row index, read unsigned, is that node. -/
theorem out_apply (c : Dev nD) (node : Fin 50176) (j : Fin 64) :
    ((dat V c).arrAt 2 cfg11.N : S50176x64.Idx → EReal) (ix2 node j)
      = (∑ ch : Fin 98, ∑ e : Fin 8192,
          (if ((V c main_v144 : S98x1x8192.Idx → BitVec 32) (ix3 ch (0 : Fin 1) e)).toNat = node.val
            then (V c main_v145 : S98x8192x64.Idx → EReal) (ix3 ch e j) else 0) : EReal) := by
  rw [out_eq V c]
  rfl

end Cert.KernelIdeal.Hand.R11

end
-- ==== Proof.Model.lean ====
/-
  The outer computation both programs perform around the sparse product `spmm`: on the user-item graph two propagation
  steps with a residual each, the three layers' embeddings summed; on each metapath graph two plain propagation steps. The
  edge weights (the symmetric degree normalisation) are parameters: both programs compute them by the same host operations.
-/
import proofs.«130096_j52458730553647_1_alg».proof.Proof.Spmm

noncomputable section

namespace Cert.Hand.Model

open Cert.Hand

/-- A table of `n` feature rows of 64 entries. -/
abbrev Tab (n : ℕ) := Fin n → Fin 64 → EReal

/-- Entrywise sum of two tables. -/
def addT {n : ℕ} (a b : Tab n) : Tab n := fun i j => a i j + b i j

/-- One propagation step with its residual: the sparse product of the table plus the table. -/
def stepRes {E n : ℕ} (h t : Fin E → BitVec 32) (g : Fin E → EReal) (x : Tab n) : Tab n := addT (spmm h t g x) x

/-- The user-item part: with `cur₁ = stepRes emb` and `cur₂ = stepRes cur₁`, the sum `(emb + cur₁) + cur₂`. -/
def dccf {E n : ℕ} (h t : Fin E → BitVec 32) (g : Fin E → EReal) (emb : Tab n) : Tab n :=
  addT (addT emb (stepRes h t g emb)) (stepRes h t g (stepRes h t g emb))

/-- A metapath part: two plain propagation steps. -/
def han {E n : ℕ} (src dst : Fin E → BitVec 32) (w : Fin E → EReal) (x : Tab n) : Tab n :=
  spmm src dst w (spmm src dst w x)

end Cert.Hand.Model

end
-- ==== Proof.SpmmBlocks.lean ====
/-
  The blocked and padded form of the sparse product. The edge list is padded with zero words and zero weights to NC blocks of
  C edges, the feature table with zero rows. A padded edge contributes a row times the weight zero, so nothing; every real edge
  sits at exactly one position ch * C + e of the blocks; so the sum over the blocks, of the gathered rows whose row word is node i,
  is the sparse product at (i, j). A one-hot row against a table, summed tile by tile, picks the one row the word names
  (the zero row when the word is outside the table).
-/
import proofs.«130096_j52458730553647_1_alg».proof.Proof.Spmm
import Mathlib.Data.EReal.Basic
import Mathlib.Algebra.BigOperators.Group.Finset.Basic
import Mathlib.Data.Fintype.BigOperators
import Mathlib.Logic.Equiv.Fin.Basic
import Mathlib.Tactic.Ring

noncomputable section

namespace Cert.Hand

open BigOperators

/-- An index list padded with zero words. -/
def padW {E : ℕ} (f : Fin E → BitVec 32) (q : ℕ) : BitVec 32 := if h : q < E then f ⟨q, h⟩ else 0#32
/-- A weight list padded with zeros. -/
def padV {E : ℕ} (f : Fin E → EReal) (q : ℕ) : EReal := if h : q < E then f ⟨q, h⟩ else 0

/-- A sum over NC blocks of C consecutive positions is the sum over the NC * C positions: position q = ch * C + e
for exactly one block ch and offset e < C. -/
theorem sum_blocks_eq_sum_range {M : Type*} [AddCommMonoid M] (NC C : ℕ) (f : ℕ → M) :
    (∑ ch : Fin NC, ∑ e : Fin C, f (ch.val * C + e.val)) = ∑ q ∈ Finset.range (NC * C), f q := by
  rw [← Fin.sum_univ_eq_sum_range, ← Fintype.sum_prod_type']
  refine Fintype.sum_equiv finProdFinEquiv _ _ (fun p => ?_)
  congr 1
  rw [finProdFinEquiv_apply_val, Nat.mul_comm, Nat.add_comm]

/-- A sum over a range whose terms vanish from E on is the sum over the first E positions. -/
theorem sum_range_eq_sum_fin {M : Type*} [AddCommMonoid M] {E N : ℕ} (hE : E ≤ N) (f : ℕ → M)
    (hz : ∀ q, E ≤ q → f q = 0) : (∑ q ∈ Finset.range N, f q) = ∑ e : Fin E, f e.val := by
  rw [Fin.sum_univ_eq_sum_range]
  refine (Finset.sum_subset (Finset.range_mono hE) (fun q _ hq => hz q ?_)).symm
  exact Nat.le_of_not_lt (fun h => hq (Finset.mem_range.mpr h))

theorem spmm_of_blocks {E NC C n D : ℕ} (hE : E ≤ NC * C) (rows cols : Fin E → BitVec 32) (vals : Fin E → EReal)
    (x : Fin n → Fin D → EReal) (i : Fin n) (j : Fin D) :
    (∑ ch : Fin NC, ∑ e : Fin C,
        (if (padW rows (ch.val * C + e.val)).toNat = i.val
          then rowOr0 x (padW cols (ch.val * C + e.val)).toNat j * padV vals (ch.val * C + e.val) else 0))
      = spmm rows cols vals x i j := by
  rw [sum_blocks_eq_sum_range NC C (fun q => if (padW rows q).toNat = i.val
          then rowOr0 x (padW cols q).toNat j * padV vals q else 0)]
  rw [sum_range_eq_sum_fin hE]
  · unfold spmm
    rw [Finset.sum_filter]
    refine Finset.sum_congr rfl (fun e _ => ?_)
    have hw : ∀ f : Fin E → BitVec 32, padW f e.val = f e := fun f => by
      unfold padW; rw [dif_pos e.isLt]
    have hv : padV vals e.val = vals e := by unfold padV; rw [dif_pos e.isLt]
    rw [hw rows, hw cols, hv, EReal.mul_comm]
  · intro q hq
    have hv : padV vals q = 0 := by unfold padV; rw [dif_neg (Nat.not_lt.mpr hq)]
    rw [hv, mul_zero, ite_self]

/-- The padded table names the same rows: a row at or beyond n of the table padded with zero rows is the zero row. -/
theorem rowOr0_pad {n Np D : ℕ} (hn : n ≤ Np) (x : Fin n → Fin D → EReal) (xp : Fin Np → Fin D → EReal)
    (hx : ∀ (q : Fin Np) (j : Fin D), xp q j = rowOr0 x q.val j) (q : ℕ) (j : Fin D) : rowOr0 xp q j = rowOr0 x q j := by
  by_cases h : q < Np
  · rw [rowOr0_of_lt xp h, hx]
  · have h' : Np ≤ q := Nat.le_of_not_lt h
    rw [rowOr0_of_ge xp h', rowOr0_of_ge x (le_trans hn h')]

/-- A one-hot row against a table selects one row (zero when the word is outside): the inner sum of the gather stage. -/
theorem sum_onehot_rows {T NT D : ℕ} (xp : Fin (NT * T) → Fin D → EReal) (w : ℕ) (j : Fin D) :
    (∑ t : Fin NT, ∑ k : Fin T, (if w = t.val * T + k.val then (1 : EReal) else 0) * xp ⟨t.val * T + k.val, by
        calc t.val * T + k.val < t.val * T + T := Nat.add_lt_add_left k.isLt _
          _ = (t.val + 1) * T := by ring
          _ ≤ NT * T := Nat.mul_le_mul_right _ t.isLt⟩ j)
      = rowOr0 xp w j := by
  have hrow : ∀ (t : Fin NT) (k : Fin T) (h : t.val * T + k.val < NT * T),
      xp ⟨t.val * T + k.val, h⟩ j = rowOr0 xp (t.val * T + k.val) j := fun t k h => (rowOr0_of_lt xp h j).symm
  simp only [hrow]
  rw [sum_blocks_eq_sum_range NT T (fun q => (if w = q then (1 : EReal) else 0) * rowOr0 xp q j)]
  by_cases h : w < NT * T
  · rw [Finset.sum_eq_single w]
    · rw [if_pos rfl, one_mul]
    · intro q _ hq
      rw [if_neg (fun e => hq e.symm), zero_mul]
    · intro hw
      exact absurd (Finset.mem_range.mpr h) hw
  · rw [rowOr0_of_ge xp (Nat.le_of_not_lt h)]
    refine Finset.sum_eq_zero (fun q hq => ?_)
    have : w ≠ q := fun e => h (e ▸ Finset.mem_range.mp hq)
    rw [if_neg this, zero_mul]

end Cert.Hand

end
-- ==== Proof.KI.GlueLayout.lean ====
/-
  Layout operations of the host program read at an index, in the words of the sparse product's blocked form. An edge list
  padded behind with a value and cut into chunks of C entries reads, at chunk ch and entry e, position ch * C + e of the
  padded list; a feature table padded behind with rows of a value reads, at row q, the table's row q or a row of the value.
  With the value zero these are the padded lists and the zero rows the blocked sparse product is stated over.
-/
import proofs.«130096_j52458730553647_1_alg».proof.Proof.SpmmBlocks
import Idealize.ShloMosaic.Lib.Pipeline.Value
import Idealize.ShloMosaic.Lib.ValueLayout
import Idealize.ShloMosaic.Lib.KernelVsHost

noncomputable section

namespace Cert.KernelIdeal.Hand

open Idealize.ShloMosaic Idealize.ShloMosaic.ValueIdx
open Cert.Hand

variable {α : Type}

/-- A list of E entries padded behind to Ep = NC * C entries and cut into NC rows of C: entry (ch, 0, e) is entry
    ch * C + e of the list when that is below E, the padding value otherwise. -/
theorem reshape_pad_apply {E Ep NC C hi : ℕ} (hN : NC * C = Ep) (x : (⟨1, ![E]⟩ : Shape).Idx → α) {u : Shape} (v : u.Idx → α)
    (hp : (⟨1, ![E]⟩ : Shape).Pads ![0] ![hi] ![0] ⟨1, ![Ep]⟩) (hu : 0 < u.numel)
    (hs : (⟨1, ![Ep]⟩ : Shape).ShapeCasts ⟨3, ![NC, 1, C]⟩) (ch : Fin NC) (e : Fin C) :
    shapeCast ⟨3, ![NC, 1, C]⟩ (pad ⟨1, ![Ep]⟩ ![0] ![hi] ![0] x v hp hu) hs (ix3 ch 0 e)
      = if h : ch.val * C + e.val < E then x (ix1 ⟨ch.val * C + e.val, h⟩) else v (Shape.Idx.first hu) := by
  have hq : ch.val * C + e.val < Ep := by
    rw [← hN]
    calc ch.val * C + e.val < ch.val * C + C := Nat.add_lt_add_left e.isLt _
      _ = (ch.val + 1) * C := (Nat.succ_mul _ _).symm
      _ ≤ NC * C := Nat.mul_le_mul_right _ ch.isLt
  refine (shapeCast_apply _ hs (ix3 ch 0 e) (ix1 ⟨ch.val * C + e.val, hq⟩) ?_).trans ?_
  · rw [Shape.rowMajor_val_one, Shape.rowMajor_val_three]
    show ch.val * C + e.val = (ch.val * 1 + 0) * C + e.val
    rw [Nat.mul_one, Nat.add_zero]
  · by_cases h : ch.val * C + e.val < E
    · rw [dif_pos h]
      refine pad_apply_of_inside _ _ _ x v hp hu _ (ix1 ⟨ch.val * C + e.val, h⟩) (fun a => ?_)
      match a with
      | ⟨0, _⟩ =>
        show ch.val * C + e.val = 0 + (ch.val * C + e.val) * (0 + 1)
        rw [Nat.zero_add, Nat.zero_add, Nat.mul_one]
    · rw [dif_neg h]
      refine pad_apply_of_not_inside _ _ _ x v hp hu _ (0 : Fin 1) (fun hin => h ?_)
      have h3 : (ch.val * C + e.val - 0) / (0 + 1) < E := hin.2.2
      rwa [Nat.sub_zero, Nat.zero_add, Nat.div_one] at h3

/-- A table of n rows padded behind to Np rows: row q is the table's row q when q is below n, a row of the padding value
    otherwise. -/
theorem pad_rows_apply {n Np D hi : ℕ} (x : (⟨2, ![n, D]⟩ : Shape).Idx → α) {u : Shape} (v : u.Idx → α)
    (hp : (⟨2, ![n, D]⟩ : Shape).Pads ![0, 0] ![hi, 0] ![0, 0] ⟨2, ![Np, D]⟩) (hu : 0 < u.numel) (q : Fin Np) (j : Fin D) :
    pad ⟨2, ![Np, D]⟩ ![0, 0] ![hi, 0] ![0, 0] x v hp hu (ix2 q j)
      = if h : q.val < n then x (ix2 ⟨q.val, h⟩ j) else v (Shape.Idx.first hu) := by
  by_cases h : q.val < n
  · rw [dif_pos h]
    refine pad_apply_of_inside _ _ _ x v hp hu _ (ix2 ⟨q.val, h⟩ j) (fun a => ?_)
    match a with
    | ⟨0, _⟩ =>
      show q.val = 0 + q.val * (0 + 1)
      rw [Nat.zero_add, Nat.zero_add, Nat.mul_one]
    | ⟨1, _⟩ =>
      show j.val = 0 + j.val * (0 + 1)
      rw [Nat.zero_add, Nat.zero_add, Nat.mul_one]
  · rw [dif_neg h]
    refine pad_apply_of_not_inside _ _ _ x v hp hu _ (0 : Fin 2) (fun hin => h ?_)
    have h3 : (q.val - 0) / (0 + 1) < n := hin.2.2
    rwa [Nat.sub_zero, Nat.zero_add, Nat.div_one] at h3

/-- An index list padded with the zero word and cut into chunks, at chunk ch and entry e: the padded list at ch * C + e. -/
theorem reshape_pad_words {E Ep NC C hi : ℕ} (hN : NC * C = Ep) (x : (⟨1, ![E]⟩ : Shape).Idx → BitVec 32) {u : Shape}
    (v : u.Idx → BitVec 32) (hp : (⟨1, ![E]⟩ : Shape).Pads ![0] ![hi] ![0] ⟨1, ![Ep]⟩) (hu : 0 < u.numel)
    (hv : ∀ k, v k = 0#32) (hs : (⟨1, ![Ep]⟩ : Shape).ShapeCasts ⟨3, ![NC, 1, C]⟩) (ch : Fin NC) (e : Fin C) :
    shapeCast ⟨3, ![NC, 1, C]⟩ (pad ⟨1, ![Ep]⟩ ![0] ![hi] ![0] x v hp hu) hs (ix3 ch 0 e)
      = padW (fun q => x (ix1 q)) (ch.val * C + e.val) := by
  rw [reshape_pad_apply hN x v hp hu hs ch e, hv]; rfl

/-- A weight list padded with zero and cut into chunks, at chunk ch and entry e: the padded list at ch * C + e. -/
theorem reshape_pad_vals {E Ep NC C hi : ℕ} (hN : NC * C = Ep) (x : (⟨1, ![E]⟩ : Shape).Idx → EReal) {u : Shape}
    (v : u.Idx → EReal) (hp : (⟨1, ![E]⟩ : Shape).Pads ![0] ![hi] ![0] ⟨1, ![Ep]⟩) (hu : 0 < u.numel)
    (hv : ∀ k, v k = 0) (hs : (⟨1, ![Ep]⟩ : Shape).ShapeCasts ⟨3, ![NC, 1, C]⟩) (ch : Fin NC) (e : Fin C) :
    shapeCast ⟨3, ![NC, 1, C]⟩ (pad ⟨1, ![Ep]⟩ ![0] ![hi] ![0] x v hp hu) hs (ix3 ch 0 e)
      = padV (fun q => x (ix1 q)) (ch.val * C + e.val) := by
  rw [reshape_pad_apply hN x v hp hu hs ch e, hv]; rfl

/-- A feature table padded with zero rows, at row q: the table's row q, the zero row from n on. -/
theorem pad_rows_rowOr0 {n Np D hi : ℕ} (x : (⟨2, ![n, D]⟩ : Shape).Idx → EReal) {u : Shape} (v : u.Idx → EReal)
    (hp : (⟨2, ![n, D]⟩ : Shape).Pads ![0, 0] ![hi, 0] ![0, 0] ⟨2, ![Np, D]⟩) (hu : 0 < u.numel) (hv : ∀ k, v k = 0)
    (q : Fin Np) (j : Fin D) :
    pad ⟨2, ![Np, D]⟩ ![0, 0] ![hi, 0] ![0, 0] x v hp hu (ix2 q j)
      = rowOr0 (fun (i : Fin n) (j : Fin D) => x (ix2 i j)) q.val j := by
  rw [pad_rows_apply x v hp hu q j, hv]; rfl

end Cert.KernelIdeal.Hand

end
-- ==== Proof.KI.GlueSpmm.lean ====
/-
  ONE SPARSE PRODUCT of the kernel, read at an entry. The host pads the two index lists and the weights with zeros to NC
  chunks of C edges and the feature table with zero rows to Np rows, and cuts the lists into chunks; the gather launch
  leaves, at (chunk, edge, feature), the table row the edge's column word names times the edge's weight; the scatter
  launch leaves, at (node, feature), the sum of those over the edges whose row word is the node; the host cuts the padded
  rows off. Entry (i, j) of what is left is the sparse product of the unpadded lists and table at (i, j): a padded edge
  carries the weight zero, a padded row is the zero row that an out-of-range column word names anyway.
-/
import proofs.«130096_j52458730553647_1_alg».proof.Proof.KI.GlueLayout

noncomputable section

namespace Cert.KernelIdeal.Hand

open Idealize.ShloMosaic Idealize.ShloMosaic.ValueIdx
open Cert.Hand
open BigOperators

/-- The product by entries: the chunked lists are the padded lists, the padded table has the table's rows and zero rows,
    the gathered array and the scattered array are the two launches' closed forms. -/
theorem spmm_entry {E NC C n Np D : ℕ} (hE : E ≤ NC * C) (hn : n ≤ Np)
    (h t : Fin E → BitVec 32) (g : Fin E → EReal) (x : Fin n → Fin D → EReal)
    (rows3 cols3 : (⟨3, ![NC, 1, C]⟩ : Shape).Idx → BitVec 32) (vals3 : (⟨3, ![NC, 1, C]⟩ : Shape).Idx → EReal)
    (xp : (⟨2, ![Np, D]⟩ : Shape).Idx → EReal) (wg : (⟨3, ![NC, C, D]⟩ : Shape).Idx → EReal)
    (y : (⟨2, ![Np, D]⟩ : Shape).Idx → EReal)
    (hrows : ∀ ch e, rows3 (ix3 ch 0 e) = padW h (ch.val * C + e.val))
    (hcols : ∀ ch e, cols3 (ix3 ch 0 e) = padW t (ch.val * C + e.val))
    (hvals : ∀ ch e, vals3 (ix3 ch 0 e) = padV g (ch.val * C + e.val))
    (hxp : ∀ (q : Fin Np) (j : Fin D), xp (ix2 q j) = rowOr0 x q.val j)
    (hwg : ∀ ch e j, wg (ix3 ch e j)
      = rowOr0 (fun (q : Fin Np) (j : Fin D) => xp (ix2 q j)) (cols3 (ix3 ch 0 e)).toNat j * vals3 (ix3 ch 0 e))
    (hy : ∀ (node : Fin Np) (j : Fin D), y (ix2 node j)
      = ∑ ch : Fin NC, ∑ e : Fin C, (if (rows3 (ix3 ch 0 e)).toNat = node.val then wg (ix3 ch e j) else 0))
    (i : Fin n) (j : Fin D) :
    y (ix2 ⟨i.val, Nat.lt_of_lt_of_le i.isLt hn⟩ j) = spmm h t g x i j := by
  rw [hy, ← spmm_of_blocks hE h t g x i j]
  refine Finset.sum_congr rfl (fun ch _ => Finset.sum_congr rfl (fun e _ => ?_))
  rw [hrows, hwg, hcols, hvals, rowOr0_pad hn x (fun q j => xp (ix2 q j)) hxp]

/-- The product over the host's own operations: the chunked lists are the reshapes of the pads of the lists, the padded
    table the pad of the table (every padding value zero), and the result is the slice of the scattered array. -/
theorem spmm_of_launches {E Ep NC C n Np D hiE hiN : ℕ} (hN : NC * C = Ep) (hE : E ≤ Ep) (hn : n ≤ Np)
    (h t : (⟨1, ![E]⟩ : Shape).Idx → BitVec 32) (g : (⟨1, ![E]⟩ : Shape).Idx → EReal)
    (x : (⟨2, ![n, D]⟩ : Shape).Idx → EReal)
    {u : Shape} (hu : 0 < u.numel) (zh zt : u.Idx → BitVec 32) (zg zx : u.Idx → EReal)
    (hzh : ∀ k, zh k = 0#32) (hzt : ∀ k, zt k = 0#32) (hzg : ∀ k, zg k = 0) (hzx : ∀ k, zx k = 0)
    (hpE : (⟨1, ![E]⟩ : Shape).Pads ![0] ![hiE] ![0] ⟨1, ![Ep]⟩)
    (hpN : (⟨2, ![n, D]⟩ : Shape).Pads ![0, 0] ![hiN, 0] ![0, 0] ⟨2, ![Np, D]⟩)
    (hsc : (⟨1, ![Ep]⟩ : Shape).ShapeCasts ⟨3, ![NC, 1, C]⟩)
    (hsl : (⟨2, ![Np, D]⟩ : Shape).Slices ![0, 0] ⟨2, ![n, D]⟩)
    (rows3 cols3 : (⟨3, ![NC, 1, C]⟩ : Shape).Idx → BitVec 32) (vals3 : (⟨3, ![NC, 1, C]⟩ : Shape).Idx → EReal)
    (xp : (⟨2, ![Np, D]⟩ : Shape).Idx → EReal) (wg : (⟨3, ![NC, C, D]⟩ : Shape).Idx → EReal)
    (y : (⟨2, ![Np, D]⟩ : Shape).Idx → EReal)
    (hrows : rows3 = shapeCast ⟨3, ![NC, 1, C]⟩ (pad ⟨1, ![Ep]⟩ ![0] ![hiE] ![0] h zh hpE hu) hsc)
    (hcols : cols3 = shapeCast ⟨3, ![NC, 1, C]⟩ (pad ⟨1, ![Ep]⟩ ![0] ![hiE] ![0] t zt hpE hu) hsc)
    (hvals : vals3 = shapeCast ⟨3, ![NC, 1, C]⟩ (pad ⟨1, ![Ep]⟩ ![0] ![hiE] ![0] g zg hpE hu) hsc)
    (hxp : xp = pad ⟨2, ![Np, D]⟩ ![0, 0] ![hiN, 0] ![0, 0] x zx hpN hu)
    (hwg : ∀ ch e j, wg (ix3 ch e j)
      = rowOr0 (fun (q : Fin Np) (j : Fin D) => xp (ix2 q j)) (cols3 (ix3 ch 0 e)).toNat j * vals3 (ix3 ch 0 e))
    (hy : ∀ (node : Fin Np) (j : Fin D), y (ix2 node j)
      = ∑ ch : Fin NC, ∑ e : Fin C, (if (rows3 (ix3 ch 0 e)).toNat = node.val then wg (ix3 ch e j) else 0))
    (i : Fin n) (j : Fin D) :
    extractStridedSlice ⟨2, ![n, D]⟩ ![0, 0] y hsl (ix2 i j)
      = spmm (fun e => h (ix1 e)) (fun e => t (ix1 e)) (fun e => g (ix1 e)) (fun i j => x (ix2 i j)) i j := by
  rw [slice2_axis0_apply 0 y hsl i j ⟨i.val, Nat.lt_of_lt_of_le i.isLt hn⟩ (Nat.zero_add _).symm]
  refine spmm_entry (hN ▸ hE) hn _ _ _ _ rows3 cols3 vals3 xp wg y (fun ch e => ?_) (fun ch e => ?_) (fun ch e => ?_)
    (fun q j => ?_) hwg hy i j
  · rw [hrows]; exact reshape_pad_words hN h zh hpE hu hzh hsc ch e
  · rw [hcols]; exact reshape_pad_words hN t zt hpE hu hzt hsc ch e
  · rw [hvals]; exact reshape_pad_vals hN g zg hpE hu hzg hsc ch e
  · rw [hxp]; exact pad_rows_rowOr0 x zx hpN hu hzx q j

end Cert.KernelIdeal.Hand

end
-- ==== Proof.KI.GlueProdA1.lean ====
/-
  One sparse product of the kernel program, read off the host operations around its two launches, over ANY contents W of
  the unscoped buffers before them: the stretch that ends with the first padding constant; the four pads (row words,
  column words, weights, feature table), each behind its constant; the three reshapes into chunks; the gather launch,
  which leaves `gout` in its result array; the scatter launch, which leaves `yout`; the stretch that cuts the padded
  rows off. If `gout` and `yout` are the two launches' closed forms over the contents each is entered from, the rows
  cut out are the sparse product of the edge lists and the feature table as the gather launch finds them.
-/
import proofs.«130096_j52458730553647_1_alg».proof.Proof.KernelIdealRegions
import proofs.«130096_j52458730553647_1_alg».proof.Proof.KI.GlueSpmm
import Idealize.ShloMosaic.Lib.StableHlo.Run

set_option maxRecDepth 16384

noncomputable section

namespace Cert.KernelIdeal.Hand.ProdA1

open Cert.KernelIdeal Cert.KernelIdeal.Gen
open Idealize.ShloMosaic Idealize.ShloMosaic.TcCoe Idealize.ShloMosaic.ValueIdx
open Cert.Hand
open BigOperators

variable (W : Valuation τ sig (Elt Ideal))

/-! ## Each stretch read at a buffer it writes, over any contents before it -/

theorem rd_c1 : (StableHlo.after hostOps0_2 W (Proc.devRef .tc main_c_9) : S_.Idx → BitVec 32) = constantI S_ 32 0#32 := by
  after_results <;> rfl
theorem rd_c2 : (StableHlo.after hostOps0_4 W (Proc.devRef .tc main_c_10) : S_.Idx → BitVec 32) = constantI S_ 32 0#32 := by
  after_results <;> rfl
theorem rd_c3 : (StableHlo.after hostOps0_6 W (Proc.devRef .tc main_c_11) : S_.Idx → BitVec 32) = constantI S_ 32 0#32 := by
  after_results <;> rfl
theorem rd_c4 : (StableHlo.after hostOps0_8 W (Proc.devRef .tc main_c_12) : S_.Idx → BitVec 32) = constantI S_ 32 0#32 := by
  after_results <;> rfl

theorem rd_rp : (StableHlo.after hostOps0_3 W (Proc.devRef .tc main_v32) : S3203072.Idx → BitVec 32)
    = pad S3203072 ![0] ![3072] ![0] (W (Proc.devRef .tc main_v2) : S3200000.Idx → BitVec 32)
        (W (Proc.devRef .tc main_c_9) : S_.Idx → BitVec 32) pads_S3200000_S3203072_030720 h_S_ := by
  after_results <;> rfl
theorem rd_cp : (StableHlo.after hostOps0_5 W (Proc.devRef .tc main_v33) : S3203072.Idx → BitVec 32)
    = pad S3203072 ![0] ![3072] ![0] (W (Proc.devRef .tc main_v5) : S3200000.Idx → BitVec 32)
        (W (Proc.devRef .tc main_c_10) : S_.Idx → BitVec 32) pads_S3200000_S3203072_030720 h_S_ := by
  after_results <;> rfl
theorem rd_vp : (StableHlo.after hostOps0_7 W (Proc.devRef .tc main_v34) : S3203072.Idx → EReal)
    = pad S3203072 ![0] ![3072] ![0] (W (Proc.devRef .tc main_v30) : S3200000.Idx → EReal)
        (sitofp (F := Ideal) .f32 (W (Proc.devRef .tc main_c_11) : S_.Idx → BitVec 32)) pads_S3200000_S3203072_030720 h_S_ := by
  after_results <;> rfl
theorem rd_xp : (StableHlo.after hostOps0_9 W (Proc.devRef .tc main_v35) : S150528x64.Idx → EReal)
    = pad S150528x64 ![0, 0] ![528, 0] ![0, 0] (W (Proc.devRef .tc main_v31) : S150000x64.Idx → EReal)
        (sitofp (F := Ideal) .f32 (W (Proc.devRef .tc main_c_12) : S_.Idx → BitVec 32)) pads_S150000x64_S150528x64_05280_000 h_S_ := by
  after_results <;> rfl

theorem rd_cols3 : (StableHlo.after hostOps0_10 W (Proc.devRef .tc main_v36) : S391x1x8192.Idx → BitVec 32)
    = shapeCast S391x1x8192 (W (Proc.devRef .tc main_v33) : S3203072.Idx → BitVec 32) shapeCasts_S3203072_S391x1x8192 := by
  after_results <;> rfl
theorem rd_vals3 : (StableHlo.after hostOps0_10 W (Proc.devRef .tc main_v37) : S391x1x8192.Idx → EReal)
    = shapeCast S391x1x8192 (W (Proc.devRef .tc main_v34) : S3203072.Idx → EReal) shapeCasts_S3203072_S391x1x8192 := by
  after_results <;> rfl
theorem rd_rows3 : (StableHlo.after hostOps0_10 W (Proc.devRef .tc main_v38) : S391x1x8192.Idx → BitVec 32)
    = shapeCast S391x1x8192 (W (Proc.devRef .tc main_v32) : S3203072.Idx → BitVec 32) shapeCasts_S3203072_S391x1x8192 := by
  after_results <;> rfl

theorem rd_sl : (StableHlo.after hostOps2 W (Proc.devRef .tc main_v41) : S150000x64.Idx → EReal)
    = extractStridedSlice S150000x64 ![0, 0] (W (Proc.devRef .tc main_v40) : S150528x64.Idx → EReal) slices_S150528x64_S150000x64_0_0 := by
  after_results <;> rfl

/-! ## A stretch leaves the buffers it does not write as they were -/

theorem k1 (r : Ref sig .tc) (h : r ∉ hostOps0_3_W) : StableHlo.after hostOps0_3 W (Proc.devRef .tc r) = W (Proc.devRef .tc r) :=
  StableHlo.after_of_writes_sub hostOps0_3 W hostOps0_3_writes h
theorem k2 (r : Ref sig .tc) (h : r ∉ hostOps0_4_W) : StableHlo.after hostOps0_4 W (Proc.devRef .tc r) = W (Proc.devRef .tc r) :=
  StableHlo.after_of_writes_sub hostOps0_4 W hostOps0_4_writes h
theorem k3 (r : Ref sig .tc) (h : r ∉ hostOps0_5_W) : StableHlo.after hostOps0_5 W (Proc.devRef .tc r) = W (Proc.devRef .tc r) :=
  StableHlo.after_of_writes_sub hostOps0_5 W hostOps0_5_writes h
theorem k4 (r : Ref sig .tc) (h : r ∉ hostOps0_6_W) : StableHlo.after hostOps0_6 W (Proc.devRef .tc r) = W (Proc.devRef .tc r) :=
  StableHlo.after_of_writes_sub hostOps0_6 W hostOps0_6_writes h
theorem k5 (r : Ref sig .tc) (h : r ∉ hostOps0_7_W) : StableHlo.after hostOps0_7 W (Proc.devRef .tc r) = W (Proc.devRef .tc r) :=
  StableHlo.after_of_writes_sub hostOps0_7 W hostOps0_7_writes h
theorem k6 (r : Ref sig .tc) (h : r ∉ hostOps0_8_W) : StableHlo.after hostOps0_8 W (Proc.devRef .tc r) = W (Proc.devRef .tc r) :=
  StableHlo.after_of_writes_sub hostOps0_8 W hostOps0_8_writes h
theorem k7 (r : Ref sig .tc) (h : r ∉ hostOps0_9_W) : StableHlo.after hostOps0_9 W (Proc.devRef .tc r) = W (Proc.devRef .tc r) :=
  StableHlo.after_of_writes_sub hostOps0_9 W hostOps0_9_writes h
theorem k8 (r : Ref sig .tc) (h : r ∉ hostOps0_10_W) : StableHlo.after hostOps0_10 W (Proc.devRef .tc r) = W (Proc.devRef .tc r) :=
  StableHlo.after_of_writes_sub hostOps0_10 W hostOps0_10_writes h

/-! ## The contents after each stretch and each launch -/

/-- After the stretch that ends with the first padding constant. -/
abbrev W0 : Valuation τ sig (Elt Ideal) := StableHlo.after hostOps0_2 W
/-- After the pad of the row words. -/
abbrev W1 : Valuation τ sig (Elt Ideal) := StableHlo.after hostOps0_3 (W0 W)
abbrev W2 : Valuation τ sig (Elt Ideal) := StableHlo.after hostOps0_4 (W1 W)
/-- After the pad of the column words. -/
abbrev W3 : Valuation τ sig (Elt Ideal) := StableHlo.after hostOps0_5 (W2 W)
abbrev W4 : Valuation τ sig (Elt Ideal) := StableHlo.after hostOps0_6 (W3 W)
/-- After the pad of the weights. -/
abbrev W5 : Valuation τ sig (Elt Ideal) := StableHlo.after hostOps0_7 (W4 W)
abbrev W6 : Valuation τ sig (Elt Ideal) := StableHlo.after hostOps0_8 (W5 W)
/-- After the pad of the feature table. -/
abbrev W7 : Valuation τ sig (Elt Ideal) := StableHlo.after hostOps0_9 (W6 W)
/-- After the reshapes: what the gather launch is entered from. -/
abbrev W8 : Valuation τ sig (Elt Ideal) := StableHlo.after hostOps0_10 (W7 W)

variable (gout : S391x8192x64.Idx → EReal) (yout : S150528x64.Idx → EReal)

/-- With the gather launch's result: what the scatter launch is entered from. -/
abbrev W9 : Valuation τ sig (Elt Ideal) := Function.update (W8 W) (Proc.devRef .tc main_v39) gout
/-- With the scatter launch's result. -/
abbrev W10 : Valuation τ sig (Elt Ideal) := Function.update (W9 W gout) (Proc.devRef .tc main_v40) yout
/-- After the stretch that cuts the padded rows off. -/
abbrev W11 : Valuation τ sig (Elt Ideal) := StableHlo.after hostOps2 (W10 W gout yout)

/-! ## The lists and the table as the gather launch finds them are the ones the pads read -/

theorem src_h : W8 W (Proc.devRef .tc main_v2) = W0 W (Proc.devRef .tc main_v2) :=
  (k8 (W7 W) main_v2 (by decide)).trans <| (k7 (W6 W) main_v2 (by decide)).trans <| (k6 (W5 W) main_v2 (by decide)).trans <|
  (k5 (W4 W) main_v2 (by decide)).trans <| (k4 (W3 W) main_v2 (by decide)).trans <| (k3 (W2 W) main_v2 (by decide)).trans <|
  (k2 (W1 W) main_v2 (by decide)).trans (k1 (W0 W) main_v2 (by decide))
theorem src_t : W8 W (Proc.devRef .tc main_v5) = W2 W (Proc.devRef .tc main_v5) :=
  (k8 (W7 W) main_v5 (by decide)).trans <| (k7 (W6 W) main_v5 (by decide)).trans <| (k6 (W5 W) main_v5 (by decide)).trans <|
  (k5 (W4 W) main_v5 (by decide)).trans <| (k4 (W3 W) main_v5 (by decide)).trans (k3 (W2 W) main_v5 (by decide))
theorem src_g : W8 W (Proc.devRef .tc main_v30) = W4 W (Proc.devRef .tc main_v30) :=
  (k8 (W7 W) main_v30 (by decide)).trans <| (k7 (W6 W) main_v30 (by decide)).trans <| (k6 (W5 W) main_v30 (by decide)).trans
    (k5 (W4 W) main_v30 (by decide))
theorem src_x : W8 W (Proc.devRef .tc main_v31) = W6 W (Proc.devRef .tc main_v31) :=
  (k8 (W7 W) main_v31 (by decide)).trans (k7 (W6 W) main_v31 (by decide))

/-- The padded lists as the reshapes find them, the padded table as the gather launch finds it. -/
theorem at_rp : W7 W (Proc.devRef .tc main_v32) = W1 W (Proc.devRef .tc main_v32) :=
  (k7 (W6 W) main_v32 (by decide)).trans <| (k6 (W5 W) main_v32 (by decide)).trans <| (k5 (W4 W) main_v32 (by decide)).trans <|
  (k4 (W3 W) main_v32 (by decide)).trans <| (k3 (W2 W) main_v32 (by decide)).trans (k2 (W1 W) main_v32 (by decide))
theorem at_cp : W7 W (Proc.devRef .tc main_v33) = W3 W (Proc.devRef .tc main_v33) :=
  (k7 (W6 W) main_v33 (by decide)).trans <| (k6 (W5 W) main_v33 (by decide)).trans <| (k5 (W4 W) main_v33 (by decide)).trans
    (k4 (W3 W) main_v33 (by decide))
theorem at_vp : W7 W (Proc.devRef .tc main_v34) = W5 W (Proc.devRef .tc main_v34) :=
  (k7 (W6 W) main_v34 (by decide)).trans (k6 (W5 W) main_v34 (by decide))
theorem at_xp : W8 W (Proc.devRef .tc main_v35) = W7 W (Proc.devRef .tc main_v35) :=
  k8 (W7 W) main_v35 (by decide)

/-! ## The product -/

/-- The rows cut out after the two launches are the sparse product of the lists and the table the gather launch finds. -/
theorem prod
    (hg : ∀ (ch : Fin 391) (e : Fin 8192) (j : Fin 64), gout (ix3 ch e j)
      = rowOr0 (fun (q : Fin 150528) (j : Fin 64) => (W8 W (Proc.devRef .tc main_v35) : S150528x64.Idx → EReal) (ix2 q j))
          ((W8 W (Proc.devRef .tc main_v36) : S391x1x8192.Idx → BitVec 32) (ix3 ch 0 e)).toNat j
        * (W8 W (Proc.devRef .tc main_v37) : S391x1x8192.Idx → EReal) (ix3 ch 0 e))
    (hs : ∀ (node : Fin 150528) (j : Fin 64), yout (ix2 node j)
      = (∑ ch : Fin 391, ∑ e : Fin 8192,
          (if ((W9 W gout (Proc.devRef .tc main_v38) : S391x1x8192.Idx → BitVec 32) (ix3 ch 0 e)).toNat = node.val
            then (W9 W gout (Proc.devRef .tc main_v39) : S391x8192x64.Idx → EReal) (ix3 ch e j) else 0) : EReal))
    (i : Fin 150000) (j : Fin 64) :
    (W11 W gout yout (Proc.devRef .tc main_v41) : S150000x64.Idx → EReal) (ix2 i j)
      = spmm (fun e => (W8 W (Proc.devRef .tc main_v2) : S3200000.Idx → BitVec 32) (ix1 e))
          (fun e => (W8 W (Proc.devRef .tc main_v5) : S3200000.Idx → BitVec 32) (ix1 e))
          (fun e => (W8 W (Proc.devRef .tc main_v30) : S3200000.Idx → EReal) (ix1 e))
          (fun i j => (W8 W (Proc.devRef .tc main_v31) : S150000x64.Idx → EReal) (ix2 i j)) i j := by
  have e_g : (W9 W gout (Proc.devRef .tc main_v39) : S391x8192x64.Idx → EReal) = gout := Function.update_self _ _ _
  have e_y : (W10 W gout yout (Proc.devRef .tc main_v40) : S150528x64.Idx → EReal) = yout := Function.update_self _ _ _
  have e_r : (W9 W gout (Proc.devRef .tc main_v38) : S391x1x8192.Idx → BitVec 32) = W8 W (Proc.devRef .tc main_v38) :=
    Function.update_of_ne (StableHlo.devRef_ne_of_ne (by decide)) _ _
  have e_sl : (W11 W gout yout (Proc.devRef .tc main_v41) : S150000x64.Idx → EReal)
      = extractStridedSlice S150000x64 ![0, 0] yout slices_S150528x64_S150000x64_0_0 :=
    (rd_sl (W10 W gout yout)).trans (congrArg (fun z => extractStridedSlice S150000x64 ![0, 0] z slices_S150528x64_S150000x64_0_0) e_y)
  rw [e_g] at hs
  rw [e_sl, src_h W, src_t W, src_g W, src_x W]
  exact spmm_of_launches (hN := rfl) (hE := by decide) (hn := by decide)
    (W0 W (Proc.devRef .tc main_v2)) (W2 W (Proc.devRef .tc main_v5)) (W4 W (Proc.devRef .tc main_v30))
    (W6 W (Proc.devRef .tc main_v31)) h_S_
    (W0 W (Proc.devRef .tc main_c_9)) (W2 W (Proc.devRef .tc main_c_10))
    (sitofp (F := Ideal) .f32 (W4 W (Proc.devRef .tc main_c_11) : S_.Idx → BitVec 32))
    (sitofp (F := Ideal) .f32 (W6 W (Proc.devRef .tc main_c_12) : S_.Idx → BitVec 32))
    (fun k => congrFun (rd_c1 W) k) (fun k => congrFun (rd_c2 (W1 W)) k)
    (fun k => (congrArg (fun z : S_.Idx → BitVec 32 => sitofp (F := Ideal) .f32 z k) (rd_c3 (W3 W))).trans sitofp_zero)
    (fun k => (congrArg (fun z : S_.Idx → BitVec 32 => sitofp (F := Ideal) .f32 z k) (rd_c4 (W5 W))).trans sitofp_zero)
    pads_S3200000_S3203072_030720 pads_S150000x64_S150528x64_05280_000 shapeCasts_S3203072_S391x1x8192
    slices_S150528x64_S150000x64_0_0
    (W9 W gout (Proc.devRef .tc main_v38)) (W8 W (Proc.devRef .tc main_v36)) (W8 W (Proc.devRef .tc main_v37))
    (W8 W (Proc.devRef .tc main_v35)) gout yout
    (e_r.trans ((rd_rows3 (W7 W)).trans (congrArg (fun z => shapeCast S391x1x8192 z shapeCasts_S3203072_S391x1x8192)
      ((at_rp W).trans (rd_rp (W0 W))))))
    ((rd_cols3 (W7 W)).trans (congrArg (fun z => shapeCast S391x1x8192 z shapeCasts_S3203072_S391x1x8192)
      ((at_cp W).trans (rd_cp (W2 W)))))
    ((rd_vals3 (W7 W)).trans (congrArg (fun z => shapeCast S391x1x8192 z shapeCasts_S3203072_S391x1x8192)
      ((at_vp W).trans (rd_vp (W4 W)))))
    ((at_xp W).trans (rd_xp (W6 W)))
    hg hs i j

end Cert.KernelIdeal.Hand.ProdA1

end
-- ==== Proof.KI.GlueProdA2.lean ====
/-
  One sparse product of the kernel program, read off the host operations around its two launches, over ANY contents W of
  the unscoped buffers before them: the stretch that ends with the first padding constant; the four pads (row words,
  column words, weights, feature table), each behind its constant; the three reshapes into chunks; the gather launch,
  which leaves `gout` in its result array; the scatter launch, which leaves `yout`; the stretch that cuts the padded
  rows off. If `gout` and `yout` are the two launches' closed forms over the contents each is entered from, the rows
  cut out are the sparse product of the edge lists and the feature table as the gather launch finds them.
-/
import proofs.«130096_j52458730553647_1_alg».proof.Proof.KernelIdealRegions
import proofs.«130096_j52458730553647_1_alg».proof.Proof.KI.GlueSpmm
import Idealize.ShloMosaic.Lib.StableHlo.Run

set_option maxRecDepth 16384

noncomputable section

namespace Cert.KernelIdeal.Hand.ProdA2

open Cert.KernelIdeal Cert.KernelIdeal.Gen
open Idealize.ShloMosaic Idealize.ShloMosaic.TcCoe Idealize.ShloMosaic.ValueIdx
open Cert.Hand
open BigOperators

variable (W : Valuation τ sig (Elt Ideal))

/-! ## Each stretch read at a buffer it writes, over any contents before it -/

theorem rd_c1 : (StableHlo.after hostOps2 W (Proc.devRef .tc main_c_13) : S_.Idx → BitVec 32) = constantI S_ 32 0#32 := by
  after_results <;> rfl
theorem rd_c2 : (StableHlo.after hostOps2_2 W (Proc.devRef .tc main_c_14) : S_.Idx → BitVec 32) = constantI S_ 32 0#32 := by
  after_results <;> rfl
theorem rd_c3 : (StableHlo.after hostOps2_4 W (Proc.devRef .tc main_c_15) : S_.Idx → BitVec 32) = constantI S_ 32 0#32 := by
  after_results <;> rfl
theorem rd_c4 : (StableHlo.after hostOps2_6 W (Proc.devRef .tc main_c_16) : S_.Idx → BitVec 32) = constantI S_ 32 0#32 := by
  after_results <;> rfl

theorem rd_rp : (StableHlo.after hostOps2_1 W (Proc.devRef .tc main_v44) : S3203072.Idx → BitVec 32)
    = pad S3203072 ![0] ![3072] ![0] (W (Proc.devRef .tc main_v2) : S3200000.Idx → BitVec 32)
        (W (Proc.devRef .tc main_c_13) : S_.Idx → BitVec 32) pads_S3200000_S3203072_030720 h_S_ := by
  after_results <;> rfl
theorem rd_cp : (StableHlo.after hostOps2_3 W (Proc.devRef .tc main_v45) : S3203072.Idx → BitVec 32)
    = pad S3203072 ![0] ![3072] ![0] (W (Proc.devRef .tc main_v5) : S3200000.Idx → BitVec 32)
        (W (Proc.devRef .tc main_c_14) : S_.Idx → BitVec 32) pads_S3200000_S3203072_030720 h_S_ := by
  after_results <;> rfl
theorem rd_vp : (StableHlo.after hostOps2_5 W (Proc.devRef .tc main_v46) : S3203072.Idx → EReal)
    = pad S3203072 ![0] ![3072] ![0] (W (Proc.devRef .tc main_v30) : S3200000.Idx → EReal)
        (sitofp (F := Ideal) .f32 (W (Proc.devRef .tc main_c_15) : S_.Idx → BitVec 32)) pads_S3200000_S3203072_030720 h_S_ := by
  after_results <;> rfl
theorem rd_xp : (StableHlo.after hostOps2_7 W (Proc.devRef .tc main_v47) : S150528x64.Idx → EReal)
    = pad S150528x64 ![0, 0] ![528, 0] ![0, 0] (W (Proc.devRef .tc main_v42) : S150000x64.Idx → EReal)
        (sitofp (F := Ideal) .f32 (W (Proc.devRef .tc main_c_16) : S_.Idx → BitVec 32)) pads_S150000x64_S150528x64_05280_000 h_S_ := by
  after_results <;> rfl

theorem rd_cols3 : (StableHlo.after hostOps2_8 W (Proc.devRef .tc main_v48) : S391x1x8192.Idx → BitVec 32)
    = shapeCast S391x1x8192 (W (Proc.devRef .tc main_v45) : S3203072.Idx → BitVec 32) shapeCasts_S3203072_S391x1x8192 := by
  after_results <;> rfl
theorem rd_vals3 : (StableHlo.after hostOps2_8 W (Proc.devRef .tc main_v49) : S391x1x8192.Idx → EReal)
    = shapeCast S391x1x8192 (W (Proc.devRef .tc main_v46) : S3203072.Idx → EReal) shapeCasts_S3203072_S391x1x8192 := by
  after_results <;> rfl
theorem rd_rows3 : (StableHlo.after hostOps2_8 W (Proc.devRef .tc main_v50) : S391x1x8192.Idx → BitVec 32)
    = shapeCast S391x1x8192 (W (Proc.devRef .tc main_v44) : S3203072.Idx → BitVec 32) shapeCasts_S3203072_S391x1x8192 := by
  after_results <;> rfl

theorem rd_sl : (StableHlo.after hostOps4 W (Proc.devRef .tc main_v53) : S150000x64.Idx → EReal)
    = extractStridedSlice S150000x64 ![0, 0] (W (Proc.devRef .tc main_v52) : S150528x64.Idx → EReal) slices_S150528x64_S150000x64_0_0 := by
  after_results <;> rfl

/-! ## A stretch leaves the buffers it does not write as they were -/

theorem k1 (r : Ref sig .tc) (h : r ∉ hostOps2_1_W) : StableHlo.after hostOps2_1 W (Proc.devRef .tc r) = W (Proc.devRef .tc r) :=
  StableHlo.after_of_writes_sub hostOps2_1 W hostOps2_1_writes h
theorem k2 (r : Ref sig .tc) (h : r ∉ hostOps2_2_W) : StableHlo.after hostOps2_2 W (Proc.devRef .tc r) = W (Proc.devRef .tc r) :=
  StableHlo.after_of_writes_sub hostOps2_2 W hostOps2_2_writes h
theorem k3 (r : Ref sig .tc) (h : r ∉ hostOps2_3_W) : StableHlo.after hostOps2_3 W (Proc.devRef .tc r) = W (Proc.devRef .tc r) :=
  StableHlo.after_of_writes_sub hostOps2_3 W hostOps2_3_writes h
theorem k4 (r : Ref sig .tc) (h : r ∉ hostOps2_4_W) : StableHlo.after hostOps2_4 W (Proc.devRef .tc r) = W (Proc.devRef .tc r) :=
  StableHlo.after_of_writes_sub hostOps2_4 W hostOps2_4_writes h
theorem k5 (r : Ref sig .tc) (h : r ∉ hostOps2_5_W) : StableHlo.after hostOps2_5 W (Proc.devRef .tc r) = W (Proc.devRef .tc r) :=
  StableHlo.after_of_writes_sub hostOps2_5 W hostOps2_5_writes h
theorem k6 (r : Ref sig .tc) (h : r ∉ hostOps2_6_W) : StableHlo.after hostOps2_6 W (Proc.devRef .tc r) = W (Proc.devRef .tc r) :=
  StableHlo.after_of_writes_sub hostOps2_6 W hostOps2_6_writes h
theorem k7 (r : Ref sig .tc) (h : r ∉ hostOps2_7_W) : StableHlo.after hostOps2_7 W (Proc.devRef .tc r) = W (Proc.devRef .tc r) :=
  StableHlo.after_of_writes_sub hostOps2_7 W hostOps2_7_writes h
theorem k8 (r : Ref sig .tc) (h : r ∉ hostOps2_8_W) : StableHlo.after hostOps2_8 W (Proc.devRef .tc r) = W (Proc.devRef .tc r) :=
  StableHlo.after_of_writes_sub hostOps2_8 W hostOps2_8_writes h

/-! ## The contents after each stretch and each launch -/

/-- After the stretch that ends with the first padding constant. -/
abbrev W0 : Valuation τ sig (Elt Ideal) := StableHlo.after hostOps2 W
/-- After the pad of the row words. -/
abbrev W1 : Valuation τ sig (Elt Ideal) := StableHlo.after hostOps2_1 (W0 W)
abbrev W2 : Valuation τ sig (Elt Ideal) := StableHlo.after hostOps2_2 (W1 W)
/-- After the pad of the column words. -/
abbrev W3 : Valuation τ sig (Elt Ideal) := StableHlo.after hostOps2_3 (W2 W)
abbrev W4 : Valuation τ sig (Elt Ideal) := StableHlo.after hostOps2_4 (W3 W)
/-- After the pad of the weights. -/
abbrev W5 : Valuation τ sig (Elt Ideal) := StableHlo.after hostOps2_5 (W4 W)
abbrev W6 : Valuation τ sig (Elt Ideal) := StableHlo.after hostOps2_6 (W5 W)
/-- After the pad of the feature table. -/
abbrev W7 : Valuation τ sig (Elt Ideal) := StableHlo.after hostOps2_7 (W6 W)
/-- After the reshapes: what the gather launch is entered from. -/
abbrev W8 : Valuation τ sig (Elt Ideal) := StableHlo.after hostOps2_8 (W7 W)

variable (gout : S391x8192x64.Idx → EReal) (yout : S150528x64.Idx → EReal)

/-- With the gather launch's result: what the scatter launch is entered from. -/
abbrev W9 : Valuation τ sig (Elt Ideal) := Function.update (W8 W) (Proc.devRef .tc main_v51) gout
/-- With the scatter launch's result. -/
abbrev W10 : Valuation τ sig (Elt Ideal) := Function.update (W9 W gout) (Proc.devRef .tc main_v52) yout
/-- After the stretch that cuts the padded rows off. -/
abbrev W11 : Valuation τ sig (Elt Ideal) := StableHlo.after hostOps4 (W10 W gout yout)

/-! ## The lists and the table as the gather launch finds them are the ones the pads read -/

theorem src_h : W8 W (Proc.devRef .tc main_v2) = W0 W (Proc.devRef .tc main_v2) :=
  (k8 (W7 W) main_v2 (by decide)).trans <| (k7 (W6 W) main_v2 (by decide)).trans <| (k6 (W5 W) main_v2 (by decide)).trans <|
  (k5 (W4 W) main_v2 (by decide)).trans <| (k4 (W3 W) main_v2 (by decide)).trans <| (k3 (W2 W) main_v2 (by decide)).trans <|
  (k2 (W1 W) main_v2 (by decide)).trans (k1 (W0 W) main_v2 (by decide))
theorem src_t : W8 W (Proc.devRef .tc main_v5) = W2 W (Proc.devRef .tc main_v5) :=
  (k8 (W7 W) main_v5 (by decide)).trans <| (k7 (W6 W) main_v5 (by decide)).trans <| (k6 (W5 W) main_v5 (by decide)).trans <|
  (k5 (W4 W) main_v5 (by decide)).trans <| (k4 (W3 W) main_v5 (by decide)).trans (k3 (W2 W) main_v5 (by decide))
theorem src_g : W8 W (Proc.devRef .tc main_v30) = W4 W (Proc.devRef .tc main_v30) :=
  (k8 (W7 W) main_v30 (by decide)).trans <| (k7 (W6 W) main_v30 (by decide)).trans <| (k6 (W5 W) main_v30 (by decide)).trans
    (k5 (W4 W) main_v30 (by decide))
theorem src_x : W8 W (Proc.devRef .tc main_v42) = W6 W (Proc.devRef .tc main_v42) :=
  (k8 (W7 W) main_v42 (by decide)).trans (k7 (W6 W) main_v42 (by decide))

/-- The padded lists as the reshapes find them, the padded table as the gather launch finds it. -/
theorem at_rp : W7 W (Proc.devRef .tc main_v44) = W1 W (Proc.devRef .tc main_v44) :=
  (k7 (W6 W) main_v44 (by decide)).trans <| (k6 (W5 W) main_v44 (by decide)).trans <| (k5 (W4 W) main_v44 (by decide)).trans <|
  (k4 (W3 W) main_v44 (by decide)).trans <| (k3 (W2 W) main_v44 (by decide)).trans (k2 (W1 W) main_v44 (by decide))
theorem at_cp : W7 W (Proc.devRef .tc main_v45) = W3 W (Proc.devRef .tc main_v45) :=
  (k7 (W6 W) main_v45 (by decide)).trans <| (k6 (W5 W) main_v45 (by decide)).trans <| (k5 (W4 W) main_v45 (by decide)).trans
    (k4 (W3 W) main_v45 (by decide))
theorem at_vp : W7 W (Proc.devRef .tc main_v46) = W5 W (Proc.devRef .tc main_v46) :=
  (k7 (W6 W) main_v46 (by decide)).trans (k6 (W5 W) main_v46 (by decide))
theorem at_xp : W8 W (Proc.devRef .tc main_v47) = W7 W (Proc.devRef .tc main_v47) :=
  k8 (W7 W) main_v47 (by decide)

/-! ## The product -/

/-- The rows cut out after the two launches are the sparse product of the lists and the table the gather launch finds. -/
theorem prod
    (hg : ∀ (ch : Fin 391) (e : Fin 8192) (j : Fin 64), gout (ix3 ch e j)
      = rowOr0 (fun (q : Fin 150528) (j : Fin 64) => (W8 W (Proc.devRef .tc main_v47) : S150528x64.Idx → EReal) (ix2 q j))
          ((W8 W (Proc.devRef .tc main_v48) : S391x1x8192.Idx → BitVec 32) (ix3 ch 0 e)).toNat j
        * (W8 W (Proc.devRef .tc main_v49) : S391x1x8192.Idx → EReal) (ix3 ch 0 e))
    (hs : ∀ (node : Fin 150528) (j : Fin 64), yout (ix2 node j)
      = (∑ ch : Fin 391, ∑ e : Fin 8192,
          (if ((W9 W gout (Proc.devRef .tc main_v50) : S391x1x8192.Idx → BitVec 32) (ix3 ch 0 e)).toNat = node.val
            then (W9 W gout (Proc.devRef .tc main_v51) : S391x8192x64.Idx → EReal) (ix3 ch e j) else 0) : EReal))
    (i : Fin 150000) (j : Fin 64) :
    (W11 W gout yout (Proc.devRef .tc main_v53) : S150000x64.Idx → EReal) (ix2 i j)
      = spmm (fun e => (W8 W (Proc.devRef .tc main_v2) : S3200000.Idx → BitVec 32) (ix1 e))
          (fun e => (W8 W (Proc.devRef .tc main_v5) : S3200000.Idx → BitVec 32) (ix1 e))
          (fun e => (W8 W (Proc.devRef .tc main_v30) : S3200000.Idx → EReal) (ix1 e))
          (fun i j => (W8 W (Proc.devRef .tc main_v42) : S150000x64.Idx → EReal) (ix2 i j)) i j := by
  have e_g : (W9 W gout (Proc.devRef .tc main_v51) : S391x8192x64.Idx → EReal) = gout := Function.update_self _ _ _
  have e_y : (W10 W gout yout (Proc.devRef .tc main_v52) : S150528x64.Idx → EReal) = yout := Function.update_self _ _ _
  have e_r : (W9 W gout (Proc.devRef .tc main_v50) : S391x1x8192.Idx → BitVec 32) = W8 W (Proc.devRef .tc main_v50) :=
    Function.update_of_ne (StableHlo.devRef_ne_of_ne (by decide)) _ _
  have e_sl : (W11 W gout yout (Proc.devRef .tc main_v53) : S150000x64.Idx → EReal)
      = extractStridedSlice S150000x64 ![0, 0] yout slices_S150528x64_S150000x64_0_0 :=
    (rd_sl (W10 W gout yout)).trans (congrArg (fun z => extractStridedSlice S150000x64 ![0, 0] z slices_S150528x64_S150000x64_0_0) e_y)
  rw [e_g] at hs
  rw [e_sl, src_h W, src_t W, src_g W, src_x W]
  exact spmm_of_launches (hN := rfl) (hE := by decide) (hn := by decide)
    (W0 W (Proc.devRef .tc main_v2)) (W2 W (Proc.devRef .tc main_v5)) (W4 W (Proc.devRef .tc main_v30))
    (W6 W (Proc.devRef .tc main_v42)) h_S_
    (W0 W (Proc.devRef .tc main_c_13)) (W2 W (Proc.devRef .tc main_c_14))
    (sitofp (F := Ideal) .f32 (W4 W (Proc.devRef .tc main_c_15) : S_.Idx → BitVec 32))
    (sitofp (F := Ideal) .f32 (W6 W (Proc.devRef .tc main_c_16) : S_.Idx → BitVec 32))
    (fun k => congrFun (rd_c1 W) k) (fun k => congrFun (rd_c2 (W1 W)) k)
    (fun k => (congrArg (fun z : S_.Idx → BitVec 32 => sitofp (F := Ideal) .f32 z k) (rd_c3 (W3 W))).trans sitofp_zero)
    (fun k => (congrArg (fun z : S_.Idx → BitVec 32 => sitofp (F := Ideal) .f32 z k) (rd_c4 (W5 W))).trans sitofp_zero)
    pads_S3200000_S3203072_030720 pads_S150000x64_S150528x64_05280_000 shapeCasts_S3203072_S391x1x8192
    slices_S150528x64_S150000x64_0_0
    (W9 W gout (Proc.devRef .tc main_v50)) (W8 W (Proc.devRef .tc main_v48)) (W8 W (Proc.devRef .tc main_v49))
    (W8 W (Proc.devRef .tc main_v47)) gout yout
    (e_r.trans ((rd_rows3 (W7 W)).trans (congrArg (fun z => shapeCast S391x1x8192 z shapeCasts_S3203072_S391x1x8192)
      ((at_rp W).trans (rd_rp (W0 W))))))
    ((rd_cols3 (W7 W)).trans (congrArg (fun z => shapeCast S391x1x8192 z shapeCasts_S3203072_S391x1x8192)
      ((at_cp W).trans (rd_cp (W2 W)))))
    ((rd_vals3 (W7 W)).trans (congrArg (fun z => shapeCast S391x1x8192 z shapeCasts_S3203072_S391x1x8192)
      ((at_vp W).trans (rd_vp (W4 W)))))
    ((at_xp W).trans (rd_xp (W6 W)))
    hg hs i j

end Cert.KernelIdeal.Hand.ProdA2

end
-- ==== Proof.KI.GlueUI.lean ====
/-
  The user-item part of the idealized kernel program in the words of the model, over ANY contents `o` the launches
  leave that satisfy the first four launches' closed forms. The first product's rows plus the embeddings are the first
  propagation step; the second product is taken of that step's table, its rows plus that table are the second step; the
  sum of the embeddings, the first step and the second step is the model's three-layer sum, and the two results are its
  rows below and from 100000.
-/
import proofs.«130096_j52458730553647_1_alg».proof.Proof.KernelIdealRegions
import proofs.«130096_j52458730553647_1_alg».proof.Proof.Model
import proofs.«130096_j52458730553647_1_alg».proof.Proof.KI.GlueProdA1
import proofs.«130096_j52458730553647_1_alg».proof.Proof.KI.GlueProdA2

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Hand
open BigOperators

variable (m : (ℓ : Loc nD τ sig) → Buf (Elt Ideal) ℓ) (o : Gen.Outs (F := Ideal))

/-- The user-item graph's row words, column words, weights and feature table as the first gather launch finds them. -/
abbrev hK (c : Dev nD) : Fin 3200000 → BitVec 32 := fun e => (Gen.V11 m c main_v2 : S3200000.Idx → BitVec 32) (ix1 e)
abbrev tK (c : Dev nD) : Fin 3200000 → BitVec 32 := fun e => (Gen.V11 m c main_v5 : S3200000.Idx → BitVec 32) (ix1 e)
abbrev gK (c : Dev nD) : Fin 3200000 → EReal := fun e => (Gen.V11 m c main_v30 : S3200000.Idx → EReal) (ix1 e)
abbrev embK (c : Dev nD) : Model.Tab 150000 := fun i j => (Gen.V11 m c main_v31 : S150000x64.Idx → EReal) (ix2 i j)

/-- The first four launches leave their closed forms: each gather launch, at (chunk, edge, feature), the row of the padded
    table its column word names times its weight; each scatter launch, at (node, feature), the sum of the gathered rows
    whose row word is the node; each over the contents it is entered from. -/
structure ClosedUI : Prop where
  g0 : ∀ (c : Dev nD) (ch : Fin 391) (e : Fin 8192) (j : Fin 64), (o 12 main_v39 c : S391x8192x64.Idx → EReal) (ix3 ch e j)
    = rowOr0 (fun (q : Fin 150528) (j : Fin 64) => (Gen.V11 m c main_v35 : S150528x64.Idx → EReal) (ix2 q j))
        ((Gen.V11 m c main_v36 : S391x1x8192.Idx → BitVec 32) (ix3 ch 0 e)).toNat j
      * (Gen.V11 m c main_v37 : S391x1x8192.Idx → EReal) (ix3 ch 0 e)
  s1 : ∀ (c : Dev nD) (node : Fin 150528) (j : Fin 64), (o 13 main_v40 c : S150528x64.Idx → EReal) (ix2 node j)
    = (∑ ch : Fin 391, ∑ e : Fin 8192,
        (if ((Gen.V12 m o c main_v38 : S391x1x8192.Idx → BitVec 32) (ix3 ch 0 e)).toNat = node.val
          then (Gen.V12 m o c main_v39 : S391x8192x64.Idx → EReal) (ix3 ch e j) else 0) : EReal)
  g2 : ∀ (c : Dev nD) (ch : Fin 391) (e : Fin 8192) (j : Fin 64), (o 23 main_v51 c : S391x8192x64.Idx → EReal) (ix3 ch e j)
    = rowOr0 (fun (q : Fin 150528) (j : Fin 64) => (Gen.V22 m o c main_v47 : S150528x64.Idx → EReal) (ix2 q j))
        ((Gen.V22 m o c main_v48 : S391x1x8192.Idx → BitVec 32) (ix3 ch 0 e)).toNat j
      * (Gen.V22 m o c main_v49 : S391x1x8192.Idx → EReal) (ix3 ch 0 e)
  s3 : ∀ (c : Dev nD) (node : Fin 150528) (j : Fin 64), (o 24 main_v52 c : S150528x64.Idx → EReal) (ix2 node j)
    = (∑ ch : Fin 391, ∑ e : Fin 8192,
        (if ((Gen.V23 m o c main_v50 : S391x1x8192.Idx → BitVec 32) (ix3 ch 0 e)).toNat = node.val
          then (Gen.V23 m o c main_v51 : S391x8192x64.Idx → EReal) (ix3 ch e j) else 0) : EReal)

namespace UI

/-! ## The sums around the products, read over any contents before their stretch -/

section Stretch
variable (W : Valuation τ sig (Elt Ideal))

theorem rd_v42 : (StableHlo.after hostOps2 W (Proc.devRef .tc main_v42) : S150000x64.Idx → EReal)
    = addf (F := Ideal) (φ := .f32) (extractStridedSlice S150000x64 ![0, 0] (W (Proc.devRef .tc main_v40) : S150528x64.Idx → EReal) slices_S150528x64_S150000x64_0_0)
        (W (Proc.devRef .tc main_v31) : S150000x64.Idx → EReal) := by
  after_results <;> rfl
theorem rd_v43 : (StableHlo.after hostOps2 W (Proc.devRef .tc main_v43) : S150000x64.Idx → EReal)
    = addf (F := Ideal) (φ := .f32) (W (Proc.devRef .tc main_v31) : S150000x64.Idx → EReal)
        (addf (F := Ideal) (φ := .f32) (extractStridedSlice S150000x64 ![0, 0] (W (Proc.devRef .tc main_v40) : S150528x64.Idx → EReal) slices_S150528x64_S150000x64_0_0)
          (W (Proc.devRef .tc main_v31) : S150000x64.Idx → EReal)) := by
  after_results <;> rfl
theorem rd_v55 : (StableHlo.after hostOps4 W (Proc.devRef .tc main_v55) : S150000x64.Idx → EReal)
    = addf (F := Ideal) (φ := .f32) (W (Proc.devRef .tc main_v43) : S150000x64.Idx → EReal)
        (addf (F := Ideal) (φ := .f32) (extractStridedSlice S150000x64 ![0, 0] (W (Proc.devRef .tc main_v52) : S150528x64.Idx → EReal) slices_S150528x64_S150000x64_0_0)
          (W (Proc.devRef .tc main_v42) : S150000x64.Idx → EReal)) := by
  after_results <;> rfl
theorem rd_v56 : (StableHlo.after hostOps4 W (Proc.devRef .tc main_v56) : S100000x64.Idx → EReal)
    = extractStridedSlice S100000x64 ![0, 0] (StableHlo.after hostOps4 W (Proc.devRef .tc main_v55) : S150000x64.Idx → EReal)
        slices_S150000x64_S100000x64_0_0 := by
  rw [rd_v55 W]
  after_results <;> rfl
theorem rd_v57 : (StableHlo.after hostOps4 W (Proc.devRef .tc main_v57) : S50000x64.Idx → EReal)
    = extractStridedSlice S50000x64 ![100000, 0] (StableHlo.after hostOps4 W (Proc.devRef .tc main_v55) : S150000x64.Idx → EReal)
        slices_S150000x64_S50000x64_100000_0 := by
  rw [rd_v55 W]
  after_results <;> rfl

end Stretch

/-! ## Buffers the later items leave alone -/

/-- The embeddings after the first two launches. -/
theorem v31_13 (c : Dev nD) : Gen.V13 m o c main_v31 = Gen.V11 m c main_v31 :=
  (Gen.V13_of m o c main_v31 (by decide)).trans <| (Gen.V12_of m o c main_v31 (by decide))

/-- The edge lists as the second gather launch finds them are the ones the first found. -/
theorem v2_22 (c : Dev nD) : Gen.V22 m o c main_v2 = Gen.V11 m c main_v2 :=
  (Gen.V22_of m o c main_v2 (by decide)).trans <| (Gen.V21_of m o c main_v2 (by decide)).trans <| (Gen.V20_of m o c main_v2 (by decide)).trans <|
  (Gen.V19_of m o c main_v2 (by decide)).trans <| (Gen.V18_of m o c main_v2 (by decide)).trans <| (Gen.V17_of m o c main_v2 (by decide)).trans <|
  (Gen.V16_of m o c main_v2 (by decide)).trans <| (Gen.V15_of m o c main_v2 (by decide)).trans <| (Gen.V14_of m o c main_v2 (by decide)).trans <|
  (Gen.V13_of m o c main_v2 (by decide)).trans <| (Gen.V12_of m o c main_v2 (by decide))

theorem v5_22 (c : Dev nD) : Gen.V22 m o c main_v5 = Gen.V11 m c main_v5 :=
  (Gen.V22_of m o c main_v5 (by decide)).trans <| (Gen.V21_of m o c main_v5 (by decide)).trans <| (Gen.V20_of m o c main_v5 (by decide)).trans <|
  (Gen.V19_of m o c main_v5 (by decide)).trans <| (Gen.V18_of m o c main_v5 (by decide)).trans <| (Gen.V17_of m o c main_v5 (by decide)).trans <|
  (Gen.V16_of m o c main_v5 (by decide)).trans <| (Gen.V15_of m o c main_v5 (by decide)).trans <| (Gen.V14_of m o c main_v5 (by decide)).trans <|
  (Gen.V13_of m o c main_v5 (by decide)).trans <| (Gen.V12_of m o c main_v5 (by decide))

theorem v30_22 (c : Dev nD) : Gen.V22 m o c main_v30 = Gen.V11 m c main_v30 :=
  (Gen.V22_of m o c main_v30 (by decide)).trans <| (Gen.V21_of m o c main_v30 (by decide)).trans <| (Gen.V20_of m o c main_v30 (by decide)).trans <|
  (Gen.V19_of m o c main_v30 (by decide)).trans <| (Gen.V18_of m o c main_v30 (by decide)).trans <| (Gen.V17_of m o c main_v30 (by decide)).trans <|
  (Gen.V16_of m o c main_v30 (by decide)).trans <| (Gen.V15_of m o c main_v30 (by decide)).trans <| (Gen.V14_of m o c main_v30 (by decide)).trans <|
  (Gen.V13_of m o c main_v30 (by decide)).trans <| (Gen.V12_of m o c main_v30 (by decide))

/-- The first step's table as the second gather launch finds it, and it and the two-layer sum before the last sums. -/
theorem v42_22 (c : Dev nD) : Gen.V22 m o c main_v42 = Gen.V14 m o c main_v42 :=
  (Gen.V22_of m o c main_v42 (by decide)).trans <| (Gen.V21_of m o c main_v42 (by decide)).trans <| (Gen.V20_of m o c main_v42 (by decide)).trans <|
  (Gen.V19_of m o c main_v42 (by decide)).trans <| (Gen.V18_of m o c main_v42 (by decide)).trans <| (Gen.V17_of m o c main_v42 (by decide)).trans <|
  (Gen.V16_of m o c main_v42 (by decide)).trans <| (Gen.V15_of m o c main_v42 (by decide))

theorem v42_24 (c : Dev nD) : Gen.V24 m o c main_v42 = Gen.V14 m o c main_v42 :=
  (Gen.V24_of m o c main_v42 (by decide)).trans <| (Gen.V23_of m o c main_v42 (by decide)).trans <| (Gen.V22_of m o c main_v42 (by decide)).trans <|
  (Gen.V21_of m o c main_v42 (by decide)).trans <| (Gen.V20_of m o c main_v42 (by decide)).trans <| (Gen.V19_of m o c main_v42 (by decide)).trans <|
  (Gen.V18_of m o c main_v42 (by decide)).trans <| (Gen.V17_of m o c main_v42 (by decide)).trans <| (Gen.V16_of m o c main_v42 (by decide)).trans <|
  (Gen.V15_of m o c main_v42 (by decide))

theorem v43_24 (c : Dev nD) : Gen.V24 m o c main_v43 = Gen.V14 m o c main_v43 :=
  (Gen.V24_of m o c main_v43 (by decide)).trans <| (Gen.V23_of m o c main_v43 (by decide)).trans <| (Gen.V22_of m o c main_v43 (by decide)).trans <|
  (Gen.V21_of m o c main_v43 (by decide)).trans <| (Gen.V20_of m o c main_v43 (by decide)).trans <| (Gen.V19_of m o c main_v43 (by decide)).trans <|
  (Gen.V18_of m o c main_v43 (by decide)).trans <| (Gen.V17_of m o c main_v43 (by decide)).trans <| (Gen.V16_of m o c main_v43 (by decide)).trans <|
  (Gen.V15_of m o c main_v43 (by decide))

/-- The two results after the later items. -/
theorem v56_73 (c : Dev nD) : Gen.V73 m o c main_v56 = Gen.V25 m o c main_v56 :=
  (Gen.V73_of m o c main_v56 (by decide)).trans <| (Gen.V72_of m o c main_v56 (by decide)).trans <| (Gen.V71_of m o c main_v56 (by decide)).trans <|
  (Gen.V70_of m o c main_v56 (by decide)).trans <| (Gen.V69_of m o c main_v56 (by decide)).trans <| (Gen.V68_of m o c main_v56 (by decide)).trans <|
  (Gen.V67_of m o c main_v56 (by decide)).trans <| (Gen.V66_of m o c main_v56 (by decide)).trans <| (Gen.V65_of m o c main_v56 (by decide)).trans <|
  (Gen.V64_of m o c main_v56 (by decide)).trans <| (Gen.V63_of m o c main_v56 (by decide)).trans <| (Gen.V62_of m o c main_v56 (by decide)).trans <|
  (Gen.V61_of m o c main_v56 (by decide)).trans <| (Gen.V60_of m o c main_v56 (by decide)).trans <| (Gen.V59_of m o c main_v56 (by decide)).trans <|
  (Gen.V58_of m o c main_v56 (by decide)).trans <| (Gen.V57_of m o c main_v56 (by decide)).trans <| (Gen.V56_of m o c main_v56 (by decide)).trans <|
  (Gen.V55_of m o c main_v56 (by decide)).trans <| (Gen.V54_of m o c main_v56 (by decide)).trans <| (Gen.V53_of m o c main_v56 (by decide)).trans <|
  (Gen.V52_of m o c main_v56 (by decide)).trans <| (Gen.V51_of m o c main_v56 (by decide)).trans <| (Gen.V50_of m o c main_v56 (by decide)).trans <|
  (Gen.V49_of m o c main_v56 (by decide)).trans <| (Gen.V48_of m o c main_v56 (by decide)).trans <| (Gen.V47_of m o c main_v56 (by decide)).trans <|
  (Gen.V46_of m o c main_v56 (by decide)).trans <| (Gen.V45_of m o c main_v56 (by decide)).trans <| (Gen.V44_of m o c main_v56 (by decide)).trans <|
  (Gen.V43_of m o c main_v56 (by decide)).trans <| (Gen.V42_of m o c main_v56 (by decide)).trans <| (Gen.V41_of m o c main_v56 (by decide)).trans <|
  (Gen.V40_of m o c main_v56 (by decide)).trans <| (Gen.V39_of m o c main_v56 (by decide)).trans <| (Gen.V38_of m o c main_v56 (by decide)).trans <|
  (Gen.V37_of m o c main_v56 (by decide)).trans <| (Gen.V36_of m o c main_v56 (by decide)).trans <| (Gen.V35_of m o c main_v56 (by decide)).trans <|
  (Gen.V34_of m o c main_v56 (by decide)).trans <| (Gen.V33_of m o c main_v56 (by decide)).trans <| (Gen.V32_of m o c main_v56 (by decide)).trans <|
  (Gen.V31_of m o c main_v56 (by decide)).trans <| (Gen.V30_of m o c main_v56 (by decide)).trans <| (Gen.V29_of m o c main_v56 (by decide)).trans <|
  (Gen.V28_of m o c main_v56 (by decide)).trans <| (Gen.V27_of m o c main_v56 (by decide)).trans <| (Gen.V26_of m o c main_v56 (by decide))

theorem v57_73 (c : Dev nD) : Gen.V73 m o c main_v57 = Gen.V25 m o c main_v57 :=
  (Gen.V73_of m o c main_v57 (by decide)).trans <| (Gen.V72_of m o c main_v57 (by decide)).trans <| (Gen.V71_of m o c main_v57 (by decide)).trans <|
  (Gen.V70_of m o c main_v57 (by decide)).trans <| (Gen.V69_of m o c main_v57 (by decide)).trans <| (Gen.V68_of m o c main_v57 (by decide)).trans <|
  (Gen.V67_of m o c main_v57 (by decide)).trans <| (Gen.V66_of m o c main_v57 (by decide)).trans <| (Gen.V65_of m o c main_v57 (by decide)).trans <|
  (Gen.V64_of m o c main_v57 (by decide)).trans <| (Gen.V63_of m o c main_v57 (by decide)).trans <| (Gen.V62_of m o c main_v57 (by decide)).trans <|
  (Gen.V61_of m o c main_v57 (by decide)).trans <| (Gen.V60_of m o c main_v57 (by decide)).trans <| (Gen.V59_of m o c main_v57 (by decide)).trans <|
  (Gen.V58_of m o c main_v57 (by decide)).trans <| (Gen.V57_of m o c main_v57 (by decide)).trans <| (Gen.V56_of m o c main_v57 (by decide)).trans <|
  (Gen.V55_of m o c main_v57 (by decide)).trans <| (Gen.V54_of m o c main_v57 (by decide)).trans <| (Gen.V53_of m o c main_v57 (by decide)).trans <|
  (Gen.V52_of m o c main_v57 (by decide)).trans <| (Gen.V51_of m o c main_v57 (by decide)).trans <| (Gen.V50_of m o c main_v57 (by decide)).trans <|
  (Gen.V49_of m o c main_v57 (by decide)).trans <| (Gen.V48_of m o c main_v57 (by decide)).trans <| (Gen.V47_of m o c main_v57 (by decide)).trans <|
  (Gen.V46_of m o c main_v57 (by decide)).trans <| (Gen.V45_of m o c main_v57 (by decide)).trans <| (Gen.V44_of m o c main_v57 (by decide)).trans <|
  (Gen.V43_of m o c main_v57 (by decide)).trans <| (Gen.V42_of m o c main_v57 (by decide)).trans <| (Gen.V41_of m o c main_v57 (by decide)).trans <|
  (Gen.V40_of m o c main_v57 (by decide)).trans <| (Gen.V39_of m o c main_v57 (by decide)).trans <| (Gen.V38_of m o c main_v57 (by decide)).trans <|
  (Gen.V37_of m o c main_v57 (by decide)).trans <| (Gen.V36_of m o c main_v57 (by decide)).trans <| (Gen.V35_of m o c main_v57 (by decide)).trans <|
  (Gen.V34_of m o c main_v57 (by decide)).trans <| (Gen.V33_of m o c main_v57 (by decide)).trans <| (Gen.V32_of m o c main_v57 (by decide)).trans <|
  (Gen.V31_of m o c main_v57 (by decide)).trans <| (Gen.V30_of m o c main_v57 (by decide)).trans <| (Gen.V29_of m o c main_v57 (by decide)).trans <|
  (Gen.V28_of m o c main_v57 (by decide)).trans <| (Gen.V27_of m o c main_v57 (by decide)).trans <| (Gen.V26_of m o c main_v57 (by decide))

variable (hcl : ClosedUI m o)
include hcl

/-! ## The first propagation step -/

/-- The rows cut out after the first two launches: the sparse product of the embeddings. -/
theorem v41_eq (c : Dev nD) (i : Fin 150000) (j : Fin 64) :
    (Gen.V14 m o c main_v41 : S150000x64.Idx → EReal) (ix2 i j) = spmm (hK m c) (tK m c) (gK m c) (embK m c) i j :=
  ProdA1.prod (Gen.V2 m c) (o 12 main_v39 c) (o 13 main_v40 c) (hcl.g0 c) (hcl.s1 c) i j

/-- The first step's table. -/
theorem v42_eq (c : Dev nD) (i : Fin 150000) (j : Fin 64) :
    (Gen.V14 m o c main_v42 : S150000x64.Idx → EReal) (ix2 i j) = Model.stepRes (hK m c) (tK m c) (gK m c) (embK m c) i j := by
  have e : (Gen.V14 m o c main_v42 : S150000x64.Idx → EReal)
      = addf (F := Ideal) (φ := .f32) (Gen.V14 m o c main_v41 : S150000x64.Idx → EReal) (Gen.V11 m c main_v31 : S150000x64.Idx → EReal) :=
    (rd_v42 (Gen.V13 m o c)).trans (by rw [← ProdA1.rd_sl (Gen.V13 m o c), v31_13 m o c])
  rw [e, addf_apply, v41_eq m o hcl c i j]
  rfl

/-- The embeddings plus the first step's table. -/
theorem v43_eq (c : Dev nD) (i : Fin 150000) (j : Fin 64) :
    (Gen.V14 m o c main_v43 : S150000x64.Idx → EReal) (ix2 i j)
      = Model.addT (embK m c) (Model.stepRes (hK m c) (tK m c) (gK m c) (embK m c)) i j := by
  have e : (Gen.V14 m o c main_v43 : S150000x64.Idx → EReal)
      = addf (F := Ideal) (φ := .f32) (Gen.V11 m c main_v31 : S150000x64.Idx → EReal) (Gen.V14 m o c main_v42 : S150000x64.Idx → EReal) :=
    (rd_v43 (Gen.V13 m o c)).trans (by rw [← rd_v42 (Gen.V13 m o c), v31_13 m o c])
  rw [e, addf_apply, v42_eq m o hcl c i j]
  rfl

/-! ## The second propagation step -/

/-- The rows cut out after the second two launches: the sparse product of the first step's table. -/
theorem v53_eq (c : Dev nD) (i : Fin 150000) (j : Fin 64) :
    (Gen.V25 m o c main_v53 : S150000x64.Idx → EReal) (ix2 i j)
      = spmm (hK m c) (tK m c) (gK m c) (Model.stepRes (hK m c) (tK m c) (gK m c) (embK m c)) i j := by
  have p : (Gen.V25 m o c main_v53 : S150000x64.Idx → EReal) (ix2 i j)
      = spmm (fun e => (Gen.V22 m o c main_v2 : S3200000.Idx → BitVec 32) (ix1 e)) (fun e => (Gen.V22 m o c main_v5 : S3200000.Idx → BitVec 32) (ix1 e))
          (fun e => (Gen.V22 m o c main_v30 : S3200000.Idx → EReal) (ix1 e)) (fun i j => (Gen.V22 m o c main_v42 : S150000x64.Idx → EReal) (ix2 i j)) i j :=
    ProdA2.prod (Gen.V13 m o c) (o 23 main_v51 c) (o 24 main_v52 c) (hcl.g2 c) (hcl.s3 c) i j
  have ex : (fun (i : Fin 150000) (j : Fin 64) => (Gen.V22 m o c main_v42 : S150000x64.Idx → EReal) (ix2 i j))
      = Model.stepRes (hK m c) (tK m c) (gK m c) (embK m c) :=
    funext fun i => funext fun j => by rw [v42_22 m o c]; exact v42_eq m o hcl c i j
  rw [v2_22 m o c, v5_22 m o c, v30_22 m o c, ex] at p
  exact p

/-- The three-layer sum. -/
theorem v55_eq (c : Dev nD) (i : Fin 150000) (j : Fin 64) :
    (Gen.V25 m o c main_v55 : S150000x64.Idx → EReal) (ix2 i j) = Model.dccf (hK m c) (tK m c) (gK m c) (embK m c) i j := by
  have e : (Gen.V25 m o c main_v55 : S150000x64.Idx → EReal)
      = addf (F := Ideal) (φ := .f32) (Gen.V14 m o c main_v43 : S150000x64.Idx → EReal)
          (addf (F := Ideal) (φ := .f32) (Gen.V25 m o c main_v53 : S150000x64.Idx → EReal) (Gen.V14 m o c main_v42 : S150000x64.Idx → EReal)) :=
    (rd_v55 (Gen.V24 m o c)).trans (by rw [← ProdA2.rd_sl (Gen.V24 m o c), v43_24 m o c, v42_24 m o c])
  rw [e, addf_apply, addf_apply, v43_eq m o hcl c i j, v53_eq m o hcl c i j, v42_eq m o hcl c i j]
  rfl

/-! ## The two results -/

theorem v56_eq (c : Dev nD) (i : Fin 100000) (j : Fin 64) :
    (Gen.V73 m o c main_v56 : S100000x64.Idx → EReal) (ix2 i j)
      = Model.dccf (hK m c) (tK m c) (gK m c) (embK m c) ⟨i.val, Nat.lt_of_lt_of_le i.isLt (by decide)⟩ j := by
  rw [v56_73 m o c, show (Gen.V25 m o c main_v56 : S100000x64.Idx → EReal) = _ from rd_v56 (Gen.V24 m o c),
    slice2_axis0_apply 0 _ slices_S150000x64_S100000x64_0_0 i j ⟨i.val, Nat.lt_of_lt_of_le i.isLt (by decide)⟩ (Nat.zero_add _).symm]
  exact v55_eq m o hcl c _ j

theorem v57_eq (c : Dev nD) (i : Fin 50000) (j : Fin 64) :
    (Gen.V73 m o c main_v57 : S50000x64.Idx → EReal) (ix2 i j)
      = Model.dccf (hK m c) (tK m c) (gK m c) (embK m c) ⟨100000 + i.val, Nat.add_lt_add_left i.isLt 100000⟩ j := by
  rw [v57_73 m o c, show (Gen.V25 m o c main_v57 : S50000x64.Idx → EReal) = _ from rd_v57 (Gen.V24 m o c),
    slice2_axis0_apply 100000 _ slices_S150000x64_S50000x64_100000_0 i j ⟨100000 + i.val, Nat.add_lt_add_left i.isLt 100000⟩ rfl]
  exact v55_eq m o hcl c _ j

end UI

end Cert.KernelIdeal.Hand

end
-- ==== Proof.KI.GlueKeep.lean ====
/-
  Buffers the items of the program leave alone, for the two metapath parts: the index arguments and the feature arguments
  are written by no item, so each gather launch finds them as launched; a part's weights and its first step's rows, once
  written, are left alone until its second pair of launches; the users' result is left alone by the items after it.
-/
import proofs.«130096_j52458730553647_1_alg».proof.Proof.KernelIdealRegions
import Idealize.ShloMosaic.PureOps.Ideal

set_option maxRecDepth 16384

noncomputable section

namespace Cert.KernelIdeal.Hand.Keep

open Cert.KernelIdeal Cert.KernelIdeal.Gen
open Idealize.ShloMosaic Idealize.ShloMosaic.TcCoe

variable (m : (ℓ : Loc nD τ sig) → Buf (Elt Ideal) ℓ) (o : Gen.Outs (F := Ideal))

/-! ## The users' metapath part -/

/-- The arguments as the part's first gather launch finds them. -/
theorem arg4_35 (c : Dev nD) : Gen.V35 m o c main_arg4 = Gen.V0 m c main_arg4 :=
  (Gen.V35_of m o c main_arg4 (by decide)).trans <| (Gen.V34_of m o c main_arg4 (by decide)).trans <| (Gen.V33_of m o c main_arg4 (by decide)).trans <|
  (Gen.V32_of m o c main_arg4 (by decide)).trans <| (Gen.V31_of m o c main_arg4 (by decide)).trans <| (Gen.V30_of m o c main_arg4 (by decide)).trans <|
  (Gen.V29_of m o c main_arg4 (by decide)).trans <| (Gen.V28_of m o c main_arg4 (by decide)).trans <| (Gen.V27_of m o c main_arg4 (by decide)).trans <|
  (Gen.V26_of m o c main_arg4 (by decide)).trans <| (Gen.V25_of m o c main_arg4 (by decide)).trans <| (Gen.V24_of m o c main_arg4 (by decide)).trans <|
  (Gen.V23_of m o c main_arg4 (by decide)).trans <| (Gen.V22_of m o c main_arg4 (by decide)).trans <| (Gen.V21_of m o c main_arg4 (by decide)).trans <|
  (Gen.V20_of m o c main_arg4 (by decide)).trans <| (Gen.V19_of m o c main_arg4 (by decide)).trans <| (Gen.V18_of m o c main_arg4 (by decide)).trans <|
  (Gen.V17_of m o c main_arg4 (by decide)).trans <| (Gen.V16_of m o c main_arg4 (by decide)).trans <| (Gen.V15_of m o c main_arg4 (by decide)).trans <|
  (Gen.V14_of m o c main_arg4 (by decide)).trans <| (Gen.V13_of m o c main_arg4 (by decide)).trans <| (Gen.V12_of m o c main_arg4 (by decide)).trans <|
  (Gen.V11_of m c main_arg4 (by decide)).trans <| (Gen.V10_of m c main_arg4 (by decide)).trans <| (Gen.V9_of m c main_arg4 (by decide)).trans <|
  (Gen.V8_of m c main_arg4 (by decide)).trans <| (Gen.V7_of m c main_arg4 (by decide)).trans <| (Gen.V6_of m c main_arg4 (by decide)).trans <|
  (Gen.V5_of m c main_arg4 (by decide)).trans <| (Gen.V4_of m c main_arg4 (by decide)).trans <| (Gen.V3_of m c main_arg4 (by decide)).trans <|
  (Gen.V2_of m c main_arg4 (by decide)).trans <| (Gen.V1_of m c main_arg4 (by decide))

theorem arg5_35 (c : Dev nD) : Gen.V35 m o c main_arg5 = Gen.V0 m c main_arg5 :=
  (Gen.V35_of m o c main_arg5 (by decide)).trans <| (Gen.V34_of m o c main_arg5 (by decide)).trans <| (Gen.V33_of m o c main_arg5 (by decide)).trans <|
  (Gen.V32_of m o c main_arg5 (by decide)).trans <| (Gen.V31_of m o c main_arg5 (by decide)).trans <| (Gen.V30_of m o c main_arg5 (by decide)).trans <|
  (Gen.V29_of m o c main_arg5 (by decide)).trans <| (Gen.V28_of m o c main_arg5 (by decide)).trans <| (Gen.V27_of m o c main_arg5 (by decide)).trans <|
  (Gen.V26_of m o c main_arg5 (by decide)).trans <| (Gen.V25_of m o c main_arg5 (by decide)).trans <| (Gen.V24_of m o c main_arg5 (by decide)).trans <|
  (Gen.V23_of m o c main_arg5 (by decide)).trans <| (Gen.V22_of m o c main_arg5 (by decide)).trans <| (Gen.V21_of m o c main_arg5 (by decide)).trans <|
  (Gen.V20_of m o c main_arg5 (by decide)).trans <| (Gen.V19_of m o c main_arg5 (by decide)).trans <| (Gen.V18_of m o c main_arg5 (by decide)).trans <|
  (Gen.V17_of m o c main_arg5 (by decide)).trans <| (Gen.V16_of m o c main_arg5 (by decide)).trans <| (Gen.V15_of m o c main_arg5 (by decide)).trans <|
  (Gen.V14_of m o c main_arg5 (by decide)).trans <| (Gen.V13_of m o c main_arg5 (by decide)).trans <| (Gen.V12_of m o c main_arg5 (by decide)).trans <|
  (Gen.V11_of m c main_arg5 (by decide)).trans <| (Gen.V10_of m c main_arg5 (by decide)).trans <| (Gen.V9_of m c main_arg5 (by decide)).trans <|
  (Gen.V8_of m c main_arg5 (by decide)).trans <| (Gen.V7_of m c main_arg5 (by decide)).trans <| (Gen.V6_of m c main_arg5 (by decide)).trans <|
  (Gen.V5_of m c main_arg5 (by decide)).trans <| (Gen.V4_of m c main_arg5 (by decide)).trans <| (Gen.V3_of m c main_arg5 (by decide)).trans <|
  (Gen.V2_of m c main_arg5 (by decide)).trans <| (Gen.V1_of m c main_arg5 (by decide))

theorem arg0_35 (c : Dev nD) : Gen.V35 m o c main_arg0 = Gen.V0 m c main_arg0 :=
  (Gen.V35_of m o c main_arg0 (by decide)).trans <| (Gen.V34_of m o c main_arg0 (by decide)).trans <| (Gen.V33_of m o c main_arg0 (by decide)).trans <|
  (Gen.V32_of m o c main_arg0 (by decide)).trans <| (Gen.V31_of m o c main_arg0 (by decide)).trans <| (Gen.V30_of m o c main_arg0 (by decide)).trans <|
  (Gen.V29_of m o c main_arg0 (by decide)).trans <| (Gen.V28_of m o c main_arg0 (by decide)).trans <| (Gen.V27_of m o c main_arg0 (by decide)).trans <|
  (Gen.V26_of m o c main_arg0 (by decide)).trans <| (Gen.V25_of m o c main_arg0 (by decide)).trans <| (Gen.V24_of m o c main_arg0 (by decide)).trans <|
  (Gen.V23_of m o c main_arg0 (by decide)).trans <| (Gen.V22_of m o c main_arg0 (by decide)).trans <| (Gen.V21_of m o c main_arg0 (by decide)).trans <|
  (Gen.V20_of m o c main_arg0 (by decide)).trans <| (Gen.V19_of m o c main_arg0 (by decide)).trans <| (Gen.V18_of m o c main_arg0 (by decide)).trans <|
  (Gen.V17_of m o c main_arg0 (by decide)).trans <| (Gen.V16_of m o c main_arg0 (by decide)).trans <| (Gen.V15_of m o c main_arg0 (by decide)).trans <|
  (Gen.V14_of m o c main_arg0 (by decide)).trans <| (Gen.V13_of m o c main_arg0 (by decide)).trans <| (Gen.V12_of m o c main_arg0 (by decide)).trans <|
  (Gen.V11_of m c main_arg0 (by decide)).trans <| (Gen.V10_of m c main_arg0 (by decide)).trans <| (Gen.V9_of m c main_arg0 (by decide)).trans <|
  (Gen.V8_of m c main_arg0 (by decide)).trans <| (Gen.V7_of m c main_arg0 (by decide)).trans <| (Gen.V6_of m c main_arg0 (by decide)).trans <|
  (Gen.V5_of m c main_arg0 (by decide)).trans <| (Gen.V4_of m c main_arg0 (by decide)).trans <| (Gen.V3_of m c main_arg0 (by decide)).trans <|
  (Gen.V2_of m c main_arg0 (by decide)).trans <| (Gen.V1_of m c main_arg0 (by decide))

/-- The index arguments and the weights as the part's second gather launch finds them; the first step's rows there. -/
theorem arg4_46 (c : Dev nD) : Gen.V46 m o c main_arg4 = Gen.V0 m c main_arg4 :=
  (
  (Gen.V46_of m o c main_arg4 (by decide)).trans <| (Gen.V45_of m o c main_arg4 (by decide)).trans <| (Gen.V44_of m o c main_arg4 (by decide)).trans <|
  (Gen.V43_of m o c main_arg4 (by decide)).trans <| (Gen.V42_of m o c main_arg4 (by decide)).trans <| (Gen.V41_of m o c main_arg4 (by decide)).trans <|
  (Gen.V40_of m o c main_arg4 (by decide)).trans <| (Gen.V39_of m o c main_arg4 (by decide)).trans <| (Gen.V38_of m o c main_arg4 (by decide)).trans <|
  (Gen.V37_of m o c main_arg4 (by decide)).trans <| (Gen.V36_of m o c main_arg4 (by decide))).trans (arg4_35 m o c)
theorem arg5_46 (c : Dev nD) : Gen.V46 m o c main_arg5 = Gen.V0 m c main_arg5 :=
  (
  (Gen.V46_of m o c main_arg5 (by decide)).trans <| (Gen.V45_of m o c main_arg5 (by decide)).trans <| (Gen.V44_of m o c main_arg5 (by decide)).trans <|
  (Gen.V43_of m o c main_arg5 (by decide)).trans <| (Gen.V42_of m o c main_arg5 (by decide)).trans <| (Gen.V41_of m o c main_arg5 (by decide)).trans <|
  (Gen.V40_of m o c main_arg5 (by decide)).trans <| (Gen.V39_of m o c main_arg5 (by decide)).trans <| (Gen.V38_of m o c main_arg5 (by decide)).trans <|
  (Gen.V37_of m o c main_arg5 (by decide)).trans <| (Gen.V36_of m o c main_arg5 (by decide))).trans (arg5_35 m o c)
theorem v82_46 (c : Dev nD) : Gen.V46 m o c main_v82 = Gen.V35 m o c main_v82 :=
  (Gen.V46_of m o c main_v82 (by decide)).trans <| (Gen.V45_of m o c main_v82 (by decide)).trans <| (Gen.V44_of m o c main_v82 (by decide)).trans <|
  (Gen.V43_of m o c main_v82 (by decide)).trans <| (Gen.V42_of m o c main_v82 (by decide)).trans <| (Gen.V41_of m o c main_v82 (by decide)).trans <|
  (Gen.V40_of m o c main_v82 (by decide)).trans <| (Gen.V39_of m o c main_v82 (by decide)).trans <| (Gen.V38_of m o c main_v82 (by decide)).trans <|
  (Gen.V37_of m o c main_v82 (by decide)).trans <| (Gen.V36_of m o c main_v82 (by decide))

theorem v92_46 (c : Dev nD) : Gen.V46 m o c main_v92 = Gen.V38 m o c main_v92 :=
  (Gen.V46_of m o c main_v92 (by decide)).trans <| (Gen.V45_of m o c main_v92 (by decide)).trans <| (Gen.V44_of m o c main_v92 (by decide)).trans <|
  (Gen.V43_of m o c main_v92 (by decide)).trans <| (Gen.V42_of m o c main_v92 (by decide)).trans <| (Gen.V41_of m o c main_v92 (by decide)).trans <|
  (Gen.V40_of m o c main_v92 (by decide)).trans <| (Gen.V39_of m o c main_v92 (by decide))

/-- The part's result after the later items. -/
theorem v102_73 (c : Dev nD) : Gen.V73 m o c main_v102 = Gen.V49 m o c main_v102 :=
  (Gen.V73_of m o c main_v102 (by decide)).trans <| (Gen.V72_of m o c main_v102 (by decide)).trans <| (Gen.V71_of m o c main_v102 (by decide)).trans <|
  (Gen.V70_of m o c main_v102 (by decide)).trans <| (Gen.V69_of m o c main_v102 (by decide)).trans <| (Gen.V68_of m o c main_v102 (by decide)).trans <|
  (Gen.V67_of m o c main_v102 (by decide)).trans <| (Gen.V66_of m o c main_v102 (by decide)).trans <| (Gen.V65_of m o c main_v102 (by decide)).trans <|
  (Gen.V64_of m o c main_v102 (by decide)).trans <| (Gen.V63_of m o c main_v102 (by decide)).trans <| (Gen.V62_of m o c main_v102 (by decide)).trans <|
  (Gen.V61_of m o c main_v102 (by decide)).trans <| (Gen.V60_of m o c main_v102 (by decide)).trans <| (Gen.V59_of m o c main_v102 (by decide)).trans <|
  (Gen.V58_of m o c main_v102 (by decide)).trans <| (Gen.V57_of m o c main_v102 (by decide)).trans <| (Gen.V56_of m o c main_v102 (by decide)).trans <|
  (Gen.V55_of m o c main_v102 (by decide)).trans <| (Gen.V54_of m o c main_v102 (by decide)).trans <| (Gen.V53_of m o c main_v102 (by decide)).trans <|
  (Gen.V52_of m o c main_v102 (by decide)).trans <| (Gen.V51_of m o c main_v102 (by decide)).trans <| (Gen.V50_of m o c main_v102 (by decide))

/-! ## The items' metapath part -/

/-- The arguments as the part's first gather launch finds them. -/
theorem arg6_59 (c : Dev nD) : Gen.V59 m o c main_arg6 = Gen.V0 m c main_arg6 :=
  (Gen.V59_of m o c main_arg6 (by decide)).trans <| (Gen.V58_of m o c main_arg6 (by decide)).trans <| (Gen.V57_of m o c main_arg6 (by decide)).trans <|
  (Gen.V56_of m o c main_arg6 (by decide)).trans <| (Gen.V55_of m o c main_arg6 (by decide)).trans <| (Gen.V54_of m o c main_arg6 (by decide)).trans <|
  (Gen.V53_of m o c main_arg6 (by decide)).trans <| (Gen.V52_of m o c main_arg6 (by decide)).trans <| (Gen.V51_of m o c main_arg6 (by decide)).trans <|
  (Gen.V50_of m o c main_arg6 (by decide)).trans <| (Gen.V49_of m o c main_arg6 (by decide)).trans <| (Gen.V48_of m o c main_arg6 (by decide)).trans <|
  (Gen.V47_of m o c main_arg6 (by decide)).trans <| (Gen.V46_of m o c main_arg6 (by decide)).trans <| (Gen.V45_of m o c main_arg6 (by decide)).trans <|
  (Gen.V44_of m o c main_arg6 (by decide)).trans <| (Gen.V43_of m o c main_arg6 (by decide)).trans <| (Gen.V42_of m o c main_arg6 (by decide)).trans <|
  (Gen.V41_of m o c main_arg6 (by decide)).trans <| (Gen.V40_of m o c main_arg6 (by decide)).trans <| (Gen.V39_of m o c main_arg6 (by decide)).trans <|
  (Gen.V38_of m o c main_arg6 (by decide)).trans <| (Gen.V37_of m o c main_arg6 (by decide)).trans <| (Gen.V36_of m o c main_arg6 (by decide)).trans <|
  (Gen.V35_of m o c main_arg6 (by decide)).trans <| (Gen.V34_of m o c main_arg6 (by decide)).trans <| (Gen.V33_of m o c main_arg6 (by decide)).trans <|
  (Gen.V32_of m o c main_arg6 (by decide)).trans <| (Gen.V31_of m o c main_arg6 (by decide)).trans <| (Gen.V30_of m o c main_arg6 (by decide)).trans <|
  (Gen.V29_of m o c main_arg6 (by decide)).trans <| (Gen.V28_of m o c main_arg6 (by decide)).trans <| (Gen.V27_of m o c main_arg6 (by decide)).trans <|
  (Gen.V26_of m o c main_arg6 (by decide)).trans <| (Gen.V25_of m o c main_arg6 (by decide)).trans <| (Gen.V24_of m o c main_arg6 (by decide)).trans <|
  (Gen.V23_of m o c main_arg6 (by decide)).trans <| (Gen.V22_of m o c main_arg6 (by decide)).trans <| (Gen.V21_of m o c main_arg6 (by decide)).trans <|
  (Gen.V20_of m o c main_arg6 (by decide)).trans <| (Gen.V19_of m o c main_arg6 (by decide)).trans <| (Gen.V18_of m o c main_arg6 (by decide)).trans <|
  (Gen.V17_of m o c main_arg6 (by decide)).trans <| (Gen.V16_of m o c main_arg6 (by decide)).trans <| (Gen.V15_of m o c main_arg6 (by decide)).trans <|
  (Gen.V14_of m o c main_arg6 (by decide)).trans <| (Gen.V13_of m o c main_arg6 (by decide)).trans <| (Gen.V12_of m o c main_arg6 (by decide)).trans <|
  (Gen.V11_of m c main_arg6 (by decide)).trans <| (Gen.V10_of m c main_arg6 (by decide)).trans <| (Gen.V9_of m c main_arg6 (by decide)).trans <|
  (Gen.V8_of m c main_arg6 (by decide)).trans <| (Gen.V7_of m c main_arg6 (by decide)).trans <| (Gen.V6_of m c main_arg6 (by decide)).trans <|
  (Gen.V5_of m c main_arg6 (by decide)).trans <| (Gen.V4_of m c main_arg6 (by decide)).trans <| (Gen.V3_of m c main_arg6 (by decide)).trans <|
  (Gen.V2_of m c main_arg6 (by decide)).trans <| (Gen.V1_of m c main_arg6 (by decide))

theorem arg7_59 (c : Dev nD) : Gen.V59 m o c main_arg7 = Gen.V0 m c main_arg7 :=
  (Gen.V59_of m o c main_arg7 (by decide)).trans <| (Gen.V58_of m o c main_arg7 (by decide)).trans <| (Gen.V57_of m o c main_arg7 (by decide)).trans <|
  (Gen.V56_of m o c main_arg7 (by decide)).trans <| (Gen.V55_of m o c main_arg7 (by decide)).trans <| (Gen.V54_of m o c main_arg7 (by decide)).trans <|
  (Gen.V53_of m o c main_arg7 (by decide)).trans <| (Gen.V52_of m o c main_arg7 (by decide)).trans <| (Gen.V51_of m o c main_arg7 (by decide)).trans <|
  (Gen.V50_of m o c main_arg7 (by decide)).trans <| (Gen.V49_of m o c main_arg7 (by decide)).trans <| (Gen.V48_of m o c main_arg7 (by decide)).trans <|
  (Gen.V47_of m o c main_arg7 (by decide)).trans <| (Gen.V46_of m o c main_arg7 (by decide)).trans <| (Gen.V45_of m o c main_arg7 (by decide)).trans <|
  (Gen.V44_of m o c main_arg7 (by decide)).trans <| (Gen.V43_of m o c main_arg7 (by decide)).trans <| (Gen.V42_of m o c main_arg7 (by decide)).trans <|
  (Gen.V41_of m o c main_arg7 (by decide)).trans <| (Gen.V40_of m o c main_arg7 (by decide)).trans <| (Gen.V39_of m o c main_arg7 (by decide)).trans <|
  (Gen.V38_of m o c main_arg7 (by decide)).trans <| (Gen.V37_of m o c main_arg7 (by decide)).trans <| (Gen.V36_of m o c main_arg7 (by decide)).trans <|
  (Gen.V35_of m o c main_arg7 (by decide)).trans <| (Gen.V34_of m o c main_arg7 (by decide)).trans <| (Gen.V33_of m o c main_arg7 (by decide)).trans <|
  (Gen.V32_of m o c main_arg7 (by decide)).trans <| (Gen.V31_of m o c main_arg7 (by decide)).trans <| (Gen.V30_of m o c main_arg7 (by decide)).trans <|
  (Gen.V29_of m o c main_arg7 (by decide)).trans <| (Gen.V28_of m o c main_arg7 (by decide)).trans <| (Gen.V27_of m o c main_arg7 (by decide)).trans <|
  (Gen.V26_of m o c main_arg7 (by decide)).trans <| (Gen.V25_of m o c main_arg7 (by decide)).trans <| (Gen.V24_of m o c main_arg7 (by decide)).trans <|
  (Gen.V23_of m o c main_arg7 (by decide)).trans <| (Gen.V22_of m o c main_arg7 (by decide)).trans <| (Gen.V21_of m o c main_arg7 (by decide)).trans <|
  (Gen.V20_of m o c main_arg7 (by decide)).trans <| (Gen.V19_of m o c main_arg7 (by decide)).trans <| (Gen.V18_of m o c main_arg7 (by decide)).trans <|
  (Gen.V17_of m o c main_arg7 (by decide)).trans <| (Gen.V16_of m o c main_arg7 (by decide)).trans <| (Gen.V15_of m o c main_arg7 (by decide)).trans <|
  (Gen.V14_of m o c main_arg7 (by decide)).trans <| (Gen.V13_of m o c main_arg7 (by decide)).trans <| (Gen.V12_of m o c main_arg7 (by decide)).trans <|
  (Gen.V11_of m c main_arg7 (by decide)).trans <| (Gen.V10_of m c main_arg7 (by decide)).trans <| (Gen.V9_of m c main_arg7 (by decide)).trans <|
  (Gen.V8_of m c main_arg7 (by decide)).trans <| (Gen.V7_of m c main_arg7 (by decide)).trans <| (Gen.V6_of m c main_arg7 (by decide)).trans <|
  (Gen.V5_of m c main_arg7 (by decide)).trans <| (Gen.V4_of m c main_arg7 (by decide)).trans <| (Gen.V3_of m c main_arg7 (by decide)).trans <|
  (Gen.V2_of m c main_arg7 (by decide)).trans <| (Gen.V1_of m c main_arg7 (by decide))

theorem arg1_59 (c : Dev nD) : Gen.V59 m o c main_arg1 = Gen.V0 m c main_arg1 :=
  (Gen.V59_of m o c main_arg1 (by decide)).trans <| (Gen.V58_of m o c main_arg1 (by decide)).trans <| (Gen.V57_of m o c main_arg1 (by decide)).trans <|
  (Gen.V56_of m o c main_arg1 (by decide)).trans <| (Gen.V55_of m o c main_arg1 (by decide)).trans <| (Gen.V54_of m o c main_arg1 (by decide)).trans <|
  (Gen.V53_of m o c main_arg1 (by decide)).trans <| (Gen.V52_of m o c main_arg1 (by decide)).trans <| (Gen.V51_of m o c main_arg1 (by decide)).trans <|
  (Gen.V50_of m o c main_arg1 (by decide)).trans <| (Gen.V49_of m o c main_arg1 (by decide)).trans <| (Gen.V48_of m o c main_arg1 (by decide)).trans <|
  (Gen.V47_of m o c main_arg1 (by decide)).trans <| (Gen.V46_of m o c main_arg1 (by decide)).trans <| (Gen.V45_of m o c main_arg1 (by decide)).trans <|
  (Gen.V44_of m o c main_arg1 (by decide)).trans <| (Gen.V43_of m o c main_arg1 (by decide)).trans <| (Gen.V42_of m o c main_arg1 (by decide)).trans <|
  (Gen.V41_of m o c main_arg1 (by decide)).trans <| (Gen.V40_of m o c main_arg1 (by decide)).trans <| (Gen.V39_of m o c main_arg1 (by decide)).trans <|
  (Gen.V38_of m o c main_arg1 (by decide)).trans <| (Gen.V37_of m o c main_arg1 (by decide)).trans <| (Gen.V36_of m o c main_arg1 (by decide)).trans <|
  (Gen.V35_of m o c main_arg1 (by decide)).trans <| (Gen.V34_of m o c main_arg1 (by decide)).trans <| (Gen.V33_of m o c main_arg1 (by decide)).trans <|
  (Gen.V32_of m o c main_arg1 (by decide)).trans <| (Gen.V31_of m o c main_arg1 (by decide)).trans <| (Gen.V30_of m o c main_arg1 (by decide)).trans <|
  (Gen.V29_of m o c main_arg1 (by decide)).trans <| (Gen.V28_of m o c main_arg1 (by decide)).trans <| (Gen.V27_of m o c main_arg1 (by decide)).trans <|
  (Gen.V26_of m o c main_arg1 (by decide)).trans <| (Gen.V25_of m o c main_arg1 (by decide)).trans <| (Gen.V24_of m o c main_arg1 (by decide)).trans <|
  (Gen.V23_of m o c main_arg1 (by decide)).trans <| (Gen.V22_of m o c main_arg1 (by decide)).trans <| (Gen.V21_of m o c main_arg1 (by decide)).trans <|
  (Gen.V20_of m o c main_arg1 (by decide)).trans <| (Gen.V19_of m o c main_arg1 (by decide)).trans <| (Gen.V18_of m o c main_arg1 (by decide)).trans <|
  (Gen.V17_of m o c main_arg1 (by decide)).trans <| (Gen.V16_of m o c main_arg1 (by decide)).trans <| (Gen.V15_of m o c main_arg1 (by decide)).trans <|
  (Gen.V14_of m o c main_arg1 (by decide)).trans <| (Gen.V13_of m o c main_arg1 (by decide)).trans <| (Gen.V12_of m o c main_arg1 (by decide)).trans <|
  (Gen.V11_of m c main_arg1 (by decide)).trans <| (Gen.V10_of m c main_arg1 (by decide)).trans <| (Gen.V9_of m c main_arg1 (by decide)).trans <|
  (Gen.V8_of m c main_arg1 (by decide)).trans <| (Gen.V7_of m c main_arg1 (by decide)).trans <| (Gen.V6_of m c main_arg1 (by decide)).trans <|
  (Gen.V5_of m c main_arg1 (by decide)).trans <| (Gen.V4_of m c main_arg1 (by decide)).trans <| (Gen.V3_of m c main_arg1 (by decide)).trans <|
  (Gen.V2_of m c main_arg1 (by decide)).trans <| (Gen.V1_of m c main_arg1 (by decide))

/-- The index arguments and the weights as the part's second gather launch finds them; the first step's rows there. -/
theorem arg6_70 (c : Dev nD) : Gen.V70 m o c main_arg6 = Gen.V0 m c main_arg6 :=
  (
  (Gen.V70_of m o c main_arg6 (by decide)).trans <| (Gen.V69_of m o c main_arg6 (by decide)).trans <| (Gen.V68_of m o c main_arg6 (by decide)).trans <|
  (Gen.V67_of m o c main_arg6 (by decide)).trans <| (Gen.V66_of m o c main_arg6 (by decide)).trans <| (Gen.V65_of m o c main_arg6 (by decide)).trans <|
  (Gen.V64_of m o c main_arg6 (by decide)).trans <| (Gen.V63_of m o c main_arg6 (by decide)).trans <| (Gen.V62_of m o c main_arg6 (by decide)).trans <|
  (Gen.V61_of m o c main_arg6 (by decide)).trans <| (Gen.V60_of m o c main_arg6 (by decide))).trans (arg6_59 m o c)
theorem arg7_70 (c : Dev nD) : Gen.V70 m o c main_arg7 = Gen.V0 m c main_arg7 :=
  (
  (Gen.V70_of m o c main_arg7 (by decide)).trans <| (Gen.V69_of m o c main_arg7 (by decide)).trans <| (Gen.V68_of m o c main_arg7 (by decide)).trans <|
  (Gen.V67_of m o c main_arg7 (by decide)).trans <| (Gen.V66_of m o c main_arg7 (by decide)).trans <| (Gen.V65_of m o c main_arg7 (by decide)).trans <|
  (Gen.V64_of m o c main_arg7 (by decide)).trans <| (Gen.V63_of m o c main_arg7 (by decide)).trans <| (Gen.V62_of m o c main_arg7 (by decide)).trans <|
  (Gen.V61_of m o c main_arg7 (by decide)).trans <| (Gen.V60_of m o c main_arg7 (by decide))).trans (arg7_59 m o c)
theorem v127_70 (c : Dev nD) : Gen.V70 m o c main_v127 = Gen.V59 m o c main_v127 :=
  (Gen.V70_of m o c main_v127 (by decide)).trans <| (Gen.V69_of m o c main_v127 (by decide)).trans <| (Gen.V68_of m o c main_v127 (by decide)).trans <|
  (Gen.V67_of m o c main_v127 (by decide)).trans <| (Gen.V66_of m o c main_v127 (by decide)).trans <| (Gen.V65_of m o c main_v127 (by decide)).trans <|
  (Gen.V64_of m o c main_v127 (by decide)).trans <| (Gen.V63_of m o c main_v127 (by decide)).trans <| (Gen.V62_of m o c main_v127 (by decide)).trans <|
  (Gen.V61_of m o c main_v127 (by decide)).trans <| (Gen.V60_of m o c main_v127 (by decide))

theorem v137_70 (c : Dev nD) : Gen.V70 m o c main_v137 = Gen.V62 m o c main_v137 :=
  (Gen.V70_of m o c main_v137 (by decide)).trans <| (Gen.V69_of m o c main_v137 (by decide)).trans <| (Gen.V68_of m o c main_v137 (by decide)).trans <|
  (Gen.V67_of m o c main_v137 (by decide)).trans <| (Gen.V66_of m o c main_v137 (by decide)).trans <| (Gen.V65_of m o c main_v137 (by decide)).trans <|
  (Gen.V64_of m o c main_v137 (by decide)).trans <| (Gen.V63_of m o c main_v137 (by decide))

end Cert.KernelIdeal.Hand.Keep

end
-- ==== Proof.KI.GlueProdB1.lean ====
/-
  One sparse product of the kernel program, read off the host operations around its two launches, over ANY contents W of
  the unscoped buffers before them: the stretch that ends with the first padding constant; the four pads (row words,
  column words, weights, feature table), each behind its constant; the three reshapes into chunks; the gather launch,
  which leaves `gout` in its result array; the scatter launch, which leaves `yout`; the stretch that cuts the padded
  rows off. If `gout` and `yout` are the two launches' closed forms over the contents each is entered from, the rows
  cut out are the sparse product of the edge lists and the feature table as the gather launch finds them.
-/
import proofs.«130096_j52458730553647_1_alg».proof.Proof.KernelIdealRegions
import proofs.«130096_j52458730553647_1_alg».proof.Proof.KI.GlueSpmm
import Idealize.ShloMosaic.Lib.StableHlo.Run

set_option maxRecDepth 16384

noncomputable section

namespace Cert.KernelIdeal.Hand.ProdB1

open Cert.KernelIdeal Cert.KernelIdeal.Gen
open Idealize.ShloMosaic Idealize.ShloMosaic.TcCoe Idealize.ShloMosaic.ValueIdx
open Cert.Hand
open BigOperators

variable (W : Valuation τ sig (Elt Ideal))

/-! ## Each stretch read at a buffer it writes, over any contents before it -/

theorem rd_c1 : (StableHlo.after hostOps4_2 W (Proc.devRef .tc main_c_26) : S_.Idx → BitVec 32) = constantI S_ 32 0#32 := by
  after_results <;> rfl
theorem rd_c2 : (StableHlo.after hostOps4_4 W (Proc.devRef .tc main_c_27) : S_.Idx → BitVec 32) = constantI S_ 32 0#32 := by
  after_results <;> rfl
theorem rd_c3 : (StableHlo.after hostOps4_6 W (Proc.devRef .tc main_c_28) : S_.Idx → BitVec 32) = constantI S_ 32 0#32 := by
  after_results <;> rfl
theorem rd_c4 : (StableHlo.after hostOps4_8 W (Proc.devRef .tc main_c_29) : S_.Idx → BitVec 32) = constantI S_ 32 0#32 := by
  after_results <;> rfl

theorem rd_rp : (StableHlo.after hostOps4_3 W (Proc.devRef .tc main_v83) : S1605632.Idx → BitVec 32)
    = pad S1605632 ![0] ![5632] ![0] (W (Proc.devRef .tc main_arg4) : S1600000.Idx → BitVec 32)
        (W (Proc.devRef .tc main_c_26) : S_.Idx → BitVec 32) pads_S1600000_S1605632_056320 h_S_ := by
  after_results <;> rfl
theorem rd_cp : (StableHlo.after hostOps4_5 W (Proc.devRef .tc main_v84) : S1605632.Idx → BitVec 32)
    = pad S1605632 ![0] ![5632] ![0] (W (Proc.devRef .tc main_arg5) : S1600000.Idx → BitVec 32)
        (W (Proc.devRef .tc main_c_27) : S_.Idx → BitVec 32) pads_S1600000_S1605632_056320 h_S_ := by
  after_results <;> rfl
theorem rd_vp : (StableHlo.after hostOps4_7 W (Proc.devRef .tc main_v85) : S1605632.Idx → EReal)
    = pad S1605632 ![0] ![5632] ![0] (W (Proc.devRef .tc main_v82) : S1600000.Idx → EReal)
        (sitofp (F := Ideal) .f32 (W (Proc.devRef .tc main_c_28) : S_.Idx → BitVec 32)) pads_S1600000_S1605632_056320 h_S_ := by
  after_results <;> rfl
theorem rd_xp : (StableHlo.after hostOps4_9 W (Proc.devRef .tc main_v86) : S100352x64.Idx → EReal)
    = pad S100352x64 ![0, 0] ![352, 0] ![0, 0] (W (Proc.devRef .tc main_arg0) : S100000x64.Idx → EReal)
        (sitofp (F := Ideal) .f32 (W (Proc.devRef .tc main_c_29) : S_.Idx → BitVec 32)) pads_S100000x64_S100352x64_03520_000 h_S_ := by
  after_results <;> rfl

theorem rd_cols3 : (StableHlo.after hostOps4_10 W (Proc.devRef .tc main_v87) : S196x1x8192.Idx → BitVec 32)
    = shapeCast S196x1x8192 (W (Proc.devRef .tc main_v84) : S1605632.Idx → BitVec 32) shapeCasts_S1605632_S196x1x8192 := by
  after_results <;> rfl
theorem rd_vals3 : (StableHlo.after hostOps4_10 W (Proc.devRef .tc main_v88) : S196x1x8192.Idx → EReal)
    = shapeCast S196x1x8192 (W (Proc.devRef .tc main_v85) : S1605632.Idx → EReal) shapeCasts_S1605632_S196x1x8192 := by
  after_results <;> rfl
theorem rd_rows3 : (StableHlo.after hostOps4_10 W (Proc.devRef .tc main_v89) : S196x1x8192.Idx → BitVec 32)
    = shapeCast S196x1x8192 (W (Proc.devRef .tc main_v83) : S1605632.Idx → BitVec 32) shapeCasts_S1605632_S196x1x8192 := by
  after_results <;> rfl

theorem rd_sl : (StableHlo.after hostOps6 W (Proc.devRef .tc main_v92) : S100000x64.Idx → EReal)
    = extractStridedSlice S100000x64 ![0, 0] (W (Proc.devRef .tc main_v91) : S100352x64.Idx → EReal) slices_S100352x64_S100000x64_0_0 := by
  after_results <;> rfl

/-! ## A stretch leaves the buffers it does not write as they were -/

theorem k1 (r : Ref sig .tc) (h : r ∉ hostOps4_3_W) : StableHlo.after hostOps4_3 W (Proc.devRef .tc r) = W (Proc.devRef .tc r) :=
  StableHlo.after_of_writes_sub hostOps4_3 W hostOps4_3_writes h
theorem k2 (r : Ref sig .tc) (h : r ∉ hostOps4_4_W) : StableHlo.after hostOps4_4 W (Proc.devRef .tc r) = W (Proc.devRef .tc r) :=
  StableHlo.after_of_writes_sub hostOps4_4 W hostOps4_4_writes h
theorem k3 (r : Ref sig .tc) (h : r ∉ hostOps4_5_W) : StableHlo.after hostOps4_5 W (Proc.devRef .tc r) = W (Proc.devRef .tc r) :=
  StableHlo.after_of_writes_sub hostOps4_5 W hostOps4_5_writes h
theorem k4 (r : Ref sig .tc) (h : r ∉ hostOps4_6_W) : StableHlo.after hostOps4_6 W (Proc.devRef .tc r) = W (Proc.devRef .tc r) :=
  StableHlo.after_of_writes_sub hostOps4_6 W hostOps4_6_writes h
theorem k5 (r : Ref sig .tc) (h : r ∉ hostOps4_7_W) : StableHlo.after hostOps4_7 W (Proc.devRef .tc r) = W (Proc.devRef .tc r) :=
  StableHlo.after_of_writes_sub hostOps4_7 W hostOps4_7_writes h
theorem k6 (r : Ref sig .tc) (h : r ∉ hostOps4_8_W) : StableHlo.after hostOps4_8 W (Proc.devRef .tc r) = W (Proc.devRef .tc r) :=
  StableHlo.after_of_writes_sub hostOps4_8 W hostOps4_8_writes h
theorem k7 (r : Ref sig .tc) (h : r ∉ hostOps4_9_W) : StableHlo.after hostOps4_9 W (Proc.devRef .tc r) = W (Proc.devRef .tc r) :=
  StableHlo.after_of_writes_sub hostOps4_9 W hostOps4_9_writes h
theorem k8 (r : Ref sig .tc) (h : r ∉ hostOps4_10_W) : StableHlo.after hostOps4_10 W (Proc.devRef .tc r) = W (Proc.devRef .tc r) :=
  StableHlo.after_of_writes_sub hostOps4_10 W hostOps4_10_writes h

/-! ## The contents after each stretch and each launch -/

/-- After the stretch that ends with the first padding constant. -/
abbrev W0 : Valuation τ sig (Elt Ideal) := StableHlo.after hostOps4_2 W
/-- After the pad of the row words. -/
abbrev W1 : Valuation τ sig (Elt Ideal) := StableHlo.after hostOps4_3 (W0 W)
abbrev W2 : Valuation τ sig (Elt Ideal) := StableHlo.after hostOps4_4 (W1 W)
/-- After the pad of the column words. -/
abbrev W3 : Valuation τ sig (Elt Ideal) := StableHlo.after hostOps4_5 (W2 W)
abbrev W4 : Valuation τ sig (Elt Ideal) := StableHlo.after hostOps4_6 (W3 W)
/-- After the pad of the weights. -/
abbrev W5 : Valuation τ sig (Elt Ideal) := StableHlo.after hostOps4_7 (W4 W)
abbrev W6 : Valuation τ sig (Elt Ideal) := StableHlo.after hostOps4_8 (W5 W)
/-- After the pad of the feature table. -/
abbrev W7 : Valuation τ sig (Elt Ideal) := StableHlo.after hostOps4_9 (W6 W)
/-- After the reshapes: what the gather launch is entered from. -/
abbrev W8 : Valuation τ sig (Elt Ideal) := StableHlo.after hostOps4_10 (W7 W)

variable (gout : S196x8192x64.Idx → EReal) (yout : S100352x64.Idx → EReal)

/-- With the gather launch's result: what the scatter launch is entered from. -/
abbrev W9 : Valuation τ sig (Elt Ideal) := Function.update (W8 W) (Proc.devRef .tc main_v90) gout
/-- With the scatter launch's result. -/
abbrev W10 : Valuation τ sig (Elt Ideal) := Function.update (W9 W gout) (Proc.devRef .tc main_v91) yout
/-- After the stretch that cuts the padded rows off. -/
abbrev W11 : Valuation τ sig (Elt Ideal) := StableHlo.after hostOps6 (W10 W gout yout)

/-! ## The lists and the table as the gather launch finds them are the ones the pads read -/

theorem src_h : W8 W (Proc.devRef .tc main_arg4) = W0 W (Proc.devRef .tc main_arg4) :=
  (k8 (W7 W) main_arg4 (by decide)).trans <| (k7 (W6 W) main_arg4 (by decide)).trans <| (k6 (W5 W) main_arg4 (by decide)).trans <|
  (k5 (W4 W) main_arg4 (by decide)).trans <| (k4 (W3 W) main_arg4 (by decide)).trans <| (k3 (W2 W) main_arg4 (by decide)).trans <|
  (k2 (W1 W) main_arg4 (by decide)).trans (k1 (W0 W) main_arg4 (by decide))
theorem src_t : W8 W (Proc.devRef .tc main_arg5) = W2 W (Proc.devRef .tc main_arg5) :=
  (k8 (W7 W) main_arg5 (by decide)).trans <| (k7 (W6 W) main_arg5 (by decide)).trans <| (k6 (W5 W) main_arg5 (by decide)).trans <|
  (k5 (W4 W) main_arg5 (by decide)).trans <| (k4 (W3 W) main_arg5 (by decide)).trans (k3 (W2 W) main_arg5 (by decide))
theorem src_g : W8 W (Proc.devRef .tc main_v82) = W4 W (Proc.devRef .tc main_v82) :=
  (k8 (W7 W) main_v82 (by decide)).trans <| (k7 (W6 W) main_v82 (by decide)).trans <| (k6 (W5 W) main_v82 (by decide)).trans
    (k5 (W4 W) main_v82 (by decide))
theorem src_x : W8 W (Proc.devRef .tc main_arg0) = W6 W (Proc.devRef .tc main_arg0) :=
  (k8 (W7 W) main_arg0 (by decide)).trans (k7 (W6 W) main_arg0 (by decide))

/-- The padded lists as the reshapes find them, the padded table as the gather launch finds it. -/
theorem at_rp : W7 W (Proc.devRef .tc main_v83) = W1 W (Proc.devRef .tc main_v83) :=
  (k7 (W6 W) main_v83 (by decide)).trans <| (k6 (W5 W) main_v83 (by decide)).trans <| (k5 (W4 W) main_v83 (by decide)).trans <|
  (k4 (W3 W) main_v83 (by decide)).trans <| (k3 (W2 W) main_v83 (by decide)).trans (k2 (W1 W) main_v83 (by decide))
theorem at_cp : W7 W (Proc.devRef .tc main_v84) = W3 W (Proc.devRef .tc main_v84) :=
  (k7 (W6 W) main_v84 (by decide)).trans <| (k6 (W5 W) main_v84 (by decide)).trans <| (k5 (W4 W) main_v84 (by decide)).trans
    (k4 (W3 W) main_v84 (by decide))
theorem at_vp : W7 W (Proc.devRef .tc main_v85) = W5 W (Proc.devRef .tc main_v85) :=
  (k7 (W6 W) main_v85 (by decide)).trans (k6 (W5 W) main_v85 (by decide))
theorem at_xp : W8 W (Proc.devRef .tc main_v86) = W7 W (Proc.devRef .tc main_v86) :=
  k8 (W7 W) main_v86 (by decide)

/-! ## The product -/

/-- The rows cut out after the two launches are the sparse product of the lists and the table the gather launch finds. -/
theorem prod
    (hg : ∀ (ch : Fin 196) (e : Fin 8192) (j : Fin 64), gout (ix3 ch e j)
      = rowOr0 (fun (q : Fin 100352) (j : Fin 64) => (W8 W (Proc.devRef .tc main_v86) : S100352x64.Idx → EReal) (ix2 q j))
          ((W8 W (Proc.devRef .tc main_v87) : S196x1x8192.Idx → BitVec 32) (ix3 ch 0 e)).toNat j
        * (W8 W (Proc.devRef .tc main_v88) : S196x1x8192.Idx → EReal) (ix3 ch 0 e))
    (hs : ∀ (node : Fin 100352) (j : Fin 64), yout (ix2 node j)
      = (∑ ch : Fin 196, ∑ e : Fin 8192,
          (if ((W9 W gout (Proc.devRef .tc main_v89) : S196x1x8192.Idx → BitVec 32) (ix3 ch 0 e)).toNat = node.val
            then (W9 W gout (Proc.devRef .tc main_v90) : S196x8192x64.Idx → EReal) (ix3 ch e j) else 0) : EReal))
    (i : Fin 100000) (j : Fin 64) :
    (W11 W gout yout (Proc.devRef .tc main_v92) : S100000x64.Idx → EReal) (ix2 i j)
      = spmm (fun e => (W8 W (Proc.devRef .tc main_arg4) : S1600000.Idx → BitVec 32) (ix1 e))
          (fun e => (W8 W (Proc.devRef .tc main_arg5) : S1600000.Idx → BitVec 32) (ix1 e))
          (fun e => (W8 W (Proc.devRef .tc main_v82) : S1600000.Idx → EReal) (ix1 e))
          (fun i j => (W8 W (Proc.devRef .tc main_arg0) : S100000x64.Idx → EReal) (ix2 i j)) i j := by
  have e_g : (W9 W gout (Proc.devRef .tc main_v90) : S196x8192x64.Idx → EReal) = gout := Function.update_self _ _ _
  have e_y : (W10 W gout yout (Proc.devRef .tc main_v91) : S100352x64.Idx → EReal) = yout := Function.update_self _ _ _
  have e_r : (W9 W gout (Proc.devRef .tc main_v89) : S196x1x8192.Idx → BitVec 32) = W8 W (Proc.devRef .tc main_v89) :=
    Function.update_of_ne (StableHlo.devRef_ne_of_ne (by decide)) _ _
  have e_sl : (W11 W gout yout (Proc.devRef .tc main_v92) : S100000x64.Idx → EReal)
      = extractStridedSlice S100000x64 ![0, 0] yout slices_S100352x64_S100000x64_0_0 :=
    (rd_sl (W10 W gout yout)).trans (congrArg (fun z => extractStridedSlice S100000x64 ![0, 0] z slices_S100352x64_S100000x64_0_0) e_y)
  rw [e_g] at hs
  rw [e_sl, src_h W, src_t W, src_g W, src_x W]
  exact spmm_of_launches (hN := rfl) (hE := by decide) (hn := by decide)
    (W0 W (Proc.devRef .tc main_arg4)) (W2 W (Proc.devRef .tc main_arg5)) (W4 W (Proc.devRef .tc main_v82))
    (W6 W (Proc.devRef .tc main_arg0)) h_S_
    (W0 W (Proc.devRef .tc main_c_26)) (W2 W (Proc.devRef .tc main_c_27))
    (sitofp (F := Ideal) .f32 (W4 W (Proc.devRef .tc main_c_28) : S_.Idx → BitVec 32))
    (sitofp (F := Ideal) .f32 (W6 W (Proc.devRef .tc main_c_29) : S_.Idx → BitVec 32))
    (fun k => congrFun (rd_c1 W) k) (fun k => congrFun (rd_c2 (W1 W)) k)
    (fun k => (congrArg (fun z : S_.Idx → BitVec 32 => sitofp (F := Ideal) .f32 z k) (rd_c3 (W3 W))).trans sitofp_zero)
    (fun k => (congrArg (fun z : S_.Idx → BitVec 32 => sitofp (F := Ideal) .f32 z k) (rd_c4 (W5 W))).trans sitofp_zero)
    pads_S1600000_S1605632_056320 pads_S100000x64_S100352x64_03520_000 shapeCasts_S1605632_S196x1x8192
    slices_S100352x64_S100000x64_0_0
    (W9 W gout (Proc.devRef .tc main_v89)) (W8 W (Proc.devRef .tc main_v87)) (W8 W (Proc.devRef .tc main_v88))
    (W8 W (Proc.devRef .tc main_v86)) gout yout
    (e_r.trans ((rd_rows3 (W7 W)).trans (congrArg (fun z => shapeCast S196x1x8192 z shapeCasts_S1605632_S196x1x8192)
      ((at_rp W).trans (rd_rp (W0 W))))))
    ((rd_cols3 (W7 W)).trans (congrArg (fun z => shapeCast S196x1x8192 z shapeCasts_S1605632_S196x1x8192)
      ((at_cp W).trans (rd_cp (W2 W)))))
    ((rd_vals3 (W7 W)).trans (congrArg (fun z => shapeCast S196x1x8192 z shapeCasts_S1605632_S196x1x8192)
      ((at_vp W).trans (rd_vp (W4 W)))))
    ((at_xp W).trans (rd_xp (W6 W)))
    hg hs i j

end Cert.KernelIdeal.Hand.ProdB1

end
-- ==== Proof.KI.GlueProdB2.lean ====
/-
  One sparse product of the kernel program, read off the host operations around its two launches, over ANY contents W of
  the unscoped buffers before them: the stretch that ends with the first padding constant; the four pads (row words,
  column words, weights, feature table), each behind its constant; the three reshapes into chunks; the gather launch,
  which leaves `gout` in its result array; the scatter launch, which leaves `yout`; the stretch that cuts the padded
  rows off. If `gout` and `yout` are the two launches' closed forms over the contents each is entered from, the rows
  cut out are the sparse product of the edge lists and the feature table as the gather launch finds them.
-/
import proofs.«130096_j52458730553647_1_alg».proof.Proof.KernelIdealRegions
import proofs.«130096_j52458730553647_1_alg».proof.Proof.KI.GlueSpmm
import Idealize.ShloMosaic.Lib.StableHlo.Run

set_option maxRecDepth 16384

noncomputable section

namespace Cert.KernelIdeal.Hand.ProdB2

open Cert.KernelIdeal Cert.KernelIdeal.Gen
open Idealize.ShloMosaic Idealize.ShloMosaic.TcCoe Idealize.ShloMosaic.ValueIdx
open Cert.Hand
open BigOperators

variable (W : Valuation τ sig (Elt Ideal))

/-! ## Each stretch read at a buffer it writes, over any contents before it -/

theorem rd_c1 : (StableHlo.after hostOps6 W (Proc.devRef .tc main_c_30) : S_.Idx → BitVec 32) = constantI S_ 32 0#32 := by
  after_results <;> rfl
theorem rd_c2 : (StableHlo.after hostOps6_2 W (Proc.devRef .tc main_c_31) : S_.Idx → BitVec 32) = constantI S_ 32 0#32 := by
  after_results <;> rfl
theorem rd_c3 : (StableHlo.after hostOps6_4 W (Proc.devRef .tc main_c_32) : S_.Idx → BitVec 32) = constantI S_ 32 0#32 := by
  after_results <;> rfl
theorem rd_c4 : (StableHlo.after hostOps6_6 W (Proc.devRef .tc main_c_33) : S_.Idx → BitVec 32) = constantI S_ 32 0#32 := by
  after_results <;> rfl

theorem rd_rp : (StableHlo.after hostOps6_1 W (Proc.devRef .tc main_v93) : S1605632.Idx → BitVec 32)
    = pad S1605632 ![0] ![5632] ![0] (W (Proc.devRef .tc main_arg4) : S1600000.Idx → BitVec 32)
        (W (Proc.devRef .tc main_c_30) : S_.Idx → BitVec 32) pads_S1600000_S1605632_056320 h_S_ := by
  after_results <;> rfl
theorem rd_cp : (StableHlo.after hostOps6_3 W (Proc.devRef .tc main_v94) : S1605632.Idx → BitVec 32)
    = pad S1605632 ![0] ![5632] ![0] (W (Proc.devRef .tc main_arg5) : S1600000.Idx → BitVec 32)
        (W (Proc.devRef .tc main_c_31) : S_.Idx → BitVec 32) pads_S1600000_S1605632_056320 h_S_ := by
  after_results <;> rfl
theorem rd_vp : (StableHlo.after hostOps6_5 W (Proc.devRef .tc main_v95) : S1605632.Idx → EReal)
    = pad S1605632 ![0] ![5632] ![0] (W (Proc.devRef .tc main_v82) : S1600000.Idx → EReal)
        (sitofp (F := Ideal) .f32 (W (Proc.devRef .tc main_c_32) : S_.Idx → BitVec 32)) pads_S1600000_S1605632_056320 h_S_ := by
  after_results <;> rfl
theorem rd_xp : (StableHlo.after hostOps6_7 W (Proc.devRef .tc main_v96) : S100352x64.Idx → EReal)
    = pad S100352x64 ![0, 0] ![352, 0] ![0, 0] (W (Proc.devRef .tc main_v92) : S100000x64.Idx → EReal)
        (sitofp (F := Ideal) .f32 (W (Proc.devRef .tc main_c_33) : S_.Idx → BitVec 32)) pads_S100000x64_S100352x64_03520_000 h_S_ := by
  after_results <;> rfl

theorem rd_cols3 : (StableHlo.after hostOps6_8 W (Proc.devRef .tc main_v97) : S196x1x8192.Idx → BitVec 32)
    = shapeCast S196x1x8192 (W (Proc.devRef .tc main_v94) : S1605632.Idx → BitVec 32) shapeCasts_S1605632_S196x1x8192 := by
  after_results <;> rfl
theorem rd_vals3 : (StableHlo.after hostOps6_8 W (Proc.devRef .tc main_v98) : S196x1x8192.Idx → EReal)
    = shapeCast S196x1x8192 (W (Proc.devRef .tc main_v95) : S1605632.Idx → EReal) shapeCasts_S1605632_S196x1x8192 := by
  after_results <;> rfl
theorem rd_rows3 : (StableHlo.after hostOps6_8 W (Proc.devRef .tc main_v99) : S196x1x8192.Idx → BitVec 32)
    = shapeCast S196x1x8192 (W (Proc.devRef .tc main_v93) : S1605632.Idx → BitVec 32) shapeCasts_S1605632_S196x1x8192 := by
  after_results <;> rfl

theorem rd_sl : (StableHlo.after hostOps8 W (Proc.devRef .tc main_v102) : S100000x64.Idx → EReal)
    = extractStridedSlice S100000x64 ![0, 0] (W (Proc.devRef .tc main_v101) : S100352x64.Idx → EReal) slices_S100352x64_S100000x64_0_0 := by
  after_results <;> rfl

/-! ## A stretch leaves the buffers it does not write as they were -/

theorem k1 (r : Ref sig .tc) (h : r ∉ hostOps6_1_W) : StableHlo.after hostOps6_1 W (Proc.devRef .tc r) = W (Proc.devRef .tc r) :=
  StableHlo.after_of_writes_sub hostOps6_1 W hostOps6_1_writes h
theorem k2 (r : Ref sig .tc) (h : r ∉ hostOps6_2_W) : StableHlo.after hostOps6_2 W (Proc.devRef .tc r) = W (Proc.devRef .tc r) :=
  StableHlo.after_of_writes_sub hostOps6_2 W hostOps6_2_writes h
theorem k3 (r : Ref sig .tc) (h : r ∉ hostOps6_3_W) : StableHlo.after hostOps6_3 W (Proc.devRef .tc r) = W (Proc.devRef .tc r) :=
  StableHlo.after_of_writes_sub hostOps6_3 W hostOps6_3_writes h
theorem k4 (r : Ref sig .tc) (h : r ∉ hostOps6_4_W) : StableHlo.after hostOps6_4 W (Proc.devRef .tc r) = W (Proc.devRef .tc r) :=
  StableHlo.after_of_writes_sub hostOps6_4 W hostOps6_4_writes h
theorem k5 (r : Ref sig .tc) (h : r ∉ hostOps6_5_W) : StableHlo.after hostOps6_5 W (Proc.devRef .tc r) = W (Proc.devRef .tc r) :=
  StableHlo.after_of_writes_sub hostOps6_5 W hostOps6_5_writes h
theorem k6 (r : Ref sig .tc) (h : r ∉ hostOps6_6_W) : StableHlo.after hostOps6_6 W (Proc.devRef .tc r) = W (Proc.devRef .tc r) :=
  StableHlo.after_of_writes_sub hostOps6_6 W hostOps6_6_writes h
theorem k7 (r : Ref sig .tc) (h : r ∉ hostOps6_7_W) : StableHlo.after hostOps6_7 W (Proc.devRef .tc r) = W (Proc.devRef .tc r) :=
  StableHlo.after_of_writes_sub hostOps6_7 W hostOps6_7_writes h
theorem k8 (r : Ref sig .tc) (h : r ∉ hostOps6_8_W) : StableHlo.after hostOps6_8 W (Proc.devRef .tc r) = W (Proc.devRef .tc r) :=
  StableHlo.after_of_writes_sub hostOps6_8 W hostOps6_8_writes h

/-! ## The contents after each stretch and each launch -/

/-- After the stretch that ends with the first padding constant. -/
abbrev W0 : Valuation τ sig (Elt Ideal) := StableHlo.after hostOps6 W
/-- After the pad of the row words. -/
abbrev W1 : Valuation τ sig (Elt Ideal) := StableHlo.after hostOps6_1 (W0 W)
abbrev W2 : Valuation τ sig (Elt Ideal) := StableHlo.after hostOps6_2 (W1 W)
/-- After the pad of the column words. -/
abbrev W3 : Valuation τ sig (Elt Ideal) := StableHlo.after hostOps6_3 (W2 W)
abbrev W4 : Valuation τ sig (Elt Ideal) := StableHlo.after hostOps6_4 (W3 W)
/-- After the pad of the weights. -/
abbrev W5 : Valuation τ sig (Elt Ideal) := StableHlo.after hostOps6_5 (W4 W)
abbrev W6 : Valuation τ sig (Elt Ideal) := StableHlo.after hostOps6_6 (W5 W)
/-- After the pad of the feature table. -/
abbrev W7 : Valuation τ sig (Elt Ideal) := StableHlo.after hostOps6_7 (W6 W)
/-- After the reshapes: what the gather launch is entered from. -/
abbrev W8 : Valuation τ sig (Elt Ideal) := StableHlo.after hostOps6_8 (W7 W)

variable (gout : S196x8192x64.Idx → EReal) (yout : S100352x64.Idx → EReal)

/-- With the gather launch's result: what the scatter launch is entered from. -/
abbrev W9 : Valuation τ sig (Elt Ideal) := Function.update (W8 W) (Proc.devRef .tc main_v100) gout
/-- With the scatter launch's result. -/
abbrev W10 : Valuation τ sig (Elt Ideal) := Function.update (W9 W gout) (Proc.devRef .tc main_v101) yout
/-- After the stretch that cuts the padded rows off. -/
abbrev W11 : Valuation τ sig (Elt Ideal) := StableHlo.after hostOps8 (W10 W gout yout)

/-! ## The lists and the table as the gather launch finds them are the ones the pads read -/

theorem src_h : W8 W (Proc.devRef .tc main_arg4) = W0 W (Proc.devRef .tc main_arg4) :=
  (k8 (W7 W) main_arg4 (by decide)).trans <| (k7 (W6 W) main_arg4 (by decide)).trans <| (k6 (W5 W) main_arg4 (by decide)).trans <|
  (k5 (W4 W) main_arg4 (by decide)).trans <| (k4 (W3 W) main_arg4 (by decide)).trans <| (k3 (W2 W) main_arg4 (by decide)).trans <|
  (k2 (W1 W) main_arg4 (by decide)).trans (k1 (W0 W) main_arg4 (by decide))
theorem src_t : W8 W (Proc.devRef .tc main_arg5) = W2 W (Proc.devRef .tc main_arg5) :=
  (k8 (W7 W) main_arg5 (by decide)).trans <| (k7 (W6 W) main_arg5 (by decide)).trans <| (k6 (W5 W) main_arg5 (by decide)).trans <|
  (k5 (W4 W) main_arg5 (by decide)).trans <| (k4 (W3 W) main_arg5 (by decide)).trans (k3 (W2 W) main_arg5 (by decide))
theorem src_g : W8 W (Proc.devRef .tc main_v82) = W4 W (Proc.devRef .tc main_v82) :=
  (k8 (W7 W) main_v82 (by decide)).trans <| (k7 (W6 W) main_v82 (by decide)).trans <| (k6 (W5 W) main_v82 (by decide)).trans
    (k5 (W4 W) main_v82 (by decide))
theorem src_x : W8 W (Proc.devRef .tc main_v92) = W6 W (Proc.devRef .tc main_v92) :=
  (k8 (W7 W) main_v92 (by decide)).trans (k7 (W6 W) main_v92 (by decide))

/-- The padded lists as the reshapes find them, the padded table as the gather launch finds it. -/
theorem at_rp : W7 W (Proc.devRef .tc main_v93) = W1 W (Proc.devRef .tc main_v93) :=
  (k7 (W6 W) main_v93 (by decide)).trans <| (k6 (W5 W) main_v93 (by decide)).trans <| (k5 (W4 W) main_v93 (by decide)).trans <|
  (k4 (W3 W) main_v93 (by decide)).trans <| (k3 (W2 W) main_v93 (by decide)).trans (k2 (W1 W) main_v93 (by decide))
theorem at_cp : W7 W (Proc.devRef .tc main_v94) = W3 W (Proc.devRef .tc main_v94) :=
  (k7 (W6 W) main_v94 (by decide)).trans <| (k6 (W5 W) main_v94 (by decide)).trans <| (k5 (W4 W) main_v94 (by decide)).trans
    (k4 (W3 W) main_v94 (by decide))
theorem at_vp : W7 W (Proc.devRef .tc main_v95) = W5 W (Proc.devRef .tc main_v95) :=
  (k7 (W6 W) main_v95 (by decide)).trans (k6 (W5 W) main_v95 (by decide))
theorem at_xp : W8 W (Proc.devRef .tc main_v96) = W7 W (Proc.devRef .tc main_v96) :=
  k8 (W7 W) main_v96 (by decide)

/-! ## The product -/

/-- The rows cut out after the two launches are the sparse product of the lists and the table the gather launch finds. -/
theorem prod
    (hg : ∀ (ch : Fin 196) (e : Fin 8192) (j : Fin 64), gout (ix3 ch e j)
      = rowOr0 (fun (q : Fin 100352) (j : Fin 64) => (W8 W (Proc.devRef .tc main_v96) : S100352x64.Idx → EReal) (ix2 q j))
          ((W8 W (Proc.devRef .tc main_v97) : S196x1x8192.Idx → BitVec 32) (ix3 ch 0 e)).toNat j
        * (W8 W (Proc.devRef .tc main_v98) : S196x1x8192.Idx → EReal) (ix3 ch 0 e))
    (hs : ∀ (node : Fin 100352) (j : Fin 64), yout (ix2 node j)
      = (∑ ch : Fin 196, ∑ e : Fin 8192,
          (if ((W9 W gout (Proc.devRef .tc main_v99) : S196x1x8192.Idx → BitVec 32) (ix3 ch 0 e)).toNat = node.val
            then (W9 W gout (Proc.devRef .tc main_v100) : S196x8192x64.Idx → EReal) (ix3 ch e j) else 0) : EReal))
    (i : Fin 100000) (j : Fin 64) :
    (W11 W gout yout (Proc.devRef .tc main_v102) : S100000x64.Idx → EReal) (ix2 i j)
      = spmm (fun e => (W8 W (Proc.devRef .tc main_arg4) : S1600000.Idx → BitVec 32) (ix1 e))
          (fun e => (W8 W (Proc.devRef .tc main_arg5) : S1600000.Idx → BitVec 32) (ix1 e))
          (fun e => (W8 W (Proc.devRef .tc main_v82) : S1600000.Idx → EReal) (ix1 e))
          (fun i j => (W8 W (Proc.devRef .tc main_v92) : S100000x64.Idx → EReal) (ix2 i j)) i j := by
  have e_g : (W9 W gout (Proc.devRef .tc main_v100) : S196x8192x64.Idx → EReal) = gout := Function.update_self _ _ _
  have e_y : (W10 W gout yout (Proc.devRef .tc main_v101) : S100352x64.Idx → EReal) = yout := Function.update_self _ _ _
  have e_r : (W9 W gout (Proc.devRef .tc main_v99) : S196x1x8192.Idx → BitVec 32) = W8 W (Proc.devRef .tc main_v99) :=
    Function.update_of_ne (StableHlo.devRef_ne_of_ne (by decide)) _ _
  have e_sl : (W11 W gout yout (Proc.devRef .tc main_v102) : S100000x64.Idx → EReal)
      = extractStridedSlice S100000x64 ![0, 0] yout slices_S100352x64_S100000x64_0_0 :=
    (rd_sl (W10 W gout yout)).trans (congrArg (fun z => extractStridedSlice S100000x64 ![0, 0] z slices_S100352x64_S100000x64_0_0) e_y)
  rw [e_g] at hs
  rw [e_sl, src_h W, src_t W, src_g W, src_x W]
  exact spmm_of_launches (hN := rfl) (hE := by decide) (hn := by decide)
    (W0 W (Proc.devRef .tc main_arg4)) (W2 W (Proc.devRef .tc main_arg5)) (W4 W (Proc.devRef .tc main_v82))
    (W6 W (Proc.devRef .tc main_v92)) h_S_
    (W0 W (Proc.devRef .tc main_c_30)) (W2 W (Proc.devRef .tc main_c_31))
    (sitofp (F := Ideal) .f32 (W4 W (Proc.devRef .tc main_c_32) : S_.Idx → BitVec 32))
    (sitofp (F := Ideal) .f32 (W6 W (Proc.devRef .tc main_c_33) : S_.Idx → BitVec 32))
    (fun k => congrFun (rd_c1 W) k) (fun k => congrFun (rd_c2 (W1 W)) k)
    (fun k => (congrArg (fun z : S_.Idx → BitVec 32 => sitofp (F := Ideal) .f32 z k) (rd_c3 (W3 W))).trans sitofp_zero)
    (fun k => (congrArg (fun z : S_.Idx → BitVec 32 => sitofp (F := Ideal) .f32 z k) (rd_c4 (W5 W))).trans sitofp_zero)
    pads_S1600000_S1605632_056320 pads_S100000x64_S100352x64_03520_000 shapeCasts_S1605632_S196x1x8192
    slices_S100352x64_S100000x64_0_0
    (W9 W gout (Proc.devRef .tc main_v99)) (W8 W (Proc.devRef .tc main_v97)) (W8 W (Proc.devRef .tc main_v98))
    (W8 W (Proc.devRef .tc main_v96)) gout yout
    (e_r.trans ((rd_rows3 (W7 W)).trans (congrArg (fun z => shapeCast S196x1x8192 z shapeCasts_S1605632_S196x1x8192)
      ((at_rp W).trans (rd_rp (W0 W))))))
    ((rd_cols3 (W7 W)).trans (congrArg (fun z => shapeCast S196x1x8192 z shapeCasts_S1605632_S196x1x8192)
      ((at_cp W).trans (rd_cp (W2 W)))))
    ((rd_vals3 (W7 W)).trans (congrArg (fun z => shapeCast S196x1x8192 z shapeCasts_S1605632_S196x1x8192)
      ((at_vp W).trans (rd_vp (W4 W)))))
    ((at_xp W).trans (rd_xp (W6 W)))
    hg hs i j

end Cert.KernelIdeal.Hand.ProdB2

end
-- ==== Proof.KI.GlueU.lean ====
/-
  A metapath part of the idealized kernel program in the words of the model, over ANY contents `o` the launches leave
  that satisfy the part's four launches' closed forms: the first product is taken of the part's feature argument, the
  second of the first product's rows, with the same index arguments and weights; the result, the rows cut out after the
  second pair of launches, is the model's two propagation steps.
-/
import proofs.«130096_j52458730553647_1_alg».proof.Proof.KernelIdealRegions
import proofs.«130096_j52458730553647_1_alg».proof.Proof.Model
import proofs.«130096_j52458730553647_1_alg».proof.Proof.KI.GlueKeep
import proofs.«130096_j52458730553647_1_alg».proof.Proof.KI.GlueProdB1
import proofs.«130096_j52458730553647_1_alg».proof.Proof.KI.GlueProdB2

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Hand
open BigOperators

variable (m : (ℓ : Loc nD τ sig) → Buf (Elt Ideal) ℓ) (o : Gen.Outs (F := Ideal))

/-- The part's graph: its two index arguments and its feature argument as launched, its weights as its first gather
    launch finds them. -/
abbrev srcU (c : Dev nD) : Fin 1600000 → BitVec 32 := fun e => (Gen.V0 m c main_arg4 : S1600000.Idx → BitVec 32) (ix1 e)
abbrev dstU (c : Dev nD) : Fin 1600000 → BitVec 32 := fun e => (Gen.V0 m c main_arg5 : S1600000.Idx → BitVec 32) (ix1 e)
abbrev wUo (c : Dev nD) : Fin 1600000 → EReal := fun e => (Gen.V35 m o c main_v82 : S1600000.Idx → EReal) (ix1 e)
abbrev xU (c : Dev nD) : Model.Tab 100000 := fun i j => (Gen.V0 m c main_arg0 : S100000x64.Idx → EReal) (ix2 i j)

/-- The part's four launches leave their closed forms: each gather launch, at (chunk, edge, feature), the row of the
    padded table its column word names times its weight; each scatter launch, at (node, feature), the sum of the gathered
    rows whose row word is the node; each over the contents it is entered from. -/
structure ClosedU : Prop where
  g4 : ∀ (c : Dev nD) (ch : Fin 196) (e : Fin 8192) (j : Fin 64), (o 36 main_v90 c : S196x8192x64.Idx → EReal) (ix3 ch e j)
    = rowOr0 (fun (q : Fin 100352) (j : Fin 64) => (Gen.V35 m o c main_v86 : S100352x64.Idx → EReal) (ix2 q j))
        ((Gen.V35 m o c main_v87 : S196x1x8192.Idx → BitVec 32) (ix3 ch 0 e)).toNat j
      * (Gen.V35 m o c main_v88 : S196x1x8192.Idx → EReal) (ix3 ch 0 e)
  s5 : ∀ (c : Dev nD) (node : Fin 100352) (j : Fin 64), (o 37 main_v91 c : S100352x64.Idx → EReal) (ix2 node j)
    = (∑ ch : Fin 196, ∑ e : Fin 8192,
        (if ((Gen.V36 m o c main_v89 : S196x1x8192.Idx → BitVec 32) (ix3 ch 0 e)).toNat = node.val
          then (Gen.V36 m o c main_v90 : S196x8192x64.Idx → EReal) (ix3 ch e j) else 0) : EReal)
  g6 : ∀ (c : Dev nD) (ch : Fin 196) (e : Fin 8192) (j : Fin 64), (o 47 main_v100 c : S196x8192x64.Idx → EReal) (ix3 ch e j)
    = rowOr0 (fun (q : Fin 100352) (j : Fin 64) => (Gen.V46 m o c main_v96 : S100352x64.Idx → EReal) (ix2 q j))
        ((Gen.V46 m o c main_v97 : S196x1x8192.Idx → BitVec 32) (ix3 ch 0 e)).toNat j
      * (Gen.V46 m o c main_v98 : S196x1x8192.Idx → EReal) (ix3 ch 0 e)
  s7 : ∀ (c : Dev nD) (node : Fin 100352) (j : Fin 64), (o 48 main_v101 c : S100352x64.Idx → EReal) (ix2 node j)
    = (∑ ch : Fin 196, ∑ e : Fin 8192,
        (if ((Gen.V47 m o c main_v99 : S196x1x8192.Idx → BitVec 32) (ix3 ch 0 e)).toNat = node.val
          then (Gen.V47 m o c main_v100 : S196x8192x64.Idx → EReal) (ix3 ch e j) else 0) : EReal)

namespace MpU

variable (hcl : ClosedU m o)
include hcl

/-- The rows cut out after the part's first two launches: the sparse product of the feature argument. -/
theorem v92_eq (c : Dev nD) (i : Fin 100000) (j : Fin 64) :
    (Gen.V38 m o c main_v92 : S100000x64.Idx → EReal) (ix2 i j) = spmm (srcU m c) (dstU m c) (wUo m o c) (xU m c) i j := by
  have p : (Gen.V38 m o c main_v92 : S100000x64.Idx → EReal) (ix2 i j)
      = spmm (fun e => (Gen.V35 m o c main_arg4 : S1600000.Idx → BitVec 32) (ix1 e)) (fun e => (Gen.V35 m o c main_arg5 : S1600000.Idx → BitVec 32) (ix1 e))
          (fun e => (Gen.V35 m o c main_v82 : S1600000.Idx → EReal) (ix1 e)) (fun i j => (Gen.V35 m o c main_arg0 : S100000x64.Idx → EReal) (ix2 i j)) i j :=
    ProdB1.prod (Gen.V26 m o c) (o 36 main_v90 c) (o 37 main_v91 c) (hcl.g4 c) (hcl.s5 c) i j
  rw [Keep.arg4_35 m o c, Keep.arg5_35 m o c, Keep.arg0_35 m o c] at p
  exact p

/-- The part's result as its last stretch leaves it: the model's two propagation steps. -/
theorem v102_eq (c : Dev nD) (i : Fin 100000) (j : Fin 64) :
    (Gen.V49 m o c main_v102 : S100000x64.Idx → EReal) (ix2 i j) = Model.han (srcU m c) (dstU m c) (wUo m o c) (xU m c) i j := by
  have p : (Gen.V49 m o c main_v102 : S100000x64.Idx → EReal) (ix2 i j)
      = spmm (fun e => (Gen.V46 m o c main_arg4 : S1600000.Idx → BitVec 32) (ix1 e)) (fun e => (Gen.V46 m o c main_arg5 : S1600000.Idx → BitVec 32) (ix1 e))
          (fun e => (Gen.V46 m o c main_v82 : S1600000.Idx → EReal) (ix1 e)) (fun i j => (Gen.V46 m o c main_v92 : S100000x64.Idx → EReal) (ix2 i j)) i j :=
    ProdB2.prod (Gen.V37 m o c) (o 47 main_v100 c) (o 48 main_v101 c) (hcl.g6 c) (hcl.s7 c) i j
  have ex : (fun (i : Fin 100000) (j : Fin 64) => (Gen.V46 m o c main_v92 : S100000x64.Idx → EReal) (ix2 i j))
      = spmm (srcU m c) (dstU m c) (wUo m o c) (xU m c) :=
    funext fun i => funext fun j => by rw [Keep.v92_46 m o c]; exact v92_eq m o hcl c i j
  rw [Keep.arg4_46 m o c, Keep.arg5_46 m o c, Keep.v82_46 m o c, ex] at p
  exact p

end MpU

end Cert.KernelIdeal.Hand

end
-- ==== Proof.KI.GlueProdC1.lean ====
/-
  One sparse product of the kernel program, read off the host operations around its two launches, over ANY contents W of
  the unscoped buffers before them: the stretch that ends with the first padding constant; the four pads (row words,
  column words, weights, feature table), each behind its constant; the three reshapes into chunks; the gather launch,
  which leaves `gout` in its result array; the scatter launch, which leaves `yout`; the stretch that cuts the padded
  rows off. If `gout` and `yout` are the two launches' closed forms over the contents each is entered from, the rows
  cut out are the sparse product of the edge lists and the feature table as the gather launch finds them.
-/
import proofs.«130096_j52458730553647_1_alg».proof.Proof.KernelIdealRegions
import proofs.«130096_j52458730553647_1_alg».proof.Proof.KI.GlueSpmm
import Idealize.ShloMosaic.Lib.StableHlo.Run

set_option maxRecDepth 16384

noncomputable section

namespace Cert.KernelIdeal.Hand.ProdC1

open Cert.KernelIdeal Cert.KernelIdeal.Gen
open Idealize.ShloMosaic Idealize.ShloMosaic.TcCoe Idealize.ShloMosaic.ValueIdx
open Cert.Hand
open BigOperators

variable (W : Valuation τ sig (Elt Ideal))

/-! ## Each stretch read at a buffer it writes, over any contents before it -/

theorem rd_c1 : (StableHlo.after hostOps8_2 W (Proc.devRef .tc main_c_43) : S_.Idx → BitVec 32) = constantI S_ 32 0#32 := by
  after_results <;> rfl
theorem rd_c2 : (StableHlo.after hostOps8_4 W (Proc.devRef .tc main_c_44) : S_.Idx → BitVec 32) = constantI S_ 32 0#32 := by
  after_results <;> rfl
theorem rd_c3 : (StableHlo.after hostOps8_6 W (Proc.devRef .tc main_c_45) : S_.Idx → BitVec 32) = constantI S_ 32 0#32 := by
  after_results <;> rfl
theorem rd_c4 : (StableHlo.after hostOps8_8 W (Proc.devRef .tc main_c_46) : S_.Idx → BitVec 32) = constantI S_ 32 0#32 := by
  after_results <;> rfl

theorem rd_rp : (StableHlo.after hostOps8_3 W (Proc.devRef .tc main_v128) : S802816.Idx → BitVec 32)
    = pad S802816 ![0] ![2816] ![0] (W (Proc.devRef .tc main_arg6) : S800000.Idx → BitVec 32)
        (W (Proc.devRef .tc main_c_43) : S_.Idx → BitVec 32) pads_S800000_S802816_028160 h_S_ := by
  after_results <;> rfl
theorem rd_cp : (StableHlo.after hostOps8_5 W (Proc.devRef .tc main_v129) : S802816.Idx → BitVec 32)
    = pad S802816 ![0] ![2816] ![0] (W (Proc.devRef .tc main_arg7) : S800000.Idx → BitVec 32)
        (W (Proc.devRef .tc main_c_44) : S_.Idx → BitVec 32) pads_S800000_S802816_028160 h_S_ := by
  after_results <;> rfl
theorem rd_vp : (StableHlo.after hostOps8_7 W (Proc.devRef .tc main_v130) : S802816.Idx → EReal)
    = pad S802816 ![0] ![2816] ![0] (W (Proc.devRef .tc main_v127) : S800000.Idx → EReal)
        (sitofp (F := Ideal) .f32 (W (Proc.devRef .tc main_c_45) : S_.Idx → BitVec 32)) pads_S800000_S802816_028160 h_S_ := by
  after_results <;> rfl
theorem rd_xp : (StableHlo.after hostOps8_9 W (Proc.devRef .tc main_v131) : S50176x64.Idx → EReal)
    = pad S50176x64 ![0, 0] ![176, 0] ![0, 0] (W (Proc.devRef .tc main_arg1) : S50000x64.Idx → EReal)
        (sitofp (F := Ideal) .f32 (W (Proc.devRef .tc main_c_46) : S_.Idx → BitVec 32)) pads_S50000x64_S50176x64_01760_000 h_S_ := by
  after_results <;> rfl

theorem rd_cols3 : (StableHlo.after hostOps8_10 W (Proc.devRef .tc main_v132) : S98x1x8192.Idx → BitVec 32)
    = shapeCast S98x1x8192 (W (Proc.devRef .tc main_v129) : S802816.Idx → BitVec 32) shapeCasts_S802816_S98x1x8192 := by
  after_results <;> rfl
theorem rd_vals3 : (StableHlo.after hostOps8_10 W (Proc.devRef .tc main_v133) : S98x1x8192.Idx → EReal)
    = shapeCast S98x1x8192 (W (Proc.devRef .tc main_v130) : S802816.Idx → EReal) shapeCasts_S802816_S98x1x8192 := by
  after_results <;> rfl
theorem rd_rows3 : (StableHlo.after hostOps8_10 W (Proc.devRef .tc main_v134) : S98x1x8192.Idx → BitVec 32)
    = shapeCast S98x1x8192 (W (Proc.devRef .tc main_v128) : S802816.Idx → BitVec 32) shapeCasts_S802816_S98x1x8192 := by
  after_results <;> rfl

theorem rd_sl : (StableHlo.after hostOps10 W (Proc.devRef .tc main_v137) : S50000x64.Idx → EReal)
    = extractStridedSlice S50000x64 ![0, 0] (W (Proc.devRef .tc main_v136) : S50176x64.Idx → EReal) slices_S50176x64_S50000x64_0_0 := by
  after_results <;> rfl

/-! ## A stretch leaves the buffers it does not write as they were -/

theorem k1 (r : Ref sig .tc) (h : r ∉ hostOps8_3_W) : StableHlo.after hostOps8_3 W (Proc.devRef .tc r) = W (Proc.devRef .tc r) :=
  StableHlo.after_of_writes_sub hostOps8_3 W hostOps8_3_writes h
theorem k2 (r : Ref sig .tc) (h : r ∉ hostOps8_4_W) : StableHlo.after hostOps8_4 W (Proc.devRef .tc r) = W (Proc.devRef .tc r) :=
  StableHlo.after_of_writes_sub hostOps8_4 W hostOps8_4_writes h
theorem k3 (r : Ref sig .tc) (h : r ∉ hostOps8_5_W) : StableHlo.after hostOps8_5 W (Proc.devRef .tc r) = W (Proc.devRef .tc r) :=
  StableHlo.after_of_writes_sub hostOps8_5 W hostOps8_5_writes h
theorem k4 (r : Ref sig .tc) (h : r ∉ hostOps8_6_W) : StableHlo.after hostOps8_6 W (Proc.devRef .tc r) = W (Proc.devRef .tc r) :=
  StableHlo.after_of_writes_sub hostOps8_6 W hostOps8_6_writes h
theorem k5 (r : Ref sig .tc) (h : r ∉ hostOps8_7_W) : StableHlo.after hostOps8_7 W (Proc.devRef .tc r) = W (Proc.devRef .tc r) :=
  StableHlo.after_of_writes_sub hostOps8_7 W hostOps8_7_writes h
theorem k6 (r : Ref sig .tc) (h : r ∉ hostOps8_8_W) : StableHlo.after hostOps8_8 W (Proc.devRef .tc r) = W (Proc.devRef .tc r) :=
  StableHlo.after_of_writes_sub hostOps8_8 W hostOps8_8_writes h
theorem k7 (r : Ref sig .tc) (h : r ∉ hostOps8_9_W) : StableHlo.after hostOps8_9 W (Proc.devRef .tc r) = W (Proc.devRef .tc r) :=
  StableHlo.after_of_writes_sub hostOps8_9 W hostOps8_9_writes h
theorem k8 (r : Ref sig .tc) (h : r ∉ hostOps8_10_W) : StableHlo.after hostOps8_10 W (Proc.devRef .tc r) = W (Proc.devRef .tc r) :=
  StableHlo.after_of_writes_sub hostOps8_10 W hostOps8_10_writes h

/-! ## The contents after each stretch and each launch -/

/-- After the stretch that ends with the first padding constant. -/
abbrev W0 : Valuation τ sig (Elt Ideal) := StableHlo.after hostOps8_2 W
/-- After the pad of the row words. -/
abbrev W1 : Valuation τ sig (Elt Ideal) := StableHlo.after hostOps8_3 (W0 W)
abbrev W2 : Valuation τ sig (Elt Ideal) := StableHlo.after hostOps8_4 (W1 W)
/-- After the pad of the column words. -/
abbrev W3 : Valuation τ sig (Elt Ideal) := StableHlo.after hostOps8_5 (W2 W)
abbrev W4 : Valuation τ sig (Elt Ideal) := StableHlo.after hostOps8_6 (W3 W)
/-- After the pad of the weights. -/
abbrev W5 : Valuation τ sig (Elt Ideal) := StableHlo.after hostOps8_7 (W4 W)
abbrev W6 : Valuation τ sig (Elt Ideal) := StableHlo.after hostOps8_8 (W5 W)
/-- After the pad of the feature table. -/
abbrev W7 : Valuation τ sig (Elt Ideal) := StableHlo.after hostOps8_9 (W6 W)
/-- After the reshapes: what the gather launch is entered from. -/
abbrev W8 : Valuation τ sig (Elt Ideal) := StableHlo.after hostOps8_10 (W7 W)

variable (gout : S98x8192x64.Idx → EReal) (yout : S50176x64.Idx → EReal)

/-- With the gather launch's result: what the scatter launch is entered from. -/
abbrev W9 : Valuation τ sig (Elt Ideal) := Function.update (W8 W) (Proc.devRef .tc main_v135) gout
/-- With the scatter launch's result. -/
abbrev W10 : Valuation τ sig (Elt Ideal) := Function.update (W9 W gout) (Proc.devRef .tc main_v136) yout
/-- After the stretch that cuts the padded rows off. -/
abbrev W11 : Valuation τ sig (Elt Ideal) := StableHlo.after hostOps10 (W10 W gout yout)

/-! ## The lists and the table as the gather launch finds them are the ones the pads read -/

theorem src_h : W8 W (Proc.devRef .tc main_arg6) = W0 W (Proc.devRef .tc main_arg6) :=
  (k8 (W7 W) main_arg6 (by decide)).trans <| (k7 (W6 W) main_arg6 (by decide)).trans <| (k6 (W5 W) main_arg6 (by decide)).trans <|
  (k5 (W4 W) main_arg6 (by decide)).trans <| (k4 (W3 W) main_arg6 (by decide)).trans <| (k3 (W2 W) main_arg6 (by decide)).trans <|
  (k2 (W1 W) main_arg6 (by decide)).trans (k1 (W0 W) main_arg6 (by decide))
theorem src_t : W8 W (Proc.devRef .tc main_arg7) = W2 W (Proc.devRef .tc main_arg7) :=
  (k8 (W7 W) main_arg7 (by decide)).trans <| (k7 (W6 W) main_arg7 (by decide)).trans <| (k6 (W5 W) main_arg7 (by decide)).trans <|
  (k5 (W4 W) main_arg7 (by decide)).trans <| (k4 (W3 W) main_arg7 (by decide)).trans (k3 (W2 W) main_arg7 (by decide))
theorem src_g : W8 W (Proc.devRef .tc main_v127) = W4 W (Proc.devRef .tc main_v127) :=
  (k8 (W7 W) main_v127 (by decide)).trans <| (k7 (W6 W) main_v127 (by decide)).trans <| (k6 (W5 W) main_v127 (by decide)).trans
    (k5 (W4 W) main_v127 (by decide))
theorem src_x : W8 W (Proc.devRef .tc main_arg1) = W6 W (Proc.devRef .tc main_arg1) :=
  (k8 (W7 W) main_arg1 (by decide)).trans (k7 (W6 W) main_arg1 (by decide))

/-- The padded lists as the reshapes find them, the padded table as the gather launch finds it. -/
theorem at_rp : W7 W (Proc.devRef .tc main_v128) = W1 W (Proc.devRef .tc main_v128) :=
  (k7 (W6 W) main_v128 (by decide)).trans <| (k6 (W5 W) main_v128 (by decide)).trans <| (k5 (W4 W) main_v128 (by decide)).trans <|
  (k4 (W3 W) main_v128 (by decide)).trans <| (k3 (W2 W) main_v128 (by decide)).trans (k2 (W1 W) main_v128 (by decide))
theorem at_cp : W7 W (Proc.devRef .tc main_v129) = W3 W (Proc.devRef .tc main_v129) :=
  (k7 (W6 W) main_v129 (by decide)).trans <| (k6 (W5 W) main_v129 (by decide)).trans <| (k5 (W4 W) main_v129 (by decide)).trans
    (k4 (W3 W) main_v129 (by decide))
theorem at_vp : W7 W (Proc.devRef .tc main_v130) = W5 W (Proc.devRef .tc main_v130) :=
  (k7 (W6 W) main_v130 (by decide)).trans (k6 (W5 W) main_v130 (by decide))
theorem at_xp : W8 W (Proc.devRef .tc main_v131) = W7 W (Proc.devRef .tc main_v131) :=
  k8 (W7 W) main_v131 (by decide)

/-! ## The product -/

/-- The rows cut out after the two launches are the sparse product of the lists and the table the gather launch finds. -/
theorem prod
    (hg : ∀ (ch : Fin 98) (e : Fin 8192) (j : Fin 64), gout (ix3 ch e j)
      = rowOr0 (fun (q : Fin 50176) (j : Fin 64) => (W8 W (Proc.devRef .tc main_v131) : S50176x64.Idx → EReal) (ix2 q j))
          ((W8 W (Proc.devRef .tc main_v132) : S98x1x8192.Idx → BitVec 32) (ix3 ch 0 e)).toNat j
        * (W8 W (Proc.devRef .tc main_v133) : S98x1x8192.Idx → EReal) (ix3 ch 0 e))
    (hs : ∀ (node : Fin 50176) (j : Fin 64), yout (ix2 node j)
      = (∑ ch : Fin 98, ∑ e : Fin 8192,
          (if ((W9 W gout (Proc.devRef .tc main_v134) : S98x1x8192.Idx → BitVec 32) (ix3 ch 0 e)).toNat = node.val
            then (W9 W gout (Proc.devRef .tc main_v135) : S98x8192x64.Idx → EReal) (ix3 ch e j) else 0) : EReal))
    (i : Fin 50000) (j : Fin 64) :
    (W11 W gout yout (Proc.devRef .tc main_v137) : S50000x64.Idx → EReal) (ix2 i j)
      = spmm (fun e => (W8 W (Proc.devRef .tc main_arg6) : S800000.Idx → BitVec 32) (ix1 e))
          (fun e => (W8 W (Proc.devRef .tc main_arg7) : S800000.Idx → BitVec 32) (ix1 e))
          (fun e => (W8 W (Proc.devRef .tc main_v127) : S800000.Idx → EReal) (ix1 e))
          (fun i j => (W8 W (Proc.devRef .tc main_arg1) : S50000x64.Idx → EReal) (ix2 i j)) i j := by
  have e_g : (W9 W gout (Proc.devRef .tc main_v135) : S98x8192x64.Idx → EReal) = gout := Function.update_self _ _ _
  have e_y : (W10 W gout yout (Proc.devRef .tc main_v136) : S50176x64.Idx → EReal) = yout := Function.update_self _ _ _
  have e_r : (W9 W gout (Proc.devRef .tc main_v134) : S98x1x8192.Idx → BitVec 32) = W8 W (Proc.devRef .tc main_v134) :=
    Function.update_of_ne (StableHlo.devRef_ne_of_ne (by decide)) _ _
  have e_sl : (W11 W gout yout (Proc.devRef .tc main_v137) : S50000x64.Idx → EReal)
      = extractStridedSlice S50000x64 ![0, 0] yout slices_S50176x64_S50000x64_0_0 :=
    (rd_sl (W10 W gout yout)).trans (congrArg (fun z => extractStridedSlice S50000x64 ![0, 0] z slices_S50176x64_S50000x64_0_0) e_y)
  rw [e_g] at hs
  rw [e_sl, src_h W, src_t W, src_g W, src_x W]
  exact spmm_of_launches (hN := rfl) (hE := by decide) (hn := by decide)
    (W0 W (Proc.devRef .tc main_arg6)) (W2 W (Proc.devRef .tc main_arg7)) (W4 W (Proc.devRef .tc main_v127))
    (W6 W (Proc.devRef .tc main_arg1)) h_S_
    (W0 W (Proc.devRef .tc main_c_43)) (W2 W (Proc.devRef .tc main_c_44))
    (sitofp (F := Ideal) .f32 (W4 W (Proc.devRef .tc main_c_45) : S_.Idx → BitVec 32))
    (sitofp (F := Ideal) .f32 (W6 W (Proc.devRef .tc main_c_46) : S_.Idx → BitVec 32))
    (fun k => congrFun (rd_c1 W) k) (fun k => congrFun (rd_c2 (W1 W)) k)
    (fun k => (congrArg (fun z : S_.Idx → BitVec 32 => sitofp (F := Ideal) .f32 z k) (rd_c3 (W3 W))).trans sitofp_zero)
    (fun k => (congrArg (fun z : S_.Idx → BitVec 32 => sitofp (F := Ideal) .f32 z k) (rd_c4 (W5 W))).trans sitofp_zero)
    pads_S800000_S802816_028160 pads_S50000x64_S50176x64_01760_000 shapeCasts_S802816_S98x1x8192
    slices_S50176x64_S50000x64_0_0
    (W9 W gout (Proc.devRef .tc main_v134)) (W8 W (Proc.devRef .tc main_v132)) (W8 W (Proc.devRef .tc main_v133))
    (W8 W (Proc.devRef .tc main_v131)) gout yout
    (e_r.trans ((rd_rows3 (W7 W)).trans (congrArg (fun z => shapeCast S98x1x8192 z shapeCasts_S802816_S98x1x8192)
      ((at_rp W).trans (rd_rp (W0 W))))))
    ((rd_cols3 (W7 W)).trans (congrArg (fun z => shapeCast S98x1x8192 z shapeCasts_S802816_S98x1x8192)
      ((at_cp W).trans (rd_cp (W2 W)))))
    ((rd_vals3 (W7 W)).trans (congrArg (fun z => shapeCast S98x1x8192 z shapeCasts_S802816_S98x1x8192)
      ((at_vp W).trans (rd_vp (W4 W)))))
    ((at_xp W).trans (rd_xp (W6 W)))
    hg hs i j

end Cert.KernelIdeal.Hand.ProdC1

end
-- ==== Proof.KI.GlueProdC2.lean ====
/-
  One sparse product of the kernel program, read off the host operations around its two launches, over ANY contents W of
  the unscoped buffers before them: the stretch that ends with the first padding constant; the four pads (row words,
  column words, weights, feature table), each behind its constant; the three reshapes into chunks; the gather launch,
  which leaves `gout` in its result array; the scatter launch, which leaves `yout`; the stretch that cuts the padded
  rows off. If `gout` and `yout` are the two launches' closed forms over the contents each is entered from, the rows
  cut out are the sparse product of the edge lists and the feature table as the gather launch finds them.
-/
import proofs.«130096_j52458730553647_1_alg».proof.Proof.KernelIdealRegions
import proofs.«130096_j52458730553647_1_alg».proof.Proof.KI.GlueSpmm
import Idealize.ShloMosaic.Lib.StableHlo.Run

set_option maxRecDepth 16384

noncomputable section

namespace Cert.KernelIdeal.Hand.ProdC2

open Cert.KernelIdeal Cert.KernelIdeal.Gen
open Idealize.ShloMosaic Idealize.ShloMosaic.TcCoe Idealize.ShloMosaic.ValueIdx
open Cert.Hand
open BigOperators

variable (W : Valuation τ sig (Elt Ideal))

/-! ## Each stretch read at a buffer it writes, over any contents before it -/

theorem rd_c1 : (StableHlo.after hostOps10 W (Proc.devRef .tc main_c_47) : S_.Idx → BitVec 32) = constantI S_ 32 0#32 := by
  after_results <;> rfl
theorem rd_c2 : (StableHlo.after hostOps10_2 W (Proc.devRef .tc main_c_48) : S_.Idx → BitVec 32) = constantI S_ 32 0#32 := by
  after_results <;> rfl
theorem rd_c3 : (StableHlo.after hostOps10_4 W (Proc.devRef .tc main_c_49) : S_.Idx → BitVec 32) = constantI S_ 32 0#32 := by
  after_results <;> rfl
theorem rd_c4 : (StableHlo.after hostOps10_6 W (Proc.devRef .tc main_c_50) : S_.Idx → BitVec 32) = constantI S_ 32 0#32 := by
  after_results <;> rfl

theorem rd_rp : (StableHlo.after hostOps10_1 W (Proc.devRef .tc main_v138) : S802816.Idx → BitVec 32)
    = pad S802816 ![0] ![2816] ![0] (W (Proc.devRef .tc main_arg6) : S800000.Idx → BitVec 32)
        (W (Proc.devRef .tc main_c_47) : S_.Idx → BitVec 32) pads_S800000_S802816_028160 h_S_ := by
  after_results <;> rfl
theorem rd_cp : (StableHlo.after hostOps10_3 W (Proc.devRef .tc main_v139) : S802816.Idx → BitVec 32)
    = pad S802816 ![0] ![2816] ![0] (W (Proc.devRef .tc main_arg7) : S800000.Idx → BitVec 32)
        (W (Proc.devRef .tc main_c_48) : S_.Idx → BitVec 32) pads_S800000_S802816_028160 h_S_ := by
  after_results <;> rfl
theorem rd_vp : (StableHlo.after hostOps10_5 W (Proc.devRef .tc main_v140) : S802816.Idx → EReal)
    = pad S802816 ![0] ![2816] ![0] (W (Proc.devRef .tc main_v127) : S800000.Idx → EReal)
        (sitofp (F := Ideal) .f32 (W (Proc.devRef .tc main_c_49) : S_.Idx → BitVec 32)) pads_S800000_S802816_028160 h_S_ := by
  after_results <;> rfl
theorem rd_xp : (StableHlo.after hostOps10_7 W (Proc.devRef .tc main_v141) : S50176x64.Idx → EReal)
    = pad S50176x64 ![0, 0] ![176, 0] ![0, 0] (W (Proc.devRef .tc main_v137) : S50000x64.Idx → EReal)
        (sitofp (F := Ideal) .f32 (W (Proc.devRef .tc main_c_50) : S_.Idx → BitVec 32)) pads_S50000x64_S50176x64_01760_000 h_S_ := by
  after_results <;> rfl

theorem rd_cols3 : (StableHlo.after hostOps10_8 W (Proc.devRef .tc main_v142) : S98x1x8192.Idx → BitVec 32)
    = shapeCast S98x1x8192 (W (Proc.devRef .tc main_v139) : S802816.Idx → BitVec 32) shapeCasts_S802816_S98x1x8192 := by
  after_results <;> rfl
theorem rd_vals3 : (StableHlo.after hostOps10_8 W (Proc.devRef .tc main_v143) : S98x1x8192.Idx → EReal)
    = shapeCast S98x1x8192 (W (Proc.devRef .tc main_v140) : S802816.Idx → EReal) shapeCasts_S802816_S98x1x8192 := by
  after_results <;> rfl
theorem rd_rows3 : (StableHlo.after hostOps10_8 W (Proc.devRef .tc main_v144) : S98x1x8192.Idx → BitVec 32)
    = shapeCast S98x1x8192 (W (Proc.devRef .tc main_v138) : S802816.Idx → BitVec 32) shapeCasts_S802816_S98x1x8192 := by
  after_results <;> rfl

theorem rd_sl : (StableHlo.after hostOps12 W (Proc.devRef .tc main_v147) : S50000x64.Idx → EReal)
    = extractStridedSlice S50000x64 ![0, 0] (W (Proc.devRef .tc main_v146) : S50176x64.Idx → EReal) slices_S50176x64_S50000x64_0_0 := by
  after_results <;> rfl

/-! ## A stretch leaves the buffers it does not write as they were -/

theorem k1 (r : Ref sig .tc) (h : r ∉ hostOps10_1_W) : StableHlo.after hostOps10_1 W (Proc.devRef .tc r) = W (Proc.devRef .tc r) :=
  StableHlo.after_of_writes_sub hostOps10_1 W hostOps10_1_writes h
theorem k2 (r : Ref sig .tc) (h : r ∉ hostOps10_2_W) : StableHlo.after hostOps10_2 W (Proc.devRef .tc r) = W (Proc.devRef .tc r) :=
  StableHlo.after_of_writes_sub hostOps10_2 W hostOps10_2_writes h
theorem k3 (r : Ref sig .tc) (h : r ∉ hostOps10_3_W) : StableHlo.after hostOps10_3 W (Proc.devRef .tc r) = W (Proc.devRef .tc r) :=
  StableHlo.after_of_writes_sub hostOps10_3 W hostOps10_3_writes h
theorem k4 (r : Ref sig .tc) (h : r ∉ hostOps10_4_W) : StableHlo.after hostOps10_4 W (Proc.devRef .tc r) = W (Proc.devRef .tc r) :=
  StableHlo.after_of_writes_sub hostOps10_4 W hostOps10_4_writes h
theorem k5 (r : Ref sig .tc) (h : r ∉ hostOps10_5_W) : StableHlo.after hostOps10_5 W (Proc.devRef .tc r) = W (Proc.devRef .tc r) :=
  StableHlo.after_of_writes_sub hostOps10_5 W hostOps10_5_writes h
theorem k6 (r : Ref sig .tc) (h : r ∉ hostOps10_6_W) : StableHlo.after hostOps10_6 W (Proc.devRef .tc r) = W (Proc.devRef .tc r) :=
  StableHlo.after_of_writes_sub hostOps10_6 W hostOps10_6_writes h
theorem k7 (r : Ref sig .tc) (h : r ∉ hostOps10_7_W) : StableHlo.after hostOps10_7 W (Proc.devRef .tc r) = W (Proc.devRef .tc r) :=
  StableHlo.after_of_writes_sub hostOps10_7 W hostOps10_7_writes h
theorem k8 (r : Ref sig .tc) (h : r ∉ hostOps10_8_W) : StableHlo.after hostOps10_8 W (Proc.devRef .tc r) = W (Proc.devRef .tc r) :=
  StableHlo.after_of_writes_sub hostOps10_8 W hostOps10_8_writes h

/-! ## The contents after each stretch and each launch -/

/-- After the stretch that ends with the first padding constant. -/
abbrev W0 : Valuation τ sig (Elt Ideal) := StableHlo.after hostOps10 W
/-- After the pad of the row words. -/
abbrev W1 : Valuation τ sig (Elt Ideal) := StableHlo.after hostOps10_1 (W0 W)
abbrev W2 : Valuation τ sig (Elt Ideal) := StableHlo.after hostOps10_2 (W1 W)
/-- After the pad of the column words. -/
abbrev W3 : Valuation τ sig (Elt Ideal) := StableHlo.after hostOps10_3 (W2 W)
abbrev W4 : Valuation τ sig (Elt Ideal) := StableHlo.after hostOps10_4 (W3 W)
/-- After the pad of the weights. -/
abbrev W5 : Valuation τ sig (Elt Ideal) := StableHlo.after hostOps10_5 (W4 W)
abbrev W6 : Valuation τ sig (Elt Ideal) := StableHlo.after hostOps10_6 (W5 W)
/-- After the pad of the feature table. -/
abbrev W7 : Valuation τ sig (Elt Ideal) := StableHlo.after hostOps10_7 (W6 W)
/-- After the reshapes: what the gather launch is entered from. -/
abbrev W8 : Valuation τ sig (Elt Ideal) := StableHlo.after hostOps10_8 (W7 W)

variable (gout : S98x8192x64.Idx → EReal) (yout : S50176x64.Idx → EReal)

/-- With the gather launch's result: what the scatter launch is entered from. -/
abbrev W9 : Valuation τ sig (Elt Ideal) := Function.update (W8 W) (Proc.devRef .tc main_v145) gout
/-- With the scatter launch's result. -/
abbrev W10 : Valuation τ sig (Elt Ideal) := Function.update (W9 W gout) (Proc.devRef .tc main_v146) yout
/-- After the stretch that cuts the padded rows off. -/
abbrev W11 : Valuation τ sig (Elt Ideal) := StableHlo.after hostOps12 (W10 W gout yout)

/-! ## The lists and the table as the gather launch finds them are the ones the pads read -/

theorem src_h : W8 W (Proc.devRef .tc main_arg6) = W0 W (Proc.devRef .tc main_arg6) :=
  (k8 (W7 W) main_arg6 (by decide)).trans <| (k7 (W6 W) main_arg6 (by decide)).trans <| (k6 (W5 W) main_arg6 (by decide)).trans <|
  (k5 (W4 W) main_arg6 (by decide)).trans <| (k4 (W3 W) main_arg6 (by decide)).trans <| (k3 (W2 W) main_arg6 (by decide)).trans <|
  (k2 (W1 W) main_arg6 (by decide)).trans (k1 (W0 W) main_arg6 (by decide))
theorem src_t : W8 W (Proc.devRef .tc main_arg7) = W2 W (Proc.devRef .tc main_arg7) :=
  (k8 (W7 W) main_arg7 (by decide)).trans <| (k7 (W6 W) main_arg7 (by decide)).trans <| (k6 (W5 W) main_arg7 (by decide)).trans <|
  (k5 (W4 W) main_arg7 (by decide)).trans <| (k4 (W3 W) main_arg7 (by decide)).trans (k3 (W2 W) main_arg7 (by decide))
theorem src_g : W8 W (Proc.devRef .tc main_v127) = W4 W (Proc.devRef .tc main_v127) :=
  (k8 (W7 W) main_v127 (by decide)).trans <| (k7 (W6 W) main_v127 (by decide)).trans <| (k6 (W5 W) main_v127 (by decide)).trans
    (k5 (W4 W) main_v127 (by decide))
theorem src_x : W8 W (Proc.devRef .tc main_v137) = W6 W (Proc.devRef .tc main_v137) :=
  (k8 (W7 W) main_v137 (by decide)).trans (k7 (W6 W) main_v137 (by decide))

/-- The padded lists as the reshapes find them, the padded table as the gather launch finds it. -/
theorem at_rp : W7 W (Proc.devRef .tc main_v138) = W1 W (Proc.devRef .tc main_v138) :=
  (k7 (W6 W) main_v138 (by decide)).trans <| (k6 (W5 W) main_v138 (by decide)).trans <| (k5 (W4 W) main_v138 (by decide)).trans <|
  (k4 (W3 W) main_v138 (by decide)).trans <| (k3 (W2 W) main_v138 (by decide)).trans (k2 (W1 W) main_v138 (by decide))
theorem at_cp : W7 W (Proc.devRef .tc main_v139) = W3 W (Proc.devRef .tc main_v139) :=
  (k7 (W6 W) main_v139 (by decide)).trans <| (k6 (W5 W) main_v139 (by decide)).trans <| (k5 (W4 W) main_v139 (by decide)).trans
    (k4 (W3 W) main_v139 (by decide))
theorem at_vp : W7 W (Proc.devRef .tc main_v140) = W5 W (Proc.devRef .tc main_v140) :=
  (k7 (W6 W) main_v140 (by decide)).trans (k6 (W5 W) main_v140 (by decide))
theorem at_xp : W8 W (Proc.devRef .tc main_v141) = W7 W (Proc.devRef .tc main_v141) :=
  k8 (W7 W) main_v141 (by decide)

/-! ## The product -/

/-- The rows cut out after the two launches are the sparse product of the lists and the table the gather launch finds. -/
theorem prod
    (hg : ∀ (ch : Fin 98) (e : Fin 8192) (j : Fin 64), gout (ix3 ch e j)
      = rowOr0 (fun (q : Fin 50176) (j : Fin 64) => (W8 W (Proc.devRef .tc main_v141) : S50176x64.Idx → EReal) (ix2 q j))
          ((W8 W (Proc.devRef .tc main_v142) : S98x1x8192.Idx → BitVec 32) (ix3 ch 0 e)).toNat j
        * (W8 W (Proc.devRef .tc main_v143) : S98x1x8192.Idx → EReal) (ix3 ch 0 e))
    (hs : ∀ (node : Fin 50176) (j : Fin 64), yout (ix2 node j)
      = (∑ ch : Fin 98, ∑ e : Fin 8192,
          (if ((W9 W gout (Proc.devRef .tc main_v144) : S98x1x8192.Idx → BitVec 32) (ix3 ch 0 e)).toNat = node.val
            then (W9 W gout (Proc.devRef .tc main_v145) : S98x8192x64.Idx → EReal) (ix3 ch e j) else 0) : EReal))
    (i : Fin 50000) (j : Fin 64) :
    (W11 W gout yout (Proc.devRef .tc main_v147) : S50000x64.Idx → EReal) (ix2 i j)
      = spmm (fun e => (W8 W (Proc.devRef .tc main_arg6) : S800000.Idx → BitVec 32) (ix1 e))
          (fun e => (W8 W (Proc.devRef .tc main_arg7) : S800000.Idx → BitVec 32) (ix1 e))
          (fun e => (W8 W (Proc.devRef .tc main_v127) : S800000.Idx → EReal) (ix1 e))
          (fun i j => (W8 W (Proc.devRef .tc main_v137) : S50000x64.Idx → EReal) (ix2 i j)) i j := by
  have e_g : (W9 W gout (Proc.devRef .tc main_v145) : S98x8192x64.Idx → EReal) = gout := Function.update_self _ _ _
  have e_y : (W10 W gout yout (Proc.devRef .tc main_v146) : S50176x64.Idx → EReal) = yout := Function.update_self _ _ _
  have e_r : (W9 W gout (Proc.devRef .tc main_v144) : S98x1x8192.Idx → BitVec 32) = W8 W (Proc.devRef .tc main_v144) :=
    Function.update_of_ne (StableHlo.devRef_ne_of_ne (by decide)) _ _
  have e_sl : (W11 W gout yout (Proc.devRef .tc main_v147) : S50000x64.Idx → EReal)
      = extractStridedSlice S50000x64 ![0, 0] yout slices_S50176x64_S50000x64_0_0 :=
    (rd_sl (W10 W gout yout)).trans (congrArg (fun z => extractStridedSlice S50000x64 ![0, 0] z slices_S50176x64_S50000x64_0_0) e_y)
  rw [e_g] at hs
  rw [e_sl, src_h W, src_t W, src_g W, src_x W]
  exact spmm_of_launches (hN := rfl) (hE := by decide) (hn := by decide)
    (W0 W (Proc.devRef .tc main_arg6)) (W2 W (Proc.devRef .tc main_arg7)) (W4 W (Proc.devRef .tc main_v127))
    (W6 W (Proc.devRef .tc main_v137)) h_S_
    (W0 W (Proc.devRef .tc main_c_47)) (W2 W (Proc.devRef .tc main_c_48))
    (sitofp (F := Ideal) .f32 (W4 W (Proc.devRef .tc main_c_49) : S_.Idx → BitVec 32))
    (sitofp (F := Ideal) .f32 (W6 W (Proc.devRef .tc main_c_50) : S_.Idx → BitVec 32))
    (fun k => congrFun (rd_c1 W) k) (fun k => congrFun (rd_c2 (W1 W)) k)
    (fun k => (congrArg (fun z : S_.Idx → BitVec 32 => sitofp (F := Ideal) .f32 z k) (rd_c3 (W3 W))).trans sitofp_zero)
    (fun k => (congrArg (fun z : S_.Idx → BitVec 32 => sitofp (F := Ideal) .f32 z k) (rd_c4 (W5 W))).trans sitofp_zero)
    pads_S800000_S802816_028160 pads_S50000x64_S50176x64_01760_000 shapeCasts_S802816_S98x1x8192
    slices_S50176x64_S50000x64_0_0
    (W9 W gout (Proc.devRef .tc main_v144)) (W8 W (Proc.devRef .tc main_v142)) (W8 W (Proc.devRef .tc main_v143))
    (W8 W (Proc.devRef .tc main_v141)) gout yout
    (e_r.trans ((rd_rows3 (W7 W)).trans (congrArg (fun z => shapeCast S98x1x8192 z shapeCasts_S802816_S98x1x8192)
      ((at_rp W).trans (rd_rp (W0 W))))))
    ((rd_cols3 (W7 W)).trans (congrArg (fun z => shapeCast S98x1x8192 z shapeCasts_S802816_S98x1x8192)
      ((at_cp W).trans (rd_cp (W2 W)))))
    ((rd_vals3 (W7 W)).trans (congrArg (fun z => shapeCast S98x1x8192 z shapeCasts_S802816_S98x1x8192)
      ((at_vp W).trans (rd_vp (W4 W)))))
    ((at_xp W).trans (rd_xp (W6 W)))
    hg hs i j

end Cert.KernelIdeal.Hand.ProdC2

end
-- ==== Proof.KI.GlueI.lean ====
/-
  A metapath part of the idealized kernel program in the words of the model, over ANY contents `o` the launches leave
  that satisfy the part's four launches' closed forms: the first product is taken of the part's feature argument, the
  second of the first product's rows, with the same index arguments and weights; the result, the rows cut out after the
  second pair of launches, is the model's two propagation steps.
-/
import proofs.«130096_j52458730553647_1_alg».proof.Proof.KernelIdealRegions
import proofs.«130096_j52458730553647_1_alg».proof.Proof.Model
import proofs.«130096_j52458730553647_1_alg».proof.Proof.KI.GlueKeep
import proofs.«130096_j52458730553647_1_alg».proof.Proof.KI.GlueProdC1
import proofs.«130096_j52458730553647_1_alg».proof.Proof.KI.GlueProdC2

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Hand
open BigOperators

variable (m : (ℓ : Loc nD τ sig) → Buf (Elt Ideal) ℓ) (o : Gen.Outs (F := Ideal))

/-- The part's graph: its two index arguments and its feature argument as launched, its weights as its first gather
    launch finds them. -/
abbrev srcI (c : Dev nD) : Fin 800000 → BitVec 32 := fun e => (Gen.V0 m c main_arg6 : S800000.Idx → BitVec 32) (ix1 e)
abbrev dstI (c : Dev nD) : Fin 800000 → BitVec 32 := fun e => (Gen.V0 m c main_arg7 : S800000.Idx → BitVec 32) (ix1 e)
abbrev wIo (c : Dev nD) : Fin 800000 → EReal := fun e => (Gen.V59 m o c main_v127 : S800000.Idx → EReal) (ix1 e)
abbrev xI (c : Dev nD) : Model.Tab 50000 := fun i j => (Gen.V0 m c main_arg1 : S50000x64.Idx → EReal) (ix2 i j)

/-- The part's four launches leave their closed forms: each gather launch, at (chunk, edge, feature), the row of the
    padded table its column word names times its weight; each scatter launch, at (node, feature), the sum of the gathered
    rows whose row word is the node; each over the contents it is entered from. -/
structure ClosedI : Prop where
  g8 : ∀ (c : Dev nD) (ch : Fin 98) (e : Fin 8192) (j : Fin 64), (o 60 main_v135 c : S98x8192x64.Idx → EReal) (ix3 ch e j)
    = rowOr0 (fun (q : Fin 50176) (j : Fin 64) => (Gen.V59 m o c main_v131 : S50176x64.Idx → EReal) (ix2 q j))
        ((Gen.V59 m o c main_v132 : S98x1x8192.Idx → BitVec 32) (ix3 ch 0 e)).toNat j
      * (Gen.V59 m o c main_v133 : S98x1x8192.Idx → EReal) (ix3 ch 0 e)
  s9 : ∀ (c : Dev nD) (node : Fin 50176) (j : Fin 64), (o 61 main_v136 c : S50176x64.Idx → EReal) (ix2 node j)
    = (∑ ch : Fin 98, ∑ e : Fin 8192,
        (if ((Gen.V60 m o c main_v134 : S98x1x8192.Idx → BitVec 32) (ix3 ch 0 e)).toNat = node.val
          then (Gen.V60 m o c main_v135 : S98x8192x64.Idx → EReal) (ix3 ch e j) else 0) : EReal)
  g10 : ∀ (c : Dev nD) (ch : Fin 98) (e : Fin 8192) (j : Fin 64), (o 71 main_v145 c : S98x8192x64.Idx → EReal) (ix3 ch e j)
    = rowOr0 (fun (q : Fin 50176) (j : Fin 64) => (Gen.V70 m o c main_v141 : S50176x64.Idx → EReal) (ix2 q j))
        ((Gen.V70 m o c main_v142 : S98x1x8192.Idx → BitVec 32) (ix3 ch 0 e)).toNat j
      * (Gen.V70 m o c main_v143 : S98x1x8192.Idx → EReal) (ix3 ch 0 e)
  s11 : ∀ (c : Dev nD) (node : Fin 50176) (j : Fin 64), (o 72 main_v146 c : S50176x64.Idx → EReal) (ix2 node j)
    = (∑ ch : Fin 98, ∑ e : Fin 8192,
        (if ((Gen.V71 m o c main_v144 : S98x1x8192.Idx → BitVec 32) (ix3 ch 0 e)).toNat = node.val
          then (Gen.V71 m o c main_v145 : S98x8192x64.Idx → EReal) (ix3 ch e j) else 0) : EReal)

namespace MpI

variable (hcl : ClosedI m o)
include hcl

/-- The rows cut out after the part's first two launches: the sparse product of the feature argument. -/
theorem v137_eq (c : Dev nD) (i : Fin 50000) (j : Fin 64) :
    (Gen.V62 m o c main_v137 : S50000x64.Idx → EReal) (ix2 i j) = spmm (srcI m c) (dstI m c) (wIo m o c) (xI m c) i j := by
  have p : (Gen.V62 m o c main_v137 : S50000x64.Idx → EReal) (ix2 i j)
      = spmm (fun e => (Gen.V59 m o c main_arg6 : S800000.Idx → BitVec 32) (ix1 e)) (fun e => (Gen.V59 m o c main_arg7 : S800000.Idx → BitVec 32) (ix1 e))
          (fun e => (Gen.V59 m o c main_v127 : S800000.Idx → EReal) (ix1 e)) (fun i j => (Gen.V59 m o c main_arg1 : S50000x64.Idx → EReal) (ix2 i j)) i j :=
    ProdC1.prod (Gen.V50 m o c) (o 60 main_v135 c) (o 61 main_v136 c) (hcl.g8 c) (hcl.s9 c) i j
  rw [Keep.arg6_59 m o c, Keep.arg7_59 m o c, Keep.arg1_59 m o c] at p
  exact p

/-- The part's result as its last stretch leaves it: the model's two propagation steps. -/
theorem v147_eq (c : Dev nD) (i : Fin 50000) (j : Fin 64) :
    (Gen.V73 m o c main_v147 : S50000x64.Idx → EReal) (ix2 i j) = Model.han (srcI m c) (dstI m c) (wIo m o c) (xI m c) i j := by
  have p : (Gen.V73 m o c main_v147 : S50000x64.Idx → EReal) (ix2 i j)
      = spmm (fun e => (Gen.V70 m o c main_arg6 : S800000.Idx → BitVec 32) (ix1 e)) (fun e => (Gen.V70 m o c main_arg7 : S800000.Idx → BitVec 32) (ix1 e))
          (fun e => (Gen.V70 m o c main_v127 : S800000.Idx → EReal) (ix1 e)) (fun i j => (Gen.V70 m o c main_v137 : S50000x64.Idx → EReal) (ix2 i j)) i j :=
    ProdC2.prod (Gen.V61 m o c) (o 71 main_v145 c) (o 72 main_v146 c) (hcl.g10 c) (hcl.s11 c) i j
  have ex : (fun (i : Fin 50000) (j : Fin 64) => (Gen.V70 m o c main_v137 : S50000x64.Idx → EReal) (ix2 i j))
      = spmm (srcI m c) (dstI m c) (wIo m o c) (xI m c) :=
    funext fun i => funext fun j => by rw [Keep.v137_70 m o c]; exact v137_eq m o hcl c i j
  rw [Keep.arg6_70 m o c, Keep.arg7_70 m o c, Keep.v127_70 m o c, ex] at p
  exact p

end MpI

end Cert.KernelIdeal.Hand

end
-- ==== Proof.KI.GlueFinal.lean ====
/-
  The four results of the idealized kernel program in the words of the model, at the run's last contents over the
  contents the twelve launches leave: those contents satisfy every launch's closed form, so the user-item part's two
  slices are the model's three-layer sum at the users' and at the items' rows, and each metapath part is the model's two
  propagation steps on its graph.
-/
import proofs.«130096_j52458730553647_1_alg».proof.Proof.KI.Fam
import proofs.«130096_j52458730553647_1_alg».proof.Proof.KI.R0Val
import proofs.«130096_j52458730553647_1_alg».proof.Proof.KI.R1Val
import proofs.«130096_j52458730553647_1_alg».proof.Proof.KI.R2Val
import proofs.«130096_j52458730553647_1_alg».proof.Proof.KI.R3Val
import proofs.«130096_j52458730553647_1_alg».proof.Proof.KI.R4Val
import proofs.«130096_j52458730553647_1_alg».proof.Proof.KI.R5Val
import proofs.«130096_j52458730553647_1_alg».proof.Proof.KI.R6Val
import proofs.«130096_j52458730553647_1_alg».proof.Proof.KI.R7Val
import proofs.«130096_j52458730553647_1_alg».proof.Proof.KI.R8Val
import proofs.«130096_j52458730553647_1_alg».proof.Proof.KI.R9Val
import proofs.«130096_j52458730553647_1_alg».proof.Proof.KI.R10Val
import proofs.«130096_j52458730553647_1_alg».proof.Proof.KI.R11Val
import proofs.«130096_j52458730553647_1_alg».proof.Proof.KI.GlueUI
import proofs.«130096_j52458730553647_1_alg».proof.Proof.KI.GlueU
import proofs.«130096_j52458730553647_1_alg».proof.Proof.KI.GlueI

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Hand

variable (m : (ℓ : Loc nD τ sig) → Buf (Elt Ideal) ℓ)

/-! ## The contents the launches leave satisfy the launches' closed forms -/

theorem closedUI : ClosedUI m (outs m) where
  g0 c ch e j := by rw [outs_12 m c]; exact R0.out_apply (fun c b => Gen.V11 m c b) c ch e j
  s1 c node j := by rw [outs_13 m c]; exact R1.out_apply (fun c b => Gen.V12 m (outs m) c b) c node j
  g2 c ch e j := by rw [outs_23 m c]; exact R2.out_apply (fun c b => Gen.V22 m (outs m) c b) c ch e j
  s3 c node j := by rw [outs_24 m c]; exact R3.out_apply (fun c b => Gen.V23 m (outs m) c b) c node j

theorem closedU : ClosedU m (outs m) where
  g4 c ch e j := by rw [outs_36 m c]; exact R4.out_apply (fun c b => Gen.V35 m (outs m) c b) c ch e j
  s5 c node j := by rw [outs_37 m c]; exact R5.out_apply (fun c b => Gen.V36 m (outs m) c b) c node j
  g6 c ch e j := by rw [outs_47 m c]; exact R6.out_apply (fun c b => Gen.V46 m (outs m) c b) c ch e j
  s7 c node j := by rw [outs_48 m c]; exact R7.out_apply (fun c b => Gen.V47 m (outs m) c b) c node j

theorem closedI : ClosedI m (outs m) where
  g8 c ch e j := by rw [outs_60 m c]; exact R8.out_apply (fun c b => Gen.V59 m (outs m) c b) c ch e j
  s9 c node j := by rw [outs_61 m c]; exact R9.out_apply (fun c b => Gen.V60 m (outs m) c b) c node j
  g10 c ch e j := by rw [outs_71 m c]; exact R10.out_apply (fun c b => Gen.V70 m (outs m) c b) c ch e j
  s11 c node j := by rw [outs_72 m c]; exact R11.out_apply (fun c b => Gen.V71 m (outs m) c b) c node j

/-! ## The four results -/

/-- The metapath parts' weights as their first gather launches find them, over the contents the launches leave. -/
abbrev wU (c : Dev nD) : Fin 1600000 → EReal := wUo m (outs m) c
abbrev wI (c : Dev nD) : Fin 800000 → EReal := wIo m (outs m) c

theorem val_main_v56 (c : Dev nD) (i : Fin 100000) (j : Fin 64) :
    (Gen.V73 m (outs m) c main_v56 : S100000x64.Idx → EReal) (ix2 i j)
      = Model.dccf (hK m c) (tK m c) (gK m c) (embK m c) ⟨i.val, Nat.lt_of_lt_of_le i.isLt (by decide)⟩ j :=
  UI.v56_eq m (outs m) (closedUI m) c i j

theorem val_main_v57 (c : Dev nD) (i : Fin 50000) (j : Fin 64) :
    (Gen.V73 m (outs m) c main_v57 : S50000x64.Idx → EReal) (ix2 i j)
      = Model.dccf (hK m c) (tK m c) (gK m c) (embK m c) ⟨100000 + i.val, Nat.add_lt_add_left i.isLt 100000⟩ j :=
  UI.v57_eq m (outs m) (closedUI m) c i j

theorem val_main_v102 (c : Dev nD) (i : Fin 100000) (j : Fin 64) :
    (Gen.V73 m (outs m) c main_v102 : S100000x64.Idx → EReal) (ix2 i j)
      = Model.han (srcU m c) (dstU m c) (wU m c) (xU m c) i j := by
  rw [Keep.v102_73 m (outs m) c]
  exact MpU.v102_eq m (outs m) (closedU m) c i j

theorem val_main_v147 (c : Dev nD) (i : Fin 50000) (j : Fin 64) :
    (Gen.V73 m (outs m) c main_v147 : S50000x64.Idx → EReal) (ix2 i j)
      = Model.han (srcI m c) (dstI m c) (wI m c) (xI m c) i j :=
  MpI.v147_eq m (outs m) (closedI m) c i j

end Cert.KernelIdeal.Hand

end
-- ==== Proof.Ref.Pre.lean ====
/-
  The precondition, decoded. The printed predicate is a conjunction of six tests, each a reduction by `and` over a whole array:
  the two feature tables are finite, and each of the four index arrays the programs gather feature rows with holds only words
  that, read as signed integers, lie in [0, N) for the table's row count N. Where the predicate is all ones every test is one,
  a reduction by `and` that is one met only ones, and an element's test is the conjunction of two signed comparisons with
  literals: so every word of those four arrays is a row of its table.
-/
import proofs.«130096_j52458730553647_1_alg».proof.Pre_finite_inputs
import Idealize.ShloMosaic.Lib.ReduceAll
import Idealize.ShloMosaic.Lib.ValueIdx
import Idealize.ShloMosaic.PureOps.Ideal

noncomputable section

namespace Cert.ReferenceIdeal.Hand

open Idealize.ShloMosaic Cert.Pre_finite_inputs

instance : Subsingleton Cert.Pre_finite_inputs.S_.Idx := ⟨fun _ _ => funext fun d => d.elim0⟩

/-- One element's range test read back: a word that is at least the literal 0 and below the literal `n`, both compared signed,
    is an integer of [0, n). -/
theorem range_of_test {x lo hi : BitVec 32} {n : Int} (hlo : lo.toInt = 0) (hhi : hi.toInt = n)
    (h : IntOp.andi (IntOp.cmpi .sge x lo) (IntOp.cmpi .slt x hi) = 1#1) : 0 ≤ x.toInt ∧ x.toInt < n := by
  obtain ⟨h1, h2⟩ := IntOp.andi_eq_one.1 h
  have h1' := IntOp.cmpi_sge.1 h1
  have h2' := IntOp.cmpi_slt.1 h2
  rw [hlo] at h1'; rw [hhi] at h2'
  exact ⟨h1', h2'⟩

/-- Under the precondition the words of `ui_u` and `u_dst` are users (below 100000) and those of `ui_i` and `i_dst` are items
    (below 50000), read as signed integers. -/
theorem ranges_of_pre [Cert.Pre_finite_inputs.Facts]
    (a0 : FVec Ideal S100000x64 .f32) (a1 : FVec Ideal S50000x64 .f32) (a2 a3 a4 a5 : IVec S1600000 32)
    (a6 a7 : IVec S800000 32)
    (hpre : Cert.Pre_finite_inputs.fn (F := Ideal) a0 a1 a2 a3 a4 a5 a6 a7 = fun _ => 1#1) :
    (∀ e, 0 ≤ (a2 e).toInt ∧ (a2 e).toInt < 100000) ∧ (∀ e, 0 ≤ (a3 e).toInt ∧ (a3 e).toInt < 50000)
      ∧ (∀ e, 0 ≤ (a5 e).toInt ∧ (a5 e).toInt < 100000) ∧ (∀ e, 0 ≤ (a7 e).toInt ∧ (a7 e).toInt < 50000) := by
  have h := congrFun hpre ValueIdx.ix0
  dsimp only [Cert.Pre_finite_inputs.fn, Cert.Pre_finite_inputs.fn_part1, Cert.Pre_finite_inputs.fn_part2] at h
  obtain ⟨h29, h35⟩ := IntOp.andi_eq_one.1 h
  obtain ⟨h22, h28⟩ := IntOp.andi_eq_one.1 h29
  obtain ⟨h15, h21⟩ := IntOp.andi_eq_one.1 h22
  obtain ⟨_, h14⟩ := IntOp.andi_eq_one.1 h15
  have z : (0#32 : BitVec 32).toInt = 0 := by decide
  have u : (100000#32 : BitVec 32).toInt = 100000 := by decide
  have v : (50000#32 : BitVec 32).toInt = 50000 := by decide
  refine ⟨fun e => ?_, fun e => ?_, fun e => ?_, fun e => ?_⟩
  · exact range_of_test z u (Host.reduce_andi_all _ _ _ _ _ h14 e)
  · exact range_of_test z v (Host.reduce_andi_all _ _ _ _ _ h21 e)
  · exact range_of_test z u (Host.reduce_andi_all _ _ _ _ _ h28 e)
  · exact range_of_test z v (Host.reduce_andi_all _ _ _ _ _ h35 e)

end Cert.ReferenceIdeal.Hand

end
-- ==== Proof.Ref.Product.lean ====
/-
  One sparse product of the reference, read at an entry. The reference computes a sparse product as a scatter-add into a table of
  zeros: update (e, k) is the weight of edge e times entry k of the feature row the edge's column word names (the word first
  wrapped by + n when negative, then clamped into the table), and it lands on row (row word of e, read signed), column k, or is
  dropped when that row is outside the table. When every column word is a row of the table the wrap and the clamp do nothing, the
  updates landing on (i, j) are exactly the edges whose row word is i, each contributing at column j, and the entry is the sum
  `Cert.Hand.spmm` names. Proved once for E edges, n rows and D columns from the dimension numbers of the two operations; the
  reference's three sizes are instances.
-/
import proofs.«130096_j52458730553647_1_alg».proof.ReferenceIdeal
import proofs.«130096_j52458730553647_1_alg».proof.Proof.Spmm
import Idealize.ShloMosaic.PureOps.Ideal
import Idealize.ShloMosaic.PureOps.Ideal.Laws
import Idealize.ShloMosaic.Lib.ValueIdx
import Idealize.ShloMosaic.Lib.StableHlo.Predicate
import Idealize.ShloMosaic.Lib.Affine

noncomputable section

open scoped BigOperators

namespace Cert.ReferenceIdeal.Hand

open Idealize.ShloMosaic Idealize.ShloMosaic.ValueIdx

/-! ## At any sizes -/

section AnySize
variable {E n D : ℕ}

/-- Axis 1 is not the one axis the index words address. -/
theorem m1 : (1 : Fin 2) ∉ [(0 : Fin 2)] := by decide
/-- Axis 0 is inserted (collapsed): it is not among the axes a window coordinate runs over. -/
theorem k0 : (0 : Fin 2) ∉ (List.finRange 2).filter (· ∉ [(0 : Fin 2)]) := by decide
/-- Axis 1 is the one axis a window coordinate runs over. -/
theorem k1 : (1 : Fin 2) ∈ (List.finRange 2).filter (· ∉ [(0 : Fin 2)]) := by decide

section Scatter
variable (ds : ScatterDims ⟨2, ![n, D]⟩ ⟨2, ![E, 1]⟩ ⟨2, ![E, D]⟩)
    (hu : ds.updateWindowDims = [1]) (hi : ds.insertedWindowDims = [0]) (hs : ds.scatterDimsToOperandDims = [0])
    (hv : ds.indexVectorDim = 1)
include hu hi hs hv

/-- On the row axis the window of update (e, k) starts at the signed value of edge e's index word. -/
theorem start0 {w : ℕ} (idx : IVec ⟨2, ![E, 1]⟩ w) (e : Fin E) (k : Fin D) :
    ds.start (ix2 e k) idx 0 = (idx (ix2 e 0)).toInt := by
  obtain ⟨uw, iw, sd, iv, wf⟩ := ds
  dsimp only at hu hi hs hv
  subst hu hi hs hv
  unfold ScatterDims.start
  rw [dif_pos (List.mem_singleton.mpr rfl)]
  congr 2
  funext b
  match b with
  | ⟨0, _⟩ => rfl
  | ⟨1, _⟩ => rfl

/-- On the column axis every window starts at 0. -/
theorem start1 {w : ℕ} (idx : IVec ⟨2, ![E, 1]⟩ w) (e : Fin E) (k : Fin D) :
    ds.start (ix2 e k) idx 1 = 0 := by
  obtain ⟨uw, iw, sd, iv, wf⟩ := ds
  dsimp only at hu hi hs hv
  subst hu hi hs hv
  unfold ScatterDims.start
  rw [dif_neg m1]

/-- The window has no extent on the row axis. -/
theorem window0 (e : Fin E) (k : Fin D) : ds.window (ix2 e k) 0 = 0 := by
  obtain ⟨uw, iw, sd, iv, wf⟩ := ds
  dsimp only at hu hi hs hv
  subst hu hi hs hv
  unfold ScatterDims.window
  exact dif_neg k0

/-- On the column axis the window coordinate of update (e, k) is k. -/
theorem window1 (e : Fin E) (k : Fin D) : ds.window (ix2 e k) 1 = k.val := by
  obtain ⟨uw, iw, sd, iv, wf⟩ := ds
  dsimp only at hu hi hs hv
  subst hu hi hs hv
  unfold ScatterDims.window
  exact (dif_pos k1).trans rfl

/-- Update (e, k) lands on entry (i, j) exactly when edge e's index word, read signed, is i and k = j; a word outside
    [0, n) lands nowhere. -/
theorem resultIdx_iff {w : ℕ} (idx : IVec ⟨2, ![E, 1]⟩ w) (e : Fin E) (k : Fin D) (i : Fin n) (j : Fin D) :
    ds.resultIdx? (ix2 e k) idx = some (ix2 i j) ↔ (idx (ix2 e 0)).toInt = (i.val : ℤ) ∧ k = j := by
  have s0 := start0 ds hu hi hs hv idx e k
  have s1 := start1 ds hu hi hs hv idx e k
  have w0 := window0 ds hu hi hs hv e k
  have w1 := window1 ds hu hi hs hv e k
  unfold ScatterDims.resultIdx?
  split
  · rename_i hall
    rw [Option.some.injEq]
    constructor
    · intro hf
      have h0 : ((idx (ix2 e 0)).toInt + ((0 : ℕ) : ℤ)).toNat = i.val := by
        have := congrArg Fin.val (congrFun hf 0); simp only [s0, w0] at this; exact this
      have h1 : ((0 : ℤ) + ((k.val : ℕ) : ℤ)).toNat = j.val := by
        have := congrArg Fin.val (congrFun hf 1); simp only [s1, w1] at this; exact this
      have a0 : 0 ≤ (idx (ix2 e 0)).toInt + ((0 : ℕ) : ℤ) := by
        have := (hall 0).1; simp only [s0, w0] at this; exact this
      exact ⟨by omega, Fin.ext (by omega)⟩
    · rintro ⟨hT, rfl⟩
      funext a
      match a with
      | ⟨0, _⟩ =>
        apply Fin.ext
        show (ds.start (ix2 e k) idx 0 + ((ds.window (ix2 e k) 0 : ℕ) : ℤ)).toNat = i.val
        rw [s0, w0, hT]; omega
      | ⟨1, _⟩ =>
        apply Fin.ext
        show (ds.start (ix2 e k) idx 1 + ((ds.window (ix2 e k) 1 : ℕ) : ℤ)).toNat = k.val
        rw [s1, w1]; omega
  · rename_i hnot
    constructor
    · intro hf; cases hf
    · rintro ⟨hT, rfl⟩
      exfalso; apply hnot
      intro a
      match a with
      | ⟨0, _⟩ =>
        show 0 ≤ ds.start (ix2 e k) idx 0 + ((ds.window (ix2 e k) 0 : ℕ) : ℤ)
          ∧ ds.start (ix2 e k) idx 0 + ((ds.window (ix2 e k) 0 : ℕ) : ℤ) < ((n : ℕ) : ℤ)
        rw [s0, w0, hT]; have := i.isLt; omega
      | ⟨1, _⟩ =>
        show 0 ≤ ds.start (ix2 e k) idx 1 + ((ds.window (ix2 e k) 1 : ℕ) : ℤ)
          ∧ ds.start (ix2 e k) idx 1 + ((ds.window (ix2 e k) 1 : ℕ) : ℤ) < ((D : ℕ) : ℤ)
        rw [s1, w1]; have := k.isLt; omega

/-- The updates landing on entry (i, j), summed: one per edge whose index word is i, taken at column j. -/
theorem scatter_sum {w : ℕ} (idx : IVec ⟨2, ![E, 1]⟩ w) (upd : (⟨2, ![E, D]⟩ : Shape).Idx → EReal) (i : Fin n) (j : Fin D) :
    ∑ q ∈ Finset.univ.filter (fun q => ds.resultIdx? q idx = some (ix2 i j)), upd q
      = ∑ e ∈ Finset.univ.filter (fun e : Fin E => (idx (ix2 e 0)).toInt = (i.val : ℤ)), upd (ix2 e j) := by
  rw [Finset.sum_filter, sum_idx2, Finset.sum_filter]
  refine Finset.sum_congr rfl fun e _ => ?_
  simp only [resultIdx_iff ds hu hi hs hv idx e _ i j]
  by_cases hT : (idx (ix2 e 0)).toInt = (i.val : ℤ)
  · simp only [hT, true_and]
    rw [Finset.sum_ite_eq' Finset.univ j (fun k => upd (ix2 e k))]
    simp
  · simp only [hT, false_and, if_false, Finset.sum_const_zero]

end Scatter

/-- A word reads as the small natural i signed exactly when it does unsigned. -/
theorem toInt_eq_iff {a : BitVec 32} {i : ℕ} (hi : i < 2 ^ 31) : a.toInt = (i : ℤ) ↔ a.toNat = i := by
  have h1 := BitVec.toInt_eq_toNat_cond a
  have h2 := a.isLt
  constructor <;> intro h <;> (split at h1 <;> omega)

/-- A vector laid out as a column reads, at row e, the vector at e. -/
theorem bcol {α : Type} (b1 : (⟨1, ![E]⟩ : Shape).BroadcastsInDim ⟨2, ![E, 1]⟩ ![0]) (v : (⟨1, ![E]⟩ : Shape).Idx → α) (e : Fin E) :
    broadcastInDim ⟨2, ![E, 1]⟩ ![0] b1 v (ix2 e (0 : Fin 1)) = v (ix1 e) := by
  have h := StableHlo.Predicate.bcast_col1 b1 v e
  have e1 : StableHlo.Predicate.ixP e = ix2 e (0 : Fin 1) := by
    funext a; match a with | ⟨0, _⟩ => rfl | ⟨1, _⟩ => rfl
  have e2 : Shape.Idx.ofFin e = ix1 e := by
    funext a; match a with | ⟨0, _⟩ => rfl
  rw [e1, e2] at h; exact h

/-- A vector laid out as a column and repeated along the rows reads, at (e, k), the vector at e. -/
theorem brows {α : Type} (b1 : (⟨1, ![E]⟩ : Shape).BroadcastsInDim ⟨2, ![E, 1]⟩ ![0])
    (b2 : (⟨2, ![E, 1]⟩ : Shape).BroadcastsInDim ⟨2, ![E, D]⟩ ![0, 1]) (v : (⟨1, ![E]⟩ : Shape).Idx → α) (e : Fin E) (k : Fin D) :
    broadcastInDim ⟨2, ![E, D]⟩ ![0, 1] b2 (broadcastInDim ⟨2, ![E, 1]⟩ ![0] b1 v) (ix2 e k) = v (ix1 e) := by
  have h := StableHlo.Predicate.bcast_rows b1 b2 v e k
  have e1 : StableHlo.Predicate.ij e k = ix2 e k := by
    funext a; match a with | ⟨0, _⟩ => rfl | ⟨1, _⟩ => rfl
  have e2 : Shape.Idx.ofFin e = ix1 e := by
    funext a; match a with | ⟨0, _⟩ => rfl
  rw [e1, e2] at h; exact h

/-- Axis 1 is neither collapsed nor batching: the offset coordinate runs over it. -/
theorem gk1 : (1 : Fin 2) ∈ (List.finRange 2).filter (· ∉ [(0 : Fin 2)] ++ ([] : List (Fin 2))) := by decide
/-- Axis 0 is collapsed. -/
theorem gk0 : (0 : Fin 2) ∉ (List.finRange 2).filter (· ∉ [(0 : Fin 2)] ++ ([] : List (Fin 2))) := by decide

section Gather
variable (dg : GatherDims ⟨2, ![n, D]⟩ ⟨2, ![E, 1]⟩ ⟨2, ![E, D]⟩)
    (ho : dg.offsetDims = [1]) (hc : dg.collapsedSliceDims = [0]) (hob : dg.operandBatchingDims = [])
    (hsb : dg.startIndicesBatchingDims = []) (hsim : dg.startIndexMap = [0]) (hivd : dg.indexVectorDim = 1)
    (hss : dg.sliceSizes = ![1, D])
include ho hc hob hsb hsim hivd hss

/-- On the row axis the slice of result (e, k) starts at edge e's index word, read signed and clamped into the table. -/
theorem gstart0 {w : ℕ} (idx : IVec ⟨2, ![E, 1]⟩ w) (e : Fin E) (k : Fin D) :
    dg.start (ix2 e k) idx 0 = min (idx (ix2 e 0)).toInt.toNat (n - 1) := by
  obtain ⟨od, cd, ob, sb, sm, iv, ss, wf⟩ := dg
  dsimp only at ho hc hob hsb hsim hivd hss
  subst ho hc hob hsb hsim hivd hss
  unfold GatherDims.start
  rw [dif_pos (List.mem_singleton.mpr rfl)]
  refine congrArg₂ min (congrArg (fun q => (idx q).toInt.toNat) ?_) rfl
  funext b
  match b with
  | ⟨0, _⟩ => rfl
  | ⟨1, _⟩ => rfl

/-- On the column axis every slice starts at 0. -/
theorem gstart1 {w : ℕ} (idx : IVec ⟨2, ![E, 1]⟩ w) (e : Fin E) (k : Fin D) :
    dg.start (ix2 e k) idx 1 = 0 := by
  obtain ⟨od, cd, ob, sb, sm, iv, ss, wf⟩ := dg
  dsimp only at ho hc hob hsb hsim hivd hss
  subst ho hc hob hsb hsim hivd hss
  unfold GatherDims.start
  rw [dif_neg m1]

/-- There are no batching axes. -/
theorem gbatch (e : Fin E) (k : Fin D) (a : Fin 2) : dg.batchCoord (ix2 e k) a = 0 :=
  dg.batchCoord_eq_zero _ _ (by rw [hob]; exact List.not_mem_nil)

/-- The slice has one row: no offset on the row axis. -/
theorem goff0 (e : Fin E) (k : Fin D) : dg.offCoord (ix2 e k) 0 = 0 := by
  obtain ⟨od, cd, ob, sb, sm, iv, ss, wf⟩ := dg
  dsimp only at ho hc hob hsb hsim hivd hss
  subst ho hc hob hsb hsim hivd hss
  unfold GatherDims.offCoord
  exact dif_neg gk0

/-- On the column axis the offset coordinate of result (e, k) is k. -/
theorem goff1 (e : Fin E) (k : Fin D) : dg.offCoord (ix2 e k) 1 = k.val := by
  obtain ⟨od, cd, ob, sb, sm, iv, ss, wf⟩ := dg
  dsimp only at ho hc hob hsb hsim hivd hss
  subst ho hc hob hsb hsim hivd hss
  unfold GatherDims.offCoord
  exact (dif_pos gk1).trans rfl

/-- The row gather at (e, k): entry k of the table row that edge e's index word names, the word read signed and clamped
    into the table. -/
theorem gather_row {α : Type} (x : (⟨2, ![n, D]⟩ : Shape).Idx → α) {w : ℕ} (idx : IVec ⟨2, ![E, 1]⟩ w)
    (e : Fin E) (k : Fin D) (hn : 0 < n) :
    Host.gather dg x idx (ix2 e k) = x (ix2 ⟨min (idx (ix2 e 0)).toInt.toNat (n - 1), by omega⟩ k) := by
  unfold Host.gather
  congr 1
  funext a
  match a with
  | ⟨0, _⟩ =>
    apply Fin.ext
    show dg.start (ix2 e k) idx 0 + dg.batchCoord (ix2 e k) 0 + dg.offCoord (ix2 e k) 0 = min (idx (ix2 e 0)).toInt.toNat (n - 1)
    rw [gstart0 dg ho hc hob hsb hsim hivd hss, gbatch dg ho hc hob hsb hsim hivd hss, goff0 dg ho hc hob hsb hsim hivd hss]
    rfl
  | ⟨1, _⟩ =>
    apply Fin.ext
    show dg.start (ix2 e k) idx 1 + dg.batchCoord (ix2 e k) 1 + dg.offCoord (ix2 e k) 1 = k.val
    rw [gstart1 dg ho hc hob hsb hsim hivd hss, gbatch dg ho hc hob hsb hsim hivd hss, goff1 dg ho hc hob hsb hsim hivd hss]
    omega

end Gather

/-- The wrap of negative index words (add the table's row count where the word is negative) leaves a non-negative word as
    it is. -/
theorem wrap_apply (b0 : (⟨0, ![]⟩ : Shape).BroadcastsInDim ⟨1, ![E]⟩ ![]) (nw : BitVec 32) (t : IVec ⟨1, ![E]⟩ 32)
    (q : (⟨1, ![E]⟩ : Shape).Idx) (hq : 0 ≤ (t q).toInt) :
    select (cmpi .slt t (broadcastInDim ⟨1, ![E]⟩ ![] b0 (constantI ⟨0, ![]⟩ 32 0#32)))
      (addi t (broadcastInDim ⟨1, ![E]⟩ ![] b0 (constantI ⟨0, ![]⟩ 32 nw))) t q = t q := by
  rw [select_apply]
  have hc : cmpi .slt t (broadcastInDim ⟨1, ![E]⟩ ![] b0 (constantI ⟨0, ![]⟩ 32 0#32)) q = 0#1 := by
    apply eq_zero_of_ne_one
    intro h1
    have h2 : IntOp.cmpi .slt (t q) 0#32 = 1#1 := h1
    rw [IntOp.cmpi_slt] at h2
    have z : (0#32 : BitVec 32).toInt = 0 := by decide
    omega
  rw [hc, select_zero]

/-- THE SPARSE PRODUCT AT AN ENTRY, at any sizes: the scatter-add into zeros, at the row words `h`, of the weights `g`
    times the rows of `x` gathered at the wrapped column words `t`, is at (i, j) the sum over the edges whose row word is i of the
    edge's weight times entry j of the row its column word names — provided every column word is a row of the table, so that
    neither the wrap nor the clamp moves it. -/
theorem product_apply
    (ds : ScatterDims ⟨2, ![n, D]⟩ ⟨2, ![E, 1]⟩ ⟨2, ![E, D]⟩)
    (hu : ds.updateWindowDims = [1]) (hi : ds.insertedWindowDims = [0]) (hs : ds.scatterDimsToOperandDims = [0])
    (hv : ds.indexVectorDim = 1)
    (dg : GatherDims ⟨2, ![n, D]⟩ ⟨2, ![E, 1]⟩ ⟨2, ![E, D]⟩)
    (ho : dg.offsetDims = [1]) (hc : dg.collapsedSliceDims = [0]) (hob : dg.operandBatchingDims = [])
    (hsb : dg.startIndicesBatchingDims = []) (hsim : dg.startIndexMap = [0]) (hivd : dg.indexVectorDim = 1)
    (hss : dg.sliceSizes = ![1, D])
    (b0 : (⟨0, ![]⟩ : Shape).BroadcastsInDim ⟨1, ![E]⟩ ![])
    (b1 : (⟨1, ![E]⟩ : Shape).BroadcastsInDim ⟨2, ![E, 1]⟩ ![0])
    (b2 : (⟨2, ![E, 1]⟩ : Shape).BroadcastsInDim ⟨2, ![E, D]⟩ ![0, 1])
    (bz : (⟨0, ![]⟩ : Shape).BroadcastsInDim ⟨2, ![n, D]⟩ ![])
    (nw : BitVec 32) (hn : n ≤ 2 ^ 31)
    (h t : IVec ⟨1, ![E]⟩ 32) (g : FVec Ideal ⟨1, ![E]⟩ .f32) (x : FVec Ideal ⟨2, ![n, D]⟩ .f32)
    (ht : ∀ e, 0 ≤ (t e).toInt ∧ (t e).toInt < n) (i : Fin n) (j : Fin D) :
    Host.scatterAdd ds (broadcastInDim ⟨2, ![n, D]⟩ ![] bz (constant (F := Ideal) ⟨0, ![]⟩ .f32 0x00000000#32))
        (broadcastInDim ⟨2, ![E, 1]⟩ ![0] b1 h)
        (mulf (broadcastInDim ⟨2, ![E, D]⟩ ![0, 1] b2 (broadcastInDim ⟨2, ![E, 1]⟩ ![0] b1 g))
          (Host.gather dg x (broadcastInDim ⟨2, ![E, 1]⟩ ![0] b1
            (select (cmpi .slt t (broadcastInDim ⟨1, ![E]⟩ ![] b0 (constantI ⟨0, ![]⟩ 32 0#32)))
              (addi t (broadcastInDim ⟨1, ![E]⟩ ![] b0 (constantI ⟨0, ![]⟩ 32 nw))) t))))
        (ix2 i j)
      = Cert.Hand.spmm (fun e => h (ix1 e)) (fun e => t (ix1 e)) (fun e => g (ix1 e)) (fun i j => x (ix2 i j)) i j := by
  have hn0 : 0 < n := Nat.lt_of_le_of_lt (Nat.zero_le _) i.isLt
  show Ideal.hostScatterAdd ds _ _ _ (ix2 i j) = _
  unfold Ideal.hostScatterAdd
  rw [scatter_sum ds hu hi hs hv]
  have hz : broadcastInDim ⟨2, ![n, D]⟩ ![] bz (constant (F := Ideal) ⟨0, ![]⟩ .f32 0x00000000#32) (ix2 i j) = 0 :=
    Ideal.ofBits_zero_f32
  rw [hz, zero_add]
  unfold Cert.Hand.spmm
  refine Finset.sum_congr ?_ ?_
  · ext e
    simp only [Finset.mem_filter, Finset.mem_univ, true_and]
    rw [bcol b1 h e]
    exact toInt_eq_iff (by have := i.isLt; omega)
  · intro e _
    have hq := ht (ix1 e)
    have h1 := BitVec.toInt_eq_toNat_cond (t (ix1 e))
    have h2 := (t (ix1 e)).isLt
    have hnat : min (t (ix1 e)).toInt.toNat (n - 1) = (t (ix1 e)).toNat := by split at h1 <;> omega
    have hlt : (t (ix1 e)).toNat < n := by split at h1 <;> omega
    have hidx : broadcastInDim ⟨2, ![E, 1]⟩ ![0] b1
        (select (cmpi .slt t (broadcastInDim ⟨1, ![E]⟩ ![] b0 (constantI ⟨0, ![]⟩ 32 0#32)))
          (addi t (broadcastInDim ⟨1, ![E]⟩ ![] b0 (constantI ⟨0, ![]⟩ 32 nw))) t) (ix2 e 0) = t (ix1 e) := by
      rw [bcol b1 _ e, wrap_apply b0 nw t (ix1 e) hq.1]
    rw [mulf_apply, brows b1 b2 g e j, gather_row dg ho hc hob hsb hsim hivd hss x _ e j hn0,
      Cert.Hand.rowOr0_of_lt _ hlt]
    exact congrArg (fun p => g (ix1 e) * x (ix2 p j)) (Fin.ext (by dsimp only; rw [hidx]; exact hnat))

end AnySize

/-! ## The reference's three products -/

open Cert.ReferenceIdeal

variable [Cert.ReferenceIdeal.Facts₀]
open Cert.ReferenceIdeal.Facts₀

/-- The user-item product's operations (the reference's %32 … %44, and again %47 … %59) as one function of the row words `h`, the
    column words `t`, the weights `g` and the table `x`. -/
def prodUI (h t : IVec S3200000 32) (g : FVec Ideal S3200000 .f32) (x : FVec Ideal S150000x64 .f32) :
    FVec Ideal S150000x64 .f32 :=
  Host.scatterAdd scatter_S150000x64_S3200000x1_S3200000x64_1_0_0_1
    (broadcastInDim S150000x64 ![] bcast_S_S150000x64 (constant (F := Ideal) S_ .f32 0x00000000#32))
    (broadcastInDim S3200000x1 ![0] bcast_S3200000_S3200000x1_0 h)
    (mulf
      (broadcastInDim S3200000x64 ![0, 1] bcast_S3200000x1_S3200000x64_0_1
        (broadcastInDim S3200000x1 ![0] bcast_S3200000_S3200000x1_0 g))
      (Host.gather gather_S150000x64_S3200000x1_S3200000x64_1_0_n_n_0_1_164 x
        (broadcastInDim S3200000x1 ![0] bcast_S3200000_S3200000x1_0
          (select (cmpi .slt t (broadcastInDim S3200000 ![] bcast_S_S3200000 (constantI S_ 32 0#32)))
            (addi t (broadcastInDim S3200000 ![] bcast_S_S3200000 (constantI S_ 32 150000#32))) t))))

/-- The users' metapath product's operations (%89 … %101, and again %102 … %114). -/
def prodU (src dst : IVec S1600000 32) (w : FVec Ideal S1600000 .f32) (x : FVec Ideal S100000x64 .f32) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 src)
    (mulf
      (broadcastInDim S1600000x64 ![0, 1] bcast_S1600000x1_S1600000x64_0_1
        (broadcastInDim S1600000x1 ![0] bcast_S1600000_S1600000x1_0 w))
      (Host.gather gather_S100000x64_S1600000x1_S1600000x64_1_0_n_n_0_1_164 x
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 100000#32))) dst))))

/-- The items' metapath product's operations (%140 … %152, and again %153 … %165). -/
def prodI (src dst : IVec S800000 32) (w : FVec Ideal S800000 .f32) (x : FVec Ideal S50000x64 .f32) :
    FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 src)
    (mulf
      (broadcastInDim S800000x64 ![0, 1] bcast_S800000x1_S800000x64_0_1
        (broadcastInDim S800000x1 ![0] bcast_S800000_S800000x1_0 w))
      (Host.gather gather_S50000x64_S800000x1_S800000x64_1_0_n_n_0_1_164 x
        (broadcastInDim S800000x1 ![0] bcast_S800000_S800000x1_0
          (select (cmpi .slt dst (broadcastInDim S800000 ![] bcast_S_S800000 (constantI S_ 32 0#32)))
            (addi dst (broadcastInDim S800000 ![] bcast_S_S800000 (constantI S_ 32 50000#32))) dst))))

/-- The user-item product at entry (i, j), when every column word is a node. -/
theorem prodUI_apply (h t : IVec S3200000 32) (g : FVec Ideal S3200000 .f32) (x : FVec Ideal S150000x64 .f32)
    (ht : ∀ e, 0 ≤ (t e).toInt ∧ (t e).toInt < 150000) (i : Fin 150000) (j : Fin 64) :
    prodUI h t g x (ix2 i j)
      = Cert.Hand.spmm (fun e => h (ix1 e)) (fun e => t (ix1 e)) (fun e => g (ix1 e)) (fun i j => x (ix2 i j)) i j := by
  unfold prodUI
  exact product_apply scatter_S150000x64_S3200000x1_S3200000x64_1_0_0_1 rfl rfl rfl rfl
    gather_S150000x64_S3200000x1_S3200000x64_1_0_n_n_0_1_164 rfl rfl rfl rfl rfl rfl rfl
    bcast_S_S3200000 bcast_S3200000_S3200000x1_0 bcast_S3200000x1_S3200000x64_0_1 bcast_S_S150000x64 150000#32
    (by norm_num) h t g x ht i j

/-- The users' metapath product at entry (i, j), when every column word is a user. -/
theorem prodU_apply (src dst : IVec S1600000 32) (w : FVec Ideal S1600000 .f32) (x : FVec Ideal S100000x64 .f32)
    (hd : ∀ e, 0 ≤ (dst e).toInt ∧ (dst e).toInt < 100000) (i : Fin 100000) (j : Fin 64) :
    prodU src dst w x (ix2 i j)
      = Cert.Hand.spmm (fun e => src (ix1 e)) (fun e => dst (ix1 e)) (fun e => w (ix1 e)) (fun i j => x (ix2 i j)) i j := by
  unfold prodU
  exact product_apply scatter_S100000x64_S1600000x1_S1600000x64_1_0_0_1 rfl rfl rfl rfl
    gather_S100000x64_S1600000x1_S1600000x64_1_0_n_n_0_1_164 rfl rfl rfl rfl rfl rfl rfl
    bcast_S_S1600000 bcast_S1600000_S1600000x1_0 bcast_S1600000x1_S1600000x64_0_1 bcast_S_S100000x64 100000#32
    (by norm_num) src dst w x hd i j

/-- The items' metapath product at entry (i, j), when every column word is an item. -/
theorem prodI_apply (src dst : IVec S800000 32) (w : FVec Ideal S800000 .f32) (x : FVec Ideal S50000x64 .f32)
    (hd : ∀ e, 0 ≤ (dst e).toInt ∧ (dst e).toInt < 50000) (i : Fin 50000) (j : Fin 64) :
    prodI src dst w x (ix2 i j)
      = Cert.Hand.spmm (fun e => src (ix1 e)) (fun e => dst (ix1 e)) (fun e => w (ix1 e)) (fun i j => x (ix2 i j)) i j := by
  unfold prodI
  exact product_apply scatter_S50000x64_S800000x1_S800000x64_1_0_0_1 rfl rfl rfl rfl
    gather_S50000x64_S800000x1_S800000x64_1_0_n_n_0_1_164 rfl rfl rfl rfl rfl rfl rfl
    bcast_S_S800000 bcast_S800000_S800000x1_0 bcast_S800000x1_S800000x64_0_1 bcast_S_S50000x64 50000#32
    (by norm_num) src dst w x hd i j

end Cert.ReferenceIdeal.Hand

end
-- ==== Proof.Ref.Results.lean ====
/-
  The reference's four results, entry by entry, in the model's words. With h, t the reference's own row and column words
  (the users' words beside the items' words moved up by 100000, in the two orders), g its normalisation weights and emb the users'
  features over the items', the user-item part is two sparse products with a residual each, the three layers summed
  (`Model.dccf`), cut into its first 100000 and its last 50000 rows; each metapath part is two plain sparse products
  (`Model.han`). The weights are kept as the reference's own stages: nothing here opens them. The column words of the user-item
  graph are nodes because a user word is below 100000 and an item word moved up by 100000 is below 150000.
-/
import proofs.«130096_j52458730553647_1_alg».proof.Proof.RefRead
import proofs.«130096_j52458730553647_1_alg».proof.Proof.Model
import proofs.«130096_j52458730553647_1_alg».proof.Proof.Ref.Product

noncomputable section

namespace Cert.ReferenceIdeal.Hand

open Idealize.ShloMosaic Idealize.ShloMosaic.ValueIdx Cert.ReferenceIdeal Cert.ReferenceIdeal.Read Cert.Hand

/-- The user-item graph's row words, as the reference builds them. -/
def hW (x2 x3 : IVec S1600000 32) : Fin 3200000 → BitVec 32 := fun e => val_main_v2 (F := Ideal) x2 x3 (ix1 e)
/-- The user-item graph's column words. -/
def tW (x2 x3 : IVec S1600000 32) : Fin 3200000 → BitVec 32 := fun e => val_main_v5 (F := Ideal) x2 x3 (ix1 e)
/-- The user-item graph's weights: the reference's own stage, not opened. -/
def gW (x2 x3 : IVec S1600000 32) : Fin 3200000 → EReal := fun e => val_main_v30 (F := Ideal) x2 x3 (ix1 e)
/-- The users' features over the items'. -/
def embT (x0 : FVec Ideal S100000x64 .f32) (x1 : FVec Ideal S50000x64 .f32) : Model.Tab 150000 :=
  fun i j => val_main_v31 (F := Ideal) x0 x1 (ix2 i j)
/-- The users' metapath weights: the reference's own stage, not opened. -/
def wU (x4 x5 : IVec S1600000 32) : Fin 1600000 → EReal := fun e => val_main_v88 (F := Ideal) x4 x5 (ix1 e)
/-- The items' metapath weights. -/
def wI (x6 x7 : IVec S800000 32) : Fin 800000 → EReal := fun e => val_main_v139 (F := Ideal) x6 x7 (ix1 e)

/-- An item word moved up by 100000 does not wrap: it is an integer of [100000, 150000). -/
theorem toInt_add_100000 {x : BitVec 32} (hx : 0 ≤ x.toInt ∧ x.toInt < 50000) :
    (IntOp.addi x 100000#32).toInt = x.toInt + 100000 := by
  have u : (100000#32 : BitVec 32).toInt = 100000 := by decide
  rw [IntOp.addi, BitVec.toInt_add, u]
  exact Int.bmod_eq_of_le (by omega) (by omega)

/-- The user-item graph's column words are nodes: the first half are item words moved up by 100000, the second half user
    words. -/
theorem tW_range (x2 x3 : IVec S1600000 32) (h2 : ∀ e, 0 ≤ (x2 e).toInt ∧ (x2 e).toInt < 100000)
    (h3 : ∀ e, 0 ≤ (x3 e).toInt ∧ (x3 e).toInt < 50000) (e : S3200000.Idx) :
    0 ≤ (val_main_v5 (F := Ideal) x2 x3 e).toInt ∧ (val_main_v5 (F := Ideal) x2 x3 e).toInt < 150000 := by
  have he : (e 0).val < 3200000 := (e 0).isLt
  unfold val_main_v5
  by_cases hlt : (e 0).val < 1600000
  · rw [concatenate_pair_apply_left (s₁ := S1600000) (s₂ := S1600000) (0 : Fin 1) _ _ _ e rfl (ix1 (⟨(e 0).val, hlt⟩ : Fin 1600000))
      (fun b => by match b with | ⟨0, _⟩ => rfl)]
    have hq := h3 (ix1 (⟨(e 0).val, hlt⟩ : Fin 1600000))
    have hs : val_main_v4 (F := Ideal) x3 (ix1 (⟨(e 0).val, hlt⟩ : Fin 1600000))
        = IntOp.addi (x3 (ix1 (⟨(e 0).val, hlt⟩ : Fin 1600000))) 100000#32 := rfl
    rw [hs, toInt_add_100000 hq]
    omega
  · have hge : 1600000 ≤ (e 0).val := Nat.le_of_not_lt hlt
    rw [concatenate_pair_apply_right (s₁ := S1600000) (s₂ := S1600000) (0 : Fin 1) _ _ _ e rfl rfl
      (ix1 (⟨(e 0).val - 1600000, by omega⟩ : Fin 1600000))
      (fun b hb => absurd (Subsingleton.elim _ _) hb)
      (by show (e 0).val - 1600000 + 1600000 = (e 0).val; omega)]
    have hq := h2 (ix1 (⟨(e 0).val - 1600000, by omega⟩ : Fin 1600000))
    omega

/-- The first user-item product is the sparse product of the concatenated features. -/
theorem v44_eq (x0 : FVec Ideal S100000x64 .f32) (x1 : FVec Ideal S50000x64 .f32) (x2 x3 : IVec S1600000 32) :
    val_main_v44 (F := Ideal) x0 x1 x2 x3
      = prodUI (val_main_v2 (F := Ideal) x2 x3) (val_main_v5 (F := Ideal) x2 x3) (val_main_v30 (F := Ideal) x2 x3)
          (val_main_v31 (F := Ideal) x0 x1) := rfl

/-- The second user-item product is the sparse product of the first layer. -/
theorem v59_eq (x0 : FVec Ideal S100000x64 .f32) (x1 : FVec Ideal S50000x64 .f32) (x2 x3 : IVec S1600000 32) :
    val_main_v59 (F := Ideal) x0 x1 x2 x3
      = prodUI (val_main_v2 (F := Ideal) x2 x3) (val_main_v5 (F := Ideal) x2 x3) (val_main_v30 (F := Ideal) x2 x3)
          (val_main_v45 (F := Ideal) x0 x1 x2 x3) := rfl

/-- The first layer: one propagation step with its residual from the features. -/
theorem v45_apply (x0 : FVec Ideal S100000x64 .f32) (x1 : FVec Ideal S50000x64 .f32) (x2 x3 : IVec S1600000 32)
    (h2 : ∀ e, 0 ≤ (x2 e).toInt ∧ (x2 e).toInt < 100000) (h3 : ∀ e, 0 ≤ (x3 e).toInt ∧ (x3 e).toInt < 50000)
    (p : Fin 150000) (j : Fin 64) :
    val_main_v45 (F := Ideal) x0 x1 x2 x3 (ix2 p j)
      = Model.stepRes (hW x2 x3) (tW x2 x3) (gW x2 x3) (embT x0 x1) p j := by
  rw [val_main_v45_apply, v44_eq, prodUI_apply _ _ _ _ (tW_range x2 x3 h2 h3) p j]
  rfl

/-- The sum of the three layers at a node. -/
theorem v61_apply (x0 : FVec Ideal S100000x64 .f32) (x1 : FVec Ideal S50000x64 .f32) (x2 x3 : IVec S1600000 32)
    (h2 : ∀ e, 0 ≤ (x2 e).toInt ∧ (x2 e).toInt < 100000) (h3 : ∀ e, 0 ≤ (x3 e).toInt ∧ (x3 e).toInt < 50000)
    (p : Fin 150000) (j : Fin 64) :
    val_main_v61 (F := Ideal) x0 x1 x2 x3 (ix2 p j)
      = Model.dccf (hW x2 x3) (tW x2 x3) (gW x2 x3) (embT x0 x1) p j := by
  have e45 : (fun a b => val_main_v45 (F := Ideal) x0 x1 x2 x3 (ix2 a b))
      = Model.stepRes (hW x2 x3) (tW x2 x3) (gW x2 x3) (embT x0 x1) :=
    funext fun a => funext fun b => v45_apply x0 x1 x2 x3 h2 h3 a b
  rw [val_main_v61_apply, val_main_v46_apply, val_main_v60_apply, v59_eq,
    prodUI_apply _ _ _ _ (tW_range x2 x3 h2 h3) p j, e45, v45_apply x0 x1 x2 x3 h2 h3 p j]
  rfl

/-- The first result: the users' rows of the user-item part. -/
theorem v62_apply (x0 : FVec Ideal S100000x64 .f32) (x1 : FVec Ideal S50000x64 .f32) (x2 x3 : IVec S1600000 32)
    (h2 : ∀ e, 0 ≤ (x2 e).toInt ∧ (x2 e).toInt < 100000) (h3 : ∀ e, 0 ≤ (x3 e).toInt ∧ (x3 e).toInt < 50000)
    (i : Fin 100000) (j : Fin 64) :
    val_main_v62 (F := Ideal) x0 x1 x2 x3 (ix2 i j)
      = Model.dccf (hW x2 x3) (tW x2 x3) (gW x2 x3) (embT x0 x1) ⟨i.val, by omega⟩ j := by
  have hi : idx_main_v62 (ix2 i j) = ix2 (⟨i.val, by omega⟩ : Fin 150000) j := by
    funext a; match a with | ⟨0, _⟩ => rfl | ⟨1, _⟩ => rfl
  rw [val_main_v62_apply, hi]
  exact v61_apply x0 x1 x2 x3 h2 h3 _ j

/-- The second result: the items' rows of the user-item part. -/
theorem v63_apply (x0 : FVec Ideal S100000x64 .f32) (x1 : FVec Ideal S50000x64 .f32) (x2 x3 : IVec S1600000 32)
    (h2 : ∀ e, 0 ≤ (x2 e).toInt ∧ (x2 e).toInt < 100000) (h3 : ∀ e, 0 ≤ (x3 e).toInt ∧ (x3 e).toInt < 50000)
    (i : Fin 50000) (j : Fin 64) :
    val_main_v63 (F := Ideal) x0 x1 x2 x3 (ix2 i j)
      = Model.dccf (hW x2 x3) (tW x2 x3) (gW x2 x3) (embT x0 x1) ⟨100000 + i.val, by omega⟩ j := by
  have hi : idx_main_v63 (ix2 i j) = ix2 (⟨100000 + i.val, by omega⟩ : Fin 150000) j := by
    funext a; match a with | ⟨0, _⟩ => rfl | ⟨1, _⟩ => rfl
  rw [val_main_v63_apply, hi]
  exact v61_apply x0 x1 x2 x3 h2 h3 _ j

/-- The users' first metapath product is the sparse product of the users' features. -/
theorem v101_eq (x0 : FVec Ideal S100000x64 .f32) (x4 x5 : IVec S1600000 32) :
    val_main_v101 (F := Ideal) x0 x4 x5 = prodU x4 x5 (val_main_v88 (F := Ideal) x4 x5) x0 := rfl

/-- The users' second metapath product is the sparse product of the first. -/
theorem v114_eq (x0 : FVec Ideal S100000x64 .f32) (x4 x5 : IVec S1600000 32) :
    val_main_v114 (F := Ideal) x0 x4 x5
      = prodU x4 x5 (val_main_v88 (F := Ideal) x4 x5) (val_main_v101 (F := Ideal) x0 x4 x5) := rfl

/-- The third result: the users' metapath part. -/
theorem v114_apply (x0 : FVec Ideal S100000x64 .f32) (x4 x5 : IVec S1600000 32)
    (h5 : ∀ e, 0 ≤ (x5 e).toInt ∧ (x5 e).toInt < 100000) (i : Fin 100000) (j : Fin 64) :
    val_main_v114 (F := Ideal) x0 x4 x5 (ix2 i j)
      = Model.han (fun e => x4 (ix1 e)) (fun e => x5 (ix1 e)) (wU x4 x5) (fun i j => x0 (ix2 i j)) i j := by
  have e101 : (fun a b => val_main_v101 (F := Ideal) x0 x4 x5 (ix2 a b))
      = Cert.Hand.spmm (fun e => x4 (ix1 e)) (fun e => x5 (ix1 e)) (wU x4 x5) (fun i j => x0 (ix2 i j)) :=
    funext fun a => funext fun b => by rw [v101_eq, prodU_apply _ _ _ _ h5 a b]; rfl
  rw [v114_eq, prodU_apply _ _ _ _ h5 i j, e101]
  rfl

/-- The items' first metapath product is the sparse product of the items' features. -/
theorem v152_eq (x1 : FVec Ideal S50000x64 .f32) (x6 x7 : IVec S800000 32) :
    val_main_v152 (F := Ideal) x1 x6 x7 = prodI x6 x7 (val_main_v139 (F := Ideal) x6 x7) x1 := rfl

/-- The items' second metapath product is the sparse product of the first. -/
theorem v165_eq (x1 : FVec Ideal S50000x64 .f32) (x6 x7 : IVec S800000 32) :
    val_main_v165 (F := Ideal) x1 x6 x7
      = prodI x6 x7 (val_main_v139 (F := Ideal) x6 x7) (val_main_v152 (F := Ideal) x1 x6 x7) := rfl

/-- The fourth result: the items' metapath part. -/
theorem v165_apply (x1 : FVec Ideal S50000x64 .f32) (x6 x7 : IVec S800000 32)
    (h7 : ∀ e, 0 ≤ (x7 e).toInt ∧ (x7 e).toInt < 50000) (i : Fin 50000) (j : Fin 64) :
    val_main_v165 (F := Ideal) x1 x6 x7 (ix2 i j)
      = Model.han (fun e => x6 (ix1 e)) (fun e => x7 (ix1 e)) (wI x6 x7) (fun i j => x1 (ix2 i j)) i j := by
  have e152 : (fun a b => val_main_v152 (F := Ideal) x1 x6 x7 (ix2 a b))
      = Cert.Hand.spmm (fun e => x6 (ix1 e)) (fun e => x7 (ix1 e)) (wI x6 x7) (fun i j => x1 (ix2 i j)) :=
    funext fun a => funext fun b => by rw [v152_eq, prodI_apply _ _ _ _ h7 a b]; rfl
  rw [v165_eq, prodI_apply _ _ _ _ h7 i j, e152]
  rfl

end Cert.ReferenceIdeal.Hand

end
-- ==== Proof.Bridge.Prefix.lean ====
/-
  The host prefix the kernel's program and the reference share.

  Both programs begin with the same host operations on the arguments. For the user-item graph: the edge lists
  h = ui_u ++ (ui_i + 100000) and t = (ui_i + 100000) ++ ui_u; the degree d = scatter-add of ones at h; the factor
  s = d^(-1/2) where d > 0 and 0 elsewhere (computed as select (d > 0) (rsqrt (max d 1)) 0); the edge weight
  w = s[h] * s[t] (two gathers and a product, each index wrapped by +150000 where negative); and the joined table
  emb = user_feat ++ item_feat. For each of the two metapath graphs the same weight w = s[r] * s[c] from its own two
  index arguments, at its own sizes.

  On the kernel's side these are buffers of the valuations between the items of @main; on the reference's side they are
  its stage functions of the arguments. Each theorem below says that the two are the same function of the arguments.

  The road, the same for the three weights. A valuation is carried as an opaque function W together with equations for
  the few buffers the next stretch of host operations reads; the stretch's operations are read off the fold at the
  buffer wanted; the equations are rewritten in; what is left is that one stretch of the reference's stage functions,
  which unfolds to the same operations. A buffer no later stretch writes, and no region's result, keeps its contents up
  to the valuation the statement names.
-/
import proofs.«130096_j52458730553647_1_alg».proof.Proof.KernelIdealRegions
import proofs.«130096_j52458730553647_1_alg».proof.Proof.RefRead

-- memberships among the 335 references are decided past the default depth
set_option maxRecDepth 1852

noncomputable section

namespace Cert.Hand.Bridge

open Idealize.ShloMosaic Idealize.ShloMosaic.TcCoe Idealize.ShloMosaic.StableHlo Idealize.SL.Sem
open Cert.KernelIdeal Cert.KernelIdeal.Gen
open Cert.ReferenceIdeal.Read

variable {F : FTy → Type} [FloatOps F]
variable (m : (ℓ : Loc nD τ sig) → Buf (Elt F) ℓ) (c : Dev nD)

/-! ## The arguments at launch -/

theorem arg0_V0 : V0 m c main_arg0 = m ((c : Thread nD τ).loc main_arg0) := rfl
theorem arg1_V0 : V0 m c main_arg1 = m ((c : Thread nD τ).loc main_arg1) := rfl
theorem arg2_V0 : V0 m c main_arg2 = m ((c : Thread nD τ).loc main_arg2) := rfl
theorem arg3_V0 : V0 m c main_arg3 = m ((c : Thread nD τ).loc main_arg3) := rfl
theorem arg4_V0 : V0 m c main_arg4 = m ((c : Thread nD τ).loc main_arg4) := rfl
theorem arg5_V0 : V0 m c main_arg5 = m ((c : Thread nD τ).loc main_arg5) := rfl
theorem arg6_V0 : V0 m c main_arg6 = m ((c : Thread nD τ).loc main_arg6) := rfl
theorem arg7_V0 : V0 m c main_arg7 = m ((c : Thread nD τ).loc main_arg7) := rfl

/-! ## The user-item graph: h, t, the weight w, the joined table -/

/-- h = ui_u ++ (ui_i + 100000), after the first stretch. -/
theorem v2_V1 : V1 m c main_v2
    = val_main_v2 (F := F) (m ((c : Thread nD τ).loc main_arg2)) (m ((c : Thread nD τ).loc main_arg3)) := by
  show StableHlo.after hostOps0 (V0 m c) (Proc.devRef .tc main_v2) = _
  after_results
  rfl

/-- t = (ui_i + 100000) ++ ui_u, after the first stretch. -/
theorem v5_V1 : V1 m c main_v5
    = val_main_v5 (F := F) (m ((c : Thread nD τ).loc main_arg2)) (m ((c : Thread nD τ).loc main_arg3)) := by
  show StableHlo.after hostOps0 (V0 m c) (Proc.devRef .tc main_v5) = _
  after_results
  rfl

/-- d > 0, with d the scatter-add of ones at h. -/
theorem v11_V1 : V1 m c main_v11
    = val_main_v11 (F := F) (m ((c : Thread nD τ).loc main_arg2)) (m ((c : Thread nD τ).loc main_arg3)) := by
  show StableHlo.after hostOps0 (V0 m c) (Proc.devRef .tc main_v11) = _
  after_results
  rfl

/-- rsqrt (max d 1). -/
theorem v14_V1 : V1 m c main_v14
    = val_main_v14 (F := F) (m ((c : Thread nD τ).loc main_arg2)) (m ((c : Thread nD τ).loc main_arg3)) := by
  show StableHlo.after hostOps0 (V0 m c) (Proc.devRef .tc main_v14) = _
  after_results
  rfl

/-- The constant 0 the select falls back to. -/
theorem cst4_V1 : V1 m c main_cst_4 = val_main_cst_4 (F := F) := by
  show StableHlo.after hostOps0 (V0 m c) (Proc.devRef .tc main_cst_4) = _
  after_results
  rfl

/-- s = select (d > 0) (rsqrt (max d 1)) 0: the second stretch reads the three buffers above and nothing else. The
    stretch is a called function's body, whose operands are moved along the identity between a buffer's own type and
    the type the call names; those transports are the identity. -/
theorem v15_V2 : V2 m c main_v15
    = val_main_v15 (F := F) (m ((c : Thread nD τ).loc main_arg2)) (m ((c : Thread nD τ).loc main_arg3)) := by
  have e11 := v11_V1 m c
  have e14 := v14_V1 m c
  have e4 := cst4_V1 m c
  show StableHlo.after hostOps0_1 (V1 m c) (Proc.devRef .tc main_v15) = _
  generalize V1 m c = W at e11 e14 e4 ⊢
  after_results
  simp only [TRef.ofBuf, TRef.toBuf, cast_eq]
  rw [e11, e14, e4]
  rfl

/-- The second stretch writes neither h nor t. -/
theorem v2_V2 : V2 m c main_v2
    = val_main_v2 (F := F) (m ((c : Thread nD τ).loc main_arg2)) (m ((c : Thread nD τ).loc main_arg3)) :=
  (V2_of m c main_v2 (by decide)).trans (v2_V1 m c)

theorem v5_V2 : V2 m c main_v5
    = val_main_v5 (F := F) (m ((c : Thread nD τ).loc main_arg2)) (m ((c : Thread nD τ).loc main_arg3)) :=
  (V2_of m c main_v5 (by decide)).trans (v5_V1 m c)

/-- w = s[h] * s[t]: the third stretch reads s, h and t. -/
theorem v30_V3 : V3 m c main_v30
    = val_main_v30 (F := F) (m ((c : Thread nD τ).loc main_arg2)) (m ((c : Thread nD τ).loc main_arg3)) := by
  have e15 := v15_V2 m c
  have e2 := v2_V2 m c
  have e5 := v5_V2 m c
  show StableHlo.after hostOps0_2 (V2 m c) (Proc.devRef .tc main_v30) = _
  generalize V2 m c = W at e15 e2 e5 ⊢
  after_results_simp
  rw [e15, e2, e5]
  rfl

/-- emb = user_feat ++ item_feat: the third stretch reads the two arguments, which nothing before it writes. -/
theorem v31_V3 : V3 m c main_v31
    = val_main_v31 (F := F) (m ((c : Thread nD τ).loc main_arg0)) (m ((c : Thread nD τ).loc main_arg1)) := by
  have e0 : V2 m c main_arg0 = m ((c : Thread nD τ).loc main_arg0) :=
    (V2_of m c main_arg0 (by decide)).trans (V1_of m c main_arg0 (by decide))
  have e1 : V2 m c main_arg1 = m ((c : Thread nD τ).loc main_arg1) :=
    (V2_of m c main_arg1 (by decide)).trans (V1_of m c main_arg1 (by decide))
  show StableHlo.after hostOps0_2 (V2 m c) (Proc.devRef .tc main_v31) = _
  generalize V2 m c = W at e0 e1 ⊢
  after_results
  rw [e0, e1]
  rfl

/-- No stretch after the first writes h. -/
theorem v2_eq : V11 m c main_v2
    = val_main_v2 (F := F) (m ((c : Thread nD τ).loc main_arg2)) (m ((c : Thread nD τ).loc main_arg3)) :=
  (V11_of m c main_v2 (by decide)).trans <| (V10_of m c main_v2 (by decide)).trans <|
  (V9_of m c main_v2 (by decide)).trans <| (V8_of m c main_v2 (by decide)).trans <|
  (V7_of m c main_v2 (by decide)).trans <| (V6_of m c main_v2 (by decide)).trans <|
  (V5_of m c main_v2 (by decide)).trans <| (V4_of m c main_v2 (by decide)).trans <|
  (V3_of m c main_v2 (by decide)).trans <| (V2_of m c main_v2 (by decide)).trans <| v2_V1 m c

/-- No stretch after the first writes t. -/
theorem v5_eq : V11 m c main_v5
    = val_main_v5 (F := F) (m ((c : Thread nD τ).loc main_arg2)) (m ((c : Thread nD τ).loc main_arg3)) :=
  (V11_of m c main_v5 (by decide)).trans <| (V10_of m c main_v5 (by decide)).trans <|
  (V9_of m c main_v5 (by decide)).trans <| (V8_of m c main_v5 (by decide)).trans <|
  (V7_of m c main_v5 (by decide)).trans <| (V6_of m c main_v5 (by decide)).trans <|
  (V5_of m c main_v5 (by decide)).trans <| (V4_of m c main_v5 (by decide)).trans <|
  (V3_of m c main_v5 (by decide)).trans <| (V2_of m c main_v5 (by decide)).trans <| v5_V1 m c

/-- No stretch after the third writes w. -/
theorem v30_eq : V11 m c main_v30
    = val_main_v30 (F := F) (m ((c : Thread nD τ).loc main_arg2)) (m ((c : Thread nD τ).loc main_arg3)) :=
  (V11_of m c main_v30 (by decide)).trans <| (V10_of m c main_v30 (by decide)).trans <|
  (V9_of m c main_v30 (by decide)).trans <| (V8_of m c main_v30 (by decide)).trans <|
  (V7_of m c main_v30 (by decide)).trans <| (V6_of m c main_v30 (by decide)).trans <|
  (V5_of m c main_v30 (by decide)).trans <| (V4_of m c main_v30 (by decide)).trans <| v30_V3 m c

/-- No stretch after the third writes the joined table. -/
theorem v31_eq : V11 m c main_v31
    = val_main_v31 (F := F) (m ((c : Thread nD τ).loc main_arg0)) (m ((c : Thread nD τ).loc main_arg1)) :=
  (V11_of m c main_v31 (by decide)).trans <| (V10_of m c main_v31 (by decide)).trans <|
  (V9_of m c main_v31 (by decide)).trans <| (V8_of m c main_v31 (by decide)).trans <|
  (V7_of m c main_v31 (by decide)).trans <| (V6_of m c main_v31 (by decide)).trans <|
  (V5_of m c main_v31 (by decide)).trans <| (V4_of m c main_v31 (by decide)).trans <| v31_V3 m c

/-! ## The metapath graphs' index arguments reach their stretches as launched -/

variable (outs : Outs (F := F))

/-- Up to the item before the first metapath's host operations, no stretch writes one of the four index arguments of
    the metapath graphs and no region's result is one of them. -/
theorem args_V24 (r : Ref sig .tc) (h : r = main_arg4 ∨ r = main_arg5 ∨ r = main_arg6 ∨ r = main_arg7) :
    V24 m outs c r = V0 m c r := by
  rcases h with rfl | rfl | rfl | rfl <;>
  exact (V24_of m outs c _ (by decide)).trans <| (V23_of m outs c _ (by decide)).trans <|
    (V22_of m outs c _ (by decide)).trans <| (V21_of m outs c _ (by decide)).trans <|
    (V20_of m outs c _ (by decide)).trans <| (V19_of m outs c _ (by decide)).trans <|
    (V18_of m outs c _ (by decide)).trans <| (V17_of m outs c _ (by decide)).trans <|
    (V16_of m outs c _ (by decide)).trans <| (V15_of m outs c _ (by decide)).trans <|
    (V14_of m outs c _ (by decide)).trans <| (V13_of m outs c _ (by decide)).trans <|
    (V12_of m outs c _ (by decide)).trans <| (V11_of m c _ (by decide)).trans <|
    (V10_of m c _ (by decide)).trans <| (V9_of m c _ (by decide)).trans <|
    (V8_of m c _ (by decide)).trans <| (V7_of m c _ (by decide)).trans <|
    (V6_of m c _ (by decide)).trans <| (V5_of m c _ (by decide)).trans <|
    (V4_of m c _ (by decide)).trans <| (V3_of m c _ (by decide)).trans <|
    (V2_of m c _ (by decide)).trans <| (V1_of m c _ (by decide))

/-- The same up to the item before the second metapath's host operations, for its two index arguments. -/
theorem args_V48 (r : Ref sig .tc) (h : r = main_arg6 ∨ r = main_arg7) :
    V48 m outs c r = V0 m c r := by
  rcases h with rfl | rfl <;>
  exact (V48_of m outs c _ (by decide)).trans <| (V47_of m outs c _ (by decide)).trans <|
    (V46_of m outs c _ (by decide)).trans <| (V45_of m outs c _ (by decide)).trans <|
    (V44_of m outs c _ (by decide)).trans <| (V43_of m outs c _ (by decide)).trans <|
    (V42_of m outs c _ (by decide)).trans <| (V41_of m outs c _ (by decide)).trans <|
    (V40_of m outs c _ (by decide)).trans <| (V39_of m outs c _ (by decide)).trans <|
    (V38_of m outs c _ (by decide)).trans <| (V37_of m outs c _ (by decide)).trans <|
    (V36_of m outs c _ (by decide)).trans <| (V35_of m outs c _ (by decide)).trans <|
    (V34_of m outs c _ (by decide)).trans <| (V33_of m outs c _ (by decide)).trans <|
    (V32_of m outs c _ (by decide)).trans <| (V31_of m outs c _ (by decide)).trans <|
    (V30_of m outs c _ (by decide)).trans <| (V29_of m outs c _ (by decide)).trans <|
    (V28_of m outs c _ (by decide)).trans <| (V27_of m outs c _ (by decide)).trans <|
    (V26_of m outs c _ (by decide)).trans <| (V25_of m outs c _ (by decide)).trans <|
    args_V24 m c outs _ (by decide)

/-! ## The first metapath graph: w = s[r] * s[c] from arguments 4 and 5 -/

theorem arg4_V24 : V24 m outs c main_arg4 = m ((c : Thread nD τ).loc main_arg4) :=
  args_V24 m c outs main_arg4 (by decide)

theorem arg5_V24 : V24 m outs c main_arg5 = m ((c : Thread nD τ).loc main_arg5) :=
  args_V24 m c outs main_arg5 (by decide)

/-- d > 0, with d the scatter-add of ones at the row indices. -/
theorem v63_V25 : V25 m outs c main_v63 = val_main_v69 (F := F) (m ((c : Thread nD τ).loc main_arg4)) := by
  have e4 := arg4_V24 m c outs
  show StableHlo.after hostOps4 (V24 m outs c) (Proc.devRef .tc main_v63) = _
  generalize V24 m outs c = W at e4 ⊢
  after_results
  rw [e4]
  rfl

/-- rsqrt (max d 1). -/
theorem v66_V25 : V25 m outs c main_v66 = val_main_v72 (F := F) (m ((c : Thread nD τ).loc main_arg4)) := by
  have e4 := arg4_V24 m c outs
  show StableHlo.after hostOps4 (V24 m outs c) (Proc.devRef .tc main_v66) = _
  generalize V24 m outs c = W at e4 ⊢
  after_results
  rw [e4]
  rfl

/-- The constant 0 the select falls back to. -/
theorem cst21_V25 : V25 m outs c main_cst_21 = val_main_cst_19 (F := F) := by
  show StableHlo.after hostOps4 (V24 m outs c) (Proc.devRef .tc main_cst_21) = _
  generalize V24 m outs c = W
  after_results
  rfl

/-- s = select (d > 0) (rsqrt (max d 1)) 0. -/
theorem v67_V26 : V26 m outs c main_v67 = val_main_v73 (F := F) (m ((c : Thread nD τ).loc main_arg4)) := by
  have ec := v63_V25 m c outs
  have er := v66_V25 m c outs
  have e0 := cst21_V25 m c outs
  show StableHlo.after hostOps4_1 (V25 m outs c) (Proc.devRef .tc main_v67) = _
  generalize V25 m outs c = W at ec er e0 ⊢
  after_results
  simp only [TRef.ofBuf, TRef.toBuf, cast_eq]
  rw [ec, er, e0]
  rfl

/-- w = s[r] * s[c]: the stretch reads s and the two index arguments. -/
theorem v82_V27 : V27 m outs c main_v82
    = val_main_v88 (F := F) (m ((c : Thread nD τ).loc main_arg4)) (m ((c : Thread nD τ).loc main_arg5)) := by
  have es := v67_V26 m c outs
  have e4 : V26 m outs c main_arg4 = m ((c : Thread nD τ).loc main_arg4) :=
    (V26_of m outs c main_arg4 (by decide)).trans <| (V25_of m outs c main_arg4 (by decide)).trans <| arg4_V24 m c outs
  have e5 : V26 m outs c main_arg5 = m ((c : Thread nD τ).loc main_arg5) :=
    (V26_of m outs c main_arg5 (by decide)).trans <| (V25_of m outs c main_arg5 (by decide)).trans <| arg5_V24 m c outs
  show StableHlo.after hostOps4_2 (V26 m outs c) (Proc.devRef .tc main_v82) = _
  generalize V26 m outs c = W at es e4 e5 ⊢
  after_results_simp
  rw [es, e4, e5]
  rfl

/-- No later stretch before the region writes w. -/
theorem v82_eq : V35 m outs c main_v82
    = val_main_v88 (F := F) (m ((c : Thread nD τ).loc main_arg4)) (m ((c : Thread nD τ).loc main_arg5)) :=
  (V35_of m outs c main_v82 (by decide)).trans <| (V34_of m outs c main_v82 (by decide)).trans <|
  (V33_of m outs c main_v82 (by decide)).trans <| (V32_of m outs c main_v82 (by decide)).trans <|
  (V31_of m outs c main_v82 (by decide)).trans <| (V30_of m outs c main_v82 (by decide)).trans <|
  (V29_of m outs c main_v82 (by decide)).trans <| (V28_of m outs c main_v82 (by decide)).trans <| v82_V27 m c outs

/-! ## The second metapath graph: w = s[r] * s[c] from arguments 6 and 7 -/

theorem arg6_V48 : V48 m outs c main_arg6 = m ((c : Thread nD τ).loc main_arg6) :=
  args_V48 m c outs main_arg6 (by decide)

theorem arg7_V48 : V48 m outs c main_arg7 = m ((c : Thread nD τ).loc main_arg7) :=
  args_V48 m c outs main_arg7 (by decide)

/-- d > 0, with d the scatter-add of ones at the row indices. -/
theorem v108_V49 : V49 m outs c main_v108 = val_main_v120 (F := F) (m ((c : Thread nD τ).loc main_arg6)) := by
  have e6 := arg6_V48 m c outs
  show StableHlo.after hostOps8 (V48 m outs c) (Proc.devRef .tc main_v108) = _
  generalize V48 m outs c = W at e6 ⊢
  after_results
  rw [e6]
  rfl

/-- rsqrt (max d 1). -/
theorem v111_V49 : V49 m outs c main_v111 = val_main_v123 (F := F) (m ((c : Thread nD τ).loc main_arg6)) := by
  have e6 := arg6_V48 m c outs
  show StableHlo.after hostOps8 (V48 m outs c) (Proc.devRef .tc main_v111) = _
  generalize V48 m outs c = W at e6 ⊢
  after_results
  rw [e6]
  rfl

/-- The constant 0 the select falls back to. -/
theorem cst38_V49 : V49 m outs c main_cst_38 = val_main_cst_34 (F := F) := by
  show StableHlo.after hostOps8 (V48 m outs c) (Proc.devRef .tc main_cst_38) = _
  generalize V48 m outs c = W
  after_results
  rfl

/-- s = select (d > 0) (rsqrt (max d 1)) 0. -/
theorem v112_V50 : V50 m outs c main_v112 = val_main_v124 (F := F) (m ((c : Thread nD τ).loc main_arg6)) := by
  have ec := v108_V49 m c outs
  have er := v111_V49 m c outs
  have e0 := cst38_V49 m c outs
  show StableHlo.after hostOps8_1 (V49 m outs c) (Proc.devRef .tc main_v112) = _
  generalize V49 m outs c = W at ec er e0 ⊢
  after_results
  simp only [TRef.ofBuf, TRef.toBuf, cast_eq]
  rw [ec, er, e0]
  rfl

/-- w = s[r] * s[c]: the stretch reads s and the two index arguments. -/
theorem v127_V51 : V51 m outs c main_v127
    = val_main_v139 (F := F) (m ((c : Thread nD τ).loc main_arg6)) (m ((c : Thread nD τ).loc main_arg7)) := by
  have es := v112_V50 m c outs
  have e6 : V50 m outs c main_arg6 = m ((c : Thread nD τ).loc main_arg6) :=
    (V50_of m outs c main_arg6 (by decide)).trans <| (V49_of m outs c main_arg6 (by decide)).trans <| arg6_V48 m c outs
  have e7 : V50 m outs c main_arg7 = m ((c : Thread nD τ).loc main_arg7) :=
    (V50_of m outs c main_arg7 (by decide)).trans <| (V49_of m outs c main_arg7 (by decide)).trans <| arg7_V48 m c outs
  show StableHlo.after hostOps8_2 (V50 m outs c) (Proc.devRef .tc main_v127) = _
  generalize V50 m outs c = W at es e6 e7 ⊢
  after_results_simp
  rw [es, e6, e7]
  rfl

/-- No later stretch before the region writes w. -/
theorem v127_eq : V59 m outs c main_v127
    = val_main_v139 (F := F) (m ((c : Thread nD τ).loc main_arg6)) (m ((c : Thread nD τ).loc main_arg7)) :=
  (V59_of m outs c main_v127 (by decide)).trans <| (V58_of m outs c main_v127 (by decide)).trans <|
  (V57_of m outs c main_v127 (by decide)).trans <| (V56_of m outs c main_v127 (by decide)).trans <|
  (V55_of m outs c main_v127 (by decide)).trans <| (V54_of m outs c main_v127 (by decide)).trans <|
  (V53_of m outs c main_v127 (by decide)).trans <| (V52_of m outs c main_v127 (by decide)).trans <| v127_V51 m c outs

end Cert.Hand.Bridge
-- ==== Proof.Algebraic.lean ====
/-
  The equivalence over the extended reals. Entry by entry, both programs' results are one outer computation over the sparse
  product: on the user-item graph two propagation steps with a residual each, the three layers summed (Model.dccf); on each
  metapath graph two plain steps (Model.han). The kernel reaches it through its one-hot matrix products over padded, blocked
  edge lists, with no condition on the index words; the reference through its scatter-add of gathered rows, which names the
  same rows once the gathered column indices are in range: that is what the precondition says. The edge lists, the
  normalisation weights and the concatenated feature table are computed by the same host operations in both programs, so they
  are the same functions of the arguments, and the arguments agree.
-/
import proofs.«130096_j52458730553647_1_alg».proof.Defs
import proofs.«130096_j52458730553647_1_alg».proof.Proof.Gen.Pre_finite_inputs
import proofs.«130096_j52458730553647_1_alg».proof.Proof.KI.Run
import proofs.«130096_j52458730553647_1_alg».proof.Proof.KI.GlueFinal
import proofs.«130096_j52458730553647_1_alg».proof.Proof.Ref.Pre
import proofs.«130096_j52458730553647_1_alg».proof.Proof.Ref.Results
import proofs.«130096_j52458730553647_1_alg».proof.Proof.Bridge.Prefix
import Idealize.ShloMosaic.Lib.ValueIdx

set_option maxRecDepth 16384

noncomputable section

namespace Cert.Proof.Alg

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (c : Dev Cert.KernelIdeal.nD)

/-! ## The kernel's prefix buffers are the reference's stage functions at the kernel's arguments -/

theorem hK_eq : Cert.KernelIdeal.Hand.hK m c = Cert.ReferenceIdeal.Hand.hW (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext e; exact congrFun (Cert.Hand.Bridge.v2_eq (F := Ideal) m c) (ix1 e)

theorem tK_eq : Cert.KernelIdeal.Hand.tK m c = Cert.ReferenceIdeal.Hand.tW (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext e; exact congrFun (Cert.Hand.Bridge.v5_eq (F := Ideal) m c) (ix1 e)

theorem gK_eq : Cert.KernelIdeal.Hand.gK m c = Cert.ReferenceIdeal.Hand.gW (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext e; exact congrFun (Cert.Hand.Bridge.v30_eq (F := Ideal) m c) (ix1 e)

theorem embK_eq : Cert.KernelIdeal.Hand.embK m c = Cert.ReferenceIdeal.Hand.embT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  funext i j; exact congrFun (Cert.Hand.Bridge.v31_eq (F := Ideal) m c) (ix2 i j)

theorem wU_eq : Cert.KernelIdeal.Hand.wU m c = Cert.ReferenceIdeal.Hand.wU (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext e; exact congrFun (Cert.Hand.Bridge.v82_eq (F := Ideal) m c (Cert.KernelIdeal.Hand.outs m)) (ix1 e)

theorem wI_eq : Cert.KernelIdeal.Hand.wI m c = Cert.ReferenceIdeal.Hand.wI (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  funext e; exact congrFun (Cert.Hand.Bridge.v127_eq (F := Ideal) m c (Cert.KernelIdeal.Hand.outs m)) (ix1 e)

/-! ## The claim -/

theorem algebraic : Cert.algebraic_KernelIdeal_ReferenceIdeal := by
  intro m g m' g' hpre hagree
  refine ⟨fun c => Cert.KernelIdeal.Gen.V73 m (Cert.KernelIdeal.Hand.outs m) c Cert.KernelIdeal.main_v56,
    fun c => Cert.KernelIdeal.Gen.V73 m (Cert.KernelIdeal.Hand.outs m) c Cert.KernelIdeal.main_v57,
    fun c => Cert.KernelIdeal.Gen.V73 m (Cert.KernelIdeal.Hand.outs m) c Cert.KernelIdeal.main_v102,
    fun c => Cert.KernelIdeal.Gen.V73 m (Cert.KernelIdeal.Hand.outs m) c Cert.KernelIdeal.main_v147, ?_, ?_⟩
  · -- the kernel: every unscoped buffer ends at the last valuation; no item writes an argument
    exact (θ_run Cert.KernelIdeal.defs _ _).mono (fun r h c =>
      ⟨h c _ (Cert.KernelIdeal.Hand.mem_ucRefs Cert.KernelIdeal.main_v56 (by decide)),
        h c _ (Cert.KernelIdeal.Hand.mem_ucRefs Cert.KernelIdeal.main_v57 (by decide)),
        h c _ (Cert.KernelIdeal.Hand.mem_ucRefs Cert.KernelIdeal.main_v102 (by decide)),
        h c _ (Cert.KernelIdeal.Hand.mem_ucRefs Cert.KernelIdeal.main_v147 (by decide)),
        (h c _ (Cert.KernelIdeal.Hand.mem_ucRefs Cert.KernelIdeal.main_arg0 (by decide))).trans (Cert.KernelIdeal.Gen.V73_main_arg0 m (Cert.KernelIdeal.Hand.outs m) c),
        (h c _ (Cert.KernelIdeal.Hand.mem_ucRefs Cert.KernelIdeal.main_arg1 (by decide))).trans (Cert.KernelIdeal.Gen.V73_main_arg1 m (Cert.KernelIdeal.Hand.outs m) c),
        (h c _ (Cert.KernelIdeal.Hand.mem_ucRefs Cert.KernelIdeal.main_arg2 (by decide))).trans (Cert.KernelIdeal.Gen.V73_main_arg2 m (Cert.KernelIdeal.Hand.outs m) c),
        (h c _ (Cert.KernelIdeal.Hand.mem_ucRefs Cert.KernelIdeal.main_arg3 (by decide))).trans (Cert.KernelIdeal.Gen.V73_main_arg3 m (Cert.KernelIdeal.Hand.outs m) c),
        (h c _ (Cert.KernelIdeal.Hand.mem_ucRefs Cert.KernelIdeal.main_arg4 (by decide))).trans (Cert.KernelIdeal.Gen.V73_main_arg4 m (Cert.KernelIdeal.Hand.outs m) c),
        (h c _ (Cert.KernelIdeal.Hand.mem_ucRefs Cert.KernelIdeal.main_arg5 (by decide))).trans (Cert.KernelIdeal.Gen.V73_main_arg5 m (Cert.KernelIdeal.Hand.outs m) c),
        (h c _ (Cert.KernelIdeal.Hand.mem_ucRefs Cert.KernelIdeal.main_arg6 (by decide))).trans (Cert.KernelIdeal.Gen.V73_main_arg6 m (Cert.KernelIdeal.Hand.outs m) c),
        (h c _ (Cert.KernelIdeal.Hand.mem_ucRefs Cert.KernelIdeal.main_arg7 (by decide))).trans (Cert.KernelIdeal.Gen.V73_main_arg7 m (Cert.KernelIdeal.Hand.outs m) c)⟩)
      (Cert.KernelIdeal.Hand.run m g)
  · -- the reference: its run's results are its stage functions of the arguments, which are the kernel's arguments
    refine (θ_run Cert.ReferenceIdeal.defs _ _).mono (fun r h c => ?_) (Cert.ReferenceIdeal.Value.run (F := Ideal) m' g')
    obtain ⟨h62, h63, h114, h165, hargs⟩ := h c
    obtain ⟨e0, e1, e2, e3, e4, e5, e6, e7⟩ := hagree c
    obtain ⟨r2, r3, r5, r7⟩ := Cert.ReferenceIdeal.Hand.ranges_of_pre _ _ _ _ _ _ _ _ (hpre c)
    refine ⟨h62.trans ?_, h63.trans ?_, h114.trans ?_, h165.trans ?_, hargs⟩
    · rw [Cert.ReferenceIdeal.Read.val_main_v62_eq m' c, e0, e1, e2, e3]
      funext idx
      obtain ⟨i, j, rfl⟩ : ∃ (i : Fin 100000) (j : Fin 64), idx = ix2 i j := ⟨idx 0, idx 1, eq_ix2 idx⟩
      rw [Cert.ReferenceIdeal.Hand.v62_apply _ _ _ _ r2 r3 i j]
      refine Eq.trans ?_ (Cert.KernelIdeal.Hand.val_main_v56 m c i j).symm
      rw [hK_eq m c, tK_eq m c, gK_eq m c, embK_eq m c]
    · rw [Cert.ReferenceIdeal.Read.val_main_v63_eq m' c, e0, e1, e2, e3]
      funext idx
      obtain ⟨i, j, rfl⟩ : ∃ (i : Fin 50000) (j : Fin 64), idx = ix2 i j := ⟨idx 0, idx 1, eq_ix2 idx⟩
      rw [Cert.ReferenceIdeal.Hand.v63_apply _ _ _ _ r2 r3 i j]
      refine Eq.trans ?_ (Cert.KernelIdeal.Hand.val_main_v57 m c i j).symm
      rw [hK_eq m c, tK_eq m c, gK_eq m c, embK_eq m c]
    · rw [Cert.ReferenceIdeal.Read.val_main_v114_eq m' c, e0, e4, e5]
      funext idx
      obtain ⟨i, j, rfl⟩ : ∃ (i : Fin 100000) (j : Fin 64), idx = ix2 i j := ⟨idx 0, idx 1, eq_ix2 idx⟩
      rw [Cert.ReferenceIdeal.Hand.v114_apply _ _ _ r5 i j]
      refine Eq.trans ?_ (Cert.KernelIdeal.Hand.val_main_v102 m c i j).symm
      rw [wU_eq m c]
    · rw [Cert.ReferenceIdeal.Read.val_main_v165_eq m' c, e1, e6, e7]
      funext idx
      obtain ⟨i, j, rfl⟩ : ∃ (i : Fin 50000) (j : Fin 64), idx = ix2 i j := ⟨idx 0, idx 1, eq_ix2 idx⟩
      rw [Cert.ReferenceIdeal.Hand.v165_apply _ _ _ r7 i j]
      refine Eq.trans ?_ (Cert.KernelIdeal.Hand.val_main_v147 m c i j).symm
      rw [wI_eq m c]

end Cert.Proof.Alg

end
-- ==== Proof.lean ====
/-
  The certificate of the sparse-propagation kernel against its jnp reference.

  The kernel computes each sparse product  y[i] = sum over the edges e with row index i of  w[e] * x[col[e]]  by two
  pallas_calls. The gather call multiplies, tile of 1024 nodes by tile, the one-hot matrix of a chunk of 8192 column indices
  with the feature rows of the tile, accumulating over the tiles of a zero-padded table: the accumulated row of an edge is the
  feature row its column index names (the zero row when the index is outside the padded table), which the last tile's step
  scales by the edge's weight. The scatter call multiplies, chunk by chunk, the one-hot matrix of a node tile against the
  chunk's row indices with the gathered rows, accumulating over the chunks of the zero-padded edge list: a node's row is the
  sum of the gathered rows of the edges whose row index is that node; padded edges carry weight zero. Six such products (two
  residual steps on the user-item graph, two plain steps on each metapath graph) sit between host operations that both
  programs share.

  Frames: each of the twelve regions is run by the pipeline rule from proof data that names, point by point, what the carried
  accumulator holds (a recursion over the grid, reset at each first reduction step) and what the result's staging buffer holds
  after the last reduction step; the regions and the host stretches between them compose along the program. The reference has no
  kernel: its frame is its run with the results dropped.

  Equivalence over the extended reals: both programs' results are, entry by entry, one outer computation over the canonical
  sparse product; the reference's gather names the same rows as the kernel's one-hot product exactly when the gathered column
  indices lie in their tables, which is the precondition's index-range conjuncts (user ids below 100000, item ids below 50000).
  No operation of the kernel is rewritten by the idealization, so the preservation conjunct is trivial.
-/
import proofs.«130096_j52458730553647_1_alg».proof.Defs
import proofs.«130096_j52458730553647_1_alg».proof.Proof.Gen.Kernel
import proofs.«130096_j52458730553647_1_alg».proof.Proof.Gen.KernelIdeal
import proofs.«130096_j52458730553647_1_alg».proof.Proof.Gen.ReferenceIdeal
import proofs.«130096_j52458730553647_1_alg».proof.Proof.Gen.Pre_finite_inputs
import proofs.«130096_j52458730553647_1_alg».proof.Proof.K.Run
import proofs.«130096_j52458730553647_1_alg».proof.Proof.KI.Run
import proofs.«130096_j52458730553647_1_alg».proof.Proof.Ref.Frame
import proofs.«130096_j52458730553647_1_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.ReferenceIdeal.Hand.frame,
  trivial,
  Cert.Proof.Alg.algebraic⟩

end Cert.Proof

end
